-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v337)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v337) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v794) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024 : Shape := ⟨2, ![2, 1024]⟩
abbrev S50257x1024 : Shape := ⟨2, ![50257, 1024]⟩
abbrev S1024 : Shape := ⟨1, ![1024]⟩
abbrev S4x1024 : Shape := ⟨2, ![4, 1024]⟩
abbrev S4x1024x1024 : Shape := ⟨3, ![4, 1024, 1024]⟩
abbrev S4x4096x1024 : Shape := ⟨3, ![4, 4096, 1024]⟩
abbrev S4x1024x4096 : Shape := ⟨3, ![4, 1024, 4096]⟩
abbrev S_ : Shape := ⟨0, ![]⟩

class Facts : Prop where
  bcast_S_S50257x1024 : S_.BroadcastsInDim S50257x1024 (![] : Fin 0 → Fin S50257x1024.rank)
  reducesTo_S50257x1024_S_d0_1 : S50257x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S4x1024 : S_.BroadcastsInDim S4x1024 (![] : Fin 0 → Fin S4x1024.rank)
  reducesTo_S4x1024_S_d0_1 : S4x1024.ReducesTo [0, 1] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x4096x1024 : S_.BroadcastsInDim S4x4096x1024 (![] : Fin 0 → Fin S4x4096x1024.rank)
  reducesTo_S4x4096x1024_S_d0_1_2 : S4x4096x1024.ReducesTo [0, 1, 2] S_
  bcast_S_S4x1024x4096 : S_.BroadcastsInDim S4x1024x4096 (![] : Fin 0 → Fin S4x1024x4096.rank)
  reducesTo_S4x1024x4096_S_d0_1_2 : S4x1024x4096.ReducesTo [0, 1, 2] S_

variable [Facts]

def fn_part8 {F : FTy → Type} [FloatOps F] (main_v133 : IVec S_ 1) (main_v136 : IVec S4x1024 1) : IVec S_ 1 :=
  let main_c_53 : IVec S_ 1 := constantI S_ 1 1#1
  let main_v137 : IVec S_ 1 := (fun x v => Host.reduce IntOp.andi x v reducesTo_S4x1024_S_d0_1 h_S_) main_v136 main_c_53
  let main_v138 : IVec S_ 1 := andi main_v133 main_v137
  main_v138

def fn_part7 {F : FTy → Type} [FloatOps F] (main_arg26 : FVec F S4x1024 .f32) (main_arg27 : FVec F S4x1024 .f32) (main_arg28 : FVec F S4x1024 .f32) (main_v118 : IVec S_ 1) (main_v119 : FVec F S4x1024 .f32) : IVec S_ 1 :=
  let main_cst_46 : FVec F S_ .f32 := constant S_ .f32 0x7F800000#32
  let main_v120 : FVec F S4x1024 .f32 := broadcastInDim S4x1024 ![] bcast_S_S4x1024 main_cst_46
  let main_v121 : IVec S4x1024 1 := cmpf .olt main_v119 main_v120
  let main_c_47 : IVec S_ 1 := constantI S_ 1 1#1
  let main_v122 : IVec S_ 1 := (fun x v => Host.reduce IntOp.andi x v reducesTo_S4x1024_S_d0_1 h_S_) main_v121 main_c_47
  let main_v123 : IVec S_ 1 := andi main_v118 main_v122
  let main_v124 : FVec F S4x1024 .f32 := Host.absf main_arg26
  let main_cst_48 : FVec F S_ .f32 := constant S_ .f32 0x7F800000#32
  let main_v125 : FVec F S4x1024 .f32 := broadcastInDim S4x1024 ![] bcast_S_S4x1024 main_cst_48
  let main_v126 : IVec S4x1024 1 := cmpf .olt main_v124 main_v125
  let main_c_49 : IVec S_ 1 := constantI S_ 1 1#1
  let main_v127 : IVec S_ 1 := (fun x v => Host.reduce IntOp.andi x v reducesTo_S4x1024_S_d0_1 h_S_) main_v126 main_c_49
  let main_v128 : IVec S_ 1 := andi main_v123 main_v127
  let main_v129 : FVec F S4x1024 .f32 := Host.absf main_arg27
  let main_cst_50 : FVec F S_ .f32 := constant S_ .f32 0x7F800000#32
  let main_v130 : FVec F S4x1024 .f32 := broadcastInDim S4x1024 ![] bcast_S_S4x1024 main_cst_50
  let main_v131 : IVec S4x1024 1 := cmpf .olt main_v129 main_v130
  let main_c_51 : IVec S_ 1 := constantI S_ 1 1#1
  let main_v132 : IVec S_ 1 := (fun x v => Host.reduce IntOp.andi x v reducesTo_S4x1024_S_d0_1 h_S_) main_v131 main_c_51
  let main_v133 : IVec S_ 1 := andi main_v128 main_v132
  let main_v134 : FVec F S4x1024 .f32 := Host.absf main_arg28
  let main_cst_52 : FVec F S_ .f32 := constant S_ .f32 0x7F800000#32
  let main_v135 : FVec F S4x1024 .f32 := broadcastInDim S4x1024 ![] bcast_S_S4x1024 main_cst_52
  let main_v136 : IVec S4x1024 1 := cmpf .olt main_v134 main_v135
  fn_part8 (F := F) main_v133 main_v136

def fn_part6 {F : FTy → Type} [FloatOps F] (main_arg22 : FVec F S1024 .f32) (main_arg23 : FVec F S1024 .f32) (main_arg24 : FVec F S50257x1024 .f32) (main_arg25 : FVec F S4x1024 .f32) (main_arg26 : FVec F S4x1024 .f32) (main_arg27 : FVec F S4x1024 .f32) (main_arg28 : FVec F S4x1024 .f32) (main_v98 : IVec S_ 1) (main_v101 : IVec S4x1024x4096 1) (main_c_39 : IVec S_ 1) : IVec S_ 1 :=
  let main_v102 : IVec S_ 1 := (fun x v => Host.reduce IntOp.andi x v reducesTo_S4x1024x4096_S_d0_1_2 h_S_) main_v101 main_c_39
  let main_v103 : IVec S_ 1 := andi main_v98 main_v102
  let main_v104 : FVec F S1024 .f32 := Host.absf main_arg22
  let main_cst_40 : FVec F S_ .f32 := constant S_ .f32 0x7F800000#32
  let main_v105 : FVec F S1024 .f32 := broadcastInDim S1024 ![] bcast_S_S1024 main_cst_40
  let main_v106 : IVec S1024 1 := cmpf .olt main_v104 main_v105
  let main_c_41 : IVec S_ 1 := constantI S_ 1 1#1
  let main_v107 : IVec S_ 1 := (fun x v => Host.reduce IntOp.andi x v reducesTo_S1024_S_d0 h_S_) main_v106 main_c_41
  let main_v108 : IVec S_ 1 := andi main_v103 main_v107
  let main_v109 : FVec F S1024 .f32 := Host.absf main_arg23
  let main_cst_42 : FVec F S_ .f32 := constant S_ .f32 0x7F800000#32
  let main_v110 : FVec F S1024 .f32 := broadcastInDim S1024 ![] bcast_S_S1024 main_cst_42
  let main_v111 : IVec S1024 1 := cmpf .olt main_v109 main_v110
  let main_c_43 : IVec S_ 1 := constantI S_ 1 1#1
  let main_v112 : IVec S_ 1 := (fun x v => Host.reduce IntOp.andi x v reducesTo_S1024_S_d0 h_S_) main_v111 main_c_43
  let main_v113 : IVec S_ 1 := andi main_v108 main_v112
  let main_v114 : FVec F S50257x1024 .f32 := Host.absf main_arg24
  let main_cst_44 : FVec F S_ .f32 := constant S_ .f32 0x7F800000#32
  let main_v115 : FVec F S50257x1024 .f32 := broadcastInDim S50257x1024 ![] bcast_S_S50257x1024 main_cst_44
  let main_v116 : IVec S50257x1024 1 := cmpf .olt main_v114 main_v115
  let main_c_45 : IVec S_ 1 := constantI S_ 1 1#1
  let main_v117 : IVec S_ 1 := (fun x v => Host.reduce IntOp.andi x v reducesTo_S50257x1024_S_d0_1 h_S_) main_v116 main_c_45
  let main_v118 : IVec S_ 1 := andi main_v113 main_v117
  let main_v119 : FVec F S4x1024 .f32 := Host.absf main_arg25
  fn_part7 (F := F) main_arg26 main_arg27 main_arg28 main_v118 main_v119

def fn_part5 {F : FTy → Type} [FloatOps F] (main_arg19 : FVec F S4x4096x1024 .f32) (main_arg20 : FVec F S4x1024x1024 .f32) (main_arg21 : FVec F S4x1024x4096 .f32) (main_arg22 : FVec F S1024 .f32) (main_arg23 : FVec F S1024 .f32) (main_arg24 : FVec F S50257x1024 .f32) (main_arg25 : FVec F S4x1024 .f32) (main_arg26 : FVec F S4x1024 .f32) (main_arg27 : FVec F S4x1024 .f32) (main_arg28 : FVec F S4x1024 .f32) (main_v83 : IVec S_ 1) (main_v84 : FVec F S4x1024 .f32) (main_cst_32 : FVec F S_ .f32) : IVec S_ 1 :=
  let main_v85 : FVec F S4x1024 .f32 := broadcastInDim S4x1024 ![] bcast_S_S4x1024 main_cst_32
  let main_v86 : IVec S4x1024 1 := cmpf .olt main_v84 main_v85
  let main_c_33 : IVec S_ 1 := constantI S_ 1 1#1
  let main_v87 : IVec S_ 1 := (fun x v => Host.reduce IntOp.andi x v reducesTo_S4x1024_S_d0_1 h_S_) main_v86 main_c_33
  let main_v88 : IVec S_ 1 := andi main_v83 main_v87
  let main_v89 : FVec F S4x4096x1024 .f32 := Host.absf main_arg19
  let main_cst_34 : FVec F S_ .f32 := constant S_ .f32 0x7F800000#32
  let main_v90 : FVec F S4x4096x1024 .f32 := broadcastInDim S4x4096x1024 ![] bcast_S_S4x4096x1024 main_cst_34
  let main_v91 : IVec S4x4096x1024 1 := cmpf .olt main_v89 main_v90
  let main_c_35 : IVec S_ 1 := constantI S_ 1 1#1
  let main_v92 : IVec S_ 1 := (fun x v => Host.reduce IntOp.andi x v reducesTo_S4x4096x1024_S_d0_1_2 h_S_) main_v91 main_c_35
  let main_v93 : IVec S_ 1 := andi main_v88 main_v92
  let main_v94 : FVec F S4x1024x1024 .f32 := Host.absf main_arg20
  let main_cst_36 : FVec F S_ .f32 := constant S_ .f32 0x7F800000#32
  let main_v95 : FVec F S4x1024x1024 .f32 := broadcastInDim S4x1024x1024 ![] bcast_S_S4x1024x1024 main_cst_36
  let main_v96 : IVec S4x1024x1024 1 := cmpf .olt main_v94 main_v95
  let main_c_37 : IVec S_ 1 := constantI S_ 1 1#1
  let main_v97 : IVec S_ 1 := (fun x v => Host.reduce IntOp.andi x v reducesTo_S4x1024x1024_S_d0_1_2 h_S_) main_v96 main_c_37
  let main_v98 : IVec S_ 1 := andi main_v93 main_v97
  let main_v99 : FVec F S4x1024x4096 .f32 := Host.absf main_arg21
  let main_cst_38 : FVec F S_ .f32 := constant S_ .f32 0x7F800000#32
  let main_v100 : FVec F S4x1024x4096 .f32 := broadcastInDim S4x1024x4096 ![] bcast_S_S4x1024x4096 main_cst_38
  let main_v101 : IVec S4x1024x4096 1 := cmpf .olt main_v99 main_v100
  let main_c_39 : IVec S_ 1 := constantI S_ 1 1#1
  fn_part6 (F := F) main_arg22 main_arg23 main_arg24 main_arg25 main_arg26 main_arg27 main_arg28 main_v98 main_v101 main_c_39

def fn_part4 {F : FTy → Type} [FloatOps F] (main_arg15 : FVec F S4x1024x1024 .f32) (main_arg16 : FVec F S4x1024x1024 .f32) (main_arg17 : FVec F S4x1024 .f32) (main_arg18 : FVec F S4x1024 .f32) (main_arg19 : FVec F S4x4096x1024 .f32) (main_arg20 : FVec F S4x1024x1024 .f32) (main_arg21 : FVec F S4x1024x4096 .f32) (main_arg22 : FVec F S1024 .f32) (main_arg23 : FVec F S1024 .f32) (main_arg24 : FVec F S50257x1024 .f32) (main_arg25 : FVec F S4x1024 .f32) (main_arg26 : FVec F S4x1024 .f32) (main_arg27 : FVec F S4x1024 .f32) (main_arg28 : FVec F S4x1024 .f32) (main_v63 : IVec S_ 1) (main_v67 : IVec S_ 1) : IVec S_ 1 :=
  let main_v68 : IVec S_ 1 := andi main_v63 main_v67
  let main_v69 : FVec F S4x1024x1024 .f32 := Host.absf main_arg15
  let main_cst_26 : FVec F S_ .f32 := constant S_ .f32 0x7F800000#32
  let main_v70 : FVec F S4x1024x1024 .f32 := broadcastInDim S4x1024x1024 ![] bcast_S_S4x1024x1024 main_cst_26
  let main_v71 : IVec S4x1024x1024 1 := cmpf .olt main_v69 main_v70
  let main_c_27 : IVec S_ 1 := constantI S_ 1 1#1
  let main_v72 : IVec S_ 1 := (fun x v => Host.reduce IntOp.andi x v reducesTo_S4x1024x1024_S_d0_1_2 h_S_) main_v71 main_c_27
  let main_v73 : IVec S_ 1 := andi main_v68 main_v72
  let main_v74 : FVec F S4x1024x1024 .f32 := Host.absf main_arg16
  let main_cst_28 : FVec F S_ .f32 := constant S_ .f32 0x7F800000#32
  let main_v75 : FVec F S4x1024x1024 .f32 := broadcastInDim S4x1024x1024 ![] bcast_S_S4x1024x1024 main_cst_28
  let main_v76 : IVec S4x1024x1024 1 := cmpf .olt main_v74 main_v75
  let main_c_29 : IVec S_ 1 := constantI S_ 1 1#1
  let main_v77 : IVec S_ 1 := (fun x v => Host.reduce IntOp.andi x v reducesTo_S4x1024x1024_S_d0_1_2 h_S_) main_v76 main_c_29
  let main_v78 : IVec S_ 1 := andi main_v73 main_v77
  let main_v79 : FVec F S4x1024 .f32 := Host.absf main_arg17
  let main_cst_30 : FVec F S_ .f32 := constant S_ .f32 0x7F800000#32
  let main_v80 : FVec F S4x1024 .f32 := broadcastInDim S4x1024 ![] bcast_S_S4x1024 main_cst_30
  let main_v81 : IVec S4x1024 1 := cmpf .olt main_v79 main_v80
  let main_c_31 : IVec S_ 1 := constantI S_ 1 1#1
  let main_v82 : IVec S_ 1 := (fun x v => Host.reduce IntOp.andi x v reducesTo_S4x1024_S_d0_1 h_S_) main_v81 main_c_31
  let main_v83 : IVec S_ 1 := andi main_v78 main_v82
  let main_v84 : FVec F S4x1024 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_v83 main_v84 main_cst_32

def fn_part3 {F : FTy → Type} [FloatOps F] (main_arg12 : FVec F S4x1024 .f32) (main_arg13 : FVec F S4x1024x1024 .f32) (main_arg14 : FVec F S4x1024x1024 .f32) (main_arg15 : FVec F S4x1024x1024 .f32) (main_arg16 : FVec F S4x1024x1024 .f32) (main_arg17 : FVec F S4x1024 .f32) (main_arg18 : FVec F S4x1024 .f32) (main_arg19 : FVec F S4x4096x1024 .f32) (main_arg20 : FVec F S4x1024x1024 .f32) (main_arg21 : FVec F S4x1024x4096 .f32) (main_arg22 : FVec F S1024 .f32) (main_arg23 : FVec F S1024 .f32) (main_arg24 : FVec F S50257x1024 .f32) (main_arg25 : FVec F S4x1024 .f32) (main_arg26 : FVec F S4x1024 .f32) (main_arg27 : FVec F S4x1024 .f32) (main_arg28 : FVec F S4x1024 .f32) (main_v48 : IVec S_ 1) (main_v49 : FVec F S4x1024 .f32) (main_v50 : FVec F S4x1024 .f32) : IVec S_ 1 :=
  let main_v51 : IVec S4x1024 1 := cmpf .olt main_v49 main_v50
  let main_c_19 : IVec S_ 1 := constantI S_ 1 1#1
  let main_v52 : IVec S_ 1 := (fun x v => Host.reduce IntOp.andi x v reducesTo_S4x1024_S_d0_1 h_S_) main_v51 main_c_19
  let main_v53 : IVec S_ 1 := andi main_v48 main_v52
  let main_v54 : FVec F S4x1024 .f32 := Host.absf main_arg12
  let main_cst_20 : FVec F S_ .f32 := constant S_ .f32 0x7F800000#32
  let main_v55 : FVec F S4x1024 .f32 := broadcastInDim S4x1024 ![] bcast_S_S4x1024 main_cst_20
  let main_v56 : IVec S4x1024 1 := cmpf .olt main_v54 main_v55
  let main_c_21 : IVec S_ 1 := constantI S_ 1 1#1
  let main_v57 : IVec S_ 1 := (fun x v => Host.reduce IntOp.andi x v reducesTo_S4x1024_S_d0_1 h_S_) main_v56 main_c_21
  let main_v58 : IVec S_ 1 := andi main_v53 main_v57
  let main_v59 : FVec F S4x1024x1024 .f32 := Host.absf main_arg13
  let main_cst_22 : FVec F S_ .f32 := constant S_ .f32 0x7F800000#32
  let main_v60 : FVec F S4x1024x1024 .f32 := broadcastInDim S4x1024x1024 ![] bcast_S_S4x1024x1024 main_cst_22
  let main_v61 : IVec S4x1024x1024 1 := cmpf .olt main_v59 main_v60
  let main_c_23 : IVec S_ 1 := constantI S_ 1 1#1
  let main_v62 : IVec S_ 1 := (fun x v => Host.reduce IntOp.andi x v reducesTo_S4x1024x1024_S_d0_1_2 h_S_) main_v61 main_c_23
  let main_v63 : IVec S_ 1 := andi main_v58 main_v62
  let main_v64 : FVec F S4x1024x1024 .f32 := Host.absf main_arg14
  let main_cst_24 : FVec F S_ .f32 := constant S_ .f32 0x7F800000#32
  let main_v65 : FVec F S4x1024x1024 .f32 := broadcastInDim S4x1024x1024 ![] bcast_S_S4x1024x1024 main_cst_24
  let main_v66 : IVec S4x1024x1024 1 := cmpf .olt main_v64 main_v65
  let main_c_25 : IVec S_ 1 := constantI S_ 1 1#1
  let main_v67 : IVec S_ 1 := (fun x v => Host.reduce IntOp.andi x v reducesTo_S4x1024x1024_S_d0_1_2 h_S_) main_v66 main_c_25
  fn_part4 (F := F) main_arg15 main_arg16 main_arg17 main_arg18 main_arg19 main_arg20 main_arg21 main_arg22 main_arg23 main_arg24 main_arg25 main_arg26 main_arg27 main_arg28 main_v63 main_v67

def fn_part2 {F : FTy → Type} [FloatOps F] (main_arg8 : FVec F S4x1024 .f32) (main_arg9 : FVec F S4x1024 .f32) (main_arg10 : FVec F S4x1024 .f32) (main_arg11 : FVec F S4x1024 .f32) (main_arg12 : FVec F S4x1024 .f32) (main_arg13 : FVec F S4x1024x1024 .f32) (main_arg14 : FVec F S4x1024x1024 .f32) (main_arg15 : FVec F S4x1024x1024 .f32) (main_arg16 : FVec F S4x1024x1024 .f32) (main_arg17 : FVec F S4x1024 .f32) (main_arg18 : FVec F S4x1024 .f32) (main_arg19 : FVec F S4x4096x1024 .f32) (main_arg20 : FVec F S4x1024x1024 .f32) (main_arg21 : FVec F S4x1024x4096 .f32) (main_arg22 : FVec F S1024 .f32) (main_arg23 : FVec F S1024 .f32) (main_arg24 : FVec F S50257x1024 .f32) (main_arg25 : FVec F S4x1024 .f32) (main_arg26 : FVec F S4x1024 .f32) (main_arg27 : FVec F S4x1024 .f32) (main_arg28 : FVec F S4x1024 .f32) (main_v33 : IVec S_ 1) : IVec S_ 1 :=
  let main_v34 : FVec F S4x1024 .f32 := Host.absf main_arg8
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  let main_v39 : FVec F S4x1024 .f32 := Host.absf main_arg9
  let main_cst_14 : FVec F S_ .f32 := constant S_ .f32 0x7F800000#32
  let main_v40 : FVec F S4x1024 .f32 := broadcastInDim S4x1024 ![] bcast_S_S4x1024 main_cst_14
  let main_v41 : IVec S4x1024 1 := cmpf .olt main_v39 main_v40
  let main_c_15 : IVec S_ 1 := constantI S_ 1 1#1
  let main_v42 : IVec S_ 1 := (fun x v => Host.reduce IntOp.andi x v reducesTo_S4x1024_S_d0_1 h_S_) main_v41 main_c_15
  let main_v43 : IVec S_ 1 := andi main_v38 main_v42
  let main_v44 : FVec F S4x1024 .f32 := Host.absf main_arg10
  let main_cst_16 : FVec F S_ .f32 := constant S_ .f32 0x7F800000#32
  let main_v45 : FVec F S4x1024 .f32 := broadcastInDim S4x1024 ![] bcast_S_S4x1024 main_cst_16
  let main_v46 : IVec S4x1024 1 := cmpf .olt main_v44 main_v45
  let main_c_17 : IVec S_ 1 := constantI S_ 1 1#1
  let main_v47 : IVec S_ 1 := (fun x v => Host.reduce IntOp.andi x v reducesTo_S4x1024_S_d0_1 h_S_) main_v46 main_c_17
  let main_v48 : IVec S_ 1 := andi main_v43 main_v47
  let main_v49 : FVec F S4x1024 .f32 := Host.absf main_arg11
  let main_cst_18 : FVec F S_ .f32 := constant S_ .f32 0x7F800000#32
  let main_v50 : FVec F S4x1024 .f32 := broadcastInDim S4x1024 ![] bcast_S_S4x1024 main_cst_18
  fn_part3 (F := F) main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg5 : FVec F S4x1024 .f32) (main_arg6 : FVec F S4x1024 .f32) (main_arg7 : FVec F S4x1024 .f32) (main_arg8 : FVec F S4x1024 .f32) (main_arg9 : FVec F S4x1024 .f32) (main_arg10 : FVec F S4x1024 .f32) (main_arg11 : FVec F S4x1024 .f32) (main_arg12 : FVec F S4x1024 .f32) (main_arg13 : FVec F S4x1024x1024 .f32) (main_arg14 : FVec F S4x1024x1024 .f32) (main_arg15 : FVec F S4x1024x1024 .f32) (main_arg16 : FVec F S4x1024x1024 .f32) (main_arg17 : FVec F S4x1024 .f32) (main_arg18 : FVec F S4x1024 .f32) (main_arg19 : FVec F S4x4096x1024 .f32) (main_arg20 : FVec F S4x1024x1024 .f32) (main_arg21 : FVec F S4x1024x4096 .f32) (main_arg22 : FVec F S1024 .f32) (main_arg23 : FVec F S1024 .f32) (main_arg24 : FVec F S50257x1024 .f32) (main_arg25 : FVec F S4x1024 .f32) (main_arg26 : FVec F S4x1024 .f32) (main_arg27 : FVec F S4x1024 .f32) (main_arg28 : FVec F S4x1024 .f32) (main_v13 : IVec S_ 1) (main_v16 : IVec S4x1024 1) : IVec S_ 1 :=
  let main_c_5 : IVec S_ 1 := constantI S_ 1 1#1
  let main_v17 : IVec S_ 1 := (fun x v => Host.reduce IntOp.andi x v reducesTo_S4x1024_S_d0_1 h_S_) main_v16 main_c_5
  let main_v18 : IVec S_ 1 := andi main_v13 main_v17
  let main_v19 : FVec F S4x1024 .f32 := Host.absf main_arg5
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024 .f32 := Host.absf main_arg6
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4x1024 .f32 := Host.absf main_arg7
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : IVec S2x1024 32) (main_arg1 : FVec F S50257x1024 .f32) (main_arg2 : FVec F S1024 .f32) (main_arg3 : FVec F S1024 .f32) (main_arg4 : FVec F S4x1024 .f32) (main_arg5 : FVec F S4x1024 .f32) (main_arg6 : FVec F S4x1024 .f32) (main_arg7 : FVec F S4x1024 .f32) (main_arg8 : FVec F S4x1024 .f32) (main_arg9 : FVec F S4x1024 .f32) (main_arg10 : FVec F S4x1024 .f32) (main_arg11 : FVec F S4x1024 .f32) (main_arg12 : FVec F S4x1024 .f32) (main_arg13 : FVec F S4x1024x1024 .f32) (main_arg14 : FVec F S4x1024x1024 .f32) (main_arg15 : FVec F S4x1024x1024 .f32) (main_arg16 : FVec F S4x1024x1024 .f32) (main_arg17 : FVec F S4x1024 .f32) (main_arg18 : FVec F S4x1024 .f32) (main_arg19 : FVec F S4x4096x1024 .f32) (main_arg20 : FVec F S4x1024x1024 .f32) (main_arg21 : FVec F S4x1024x4096 .f32) (main_arg22 : FVec F S1024 .f32) (main_arg23 : FVec F S1024 .f32) (main_arg24 : FVec F S50257x1024 .f32) (main_arg25 : FVec F S4x1024 .f32) (main_arg26 : FVec F S4x1024 .f32) (main_arg27 : FVec F S4x1024 .f32) (main_arg28 : FVec F S4x1024 .f32) : IVec S_ 1 :=
  let main_v0 : FVec F S50257x1024 .f32 := Host.absf main_arg1
  let main_cst : FVec F S_ .f32 := constant S_ .f32 0x7F800000#32
  let main_v1 : FVec F S50257x1024 .f32 := broadcastInDim S50257x1024 ![] bcast_S_S50257x1024 main_cst
  let main_v2 : IVec S50257x1024 1 := cmpf .olt main_v0 main_v1
  let main_c : IVec S_ 1 := constantI S_ 1 1#1
  let main_v3 : IVec S_ 1 := (fun x v => Host.reduce IntOp.andi x v reducesTo_S50257x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4x1024 .f32 := Host.absf main_arg4
  let main_cst_4 : FVec F S_ .f32 := constant S_ .f32 0x7F800000#32
  let main_v15 : FVec F S4x1024 .f32 := broadcastInDim S4x1024 ![] bcast_S_S4x1024 main_cst_4
  let main_v16 : IVec S4x1024 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S2x1024 : Shape := ⟨2, ![2, 1024]⟩
abbrev S50257x1024 : Shape := ⟨2, ![50257, 1024]⟩
abbrev S1024 : Shape := ⟨1, ![1024]⟩
abbrev S4x1024 : Shape := ⟨2, ![4, 1024]⟩
abbrev S4x1024x1024 : Shape := ⟨3, ![4, 1024, 1024]⟩
abbrev S4x4096x1024 : Shape := ⟨3, ![4, 4096, 1024]⟩
abbrev S4x1024x4096 : Shape := ⟨3, ![4, 1024, 4096]⟩
abbrev S_ : Shape := ⟨0, ![]⟩
abbrev S2x1024x1 : Shape := ⟨3, ![2, 1024, 1]⟩
abbrev S2x1024x1024 : Shape := ⟨3, ![2, 1024, 1024]⟩
abbrev S1x1x1024 : Shape := ⟨3, ![1, 1, 1024]⟩
abbrev S2048x1024 : Shape := ⟨2, ![2048, 1024]⟩
abbrev S1x1024 : Shape := ⟨2, ![1, 1024]⟩
abbrev S1x1024x1024 : Shape := ⟨3, ![1, 1024, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1x4096x1024 : Shape := ⟨3, ![1, 4096, 1024]⟩
abbrev S4096x1024 : Shape := ⟨2, ![4096, 1024]⟩
abbrev S1x1024x4096 : Shape := ⟨3, ![1, 1024, 4096]⟩
abbrev S1024x4096 : Shape := ⟨2, ![1024, 4096]⟩
abbrev S2048 : Shape := ⟨1, ![2048]⟩
abbrev S2048x1 : Shape := ⟨2, ![2048, 1]⟩
abbrev S50688x1024 : Shape := ⟨2, ![50688, 1024]⟩
abbrev S2048x50688 : Shape := ⟨2, ![2048, 50688]⟩
abbrev S99x8x128 : Shape := ⟨3, ![99, 8, 128]⟩
abbrev S512x1024 : Shape := ⟨2, ![512, 1024]⟩
abbrev S2048x512 : Shape := ⟨2, ![2048, 512]⟩
abbrev S1x8x128 : Shape := ⟨3, ![1, 8, 128]⟩
abbrev S1 : Shape := ⟨1, ![1]⟩
abbrev S1x1 : Shape := ⟨2, ![1, 1]⟩
abbrev S8x128 : Shape := ⟨2, ![8, 128]⟩
abbrev S99x1x1 : Shape := ⟨3, ![99, 1, 1]⟩
abbrev S99 : Shape := ⟨1, ![99]⟩
abbrev S2048x50257 : Shape := ⟨2, ![2048, 50257]⟩
abbrev S2x1024x50257 : Shape := ⟨3, ![2, 1024, 50257]⟩

abbrev nBuf : Space → Nat
  | .hbm => 385
  | .vmem => 141
  | .smem => 0
  | _ => 0

abbrev hbmTy0_0 (i : Nat) : BufTy := match i % 128 with
  | 0 => ⟨S2x1024, .i32⟩
  | 1 => ⟨S50257x1024, .f32⟩
  | 2 => ⟨S1024, .f32⟩
  | 3 => ⟨S1024, .f32⟩
  | 4 => ⟨S4x1024, .f32⟩
  | 5 => ⟨S4x1024, .f32⟩
  | 6 => ⟨S4x1024, .f32⟩
  | 7 => ⟨S4x1024, .f32⟩
  | 8 => ⟨S4x1024, .f32⟩
  | 9 => ⟨S4x1024, .f32⟩
  | 10 => ⟨S4x1024, .f32⟩
  | 11 => ⟨S4x1024, .f32⟩
  | 12 => ⟨S4x1024, .f32⟩
  | 13 => ⟨S4x1024x1024, .f32⟩
  | 14 => ⟨S4x1024x1024, .f32⟩
  | 15 => ⟨S4x1024x1024, .f32⟩
  | 16 => ⟨S4x1024x1024, .f32⟩
  | 17 => ⟨S4x1024, .f32⟩
  | 18 => ⟨S4x1024, .f32⟩
  | 19 => ⟨S4x4096x1024, .f32⟩
  | 20 => ⟨S4x1024x1024, .f32⟩
  | 21 => ⟨S4x1024x4096, .f32⟩
  | 22 => ⟨S1024, .f32⟩
  | 23 => ⟨S1024, .f32⟩
  | 24 => ⟨S50257x1024, .f32⟩
  | 25 => ⟨S4x1024, .f32⟩
  | 26 => ⟨S4x1024, .f32⟩
  | 27 => ⟨S4x1024, .f32⟩
  | 28 => ⟨S4x1024, .f32⟩
  | 29 => ⟨S_, .i32⟩
  | 30 => ⟨S2x1024, .i32⟩
  | 31 => ⟨S2x1024, .i1⟩
  | 32 => ⟨S_, .i32⟩
  | 33 => ⟨S2x1024, .i32⟩
  | 34 => ⟨S2x1024, .i32⟩
  | 35 => ⟨S2x1024, .i32⟩
  | 36 => ⟨S2x1024x1, .i32⟩
  | 37 => ⟨S2x1024x1024, .f32⟩
  | 38 => ⟨S_, .f32⟩
  | 39 => ⟨S2x1024, .f32⟩
  | 40 => ⟨S2x1024x1, .f32⟩
  | 41 => ⟨S_, .f32⟩
  | 42 => ⟨S2x1024x1, .f32⟩
  | 43 => ⟨S2x1024x1, .f32⟩
  | 44 => ⟨S2x1024x1024, .f32⟩
  | 45 => ⟨S2x1024x1024, .f32⟩
  | 46 => ⟨S2x1024x1024, .f32⟩
  | 47 => ⟨S_, .f32⟩
  | 48 => ⟨S2x1024, .f32⟩
  | 49 => ⟨S2x1024x1, .f32⟩
  | 50 => ⟨S_, .f32⟩
  | 51 => ⟨S2x1024x1, .f32⟩
  | 52 => ⟨S2x1024x1, .f32⟩
  | 53 => ⟨S2x1024x1024, .f32⟩
  | 54 => ⟨S2x1024x1024, .f32⟩
  | 55 => ⟨S_, .f32⟩
  | 56 => ⟨S2x1024x1, .f32⟩
  | 57 => ⟨S2x1024x1, .f32⟩
  | 58 => ⟨S2x1024x1, .f32⟩
  | 59 => ⟨S2x1024x1024, .f32⟩
  | 60 => ⟨S2x1024x1024, .f32⟩
  | 61 => ⟨S1x1x1024, .f32⟩
  | 62 => ⟨S2x1024x1024, .f32⟩
  | 63 => ⟨S2x1024x1024, .f32⟩
  | 64 => ⟨S1x1x1024, .f32⟩
  | 65 => ⟨S2x1024x1024, .f32⟩
  | 66 => ⟨S2x1024x1024, .f32⟩
  | 67 => ⟨S2048x1024, .f32⟩
  | 68 => ⟨S1x1024, .f32⟩
  | 69 => ⟨S1024, .f32⟩
  | 70 => ⟨S1x1024, .f32⟩
  | 71 => ⟨S1024, .f32⟩
  | 72 => ⟨S1x1024, .f32⟩
  | 73 => ⟨S1024, .f32⟩
  | 74 => ⟨S1x1024, .f32⟩
  | 75 => ⟨S1024, .f32⟩
  | 76 => ⟨S1x1024, .f32⟩
  | 77 => ⟨S1024, .f32⟩
  | 78 => ⟨S1x1024, .f32⟩
  | 79 => ⟨S1024, .f32⟩
  | 80 => ⟨S1x1024, .f32⟩
  | 81 => ⟨S1024, .f32⟩
  | 82 => ⟨S1x1024, .f32⟩
  | 83 => ⟨S1024, .f32⟩
  | 84 => ⟨S1x1024, .f32⟩
  | 85 => ⟨S1024, .f32⟩
  | 86 => ⟨S1x1024x1024, .f32⟩
  | 87 => ⟨S1024x1024, .f32⟩
  | 88 => ⟨S1x1024x1024, .f32⟩
  | 89 => ⟨S1024x1024, .f32⟩
  | 90 => ⟨S1x1024x1024, .f32⟩
  | 91 => ⟨S1024x1024, .f32⟩
  | 92 => ⟨S1x1024x1024, .f32⟩
  | 93 => ⟨S1024x1024, .f32⟩
  | 94 => ⟨S1024x1024, .bf16⟩
  | 95 => ⟨S1024x1024, .bf16⟩
  | 96 => ⟨S1024x1024, .bf16⟩
  | 97 => ⟨S1024x1024, .bf16⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S1x1024, .f32⟩
  | 107 => ⟨S2048x1024, .f32⟩
  | 108 => ⟨S1x1024, .f32⟩
  | 109 => ⟨S1024, .f32⟩
  | 110 => ⟨S1x1024, .f32⟩
  | 111 => ⟨S1024, .f32⟩
  | 112 => ⟨S1x1024, .f32⟩
  | 113 => ⟨S1024, .f32⟩
  | 114 => ⟨S1x1024, .f32⟩
  | 115 => ⟨S1024, .f32⟩
  | 116 => ⟨S1x1024, .f32⟩
  | 117 => ⟨S1024, .f32⟩
  | 118 => ⟨S1x4096x1024, .f32⟩
  | 119 => ⟨S4096x1024, .f32⟩
  | 120 => ⟨S1x1024x1024, .f32⟩
  | 121 => ⟨S1024x1024, .f32⟩
  | 122 => ⟨S1x1024x4096, .f32⟩
  | 123 => ⟨S1024x4096, .f32⟩
  | 124 => ⟨S4096x1024, .bf16⟩
  | 125 => ⟨S1024x1024, .bf16⟩
  | 126 => ⟨S1024x4096, .bf16⟩
  | 127 => ⟨S1x1024, .f32⟩
  | _ => ⟨S2x1024, .i32⟩

abbrev hbmTy0_1 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S2048x1024, .f32⟩
  | 5 => ⟨S1x1024, .f32⟩
  | 6 => ⟨S1024, .f32⟩
  | 7 => ⟨S1x1024, .f32⟩
  | 8 => ⟨S1024, .f32⟩
  | 9 => ⟨S1x1024, .f32⟩
  | 10 => ⟨S1024, .f32⟩
  | 11 => ⟨S1x1024, .f32⟩
  | 12 => ⟨S1024, .f32⟩
  | 13 => ⟨S1x1024, .f32⟩
  | 14 => ⟨S1024, .f32⟩
  | 15 => ⟨S1x1024, .f32⟩
  | 16 => ⟨S1024, .f32⟩
  | 17 => ⟨S1x1024, .f32⟩
  | 18 => ⟨S1024, .f32⟩
  | 19 => ⟨S1x1024, .f32⟩
  | 20 => ⟨S1024, .f32⟩
  | 21 => ⟨S1x1024, .f32⟩
  | 22 => ⟨S1024, .f32⟩
  | 23 => ⟨S1x1024x1024, .f32⟩
  | 24 => ⟨S1024x1024, .f32⟩
  | 25 => ⟨S1x1024x1024, .f32⟩
  | 26 => ⟨S1024x1024, .f32⟩
  | 27 => ⟨S1x1024x1024, .f32⟩
  | 28 => ⟨S1024x1024, .f32⟩
  | 29 => ⟨S1x1024x1024, .f32⟩
  | 30 => ⟨S1024x1024, .f32⟩
  | 31 => ⟨S1024x1024, .bf16⟩
  | 32 => ⟨S1024x1024, .bf16⟩
  | 33 => ⟨S1024x1024, .bf16⟩
  | 34 => ⟨S1024x1024, .bf16⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S2048x1024, .f32⟩
  | 45 => ⟨S1x1024, .f32⟩
  | 46 => ⟨S1024, .f32⟩
  | 47 => ⟨S1x1024, .f32⟩
  | 48 => ⟨S1024, .f32⟩
  | 49 => ⟨S1x1024, .f32⟩
  | 50 => ⟨S1024, .f32⟩
  | 51 => ⟨S1x1024, .f32⟩
  | 52 => ⟨S1024, .f32⟩
  | 53 => ⟨S1x1024, .f32⟩
  | 54 => ⟨S1024, .f32⟩
  | 55 => ⟨S1x4096x1024, .f32⟩
  | 56 => ⟨S4096x1024, .f32⟩
  | 57 => ⟨S1x1024x1024, .f32⟩
  | 58 => ⟨S1024x1024, .f32⟩
  | 59 => ⟨S1x1024x4096, .f32⟩
  | 60 => ⟨S1024x4096, .f32⟩
  | 61 => ⟨S4096x1024, .bf16⟩
  | 62 => ⟨S1024x1024, .bf16⟩
  | 63 => ⟨S1024x4096, .bf16⟩
  | 64 => ⟨S1x1024, .f32⟩
  | 65 => ⟨S1x1024, .f32⟩
  | 66 => ⟨S1x1024, .f32⟩
  | 67 => ⟨S1x1024, .f32⟩
  | 68 => ⟨S1x1024, .f32⟩
  | 69 => ⟨S2048x1024, .f32⟩
  | 70 => ⟨S1x1024, .f32⟩
  | 71 => ⟨S1024, .f32⟩
  | 72 => ⟨S1x1024, .f32⟩
  | 73 => ⟨S1024, .f32⟩
  | 74 => ⟨S1x1024, .f32⟩
  | 75 => ⟨S1024, .f32⟩
  | 76 => ⟨S1x1024, .f32⟩
  | 77 => ⟨S1024, .f32⟩
  | 78 => ⟨S1x1024, .f32⟩
  | 79 => ⟨S1024, .f32⟩
  | 80 => ⟨S1x1024, .f32⟩
  | 81 => ⟨S1024, .f32⟩
  | 82 => ⟨S1x1024, .f32⟩
  | 83 => ⟨S1024, .f32⟩
  | 84 => ⟨S1x1024, .f32⟩
  | 85 => ⟨S1024, .f32⟩
  | 86 => ⟨S1x1024, .f32⟩
  | 87 => ⟨S1024, .f32⟩
  | 88 => ⟨S1x1024x1024, .f32⟩
  | 89 => ⟨S1024x1024, .f32⟩
  | 90 => ⟨S1x1024x1024, .f32⟩
  | 91 => ⟨S1024x1024, .f32⟩
  | 92 => ⟨S1x1024x1024, .f32⟩
  | 93 => ⟨S1024x1024, .f32⟩
  | 94 => ⟨S1x1024x1024, .f32⟩
  | 95 => ⟨S1024x1024, .f32⟩
  | 96 => ⟨S1024x1024, .bf16⟩
  | 97 => ⟨S1024x1024, .bf16⟩
  | 98 => ⟨S1024x1024, .bf16⟩
  | 99 => ⟨S1024x1024, .bf16⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S1x1024, .f32⟩
  | 107 => ⟨S1x1024, .f32⟩
  | 108 => ⟨S1x1024, .f32⟩
  | 109 => ⟨S2048x1024, .f32⟩
  | 110 => ⟨S1x1024, .f32⟩
  | 111 => ⟨S1024, .f32⟩
  | 112 => ⟨S1x1024, .f32⟩
  | 113 => ⟨S1024, .f32⟩
  | 114 => ⟨S1x1024, .f32⟩
  | 115 => ⟨S1024, .f32⟩
  | 116 => ⟨S1x1024, .f32⟩
  | 117 => ⟨S1024, .f32⟩
  | 118 => ⟨S1x1024, .f32⟩
  | 119 => ⟨S1024, .f32⟩
  | 120 => ⟨S1x4096x1024, .f32⟩
  | 121 => ⟨S4096x1024, .f32⟩
  | 122 => ⟨S1x1024x1024, .f32⟩
  | 123 => ⟨S1024x1024, .f32⟩
  | 124 => ⟨S1x1024x4096, .f32⟩
  | 125 => ⟨S1024x4096, .f32⟩
  | 126 => ⟨S4096x1024, .bf16⟩
  | 127 => ⟨S1024x1024, .bf16⟩
  | _ => ⟨S2x1024, .i32⟩

abbrev hbmTy0_2 (i : Nat) : BufTy := match i % 128 with
  | 0 => ⟨S1024x4096, .bf16⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S2048x1024, .f32⟩
  | 7 => ⟨S1x1024, .f32⟩
  | 8 => ⟨S1024, .f32⟩
  | 9 => ⟨S1x1024, .f32⟩
  | 10 => ⟨S1024, .f32⟩
  | 11 => ⟨S1x1024, .f32⟩
  | 12 => ⟨S1024, .f32⟩
  | 13 => ⟨S1x1024, .f32⟩
  | 14 => ⟨S1024, .f32⟩
  | 15 => ⟨S1x1024, .f32⟩
  | 16 => ⟨S1024, .f32⟩
  | 17 => ⟨S1x1024, .f32⟩
  | 18 => ⟨S1024, .f32⟩
  | 19 => ⟨S1x1024, .f32⟩
  | 20 => ⟨S1024, .f32⟩
  | 21 => ⟨S1x1024, .f32⟩
  | 22 => ⟨S1024, .f32⟩
  | 23 => ⟨S1x1024, .f32⟩
  | 24 => ⟨S1024, .f32⟩
  | 25 => ⟨S1x1024x1024, .f32⟩
  | 26 => ⟨S1024x1024, .f32⟩
  | 27 => ⟨S1x1024x1024, .f32⟩
  | 28 => ⟨S1024x1024, .f32⟩
  | 29 => ⟨S1x1024x1024, .f32⟩
  | 30 => ⟨S1024x1024, .f32⟩
  | 31 => ⟨S1x1024x1024, .f32⟩
  | 32 => ⟨S1024x1024, .f32⟩
  | 33 => ⟨S1024x1024, .bf16⟩
  | 34 => ⟨S1024x1024, .bf16⟩
  | 35 => ⟨S1024x1024, .bf16⟩
  | 36 => ⟨S1024x1024, .bf16⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S1x1024, .f32⟩
  | 46 => ⟨S2048x1024, .f32⟩
  | 47 => ⟨S1x1024, .f32⟩
  | 48 => ⟨S1024, .f32⟩
  | 49 => ⟨S1x1024, .f32⟩
  | 50 => ⟨S1024, .f32⟩
  | 51 => ⟨S1x1024, .f32⟩
  | 52 => ⟨S1024, .f32⟩
  | 53 => ⟨S1x1024, .f32⟩
  | 54 => ⟨S1024, .f32⟩
  | 55 => ⟨S1x1024, .f32⟩
  | 56 => ⟨S1024, .f32⟩
  | 57 => ⟨S1x4096x1024, .f32⟩
  | 58 => ⟨S4096x1024, .f32⟩
  | 59 => ⟨S1x1024x1024, .f32⟩
  | 60 => ⟨S1024x1024, .f32⟩
  | 61 => ⟨S1x1024x4096, .f32⟩
  | 62 => ⟨S1024x4096, .f32⟩
  | 63 => ⟨S4096x1024, .bf16⟩
  | 64 => ⟨S1024x1024, .bf16⟩
  | 65 => ⟨S1024x4096, .bf16⟩
  | 66 => ⟨S1x1024, .f32⟩
  | 67 => ⟨S1x1024, .f32⟩
  | 68 => ⟨S1x1024, .f32⟩
  | 69 => ⟨S1x1024, .f32⟩
  | 70 => ⟨S1x1024, .f32⟩
  | 71 => ⟨S2048x1024, .f32⟩
  | 72 => ⟨S_, .f32⟩
  | 73 => ⟨S2048, .f32⟩
  | 74 => ⟨S2048x1, .f32⟩
  | 75 => ⟨S_, .f32⟩
  | 76 => ⟨S2048x1, .f32⟩
  | 77 => ⟨S2048x1, .f32⟩
  | 78 => ⟨S2048x1024, .f32⟩
  | 79 => ⟨S2048x1024, .f32⟩
  | 80 => ⟨S2048x1024, .f32⟩
  | 81 => ⟨S_, .f32⟩
  | 82 => ⟨S2048, .f32⟩
  | 83 => ⟨S2048x1, .f32⟩
  | 84 => ⟨S_, .f32⟩
  | 85 => ⟨S2048x1, .f32⟩
  | 86 => ⟨S2048x1, .f32⟩
  | 87 => ⟨S2048x1024, .f32⟩
  | 88 => ⟨S2048x1024, .f32⟩
  | 89 => ⟨S_, .f32⟩
  | 90 => ⟨S2048x1, .f32⟩
  | 91 => ⟨S2048x1, .f32⟩
  | 92 => ⟨S2048x1, .f32⟩
  | 93 => ⟨S2048x1024, .f32⟩
  | 94 => ⟨S2048x1024, .f32⟩
  | 95 => ⟨S1x1024, .f32⟩
  | 96 => ⟨S2048x1024, .f32⟩
  | 97 => ⟨S2048x1024, .f32⟩
  | 98 => ⟨S1x1024, .f32⟩
  | 99 => ⟨S2048x1024, .f32⟩
  | 100 => ⟨S2048x1024, .f32⟩
  | 101 => ⟨S2048x1024, .bf16⟩
  | 102 => ⟨S50257x1024, .bf16⟩
  | 103 => ⟨S_, .i32⟩
  | 104 => ⟨S_, .bf16⟩
  | 105 => ⟨S50688x1024, .bf16⟩
  | 106 => ⟨S2048x50688, .bf16⟩
  | 107 => ⟨S99x8x128, .f32⟩
  | 108 => ⟨S99x8x128, .f32⟩
  | 109 => ⟨S99x1x1, .f32⟩
  | 110 => ⟨S99, .f32⟩
  | 111 => ⟨S99x1x1, .f32⟩
  | 112 => ⟨S99, .f32⟩
  | 113 => ⟨S_, .f32⟩
  | 114 => ⟨S_, .f32⟩
  | 115 => ⟨S99, .f32⟩
  | 116 => ⟨S99, .f32⟩
  | 117 => ⟨S99, .f32⟩
  | 118 => ⟨S99, .f32⟩
  | 119 => ⟨S_, .f32⟩
  | 120 => ⟨S_, .f32⟩
  | 121 => ⟨S2048x50257, .bf16⟩
  | 122 => ⟨S2x1024x50257, .bf16⟩
  | 123 => ⟨S2x1024x50257, .f32⟩
  | 124 => ⟨S2x1024x50257, .f32⟩
  | 125 => ⟨S2x1024x50257, .f32⟩
  | 126 => ⟨S2x1024x50257, .f32⟩
  | 127 => ⟨S2x1024x50257, .f32⟩
  | _ => ⟨S2x1024, .i32⟩

abbrev hbmTy0_3 (i : Nat) : BufTy := match i % 128 with
  | 0 => ⟨S2x1024x50257, .f32⟩
  | _ => ⟨S2x1024, .i32⟩

abbrev hbmTy (i : Nat) : BufTy := match i / 128 with
  | 0 => hbmTy0_0 i
  | 1 => hbmTy0_1 i
  | 2 => hbmTy0_2 i
  | 3 => hbmTy0_3 i
  | _ => ⟨S2x1024, .i32⟩

abbrev vmemTy0_0 (i : Nat) : BufTy := match i % 128 with
  | 0 => ⟨S256x1024, .f32⟩
  | 1 => ⟨S256x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1024x1024, .bf16⟩
  | 12 => ⟨S1024x1024, .bf16⟩
  | 13 => ⟨S1024x1024, .bf16⟩
  | 14 => ⟨S1024x1024, .bf16⟩
  | 15 => ⟨S256x1024, .f32⟩
  | 16 => ⟨S256x1024, .f32⟩
  | 17 => ⟨S256x1024, .f32⟩
  | 18 => ⟨S256x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1024x1024, .bf16⟩
  | 25 => ⟨S1024x1024, .bf16⟩
  | 26 => ⟨S1024x1024, .bf16⟩
  | 27 => ⟨S1024x1024, .bf16⟩
  | 28 => ⟨S1024x1024, .bf16⟩
  | 29 => ⟨S256x1024, .f32⟩
  | 30 => ⟨S256x1024, .f32⟩
  | 31 => ⟨S256x1024, .f32⟩
  | 32 => ⟨S256x1024, .f32⟩
  | 33 => ⟨S256x1024, .f32⟩
  | 34 => ⟨S256x1024, .f32⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S1024x1024, .bf16⟩
  | 45 => ⟨S1024x1024, .bf16⟩
  | 46 => ⟨S1024x1024, .bf16⟩
  | 47 => ⟨S1024x1024, .bf16⟩
  | 48 => ⟨S256x1024, .f32⟩
  | 49 => ⟨S256x1024, .f32⟩
  | 50 => ⟨S256x1024, .f32⟩
  | 51 => ⟨S256x1024, .f32⟩
  | 52 => ⟨S1x1024, .f32⟩
  | 53 => ⟨S1x1024, .f32⟩
  | 54 => ⟨S1x1024, .f32⟩
  | 55 => ⟨S1x1024, .f32⟩
  | 56 => ⟨S1x1024, .f32⟩
  | 57 => ⟨S1024x1024, .bf16⟩
  | 58 => ⟨S1024x1024, .bf16⟩
  | 59 => ⟨S1024x1024, .bf16⟩
  | 60 => ⟨S1024x1024, .bf16⟩
  | 61 => ⟨S1024x1024, .bf16⟩
  | 62 => ⟨S256x1024, .f32⟩
  | 63 => ⟨S256x1024, .f32⟩
  | 64 => ⟨S256x1024, .f32⟩
  | 65 => ⟨S256x1024, .f32⟩
  | 66 => ⟨S256x1024, .f32⟩
  | 67 => ⟨S256x1024, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S1x1024, .f32⟩
  | 74 => ⟨S1x1024, .f32⟩
  | 75 => ⟨S1x1024, .f32⟩
  | 76 => ⟨S1x1024, .f32⟩
  | 77 => ⟨S1024x1024, .bf16⟩
  | 78 => ⟨S1024x1024, .bf16⟩
  | 79 => ⟨S1024x1024, .bf16⟩
  | 80 => ⟨S1024x1024, .bf16⟩
  | 81 => ⟨S256x1024, .f32⟩
  | 82 => ⟨S256x1024, .f32⟩
  | 83 => ⟨S256x1024, .f32⟩
  | 84 => ⟨S256x1024, .f32⟩
  | 85 => ⟨S1x1024, .f32⟩
  | 86 => ⟨S1x1024, .f32⟩
  | 87 => ⟨S1x1024, .f32⟩
  | 88 => ⟨S1x1024, .f32⟩
  | 89 => ⟨S1x1024, .f32⟩
  | 90 => ⟨S1024x1024, .bf16⟩
  | 91 => ⟨S1024x1024, .bf16⟩
  | 92 => ⟨S1024x1024, .bf16⟩
  | 93 => ⟨S1024x1024, .bf16⟩
  | 94 => ⟨S1024x1024, .bf16⟩
  | 95 => ⟨S256x1024, .f32⟩
  | 96 => ⟨S256x1024, .f32⟩
  | 97 => ⟨S256x1024, .f32⟩
  | 98 => ⟨S256x1024, .f32⟩
  | 99 => ⟨S256x1024, .f32⟩
  | 100 => ⟨S256x1024, .f32⟩
  | 101 => ⟨S1x1024, .f32⟩
  | 102 => ⟨S1x1024, .f32⟩
  | 103 => ⟨S1x1024, .f32⟩
  | 104 => ⟨S1x1024, .f32⟩
  | 105 => ⟨S1x1024, .f32⟩
  | 106 => ⟨S1x1024, .f32⟩
  | 107 => ⟨S1x1024, .f32⟩
  | 108 => ⟨S1x1024, .f32⟩
  | 109 => ⟨S1x1024, .f32⟩
  | 110 => ⟨S1024x1024, .bf16⟩
  | 111 => ⟨S1024x1024, .bf16⟩
  | 112 => ⟨S1024x1024, .bf16⟩
  | 113 => ⟨S1024x1024, .bf16⟩
  | 114 => ⟨S256x1024, .f32⟩
  | 115 => ⟨S256x1024, .f32⟩
  | 116 => ⟨S256x1024, .f32⟩
  | 117 => ⟨S256x1024, .f32⟩
  | 118 => ⟨S1x1024, .f32⟩
  | 119 => ⟨S1x1024, .f32⟩
  | 120 => ⟨S1x1024, .f32⟩
  | 121 => ⟨S1x1024, .f32⟩
  | 122 => ⟨S1x1024, .f32⟩
  | 123 => ⟨S1024x1024, .bf16⟩
  | 124 => ⟨S1024x1024, .bf16⟩
  | 125 => ⟨S1024x1024, .bf16⟩
  | 126 => ⟨S1024x1024, .bf16⟩
  | 127 => ⟨S1024x1024, .bf16⟩
  | _ => ⟨S2x1024, .i32⟩

abbrev vmemTy0_1 (i : Nat) : BufTy := match i % 128 with
  | 0 => ⟨S256x1024, .f32⟩
  | 1 => ⟨S256x1024, .f32⟩
  | 2 => ⟨S256x1024, .f32⟩
  | 3 => ⟨S256x1024, .f32⟩
  | 4 => ⟨S2048x1024, .bf16⟩
  | 5 => ⟨S512x1024, .bf16⟩
  | 6 => ⟨S512x1024, .bf16⟩
  | 7 => ⟨S2048x512, .bf16⟩
  | 8 => ⟨S2048x512, .bf16⟩
  | 9 => ⟨S1x8x128, .f32⟩
  | 10 => ⟨S1x8x128, .f32⟩
  | 11 => ⟨S1x8x128, .f32⟩
  | 12 => ⟨S1x8x128, .f32⟩
  | _ => ⟨S2x1024, .i32⟩

abbrev vmemTy (i : Nat) : BufTy := match i / 128 with
  | 0 => vmemTy0_0 i
  | 1 => vmemTy0_1 i
  | _ => ⟨S2x1024, .i32⟩

abbrev bufTy : (tb : Table) → Fin (tcTables nBuf tb) → BufTy
  | .hbm, ⟨i, _⟩ => hbmTy i
  | .local _ .vmem, ⟨i, _⟩ => vmemTy i
  | _, _ => ⟨S2x1024, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 133 → Bool
  | ⟨i, _⟩ => dmaSemScopedAt i

abbrev sig : RefSig :=
  ofTc nBuf bufTy 0 133 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_c : Ref sig .tc := ⟨.hbm, 29, rfl⟩
abbrev main_v0 : Ref sig .tc := ⟨.hbm, 30, rfl⟩
abbrev main_v1 : Ref sig .tc := ⟨.hbm, 31, rfl⟩
abbrev main_c_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_2 : Ref sig .tc := ⟨.hbm, 47, rfl⟩
abbrev main_v14 : Ref sig .tc := ⟨.hbm, 48, rfl⟩
abbrev main_v15 : Ref sig .tc := ⟨.hbm, 49, rfl⟩
abbrev main_cst_3 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_4 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩
abbrev main_v263 : Ref sig .tc := ⟨.hbm, 299, rfl⟩
abbrev main_v264 : Ref sig .tc := ⟨.hbm, 300, rfl⟩
abbrev main_v265 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩
abbrev main_v278 : Ref sig .tc := ⟨.hbm, 314, rfl⟩
abbrev main_v279 : Ref sig .tc := ⟨.hbm, 315, rfl⟩
abbrev main_v280 : Ref sig .tc := ⟨.hbm, 316, rfl⟩
abbrev main_v281 : Ref sig .tc := ⟨.hbm, 317, rfl⟩
abbrev main_v282 : Ref sig .tc := ⟨.hbm, 318, rfl⟩
abbrev main_v283 : Ref sig .tc := ⟨.hbm, 319, rfl⟩
abbrev main_v284 : Ref sig .tc := ⟨.hbm, 320, rfl⟩
abbrev main_v285 : Ref sig .tc := ⟨.hbm, 321, rfl⟩
abbrev main_v286 : Ref sig .tc := ⟨.hbm, 322, rfl⟩
abbrev main_v287 : Ref sig .tc := ⟨.hbm, 323, rfl⟩
abbrev main_v288 : Ref sig .tc := ⟨.hbm, 324, rfl⟩
abbrev main_v289 : Ref sig .tc := ⟨.hbm, 325, rfl⟩
abbrev main_v290 : Ref sig .tc := ⟨.hbm, 326, rfl⟩
abbrev main_v291 : Ref sig .tc := ⟨.hbm, 327, rfl⟩
abbrev main_cst_5 : Ref sig .tc := ⟨.hbm, 328, rfl⟩
abbrev main_v292 : Ref sig .tc := ⟨.hbm, 329, rfl⟩
abbrev main_v293 : Ref sig .tc := ⟨.hbm, 330, rfl⟩
abbrev main_cst_6 : Ref sig .tc := ⟨.hbm, 331, rfl⟩
abbrev main_v294 : Ref sig .tc := ⟨.hbm, 332, rfl⟩
abbrev main_v295 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_cst_7 : Ref sig .tc := ⟨.hbm, 337, rfl⟩
abbrev main_v299 : Ref sig .tc := ⟨.hbm, 338, rfl⟩
abbrev main_v300 : Ref sig .tc := ⟨.hbm, 339, rfl⟩
abbrev main_cst_8 : Ref sig .tc := ⟨.hbm, 340, rfl⟩
abbrev main_v301 : Ref sig .tc := ⟨.hbm, 341, rfl⟩
abbrev main_v302 : Ref sig .tc := ⟨.hbm, 342, rfl⟩
abbrev main_v303 : Ref sig .tc := ⟨.hbm, 343, rfl⟩
abbrev main_v304 : Ref sig .tc := ⟨.hbm, 344, rfl⟩
abbrev main_cst_9 : Ref sig .tc := ⟨.hbm, 345, rfl⟩
abbrev main_v305 : Ref sig .tc := ⟨.hbm, 346, rfl⟩
abbrev main_v306 : Ref sig .tc := ⟨.hbm, 347, rfl⟩
abbrev main_v307 : Ref sig .tc := ⟨.hbm, 348, rfl⟩
abbrev main_v308 : Ref sig .tc := ⟨.hbm, 349, rfl⟩
abbrev main_v309 : Ref sig .tc := ⟨.hbm, 350, rfl⟩
abbrev main_v310 : Ref sig .tc := ⟨.hbm, 351, rfl⟩
abbrev main_v311 : Ref sig .tc := ⟨.hbm, 352, rfl⟩
abbrev main_v312 : Ref sig .tc := ⟨.hbm, 353, rfl⟩
abbrev main_v313 : Ref sig .tc := ⟨.hbm, 354, rfl⟩
abbrev main_v314 : Ref sig .tc := ⟨.hbm, 355, rfl⟩
abbrev main_v315 : Ref sig .tc := ⟨.hbm, 356, rfl⟩
abbrev main_v316 : Ref sig .tc := ⟨.hbm, 357, rfl⟩
abbrev main_v317 : Ref sig .tc := ⟨.hbm, 358, rfl⟩
abbrev main_c_10 : Ref sig .tc := ⟨.hbm, 359, rfl⟩
abbrev main_call0_v0 : Ref sig .tc := ⟨.hbm, 360, rfl⟩
abbrev main_v318 : Ref sig .tc := ⟨.hbm, 361, rfl⟩
abbrev main_v319_0 : Ref sig .tc := ⟨.hbm, 362, rfl⟩
abbrev main_v319_1 : Ref sig .tc := ⟨.hbm, 363, rfl⟩
abbrev main_v319_2 : Ref sig .tc := ⟨.hbm, 364, rfl⟩
abbrev main_v320 : Ref sig .tc := ⟨.hbm, 365, rfl⟩
abbrev main_v321 : Ref sig .tc := ⟨.hbm, 366, rfl⟩
abbrev main_v322 : Ref sig .tc := ⟨.hbm, 367, rfl⟩
abbrev main_v323 : Ref sig .tc := ⟨.hbm, 368, rfl⟩
abbrev main_cst_11 : Ref sig .tc := ⟨.hbm, 369, rfl⟩
abbrev main_v324 : Ref sig .tc := ⟨.hbm, 370, rfl⟩
abbrev main_v325 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_cst_12 : Ref sig .tc := ⟨.hbm, 375, rfl⟩
abbrev main_v329 : Ref sig .tc := ⟨.hbm, 376, rfl⟩
abbrev main_v330 : Ref sig .tc := ⟨.hbm, 377, rfl⟩
abbrev main_v331 : Ref sig .tc := ⟨.hbm, 378, rfl⟩
abbrev main_v332 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_v336 : Ref sig .tc := ⟨.hbm, 383, rfl⟩
abbrev main_v337 : Ref sig .tc := ⟨.hbm, 384, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_scratch0 : Ref sig .tc := ⟨.vmem, 31, rfl⟩
abbrev cc1_scratch1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg2_0 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg5_0 : Ref sig .tc := ⟨.vmem, 39, rfl⟩
abbrev cc2_stg6_0 : Ref sig .tc := ⟨.vmem, 40, rfl⟩
abbrev cc2_stg7_0 : Ref sig .tc := ⟨.vmem, 41, rfl⟩
abbrev cc2_stg8_0 : Ref sig .tc := ⟨.vmem, 42, rfl⟩
abbrev cc2_stg9_0 : Ref sig .tc := ⟨.vmem, 43, rfl⟩
abbrev cc2_stg10_0 : Ref sig .tc := ⟨.vmem, 44, rfl⟩
abbrev cc2_stg11_0 : Ref sig .tc := ⟨.vmem, 45, rfl⟩
abbrev cc2_stg12_0 : Ref sig .tc := ⟨.vmem, 46, rfl⟩
abbrev cc2_stg13_0 : Ref sig .tc := ⟨.vmem, 47, rfl⟩
abbrev cc2_stg14_0 : Ref sig .tc := ⟨.vmem, 48, rfl⟩
abbrev cc2_stg14_1 : Ref sig .tc := ⟨.vmem, 49, rfl⟩
abbrev cc3_stg0_0 : Ref sig .tc := ⟨.vmem, 50, rfl⟩
abbrev cc3_stg0_1 : Ref sig .tc := ⟨.vmem, 51, rfl⟩
abbrev cc3_stg1_0 : Ref sig .tc := ⟨.vmem, 52, rfl⟩
abbrev cc3_stg2_0 : Ref sig .tc := ⟨.vmem, 53, rfl⟩
abbrev cc3_stg3_0 : Ref sig .tc := ⟨.vmem, 54, rfl⟩
abbrev cc3_stg4_0 : Ref sig .tc := ⟨.vmem, 55, rfl⟩
abbrev cc3_stg5_0 : Ref sig .tc := ⟨.vmem, 56, rfl⟩
abbrev cc3_stg6_0 : Ref sig .tc := ⟨.vmem, 57, rfl⟩
abbrev cc3_stg6_1 : Ref sig .tc := ⟨.vmem, 58, rfl⟩
abbrev cc3_stg7_0 : Ref sig .tc := ⟨.vmem, 59, rfl⟩
abbrev cc3_stg8_0 : Ref sig .tc := ⟨.vmem, 60, rfl⟩
abbrev cc3_stg8_1 : Ref sig .tc := ⟨.vmem, 61, rfl⟩
abbrev cc3_stg9_0 : Ref sig .tc := ⟨.vmem, 62, rfl⟩
abbrev cc3_stg9_1 : Ref sig .tc := ⟨.vmem, 63, rfl⟩
abbrev cc3_scratch0 : Ref sig .tc := ⟨.vmem, 64, rfl⟩
abbrev cc3_scratch1 : Ref sig .tc := ⟨.vmem, 65, rfl⟩
abbrev cc4_stg0_0 : Ref sig .tc := ⟨.vmem, 66, rfl⟩
abbrev cc4_stg0_1 : Ref sig .tc := ⟨.vmem, 67, rfl⟩
abbrev cc4_stg1_0 : Ref sig .tc := ⟨.vmem, 68, rfl⟩
abbrev cc4_stg2_0 : Ref sig .tc := ⟨.vmem, 69, rfl⟩
abbrev cc4_stg3_0 : Ref sig .tc := ⟨.vmem, 70, rfl⟩
abbrev cc4_stg4_0 : Ref sig .tc := ⟨.vmem, 71, rfl⟩
abbrev cc4_stg5_0 : Ref sig .tc := ⟨.vmem, 72, rfl⟩
abbrev cc4_stg6_0 : Ref sig .tc := ⟨.vmem, 73, rfl⟩
abbrev cc4_stg7_0 : Ref sig .tc := ⟨.vmem, 74, rfl⟩
abbrev cc4_stg8_0 : Ref sig .tc := ⟨.vmem, 75, rfl⟩
abbrev cc4_stg9_0 : Ref sig .tc := ⟨.vmem, 76, rfl⟩
abbrev cc4_stg10_0 : Ref sig .tc := ⟨.vmem, 77, rfl⟩
abbrev cc4_stg11_0 : Ref sig .tc := ⟨.vmem, 78, rfl⟩
abbrev cc4_stg12_0 : Ref sig .tc := ⟨.vmem, 79, rfl⟩
abbrev cc4_stg13_0 : Ref sig .tc := ⟨.vmem, 80, rfl⟩
abbrev cc4_stg14_0 : Ref sig .tc := ⟨.vmem, 81, rfl⟩
abbrev cc4_stg14_1 : Ref sig .tc := ⟨.vmem, 82, rfl⟩
abbrev cc5_stg0_0 : Ref sig .tc := ⟨.vmem, 83, rfl⟩
abbrev cc5_stg0_1 : Ref sig .tc := ⟨.vmem, 84, rfl⟩
abbrev cc5_stg1_0 : Ref sig .tc := ⟨.vmem, 85, rfl⟩
abbrev cc5_stg2_0 : Ref sig .tc := ⟨.vmem, 86, rfl⟩
abbrev cc5_stg3_0 : Ref sig .tc := ⟨.vmem, 87, rfl⟩
abbrev cc5_stg4_0 : Ref sig .tc := ⟨.vmem, 88, rfl⟩
abbrev cc5_stg5_0 : Ref sig .tc := ⟨.vmem, 89, rfl⟩
abbrev cc5_stg6_0 : Ref sig .tc := ⟨.vmem, 90, rfl⟩
abbrev cc5_stg6_1 : Ref sig .tc := ⟨.vmem, 91, rfl⟩
abbrev cc5_stg7_0 : Ref sig .tc := ⟨.vmem, 92, rfl⟩
abbrev cc5_stg8_0 : Ref sig .tc := ⟨.vmem, 93, rfl⟩
abbrev cc5_stg8_1 : Ref sig .tc := ⟨.vmem, 94, rfl⟩
abbrev cc5_stg9_0 : Ref sig .tc := ⟨.vmem, 95, rfl⟩
abbrev cc5_stg9_1 : Ref sig .tc := ⟨.vmem, 96, rfl⟩
abbrev cc5_scratch0 : Ref sig .tc := ⟨.vmem, 97, rfl⟩
abbrev cc5_scratch1 : Ref sig .tc := ⟨.vmem, 98, rfl⟩
abbrev cc6_stg0_0 : Ref sig .tc := ⟨.vmem, 99, rfl⟩
abbrev cc6_stg0_1 : Ref sig .tc := ⟨.vmem, 100, rfl⟩
abbrev cc6_stg1_0 : Ref sig .tc := ⟨.vmem, 101, rfl⟩
abbrev cc6_stg2_0 : Ref sig .tc := ⟨.vmem, 102, rfl⟩
abbrev cc6_stg3_0 : Ref sig .tc := ⟨.vmem, 103, rfl⟩
abbrev cc6_stg4_0 : Ref sig .tc := ⟨.vmem, 104, rfl⟩
abbrev cc6_stg5_0 : Ref sig .tc := ⟨.vmem, 105, rfl⟩
abbrev cc6_stg6_0 : Ref sig .tc := ⟨.vmem, 106, rfl⟩
abbrev cc6_stg7_0 : Ref sig .tc := ⟨.vmem, 107, rfl⟩
abbrev cc6_stg8_0 : Ref sig .tc := ⟨.vmem, 108, rfl⟩
abbrev cc6_stg9_0 : Ref sig .tc := ⟨.vmem, 109, rfl⟩
abbrev cc6_stg10_0 : Ref sig .tc := ⟨.vmem, 110, rfl⟩
abbrev cc6_stg11_0 : Ref sig .tc := ⟨.vmem, 111, rfl⟩
abbrev cc6_stg12_0 : Ref sig .tc := ⟨.vmem, 112, rfl⟩
abbrev cc6_stg13_0 : Ref sig .tc := ⟨.vmem, 113, rfl⟩
abbrev cc6_stg14_0 : Ref sig .tc := ⟨.vmem, 114, rfl⟩
abbrev cc6_stg14_1 : Ref sig .tc := ⟨.vmem, 115, rfl⟩
abbrev cc7_stg0_0 : Ref sig .tc := ⟨.vmem, 116, rfl⟩
abbrev cc7_stg0_1 : Ref sig .tc := ⟨.vmem, 117, rfl⟩
abbrev cc7_stg1_0 : Ref sig .tc := ⟨.vmem, 118, rfl⟩
abbrev cc7_stg2_0 : Ref sig .tc := ⟨.vmem, 119, rfl⟩
abbrev cc7_stg3_0 : Ref sig .tc := ⟨.vmem, 120, rfl⟩
abbrev cc7_stg4_0 : Ref sig .tc := ⟨.vmem, 121, rfl⟩
abbrev cc7_stg5_0 : Ref sig .tc := ⟨.vmem, 122, rfl⟩
abbrev cc7_stg6_0 : Ref sig .tc := ⟨.vmem, 123, rfl⟩
abbrev cc7_stg6_1 : Ref sig .tc := ⟨.vmem, 124, rfl⟩
abbrev cc7_stg7_0 : Ref sig .tc := ⟨.vmem, 125, rfl⟩
abbrev cc7_stg8_0 : Ref sig .tc := ⟨.vmem, 126, rfl⟩
abbrev cc7_stg8_1 : Ref sig .tc := ⟨.vmem, 127, rfl⟩
abbrev cc7_stg9_0 : Ref sig .tc := ⟨.vmem, 128, rfl⟩
abbrev cc7_stg9_1 : Ref sig .tc := ⟨.vmem, 129, rfl⟩
abbrev cc7_scratch0 : Ref sig .tc := ⟨.vmem, 130, rfl⟩
abbrev cc7_scratch1 : Ref sig .tc := ⟨.vmem, 131, rfl⟩
abbrev cc8_stg0_0 : Ref sig .tc := ⟨.vmem, 132, rfl⟩
abbrev cc8_stg1_0 : Ref sig .tc := ⟨.vmem, 133, rfl⟩
abbrev cc8_stg1_1 : Ref sig .tc := ⟨.vmem, 134, rfl⟩
abbrev cc8_stg2_0 : Ref sig .tc := ⟨.vmem, 135, rfl⟩
abbrev cc8_stg2_1 : Ref sig .tc := ⟨.vmem, 136, rfl⟩
abbrev cc8_stg3_0 : Ref sig .tc := ⟨.vmem, 137, rfl⟩
abbrev cc8_stg3_1 : Ref sig .tc := ⟨.vmem, 138, rfl⟩
abbrev cc8_stg4_0 : Ref sig .tc := ⟨.vmem, 139, rfl⟩
abbrev cc8_stg4_1 : Ref sig .tc := ⟨.vmem, 140, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem8_0 : DmaSem sig := 27
abbrev cc1_sem8_1 : DmaSem sig := 28
abbrev cc1_sem9_0 : DmaSem sig := 29
abbrev cc1_sem9_1 : DmaSem sig := 30
abbrev cc2_sem0_0 : DmaSem sig := 31
abbrev cc2_sem0_1 : DmaSem sig := 32
abbrev cc2_sem1_0 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem11_0 : DmaSem sig := 43
abbrev cc2_sem12_0 : DmaSem sig := 44
abbrev cc2_sem13_0 : DmaSem sig := 45
abbrev cc2_sem14_0 : DmaSem sig := 46
abbrev cc2_sem14_1 : DmaSem sig := 47
abbrev cc3_sem0_0 : DmaSem sig := 48
abbrev cc3_sem0_1 : DmaSem sig := 49
abbrev cc3_sem1_0 : DmaSem sig := 50
abbrev cc3_sem2_0 : DmaSem sig := 51
abbrev cc3_sem3_0 : DmaSem sig := 52
abbrev cc3_sem4_0 : DmaSem sig := 53
abbrev cc3_sem5_0 : DmaSem sig := 54
abbrev cc3_sem6_0 : DmaSem sig := 55
abbrev cc3_sem6_1 : DmaSem sig := 56
abbrev cc3_sem7_0 : DmaSem sig := 57
abbrev cc3_sem8_0 : DmaSem sig := 58
abbrev cc3_sem8_1 : DmaSem sig := 59
abbrev cc3_sem9_0 : DmaSem sig := 60
abbrev cc3_sem9_1 : DmaSem sig := 61
abbrev cc4_sem0_0 : DmaSem sig := 62
abbrev cc4_sem0_1 : DmaSem sig := 63
abbrev cc4_sem1_0 : DmaSem sig := 64
abbrev cc4_sem2_0 : DmaSem sig := 65
abbrev cc4_sem3_0 : DmaSem sig := 66
abbrev cc4_sem4_0 : DmaSem sig := 67
abbrev cc4_sem5_0 : DmaSem sig := 68
abbrev cc4_sem6_0 : DmaSem sig := 69
abbrev cc4_sem7_0 : DmaSem sig := 70
abbrev cc4_sem8_0 : DmaSem sig := 71
abbrev cc4_sem9_0 : DmaSem sig := 72
abbrev cc4_sem10_0 : DmaSem sig := 73
abbrev cc4_sem11_0 : DmaSem sig := 74
abbrev cc4_sem12_0 : DmaSem sig := 75
abbrev cc4_sem13_0 : DmaSem sig := 76
abbrev cc4_sem14_0 : DmaSem sig := 77
abbrev cc4_sem14_1 : DmaSem sig := 78
abbrev cc5_sem0_0 : DmaSem sig := 79
abbrev cc5_sem0_1 : DmaSem sig := 80
abbrev cc5_sem1_0 : DmaSem sig := 81
abbrev cc5_sem2_0 : DmaSem sig := 82
abbrev cc5_sem3_0 : DmaSem sig := 83
abbrev cc5_sem4_0 : DmaSem sig := 84
abbrev cc5_sem5_0 : DmaSem sig := 85
abbrev cc5_sem6_0 : DmaSem sig := 86
abbrev cc5_sem6_1 : DmaSem sig := 87
abbrev cc5_sem7_0 : DmaSem sig := 88
abbrev cc5_sem8_0 : DmaSem sig := 89
abbrev cc5_sem8_1 : DmaSem sig := 90
abbrev cc5_sem9_0 : DmaSem sig := 91
abbrev cc5_sem9_1 : DmaSem sig := 92
abbrev cc6_sem0_0 : DmaSem sig := 93
abbrev cc6_sem0_1 : DmaSem sig := 94
abbrev cc6_sem1_0 : DmaSem sig := 95
abbrev cc6_sem2_0 : DmaSem sig := 96
abbrev cc6_sem3_0 : DmaSem sig := 97
abbrev cc6_sem4_0 : DmaSem sig := 98
abbrev cc6_sem5_0 : DmaSem sig := 99
abbrev cc6_sem6_0 : DmaSem sig := 100
abbrev cc6_sem7_0 : DmaSem sig := 101
abbrev cc6_sem8_0 : DmaSem sig := 102
abbrev cc6_sem9_0 : DmaSem sig := 103
abbrev cc6_sem10_0 : DmaSem sig := 104
abbrev cc6_sem11_0 : DmaSem sig := 105
abbrev cc6_sem12_0 : DmaSem sig := 106
abbrev cc6_sem13_0 : DmaSem sig := 107
abbrev cc6_sem14_0 : DmaSem sig := 108
abbrev cc6_sem14_1 : DmaSem sig := 109
abbrev cc7_sem0_0 : DmaSem sig := 110
abbrev cc7_sem0_1 : DmaSem sig := 111
abbrev cc7_sem1_0 : DmaSem sig := 112
abbrev cc7_sem2_0 : DmaSem sig := 113
abbrev cc7_sem3_0 : DmaSem sig := 114
abbrev cc7_sem4_0 : DmaSem sig := 115
abbrev cc7_sem5_0 : DmaSem sig := 116
abbrev cc7_sem6_0 : DmaSem sig := 117
abbrev cc7_sem6_1 : DmaSem sig := 118
abbrev cc7_sem7_0 : DmaSem sig := 119
abbrev cc7_sem8_0 : DmaSem sig := 120
abbrev cc7_sem8_1 : DmaSem sig := 121
abbrev cc7_sem9_0 : DmaSem sig := 122
abbrev cc7_sem9_1 : DmaSem sig := 123
abbrev cc8_sem0_0 : DmaSem sig := 124
abbrev cc8_sem1_0 : DmaSem sig := 125
abbrev cc8_sem1_1 : DmaSem sig := 126
abbrev cc8_sem2_0 : DmaSem sig := 127
abbrev cc8_sem2_1 : DmaSem sig := 128
abbrev cc8_sem3_0 : DmaSem sig := 129
abbrev cc8_sem3_1 : DmaSem sig := 130
abbrev cc8_sem4_0 : DmaSem sig := 131
abbrev cc8_sem4_1 : DmaSem sig := 132

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v60 : BitVec 1 := Scalar.cmpi .eq arg1 c3_i32
  let v61 : BitVec 32 := Scalar.extui v60
  let c0_i32_28 : BitVec 32 := 0#32
  let v62 : BitVec 1 := Scalar.cmpi .ne v61 c0_i32_28
  v62

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1024x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1024x1024 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1024x1024 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1024x1024 .bf16 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1024x1024 .bf16 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S256x1024 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v60 : BitVec 1 := Scalar.cmpi .eq arg1 c3_i32
  let v61 : BitVec 32 := Scalar.extui v60
  let c0_i32_28 : BitVec 32 := 0#32
  let v62 : BitVec 1 := Scalar.cmpi .ne v61 c0_i32_28
  v62

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S1024x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![false, true]

abbrev stage3_7 : Fin 1 → Memref sig .tc .vmem S1024x1024 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 2 → Memref sig .tc .vmem S1024x1024 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![false, true]

abbrev stage3_9 : Fin 2 → Memref sig .tc .vmem S256x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1024 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1024 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x1024 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1024x1024 .bf16 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1024x1024 .bf16 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1024x1024 .bf16 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1024x1024 .bf16 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 2 → Memref sig .tc .vmem S256x1024 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true]

abbrev grid5 : Pipeline.Grid := ⟨2, ![8, 4], ![false, false]⟩

def k5_cond2 (i : grid5.Coords) : BitVec 1 :=
  let arg1 : BitVec 32 := BitVec.ofNat 32 (i 1).val
  let c3_i32 : BitVec 32 := 3#32
  let v60 : BitVec 1 := Scalar.cmpi .eq arg1 c3_i32
  let v61 : BitVec 32 := Scalar.extui v60
  let c0_i32_28 : BitVec 32 := 0#32
  let v62 : BitVec 1 := Scalar.cmpi .ne v61 c0_i32_28
  v62

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_9 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S256x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S1x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S1x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S1x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 2 → Memref sig .tc .vmem S1024x1024 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![false, true]

abbrev stage5_7 : Fin 1 → Memref sig .tc .vmem S1024x1024 .bf16 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false, false]

abbrev stage5_8 : Fin 2 → Memref sig .tc .vmem S1024x1024 .bf16 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![false, true]

abbrev stage5_9 : Fin 2 → Memref sig .tc .vmem S256x1024 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_14 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x1024 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x1024 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x1024 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1024x1024 .bf16 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S1024x1024 .bf16 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S1024x1024 .bf16 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 1 → Memref sig .tc .vmem S1024x1024 .bf16 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))
abbrev reads6_13 : Fin grid6.rank → Bool := ![false]

abbrev stage6_14 : Fin 2 → Memref sig .tc .vmem S256x1024 .f32 := fun | 0 => Memref.whole cc6_stg14_0 | 1 => Memref.whole cc6_stg14_1 | ⟨_ + 2, h⟩ => absurd h (Nat.not_lt.2 (Nat.le_add_left _ _))
abbrev sem6_14 : Fin 2 → DmaSem sig := fun | 0 => cc6_sem14_0 | 1 => cc6_sem14_1 | ⟨_ + 2, h⟩ => absurd h (Nat.not_lt.2 (Nat.le_add_left _ _))
abbrev reads6_14 : Fin grid6.rank → Bool := ![true]

abbrev grid7 : Pipeline.Grid := ⟨2, ![8, 4], ![false, false]⟩

def k7_cond2 (i : grid7.Coords) : BitVec 1 :=
  let arg1 : BitVec 32 := BitVec.ofNat 32 (i 1).val
  let c3_i32 : BitVec 32 := 3#32
  let v60 : BitVec 1 := Scalar.cmpi .eq arg1 c3_i32
  let v61 : BitVec 32 := Scalar.extui v60
  let c0_i32_28 : BitVec 32 := 0#32
  let v62 : BitVec 1 := Scalar.cmpi .ne v61 c0_i32_28
  v62

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_7 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_9 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S256x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 1 → Memref sig .tc .vmem S1x1024 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 1 → Memref sig .tc .vmem S1x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 1 → Memref sig .tc .vmem S1x1024 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 1 → Memref sig .tc .vmem S1x1024 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false, false]

abbrev stage7_5 : Fin 1 → Memref sig .tc .vmem S1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false, false]

abbrev stage7_6 : Fin 2 → Memref sig .tc .vmem S1024x1024 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![false, true]

abbrev stage7_7 : Fin 1 → Memref sig .tc .vmem S1024x1024 .bf16 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false, false]

abbrev stage7_8 : Fin 2 → Memref sig .tc .vmem S1024x1024 .bf16 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![false, true]

abbrev stage7_9 : Fin 2 → Memref sig .tc .vmem S256x1024 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true, false]

abbrev grid8 : Pipeline.Grid := ⟨1, ![99], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_3 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_4 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 1 → Memref sig .tc .vmem S2048x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 2 → Memref sig .tc .vmem S512x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2048x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1x8x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S1x8x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

class Facts₀ : Prop where
  bcast_S_S2x1024 : S_.BroadcastsInDim S2x1024 (![] : Fin 0 → Fin S2x1024.rank)
  bcast_S2x1024_S2x1024x1_0_1 : S2x1024.BroadcastsInDim S2x1024x1 (![0, 1] : Fin 2 → Fin S2x1024x1.rank)
  reducesTo_S2x1024x1024_S2x1024_d2 : S2x1024x1024.ReducesTo [2] S2x1024
  h_S_ : 0 < S_.numel
  bcast_S_S2x1024x1 : S_.BroadcastsInDim S2x1024x1 (![] : Fin 0 → Fin S2x1024x1.rank)
  bcast_S2x1024x1_S2x1024x1024_0_1_2 : S2x1024x1.BroadcastsInDim S2x1024x1024 (![0, 1, 2] : Fin 3 → Fin S2x1024x1024.rank)
  bcast_S1024_S1x1x1024_2 : S1024.BroadcastsInDim S1x1x1024 (![2] : Fin 1 → Fin S1x1x1024.rank)
  bcast_S1x1x1024_S2x1024x1024_0_1_2 : S1x1x1024.BroadcastsInDim S2x1024x1024 (![0, 1, 2] : Fin 3 → Fin S2x1024x1024.rank)
  shapeCasts_S2x1024x1024_S2048x1024 : S2x1024x1024.ShapeCasts S2048x1024
  slices_S4x1024_S1x1024_0_0 : S4x1024.Slices ![0, 0] S1x1024
  shapeCasts_S1x1024_S1024 : S1x1024.ShapeCasts S1024
  slices_S4x1024x1024_S1x1024x1024_0_0_0 : S4x1024x1024.Slices ![0, 0, 0] S1x1024x1024
  shapeCasts_S1x1024x1024_S1024x1024 : S1x1024x1024.ShapeCasts S1024x1024
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S256x1024_S256 : S256x1024.Reduces [1] S256
  shapeCasts_S256_S256x1 : S256.ShapeCasts S256x1
  broadcasts_S256x1_S256x1024 : S256x1.Broadcasts S256x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S4x4096x1024_S1x4096x1024_0_0_0 : S4x4096x1024.Slices ![0, 0, 0] S1x4096x1024
  shapeCasts_S1x4096x1024_S4096x1024 : S1x4096x1024.ShapeCasts S4096x1024
  slices_S4x1024x4096_S1x1024x4096_0_0_0 : S4x1024x4096.Slices ![0, 0, 0] S1x1024x4096
  shapeCasts_S1x1024x4096_S1024x4096 : S1x1024x4096.ShapeCasts S1024x4096
  slices_S4x1024_S1x1024_1_0 : S4x1024.Slices ![1, 0] S1x1024
  slices_S4x1024x1024_S1x1024x1024_1_0_0 : S4x1024x1024.Slices ![1, 0, 0] S1x1024x1024
  slices_S4x4096x1024_S1x4096x1024_1_0_0 : S4x4096x1024.Slices ![1, 0, 0] S1x4096x1024
  slices_S4x1024x4096_S1x1024x4096_1_0_0 : S4x1024x4096.Slices ![1, 0, 0] S1x1024x4096
  slices_S4x1024_S1x1024_2_0 : S4x1024.Slices ![2, 0] S1x1024
  slices_S4x1024x1024_S1x1024x1024_2_0_0 : S4x1024x1024.Slices ![2, 0, 0] S1x1024x1024
  slices_S4x4096x1024_S1x4096x1024_2_0_0 : S4x4096x1024.Slices ![2, 0, 0] S1x4096x1024
  slices_S4x1024x4096_S1x1024x4096_2_0_0 : S4x1024x4096.Slices ![2, 0, 0] S1x1024x4096
  slices_S4x1024_S1x1024_3_0 : S4x1024.Slices ![3, 0] S1x1024
  slices_S4x1024x1024_S1x1024x1024_3_0_0 : S4x1024x1024.Slices ![3, 0, 0] S1x1024x1024
  slices_S4x4096x1024_S1x4096x1024_3_0_0 : S4x4096x1024.Slices ![3, 0, 0] S1x4096x1024
  slices_S4x1024x4096_S1x1024x4096_3_0_0 : S4x1024x4096.Slices ![3, 0, 0] S1x1024x4096
  reducesTo_S2048x1024_S2048_d1 : S2048x1024.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  pads_S50257x1024_S50688x1024_04310_000 : S50257x1024.Pads (![0, 0] : Fin 2 → Nat) ![431, 0] ![0, 0] S50688x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  iota_S2048x512_d1_w32 : S2048x512.Iotas .tc 32 [1]
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  broadcasts_S1x1_S2048x512 : S1x1.Broadcasts S2048x512
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S99x8x128_S99x1x1_0_0_0 : S99x8x128.Slices ![0, 0, 0] S99x1x1
  shapeCasts_S99x1x1_S99 : S99x1x1.ShapeCasts S99
  reducesTo_S99_S_d0 : S99.ReducesTo [0] S_
  bcast_S_S99 : S_.BroadcastsInDim S99 (![] : Fin 0 → Fin S99.rank)
  slices_S2048x50688_S2048x50257_0_0 : S2048x50688.Slices ![0, 0] S2048x50257
  shapeCasts_S2048x50257_S2x1024x50257 : S2048x50257.ShapeCasts S2x1024x50257
  bcast_S_S2x1024x50257 : S_.BroadcastsInDim S2x1024x50257 (![] : Fin 0 → Fin S2x1024x50257.rank)
  gather_S50257x1024_S2x1024x1_S2x1024x1024_2_0_n_n_0_2_11024_wf : GatherDims.WF S50257x1024 S2x1024x1 S2x1024x1024 [2] [0] [] [0] [] 2 ![1, 1024]
  dot_S256x1024_S1024x1024_S256x1024_1_1_0_0_n_n_wf : DotDims.WF S256x1024 S1024x1024 S256x1024 [1] [1] [0] [0] [] []
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .bf16 = 32 ∨ (Rect.block (s := S1024x1024) S1024x1024.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x1024.size a ≤ S2048x1024.size a
  hwx0_14 : ∀ i : grid0.Coords, EltTy.bits .f32 = 32 ∨ (Rect.block (s := S2048x1024) S256x1024.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S2048x1024.size a
  hwx1_0 : ∀ i : grid1.Coords, EltTy.bits .f32 = 32 ∨ (Rect.block (s := S2048x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S4096x1024.size a
  hwx1_6 : ∀ i : grid1.Coords, EltTy.bits .bf16 = 32 ∨ (Rect.block (s := S4096x1024) S1024x1024.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S1024x1024.size a
  hwx1_7 : ∀ i : grid1.Coords, EltTy.bits .bf16 = 32 ∨ (Rect.block (s := S1024x1024) S1024x1024.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x1024.size a ≤ S1024x4096.size a
  hwx1_8 : ∀ i : grid1.Coords, EltTy.bits .bf16 = 32 ∨ (Rect.block (s := S1024x4096) S1024x1024.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x1024.size a ≤ S2048x1024.size a
  hwx1_9 : ∀ i : grid1.Coords, EltTy.bits .f32 = 32 ∨ (Rect.block (s := S2048x1024) S256x1024.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S2048x1024.size a
  hwx2_0 : ∀ i : grid2.Coords, EltTy.bits .f32 = 32 ∨ (Rect.block (s := S2048x1024) S256x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1024.size a ≤ S1x1024.size a
  hwx2_6 : ∀ i : grid2.Coords, EltTy.bits .f32 = 32 ∨ (Rect.block (s := S1x1024) S1x1024.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1024.size a ≤ S1x1024.size a
  hwx2_7 : ∀ i : grid2.Coords, EltTy.bits .f32 = 32 ∨ (Rect.block (s := S1x1024) S1x1024.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1024.size a ≤ S1x1024.size a
  hwx2_8 : ∀ i : grid2.Coords, EltTy.bits .f32 = 32 ∨ (Rect.block (s := S1x1024) S1x1024.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1024.size a ≤ S1x1024.size a
  hwx2_9 : ∀ i : grid2.Coords, EltTy.bits .f32 = 32 ∨ (Rect.block (s := S1x1024) S1x1024.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1024x1024.size a ≤ S1024x1024.size a
  hwx2_10 : ∀ i : grid2.Coords, EltTy.bits .bf16 = 32 ∨ (Rect.block (s := S1024x1024) S1024x1024.size (cc2_transform_10 i) (hinb2_10 i)).WholeWords (EltTy.packing .bf16)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1024x1024.size a ≤ S1024x1024.size a
  hwx2_11 : ∀ i : grid2.Coords, EltTy.bits .bf16 = 32 ∨ (Rect.block (s := S1024x1024) S1024x1024.size (cc2_transform_11 i) (hinb2_11 i)).WholeWords (EltTy.packing .bf16)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1024x1024.size a ≤ S1024x1024.size a
  hwx2_12 : ∀ i : grid2.Coords, EltTy.bits .bf16 = 32 ∨ (Rect.block (s := S1024x1024) S1024x1024.size (cc2_transform_12 i) (hinb2_12 i)).WholeWords (EltTy.packing .bf16)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1024x1024.size a ≤ S1024x1024.size a
  hwx2_13 : ∀ i : grid2.Coords, EltTy.bits .bf16 = 32 ∨ (Rect.block (s := S1024x1024) S1024x1024.size (cc2_transform_13 i) (hinb2_13 i)).WholeWords (EltTy.packing .bf16)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S256x1024.size a ≤ S2048x1024.size a
  hwx2_14 : ∀ i : grid2.Coords, EltTy.bits .f32 = 32 ∨ (Rect.block (s := S2048x1024) S256x1024.size (cc2_transform_14 i) (hinb2_14 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x1024.size a ≤ S2048x1024.size a
  hwx3_0 : ∀ i : grid3.Coords, EltTy.bits .f32 = 32 ∨ (Rect.block (s := S2048x1024) S256x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1024.size a ≤ S1x1024.size a
  hwx3_1 : ∀ i : grid3.Coords, EltTy.bits .f32 = 32 ∨ (Rect.block (s := S1x1024) S1x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1024.size a ≤ S1x1024.size a
  hwx3_5 : ∀ i : grid3.Coords, EltTy.bits .f32 = 32 ∨ (Rect.block (s := S1x1024) S1x1024.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x1024.size a ≤ S4096x1024.size a
  hwx3_6 : ∀ i : grid3.Coords, EltTy.bits .bf16 = 32 ∨ (Rect.block (s := S4096x1024) S1024x1024.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1024x1024.size a ≤ S1024x1024.size a
  hwx3_7 : ∀ i : grid3.Coords, EltTy.bits .bf16 = 32 ∨ (Rect.block (s := S1024x1024) S1024x1024.size (cc3_transform_7 i) (hinb3_7 i)).WholeWords (EltTy.packing .bf16)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1024x1024.size a ≤ S1024x4096.size a
  hwx3_8 : ∀ i : grid3.Coords, EltTy.bits .bf16 = 32 ∨ (Rect.block (s := S1024x4096) S1024x1024.size (cc3_transform_8 i) (hinb3_8 i)).WholeWords (EltTy.packing .bf16)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S256x1024.size a ≤ S2048x1024.size a
  hwx3_9 : ∀ i : grid3.Coords, EltTy.bits .f32 = 32 ∨ (Rect.block (s := S2048x1024) S256x1024.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x1024.size a ≤ S2048x1024.size a
  hwx4_0 : ∀ i : grid4.Coords, EltTy.bits .f32 = 32 ∨ (Rect.block (s := S2048x1024) S256x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1024.size a ≤ S1x1024.size a
  hwx4_1 : ∀ i : grid4.Coords, EltTy.bits .f32 = 32 ∨ (Rect.block (s := S1x1024) S1x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1024.size a ≤ S1x1024.size a
  hwx4_3 : ∀ i : grid4.Coords, EltTy.bits .f32 = 32 ∨ (Rect.block (s := S1x1024) S1x1024.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1024.size a ≤ S1x1024.size a
  hwx4_4 : ∀ i : grid4.Coords, EltTy.bits .f32 = 32 ∨ (Rect.block (s := S1x1024) S1x1024.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1024.size a ≤ S1x1024.size a
  hwx4_5 : ∀ i : grid4.Coords, EltTy.bits .f32 = 32 ∨ (Rect.block (s := S1x1024) S1x1024.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1024.size a ≤ S1x1024.size a
  hwx4_6 : ∀ i : grid4.Coords, EltTy.bits .f32 = 32 ∨ (Rect.block (s := S1x1024) S1x1024.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1024.size a ≤ S1x1024.size a
  hwx4_7 : ∀ i : grid4.Coords, EltTy.bits .f32 = 32 ∨ (Rect.block (s := S1x1024) S1x1024.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x1024.size a ≤ S1x1024.size a
  hwx4_8 : ∀ i : grid4.Coords, EltTy.bits .f32 = 32 ∨ (Rect.block (s := S1x1024) S1x1024.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x1024.size a ≤ S1x1024.size a
  hwx4_9 : ∀ i : grid4.Coords, EltTy.bits .f32 = 32 ∨ (Rect.block (s := S1x1024) S1x1024.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1024x1024.size a ≤ S1024x1024.size a
  hwx4_10 : ∀ i : grid4.Coords, EltTy.bits .bf16 = 32 ∨ (Rect.block (s := S1024x1024) S1024x1024.size (cc4_transform_10 i) (hinb4_10 i)).WholeWords (EltTy.packing .bf16)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1024x1024.size a ≤ S1024x1024.size a
  hwx4_11 : ∀ i : grid4.Coords, EltTy.bits .bf16 = 32 ∨ (Rect.block (s := S1024x1024) S1024x1024.size (cc4_transform_11 i) (hinb4_11 i)).WholeWords (EltTy.packing .bf16)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1024x1024.size a ≤ S1024x1024.size a
  hwx4_12 : ∀ i : grid4.Coords, EltTy.bits .bf16 = 32 ∨ (Rect.block (s := S1024x1024) S1024x1024.size (cc4_transform_12 i) (hinb4_12 i)).WholeWords (EltTy.packing .bf16)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1024x1024.size a ≤ S1024x1024.size a
  hwx4_13 : ∀ i : grid4.Coords, EltTy.bits .bf16 = 32 ∨ (Rect.block (s := S1024x1024) S1024x1024.size (cc4_transform_13 i) (hinb4_13 i)).WholeWords (EltTy.packing .bf16)
  hstage4_14 : ∀ j, (stage4_14 j).IsWhole
  nbuf4_14 : grid4.bufCount reads4_14 false = 2
  hreads4_14 : ∀ i i' : grid4.Coords, (∀ a, reads4_14 a = true → i a = i' a) → cc4_transform_14 i = cc4_transform_14 i'
  hinb4_14 : ∀ (i : grid4.Coords) a, (cc4_transform_14 i a + 1) * S256x1024.size a ≤ S2048x1024.size a
  hwx4_14 : ∀ i : grid4.Coords, EltTy.bits .f32 = 32 ∨ (Rect.block (s := S2048x1024) S256x1024.size (cc4_transform_14 i) (hinb4_14 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x1024.size a ≤ S2048x1024.size a
  hwx5_0 : ∀ i : grid5.Coords, EltTy.bits .f32 = 32 ∨ (Rect.block (s := S2048x1024) S256x1024.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1024.size a ≤ S1x1024.size a
  hwx5_1 : ∀ i : grid5.Coords, EltTy.bits .f32 = 32 ∨ (Rect.block (s := S1x1024) S1x1024.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1024.size a ≤ S1x1024.size a
  hwx5_3 : ∀ i : grid5.Coords, EltTy.bits .f32 = 32 ∨ (Rect.block (s := S1x1024) S1x1024.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1024.size a ≤ S1x1024.size a
  hwx5_4 : ∀ i : grid5.Coords, EltTy.bits .f32 = 32 ∨ (Rect.block (s := S1x1024) S1x1024.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x1024.size a ≤ S1x1024.size a
  hwx5_5 : ∀ i : grid5.Coords, EltTy.bits .f32 = 32 ∨ (Rect.block (s := S1x1024) S1x1024.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1024x1024.size a ≤ S4096x1024.size a
  hwx5_6 : ∀ i : grid5.Coords, EltTy.bits .bf16 = 32 ∨ (Rect.block (s := S4096x1024) S1024x1024.size (cc5_transform_6 i) (hinb5_6 i)).WholeWords (EltTy.packing .bf16)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1024x1024.size a ≤ S1024x1024.size a
  hwx5_7 : ∀ i : grid5.Coords, EltTy.bits .bf16 = 32 ∨ (Rect.block (s := S1024x1024) S1024x1024.size (cc5_transform_7 i) (hinb5_7 i)).WholeWords (EltTy.packing .bf16)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1024x1024.size a ≤ S1024x4096.size a
  hwx5_8 : ∀ i : grid5.Coords, EltTy.bits .bf16 = 32 ∨ (Rect.block (s := S1024x4096) S1024x1024.size (cc5_transform_8 i) (hinb5_8 i)).WholeWords (EltTy.packing .bf16)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S256x1024.size a ≤ S2048x1024.size a
  hwx5_9 : ∀ i : grid5.Coords, EltTy.bits .f32 = 32 ∨ (Rect.block (s := S2048x1024) S256x1024.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x1024.size a ≤ S2048x1024.size a
  hwx6_0 : ∀ i : grid6.Coords, EltTy.bits .f32 = 32 ∨ (Rect.block (s := S2048x1024) S256x1024.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x1024.size a ≤ S1x1024.size a
  hwx6_1 : ∀ i : grid6.Coords, EltTy.bits .f32 = 32 ∨ (Rect.block (s := S1x1024) S1x1024.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1024.size a ≤ S1x1024.size a
  hwx6_2 : ∀ i : grid6.Coords, EltTy.bits .f32 = 32 ∨ (Rect.block (s := S1x1024) S1x1024.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1024.size a ≤ S1x1024.size a
  hwx6_3 : ∀ i : grid6.Coords, EltTy.bits .f32 = 32 ∨ (Rect.block (s := S1x1024) S1x1024.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1024.size a ≤ S1x1024.size a
  hwx6_4 : ∀ i : grid6.Coords, EltTy.bits .f32 = 32 ∨ (Rect.block (s := S1x1024) S1x1024.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x1024.size a ≤ S1x1024.size a
  hwx6_5 : ∀ i : grid6.Coords, EltTy.bits .f32 = 32 ∨ (Rect.block (s := S1x1024) S1x1024.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1024.size a ≤ S1x1024.size a
  hwx6_6 : ∀ i : grid6.Coords, EltTy.bits .f32 = 32 ∨ (Rect.block (s := S1x1024) S1x1024.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x1024.size a ≤ S1x1024.size a
  hwx6_7 : ∀ i : grid6.Coords, EltTy.bits .f32 = 32 ∨ (Rect.block (s := S1x1024) S1x1024.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x1024.size a ≤ S1x1024.size a
  hwx6_8 : ∀ i : grid6.Coords, EltTy.bits .f32 = 32 ∨ (Rect.block (s := S1x1024) S1x1024.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x1024.size a ≤ S1x1024.size a
  hwx6_9 : ∀ i : grid6.Coords, EltTy.bits .f32 = 32 ∨ (Rect.block (s := S1x1024) S1x1024.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1024x1024.size a ≤ S1024x1024.size a
  hwx6_10 : ∀ i : grid6.Coords, EltTy.bits .bf16 = 32 ∨ (Rect.block (s := S1024x1024) S1024x1024.size (cc6_transform_10 i) (hinb6_10 i)).WholeWords (EltTy.packing .bf16)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S1024x1024.size a ≤ S1024x1024.size a
  hwx6_11 : ∀ i : grid6.Coords, EltTy.bits .bf16 = 32 ∨ (Rect.block (s := S1024x1024) S1024x1024.size (cc6_transform_11 i) (hinb6_11 i)).WholeWords (EltTy.packing .bf16)
  hstage6_12 : ∀ j, (stage6_12 j).IsWhole
  nbuf6_12 : grid6.bufCount reads6_12 true = 1
  hreads6_12 : ∀ i i' : grid6.Coords, (∀ a, reads6_12 a = true → i a = i' a) → cc6_transform_12 i = cc6_transform_12 i'
  hinb6_12 : ∀ (i : grid6.Coords) a, (cc6_transform_12 i a + 1) * S1024x1024.size a ≤ S1024x1024.size a
  hwx6_12 : ∀ i : grid6.Coords, EltTy.bits .bf16 = 32 ∨ (Rect.block (s := S1024x1024) S1024x1024.size (cc6_transform_12 i) (hinb6_12 i)).WholeWords (EltTy.packing .bf16)
  hstage6_13 : ∀ j, (stage6_13 j).IsWhole
  nbuf6_13 : grid6.bufCount reads6_13 true = 1
  hreads6_13 : ∀ i i' : grid6.Coords, (∀ a, reads6_13 a = true → i a = i' a) → cc6_transform_13 i = cc6_transform_13 i'
  hinb6_13 : ∀ (i : grid6.Coords) a, (cc6_transform_13 i a + 1) * S1024x1024.size a ≤ S1024x1024.size a
  hwx6_13 : ∀ i : grid6.Coords, EltTy.bits .bf16 = 32 ∨ (Rect.block (s := S1024x1024) S1024x1024.size (cc6_transform_13 i) (hinb6_13 i)).WholeWords (EltTy.packing .bf16)
  hstage6_14 : ∀ j, (stage6_14 j).IsWhole
  nbuf6_14 : grid6.bufCount reads6_14 false = 2
  hreads6_14 : ∀ i i' : grid6.Coords, (∀ a, reads6_14 a = true → i a = i' a) → cc6_transform_14 i = cc6_transform_14 i'
  hinb6_14 : ∀ (i : grid6.Coords) a, (cc6_transform_14 i a + 1) * S256x1024.size a ≤ S2048x1024.size a
  hwx6_14 : ∀ i : grid6.Coords, EltTy.bits .f32 = 32 ∨ (Rect.block (s := S2048x1024) S256x1024.size (cc6_transform_14 i) (hinb6_14 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x1024.size a ≤ S2048x1024.size a
  hwx7_0 : ∀ i : grid7.Coords, EltTy.bits .f32 = 32 ∨ (Rect.block (s := S2048x1024) S256x1024.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x1024.size a ≤ S1x1024.size a
  hwx7_1 : ∀ i : grid7.Coords, EltTy.bits .f32 = 32 ∨ (Rect.block (s := S1x1024) S1x1024.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1024.size a ≤ S1x1024.size a
  hwx7_2 : ∀ i : grid7.Coords, EltTy.bits .f32 = 32 ∨ (Rect.block (s := S1x1024) S1x1024.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1024.size a ≤ S1x1024.size a
  hwx7_3 : ∀ i : grid7.Coords, EltTy.bits .f32 = 32 ∨ (Rect.block (s := S1x1024) S1x1024.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1024.size a ≤ S1x1024.size a
  hwx7_4 : ∀ i : grid7.Coords, EltTy.bits .f32 = 32 ∨ (Rect.block (s := S1x1024) S1x1024.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x1024.size a ≤ S1x1024.size a
  hwx7_5 : ∀ i : grid7.Coords, EltTy.bits .f32 = 32 ∨ (Rect.block (s := S1x1024) S1x1024.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1024x1024.size a ≤ S4096x1024.size a
  hwx7_6 : ∀ i : grid7.Coords, EltTy.bits .bf16 = 32 ∨ (Rect.block (s := S4096x1024) S1024x1024.size (cc7_transform_6 i) (hinb7_6 i)).WholeWords (EltTy.packing .bf16)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1024x1024.size a ≤ S1024x1024.size a
  hwx7_7 : ∀ i : grid7.Coords, EltTy.bits .bf16 = 32 ∨ (Rect.block (s := S1024x1024) S1024x1024.size (cc7_transform_7 i) (hinb7_7 i)).WholeWords (EltTy.packing .bf16)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S1024x1024.size a ≤ S1024x4096.size a
  hwx7_8 : ∀ i : grid7.Coords, EltTy.bits .bf16 = 32 ∨ (Rect.block (s := S1024x4096) S1024x1024.size (cc7_transform_8 i) (hinb7_8 i)).WholeWords (EltTy.packing .bf16)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S256x1024.size a ≤ S2048x1024.size a
  hwx7_9 : ∀ i : grid7.Coords, EltTy.bits .f32 = 32 ∨ (Rect.block (s := S2048x1024) S256x1024.size (cc7_transform_9 i) (hinb7_9 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S2048x1024.size a ≤ S2048x1024.size a
  hwx8_0 : ∀ i : grid8.Coords, EltTy.bits .bf16 = 32 ∨ (Rect.block (s := S2048x1024) S2048x1024.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S512x1024.size a ≤ S50688x1024.size a
  hwx8_1 : ∀ i : grid8.Coords, EltTy.bits .bf16 = 32 ∨ (Rect.block (s := S50688x1024) S512x1024.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2048x512.size a ≤ S2048x50688.size a
  hwx8_2 : ∀ i : grid8.Coords, EltTy.bits .bf16 = 32 ∨ (Rect.block (s := S2048x50688) S2048x512.size (cc8_transform_2 i) (hinb8_2 i)).WholeWords (EltTy.packing .bf16)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1x8x128.size a ≤ S99x8x128.size a
  hwx8_3 : ∀ i : grid8.Coords, EltTy.bits .f32 = 32 ∨ (Rect.block (s := S99x8x128) S1x8x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1x8x128.size a ≤ S99x8x128.size a
  hwx8_4 : ∀ i : grid8.Coords, EltTy.bits .f32 = 32 ∨ (Rect.block (s := S99x8x128) S1x8x128.size (cc8_transform_4 i) (hinb8_4 i)).WholeWords (EltTy.packing .f32)

variable [Facts₀]

def gather_S50257x1024_S2x1024x1_S2x1024x1024_2_0_n_n_0_2_11024 : GatherDims S50257x1024 S2x1024x1 S2x1024x1024 where
  offsetDims := [2]
  collapsedSliceDims := [0]
  operandBatchingDims := []
  startIndicesBatchingDims := []
  startIndexMap := [0]
  indexVectorDim := 2
  sliceSizes := ![1, 1024]
  wf := gather_S50257x1024_S2x1024x1_S2x1024x1024_2_0_n_n_0_2_11024_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_v31) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v62) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v63) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v64) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v65) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v66) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v67) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v68) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v69) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v70) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v58) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v59) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v60) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v61) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v71) S256x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v71) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v91) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v92) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v93) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v94) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v95) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v88) S1024x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v89) S1024x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v90) S1024x1024.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v96) S256x1024.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v96) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v127) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v128) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v129) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v130) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v131) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v132) S1x1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v133) S1x1024.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v134) S1x1024.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v135) S1x1024.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v123) S1024x1024.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v124) S1024x1024.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v125) S1024x1024.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v126) S1024x1024.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v136) S256x1024.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

abbrev win3_0 : Pipeline.Window sig grid3 :=
  Pipeline.Window.ofSpec (Memref.whole main_v136) S256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v156) S1x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v157) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v158) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v159) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v160) S1x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v153) S1024x1024.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v154) S1024x1024.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v155) S1024x1024.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v161) S256x1024.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev idle3 : Fin 10 → grid3.Coords → Bool := fun | 0 => fun _ => false | 1 => fun _ => false | 2 => fun _ => false | 3 => fun _ => false | 4 => fun _ => false | 5 => fun _ => false | 6 => fun _ => false | 7 => fun _ => false | 8 => fun _ => false | 9 => fun i => !(k3_cond2 i == 1#1) | ⟨_ + 10, h⟩ => absurd h (Nat.not_lt.2 (Nat.le_add_left _ _))

abbrev win4_0 : Pipeline.Window sig grid4 :=
  Pipeline.Window.ofSpec (Memref.whole main_v161) S256x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v192) S1x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v193) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v194) S1x1024.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v195) S1x1024.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v196) S1x1024.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v197) S1x1024.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v198) S1x1024.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v199) S1x1024.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v200) S1x1024.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v188) S1024x1024.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v189) S1024x1024.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v190) S1024x1024.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v191) S1024x1024.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v201) S256x1024.size cc4_transform_14 reads4_14 true false 2 stage4_14 sem4_14
    hrank4 hreads4_14 hinb4_14 nbuf4_14 (Memref.isWhole_whole _) hwx4_14 hstage4_14

abbrev win4 : Fin 15 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | ⟨_ + 15, h⟩ => absurd h (Nat.not_lt.2 (Nat.le_add_left _ _))
abbrev spec4 : Fin 15 → Pipeline.WinSpec sig grid4.rank := fun w => (win4 w).toWinSpec

abbrev win5_0 : Pipeline.Window sig grid5 :=
  Pipeline.Window.ofSpec (Memref.whole main_v201) S256x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v221) S1x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v222) S1x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v223) S1x1024.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v224) S1x1024.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v225) S1x1024.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v218) S1024x1024.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v219) S1024x1024.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v220) S1024x1024.size cc5_transform_8 reads5_8 false false 2 stage5_8 sem5_8
    hrank5 hreads5_8 hinb5_8 nbuf5_8 (Memref.isWhole_whole _) hwx5_8 hstage5_8

abbrev win5_9 : Pipeline.Window sig grid5 :=
  Pipeline.Window.ofSpec (Memref.whole main_v226) S256x1024.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev idle5 : Fin 10 → grid5.Coords → Bool := fun | 0 => fun _ => false | 1 => fun _ => false | 2 => fun _ => false | 3 => fun _ => false | 4 => fun _ => false | 5 => fun _ => false | 6 => fun _ => false | 7 => fun _ => false | 8 => fun _ => false | 9 => fun i => !(k5_cond2 i == 1#1) | ⟨_ + 10, h⟩ => absurd h (Nat.not_lt.2 (Nat.le_add_left _ _))

abbrev win6_0 : Pipeline.Window sig grid6 :=
  Pipeline.Window.ofSpec (Memref.whole main_v226) S256x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v257) S1x1024.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v258) S1x1024.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v259) S1x1024.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v260) S1x1024.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v261) S1x1024.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v262) S1x1024.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v263) S1x1024.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v264) S1x1024.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v265) S1x1024.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v253) S1024x1024.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v254) S1024x1024.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v255) S1024x1024.size cc6_transform_12 reads6_12 false true 1 stage6_12 sem6_12
    hrank6 hreads6_12 hinb6_12 nbuf6_12 (Memref.isWhole_whole _) hwx6_12 hstage6_12

abbrev win6_13 : Pipeline.Window sig grid6 :=
  Pipeline.Window.ofSpec (Memref.whole main_v256) S1024x1024.size cc6_transform_13 reads6_13 false true 1 stage6_13 sem6_13
    hrank6 hreads6_13 hinb6_13 nbuf6_13 (Memref.isWhole_whole _) hwx6_13 hstage6_13

abbrev win6_14 : Pipeline.Window sig grid6 :=
  Pipeline.Window.ofSpec (Memref.whole main_v266) S256x1024.size cc6_transform_14 reads6_14 true false 2 stage6_14 sem6_14
    hrank6 hreads6_14 hinb6_14 nbuf6_14 (Memref.isWhole_whole _) hwx6_14 hstage6_14

abbrev win6 : Fin 15 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | 14 => win6_14 | ⟨_ + 15, h⟩ => absurd h (Nat.not_lt.2 (Nat.le_add_left _ _))
abbrev spec6 : Fin 15 → Pipeline.WinSpec sig grid6.rank := fun w => (win6 w).toWinSpec

abbrev win7_0 : Pipeline.Window sig grid7 :=
  Pipeline.Window.ofSpec (Memref.whole main_v266) S256x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v286) S1x1024.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v287) S1x1024.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v288) S1x1024.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v289) S1x1024.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v290) S1x1024.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v283) S1024x1024.size cc7_transform_6 reads7_6 false false 2 stage7_6 sem7_6
    hrank7 hreads7_6 hinb7_6 nbuf7_6 (Memref.isWhole_whole _) hwx7_6 hstage7_6

abbrev win7_7 : Pipeline.Window sig grid7 :=
  Pipeline.Window.ofSpec (Memref.whole main_v284) S1024x1024.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v285) S1024x1024.size cc7_transform_8 reads7_8 false false 2 stage7_8 sem7_8
    hrank7 hreads7_8 hinb7_8 nbuf7_8 (Memref.isWhole_whole _) hwx7_8 hstage7_8

abbrev win7_9 : Pipeline.Window sig grid7 :=
  Pipeline.Window.ofSpec (Memref.whole main_v291) S256x1024.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev idle7 : Fin 10 → grid7.Coords → Bool := fun | 0 => fun _ => false | 1 => fun _ => false | 2 => fun _ => false | 3 => fun _ => false | 4 => fun _ => false | 5 => fun _ => false | 6 => fun _ => false | 7 => fun _ => false | 8 => fun _ => false | 9 => fun i => !(k7_cond2 i == 1#1) | ⟨_ + 10, h⟩ => absurd h (Nat.not_lt.2 (Nat.le_add_left _ _))

abbrev win8_0 : Pipeline.Window sig grid8 :=
  Pipeline.Window.ofSpec (Memref.whole main_v316) S2048x1024.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v318) S512x1024.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v319_0) S2048x512.size cc8_transform_2 reads8_2 true false 2 stage8_2 sem8_2
    hrank8 hreads8_2 hinb8_2 nbuf8_2 (Memref.isWhole_whole _) hwx8_2 hstage8_2

abbrev win8_3 : Pipeline.Window sig grid8 :=
  Pipeline.Window.ofSpec (Memref.whole main_v319_1) S1x8x128.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v319_2) S1x8x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S2x1024 : Shape := ⟨2, ![2, 1024]⟩
abbrev S50257x1024 : Shape := ⟨2, ![50257, 1024]⟩
abbrev S1024 : Shape := ⟨1, ![1024]⟩
abbrev S4x1024 : Shape := ⟨2, ![4, 1024]⟩
abbrev S4x1024x1024 : Shape := ⟨3, ![4, 1024, 1024]⟩
abbrev S4x4096x1024 : Shape := ⟨3, ![4, 4096, 1024]⟩
abbrev S4x1024x4096 : Shape := ⟨3, ![4, 1024, 4096]⟩
abbrev S_ : Shape := ⟨0, ![]⟩
abbrev S2x1024x1 : Shape := ⟨3, ![2, 1024, 1]⟩
abbrev S2x1024x1024 : Shape := ⟨3, ![2, 1024, 1024]⟩
abbrev S1x1x1024 : Shape := ⟨3, ![1, 1, 1024]⟩
abbrev S1x1024 : Shape := ⟨2, ![1, 1024]⟩
abbrev S1x1024x1024 : Shape := ⟨3, ![1, 1024, 1024]⟩
abbrev S1024x1024 : Shape := ⟨2, ![1024, 1024]⟩
abbrev S1x4096x1024 : Shape := ⟨3, ![1, 4096, 1024]⟩
abbrev S4096x1024 : Shape := ⟨2, ![4096, 1024]⟩
abbrev S2x1024x4096 : Shape := ⟨3, ![2, 1024, 4096]⟩
abbrev S1x1024x4096 : Shape := ⟨3, ![1, 1024, 4096]⟩
abbrev S1024x4096 : Shape := ⟨2, ![1024, 4096]⟩
abbrev S2x1024x50257 : Shape := ⟨3, ![2, 1024, 50257]⟩

abbrev nBuf : Space → Nat
  | .hbm => 918
  | .vmem => 0
  | .smem => 0
  | _ => 0

abbrev hbmTy0_0 (i : Nat) : BufTy := match i % 128 with
  | 0 => ⟨S2x1024, .i32⟩
  | 1 => ⟨S50257x1024, .f32⟩
  | 2 => ⟨S1024, .f32⟩
  | 3 => ⟨S1024, .f32⟩
  | 4 => ⟨S4x1024, .f32⟩
  | 5 => ⟨S4x1024, .f32⟩
  | 6 => ⟨S4x1024, .f32⟩
  | 7 => ⟨S4x1024, .f32⟩
  | 8 => ⟨S4x1024, .f32⟩
  | 9 => ⟨S4x1024, .f32⟩
  | 10 => ⟨S4x1024, .f32⟩
  | 11 => ⟨S4x1024, .f32⟩
  | 12 => ⟨S4x1024, .f32⟩
  | 13 => ⟨S4x1024x1024, .f32⟩
  | 14 => ⟨S4x1024x1024, .f32⟩
  | 15 => ⟨S4x1024x1024, .f32⟩
  | 16 => ⟨S4x1024x1024, .f32⟩
  | 17 => ⟨S4x1024, .f32⟩
  | 18 => ⟨S4x1024, .f32⟩
  | 19 => ⟨S4x4096x1024, .f32⟩
  | 20 => ⟨S4x1024x1024, .f32⟩
  | 21 => ⟨S4x1024x4096, .f32⟩
  | 22 => ⟨S1024, .f32⟩
  | 23 => ⟨S1024, .f32⟩
  | 24 => ⟨S50257x1024, .f32⟩
  | 25 => ⟨S4x1024, .f32⟩
  | 26 => ⟨S4x1024, .f32⟩
  | 27 => ⟨S4x1024, .f32⟩
  | 28 => ⟨S4x1024, .f32⟩
  | 29 => ⟨S_, .i32⟩
  | 30 => ⟨S2x1024, .i32⟩
  | 31 => ⟨S2x1024, .i1⟩
  | 32 => ⟨S_, .i32⟩
  | 33 => ⟨S2x1024, .i32⟩
  | 34 => ⟨S2x1024, .i32⟩
  | 35 => ⟨S2x1024, .i32⟩
  | 36 => ⟨S2x1024x1, .i32⟩
  | 37 => ⟨S2x1024x1024, .f32⟩
  | 38 => ⟨S_, .f32⟩
  | 39 => ⟨S2x1024, .f32⟩
  | 40 => ⟨S2x1024x1, .f32⟩
  | 41 => ⟨S_, .f32⟩
  | 42 => ⟨S2x1024x1, .f32⟩
  | 43 => ⟨S2x1024x1, .f32⟩
  | 44 => ⟨S2x1024x1024, .f32⟩
  | 45 => ⟨S2x1024x1024, .f32⟩
  | 46 => ⟨S2x1024x1024, .f32⟩
  | 47 => ⟨S_, .f32⟩
  | 48 => ⟨S2x1024, .f32⟩
  | 49 => ⟨S2x1024x1, .f32⟩
  | 50 => ⟨S_, .f32⟩
  | 51 => ⟨S2x1024x1, .f32⟩
  | 52 => ⟨S2x1024x1, .f32⟩
  | 53 => ⟨S2x1024x1024, .f32⟩
  | 54 => ⟨S2x1024x1024, .f32⟩
  | 55 => ⟨S_, .f32⟩
  | 56 => ⟨S2x1024x1, .f32⟩
  | 57 => ⟨S2x1024x1, .f32⟩
  | 58 => ⟨S2x1024x1, .f32⟩
  | 59 => ⟨S2x1024x1024, .f32⟩
  | 60 => ⟨S2x1024x1024, .f32⟩
  | 61 => ⟨S1x1x1024, .f32⟩
  | 62 => ⟨S2x1024x1024, .f32⟩
  | 63 => ⟨S2x1024x1024, .f32⟩
  | 64 => ⟨S1x1x1024, .f32⟩
  | 65 => ⟨S2x1024x1024, .f32⟩
  | 66 => ⟨S2x1024x1024, .f32⟩
  | 67 => ⟨S1x1024, .f32⟩
  | 68 => ⟨S1024, .f32⟩
  | 69 => ⟨S1x1024, .f32⟩
  | 70 => ⟨S1024, .f32⟩
  | 71 => ⟨S_, .f32⟩
  | 72 => ⟨S2x1024, .f32⟩
  | 73 => ⟨S2x1024x1, .f32⟩
  | 74 => ⟨S_, .f32⟩
  | 75 => ⟨S2x1024x1, .f32⟩
  | 76 => ⟨S2x1024x1, .f32⟩
  | 77 => ⟨S2x1024x1024, .f32⟩
  | 78 => ⟨S2x1024x1024, .f32⟩
  | 79 => ⟨S2x1024x1024, .f32⟩
  | 80 => ⟨S_, .f32⟩
  | 81 => ⟨S2x1024, .f32⟩
  | 82 => ⟨S2x1024x1, .f32⟩
  | 83 => ⟨S_, .f32⟩
  | 84 => ⟨S2x1024x1, .f32⟩
  | 85 => ⟨S2x1024x1, .f32⟩
  | 86 => ⟨S2x1024x1024, .f32⟩
  | 87 => ⟨S2x1024x1024, .f32⟩
  | 88 => ⟨S_, .f32⟩
  | 89 => ⟨S2x1024x1, .f32⟩
  | 90 => ⟨S2x1024x1, .f32⟩
  | 91 => ⟨S2x1024x1, .f32⟩
  | 92 => ⟨S2x1024x1024, .f32⟩
  | 93 => ⟨S2x1024x1024, .f32⟩
  | 94 => ⟨S1x1x1024, .f32⟩
  | 95 => ⟨S2x1024x1024, .f32⟩
  | 96 => ⟨S2x1024x1024, .f32⟩
  | 97 => ⟨S1x1x1024, .f32⟩
  | 98 => ⟨S2x1024x1024, .f32⟩
  | 99 => ⟨S2x1024x1024, .f32⟩
  | 100 => ⟨S1x1024, .f32⟩
  | 101 => ⟨S1024, .f32⟩
  | 102 => ⟨S1x1024, .f32⟩
  | 103 => ⟨S1024, .f32⟩
  | 104 => ⟨S1x1x1024, .f32⟩
  | 105 => ⟨S2x1024x1024, .f32⟩
  | 106 => ⟨S2x1024x1024, .f32⟩
  | 107 => ⟨S1x1024, .f32⟩
  | 108 => ⟨S1024, .f32⟩
  | 109 => ⟨S_, .f32⟩
  | 110 => ⟨S1024, .f32⟩
  | 111 => ⟨S1024, .f32⟩
  | 112 => ⟨S1024, .f32⟩
  | 113 => ⟨S1x1x1024, .f32⟩
  | 114 => ⟨S2x1024x1024, .f32⟩
  | 115 => ⟨S2x1024x1024, .f32⟩
  | 116 => ⟨S1x1024x1024, .f32⟩
  | 117 => ⟨S1024x1024, .f32⟩
  | 118 => ⟨S2x1024x1024, .f32⟩
  | 119 => ⟨S1x1024, .f32⟩
  | 120 => ⟨S1024, .f32⟩
  | 121 => ⟨S1x1x1024, .f32⟩
  | 122 => ⟨S2x1024x1024, .f32⟩
  | 123 => ⟨S2x1024x1024, .f32⟩
  | 124 => ⟨S1x1024, .f32⟩
  | 125 => ⟨S1024, .f32⟩
  | 126 => ⟨S_, .f32⟩
  | 127 => ⟨S1024, .f32⟩
  | _ => ⟨S2x1024, .i32⟩

abbrev hbmTy0_1 (i : Nat) : BufTy := match i % 128 with
  | 0 => ⟨S1024, .f32⟩
  | 1 => ⟨S1024, .f32⟩
  | 2 => ⟨S1x1x1024, .f32⟩
  | 3 => ⟨S2x1024x1024, .f32⟩
  | 4 => ⟨S2x1024x1024, .f32⟩
  | 5 => ⟨S1x1024x1024, .f32⟩
  | 6 => ⟨S1024x1024, .f32⟩
  | 7 => ⟨S2x1024x1024, .f32⟩
  | 8 => ⟨S1x1024, .f32⟩
  | 9 => ⟨S1024, .f32⟩
  | 10 => ⟨S1x1x1024, .f32⟩
  | 11 => ⟨S2x1024x1024, .f32⟩
  | 12 => ⟨S2x1024x1024, .f32⟩
  | 13 => ⟨S1x1024, .f32⟩
  | 14 => ⟨S1024, .f32⟩
  | 15 => ⟨S_, .f32⟩
  | 16 => ⟨S1024, .f32⟩
  | 17 => ⟨S1024, .f32⟩
  | 18 => ⟨S1024, .f32⟩
  | 19 => ⟨S1x1x1024, .f32⟩
  | 20 => ⟨S2x1024x1024, .f32⟩
  | 21 => ⟨S2x1024x1024, .f32⟩
  | 22 => ⟨S1x1024x1024, .f32⟩
  | 23 => ⟨S1024x1024, .f32⟩
  | 24 => ⟨S2x1024x1024, .f32⟩
  | 25 => ⟨S1x1024, .f32⟩
  | 26 => ⟨S1024, .f32⟩
  | 27 => ⟨S1x1x1024, .f32⟩
  | 28 => ⟨S2x1024x1024, .f32⟩
  | 29 => ⟨S2x1024x1024, .f32⟩
  | 30 => ⟨S2x1024x1024, .f32⟩
  | 31 => ⟨S1x1024, .f32⟩
  | 32 => ⟨S1024, .f32⟩
  | 33 => ⟨S2x1024x1024, .f32⟩
  | 34 => ⟨S1x1x1024, .f32⟩
  | 35 => ⟨S2x1024x1024, .f32⟩
  | 36 => ⟨S2x1024x1024, .f32⟩
  | 37 => ⟨S1x1024, .f32⟩
  | 38 => ⟨S1024, .f32⟩
  | 39 => ⟨S1x1x1024, .f32⟩
  | 40 => ⟨S2x1024x1024, .f32⟩
  | 41 => ⟨S2x1024x1024, .f32⟩
  | 42 => ⟨S2x1024x1024, .f32⟩
  | 43 => ⟨S2x1024x1024, .f32⟩
  | 44 => ⟨S2x1024x1024, .f32⟩
  | 45 => ⟨S_, .f32⟩
  | 46 => ⟨S2x1024x1024, .f32⟩
  | 47 => ⟨S2x1024x1024, .f32⟩
  | 48 => ⟨S_, .f32⟩
  | 49 => ⟨S2x1024x1024, .f32⟩
  | 50 => ⟨S2x1024x1024, .f32⟩
  | 51 => ⟨S2x1024x1024, .f32⟩
  | 52 => ⟨S1x1024x1024, .f32⟩
  | 53 => ⟨S1024x1024, .f32⟩
  | 54 => ⟨S2x1024x1024, .f32⟩
  | 55 => ⟨S2x1024x1024, .f32⟩
  | 56 => ⟨S1x1024, .f32⟩
  | 57 => ⟨S1024, .f32⟩
  | 58 => ⟨S1x1024, .f32⟩
  | 59 => ⟨S1024, .f32⟩
  | 60 => ⟨S_, .f32⟩
  | 61 => ⟨S2x1024, .f32⟩
  | 62 => ⟨S2x1024x1, .f32⟩
  | 63 => ⟨S_, .f32⟩
  | 64 => ⟨S2x1024x1, .f32⟩
  | 65 => ⟨S2x1024x1, .f32⟩
  | 66 => ⟨S2x1024x1024, .f32⟩
  | 67 => ⟨S2x1024x1024, .f32⟩
  | 68 => ⟨S2x1024x1024, .f32⟩
  | 69 => ⟨S_, .f32⟩
  | 70 => ⟨S2x1024, .f32⟩
  | 71 => ⟨S2x1024x1, .f32⟩
  | 72 => ⟨S_, .f32⟩
  | 73 => ⟨S2x1024x1, .f32⟩
  | 74 => ⟨S2x1024x1, .f32⟩
  | 75 => ⟨S2x1024x1024, .f32⟩
  | 76 => ⟨S2x1024x1024, .f32⟩
  | 77 => ⟨S_, .f32⟩
  | 78 => ⟨S2x1024x1, .f32⟩
  | 79 => ⟨S2x1024x1, .f32⟩
  | 80 => ⟨S2x1024x1, .f32⟩
  | 81 => ⟨S2x1024x1024, .f32⟩
  | 82 => ⟨S2x1024x1024, .f32⟩
  | 83 => ⟨S1x1x1024, .f32⟩
  | 84 => ⟨S2x1024x1024, .f32⟩
  | 85 => ⟨S2x1024x1024, .f32⟩
  | 86 => ⟨S1x1x1024, .f32⟩
  | 87 => ⟨S2x1024x1024, .f32⟩
  | 88 => ⟨S2x1024x1024, .f32⟩
  | 89 => ⟨S1x1024, .f32⟩
  | 90 => ⟨S1024, .f32⟩
  | 91 => ⟨S1x1024, .f32⟩
  | 92 => ⟨S1024, .f32⟩
  | 93 => ⟨S1x1x1024, .f32⟩
  | 94 => ⟨S2x1024x1024, .f32⟩
  | 95 => ⟨S2x1024x1024, .f32⟩
  | 96 => ⟨S1x1024, .f32⟩
  | 97 => ⟨S1024, .f32⟩
  | 98 => ⟨S_, .f32⟩
  | 99 => ⟨S1024, .f32⟩
  | 100 => ⟨S1024, .f32⟩
  | 101 => ⟨S1024, .f32⟩
  | 102 => ⟨S1x1x1024, .f32⟩
  | 103 => ⟨S2x1024x1024, .f32⟩
  | 104 => ⟨S2x1024x1024, .f32⟩
  | 105 => ⟨S1x4096x1024, .f32⟩
  | 106 => ⟨S4096x1024, .f32⟩
  | 107 => ⟨S2x1024x4096, .f32⟩
  | 108 => ⟨S1x1024, .f32⟩
  | 109 => ⟨S1024, .f32⟩
  | 110 => ⟨S1x1x1024, .f32⟩
  | 111 => ⟨S2x1024x1024, .f32⟩
  | 112 => ⟨S2x1024x1024, .f32⟩
  | 113 => ⟨S1x1024, .f32⟩
  | 114 => ⟨S1024, .f32⟩
  | 115 => ⟨S_, .f32⟩
  | 116 => ⟨S1024, .f32⟩
  | 117 => ⟨S1024, .f32⟩
  | 118 => ⟨S1024, .f32⟩
  | 119 => ⟨S1x1x1024, .f32⟩
  | 120 => ⟨S2x1024x1024, .f32⟩
  | 121 => ⟨S2x1024x1024, .f32⟩
  | 122 => ⟨S1x1024x1024, .f32⟩
  | 123 => ⟨S1024x1024, .f32⟩
  | 124 => ⟨S2x1024x1024, .f32⟩
  | 125 => ⟨S_, .f32⟩
  | 126 => ⟨S2x1024x4096, .f32⟩
  | 127 => ⟨S2x1024x4096, .f32⟩
  | _ => ⟨S2x1024, .i32⟩

abbrev hbmTy0_2 (i : Nat) : BufTy := match i % 128 with
  | 0 => ⟨S2x1024x4096, .f32⟩
  | 1 => ⟨S1x1024x4096, .f32⟩
  | 2 => ⟨S1024x4096, .f32⟩
  | 3 => ⟨S2x1024x1024, .f32⟩
  | 4 => ⟨S2x1024x1024, .f32⟩
  | 5 => ⟨S2x1024x1024, .f32⟩
  | 6 => ⟨S_, .f32⟩
  | 7 => ⟨S2x1024x1024, .f32⟩
  | 8 => ⟨S2x1024x1024, .f32⟩
  | 9 => ⟨S_, .f32⟩
  | 10 => ⟨S2x1024x1024, .f32⟩
  | 11 => ⟨S2x1024x1024, .f32⟩
  | 12 => ⟨S2x1024x1024, .f32⟩
  | 13 => ⟨S2x1024x1024, .f32⟩
  | 14 => ⟨S1x1024, .f32⟩
  | 15 => ⟨S1024, .f32⟩
  | 16 => ⟨S1x1024, .f32⟩
  | 17 => ⟨S1024, .f32⟩
  | 18 => ⟨S_, .f32⟩
  | 19 => ⟨S2x1024, .f32⟩
  | 20 => ⟨S2x1024x1, .f32⟩
  | 21 => ⟨S_, .f32⟩
  | 22 => ⟨S2x1024x1, .f32⟩
  | 23 => ⟨S2x1024x1, .f32⟩
  | 24 => ⟨S2x1024x1024, .f32⟩
  | 25 => ⟨S2x1024x1024, .f32⟩
  | 26 => ⟨S2x1024x1024, .f32⟩
  | 27 => ⟨S_, .f32⟩
  | 28 => ⟨S2x1024, .f32⟩
  | 29 => ⟨S2x1024x1, .f32⟩
  | 30 => ⟨S_, .f32⟩
  | 31 => ⟨S2x1024x1, .f32⟩
  | 32 => ⟨S2x1024x1, .f32⟩
  | 33 => ⟨S2x1024x1024, .f32⟩
  | 34 => ⟨S2x1024x1024, .f32⟩
  | 35 => ⟨S_, .f32⟩
  | 36 => ⟨S2x1024x1, .f32⟩
  | 37 => ⟨S2x1024x1, .f32⟩
  | 38 => ⟨S2x1024x1, .f32⟩
  | 39 => ⟨S2x1024x1024, .f32⟩
  | 40 => ⟨S2x1024x1024, .f32⟩
  | 41 => ⟨S1x1x1024, .f32⟩
  | 42 => ⟨S2x1024x1024, .f32⟩
  | 43 => ⟨S2x1024x1024, .f32⟩
  | 44 => ⟨S1x1x1024, .f32⟩
  | 45 => ⟨S2x1024x1024, .f32⟩
  | 46 => ⟨S2x1024x1024, .f32⟩
  | 47 => ⟨S1x1024, .f32⟩
  | 48 => ⟨S1024, .f32⟩
  | 49 => ⟨S1x1024, .f32⟩
  | 50 => ⟨S1024, .f32⟩
  | 51 => ⟨S1x1x1024, .f32⟩
  | 52 => ⟨S2x1024x1024, .f32⟩
  | 53 => ⟨S2x1024x1024, .f32⟩
  | 54 => ⟨S1x1024, .f32⟩
  | 55 => ⟨S1024, .f32⟩
  | 56 => ⟨S_, .f32⟩
  | 57 => ⟨S1024, .f32⟩
  | 58 => ⟨S1024, .f32⟩
  | 59 => ⟨S1024, .f32⟩
  | 60 => ⟨S1x1x1024, .f32⟩
  | 61 => ⟨S2x1024x1024, .f32⟩
  | 62 => ⟨S2x1024x1024, .f32⟩
  | 63 => ⟨S1x1024x1024, .f32⟩
  | 64 => ⟨S1024x1024, .f32⟩
  | 65 => ⟨S2x1024x1024, .f32⟩
  | 66 => ⟨S1x1024, .f32⟩
  | 67 => ⟨S1024, .f32⟩
  | 68 => ⟨S1x1x1024, .f32⟩
  | 69 => ⟨S2x1024x1024, .f32⟩
  | 70 => ⟨S2x1024x1024, .f32⟩
  | 71 => ⟨S1x1024, .f32⟩
  | 72 => ⟨S1024, .f32⟩
  | 73 => ⟨S_, .f32⟩
  | 74 => ⟨S1024, .f32⟩
  | 75 => ⟨S1024, .f32⟩
  | 76 => ⟨S1024, .f32⟩
  | 77 => ⟨S1x1x1024, .f32⟩
  | 78 => ⟨S2x1024x1024, .f32⟩
  | 79 => ⟨S2x1024x1024, .f32⟩
  | 80 => ⟨S1x1024x1024, .f32⟩
  | 81 => ⟨S1024x1024, .f32⟩
  | 82 => ⟨S2x1024x1024, .f32⟩
  | 83 => ⟨S1x1024, .f32⟩
  | 84 => ⟨S1024, .f32⟩
  | 85 => ⟨S1x1x1024, .f32⟩
  | 86 => ⟨S2x1024x1024, .f32⟩
  | 87 => ⟨S2x1024x1024, .f32⟩
  | 88 => ⟨S1x1024, .f32⟩
  | 89 => ⟨S1024, .f32⟩
  | 90 => ⟨S_, .f32⟩
  | 91 => ⟨S1024, .f32⟩
  | 92 => ⟨S1024, .f32⟩
  | 93 => ⟨S1024, .f32⟩
  | 94 => ⟨S1x1x1024, .f32⟩
  | 95 => ⟨S2x1024x1024, .f32⟩
  | 96 => ⟨S2x1024x1024, .f32⟩
  | 97 => ⟨S1x1024x1024, .f32⟩
  | 98 => ⟨S1024x1024, .f32⟩
  | 99 => ⟨S2x1024x1024, .f32⟩
  | 100 => ⟨S1x1024, .f32⟩
  | 101 => ⟨S1024, .f32⟩
  | 102 => ⟨S1x1x1024, .f32⟩
  | 103 => ⟨S2x1024x1024, .f32⟩
  | 104 => ⟨S2x1024x1024, .f32⟩
  | 105 => ⟨S2x1024x1024, .f32⟩
  | 106 => ⟨S1x1024, .f32⟩
  | 107 => ⟨S1024, .f32⟩
  | 108 => ⟨S2x1024x1024, .f32⟩
  | 109 => ⟨S1x1x1024, .f32⟩
  | 110 => ⟨S2x1024x1024, .f32⟩
  | 111 => ⟨S2x1024x1024, .f32⟩
  | 112 => ⟨S1x1024, .f32⟩
  | 113 => ⟨S1024, .f32⟩
  | 114 => ⟨S1x1x1024, .f32⟩
  | 115 => ⟨S2x1024x1024, .f32⟩
  | 116 => ⟨S2x1024x1024, .f32⟩
  | 117 => ⟨S2x1024x1024, .f32⟩
  | 118 => ⟨S2x1024x1024, .f32⟩
  | 119 => ⟨S2x1024x1024, .f32⟩
  | 120 => ⟨S_, .f32⟩
  | 121 => ⟨S2x1024x1024, .f32⟩
  | 122 => ⟨S2x1024x1024, .f32⟩
  | 123 => ⟨S_, .f32⟩
  | 124 => ⟨S2x1024x1024, .f32⟩
  | 125 => ⟨S2x1024x1024, .f32⟩
  | 126 => ⟨S2x1024x1024, .f32⟩
  | 127 => ⟨S1x1024x1024, .f32⟩
  | _ => ⟨S2x1024, .i32⟩

abbrev hbmTy0_3 (i : Nat) : BufTy := match i % 128 with
  | 0 => ⟨S1024x1024, .f32⟩
  | 1 => ⟨S2x1024x1024, .f32⟩
  | 2 => ⟨S2x1024x1024, .f32⟩
  | 3 => ⟨S1x1024, .f32⟩
  | 4 => ⟨S1024, .f32⟩
  | 5 => ⟨S1x1024, .f32⟩
  | 6 => ⟨S1024, .f32⟩
  | 7 => ⟨S_, .f32⟩
  | 8 => ⟨S2x1024, .f32⟩
  | 9 => ⟨S2x1024x1, .f32⟩
  | 10 => ⟨S_, .f32⟩
  | 11 => ⟨S2x1024x1, .f32⟩
  | 12 => ⟨S2x1024x1, .f32⟩
  | 13 => ⟨S2x1024x1024, .f32⟩
  | 14 => ⟨S2x1024x1024, .f32⟩
  | 15 => ⟨S2x1024x1024, .f32⟩
  | 16 => ⟨S_, .f32⟩
  | 17 => ⟨S2x1024, .f32⟩
  | 18 => ⟨S2x1024x1, .f32⟩
  | 19 => ⟨S_, .f32⟩
  | 20 => ⟨S2x1024x1, .f32⟩
  | 21 => ⟨S2x1024x1, .f32⟩
  | 22 => ⟨S2x1024x1024, .f32⟩
  | 23 => ⟨S2x1024x1024, .f32⟩
  | 24 => ⟨S_, .f32⟩
  | 25 => ⟨S2x1024x1, .f32⟩
  | 26 => ⟨S2x1024x1, .f32⟩
  | 27 => ⟨S2x1024x1, .f32⟩
  | 28 => ⟨S2x1024x1024, .f32⟩
  | 29 => ⟨S2x1024x1024, .f32⟩
  | 30 => ⟨S1x1x1024, .f32⟩
  | 31 => ⟨S2x1024x1024, .f32⟩
  | 32 => ⟨S2x1024x1024, .f32⟩
  | 33 => ⟨S1x1x1024, .f32⟩
  | 34 => ⟨S2x1024x1024, .f32⟩
  | 35 => ⟨S2x1024x1024, .f32⟩
  | 36 => ⟨S1x1024, .f32⟩
  | 37 => ⟨S1024, .f32⟩
  | 38 => ⟨S1x1024, .f32⟩
  | 39 => ⟨S1024, .f32⟩
  | 40 => ⟨S1x1x1024, .f32⟩
  | 41 => ⟨S2x1024x1024, .f32⟩
  | 42 => ⟨S2x1024x1024, .f32⟩
  | 43 => ⟨S1x1024, .f32⟩
  | 44 => ⟨S1024, .f32⟩
  | 45 => ⟨S_, .f32⟩
  | 46 => ⟨S1024, .f32⟩
  | 47 => ⟨S1024, .f32⟩
  | 48 => ⟨S1024, .f32⟩
  | 49 => ⟨S1x1x1024, .f32⟩
  | 50 => ⟨S2x1024x1024, .f32⟩
  | 51 => ⟨S2x1024x1024, .f32⟩
  | 52 => ⟨S1x4096x1024, .f32⟩
  | 53 => ⟨S4096x1024, .f32⟩
  | 54 => ⟨S2x1024x4096, .f32⟩
  | 55 => ⟨S1x1024, .f32⟩
  | 56 => ⟨S1024, .f32⟩
  | 57 => ⟨S1x1x1024, .f32⟩
  | 58 => ⟨S2x1024x1024, .f32⟩
  | 59 => ⟨S2x1024x1024, .f32⟩
  | 60 => ⟨S1x1024, .f32⟩
  | 61 => ⟨S1024, .f32⟩
  | 62 => ⟨S_, .f32⟩
  | 63 => ⟨S1024, .f32⟩
  | 64 => ⟨S1024, .f32⟩
  | 65 => ⟨S1024, .f32⟩
  | 66 => ⟨S1x1x1024, .f32⟩
  | 67 => ⟨S2x1024x1024, .f32⟩
  | 68 => ⟨S2x1024x1024, .f32⟩
  | 69 => ⟨S1x1024x1024, .f32⟩
  | 70 => ⟨S1024x1024, .f32⟩
  | 71 => ⟨S2x1024x1024, .f32⟩
  | 72 => ⟨S_, .f32⟩
  | 73 => ⟨S2x1024x4096, .f32⟩
  | 74 => ⟨S2x1024x4096, .f32⟩
  | 75 => ⟨S2x1024x4096, .f32⟩
  | 76 => ⟨S1x1024x4096, .f32⟩
  | 77 => ⟨S1024x4096, .f32⟩
  | 78 => ⟨S2x1024x1024, .f32⟩
  | 79 => ⟨S2x1024x1024, .f32⟩
  | 80 => ⟨S2x1024x1024, .f32⟩
  | 81 => ⟨S_, .f32⟩
  | 82 => ⟨S2x1024x1024, .f32⟩
  | 83 => ⟨S2x1024x1024, .f32⟩
  | 84 => ⟨S_, .f32⟩
  | 85 => ⟨S2x1024x1024, .f32⟩
  | 86 => ⟨S2x1024x1024, .f32⟩
  | 87 => ⟨S2x1024x1024, .f32⟩
  | 88 => ⟨S2x1024x1024, .f32⟩
  | 89 => ⟨S1x1024, .f32⟩
  | 90 => ⟨S1024, .f32⟩
  | 91 => ⟨S1x1024, .f32⟩
  | 92 => ⟨S1024, .f32⟩
  | 93 => ⟨S_, .f32⟩
  | 94 => ⟨S2x1024, .f32⟩
  | 95 => ⟨S2x1024x1, .f32⟩
  | 96 => ⟨S_, .f32⟩
  | 97 => ⟨S2x1024x1, .f32⟩
  | 98 => ⟨S2x1024x1, .f32⟩
  | 99 => ⟨S2x1024x1024, .f32⟩
  | 100 => ⟨S2x1024x1024, .f32⟩
  | 101 => ⟨S2x1024x1024, .f32⟩
  | 102 => ⟨S_, .f32⟩
  | 103 => ⟨S2x1024, .f32⟩
  | 104 => ⟨S2x1024x1, .f32⟩
  | 105 => ⟨S_, .f32⟩
  | 106 => ⟨S2x1024x1, .f32⟩
  | 107 => ⟨S2x1024x1, .f32⟩
  | 108 => ⟨S2x1024x1024, .f32⟩
  | 109 => ⟨S2x1024x1024, .f32⟩
  | 110 => ⟨S_, .f32⟩
  | 111 => ⟨S2x1024x1, .f32⟩
  | 112 => ⟨S2x1024x1, .f32⟩
  | 113 => ⟨S2x1024x1, .f32⟩
  | 114 => ⟨S2x1024x1024, .f32⟩
  | 115 => ⟨S2x1024x1024, .f32⟩
  | 116 => ⟨S1x1x1024, .f32⟩
  | 117 => ⟨S2x1024x1024, .f32⟩
  | 118 => ⟨S2x1024x1024, .f32⟩
  | 119 => ⟨S1x1x1024, .f32⟩
  | 120 => ⟨S2x1024x1024, .f32⟩
  | 121 => ⟨S2x1024x1024, .f32⟩
  | 122 => ⟨S1x1024, .f32⟩
  | 123 => ⟨S1024, .f32⟩
  | 124 => ⟨S1x1024, .f32⟩
  | 125 => ⟨S1024, .f32⟩
  | 126 => ⟨S1x1x1024, .f32⟩
  | 127 => ⟨S2x1024x1024, .f32⟩
  | _ => ⟨S2x1024, .i32⟩

abbrev hbmTy0_4 (i : Nat) : BufTy := match i % 128 with
  | 0 => ⟨S2x1024x1024, .f32⟩
  | 1 => ⟨S1x1024, .f32⟩
  | 2 => ⟨S1024, .f32⟩
  | 3 => ⟨S_, .f32⟩
  | 4 => ⟨S1024, .f32⟩
  | 5 => ⟨S1024, .f32⟩
  | 6 => ⟨S1024, .f32⟩
  | 7 => ⟨S1x1x1024, .f32⟩
  | 8 => ⟨S2x1024x1024, .f32⟩
  | 9 => ⟨S2x1024x1024, .f32⟩
  | 10 => ⟨S1x1024x1024, .f32⟩
  | 11 => ⟨S1024x1024, .f32⟩
  | 12 => ⟨S2x1024x1024, .f32⟩
  | 13 => ⟨S1x1024, .f32⟩
  | 14 => ⟨S1024, .f32⟩
  | 15 => ⟨S1x1x1024, .f32⟩
  | 16 => ⟨S2x1024x1024, .f32⟩
  | 17 => ⟨S2x1024x1024, .f32⟩
  | 18 => ⟨S1x1024, .f32⟩
  | 19 => ⟨S1024, .f32⟩
  | 20 => ⟨S_, .f32⟩
  | 21 => ⟨S1024, .f32⟩
  | 22 => ⟨S1024, .f32⟩
  | 23 => ⟨S1024, .f32⟩
  | 24 => ⟨S1x1x1024, .f32⟩
  | 25 => ⟨S2x1024x1024, .f32⟩
  | 26 => ⟨S2x1024x1024, .f32⟩
  | 27 => ⟨S1x1024x1024, .f32⟩
  | 28 => ⟨S1024x1024, .f32⟩
  | 29 => ⟨S2x1024x1024, .f32⟩
  | 30 => ⟨S1x1024, .f32⟩
  | 31 => ⟨S1024, .f32⟩
  | 32 => ⟨S1x1x1024, .f32⟩
  | 33 => ⟨S2x1024x1024, .f32⟩
  | 34 => ⟨S2x1024x1024, .f32⟩
  | 35 => ⟨S1x1024, .f32⟩
  | 36 => ⟨S1024, .f32⟩
  | 37 => ⟨S_, .f32⟩
  | 38 => ⟨S1024, .f32⟩
  | 39 => ⟨S1024, .f32⟩
  | 40 => ⟨S1024, .f32⟩
  | 41 => ⟨S1x1x1024, .f32⟩
  | 42 => ⟨S2x1024x1024, .f32⟩
  | 43 => ⟨S2x1024x1024, .f32⟩
  | 44 => ⟨S1x1024x1024, .f32⟩
  | 45 => ⟨S1024x1024, .f32⟩
  | 46 => ⟨S2x1024x1024, .f32⟩
  | 47 => ⟨S1x1024, .f32⟩
  | 48 => ⟨S1024, .f32⟩
  | 49 => ⟨S1x1x1024, .f32⟩
  | 50 => ⟨S2x1024x1024, .f32⟩
  | 51 => ⟨S2x1024x1024, .f32⟩
  | 52 => ⟨S2x1024x1024, .f32⟩
  | 53 => ⟨S1x1024, .f32⟩
  | 54 => ⟨S1024, .f32⟩
  | 55 => ⟨S2x1024x1024, .f32⟩
  | 56 => ⟨S1x1x1024, .f32⟩
  | 57 => ⟨S2x1024x1024, .f32⟩
  | 58 => ⟨S2x1024x1024, .f32⟩
  | 59 => ⟨S1x1024, .f32⟩
  | 60 => ⟨S1024, .f32⟩
  | 61 => ⟨S1x1x1024, .f32⟩
  | 62 => ⟨S2x1024x1024, .f32⟩
  | 63 => ⟨S2x1024x1024, .f32⟩
  | 64 => ⟨S2x1024x1024, .f32⟩
  | 65 => ⟨S2x1024x1024, .f32⟩
  | 66 => ⟨S2x1024x1024, .f32⟩
  | 67 => ⟨S_, .f32⟩
  | 68 => ⟨S2x1024x1024, .f32⟩
  | 69 => ⟨S2x1024x1024, .f32⟩
  | 70 => ⟨S_, .f32⟩
  | 71 => ⟨S2x1024x1024, .f32⟩
  | 72 => ⟨S2x1024x1024, .f32⟩
  | 73 => ⟨S2x1024x1024, .f32⟩
  | 74 => ⟨S1x1024x1024, .f32⟩
  | 75 => ⟨S1024x1024, .f32⟩
  | 76 => ⟨S2x1024x1024, .f32⟩
  | 77 => ⟨S2x1024x1024, .f32⟩
  | 78 => ⟨S1x1024, .f32⟩
  | 79 => ⟨S1024, .f32⟩
  | 80 => ⟨S1x1024, .f32⟩
  | 81 => ⟨S1024, .f32⟩
  | 82 => ⟨S_, .f32⟩
  | 83 => ⟨S2x1024, .f32⟩
  | 84 => ⟨S2x1024x1, .f32⟩
  | 85 => ⟨S_, .f32⟩
  | 86 => ⟨S2x1024x1, .f32⟩
  | 87 => ⟨S2x1024x1, .f32⟩
  | 88 => ⟨S2x1024x1024, .f32⟩
  | 89 => ⟨S2x1024x1024, .f32⟩
  | 90 => ⟨S2x1024x1024, .f32⟩
  | 91 => ⟨S_, .f32⟩
  | 92 => ⟨S2x1024, .f32⟩
  | 93 => ⟨S2x1024x1, .f32⟩
  | 94 => ⟨S_, .f32⟩
  | 95 => ⟨S2x1024x1, .f32⟩
  | 96 => ⟨S2x1024x1, .f32⟩
  | 97 => ⟨S2x1024x1024, .f32⟩
  | 98 => ⟨S2x1024x1024, .f32⟩
  | 99 => ⟨S_, .f32⟩
  | 100 => ⟨S2x1024x1, .f32⟩
  | 101 => ⟨S2x1024x1, .f32⟩
  | 102 => ⟨S2x1024x1, .f32⟩
  | 103 => ⟨S2x1024x1024, .f32⟩
  | 104 => ⟨S2x1024x1024, .f32⟩
  | 105 => ⟨S1x1x1024, .f32⟩
  | 106 => ⟨S2x1024x1024, .f32⟩
  | 107 => ⟨S2x1024x1024, .f32⟩
  | 108 => ⟨S1x1x1024, .f32⟩
  | 109 => ⟨S2x1024x1024, .f32⟩
  | 110 => ⟨S2x1024x1024, .f32⟩
  | 111 => ⟨S1x1024, .f32⟩
  | 112 => ⟨S1024, .f32⟩
  | 113 => ⟨S1x1024, .f32⟩
  | 114 => ⟨S1024, .f32⟩
  | 115 => ⟨S1x1x1024, .f32⟩
  | 116 => ⟨S2x1024x1024, .f32⟩
  | 117 => ⟨S2x1024x1024, .f32⟩
  | 118 => ⟨S1x1024, .f32⟩
  | 119 => ⟨S1024, .f32⟩
  | 120 => ⟨S_, .f32⟩
  | 121 => ⟨S1024, .f32⟩
  | 122 => ⟨S1024, .f32⟩
  | 123 => ⟨S1024, .f32⟩
  | 124 => ⟨S1x1x1024, .f32⟩
  | 125 => ⟨S2x1024x1024, .f32⟩
  | 126 => ⟨S2x1024x1024, .f32⟩
  | 127 => ⟨S1x4096x1024, .f32⟩
  | _ => ⟨S2x1024, .i32⟩

abbrev hbmTy0_5 (i : Nat) : BufTy := match i % 128 with
  | 0 => ⟨S4096x1024, .f32⟩
  | 1 => ⟨S2x1024x4096, .f32⟩
  | 2 => ⟨S1x1024, .f32⟩
  | 3 => ⟨S1024, .f32⟩
  | 4 => ⟨S1x1x1024, .f32⟩
  | 5 => ⟨S2x1024x1024, .f32⟩
  | 6 => ⟨S2x1024x1024, .f32⟩
  | 7 => ⟨S1x1024, .f32⟩
  | 8 => ⟨S1024, .f32⟩
  | 9 => ⟨S_, .f32⟩
  | 10 => ⟨S1024, .f32⟩
  | 11 => ⟨S1024, .f32⟩
  | 12 => ⟨S1024, .f32⟩
  | 13 => ⟨S1x1x1024, .f32⟩
  | 14 => ⟨S2x1024x1024, .f32⟩
  | 15 => ⟨S2x1024x1024, .f32⟩
  | 16 => ⟨S1x1024x1024, .f32⟩
  | 17 => ⟨S1024x1024, .f32⟩
  | 18 => ⟨S2x1024x1024, .f32⟩
  | 19 => ⟨S_, .f32⟩
  | 20 => ⟨S2x1024x4096, .f32⟩
  | 21 => ⟨S2x1024x4096, .f32⟩
  | 22 => ⟨S2x1024x4096, .f32⟩
  | 23 => ⟨S1x1024x4096, .f32⟩
  | 24 => ⟨S1024x4096, .f32⟩
  | 25 => ⟨S2x1024x1024, .f32⟩
  | 26 => ⟨S2x1024x1024, .f32⟩
  | 27 => ⟨S2x1024x1024, .f32⟩
  | 28 => ⟨S_, .f32⟩
  | 29 => ⟨S2x1024x1024, .f32⟩
  | 30 => ⟨S2x1024x1024, .f32⟩
  | 31 => ⟨S_, .f32⟩
  | 32 => ⟨S2x1024x1024, .f32⟩
  | 33 => ⟨S2x1024x1024, .f32⟩
  | 34 => ⟨S2x1024x1024, .f32⟩
  | 35 => ⟨S2x1024x1024, .f32⟩
  | 36 => ⟨S1x1024, .f32⟩
  | 37 => ⟨S1024, .f32⟩
  | 38 => ⟨S1x1024, .f32⟩
  | 39 => ⟨S1024, .f32⟩
  | 40 => ⟨S_, .f32⟩
  | 41 => ⟨S2x1024, .f32⟩
  | 42 => ⟨S2x1024x1, .f32⟩
  | 43 => ⟨S_, .f32⟩
  | 44 => ⟨S2x1024x1, .f32⟩
  | 45 => ⟨S2x1024x1, .f32⟩
  | 46 => ⟨S2x1024x1024, .f32⟩
  | 47 => ⟨S2x1024x1024, .f32⟩
  | 48 => ⟨S2x1024x1024, .f32⟩
  | 49 => ⟨S_, .f32⟩
  | 50 => ⟨S2x1024, .f32⟩
  | 51 => ⟨S2x1024x1, .f32⟩
  | 52 => ⟨S_, .f32⟩
  | 53 => ⟨S2x1024x1, .f32⟩
  | 54 => ⟨S2x1024x1, .f32⟩
  | 55 => ⟨S2x1024x1024, .f32⟩
  | 56 => ⟨S2x1024x1024, .f32⟩
  | 57 => ⟨S_, .f32⟩
  | 58 => ⟨S2x1024x1, .f32⟩
  | 59 => ⟨S2x1024x1, .f32⟩
  | 60 => ⟨S2x1024x1, .f32⟩
  | 61 => ⟨S2x1024x1024, .f32⟩
  | 62 => ⟨S2x1024x1024, .f32⟩
  | 63 => ⟨S1x1x1024, .f32⟩
  | 64 => ⟨S2x1024x1024, .f32⟩
  | 65 => ⟨S2x1024x1024, .f32⟩
  | 66 => ⟨S1x1x1024, .f32⟩
  | 67 => ⟨S2x1024x1024, .f32⟩
  | 68 => ⟨S2x1024x1024, .f32⟩
  | 69 => ⟨S1x1024, .f32⟩
  | 70 => ⟨S1024, .f32⟩
  | 71 => ⟨S1x1024, .f32⟩
  | 72 => ⟨S1024, .f32⟩
  | 73 => ⟨S1x1x1024, .f32⟩
  | 74 => ⟨S2x1024x1024, .f32⟩
  | 75 => ⟨S2x1024x1024, .f32⟩
  | 76 => ⟨S1x1024, .f32⟩
  | 77 => ⟨S1024, .f32⟩
  | 78 => ⟨S_, .f32⟩
  | 79 => ⟨S1024, .f32⟩
  | 80 => ⟨S1024, .f32⟩
  | 81 => ⟨S1024, .f32⟩
  | 82 => ⟨S1x1x1024, .f32⟩
  | 83 => ⟨S2x1024x1024, .f32⟩
  | 84 => ⟨S2x1024x1024, .f32⟩
  | 85 => ⟨S1x1024x1024, .f32⟩
  | 86 => ⟨S1024x1024, .f32⟩
  | 87 => ⟨S2x1024x1024, .f32⟩
  | 88 => ⟨S1x1024, .f32⟩
  | 89 => ⟨S1024, .f32⟩
  | 90 => ⟨S1x1x1024, .f32⟩
  | 91 => ⟨S2x1024x1024, .f32⟩
  | 92 => ⟨S2x1024x1024, .f32⟩
  | 93 => ⟨S1x1024, .f32⟩
  | 94 => ⟨S1024, .f32⟩
  | 95 => ⟨S_, .f32⟩
  | 96 => ⟨S1024, .f32⟩
  | 97 => ⟨S1024, .f32⟩
  | 98 => ⟨S1024, .f32⟩
  | 99 => ⟨S1x1x1024, .f32⟩
  | 100 => ⟨S2x1024x1024, .f32⟩
  | 101 => ⟨S2x1024x1024, .f32⟩
  | 102 => ⟨S1x1024x1024, .f32⟩
  | 103 => ⟨S1024x1024, .f32⟩
  | 104 => ⟨S2x1024x1024, .f32⟩
  | 105 => ⟨S1x1024, .f32⟩
  | 106 => ⟨S1024, .f32⟩
  | 107 => ⟨S1x1x1024, .f32⟩
  | 108 => ⟨S2x1024x1024, .f32⟩
  | 109 => ⟨S2x1024x1024, .f32⟩
  | 110 => ⟨S1x1024, .f32⟩
  | 111 => ⟨S1024, .f32⟩
  | 112 => ⟨S_, .f32⟩
  | 113 => ⟨S1024, .f32⟩
  | 114 => ⟨S1024, .f32⟩
  | 115 => ⟨S1024, .f32⟩
  | 116 => ⟨S1x1x1024, .f32⟩
  | 117 => ⟨S2x1024x1024, .f32⟩
  | 118 => ⟨S2x1024x1024, .f32⟩
  | 119 => ⟨S1x1024x1024, .f32⟩
  | 120 => ⟨S1024x1024, .f32⟩
  | 121 => ⟨S2x1024x1024, .f32⟩
  | 122 => ⟨S1x1024, .f32⟩
  | 123 => ⟨S1024, .f32⟩
  | 124 => ⟨S1x1x1024, .f32⟩
  | 125 => ⟨S2x1024x1024, .f32⟩
  | 126 => ⟨S2x1024x1024, .f32⟩
  | 127 => ⟨S2x1024x1024, .f32⟩
  | _ => ⟨S2x1024, .i32⟩

abbrev hbmTy0_6 (i : Nat) : BufTy := match i % 128 with
  | 0 => ⟨S1x1024, .f32⟩
  | 1 => ⟨S1024, .f32⟩
  | 2 => ⟨S2x1024x1024, .f32⟩
  | 3 => ⟨S1x1x1024, .f32⟩
  | 4 => ⟨S2x1024x1024, .f32⟩
  | 5 => ⟨S2x1024x1024, .f32⟩
  | 6 => ⟨S1x1024, .f32⟩
  | 7 => ⟨S1024, .f32⟩
  | 8 => ⟨S1x1x1024, .f32⟩
  | 9 => ⟨S2x1024x1024, .f32⟩
  | 10 => ⟨S2x1024x1024, .f32⟩
  | 11 => ⟨S2x1024x1024, .f32⟩
  | 12 => ⟨S2x1024x1024, .f32⟩
  | 13 => ⟨S2x1024x1024, .f32⟩
  | 14 => ⟨S_, .f32⟩
  | 15 => ⟨S2x1024x1024, .f32⟩
  | 16 => ⟨S2x1024x1024, .f32⟩
  | 17 => ⟨S_, .f32⟩
  | 18 => ⟨S2x1024x1024, .f32⟩
  | 19 => ⟨S2x1024x1024, .f32⟩
  | 20 => ⟨S2x1024x1024, .f32⟩
  | 21 => ⟨S1x1024x1024, .f32⟩
  | 22 => ⟨S1024x1024, .f32⟩
  | 23 => ⟨S2x1024x1024, .f32⟩
  | 24 => ⟨S2x1024x1024, .f32⟩
  | 25 => ⟨S1x1024, .f32⟩
  | 26 => ⟨S1024, .f32⟩
  | 27 => ⟨S1x1024, .f32⟩
  | 28 => ⟨S1024, .f32⟩
  | 29 => ⟨S_, .f32⟩
  | 30 => ⟨S2x1024, .f32⟩
  | 31 => ⟨S2x1024x1, .f32⟩
  | 32 => ⟨S_, .f32⟩
  | 33 => ⟨S2x1024x1, .f32⟩
  | 34 => ⟨S2x1024x1, .f32⟩
  | 35 => ⟨S2x1024x1024, .f32⟩
  | 36 => ⟨S2x1024x1024, .f32⟩
  | 37 => ⟨S2x1024x1024, .f32⟩
  | 38 => ⟨S_, .f32⟩
  | 39 => ⟨S2x1024, .f32⟩
  | 40 => ⟨S2x1024x1, .f32⟩
  | 41 => ⟨S_, .f32⟩
  | 42 => ⟨S2x1024x1, .f32⟩
  | 43 => ⟨S2x1024x1, .f32⟩
  | 44 => ⟨S2x1024x1024, .f32⟩
  | 45 => ⟨S2x1024x1024, .f32⟩
  | 46 => ⟨S_, .f32⟩
  | 47 => ⟨S2x1024x1, .f32⟩
  | 48 => ⟨S2x1024x1, .f32⟩
  | 49 => ⟨S2x1024x1, .f32⟩
  | 50 => ⟨S2x1024x1024, .f32⟩
  | 51 => ⟨S2x1024x1024, .f32⟩
  | 52 => ⟨S1x1x1024, .f32⟩
  | 53 => ⟨S2x1024x1024, .f32⟩
  | 54 => ⟨S2x1024x1024, .f32⟩
  | 55 => ⟨S1x1x1024, .f32⟩
  | 56 => ⟨S2x1024x1024, .f32⟩
  | 57 => ⟨S2x1024x1024, .f32⟩
  | 58 => ⟨S1x1024, .f32⟩
  | 59 => ⟨S1024, .f32⟩
  | 60 => ⟨S1x1024, .f32⟩
  | 61 => ⟨S1024, .f32⟩
  | 62 => ⟨S1x1x1024, .f32⟩
  | 63 => ⟨S2x1024x1024, .f32⟩
  | 64 => ⟨S2x1024x1024, .f32⟩
  | 65 => ⟨S1x1024, .f32⟩
  | 66 => ⟨S1024, .f32⟩
  | 67 => ⟨S_, .f32⟩
  | 68 => ⟨S1024, .f32⟩
  | 69 => ⟨S1024, .f32⟩
  | 70 => ⟨S1024, .f32⟩
  | 71 => ⟨S1x1x1024, .f32⟩
  | 72 => ⟨S2x1024x1024, .f32⟩
  | 73 => ⟨S2x1024x1024, .f32⟩
  | 74 => ⟨S1x4096x1024, .f32⟩
  | 75 => ⟨S4096x1024, .f32⟩
  | 76 => ⟨S2x1024x4096, .f32⟩
  | 77 => ⟨S1x1024, .f32⟩
  | 78 => ⟨S1024, .f32⟩
  | 79 => ⟨S1x1x1024, .f32⟩
  | 80 => ⟨S2x1024x1024, .f32⟩
  | 81 => ⟨S2x1024x1024, .f32⟩
  | 82 => ⟨S1x1024, .f32⟩
  | 83 => ⟨S1024, .f32⟩
  | 84 => ⟨S_, .f32⟩
  | 85 => ⟨S1024, .f32⟩
  | 86 => ⟨S1024, .f32⟩
  | 87 => ⟨S1024, .f32⟩
  | 88 => ⟨S1x1x1024, .f32⟩
  | 89 => ⟨S2x1024x1024, .f32⟩
  | 90 => ⟨S2x1024x1024, .f32⟩
  | 91 => ⟨S1x1024x1024, .f32⟩
  | 92 => ⟨S1024x1024, .f32⟩
  | 93 => ⟨S2x1024x1024, .f32⟩
  | 94 => ⟨S_, .f32⟩
  | 95 => ⟨S2x1024x4096, .f32⟩
  | 96 => ⟨S2x1024x4096, .f32⟩
  | 97 => ⟨S2x1024x4096, .f32⟩
  | 98 => ⟨S1x1024x4096, .f32⟩
  | 99 => ⟨S1024x4096, .f32⟩
  | 100 => ⟨S2x1024x1024, .f32⟩
  | 101 => ⟨S2x1024x1024, .f32⟩
  | 102 => ⟨S2x1024x1024, .f32⟩
  | 103 => ⟨S_, .f32⟩
  | 104 => ⟨S2x1024x1024, .f32⟩
  | 105 => ⟨S2x1024x1024, .f32⟩
  | 106 => ⟨S_, .f32⟩
  | 107 => ⟨S2x1024x1024, .f32⟩
  | 108 => ⟨S2x1024x1024, .f32⟩
  | 109 => ⟨S2x1024x1024, .f32⟩
  | 110 => ⟨S2x1024x1024, .f32⟩
  | 111 => ⟨S_, .f32⟩
  | 112 => ⟨S2x1024, .f32⟩
  | 113 => ⟨S2x1024x1, .f32⟩
  | 114 => ⟨S_, .f32⟩
  | 115 => ⟨S2x1024x1, .f32⟩
  | 116 => ⟨S2x1024x1, .f32⟩
  | 117 => ⟨S2x1024x1024, .f32⟩
  | 118 => ⟨S2x1024x1024, .f32⟩
  | 119 => ⟨S2x1024x1024, .f32⟩
  | 120 => ⟨S_, .f32⟩
  | 121 => ⟨S2x1024, .f32⟩
  | 122 => ⟨S2x1024x1, .f32⟩
  | 123 => ⟨S_, .f32⟩
  | 124 => ⟨S2x1024x1, .f32⟩
  | 125 => ⟨S2x1024x1, .f32⟩
  | 126 => ⟨S2x1024x1024, .f32⟩
  | 127 => ⟨S2x1024x1024, .f32⟩
  | _ => ⟨S2x1024, .i32⟩

abbrev hbmTy0_7 (i : Nat) : BufTy := match i % 128 with
  | 0 => ⟨S_, .f32⟩
  | 1 => ⟨S2x1024x1, .f32⟩
  | 2 => ⟨S2x1024x1, .f32⟩
  | 3 => ⟨S2x1024x1, .f32⟩
  | 4 => ⟨S2x1024x1024, .f32⟩
  | 5 => ⟨S2x1024x1024, .f32⟩
  | 6 => ⟨S1x1x1024, .f32⟩
  | 7 => ⟨S2x1024x1024, .f32⟩
  | 8 => ⟨S2x1024x1024, .f32⟩
  | 9 => ⟨S1x1x1024, .f32⟩
  | 10 => ⟨S2x1024x1024, .f32⟩
  | 11 => ⟨S2x1024x1024, .f32⟩
  | 12 => ⟨S2x1024x50257, .f32⟩
  | 13 => ⟨S_, .f32⟩
  | 14 => ⟨S_, .f32⟩
  | 15 => ⟨S2x1024x50257, .f32⟩
  | 16 => ⟨S2x1024x50257, .f32⟩
  | 17 => ⟨S2x1024x50257, .f32⟩
  | 18 => ⟨S_, .f32⟩
  | 19 => ⟨S_, .f32⟩
  | 20 => ⟨S2x1024x50257, .f32⟩
  | 21 => ⟨S2x1024x50257, .f32⟩
  | _ => ⟨S2x1024, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2x1024, .i32⟩

abbrev bufTy : (tb : Table) → Fin (tcTables nBuf tb) → BufTy
  | .hbm, ⟨i, _⟩ => hbmTy i
  | _, _ => ⟨S2x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_c : Ref sig .tc := ⟨.hbm, 29, rfl⟩
abbrev main_v0 : Ref sig .tc := ⟨.hbm, 30, rfl⟩
abbrev main_v1 : Ref sig .tc := ⟨.hbm, 31, rfl⟩
abbrev main_c_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_2 : Ref sig .tc := ⟨.hbm, 47, rfl⟩
abbrev main_v14 : Ref sig .tc := ⟨.hbm, 48, rfl⟩
abbrev main_v15 : Ref sig .tc := ⟨.hbm, 49, rfl⟩
abbrev main_cst_3 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_4 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_5 : Ref sig .tc := ⟨.hbm, 71, rfl⟩
abbrev main_v35 : Ref sig .tc := ⟨.hbm, 72, rfl⟩
abbrev main_v36 : Ref sig .tc := ⟨.hbm, 73, rfl⟩
abbrev main_cst_6 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_7 : Ref sig .tc := ⟨.hbm, 80, rfl⟩
abbrev main_v42 : Ref sig .tc := ⟨.hbm, 81, rfl⟩
abbrev main_v43 : Ref sig .tc := ⟨.hbm, 82, rfl⟩
abbrev main_cst_8 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_9 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_10 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_11 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_12 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_13 : Ref sig .tc := ⟨.hbm, 173, rfl⟩
abbrev main_v129 : Ref sig .tc := ⟨.hbm, 174, rfl⟩
abbrev main_v130 : Ref sig .tc := ⟨.hbm, 175, rfl⟩
abbrev main_cst_14 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_15 : Ref sig .tc := ⟨.hbm, 188, rfl⟩
abbrev main_v142 : Ref sig .tc := ⟨.hbm, 189, rfl⟩
abbrev main_v143 : Ref sig .tc := ⟨.hbm, 190, rfl⟩
abbrev main_cst_16 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_17 : Ref sig .tc := ⟨.hbm, 197, rfl⟩
abbrev main_v149 : Ref sig .tc := ⟨.hbm, 198, rfl⟩
abbrev main_v150 : Ref sig .tc := ⟨.hbm, 199, rfl⟩
abbrev main_cst_18 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_19 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_cst_20 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_cst_21 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_cst_22 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_cst_23 : Ref sig .tc := ⟨.hbm, 262, rfl⟩
abbrev main_v208 : Ref sig .tc := ⟨.hbm, 263, rfl⟩
abbrev main_v209 : Ref sig .tc := ⟨.hbm, 264, rfl⟩
abbrev main_cst_24 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_cst_25 : Ref sig .tc := ⟨.hbm, 274, rfl⟩
abbrev main_v218 : Ref sig .tc := ⟨.hbm, 275, rfl⟩
abbrev main_v219 : Ref sig .tc := ⟨.hbm, 276, rfl⟩
abbrev main_cst_26 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_cst_27 : Ref sig .tc := ⟨.hbm, 283, rfl⟩
abbrev main_v225 : Ref sig .tc := ⟨.hbm, 284, rfl⟩
abbrev main_v226 : Ref sig .tc := ⟨.hbm, 285, rfl⟩
abbrev main_cst_28 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_cst_29 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_cst_30 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_cst_31 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_cst_32 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩
abbrev main_v290 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_v296 : Ref sig .tc := ⟨.hbm, 360, rfl⟩
abbrev main_v297 : Ref sig .tc := ⟨.hbm, 361, rfl⟩
abbrev main_v298 : Ref sig .tc := ⟨.hbm, 362, rfl⟩
abbrev main_v299 : Ref sig .tc := ⟨.hbm, 363, rfl⟩
abbrev main_v300 : Ref sig .tc := ⟨.hbm, 364, rfl⟩
abbrev main_v301 : Ref sig .tc := ⟨.hbm, 365, rfl⟩
abbrev main_v302 : Ref sig .tc := ⟨.hbm, 366, rfl⟩
abbrev main_v303 : Ref sig .tc := ⟨.hbm, 367, rfl⟩
abbrev main_v304 : Ref sig .tc := ⟨.hbm, 368, rfl⟩
abbrev main_v305 : Ref sig .tc := ⟨.hbm, 369, rfl⟩
abbrev main_v306 : Ref sig .tc := ⟨.hbm, 370, rfl⟩
abbrev main_v307 : Ref sig .tc := ⟨.hbm, 371, rfl⟩
abbrev main_v308 : Ref sig .tc := ⟨.hbm, 372, rfl⟩
abbrev main_v309 : Ref sig .tc := ⟨.hbm, 373, rfl⟩
abbrev main_v310 : Ref sig .tc := ⟨.hbm, 374, rfl⟩
abbrev main_v311 : Ref sig .tc := ⟨.hbm, 375, rfl⟩
abbrev main_cst_33 : Ref sig .tc := ⟨.hbm, 376, rfl⟩
abbrev main_v312 : Ref sig .tc := ⟨.hbm, 377, rfl⟩
abbrev main_v313 : Ref sig .tc := ⟨.hbm, 378, rfl⟩
abbrev main_cst_34 : Ref sig .tc := ⟨.hbm, 379, rfl⟩
abbrev main_v314 : Ref sig .tc := ⟨.hbm, 380, rfl⟩
abbrev main_v315 : Ref sig .tc := ⟨.hbm, 381, rfl⟩
abbrev main_v316 : Ref sig .tc := ⟨.hbm, 382, rfl⟩
abbrev main_v317 : Ref sig .tc := ⟨.hbm, 383, rfl⟩
abbrev main_v318 : Ref sig .tc := ⟨.hbm, 384, rfl⟩
abbrev main_v319 : Ref sig .tc := ⟨.hbm, 385, rfl⟩
abbrev main_v320 : Ref sig .tc := ⟨.hbm, 386, rfl⟩
abbrev main_v321 : Ref sig .tc := ⟨.hbm, 387, rfl⟩
abbrev main_v322 : Ref sig .tc := ⟨.hbm, 388, rfl⟩
abbrev main_v323 : Ref sig .tc := ⟨.hbm, 389, rfl⟩
abbrev main_v324 : Ref sig .tc := ⟨.hbm, 390, rfl⟩
abbrev main_cst_35 : Ref sig .tc := ⟨.hbm, 391, rfl⟩
abbrev main_v325 : Ref sig .tc := ⟨.hbm, 392, rfl⟩
abbrev main_v326 : Ref sig .tc := ⟨.hbm, 393, rfl⟩
abbrev main_cst_36 : Ref sig .tc := ⟨.hbm, 394, rfl⟩
abbrev main_v327 : Ref sig .tc := ⟨.hbm, 395, rfl⟩
abbrev main_v328 : Ref sig .tc := ⟨.hbm, 396, rfl⟩
abbrev main_v329 : Ref sig .tc := ⟨.hbm, 397, rfl⟩
abbrev main_v330 : Ref sig .tc := ⟨.hbm, 398, rfl⟩
abbrev main_v331 : Ref sig .tc := ⟨.hbm, 399, rfl⟩
abbrev main_cst_37 : Ref sig .tc := ⟨.hbm, 400, rfl⟩
abbrev main_v332 : Ref sig .tc := ⟨.hbm, 401, rfl⟩
abbrev main_v333 : Ref sig .tc := ⟨.hbm, 402, rfl⟩
abbrev main_cst_38 : Ref sig .tc := ⟨.hbm, 403, rfl⟩
abbrev main_v334 : Ref sig .tc := ⟨.hbm, 404, rfl⟩
abbrev main_v335 : Ref sig .tc := ⟨.hbm, 405, rfl⟩
abbrev main_v336 : Ref sig .tc := ⟨.hbm, 406, rfl⟩
abbrev main_v337 : Ref sig .tc := ⟨.hbm, 407, rfl⟩
abbrev main_cst_39 : Ref sig .tc := ⟨.hbm, 408, rfl⟩
abbrev main_v338 : Ref sig .tc := ⟨.hbm, 409, rfl⟩
abbrev main_v339 : Ref sig .tc := ⟨.hbm, 410, rfl⟩
abbrev main_v340 : Ref sig .tc := ⟨.hbm, 411, rfl⟩
abbrev main_v341 : Ref sig .tc := ⟨.hbm, 412, rfl⟩
abbrev main_v342 : Ref sig .tc := ⟨.hbm, 413, rfl⟩
abbrev main_v343 : Ref sig .tc := ⟨.hbm, 414, rfl⟩
abbrev main_v344 : Ref sig .tc := ⟨.hbm, 415, rfl⟩
abbrev main_v345 : Ref sig .tc := ⟨.hbm, 416, rfl⟩
abbrev main_v346 : Ref sig .tc := ⟨.hbm, 417, rfl⟩
abbrev main_v347 : Ref sig .tc := ⟨.hbm, 418, rfl⟩
abbrev main_v348 : Ref sig .tc := ⟨.hbm, 419, rfl⟩
abbrev main_v349 : Ref sig .tc := ⟨.hbm, 420, rfl⟩
abbrev main_v350 : Ref sig .tc := ⟨.hbm, 421, rfl⟩
abbrev main_v351 : Ref sig .tc := ⟨.hbm, 422, rfl⟩
abbrev main_v352 : Ref sig .tc := ⟨.hbm, 423, rfl⟩
abbrev main_v353 : Ref sig .tc := ⟨.hbm, 424, rfl⟩
abbrev main_v354 : Ref sig .tc := ⟨.hbm, 425, rfl⟩
abbrev main_v355 : Ref sig .tc := ⟨.hbm, 426, rfl⟩
abbrev main_v356 : Ref sig .tc := ⟨.hbm, 427, rfl⟩
abbrev main_v357 : Ref sig .tc := ⟨.hbm, 428, rfl⟩
abbrev main_cst_40 : Ref sig .tc := ⟨.hbm, 429, rfl⟩
abbrev main_v358 : Ref sig .tc := ⟨.hbm, 430, rfl⟩
abbrev main_v359 : Ref sig .tc := ⟨.hbm, 431, rfl⟩
abbrev main_v360 : Ref sig .tc := ⟨.hbm, 432, rfl⟩
abbrev main_v361 : Ref sig .tc := ⟨.hbm, 433, rfl⟩
abbrev main_v362 : Ref sig .tc := ⟨.hbm, 434, rfl⟩
abbrev main_v363 : Ref sig .tc := ⟨.hbm, 435, rfl⟩
abbrev main_v364 : Ref sig .tc := ⟨.hbm, 436, rfl⟩
abbrev main_v365 : Ref sig .tc := ⟨.hbm, 437, rfl⟩
abbrev main_v366 : Ref sig .tc := ⟨.hbm, 438, rfl⟩
abbrev main_v367 : Ref sig .tc := ⟨.hbm, 439, rfl⟩
abbrev main_v368 : Ref sig .tc := ⟨.hbm, 440, rfl⟩
abbrev main_v369 : Ref sig .tc := ⟨.hbm, 441, rfl⟩
abbrev main_v370 : Ref sig .tc := ⟨.hbm, 442, rfl⟩
abbrev main_v371 : Ref sig .tc := ⟨.hbm, 443, rfl⟩
abbrev main_v372 : Ref sig .tc := ⟨.hbm, 444, rfl⟩
abbrev main_v373 : Ref sig .tc := ⟨.hbm, 445, rfl⟩
abbrev main_cst_41 : Ref sig .tc := ⟨.hbm, 446, rfl⟩
abbrev main_v374 : Ref sig .tc := ⟨.hbm, 447, rfl⟩
abbrev main_v375 : Ref sig .tc := ⟨.hbm, 448, rfl⟩
abbrev main_v376 : Ref sig .tc := ⟨.hbm, 449, rfl⟩
abbrev main_v377 : Ref sig .tc := ⟨.hbm, 450, rfl⟩
abbrev main_v378 : Ref sig .tc := ⟨.hbm, 451, rfl⟩
abbrev main_v379 : Ref sig .tc := ⟨.hbm, 452, rfl⟩
abbrev main_v380 : Ref sig .tc := ⟨.hbm, 453, rfl⟩
abbrev main_v381 : Ref sig .tc := ⟨.hbm, 454, rfl⟩
abbrev main_v382 : Ref sig .tc := ⟨.hbm, 455, rfl⟩
abbrev main_cst_42 : Ref sig .tc := ⟨.hbm, 456, rfl⟩
abbrev main_v383 : Ref sig .tc := ⟨.hbm, 457, rfl⟩
abbrev main_v384 : Ref sig .tc := ⟨.hbm, 458, rfl⟩
abbrev main_v385 : Ref sig .tc := ⟨.hbm, 459, rfl⟩
abbrev main_v386 : Ref sig .tc := ⟨.hbm, 460, rfl⟩
abbrev main_v387 : Ref sig .tc := ⟨.hbm, 461, rfl⟩
abbrev main_v388 : Ref sig .tc := ⟨.hbm, 462, rfl⟩
abbrev main_v389 : Ref sig .tc := ⟨.hbm, 463, rfl⟩
abbrev main_v390 : Ref sig .tc := ⟨.hbm, 464, rfl⟩
abbrev main_cst_43 : Ref sig .tc := ⟨.hbm, 465, rfl⟩
abbrev main_v391 : Ref sig .tc := ⟨.hbm, 466, rfl⟩
abbrev main_v392 : Ref sig .tc := ⟨.hbm, 467, rfl⟩
abbrev main_cst_44 : Ref sig .tc := ⟨.hbm, 468, rfl⟩
abbrev main_v393 : Ref sig .tc := ⟨.hbm, 469, rfl⟩
abbrev main_v394 : Ref sig .tc := ⟨.hbm, 470, rfl⟩
abbrev main_v395 : Ref sig .tc := ⟨.hbm, 471, rfl⟩
abbrev main_v396 : Ref sig .tc := ⟨.hbm, 472, rfl⟩
abbrev main_v397 : Ref sig .tc := ⟨.hbm, 473, rfl⟩
abbrev main_v398 : Ref sig .tc := ⟨.hbm, 474, rfl⟩
abbrev main_v399 : Ref sig .tc := ⟨.hbm, 475, rfl⟩
abbrev main_v400 : Ref sig .tc := ⟨.hbm, 476, rfl⟩
abbrev main_cst_45 : Ref sig .tc := ⟨.hbm, 477, rfl⟩
abbrev main_v401 : Ref sig .tc := ⟨.hbm, 478, rfl⟩
abbrev main_v402 : Ref sig .tc := ⟨.hbm, 479, rfl⟩
abbrev main_cst_46 : Ref sig .tc := ⟨.hbm, 480, rfl⟩
abbrev main_v403 : Ref sig .tc := ⟨.hbm, 481, rfl⟩
abbrev main_v404 : Ref sig .tc := ⟨.hbm, 482, rfl⟩
abbrev main_v405 : Ref sig .tc := ⟨.hbm, 483, rfl⟩
abbrev main_v406 : Ref sig .tc := ⟨.hbm, 484, rfl⟩
abbrev main_v407 : Ref sig .tc := ⟨.hbm, 485, rfl⟩
abbrev main_cst_47 : Ref sig .tc := ⟨.hbm, 486, rfl⟩
abbrev main_v408 : Ref sig .tc := ⟨.hbm, 487, rfl⟩
abbrev main_v409 : Ref sig .tc := ⟨.hbm, 488, rfl⟩
abbrev main_cst_48 : Ref sig .tc := ⟨.hbm, 489, rfl⟩
abbrev main_v410 : Ref sig .tc := ⟨.hbm, 490, rfl⟩
abbrev main_v411 : Ref sig .tc := ⟨.hbm, 491, rfl⟩
abbrev main_v412 : Ref sig .tc := ⟨.hbm, 492, rfl⟩
abbrev main_v413 : Ref sig .tc := ⟨.hbm, 493, rfl⟩
abbrev main_cst_49 : Ref sig .tc := ⟨.hbm, 494, rfl⟩
abbrev main_v414 : Ref sig .tc := ⟨.hbm, 495, rfl⟩
abbrev main_v415 : Ref sig .tc := ⟨.hbm, 496, rfl⟩
abbrev main_v416 : Ref sig .tc := ⟨.hbm, 497, rfl⟩
abbrev main_v417 : Ref sig .tc := ⟨.hbm, 498, rfl⟩
abbrev main_v418 : Ref sig .tc := ⟨.hbm, 499, rfl⟩
abbrev main_v419 : Ref sig .tc := ⟨.hbm, 500, rfl⟩
abbrev main_v420 : Ref sig .tc := ⟨.hbm, 501, rfl⟩
abbrev main_v421 : Ref sig .tc := ⟨.hbm, 502, rfl⟩
abbrev main_v422 : Ref sig .tc := ⟨.hbm, 503, rfl⟩
abbrev main_v423 : Ref sig .tc := ⟨.hbm, 504, rfl⟩
abbrev main_v424 : Ref sig .tc := ⟨.hbm, 505, rfl⟩
abbrev main_v425 : Ref sig .tc := ⟨.hbm, 506, rfl⟩
abbrev main_v426 : Ref sig .tc := ⟨.hbm, 507, rfl⟩
abbrev main_v427 : Ref sig .tc := ⟨.hbm, 508, rfl⟩
abbrev main_v428 : Ref sig .tc := ⟨.hbm, 509, rfl⟩
abbrev main_v429 : Ref sig .tc := ⟨.hbm, 510, rfl⟩
abbrev main_v430 : Ref sig .tc := ⟨.hbm, 511, rfl⟩
abbrev main_v431 : Ref sig .tc := ⟨.hbm, 512, rfl⟩
abbrev main_v432 : Ref sig .tc := ⟨.hbm, 513, rfl⟩
abbrev main_v433 : Ref sig .tc := ⟨.hbm, 514, rfl⟩
abbrev main_cst_50 : Ref sig .tc := ⟨.hbm, 515, rfl⟩
abbrev main_v434 : Ref sig .tc := ⟨.hbm, 516, rfl⟩
abbrev main_v435 : Ref sig .tc := ⟨.hbm, 517, rfl⟩
abbrev main_v436 : Ref sig .tc := ⟨.hbm, 518, rfl⟩
abbrev main_v437 : Ref sig .tc := ⟨.hbm, 519, rfl⟩
abbrev main_v438 : Ref sig .tc := ⟨.hbm, 520, rfl⟩
abbrev main_v439 : Ref sig .tc := ⟨.hbm, 521, rfl⟩
abbrev main_v440 : Ref sig .tc := ⟨.hbm, 522, rfl⟩
abbrev main_v441 : Ref sig .tc := ⟨.hbm, 523, rfl⟩
abbrev main_v442 : Ref sig .tc := ⟨.hbm, 524, rfl⟩
abbrev main_v443 : Ref sig .tc := ⟨.hbm, 525, rfl⟩
abbrev main_v444 : Ref sig .tc := ⟨.hbm, 526, rfl⟩
abbrev main_v445 : Ref sig .tc := ⟨.hbm, 527, rfl⟩
abbrev main_v446 : Ref sig .tc := ⟨.hbm, 528, rfl⟩
abbrev main_v447 : Ref sig .tc := ⟨.hbm, 529, rfl⟩
abbrev main_v448 : Ref sig .tc := ⟨.hbm, 530, rfl⟩
abbrev main_v449 : Ref sig .tc := ⟨.hbm, 531, rfl⟩
abbrev main_cst_51 : Ref sig .tc := ⟨.hbm, 532, rfl⟩
abbrev main_v450 : Ref sig .tc := ⟨.hbm, 533, rfl⟩
abbrev main_v451 : Ref sig .tc := ⟨.hbm, 534, rfl⟩
abbrev main_v452 : Ref sig .tc := ⟨.hbm, 535, rfl⟩
abbrev main_v453 : Ref sig .tc := ⟨.hbm, 536, rfl⟩
abbrev main_v454 : Ref sig .tc := ⟨.hbm, 537, rfl⟩
abbrev main_v455 : Ref sig .tc := ⟨.hbm, 538, rfl⟩
abbrev main_v456 : Ref sig .tc := ⟨.hbm, 539, rfl⟩
abbrev main_v457 : Ref sig .tc := ⟨.hbm, 540, rfl⟩
abbrev main_v458 : Ref sig .tc := ⟨.hbm, 541, rfl⟩
abbrev main_v459 : Ref sig .tc := ⟨.hbm, 542, rfl⟩
abbrev main_v460 : Ref sig .tc := ⟨.hbm, 543, rfl⟩
abbrev main_v461 : Ref sig .tc := ⟨.hbm, 544, rfl⟩
abbrev main_v462 : Ref sig .tc := ⟨.hbm, 545, rfl⟩
abbrev main_v463 : Ref sig .tc := ⟨.hbm, 546, rfl⟩
abbrev main_v464 : Ref sig .tc := ⟨.hbm, 547, rfl⟩
abbrev main_v465 : Ref sig .tc := ⟨.hbm, 548, rfl⟩
abbrev main_cst_52 : Ref sig .tc := ⟨.hbm, 549, rfl⟩
abbrev main_v466 : Ref sig .tc := ⟨.hbm, 550, rfl⟩
abbrev main_v467 : Ref sig .tc := ⟨.hbm, 551, rfl⟩
abbrev main_v468 : Ref sig .tc := ⟨.hbm, 552, rfl⟩
abbrev main_v469 : Ref sig .tc := ⟨.hbm, 553, rfl⟩
abbrev main_v470 : Ref sig .tc := ⟨.hbm, 554, rfl⟩
abbrev main_v471 : Ref sig .tc := ⟨.hbm, 555, rfl⟩
abbrev main_v472 : Ref sig .tc := ⟨.hbm, 556, rfl⟩
abbrev main_v473 : Ref sig .tc := ⟨.hbm, 557, rfl⟩
abbrev main_v474 : Ref sig .tc := ⟨.hbm, 558, rfl⟩
abbrev main_v475 : Ref sig .tc := ⟨.hbm, 559, rfl⟩
abbrev main_v476 : Ref sig .tc := ⟨.hbm, 560, rfl⟩
abbrev main_v477 : Ref sig .tc := ⟨.hbm, 561, rfl⟩
abbrev main_v478 : Ref sig .tc := ⟨.hbm, 562, rfl⟩
abbrev main_v479 : Ref sig .tc := ⟨.hbm, 563, rfl⟩
abbrev main_v480 : Ref sig .tc := ⟨.hbm, 564, rfl⟩
abbrev main_v481 : Ref sig .tc := ⟨.hbm, 565, rfl⟩
abbrev main_v482 : Ref sig .tc := ⟨.hbm, 566, rfl⟩
abbrev main_v483 : Ref sig .tc := ⟨.hbm, 567, rfl⟩
abbrev main_v484 : Ref sig .tc := ⟨.hbm, 568, rfl⟩
abbrev main_v485 : Ref sig .tc := ⟨.hbm, 569, rfl⟩
abbrev main_v486 : Ref sig .tc := ⟨.hbm, 570, rfl⟩
abbrev main_v487 : Ref sig .tc := ⟨.hbm, 571, rfl⟩
abbrev main_v488 : Ref sig .tc := ⟨.hbm, 572, rfl⟩
abbrev main_v489 : Ref sig .tc := ⟨.hbm, 573, rfl⟩
abbrev main_v490 : Ref sig .tc := ⟨.hbm, 574, rfl⟩
abbrev main_v491 : Ref sig .tc := ⟨.hbm, 575, rfl⟩
abbrev main_v492 : Ref sig .tc := ⟨.hbm, 576, rfl⟩
abbrev main_v493 : Ref sig .tc := ⟨.hbm, 577, rfl⟩
abbrev main_v494 : Ref sig .tc := ⟨.hbm, 578, rfl⟩
abbrev main_cst_53 : Ref sig .tc := ⟨.hbm, 579, rfl⟩
abbrev main_v495 : Ref sig .tc := ⟨.hbm, 580, rfl⟩
abbrev main_v496 : Ref sig .tc := ⟨.hbm, 581, rfl⟩
abbrev main_cst_54 : Ref sig .tc := ⟨.hbm, 582, rfl⟩
abbrev main_v497 : Ref sig .tc := ⟨.hbm, 583, rfl⟩
abbrev main_v498 : Ref sig .tc := ⟨.hbm, 584, rfl⟩
abbrev main_v499 : Ref sig .tc := ⟨.hbm, 585, rfl⟩
abbrev main_v500 : Ref sig .tc := ⟨.hbm, 586, rfl⟩
abbrev main_v501 : Ref sig .tc := ⟨.hbm, 587, rfl⟩
abbrev main_v502 : Ref sig .tc := ⟨.hbm, 588, rfl⟩
abbrev main_v503 : Ref sig .tc := ⟨.hbm, 589, rfl⟩
abbrev main_v504 : Ref sig .tc := ⟨.hbm, 590, rfl⟩
abbrev main_v505 : Ref sig .tc := ⟨.hbm, 591, rfl⟩
abbrev main_v506 : Ref sig .tc := ⟨.hbm, 592, rfl⟩
abbrev main_v507 : Ref sig .tc := ⟨.hbm, 593, rfl⟩
abbrev main_cst_55 : Ref sig .tc := ⟨.hbm, 594, rfl⟩
abbrev main_v508 : Ref sig .tc := ⟨.hbm, 595, rfl⟩
abbrev main_v509 : Ref sig .tc := ⟨.hbm, 596, rfl⟩
abbrev main_cst_56 : Ref sig .tc := ⟨.hbm, 597, rfl⟩
abbrev main_v510 : Ref sig .tc := ⟨.hbm, 598, rfl⟩
abbrev main_v511 : Ref sig .tc := ⟨.hbm, 599, rfl⟩
abbrev main_v512 : Ref sig .tc := ⟨.hbm, 600, rfl⟩
abbrev main_v513 : Ref sig .tc := ⟨.hbm, 601, rfl⟩
abbrev main_v514 : Ref sig .tc := ⟨.hbm, 602, rfl⟩
abbrev main_cst_57 : Ref sig .tc := ⟨.hbm, 603, rfl⟩
abbrev main_v515 : Ref sig .tc := ⟨.hbm, 604, rfl⟩
abbrev main_v516 : Ref sig .tc := ⟨.hbm, 605, rfl⟩
abbrev main_cst_58 : Ref sig .tc := ⟨.hbm, 606, rfl⟩
abbrev main_v517 : Ref sig .tc := ⟨.hbm, 607, rfl⟩
abbrev main_v518 : Ref sig .tc := ⟨.hbm, 608, rfl⟩
abbrev main_v519 : Ref sig .tc := ⟨.hbm, 609, rfl⟩
abbrev main_v520 : Ref sig .tc := ⟨.hbm, 610, rfl⟩
abbrev main_cst_59 : Ref sig .tc := ⟨.hbm, 611, rfl⟩
abbrev main_v521 : Ref sig .tc := ⟨.hbm, 612, rfl⟩
abbrev main_v522 : Ref sig .tc := ⟨.hbm, 613, rfl⟩
abbrev main_v523 : Ref sig .tc := ⟨.hbm, 614, rfl⟩
abbrev main_v524 : Ref sig .tc := ⟨.hbm, 615, rfl⟩
abbrev main_v525 : Ref sig .tc := ⟨.hbm, 616, rfl⟩
abbrev main_v526 : Ref sig .tc := ⟨.hbm, 617, rfl⟩
abbrev main_v527 : Ref sig .tc := ⟨.hbm, 618, rfl⟩
abbrev main_v528 : Ref sig .tc := ⟨.hbm, 619, rfl⟩
abbrev main_v529 : Ref sig .tc := ⟨.hbm, 620, rfl⟩
abbrev main_v530 : Ref sig .tc := ⟨.hbm, 621, rfl⟩
abbrev main_v531 : Ref sig .tc := ⟨.hbm, 622, rfl⟩
abbrev main_v532 : Ref sig .tc := ⟨.hbm, 623, rfl⟩
abbrev main_v533 : Ref sig .tc := ⟨.hbm, 624, rfl⟩
abbrev main_v534 : Ref sig .tc := ⟨.hbm, 625, rfl⟩
abbrev main_v535 : Ref sig .tc := ⟨.hbm, 626, rfl⟩
abbrev main_v536 : Ref sig .tc := ⟨.hbm, 627, rfl⟩
abbrev main_v537 : Ref sig .tc := ⟨.hbm, 628, rfl⟩
abbrev main_v538 : Ref sig .tc := ⟨.hbm, 629, rfl⟩
abbrev main_v539 : Ref sig .tc := ⟨.hbm, 630, rfl⟩
abbrev main_v540 : Ref sig .tc := ⟨.hbm, 631, rfl⟩
abbrev main_cst_60 : Ref sig .tc := ⟨.hbm, 632, rfl⟩
abbrev main_v541 : Ref sig .tc := ⟨.hbm, 633, rfl⟩
abbrev main_v542 : Ref sig .tc := ⟨.hbm, 634, rfl⟩
abbrev main_v543 : Ref sig .tc := ⟨.hbm, 635, rfl⟩
abbrev main_v544 : Ref sig .tc := ⟨.hbm, 636, rfl⟩
abbrev main_v545 : Ref sig .tc := ⟨.hbm, 637, rfl⟩
abbrev main_v546 : Ref sig .tc := ⟨.hbm, 638, rfl⟩
abbrev main_v547 : Ref sig .tc := ⟨.hbm, 639, rfl⟩
abbrev main_v548 : Ref sig .tc := ⟨.hbm, 640, rfl⟩
abbrev main_v549 : Ref sig .tc := ⟨.hbm, 641, rfl⟩
abbrev main_v550 : Ref sig .tc := ⟨.hbm, 642, rfl⟩
abbrev main_v551 : Ref sig .tc := ⟨.hbm, 643, rfl⟩
abbrev main_v552 : Ref sig .tc := ⟨.hbm, 644, rfl⟩
abbrev main_v553 : Ref sig .tc := ⟨.hbm, 645, rfl⟩
abbrev main_v554 : Ref sig .tc := ⟨.hbm, 646, rfl⟩
abbrev main_v555 : Ref sig .tc := ⟨.hbm, 647, rfl⟩
abbrev main_v556 : Ref sig .tc := ⟨.hbm, 648, rfl⟩
abbrev main_cst_61 : Ref sig .tc := ⟨.hbm, 649, rfl⟩
abbrev main_v557 : Ref sig .tc := ⟨.hbm, 650, rfl⟩
abbrev main_v558 : Ref sig .tc := ⟨.hbm, 651, rfl⟩
abbrev main_v559 : Ref sig .tc := ⟨.hbm, 652, rfl⟩
abbrev main_v560 : Ref sig .tc := ⟨.hbm, 653, rfl⟩
abbrev main_v561 : Ref sig .tc := ⟨.hbm, 654, rfl⟩
abbrev main_v562 : Ref sig .tc := ⟨.hbm, 655, rfl⟩
abbrev main_v563 : Ref sig .tc := ⟨.hbm, 656, rfl⟩
abbrev main_v564 : Ref sig .tc := ⟨.hbm, 657, rfl⟩
abbrev main_v565 : Ref sig .tc := ⟨.hbm, 658, rfl⟩
abbrev main_cst_62 : Ref sig .tc := ⟨.hbm, 659, rfl⟩
abbrev main_v566 : Ref sig .tc := ⟨.hbm, 660, rfl⟩
abbrev main_v567 : Ref sig .tc := ⟨.hbm, 661, rfl⟩
abbrev main_v568 : Ref sig .tc := ⟨.hbm, 662, rfl⟩
abbrev main_v569 : Ref sig .tc := ⟨.hbm, 663, rfl⟩
abbrev main_v570 : Ref sig .tc := ⟨.hbm, 664, rfl⟩
abbrev main_v571 : Ref sig .tc := ⟨.hbm, 665, rfl⟩
abbrev main_v572 : Ref sig .tc := ⟨.hbm, 666, rfl⟩
abbrev main_v573 : Ref sig .tc := ⟨.hbm, 667, rfl⟩
abbrev main_cst_63 : Ref sig .tc := ⟨.hbm, 668, rfl⟩
abbrev main_v574 : Ref sig .tc := ⟨.hbm, 669, rfl⟩
abbrev main_v575 : Ref sig .tc := ⟨.hbm, 670, rfl⟩
abbrev main_cst_64 : Ref sig .tc := ⟨.hbm, 671, rfl⟩
abbrev main_v576 : Ref sig .tc := ⟨.hbm, 672, rfl⟩
abbrev main_v577 : Ref sig .tc := ⟨.hbm, 673, rfl⟩
abbrev main_v578 : Ref sig .tc := ⟨.hbm, 674, rfl⟩
abbrev main_v579 : Ref sig .tc := ⟨.hbm, 675, rfl⟩
abbrev main_v580 : Ref sig .tc := ⟨.hbm, 676, rfl⟩
abbrev main_v581 : Ref sig .tc := ⟨.hbm, 677, rfl⟩
abbrev main_v582 : Ref sig .tc := ⟨.hbm, 678, rfl⟩
abbrev main_v583 : Ref sig .tc := ⟨.hbm, 679, rfl⟩
abbrev main_cst_65 : Ref sig .tc := ⟨.hbm, 680, rfl⟩
abbrev main_v584 : Ref sig .tc := ⟨.hbm, 681, rfl⟩
abbrev main_v585 : Ref sig .tc := ⟨.hbm, 682, rfl⟩
abbrev main_cst_66 : Ref sig .tc := ⟨.hbm, 683, rfl⟩
abbrev main_v586 : Ref sig .tc := ⟨.hbm, 684, rfl⟩
abbrev main_v587 : Ref sig .tc := ⟨.hbm, 685, rfl⟩
abbrev main_v588 : Ref sig .tc := ⟨.hbm, 686, rfl⟩
abbrev main_v589 : Ref sig .tc := ⟨.hbm, 687, rfl⟩
abbrev main_v590 : Ref sig .tc := ⟨.hbm, 688, rfl⟩
abbrev main_cst_67 : Ref sig .tc := ⟨.hbm, 689, rfl⟩
abbrev main_v591 : Ref sig .tc := ⟨.hbm, 690, rfl⟩
abbrev main_v592 : Ref sig .tc := ⟨.hbm, 691, rfl⟩
abbrev main_cst_68 : Ref sig .tc := ⟨.hbm, 692, rfl⟩
abbrev main_v593 : Ref sig .tc := ⟨.hbm, 693, rfl⟩
abbrev main_v594 : Ref sig .tc := ⟨.hbm, 694, rfl⟩
abbrev main_v595 : Ref sig .tc := ⟨.hbm, 695, rfl⟩
abbrev main_v596 : Ref sig .tc := ⟨.hbm, 696, rfl⟩
abbrev main_cst_69 : Ref sig .tc := ⟨.hbm, 697, rfl⟩
abbrev main_v597 : Ref sig .tc := ⟨.hbm, 698, rfl⟩
abbrev main_v598 : Ref sig .tc := ⟨.hbm, 699, rfl⟩
abbrev main_v599 : Ref sig .tc := ⟨.hbm, 700, rfl⟩
abbrev main_v600 : Ref sig .tc := ⟨.hbm, 701, rfl⟩
abbrev main_v601 : Ref sig .tc := ⟨.hbm, 702, rfl⟩
abbrev main_v602 : Ref sig .tc := ⟨.hbm, 703, rfl⟩
abbrev main_v603 : Ref sig .tc := ⟨.hbm, 704, rfl⟩
abbrev main_v604 : Ref sig .tc := ⟨.hbm, 705, rfl⟩
abbrev main_v605 : Ref sig .tc := ⟨.hbm, 706, rfl⟩
abbrev main_v606 : Ref sig .tc := ⟨.hbm, 707, rfl⟩
abbrev main_v607 : Ref sig .tc := ⟨.hbm, 708, rfl⟩
abbrev main_v608 : Ref sig .tc := ⟨.hbm, 709, rfl⟩
abbrev main_v609 : Ref sig .tc := ⟨.hbm, 710, rfl⟩
abbrev main_v610 : Ref sig .tc := ⟨.hbm, 711, rfl⟩
abbrev main_v611 : Ref sig .tc := ⟨.hbm, 712, rfl⟩
abbrev main_v612 : Ref sig .tc := ⟨.hbm, 713, rfl⟩
abbrev main_v613 : Ref sig .tc := ⟨.hbm, 714, rfl⟩
abbrev main_v614 : Ref sig .tc := ⟨.hbm, 715, rfl⟩
abbrev main_v615 : Ref sig .tc := ⟨.hbm, 716, rfl⟩
abbrev main_v616 : Ref sig .tc := ⟨.hbm, 717, rfl⟩
abbrev main_cst_70 : Ref sig .tc := ⟨.hbm, 718, rfl⟩
abbrev main_v617 : Ref sig .tc := ⟨.hbm, 719, rfl⟩
abbrev main_v618 : Ref sig .tc := ⟨.hbm, 720, rfl⟩
abbrev main_v619 : Ref sig .tc := ⟨.hbm, 721, rfl⟩
abbrev main_v620 : Ref sig .tc := ⟨.hbm, 722, rfl⟩
abbrev main_v621 : Ref sig .tc := ⟨.hbm, 723, rfl⟩
abbrev main_v622 : Ref sig .tc := ⟨.hbm, 724, rfl⟩
abbrev main_v623 : Ref sig .tc := ⟨.hbm, 725, rfl⟩
abbrev main_v624 : Ref sig .tc := ⟨.hbm, 726, rfl⟩
abbrev main_v625 : Ref sig .tc := ⟨.hbm, 727, rfl⟩
abbrev main_v626 : Ref sig .tc := ⟨.hbm, 728, rfl⟩
abbrev main_v627 : Ref sig .tc := ⟨.hbm, 729, rfl⟩
abbrev main_v628 : Ref sig .tc := ⟨.hbm, 730, rfl⟩
abbrev main_v629 : Ref sig .tc := ⟨.hbm, 731, rfl⟩
abbrev main_v630 : Ref sig .tc := ⟨.hbm, 732, rfl⟩
abbrev main_v631 : Ref sig .tc := ⟨.hbm, 733, rfl⟩
abbrev main_v632 : Ref sig .tc := ⟨.hbm, 734, rfl⟩
abbrev main_cst_71 : Ref sig .tc := ⟨.hbm, 735, rfl⟩
abbrev main_v633 : Ref sig .tc := ⟨.hbm, 736, rfl⟩
abbrev main_v634 : Ref sig .tc := ⟨.hbm, 737, rfl⟩
abbrev main_v635 : Ref sig .tc := ⟨.hbm, 738, rfl⟩
abbrev main_v636 : Ref sig .tc := ⟨.hbm, 739, rfl⟩
abbrev main_v637 : Ref sig .tc := ⟨.hbm, 740, rfl⟩
abbrev main_v638 : Ref sig .tc := ⟨.hbm, 741, rfl⟩
abbrev main_v639 : Ref sig .tc := ⟨.hbm, 742, rfl⟩
abbrev main_v640 : Ref sig .tc := ⟨.hbm, 743, rfl⟩
abbrev main_v641 : Ref sig .tc := ⟨.hbm, 744, rfl⟩
abbrev main_v642 : Ref sig .tc := ⟨.hbm, 745, rfl⟩
abbrev main_v643 : Ref sig .tc := ⟨.hbm, 746, rfl⟩
abbrev main_v644 : Ref sig .tc := ⟨.hbm, 747, rfl⟩
abbrev main_v645 : Ref sig .tc := ⟨.hbm, 748, rfl⟩
abbrev main_v646 : Ref sig .tc := ⟨.hbm, 749, rfl⟩
abbrev main_v647 : Ref sig .tc := ⟨.hbm, 750, rfl⟩
abbrev main_v648 : Ref sig .tc := ⟨.hbm, 751, rfl⟩
abbrev main_cst_72 : Ref sig .tc := ⟨.hbm, 752, rfl⟩
abbrev main_v649 : Ref sig .tc := ⟨.hbm, 753, rfl⟩
abbrev main_v650 : Ref sig .tc := ⟨.hbm, 754, rfl⟩
abbrev main_v651 : Ref sig .tc := ⟨.hbm, 755, rfl⟩
abbrev main_v652 : Ref sig .tc := ⟨.hbm, 756, rfl⟩
abbrev main_v653 : Ref sig .tc := ⟨.hbm, 757, rfl⟩
abbrev main_v654 : Ref sig .tc := ⟨.hbm, 758, rfl⟩
abbrev main_v655 : Ref sig .tc := ⟨.hbm, 759, rfl⟩
abbrev main_v656 : Ref sig .tc := ⟨.hbm, 760, rfl⟩
abbrev main_v657 : Ref sig .tc := ⟨.hbm, 761, rfl⟩
abbrev main_v658 : Ref sig .tc := ⟨.hbm, 762, rfl⟩
abbrev main_v659 : Ref sig .tc := ⟨.hbm, 763, rfl⟩
abbrev main_v660 : Ref sig .tc := ⟨.hbm, 764, rfl⟩
abbrev main_v661 : Ref sig .tc := ⟨.hbm, 765, rfl⟩
abbrev main_v662 : Ref sig .tc := ⟨.hbm, 766, rfl⟩
abbrev main_v663 : Ref sig .tc := ⟨.hbm, 767, rfl⟩
abbrev main_v664 : Ref sig .tc := ⟨.hbm, 768, rfl⟩
abbrev main_v665 : Ref sig .tc := ⟨.hbm, 769, rfl⟩
abbrev main_v666 : Ref sig .tc := ⟨.hbm, 770, rfl⟩
abbrev main_v667 : Ref sig .tc := ⟨.hbm, 771, rfl⟩
abbrev main_v668 : Ref sig .tc := ⟨.hbm, 772, rfl⟩
abbrev main_v669 : Ref sig .tc := ⟨.hbm, 773, rfl⟩
abbrev main_v670 : Ref sig .tc := ⟨.hbm, 774, rfl⟩
abbrev main_v671 : Ref sig .tc := ⟨.hbm, 775, rfl⟩
abbrev main_v672 : Ref sig .tc := ⟨.hbm, 776, rfl⟩
abbrev main_v673 : Ref sig .tc := ⟨.hbm, 777, rfl⟩
abbrev main_v674 : Ref sig .tc := ⟨.hbm, 778, rfl⟩
abbrev main_v675 : Ref sig .tc := ⟨.hbm, 779, rfl⟩
abbrev main_v676 : Ref sig .tc := ⟨.hbm, 780, rfl⟩
abbrev main_v677 : Ref sig .tc := ⟨.hbm, 781, rfl⟩
abbrev main_cst_73 : Ref sig .tc := ⟨.hbm, 782, rfl⟩
abbrev main_v678 : Ref sig .tc := ⟨.hbm, 783, rfl⟩
abbrev main_v679 : Ref sig .tc := ⟨.hbm, 784, rfl⟩
abbrev main_cst_74 : Ref sig .tc := ⟨.hbm, 785, rfl⟩
abbrev main_v680 : Ref sig .tc := ⟨.hbm, 786, rfl⟩
abbrev main_v681 : Ref sig .tc := ⟨.hbm, 787, rfl⟩
abbrev main_v682 : Ref sig .tc := ⟨.hbm, 788, rfl⟩
abbrev main_v683 : Ref sig .tc := ⟨.hbm, 789, rfl⟩
abbrev main_v684 : Ref sig .tc := ⟨.hbm, 790, rfl⟩
abbrev main_v685 : Ref sig .tc := ⟨.hbm, 791, rfl⟩
abbrev main_v686 : Ref sig .tc := ⟨.hbm, 792, rfl⟩
abbrev main_v687 : Ref sig .tc := ⟨.hbm, 793, rfl⟩
abbrev main_v688 : Ref sig .tc := ⟨.hbm, 794, rfl⟩
abbrev main_v689 : Ref sig .tc := ⟨.hbm, 795, rfl⟩
abbrev main_v690 : Ref sig .tc := ⟨.hbm, 796, rfl⟩
abbrev main_cst_75 : Ref sig .tc := ⟨.hbm, 797, rfl⟩
abbrev main_v691 : Ref sig .tc := ⟨.hbm, 798, rfl⟩
abbrev main_v692 : Ref sig .tc := ⟨.hbm, 799, rfl⟩
abbrev main_cst_76 : Ref sig .tc := ⟨.hbm, 800, rfl⟩
abbrev main_v693 : Ref sig .tc := ⟨.hbm, 801, rfl⟩
abbrev main_v694 : Ref sig .tc := ⟨.hbm, 802, rfl⟩
abbrev main_v695 : Ref sig .tc := ⟨.hbm, 803, rfl⟩
abbrev main_v696 : Ref sig .tc := ⟨.hbm, 804, rfl⟩
abbrev main_v697 : Ref sig .tc := ⟨.hbm, 805, rfl⟩
abbrev main_cst_77 : Ref sig .tc := ⟨.hbm, 806, rfl⟩
abbrev main_v698 : Ref sig .tc := ⟨.hbm, 807, rfl⟩
abbrev main_v699 : Ref sig .tc := ⟨.hbm, 808, rfl⟩
abbrev main_cst_78 : Ref sig .tc := ⟨.hbm, 809, rfl⟩
abbrev main_v700 : Ref sig .tc := ⟨.hbm, 810, rfl⟩
abbrev main_v701 : Ref sig .tc := ⟨.hbm, 811, rfl⟩
abbrev main_v702 : Ref sig .tc := ⟨.hbm, 812, rfl⟩
abbrev main_v703 : Ref sig .tc := ⟨.hbm, 813, rfl⟩
abbrev main_cst_79 : Ref sig .tc := ⟨.hbm, 814, rfl⟩
abbrev main_v704 : Ref sig .tc := ⟨.hbm, 815, rfl⟩
abbrev main_v705 : Ref sig .tc := ⟨.hbm, 816, rfl⟩
abbrev main_v706 : Ref sig .tc := ⟨.hbm, 817, rfl⟩
abbrev main_v707 : Ref sig .tc := ⟨.hbm, 818, rfl⟩
abbrev main_v708 : Ref sig .tc := ⟨.hbm, 819, rfl⟩
abbrev main_v709 : Ref sig .tc := ⟨.hbm, 820, rfl⟩
abbrev main_v710 : Ref sig .tc := ⟨.hbm, 821, rfl⟩
abbrev main_v711 : Ref sig .tc := ⟨.hbm, 822, rfl⟩
abbrev main_v712 : Ref sig .tc := ⟨.hbm, 823, rfl⟩
abbrev main_v713 : Ref sig .tc := ⟨.hbm, 824, rfl⟩
abbrev main_v714 : Ref sig .tc := ⟨.hbm, 825, rfl⟩
abbrev main_v715 : Ref sig .tc := ⟨.hbm, 826, rfl⟩
abbrev main_v716 : Ref sig .tc := ⟨.hbm, 827, rfl⟩
abbrev main_v717 : Ref sig .tc := ⟨.hbm, 828, rfl⟩
abbrev main_v718 : Ref sig .tc := ⟨.hbm, 829, rfl⟩
abbrev main_v719 : Ref sig .tc := ⟨.hbm, 830, rfl⟩
abbrev main_v720 : Ref sig .tc := ⟨.hbm, 831, rfl⟩
abbrev main_v721 : Ref sig .tc := ⟨.hbm, 832, rfl⟩
abbrev main_v722 : Ref sig .tc := ⟨.hbm, 833, rfl⟩
abbrev main_v723 : Ref sig .tc := ⟨.hbm, 834, rfl⟩
abbrev main_cst_80 : Ref sig .tc := ⟨.hbm, 835, rfl⟩
abbrev main_v724 : Ref sig .tc := ⟨.hbm, 836, rfl⟩
abbrev main_v725 : Ref sig .tc := ⟨.hbm, 837, rfl⟩
abbrev main_v726 : Ref sig .tc := ⟨.hbm, 838, rfl⟩
abbrev main_v727 : Ref sig .tc := ⟨.hbm, 839, rfl⟩
abbrev main_v728 : Ref sig .tc := ⟨.hbm, 840, rfl⟩
abbrev main_v729 : Ref sig .tc := ⟨.hbm, 841, rfl⟩
abbrev main_v730 : Ref sig .tc := ⟨.hbm, 842, rfl⟩
abbrev main_v731 : Ref sig .tc := ⟨.hbm, 843, rfl⟩
abbrev main_v732 : Ref sig .tc := ⟨.hbm, 844, rfl⟩
abbrev main_v733 : Ref sig .tc := ⟨.hbm, 845, rfl⟩
abbrev main_v734 : Ref sig .tc := ⟨.hbm, 846, rfl⟩
abbrev main_v735 : Ref sig .tc := ⟨.hbm, 847, rfl⟩
abbrev main_v736 : Ref sig .tc := ⟨.hbm, 848, rfl⟩
abbrev main_v737 : Ref sig .tc := ⟨.hbm, 849, rfl⟩
abbrev main_v738 : Ref sig .tc := ⟨.hbm, 850, rfl⟩
abbrev main_v739 : Ref sig .tc := ⟨.hbm, 851, rfl⟩
abbrev main_cst_81 : Ref sig .tc := ⟨.hbm, 852, rfl⟩
abbrev main_v740 : Ref sig .tc := ⟨.hbm, 853, rfl⟩
abbrev main_v741 : Ref sig .tc := ⟨.hbm, 854, rfl⟩
abbrev main_v742 : Ref sig .tc := ⟨.hbm, 855, rfl⟩
abbrev main_v743 : Ref sig .tc := ⟨.hbm, 856, rfl⟩
abbrev main_v744 : Ref sig .tc := ⟨.hbm, 857, rfl⟩
abbrev main_v745 : Ref sig .tc := ⟨.hbm, 858, rfl⟩
abbrev main_v746 : Ref sig .tc := ⟨.hbm, 859, rfl⟩
abbrev main_v747 : Ref sig .tc := ⟨.hbm, 860, rfl⟩
abbrev main_v748 : Ref sig .tc := ⟨.hbm, 861, rfl⟩
abbrev main_cst_82 : Ref sig .tc := ⟨.hbm, 862, rfl⟩
abbrev main_v749 : Ref sig .tc := ⟨.hbm, 863, rfl⟩
abbrev main_v750 : Ref sig .tc := ⟨.hbm, 864, rfl⟩
abbrev main_v751 : Ref sig .tc := ⟨.hbm, 865, rfl⟩
abbrev main_v752 : Ref sig .tc := ⟨.hbm, 866, rfl⟩
abbrev main_v753 : Ref sig .tc := ⟨.hbm, 867, rfl⟩
abbrev main_v754 : Ref sig .tc := ⟨.hbm, 868, rfl⟩
abbrev main_v755 : Ref sig .tc := ⟨.hbm, 869, rfl⟩
abbrev main_v756 : Ref sig .tc := ⟨.hbm, 870, rfl⟩
abbrev main_cst_83 : Ref sig .tc := ⟨.hbm, 871, rfl⟩
abbrev main_v757 : Ref sig .tc := ⟨.hbm, 872, rfl⟩
abbrev main_v758 : Ref sig .tc := ⟨.hbm, 873, rfl⟩
abbrev main_cst_84 : Ref sig .tc := ⟨.hbm, 874, rfl⟩
abbrev main_v759 : Ref sig .tc := ⟨.hbm, 875, rfl⟩
abbrev main_v760 : Ref sig .tc := ⟨.hbm, 876, rfl⟩
abbrev main_v761 : Ref sig .tc := ⟨.hbm, 877, rfl⟩
abbrev main_v762 : Ref sig .tc := ⟨.hbm, 878, rfl⟩
abbrev main_cst_85 : Ref sig .tc := ⟨.hbm, 879, rfl⟩
abbrev main_v763 : Ref sig .tc := ⟨.hbm, 880, rfl⟩
abbrev main_v764 : Ref sig .tc := ⟨.hbm, 881, rfl⟩
abbrev main_cst_86 : Ref sig .tc := ⟨.hbm, 882, rfl⟩
abbrev main_v765 : Ref sig .tc := ⟨.hbm, 883, rfl⟩
abbrev main_v766 : Ref sig .tc := ⟨.hbm, 884, rfl⟩
abbrev main_v767 : Ref sig .tc := ⟨.hbm, 885, rfl⟩
abbrev main_v768 : Ref sig .tc := ⟨.hbm, 886, rfl⟩
abbrev main_v769 : Ref sig .tc := ⟨.hbm, 887, rfl⟩
abbrev main_cst_87 : Ref sig .tc := ⟨.hbm, 888, rfl⟩
abbrev main_v770 : Ref sig .tc := ⟨.hbm, 889, rfl⟩
abbrev main_v771 : Ref sig .tc := ⟨.hbm, 890, rfl⟩
abbrev main_cst_88 : Ref sig .tc := ⟨.hbm, 891, rfl⟩
abbrev main_v772 : Ref sig .tc := ⟨.hbm, 892, rfl⟩
abbrev main_v773 : Ref sig .tc := ⟨.hbm, 893, rfl⟩
abbrev main_v774 : Ref sig .tc := ⟨.hbm, 894, rfl⟩
abbrev main_v775 : Ref sig .tc := ⟨.hbm, 895, rfl⟩
abbrev main_cst_89 : Ref sig .tc := ⟨.hbm, 896, rfl⟩
abbrev main_v776 : Ref sig .tc := ⟨.hbm, 897, rfl⟩
abbrev main_v777 : Ref sig .tc := ⟨.hbm, 898, rfl⟩
abbrev main_v778 : Ref sig .tc := ⟨.hbm, 899, rfl⟩
abbrev main_v779 : Ref sig .tc := ⟨.hbm, 900, rfl⟩
abbrev main_v780 : Ref sig .tc := ⟨.hbm, 901, rfl⟩
abbrev main_v781 : Ref sig .tc := ⟨.hbm, 902, rfl⟩
abbrev main_v782 : Ref sig .tc := ⟨.hbm, 903, rfl⟩
abbrev main_v783 : Ref sig .tc := ⟨.hbm, 904, rfl⟩
abbrev main_v784 : Ref sig .tc := ⟨.hbm, 905, rfl⟩
abbrev main_v785 : Ref sig .tc := ⟨.hbm, 906, rfl⟩
abbrev main_v786 : Ref sig .tc := ⟨.hbm, 907, rfl⟩
abbrev main_v787 : Ref sig .tc := ⟨.hbm, 908, rfl⟩
abbrev main_cst_90 : Ref sig .tc := ⟨.hbm, 909, rfl⟩
abbrev main_v788 : Ref sig .tc := ⟨.hbm, 910, rfl⟩
abbrev main_v789 : Ref sig .tc := ⟨.hbm, 911, rfl⟩
abbrev main_v790 : Ref sig .tc := ⟨.hbm, 912, rfl⟩
abbrev main_v791 : Ref sig .tc := ⟨.hbm, 913, rfl⟩
abbrev main_cst_91 : Ref sig .tc := ⟨.hbm, 914, rfl⟩
abbrev main_v792 : Ref sig .tc := ⟨.hbm, 915, rfl⟩
abbrev main_v793 : Ref sig .tc := ⟨.hbm, 916, rfl⟩
abbrev main_v794 : Ref sig .tc := ⟨.hbm, 917, rfl⟩

abbrev nD : Nat := 1
abbrev τ : Topo := Topo.v7x

variable {F : FTy → Type} [FloatOps F]

class Facts₀ : Prop where
  bcast_S_S2x1024 : S_.BroadcastsInDim S2x1024 (![] : Fin 0 → Fin S2x1024.rank)
  bcast_S2x1024_S2x1024x1_0_1 : S2x1024.BroadcastsInDim S2x1024x1 (![0, 1] : Fin 2 → Fin S2x1024x1.rank)
  reducesTo_S2x1024x1024_S2x1024_d2 : S2x1024x1024.ReducesTo [2] S2x1024
  h_S_ : 0 < S_.numel
  bcast_S_S2x1024x1 : S_.BroadcastsInDim S2x1024x1 (![] : Fin 0 → Fin S2x1024x1.rank)
  bcast_S2x1024x1_S2x1024x1024_0_1_2 : S2x1024x1.BroadcastsInDim S2x1024x1024 (![0, 1, 2] : Fin 3 → Fin S2x1024x1024.rank)
  bcast_S1024_S1x1x1024_2 : S1024.BroadcastsInDim S1x1x1024 (![2] : Fin 1 → Fin S1x1x1024.rank)
  bcast_S1x1x1024_S2x1024x1024_0_1_2 : S1x1x1024.BroadcastsInDim S2x1024x1024 (![0, 1, 2] : Fin 3 → Fin S2x1024x1024.rank)
  slices_S4x1024_S1x1024_0_0 : S4x1024.Slices ![0, 0] S1x1024
  shapeCasts_S1x1024_S1024 : S1x1024.ShapeCasts S1024
  bcast_S_S1024 : S_.BroadcastsInDim S1024 (![] : Fin 0 → Fin S1024.rank)
  slices_S4x1024x1024_S1x1024x1024_0_0_0 : S4x1024x1024.Slices ![0, 0, 0] S1x1024x1024
  shapeCasts_S1x1024x1024_S1024x1024 : S1x1024x1024.ShapeCasts S1024x1024
  bcast_S_S2x1024x1024 : S_.BroadcastsInDim S2x1024x1024 (![] : Fin 0 → Fin S2x1024x1024.rank)
  slices_S4x4096x1024_S1x4096x1024_0_0_0 : S4x4096x1024.Slices ![0, 0, 0] S1x4096x1024
  shapeCasts_S1x4096x1024_S4096x1024 : S1x4096x1024.ShapeCasts S4096x1024
  bcast_S_S2x1024x4096 : S_.BroadcastsInDim S2x1024x4096 (![] : Fin 0 → Fin S2x1024x4096.rank)
  slices_S4x1024x4096_S1x1024x4096_0_0_0 : S4x1024x4096.Slices ![0, 0, 0] S1x1024x4096
  shapeCasts_S1x1024x4096_S1024x4096 : S1x1024x4096.ShapeCasts S1024x4096
  slices_S4x1024_S1x1024_1_0 : S4x1024.Slices ![1, 0] S1x1024
  slices_S4x1024x1024_S1x1024x1024_1_0_0 : S4x1024x1024.Slices ![1, 0, 0] S1x1024x1024
  slices_S4x4096x1024_S1x4096x1024_1_0_0 : S4x4096x1024.Slices ![1, 0, 0] S1x4096x1024
  slices_S4x1024x4096_S1x1024x4096_1_0_0 : S4x1024x4096.Slices ![1, 0, 0] S1x1024x4096
  slices_S4x1024_S1x1024_2_0 : S4x1024.Slices ![2, 0] S1x1024
  slices_S4x1024x1024_S1x1024x1024_2_0_0 : S4x1024x1024.Slices ![2, 0, 0] S1x1024x1024
  slices_S4x4096x1024_S1x4096x1024_2_0_0 : S4x4096x1024.Slices ![2, 0, 0] S1x4096x1024
  slices_S4x1024x4096_S1x1024x4096_2_0_0 : S4x1024x4096.Slices ![2, 0, 0] S1x1024x4096
  slices_S4x1024_S1x1024_3_0 : S4x1024.Slices ![3, 0] S1x1024
  slices_S4x1024x1024_S1x1024x1024_3_0_0 : S4x1024x1024.Slices ![3, 0, 0] S1x1024x1024
  slices_S4x4096x1024_S1x4096x1024_3_0_0 : S4x4096x1024.Slices ![3, 0, 0] S1x4096x1024
  slices_S4x1024x4096_S1x1024x4096_3_0_0 : S4x1024x4096.Slices ![3, 0, 0] S1x1024x4096
  reducesTo_S2x1024x50257_S_d0_1_2 : S2x1024x50257.ReducesTo [0, 1, 2] S_
  bcast_S_S2x1024x50257 : S_.BroadcastsInDim S2x1024x50257 (![] : Fin 0 → Fin S2x1024x50257.rank)
  gather_S50257x1024_S2x1024x1_S2x1024x1024_2_0_n_n_0_2_11024_wf : GatherDims.WF S50257x1024 S2x1024x1 S2x1024x1024 [2] [0] [] [0] [] 2 ![1, 1024]
  dot_S2x1024x1024_S1024x1024_S2x1024x1024_2_1_01_0_n_n_wf : DotDims.WF S2x1024x1024 S1024x1024 S2x1024x1024 [2] [1] [0, 1] [0] [] []
  dot_S2x1024x1024_S4096x1024_S2x1024x4096_2_1_01_0_n_n_wf : DotDims.WF S2x1024x1024 S4096x1024 S2x1024x4096 [2] [1] [0, 1] [0] [] []
  dot_S2x1024x4096_S1024x4096_S2x1024x1024_2_1_01_0_n_n_wf : DotDims.WF S2x1024x4096 S1024x4096 S2x1024x1024 [2] [1] [0, 1] [0] [] []
  dot_S2x1024x1024_S50257x1024_S2x1024x50257_2_1_01_0_n_n_wf : DotDims.WF S2x1024x1024 S50257x1024 S2x1024x50257 [2] [1] [0, 1] [0] [] []

variable [Facts₀]

def gather_S50257x1024_S2x1024x1_S2x1024x1024_2_0_n_n_0_2_11024 : GatherDims S50257x1024 S2x1024x1 S2x1024x1024 where
  offsetDims := [2]
  collapsedSliceDims := [0]
  operandBatchingDims := []
  startIndicesBatchingDims := []
  startIndexMap := [0]
  indexVectorDim := 2
  sliceSizes := ![1, 1024]
  wf := gather_S50257x1024_S2x1024x1_S2x1024x1024_2_0_n_n_0_2_11024_wf
def dot_S2x1024x1024_S1024x1024_S2x1024x1024_2_1_01_0_n_n : DotDims S2x1024x1024 S1024x1024 S2x1024x1024 where
  lhsContracting := [2]
  rhsContracting := [1]
  lhsNonContracting := [0, 1]
  rhsNonContracting := [0]
  lhsBatch := []
  rhsBatch := []
  wf := dot_S2x1024x1024_S1024x1024_S2x1024x1024_2_1_01_0_n_n_wf
def dot_S2x1024x1024_S4096x1024_S2x1024x4096_2_1_01_0_n_n : DotDims S2x1024x1024 S4096x1024 S2x1024x4096 where
  lhsContracting := [2]
  rhsContracting := [1]
  lhsNonContracting := [0, 1]
  rhsNonContracting := [0]
  lhsBatch := []
  rhsBatch := []
  wf := dot_S2x1024x1024_S4096x1024_S2x1024x4096_2_1_01_0_n_n_wf
def dot_S2x1024x4096_S1024x4096_S2x1024x1024_2_1_01_0_n_n : DotDims S2x1024x4096 S1024x4096 S2x1024x1024 where
  lhsContracting := [2]
  rhsContracting := [1]
  lhsNonContracting := [0, 1]
  rhsNonContracting := [0]
  lhsBatch := []
  rhsBatch := []
  wf := dot_S2x1024x4096_S1024x4096_S2x1024x1024_2_1_01_0_n_n_wf
def dot_S2x1024x1024_S50257x1024_S2x1024x50257_2_1_01_0_n_n : DotDims S2x1024x1024 S50257x1024 S2x1024x50257 where
  lhsContracting := [2]
  rhsContracting := [1]
  lhsNonContracting := [0, 1]
  rhsNonContracting := [0]
  lhsBatch := []
  rhsBatch := []
  wf := dot_S2x1024x1024_S50257x1024_S2x1024x50257_2_1_01_0_n_n_wf

class Facts : Prop extends Facts₀ where

variable [Facts]
-- ==== Proof.Region0.lean ====
/- REGION 0: a launch of the attention kernel (custom call 0, pipeline 0; a grid of 8 points, windows 0..13
   read and window 14 written), stated at the contents `V` the TensorCore's buffers hold when the region is entered.

   At a point `t` the body reads the whole of each input window's staging buffer, which holds the window's block of
   its array at `t` (window 0 moves with the point; windows 1..13 have one block, brought in at the first point and
   found in place at every later one, the block index not having moved). It also reads the output window's own
   buffer once, a value it does not use, and then writes ONE value over the whole of the output window's buffer:
   the sum `k0_pay1` of block 0 and a projection of a gated ratio computed from the other thirteen blocks (spelled
   out at `out0_14`). So after the body the output buffer holds exactly that value, a pure function of the fourteen
   input blocks, whatever it held before, and every input buffer holds what it held. Nothing is kept between
   points: the invariant is the launch's own (`Pipeline.ΦA`), nothing is owed, every share is full. -/
import proofs.«415492_j738734375128_3_alg».proof.Proof.Gen.KernelIdeal.Launch
import proofs.«415492_j738734375128_3_alg».proof.Proof.Gen.KernelIdeal.Skeleton
import proofs.«415492_j738734375128_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the part of its array, as the region finds it, that the window shows there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point, brought in there or not: where the pipeline
    brings nothing in, the window's block index is the one of the point before, and the body left the block in
    place. This holds for ANY proof data over the entry contents `V` whose body leaves the window's block where it
    found it; windows 1..13, brought in at the first point only, are the case "not brought in" at points 1..7. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of an activation block, of a row vector, of a weight matrix: the three rectangles the body reads and
    writes through. -/
abbrev r0_A : Rect S256x1024 := Rect.unit (s := S256x1024) ![0, 0] S256x1024.size inb_S256x1024_S256x1024_0_0
abbrev r0_B : Rect S1x1024 := Rect.unit (s := S1x1024) ![0, 0] S1x1024.size inb_S1x1024_S1x1024_0_0
abbrev r0_C : Rect S1024x1024 := Rect.unit (s := S1024x1024) ![0, 0] S1024x1024.size inb_S1024x1024_S1024x1024_0_0

/-! ## What the body leaves in the output window's buffer -/

/-- Window 14's buffer after the body, from the fourteen input blocks: its one store, of the whole block. Write `x`
    for block 0, `pⱼ` / `bⱼ` for the row vector of window `j` spread over the 256 rows, `Wⱼ` for the matrix of
    window `j`, and `a ⬝ Wᵀ` for the product contracting the second axis of both, its left factor rounded to bf16.
    With `n` the rows of `x` centred and divided by the root of their variance plus a small constant, times `p₁`
    plus `p₂` (`k0_pay3`), and `mⱼ = n · pⱼ + p₃ · (1 − pⱼ)` the mixture of `n` and `p₃` by `pⱼ` (j = 4, 5, 6):
      `e = exp (b₇ + m₄ ⬝ W₁₀ᵀ)`                      (`k0_pay11`),
      `u = b₈ + e · (m₅ ⬝ W₁₁ᵀ)`                      (`k0_pay12`),
      `g = m₆ ⬝ W₁₂ᵀ`                                 (`k0_pay10`),
    and the value stored is `x + (logistic g · (u / (b₉ + e))) ⬝ W₁₃ᵀ` (`k0_pay1`; `b₉` is `k0_pay13`). Each operand
    is the load of a whole buffer, so it is the window's block itself read through the full rectangle. -/
def out0_14 (x0 : Vec F S256x1024 .f32) (x1 x2 x3 x4 x5 x6 x7 x8 x9 : Vec F S1x1024 .f32)
    (x10 x11 x12 x13 : Vec F S1024x1024 .bf16) : Vec F S256x1024 .f32 :=
  View.canon [⟨r0_A, k0_pay1 (k0_pay2 (View.ld x0 r0_A))
    (k0_pay10 (k0_pay3 (View.ld x0 r0_A) (View.ld x1 r0_B) (View.ld x2 r0_B)) (k0_pay4 (View.ld x3 r0_B)) (k0_pay7 (View.ld x6 r0_B)) (View.ld x12 r0_C))
    (k0_pay11 (k0_pay4 (View.ld x3 r0_B)) (k0_pay5 (View.ld x4 r0_B)) (k0_pay8 (View.ld x0 r0_A) (View.ld x1 r0_B) (View.ld x2 r0_B) (View.ld x4 r0_B)) (k0_pay9 (F := F)) (View.ld x10 r0_C) (View.ld x7 r0_B))
    (k0_pay12 (k0_pay3 (View.ld x0 r0_A) (View.ld x1 r0_B) (View.ld x2 r0_B)) (k0_pay4 (View.ld x3 r0_B)) (k0_pay5 (View.ld x4 r0_B)) (k0_pay6 (View.ld x5 r0_B))
      (k0_pay8 (View.ld x0 r0_A) (View.ld x1 r0_B) (View.ld x2 r0_B) (View.ld x4 r0_B)) (k0_pay9 (F := F)) (View.ld x10 r0_C) (View.ld x11 r0_C) (View.ld x7 r0_B) (View.ld x8 r0_B))
    (k0_pay13 (View.ld x9 r0_B))
    (View.ld x13 r0_C)⟩]

/-- The one store is of the whole block, so it covers it. -/
theorem cover0_14 (p0 : Vec F S256x1024 .f32) (y : S256x1024.Idx) :
    ∃ pc ∈ ([⟨r0_A, p0⟩] : List (View.Piece (Elt F) S256x1024 .f32)), y ∈ pc.1.set :=
  View.cover_of_tiled [⟨r0_A, p0⟩] S256x1024.size (by rfl) y

/-! ## The body's triple -/

set_option maxHeartbeats 1000000 in
/-- The body on whole staging memrefs, the inputs' at read contents `x0 … x13` and the output's at anything, runs to
    the continuation holding the inputs' as they were and the output's at `out0_14` of the inputs': every load reads
    the whole of a buffer whose contents are known (the output's own, read once and not used, at whatever it
    holds), and the one store covers the output's buffer. -/
theorem sound_kernel0 (c : Dev nD) (E : Set ℕ) (i : grid0.Coords)
    (arg1 : Memref sig .tc .vmem S256x1024 .f32) (harg1 : arg1.IsWhole)
    (arg2 : Memref sig .tc .vmem S1x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S1024x1024 .bf16) (harg11 : arg11.IsWhole)
    (arg12 : Memref sig .tc .vmem S1024x1024 .bf16) (harg12 : arg12.IsWhole)
    (arg13 : Memref sig .tc .vmem S1024x1024 .bf16) (harg13 : arg13.IsWhole)
    (arg14 : Memref sig .tc .vmem S1024x1024 .bf16) (harg14 : arg14.IsWhole)
    (arg15 : Memref sig .tc .vmem S256x1024 .f32) (harg15 : arg15.IsWhole)
    (x0 : Vec F S256x1024 .f32) (x1 x2 x3 x4 x5 x6 x7 x8 x9 : Vec F S1x1024 .f32)
    (x10 x11 x12 x13 : Vec F S1024x1024 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare (out0_14 x0 x1 x2 x3 x4 x5 x6 x7 x8 x9 x10 x11 x12 x13)) -∗ K ⟨⟩))
      ⊢ wp frame (wpE (defs₀ (F := F)) Variants.none c none) E
          (cc0_attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  sl_unfold [cc0_attn_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover0_14 _)

/-! ## The pipeline's proof data -/

/-- The proof data of pipeline 0 on core `c`: the arrays as the region finds them; after the body at point `t` each
    input's buffer at its block and the output's at `out0_14` of the input blocks; the invariant the launch's own
    (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window: an input's block, and the output's one store. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) :
    (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by
  dsimp only [dat0]

/-- Each input's current staging buffer holds its block at every point, brought in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

set_option maxHeartbeats 1000000 in
/-- The body at any point: the inputs' memrefs hold their blocks, so the body's triple applies at those blocks; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel0 c Set.univ _ _ _ _ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends, the shares, the debts -/

/-- The invariant before the first point is what the launch hands the kernel, -/
theorem Phi0_in (c : Dev nD) :
    (Pipeline.ΦA (U := UR sig nD τ) (Val := Elt F) spec0 c : sProp 𝕄) ⊢ (dat0 V c).Φ 0 := .rfl

/-- and after the last point what the launch takes back. -/
theorem Phi0_out (c : Dev nD) :
    (dat0 V c).Φ (Fin.last cfg0.N) ⊢ (Pipeline.ΦA (U := UR sig nD τ) (Val := Elt F) spec0 c : sProp 𝕄) := .rfl

theorem share0 (c : Dev nD) : ∀ w, (dat0 V c).q w = fullShare := fun _ => rfl
theorem owed0 (c : Dev nD) : ∀ t, (dat0 V c).owed t = 0 := fun _ => rfl

/-- The proof data records every pair of cells (the structure's default): nothing is excluded from what the core may be owed. -/
theorem recorded0 (c : Dev nD) : ∀ t, (dat0 V c).recorded t = Set.univ := fun _ => rfl

end Cert.KernelIdeal.Hand

end
-- ==== Proof.Region1.lean ====
/- Region 1 of the program's main function: the second TensorCore call (the feed-forward kernel), at a parameter `V`,
   the TensorCore's buffer contents when the region is entered. The call runs on a grid of 32 points, 8 row tiles by 4
   chunks; it carries two scratch buffers from point to point (an accumulator, and a second buffer
   filled at a tile's first chunk and read at its last) and stores its output block at the last chunk of each tile. This module gives: each window's
   block at a point; the body's triple in each of the three cases of its two conditionals; what the scratch buffers
   hold before each point, by recursion on the point; the pipeline's proof data, whose invariant holds the scratch
   buffers at those contents; the body obligation; and the passage from the class's invariant into this one and back. -/
import proofs.«415492_j738734375128_3_alg».proof.Proof.Gen.KernelIdeal.Launch
import proofs.«415492_j738734375128_3_alg».proof.Proof.Gen.KernelIdeal.Skeleton
import proofs.«415492_j738734375128_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: custom_call 1, `cc1_ffn_kernel` (pipeline 1), at the entry contents `V`

The grid has 32 points: 8 row tiles times 4 chunks, the chunk the fast coordinate. Windows 0 to 8
are inputs, window 9 the output, written back at the points of chunk 3. Two scratch buffers are carried from point to
point: an accumulator, zeroed at chunk 0 and added to at every chunk, and a second buffer filled at chunk 0 and read
at chunk 3. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof data
    whose array is `V`'s and whose body leaves the block in place: unfetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof data
    whose array is `V`'s and whose body leaves the block in place: unfetched, the block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The two conditionals, decided over the grid -/

/-- The first conditional's condition (the chunk coordinate is 0), as the body computes it from the grid coordinates. -/
abbrev cond1_0 (i : grid1.Coords) : Prop := (Scalar.cmpi .ne (Scalar.extui (Scalar.cmpi .eq (BitVec.ofNat 32 (i 1).val) 0#32)) 0#32) = 1#1
/-- It holds exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional's condition (the chunk coordinate is 3). -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## The body's triple, one per case of the conditionals -/
set_option maxHeartbeats 1000000 in
/-- The body at a point of chunk 0, on whole memrefs: the inputs at their read contents, the output buffer and both
    scratch buffers at anything. It refills the second scratch from the inputs, zeroes the accumulator and adds the
    chunk's partial product to it; the output buffer is not touched. -/
theorem sound_kernel1_A (c : Dev nD) (E : Set ℕ) (i : grid1.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : cond1_0 i) (hlc : ¬cond1_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare (k1_pay3 (k1_pay10 xa xb xc xe) (k1_pay11 xd xe) xg k1_pay2 xi) ∗ owns (c : Thread nD τ) arg13 fullShare (k1_pay1 (k1_pay6 xa xb xc) (k1_pay7 xd) (k1_pay9 xf) xh)) -∗ K ⟨⟩))
      ⊢ wp frame (wpE (defs₀ (F := F)) Variants.none c none) E (cc1_ffn_kernel i arg2 harg2 arg3 harg3 arg4 harg4 arg5 harg5 arg6 harg6 arg7 harg7 arg8 harg8 arg9 harg9 arg10 harg10 arg11 harg11 arg12 harg12 arg13 harg13) K := by
  simp only [cc1_ffn_kernel_eq_skeleton]; unfold cc1_ffn_kernel_skel
  simp only [k1_part1_eq_skeleton]; unfold k1_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists _; isplitr
  swap; · iexact Hl
  ipureintro
  refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
  sl_unfold_run_names
  simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]

set_option maxHeartbeats 1000000 in
/-- The body at a point of chunk 1 or 2: the accumulator at `a` gains the chunk's partial product; the second scratch
    and the output buffer are not touched. -/
theorem sound_kernel1_B (c : Dev nD) (E : Set ℕ) (i : grid1.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : ¬cond1_0 i) (hlc : ¬cond1_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare (k1_pay3 (k1_pay10 xa xb xc xe) (k1_pay11 xd xe) xg a xi) ∗ owns (c : Thread nD τ) arg13 fullShare r) -∗ K ⟨⟩))
      ⊢ wp frame (wpE (defs₀ (F := F)) Variants.none c none) E (cc1_ffn_kernel i arg2 harg2 arg3 harg3 arg4 harg4 arg5 harg5 arg6 harg6 arg7 harg7 arg8 harg8 arg9 harg9 arg10 harg10 arg11 harg11 arg12 harg12 arg13 harg13) K := by
  simp only [cc1_ffn_kernel_eq_skeleton]; unfold cc1_ffn_kernel_skel
  simp only [k1_part1_eq_skeleton]; unfold k1_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists fl; isplitr; · ipureintro; rfl
  iexact Hl

set_option maxHeartbeats 1000000 in
/-- The body at a point of chunk 3: the accumulator gains the last partial product, and the output buffer is stored
    whole, from the input block, the second scratch and the finished accumulator. -/
theorem sound_kernel1_C (c : Dev nD) (E : Set ℕ) (i : grid1.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : ¬cond1_0 i) (hlc : cond1_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare (k1_pay4 (k1_pay5 xa) r (k1_pay3 (k1_pay10 xa xb xc xe) (k1_pay11 xd xe) xg a xi)) ∗ owns (c : Thread nD τ) arg12 fullShare (k1_pay3 (k1_pay10 xa xb xc xe) (k1_pay11 xd xe) xg a xi) ∗ owns (c : Thread nD τ) arg13 fullShare r) -∗ K ⟨⟩))
      ⊢ wp frame (wpE (defs₀ (F := F)) Variants.none c none) E (cc1_ffn_kernel i arg2 harg2 arg3 harg3 arg4 harg4 arg5 harg5 arg6 harg6 arg7 harg7 arg8 harg8 arg9 harg9 arg10 harg10 arg11 harg11 arg12 harg12 arg13 harg13) K := by
  simp only [cc1_ffn_kernel_eq_skeleton]; unfold cc1_ffn_kernel_skel
  simp only [k1_part1_eq_skeleton]; unfold k1_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists _; isplitr
    swap; · iexact Hj
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists fl; isplitr; · ipureintro; rfl
  iexact Hl

/-! ## The carried scratch, point by point -/

/-- What the two scratch buffers hold BEFORE point `n` (after point `n - 1`), as the pair (accumulator, second
    buffer), by recursion on the point: a point of chunk 0 refills the second buffer from its input blocks and leaves
    the accumulator at the chunk's partial product over zero; any other point keeps the second buffer and adds its
    partial product to the accumulator. Before a point of chunk 0 the value is never read (the body overwrites both
    buffers there before loading them). -/
def sc1 (c : Dev nD) : ℕ → Vec F S256x1024 .f32 × Vec F S256x1024 .f32
  | 0 => (k1_pay2, k1_pay2)
  | n + 1 =>
    if h : n < cfg1.N then
      if n % 4 = 0 then
        ((k1_pay3 (k1_pay10 (iblk1 V c 0 ⟨n, h⟩) (iblk1 V c 1 ⟨n, h⟩) (iblk1 V c 2 ⟨n, h⟩) (iblk1 V c 4 ⟨n, h⟩)) (k1_pay11 (iblk1 V c 3 ⟨n, h⟩) (iblk1 V c 4 ⟨n, h⟩)) (iblk1 V c 6 ⟨n, h⟩) k1_pay2 (iblk1 V c 8 ⟨n, h⟩)),
          (k1_pay1 (k1_pay6 (iblk1 V c 0 ⟨n, h⟩) (iblk1 V c 1 ⟨n, h⟩) (iblk1 V c 2 ⟨n, h⟩)) (k1_pay7 (iblk1 V c 3 ⟨n, h⟩)) (k1_pay9 (iblk1 V c 5 ⟨n, h⟩)) (iblk1 V c 7 ⟨n, h⟩)))
      else
        ((k1_pay3 (k1_pay10 (iblk1 V c 0 ⟨n, h⟩) (iblk1 V c 1 ⟨n, h⟩) (iblk1 V c 2 ⟨n, h⟩) (iblk1 V c 4 ⟨n, h⟩)) (k1_pay11 (iblk1 V c 3 ⟨n, h⟩) (iblk1 V c 4 ⟨n, h⟩)) (iblk1 V c 6 ⟨n, h⟩) (sc1 c n).1 (iblk1 V c 8 ⟨n, h⟩)),
          (sc1 c n).2)
    else sc1 c n

/-- After a point of chunk 0: the accumulator is the chunk's partial product over zero, the second buffer is refilled. -/
theorem sc1_zero_chunk (c : Dev nD) (t : Fin cfg1.N) (h : t.val % 4 = 0) :
    sc1 V c (t.val + 1) = ((k1_pay3 (k1_pay10 (iblk1 V c 0 t) (iblk1 V c 1 t) (iblk1 V c 2 t) (iblk1 V c 4 t)) (k1_pay11 (iblk1 V c 3 t) (iblk1 V c 4 t)) (iblk1 V c 6 t) k1_pay2 (iblk1 V c 8 t)),
      (k1_pay1 (k1_pay6 (iblk1 V c 0 t) (iblk1 V c 1 t) (iblk1 V c 2 t)) (k1_pay7 (iblk1 V c 3 t)) (k1_pay9 (iblk1 V c 5 t)) (iblk1 V c 7 t))) := by
  obtain ⟨n, hn⟩ := t
  show sc1 V c (n + 1) = _
  rw [sc1, dif_pos hn, if_pos h]

/-- After a point of any other chunk: the accumulator has gained the chunk's partial product, the second buffer is kept. -/
theorem sc1_succ (c : Dev nD) (t : Fin cfg1.N) (h : ¬t.val % 4 = 0) :
    sc1 V c (t.val + 1) = ((k1_pay3 (k1_pay10 (iblk1 V c 0 t) (iblk1 V c 1 t) (iblk1 V c 2 t) (iblk1 V c 4 t)) (k1_pay11 (iblk1 V c 3 t) (iblk1 V c 4 t)) (iblk1 V c 6 t) (sc1 V c t.val).1 (iblk1 V c 8 t)),
      (sc1 V c t.val).2) := by
  obtain ⟨n, hn⟩ := t
  show sc1 V c (n + 1) = _
  rw [sc1, dif_pos hn, if_neg h]

/-- What a point of chunk 3 stores into the output window's buffer: from the point's block of window 0, the second
    scratch buffer and the accumulator as that point leaves them. -/
def out1_9 (c : Dev nD) (t : Fin cfg1.N) : Vec F S256x1024 .f32 :=
  k1_pay4 (k1_pay5 (iblk1 V c 0 t)) (sc1 V c (t.val + 1)).2 (sc1 V c (t.val + 1)).1

/-- The region invariant before point `n`: the two scratch buffers — at anything before a point of chunk 0, which
    overwrites them, else at `sc1` —, the rest of the core's scoped buffers unopened, the generator register at some
    state. -/
def Phi1 (c : Dev nD) (n : ℕ) : sProp 𝕄 :=
  iprop(iprop((if n % 4 = 0 then
        (iprop((∃ X, owns (c : Thread nD τ) (Memref.whole cc1_scratch0) fullShare X) ∗ (∃ X, owns (c : Thread nD τ) (Memref.whole cc1_scratch1) fullShare X)) : sProp 𝕄)
      else iprop(owns (c : Thread nD τ) (Memref.whole cc1_scratch0) fullShare (sc1 V c n).1 ∗ owns (c : Thread nD τ) (Memref.whole cc1_scratch1) fullShare (sc1 V c n).2))
    ∗ Pipeline.scopedRestBut (Ix := Unit) (Name := ℕ) (U := UR sig nD τ) (Lvl := ℕ) (Val := Elt F) spec1 c [cc1_scratch0, cc1_scratch1]) ∗ ∃ r, prngReg c r)

/-! ## The pipeline's proof data -/

/-- The proof data of pipeline 1 on core `c`: the arrays as the region finds them (`V`); after the body at point `t`
    each input's buffer at its block and the output's at `out1_9` (read only at the points of chunk 3: elsewhere the
    window is idle and not written back); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 V c t
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9_all (c : Dev nD) (t : Fin cfg1.N) : (dat1 V c).after 9 t = out1_9 V c t := by dsimp only [dat1]
theorem after1_9 (c : Dev nD) (t : Fin cfg1.N) (h : t.val % 4 = 3) : (dat1 V c).after 9 t = out1_9 V c t := after1_9_all V c t

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- The invariant at a point's start and at its end, restated at the point's number. -/
theorem Phi1_castSucc (c : Dev nD) (t : Fin cfg1.N) : (dat1 V c).Φ t.castSucc = Phi1 V c t.val := rfl
theorem Phi1_succ (c : Dev nD) (t : Fin cfg1.N) : (dat1 V c).Φ t.succ = Phi1 V c (t.val + 1) := rfl

/-- Off chunk 3 the output window is idle and not written back: the obligation hands its buffer back as found. -/
theorem leaves1_9_idle (c : Dev nD) (t : Fin cfg1.N) (h : ¬cond1_1 (grid1.coords t)) :
    (dat1 V c).leavesExact 9 t = iprop(∃ d, owns (c : Thread nD τ) (st1_9 t) fullShare ((dat1 V c).before 9 t d)) :=
  (dat1 V c).leavesExact_idle 9 t
    (by show (!(k1_cond2 (grid1.coords t) == 1#1)) = true
        rw [Bool.not_eq_true', beq_eq_false_iff_ne]; exact h)
    (Bool.eq_false_iff.mpr fun hfl => h ((hcond1_1 t).mpr ((flush1_9 t).mp hfl)))

/-- At chunk 3 it is live: its buffer is left at what the body stored. -/
theorem leaves1_9_live (c : Dev nD) (t : Fin cfg1.N) (h : cond1_1 (grid1.coords t)) :
    (dat1 V c).leavesExact 9 t = owns (c : Thread nD τ) (st1_9 t) fullShare ((dat1 V c).after 9 t) := by
  have hi : cfg1.idle 9 (cfg1.grid.coords t) = false := by
    show (!(k1_cond2 (grid1.coords t) == 1#1)) = false
    rw [Bool.not_eq_false', beq_iff_eq]; exact h
  unfold Dat.leavesExact; rw [hi]

/-! ## The body obligation, at a generic point -/

/-- What the body is called with at point `t`: the invariant, what the core owes, every window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns: the invariant at the next point, the inputs' buffers as they were, the output's as the window's
    schedule has it (stored at chunk 3, handed back as found elsewhere). -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ (dat1 V c).leavesExact 9 t)

set_option maxHeartbeats 1000000 in
/-- The body at any point, by the point's chunk: the inputs' memrefs hold their blocks, the scratch buffers what the
    invariant says, so that chunk's triple applies; what it leaves in the scratch buffers is the invariant at the
    next point (`sc1`'s recursion), forgotten again after chunk 3. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl,
    after1_0, after1_1, after1_2, after1_3, after1_4, after1_5, after1_6, after1_7, after1_8, Phi1_castSucc, Phi1_succ]
  unfold Phi1
  by_cases hA : t.val % 4 = 0
  · have hzc : cond1_0 (grid1.coords t) := (hcond1_0 t).mpr hA
    have hlc : ¬cond1_1 (grid1.coords t) := fun h => by have := (hcond1_1 t).mp h; omega
    rw [leaves1_9_idle V c t hlc, if_pos hA, if_neg (show ¬(t.val + 1) % 4 = 0 by omega), sc1_zero_chunk V c t hA]
    iintro ⟨⟨⟨⟨⟨%gacc, Hacc⟩, ⟨%grr, Hrr⟩⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply (sound_kernel1_A c Set.univ _ _ _ _ _ _ _ _ _ _ _ _ _ _ _ _ _ _ _ _ _ _ _ _ _ hzc hlc (iblk1 V c 0 t) (iblk1 V c 1 t) (iblk1 V c 2 t) (iblk1 V c 3 t) (iblk1 V c 4 t) (iblk1 V c 5 t) (iblk1 V c 6 t) (iblk1 V c 7 t) (iblk1 V c 8 t) _ _ _ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    isplitl [Hi]; · iexact Hi
    isplitl [Hj]; · iexact Hj
    isplitl [Hacc]; · iexact Hacc
    isplitl [Hrr]; · iexact Hrr
    iintro ⟨Ha, Hb, Hc, Hd, He, Hf, Hg, Hh, Hi, Hj, Hacc, Hrr⟩
    isplitl [Hacc Hrr Hrest Hp]
    · isplitr [Hp]
      · isplitr [Hrest]
        · isplitl [Hacc]; · iexact Hacc
          iexact Hrr
        · iexact Hrest
      · iexact Hp
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    isplitl [Hi]; · iexact Hi
    iexists dj; iexact Hj

  · have hzc : ¬cond1_0 (grid1.coords t) := fun h => hA ((hcond1_0 t).mp h)
    by_cases hC : t.val % 4 = 3
    · have hlc : cond1_1 (grid1.coords t) := (hcond1_1 t).mpr hC
      rw [leaves1_9_live V c t hlc, after1_9_all, if_neg hA, if_pos (show (t.val + 1) % 4 = 0 by omega)]
      iintro ⟨⟨⟨⟨Hacc, Hrr⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
      iapply (sound_kernel1_C c Set.univ _ _ _ _ _ _ _ _ _ _ _ _ _ _ _ _ _ _ _ _ _ _ _ _ _ hzc hlc (iblk1 V c 0 t) (iblk1 V c 1 t) (iblk1 V c 2 t) (iblk1 V c 3 t) (iblk1 V c 4 t) (iblk1 V c 5 t) (iblk1 V c 6 t) (iblk1 V c 7 t) (iblk1 V c 8 t) _ _ _ _)
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [Hj]; · iexact Hj
      isplitl [Hacc]; · iexact Hacc
      isplitl [Hrr]; · iexact Hrr
      iintro ⟨Ha, Hb, Hc, Hd, He, Hf, Hg, Hh, Hi, Hj, Hacc, Hrr⟩
      isplitl [Hacc Hrr Hrest Hp]
      · isplitr [Hp]
        · isplitr [Hrest]
          · isplitl [Hacc]
            · iexists _; iexact Hacc
            iexists _; iexact Hrr
          · iexact Hrest
        · iexact Hp
      isplitl [Ho]; · iexact Ho
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      unfold out1_9; rw [sc1_succ V c t hA]
      iexact Hj

    · have hlc : ¬cond1_1 (grid1.coords t) := fun h => hC ((hcond1_1 t).mp h)
      rw [leaves1_9_idle V c t hlc, if_neg hA, if_neg (show ¬(t.val + 1) % 4 = 0 by omega), sc1_succ V c t hA]
      iintro ⟨⟨⟨⟨Hacc, Hrr⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
      iapply (sound_kernel1_B c Set.univ _ _ _ _ _ _ _ _ _ _ _ _ _ _ _ _ _ _ _ _ _ _ _ _ _ hzc hlc (iblk1 V c 0 t) (iblk1 V c 1 t) (iblk1 V c 2 t) (iblk1 V c 3 t) (iblk1 V c 4 t) (iblk1 V c 5 t) (iblk1 V c 6 t) (iblk1 V c 7 t) (iblk1 V c 8 t) _ _ _ _)
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [Hj]; · iexact Hj
      isplitl [Hacc]; · iexact Hacc
      isplitl [Hrr]; · iexact Hrr
      iintro ⟨Ha, Hb, Hc, Hd, He, Hf, Hg, Hh, Hi, Hj, Hacc, Hrr⟩
      isplitl [Hacc Hrr Hrest Hp]
      · isplitr [Hp]
        · isplitr [Hrest]
          · isplitl [Hacc]; · iexact Hacc
            iexact Hrr
          · iexact Hrest
        · iexact Hp
      isplitl [Ho]; · iexact Ho
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      iexists dj; iexact Hj

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- The class's invariant gives the invariant before the first point: the scoped rest split at the two scratch buffers,
    each at whatever it holds. -/
theorem Phi1_in (c : Dev nD) : (Pipeline.ΦA (U := UR sig nD τ) (Val := Elt F) spec1 c : sProp 𝕄) ⊢ (dat1 V c).Φ 0 := by
  show _ ⊢ Phi1 V c 0
  unfold Pipeline.ΦA Phi1
  rw [scopedRest1_split, if_pos (Nat.zero_mod 4)]
  iintro ⟨⟨⟨⟨%gacc, Hacc⟩, ⟨%grr, Hrr⟩⟩, Hrest⟩, Hp⟩
  isplitr [Hp]
  · isplitr [Hrest]
    · isplitl [Hacc]
      · iexists gacc; rw [owns_whole]; iexact Hacc
      · iexists grr; rw [owns_whole]; iexact Hrr
    · iexact Hrest
  · iexact Hp

/-- After the last point (of chunk 3) the scratch buffers' contents are forgotten: the class's invariant again. -/
theorem Phi1_out (c : Dev nD) : (dat1 V c).Φ (Fin.last cfg1.N) ⊢ (Pipeline.ΦA (U := UR sig nD τ) (Val := Elt F) spec1 c : sProp 𝕄) := by
  show Phi1 V c cfg1.N ⊢ _
  unfold Pipeline.ΦA Phi1
  rw [scopedRest1_split, if_pos (show cfg1.N % 4 = 0 by rw [show cfg1.N = 32 from N_1])]
  iintro ⟨⟨⟨⟨%gacc, Hacc⟩, ⟨%grr, Hrr⟩⟩, Hrest⟩, Hp⟩
  isplitr [Hp]
  · isplitr [Hrest]
    · isplitl [Hacc]
      · iexists gacc; rw [← owns_whole]; iexact Hacc
      · iexists grr; rw [← owns_whole]; iexact Hrr
    · iexact Hrest
  · iexact Hp

theorem share1 (c : Dev nD) : ∀ w, (dat1 V c).q w = fullShare := fun _ => rfl
theorem owed1 (c : Dev nD) : ∀ t, (dat1 V c).owed t = 0 := fun _ => rfl
theorem recorded1 (c : Dev nD) : ∀ t, (dat1 V c).recorded t = Set.univ := fun _ => rfl

end Cert.KernelIdeal.Hand

end
-- ==== Proof.Region2.lean ====
/- REGION 2: a launch of the attention kernel (custom call 2, pipeline 2; a grid of 8 points, windows 0..13
   read and window 14 written), stated at the contents `V` the TensorCore's buffers hold when the region is entered.

   At a point `t` the body reads the whole of each input window's staging buffer, which holds the window's block of
   its array at `t` (window 0 moves with the point; windows 1..13 have one block, brought in at the first point and
   found in place at every later one, the block index not having moved). It also reads the output window's own
   buffer once, a value it does not use, and then writes ONE value over the whole of the output window's buffer:
   the sum `k2_pay1` of block 0 and a projection of a gated ratio computed from the other thirteen blocks (spelled
   out at `out2_14`). So after the body the output buffer holds exactly that value, a pure function of the fourteen
   input blocks, whatever it held before, and every input buffer holds what it held. Nothing is kept between
   points: the invariant is the launch's own (`Pipeline.ΦA`), nothing is owed, every share is full. -/
import proofs.«415492_j738734375128_3_alg».proof.Proof.Gen.KernelIdeal.Launch
import proofs.«415492_j738734375128_3_alg».proof.Proof.Gen.KernelIdeal.Skeleton
import proofs.«415492_j738734375128_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the part of its array, as the region finds it, that the window shows there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current buffer holds its block at every point, brought in there or not: where the pipeline
    brings nothing in, the window's block index is the one of the point before, and the body left the block in
    place. This holds for ANY proof data over the entry contents `V` whose body leaves the window's block where it
    found it; windows 1..13, brought in at the first point only, are the case "not brought in" at points 1..7. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of an activation block, of a row vector, of a weight matrix: the three rectangles the body reads and
    writes through. -/
abbrev r2_A : Rect S256x1024 := Rect.unit (s := S256x1024) ![0, 0] S256x1024.size inb_S256x1024_S256x1024_0_0
abbrev r2_B : Rect S1x1024 := Rect.unit (s := S1x1024) ![0, 0] S1x1024.size inb_S1x1024_S1x1024_0_0
abbrev r2_C : Rect S1024x1024 := Rect.unit (s := S1024x1024) ![0, 0] S1024x1024.size inb_S1024x1024_S1024x1024_0_0

/-! ## What the body leaves in the output window's buffer -/

/-- Window 14's buffer after the body, from the fourteen input blocks: its one store, of the whole block. Write `x`
    for block 0, `pⱼ` / `bⱼ` for the row vector of window `j` spread over the 256 rows, `Wⱼ` for the matrix of
    window `j`, and `a ⬝ Wᵀ` for the product contracting the second axis of both, its left factor rounded to bf16.
    With `n` the rows of `x` centred and divided by the root of their variance plus a small constant, times `p₁`
    plus `p₂` (`k2_pay3`), and `mⱼ = n · pⱼ + p₃ · (1 − pⱼ)` the mixture of `n` and `p₃` by `pⱼ` (j = 4, 5, 6):
      `e = exp (b₇ + m₄ ⬝ W₁₀ᵀ)`                      (`k2_pay11`),
      `u = b₈ + e · (m₅ ⬝ W₁₁ᵀ)`                      (`k2_pay12`),
      `g = m₆ ⬝ W₁₂ᵀ`                                 (`k2_pay10`),
    and the value stored is `x + (logistic g · (u / (b₉ + e))) ⬝ W₁₃ᵀ` (`k2_pay1`; `b₉` is `k2_pay13`). Each operand
    is the load of a whole buffer, so it is the window's block itself read through the full rectangle. -/
def out2_14 (x0 : Vec F S256x1024 .f32) (x1 x2 x3 x4 x5 x6 x7 x8 x9 : Vec F S1x1024 .f32)
    (x10 x11 x12 x13 : Vec F S1024x1024 .bf16) : Vec F S256x1024 .f32 :=
  View.canon [⟨r2_A, k2_pay1 (k2_pay2 (View.ld x0 r2_A))
    (k2_pay10 (k2_pay3 (View.ld x0 r2_A) (View.ld x1 r2_B) (View.ld x2 r2_B)) (k2_pay4 (View.ld x3 r2_B)) (k2_pay7 (View.ld x6 r2_B)) (View.ld x12 r2_C))
    (k2_pay11 (k2_pay4 (View.ld x3 r2_B)) (k2_pay5 (View.ld x4 r2_B)) (k2_pay8 (View.ld x0 r2_A) (View.ld x1 r2_B) (View.ld x2 r2_B) (View.ld x4 r2_B)) (k2_pay9 (F := F)) (View.ld x10 r2_C) (View.ld x7 r2_B))
    (k2_pay12 (k2_pay3 (View.ld x0 r2_A) (View.ld x1 r2_B) (View.ld x2 r2_B)) (k2_pay4 (View.ld x3 r2_B)) (k2_pay5 (View.ld x4 r2_B)) (k2_pay6 (View.ld x5 r2_B))
      (k2_pay8 (View.ld x0 r2_A) (View.ld x1 r2_B) (View.ld x2 r2_B) (View.ld x4 r2_B)) (k2_pay9 (F := F)) (View.ld x10 r2_C) (View.ld x11 r2_C) (View.ld x7 r2_B) (View.ld x8 r2_B))
    (k2_pay13 (View.ld x9 r2_B))
    (View.ld x13 r2_C)⟩]

/-- The one store is of the whole block, so it covers it. -/
theorem cover2_14 (p0 : Vec F S256x1024 .f32) (y : S256x1024.Idx) :
    ∃ pc ∈ ([⟨r2_A, p0⟩] : List (View.Piece (Elt F) S256x1024 .f32)), y ∈ pc.1.set :=
  View.cover_of_tiled [⟨r2_A, p0⟩] S256x1024.size (by rfl) y

/-! ## The body's triple -/

set_option maxHeartbeats 1000000 in
/-- The body on whole staging memrefs, the inputs' at read contents `x0 … x13` and the output's at anything, runs to
    the continuation holding the inputs' as they were and the output's at `out2_14` of the inputs': every load reads
    the whole of a buffer whose contents are known (the output's own, read once and not used, at whatever it
    holds), and the one store covers the output's buffer. -/
theorem sound_kernel2 (c : Dev nD) (E : Set ℕ) (i : grid2.Coords)
    (arg1 : Memref sig .tc .vmem S256x1024 .f32) (harg1 : arg1.IsWhole)
    (arg2 : Memref sig .tc .vmem S1x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S1024x1024 .bf16) (harg11 : arg11.IsWhole)
    (arg12 : Memref sig .tc .vmem S1024x1024 .bf16) (harg12 : arg12.IsWhole)
    (arg13 : Memref sig .tc .vmem S1024x1024 .bf16) (harg13 : arg13.IsWhole)
    (arg14 : Memref sig .tc .vmem S1024x1024 .bf16) (harg14 : arg14.IsWhole)
    (arg15 : Memref sig .tc .vmem S256x1024 .f32) (harg15 : arg15.IsWhole)
    (x0 : Vec F S256x1024 .f32) (x1 x2 x3 x4 x5 x6 x7 x8 x9 : Vec F S1x1024 .f32)
    (x10 x11 x12 x13 : Vec F S1024x1024 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare (out2_14 x0 x1 x2 x3 x4 x5 x6 x7 x8 x9 x10 x11 x12 x13)) -∗ K ⟨⟩))
      ⊢ wp frame (wpE (defs₀ (F := F)) Variants.none c none) E
          (cc2_attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  sl_unfold [cc2_attn_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover2_14 _)

/-! ## The pipeline's proof data -/

/-- The proof data of pipeline 2 on core `c`: the arrays as the region finds them; after the body at point `t` each
    input's buffer at its block and the output's at `out2_14` of the input blocks; the invariant the launch's own
    (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window: an input's block, and the output's one store. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) :
    (dat2 V c).after 14 t = out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by
  dsimp only [dat2]

/-- Each input's current staging buffer holds its block at every point, brought in there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t))

set_option maxHeartbeats 1000000 in
/-- The body at any point: the inputs' memrefs hold their blocks, so the body's triple applies at those blocks; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel2 c Set.univ _ _ _ _ _ _ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's ends, the shares, the debts -/

/-- The invariant before the first point is what the launch hands the kernel, -/
theorem Phi2_in (c : Dev nD) :
    (Pipeline.ΦA (U := UR sig nD τ) (Val := Elt F) spec2 c : sProp 𝕄) ⊢ (dat2 V c).Φ 0 := .rfl

/-- and after the last point what the launch takes back. -/
theorem Phi2_out (c : Dev nD) :
    (dat2 V c).Φ (Fin.last cfg2.N) ⊢ (Pipeline.ΦA (U := UR sig nD τ) (Val := Elt F) spec2 c : sProp 𝕄) := .rfl

theorem share2 (c : Dev nD) : ∀ w, (dat2 V c).q w = fullShare := fun _ => rfl
theorem owed2 (c : Dev nD) : ∀ t, (dat2 V c).owed t = 0 := fun _ => rfl

/-- The proof data records every pair of cells (the structure's default): nothing is excluded from what the core may be owed. -/
theorem recorded2 (c : Dev nD) : ∀ t, (dat2 V c).recorded t = Set.univ := fun _ => rfl

end Cert.KernelIdeal.Hand

end
-- ==== Proof.Region3.lean ====
/- Region 1 of the program's main function: the second TensorCore call (the feed-forward kernel), at a parameter `V`,
   the TensorCore's buffer contents when the region is entered. The call runs on a grid of 32 points, 8 row tiles by 4
   chunks; it carries two scratch buffers from point to point (an accumulator, and a second buffer
   filled at a tile's first chunk and read at its last) and stores its output block at the last chunk of each tile. This module gives: each window's
   block at a point; the body's triple in each of the three cases of its two conditionals; what the scratch buffers
   hold before each point, by recursion on the point; the pipeline's proof data, whose invariant holds the scratch
   buffers at those contents; the body obligation; and the passage from the class's invariant into this one and back. -/
import proofs.«415492_j738734375128_3_alg».proof.Proof.Gen.KernelIdeal.Launch
import proofs.«415492_j738734375128_3_alg».proof.Proof.Gen.KernelIdeal.Skeleton
import proofs.«415492_j738734375128_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: custom_call 3, `cc3_ffn_kernel` (pipeline 3), at the entry contents `V`

The grid has 32 points: 8 row tiles times 4 chunks, the chunk the fast coordinate. Windows 0 to 8
are inputs, window 9 the output, written back at the points of chunk 3. Two scratch buffers are carried from point to
point: an accumulator, zeroed at chunk 0 and added to at every chunk, and a second buffer filled at chunk 0 and read
at chunk 3. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data
    whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof data
    whose array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof data
    whose array is `V`'s and whose body leaves the block in place: unfetched, the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not, for any proof data
    whose array is `V`'s and whose body leaves the block in place: unfetched, the block index has not moved. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not, for any proof data
    whose array is `V`'s and whose body leaves the block in place: unfetched, the block index has not moved. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The two conditionals, decided over the grid -/

/-- The first conditional's condition (the chunk coordinate is 0), as the body computes it from the grid coordinates. -/
abbrev cond3_0 (i : grid3.Coords) : Prop := (Scalar.cmpi .ne (Scalar.extui (Scalar.cmpi .eq (BitVec.ofNat 32 (i 1).val) 0#32)) 0#32) = 1#1
/-- It holds exactly at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)
/-- The second conditional's condition (the chunk coordinate is 3). -/
abbrev cond3_1 (i : grid3.Coords) : Prop := k3_cond2 i = 1#1
/-- It holds exactly at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## The body's triple, one per case of the conditionals -/
set_option maxHeartbeats 1000000 in
/-- The body at a point of chunk 0, on whole memrefs: the inputs at their read contents, the output buffer and both
    scratch buffers at anything. It refills the second scratch from the inputs, zeroes the accumulator and adds the
    chunk's partial product to it; the output buffer is not touched. -/
theorem sound_kernel3_A (c : Dev nD) (E : Set ℕ) (i : grid3.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : cond3_0 i) (hlc : ¬cond3_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare (k3_pay3 (k3_pay10 xa xb xc xe) (k3_pay11 xd xe) xg k3_pay2 xi) ∗ owns (c : Thread nD τ) arg13 fullShare (k3_pay1 (k3_pay6 xa xb xc) (k3_pay7 xd) (k3_pay9 xf) xh)) -∗ K ⟨⟩))
      ⊢ wp frame (wpE (defs₀ (F := F)) Variants.none c none) E (cc3_ffn_kernel i arg2 harg2 arg3 harg3 arg4 harg4 arg5 harg5 arg6 harg6 arg7 harg7 arg8 harg8 arg9 harg9 arg10 harg10 arg11 harg11 arg12 harg12 arg13 harg13) K := by
  simp only [cc3_ffn_kernel_eq_skeleton]; unfold cc3_ffn_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists _; isplitr
  swap; · iexact Hl
  ipureintro
  refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
  sl_unfold_run_names
  simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]

set_option maxHeartbeats 1000000 in
/-- The body at a point of chunk 1 or 2: the accumulator at `a` gains the chunk's partial product; the second scratch
    and the output buffer are not touched. -/
theorem sound_kernel3_B (c : Dev nD) (E : Set ℕ) (i : grid3.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : ¬cond3_0 i) (hlc : ¬cond3_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare (k3_pay3 (k3_pay10 xa xb xc xe) (k3_pay11 xd xe) xg a xi) ∗ owns (c : Thread nD τ) arg13 fullShare r) -∗ K ⟨⟩))
      ⊢ wp frame (wpE (defs₀ (F := F)) Variants.none c none) E (cc3_ffn_kernel i arg2 harg2 arg3 harg3 arg4 harg4 arg5 harg5 arg6 harg6 arg7 harg7 arg8 harg8 arg9 harg9 arg10 harg10 arg11 harg11 arg12 harg12 arg13 harg13) K := by
  simp only [cc3_ffn_kernel_eq_skeleton]; unfold cc3_ffn_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists fl; isplitr; · ipureintro; rfl
  iexact Hl

set_option maxHeartbeats 1000000 in
/-- The body at a point of chunk 3: the accumulator gains the last partial product, and the output buffer is stored
    whole, from the input block, the second scratch and the finished accumulator. -/
theorem sound_kernel3_C (c : Dev nD) (E : Set ℕ) (i : grid3.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : ¬cond3_0 i) (hlc : cond3_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare (k3_pay4 (k3_pay5 xa) r (k3_pay3 (k3_pay10 xa xb xc xe) (k3_pay11 xd xe) xg a xi)) ∗ owns (c : Thread nD τ) arg12 fullShare (k3_pay3 (k3_pay10 xa xb xc xe) (k3_pay11 xd xe) xg a xi) ∗ owns (c : Thread nD τ) arg13 fullShare r) -∗ K ⟨⟩))
      ⊢ wp frame (wpE (defs₀ (F := F)) Variants.none c none) E (cc3_ffn_kernel i arg2 harg2 arg3 harg3 arg4 harg4 arg5 harg5 arg6 harg6 arg7 harg7 arg8 harg8 arg9 harg9 arg10 harg10 arg11 harg11 arg12 harg12 arg13 harg13) K := by
  simp only [cc3_ffn_kernel_eq_skeleton]; unfold cc3_ffn_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists _; isplitr
    swap; · iexact Hj
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists fl; isplitr; · ipureintro; rfl
  iexact Hl

/-! ## The carried scratch, point by point -/

/-- What the two scratch buffers hold BEFORE point `n` (after point `n - 1`), as the pair (accumulator, second
    buffer), by recursion on the point: a point of chunk 0 refills the second buffer from its input blocks and leaves
    the accumulator at the chunk's partial product over zero; any other point keeps the second buffer and adds its
    partial product to the accumulator. Before a point of chunk 0 the value is never read (the body overwrites both
    buffers there before loading them). -/
def sc3 (c : Dev nD) : ℕ → Vec F S256x1024 .f32 × Vec F S256x1024 .f32
  | 0 => (k3_pay2, k3_pay2)
  | n + 1 =>
    if h : n < cfg3.N then
      if n % 4 = 0 then
        ((k3_pay3 (k3_pay10 (iblk3 V c 0 ⟨n, h⟩) (iblk3 V c 1 ⟨n, h⟩) (iblk3 V c 2 ⟨n, h⟩) (iblk3 V c 4 ⟨n, h⟩)) (k3_pay11 (iblk3 V c 3 ⟨n, h⟩) (iblk3 V c 4 ⟨n, h⟩)) (iblk3 V c 6 ⟨n, h⟩) k3_pay2 (iblk3 V c 8 ⟨n, h⟩)),
          (k3_pay1 (k3_pay6 (iblk3 V c 0 ⟨n, h⟩) (iblk3 V c 1 ⟨n, h⟩) (iblk3 V c 2 ⟨n, h⟩)) (k3_pay7 (iblk3 V c 3 ⟨n, h⟩)) (k3_pay9 (iblk3 V c 5 ⟨n, h⟩)) (iblk3 V c 7 ⟨n, h⟩)))
      else
        ((k3_pay3 (k3_pay10 (iblk3 V c 0 ⟨n, h⟩) (iblk3 V c 1 ⟨n, h⟩) (iblk3 V c 2 ⟨n, h⟩) (iblk3 V c 4 ⟨n, h⟩)) (k3_pay11 (iblk3 V c 3 ⟨n, h⟩) (iblk3 V c 4 ⟨n, h⟩)) (iblk3 V c 6 ⟨n, h⟩) (sc3 c n).1 (iblk3 V c 8 ⟨n, h⟩)),
          (sc3 c n).2)
    else sc3 c n

/-- After a point of chunk 0: the accumulator is the chunk's partial product over zero, the second buffer is refilled. -/
theorem sc3_zero_chunk (c : Dev nD) (t : Fin cfg3.N) (h : t.val % 4 = 0) :
    sc3 V c (t.val + 1) = ((k3_pay3 (k3_pay10 (iblk3 V c 0 t) (iblk3 V c 1 t) (iblk3 V c 2 t) (iblk3 V c 4 t)) (k3_pay11 (iblk3 V c 3 t) (iblk3 V c 4 t)) (iblk3 V c 6 t) k3_pay2 (iblk3 V c 8 t)),
      (k3_pay1 (k3_pay6 (iblk3 V c 0 t) (iblk3 V c 1 t) (iblk3 V c 2 t)) (k3_pay7 (iblk3 V c 3 t)) (k3_pay9 (iblk3 V c 5 t)) (iblk3 V c 7 t))) := by
  obtain ⟨n, hn⟩ := t
  show sc3 V c (n + 1) = _
  rw [sc3, dif_pos hn, if_pos h]

/-- After a point of any other chunk: the accumulator has gained the chunk's partial product, the second buffer is kept. -/
theorem sc3_succ (c : Dev nD) (t : Fin cfg3.N) (h : ¬t.val % 4 = 0) :
    sc3 V c (t.val + 1) = ((k3_pay3 (k3_pay10 (iblk3 V c 0 t) (iblk3 V c 1 t) (iblk3 V c 2 t) (iblk3 V c 4 t)) (k3_pay11 (iblk3 V c 3 t) (iblk3 V c 4 t)) (iblk3 V c 6 t) (sc3 V c t.val).1 (iblk3 V c 8 t)),
      (sc3 V c t.val).2) := by
  obtain ⟨n, hn⟩ := t
  show sc3 V c (n + 1) = _
  rw [sc3, dif_pos hn, if_neg h]

/-- What a point of chunk 3 stores into the output window's buffer: from the point's block of window 0, the second
    scratch buffer and the accumulator as that point leaves them. -/
def out3_9 (c : Dev nD) (t : Fin cfg3.N) : Vec F S256x1024 .f32 :=
  k3_pay4 (k3_pay5 (iblk3 V c 0 t)) (sc3 V c (t.val + 1)).2 (sc3 V c (t.val + 1)).1

/-- The region invariant before point `n`: the two scratch buffers — at anything before a point of chunk 0, which
    overwrites them, else at `sc3` —, the rest of the core's scoped buffers unopened, the generator register at some
    state. -/
def Phi3 (c : Dev nD) (n : ℕ) : sProp 𝕄 :=
  iprop(iprop((if n % 4 = 0 then
        (iprop((∃ X, owns (c : Thread nD τ) (Memref.whole cc3_scratch0) fullShare X) ∗ (∃ X, owns (c : Thread nD τ) (Memref.whole cc3_scratch1) fullShare X)) : sProp 𝕄)
      else iprop(owns (c : Thread nD τ) (Memref.whole cc3_scratch0) fullShare (sc3 V c n).1 ∗ owns (c : Thread nD τ) (Memref.whole cc3_scratch1) fullShare (sc3 V c n).2))
    ∗ Pipeline.scopedRestBut (Ix := Unit) (Name := ℕ) (U := UR sig nD τ) (Lvl := ℕ) (Val := Elt F) spec3 c [cc3_scratch0, cc3_scratch1]) ∗ ∃ r, prngReg c r)

/-! ## The pipeline's proof data -/

/-- The proof data of pipeline 3 on core `c`: the arrays as the region finds them (`V`); after the body at point `t`
    each input's buffer at its block and the output's at `out3_9` (read only at the points of chunk 3: elsewhere the
    window is idle and not written back); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 V c t
  Φ t := Phi3 V c t.val
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9_all (c : Dev nD) (t : Fin cfg3.N) : (dat3 V c).after 9 t = out3_9 V c t := by dsimp only [dat3]
theorem after3_9 (c : Dev nD) (t : Fin cfg3.N) (h : t.val % 4 = 3) : (dat3 V c).after 9 t = out3_9 V c t := after3_9_all V c t

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-- The invariant at a point's start and at its end, restated at the point's number. -/
theorem Phi3_castSucc (c : Dev nD) (t : Fin cfg3.N) : (dat3 V c).Φ t.castSucc = Phi3 V c t.val := rfl
theorem Phi3_succ (c : Dev nD) (t : Fin cfg3.N) : (dat3 V c).Φ t.succ = Phi3 V c (t.val + 1) := rfl

/-- Off chunk 3 the output window is idle and not written back: the obligation hands its buffer back as found. -/
theorem leaves3_9_idle (c : Dev nD) (t : Fin cfg3.N) (h : ¬cond3_1 (grid3.coords t)) :
    (dat3 V c).leavesExact 9 t = iprop(∃ d, owns (c : Thread nD τ) (st3_9 t) fullShare ((dat3 V c).before 9 t d)) :=
  (dat3 V c).leavesExact_idle 9 t
    (by show (!(k3_cond2 (grid3.coords t) == 1#1)) = true
        rw [Bool.not_eq_true', beq_eq_false_iff_ne]; exact h)
    (Bool.eq_false_iff.mpr fun hfl => h ((hcond3_1 t).mpr ((flush3_9 t).mp hfl)))

/-- At chunk 3 it is live: its buffer is left at what the body stored. -/
theorem leaves3_9_live (c : Dev nD) (t : Fin cfg3.N) (h : cond3_1 (grid3.coords t)) :
    (dat3 V c).leavesExact 9 t = owns (c : Thread nD τ) (st3_9 t) fullShare ((dat3 V c).after 9 t) := by
  have hi : cfg3.idle 9 (cfg3.grid.coords t) = false := by
    show (!(k3_cond2 (grid3.coords t) == 1#1)) = false
    rw [Bool.not_eq_false', beq_iff_eq]; exact h
  unfold Dat.leavesExact; rw [hi]

/-! ## The body obligation, at a generic point -/

/-- What the body is called with at point `t`: the invariant, what the core owes, every window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- What it returns: the invariant at the next point, the inputs' buffers as they were, the output's as the window's
    schedule has it (stored at chunk 3, handed back as found elsewhere). -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ (dat3 V c).leavesExact 9 t)

set_option maxHeartbeats 1000000 in
/-- The body at any point, by the point's chunk: the inputs' memrefs hold their blocks, the scratch buffers what the
    invariant says, so that chunk's triple applies; what it leaves in the scratch buffers is the invariant at the
    next point (`sc3`'s recursion), forgotten again after chunk 3. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).owesAt () t.succ = (dat3 V c).owesAt () t.castSucc from rfl,
    after3_0, after3_1, after3_2, after3_3, after3_4, after3_5, after3_6, after3_7, after3_8, Phi3_castSucc, Phi3_succ]
  unfold Phi3
  by_cases hA : t.val % 4 = 0
  · have hzc : cond3_0 (grid3.coords t) := (hcond3_0 t).mpr hA
    have hlc : ¬cond3_1 (grid3.coords t) := fun h => by have := (hcond3_1 t).mp h; omega
    rw [leaves3_9_idle V c t hlc, if_pos hA, if_neg (show ¬(t.val + 1) % 4 = 0 by omega), sc3_zero_chunk V c t hA]
    iintro ⟨⟨⟨⟨⟨%gacc, Hacc⟩, ⟨%grr, Hrr⟩⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply (sound_kernel3_A c Set.univ _ _ _ _ _ _ _ _ _ _ _ _ _ _ _ _ _ _ _ _ _ _ _ _ _ hzc hlc (iblk3 V c 0 t) (iblk3 V c 1 t) (iblk3 V c 2 t) (iblk3 V c 3 t) (iblk3 V c 4 t) (iblk3 V c 5 t) (iblk3 V c 6 t) (iblk3 V c 7 t) (iblk3 V c 8 t) _ _ _ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    isplitl [Hi]; · iexact Hi
    isplitl [Hj]; · iexact Hj
    isplitl [Hacc]; · iexact Hacc
    isplitl [Hrr]; · iexact Hrr
    iintro ⟨Ha, Hb, Hc, Hd, He, Hf, Hg, Hh, Hi, Hj, Hacc, Hrr⟩
    isplitl [Hacc Hrr Hrest Hp]
    · isplitr [Hp]
      · isplitr [Hrest]
        · isplitl [Hacc]; · iexact Hacc
          iexact Hrr
        · iexact Hrest
      · iexact Hp
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    isplitl [Hi]; · iexact Hi
    iexists dj; iexact Hj

  · have hzc : ¬cond3_0 (grid3.coords t) := fun h => hA ((hcond3_0 t).mp h)
    by_cases hC : t.val % 4 = 3
    · have hlc : cond3_1 (grid3.coords t) := (hcond3_1 t).mpr hC
      rw [leaves3_9_live V c t hlc, after3_9_all, if_neg hA, if_pos (show (t.val + 1) % 4 = 0 by omega)]
      iintro ⟨⟨⟨⟨Hacc, Hrr⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
      iapply (sound_kernel3_C c Set.univ _ _ _ _ _ _ _ _ _ _ _ _ _ _ _ _ _ _ _ _ _ _ _ _ _ hzc hlc (iblk3 V c 0 t) (iblk3 V c 1 t) (iblk3 V c 2 t) (iblk3 V c 3 t) (iblk3 V c 4 t) (iblk3 V c 5 t) (iblk3 V c 6 t) (iblk3 V c 7 t) (iblk3 V c 8 t) _ _ _ _)
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [Hj]; · iexact Hj
      isplitl [Hacc]; · iexact Hacc
      isplitl [Hrr]; · iexact Hrr
      iintro ⟨Ha, Hb, Hc, Hd, He, Hf, Hg, Hh, Hi, Hj, Hacc, Hrr⟩
      isplitl [Hacc Hrr Hrest Hp]
      · isplitr [Hp]
        · isplitr [Hrest]
          · isplitl [Hacc]
            · iexists _; iexact Hacc
            iexists _; iexact Hrr
          · iexact Hrest
        · iexact Hp
      isplitl [Ho]; · iexact Ho
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      unfold out3_9; rw [sc3_succ V c t hA]
      iexact Hj

    · have hlc : ¬cond3_1 (grid3.coords t) := fun h => hC ((hcond3_1 t).mp h)
      rw [leaves3_9_idle V c t hlc, if_neg hA, if_neg (show ¬(t.val + 1) % 4 = 0 by omega), sc3_succ V c t hA]
      iintro ⟨⟨⟨⟨Hacc, Hrr⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
      iapply (sound_kernel3_B c Set.univ _ _ _ _ _ _ _ _ _ _ _ _ _ _ _ _ _ _ _ _ _ _ _ _ _ hzc hlc (iblk3 V c 0 t) (iblk3 V c 1 t) (iblk3 V c 2 t) (iblk3 V c 3 t) (iblk3 V c 4 t) (iblk3 V c 5 t) (iblk3 V c 6 t) (iblk3 V c 7 t) (iblk3 V c 8 t) _ _ _ _)
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [Hj]; · iexact Hj
      isplitl [Hacc]; · iexact Hacc
      isplitl [Hrr]; · iexact Hrr
      iintro ⟨Ha, Hb, Hc, Hd, He, Hf, Hg, Hh, Hi, Hj, Hacc, Hrr⟩
      isplitl [Hacc Hrr Hrest Hp]
      · isplitr [Hp]
        · isplitr [Hrest]
          · isplitl [Hacc]; · iexact Hacc
            iexact Hrr
          · iexact Hrest
        · iexact Hp
      isplitl [Ho]; · iexact Ho
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      iexists dj; iexact Hj

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Into the invariant and out of it -/

/-- The class's invariant gives the invariant before the first point: the scoped rest split at the two scratch buffers,
    each at whatever it holds. -/
theorem Phi3_in (c : Dev nD) : (Pipeline.ΦA (U := UR sig nD τ) (Val := Elt F) spec3 c : sProp 𝕄) ⊢ (dat3 V c).Φ 0 := by
  show _ ⊢ Phi3 V c 0
  unfold Pipeline.ΦA Phi3
  rw [scopedRest3_split, if_pos (Nat.zero_mod 4)]
  iintro ⟨⟨⟨⟨%gacc, Hacc⟩, ⟨%grr, Hrr⟩⟩, Hrest⟩, Hp⟩
  isplitr [Hp]
  · isplitr [Hrest]
    · isplitl [Hacc]
      · iexists gacc; rw [owns_whole]; iexact Hacc
      · iexists grr; rw [owns_whole]; iexact Hrr
    · iexact Hrest
  · iexact Hp

/-- After the last point (of chunk 3) the scratch buffers' contents are forgotten: the class's invariant again. -/
theorem Phi3_out (c : Dev nD) : (dat3 V c).Φ (Fin.last cfg3.N) ⊢ (Pipeline.ΦA (U := UR sig nD τ) (Val := Elt F) spec3 c : sProp 𝕄) := by
  show Phi3 V c cfg3.N ⊢ _
  unfold Pipeline.ΦA Phi3
  rw [scopedRest3_split, if_pos (show cfg3.N % 4 = 0 by rw [show cfg3.N = 32 from N_3])]
  iintro ⟨⟨⟨⟨%gacc, Hacc⟩, ⟨%grr, Hrr⟩⟩, Hrest⟩, Hp⟩
  isplitr [Hp]
  · isplitr [Hrest]
    · isplitl [Hacc]
      · iexists gacc; rw [← owns_whole]; iexact Hacc
      · iexists grr; rw [← owns_whole]; iexact Hrr
    · iexact Hrest
  · iexact Hp

theorem share3 (c : Dev nD) : ∀ w, (dat3 V c).q w = fullShare := fun _ => rfl
theorem owed3 (c : Dev nD) : ∀ t, (dat3 V c).owed t = 0 := fun _ => rfl
theorem recorded3 (c : Dev nD) : ∀ t, (dat3 V c).recorded t = Set.univ := fun _ => rfl

end Cert.KernelIdeal.Hand

end
-- ==== Proof.Region4.lean ====
/- REGION 4: a launch of the attention kernel (custom call 4, pipeline 4; a grid of 8 points, windows 0..13
   read and window 14 written), stated at the contents `V` the TensorCore's buffers hold when the region is entered.

   At a point `t` the body reads the whole of each input window's staging buffer, which holds the window's block of
   its array at `t` (window 0 moves with the point; windows 1..13 have one block, brought in at the first point and
   found in place at every later one, the block index not having moved). It also reads the output window's own
   buffer once, a value it does not use, and then writes ONE value over the whole of the output window's buffer:
   the sum `k4_pay1` of block 0 and a projection of a gated ratio computed from the other thirteen blocks (spelled
   out at `out4_14`). So after the body the output buffer holds exactly that value, a pure function of the fourteen
   input blocks, whatever it held before, and every input buffer holds what it held. Nothing is kept between
   points: the invariant is the launch's own (`Pipeline.ΦA`), nothing is owed, every share is full. -/
import proofs.«415492_j738734375128_3_alg».proof.Proof.Gen.KernelIdeal.Launch
import proofs.«415492_j738734375128_3_alg».proof.Proof.Gen.KernelIdeal.Skeleton
import proofs.«415492_j738734375128_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the part of its array, as the region finds it, that the window shows there. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current buffer holds its block at every point, brought in there or not: where the pipeline
    brings nothing in, the window's block index is the one of the point before, and the body left the block in
    place. This holds for ANY proof data over the entry contents `V` whose body leaves the window's block where it
    found it; windows 1..13, brought in at the first point only, are the case "not brought in" at points 1..7. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)
theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)
theorem before4_11_of {c : Dev nD} (dat : Dat τ (Elt F) Unit ℕ (UR sig nD τ) ℕ cfg4 c) (hA : dat.A 11 = V c (Pipeline.arrRef spec4 11))
    (hafter : ∀ t, dat.after 11 t = iblk4 V c 11 t) (t : Fin cfg4.N) (d) : dat.before 11 t d = iblk4 V c 11 t :=
  (dat.before_in_eq_fetched 11 rfl (fun _ => rfl) (fun _ _ _ => rfl) (fun t => by rw [hafter]; unfold Dat.blockOf iblk4; rw [hA]; try rfl) t d).trans
    (by unfold Dat.fetched Dat.blockOf iblk4; rw [hA]; try rfl)
theorem before4_12_of {c : Dev nD} (dat : Dat τ (Elt F) Unit ℕ (UR sig nD τ) ℕ cfg4 c) (hA : dat.A 12 = V c (Pipeline.arrRef spec4 12))
    (hafter : ∀ t, dat.after 12 t = iblk4 V c 12 t) (t : Fin cfg4.N) (d) : dat.before 12 t d = iblk4 V c 12 t :=
  (dat.before_in_eq_fetched 12 rfl (fun _ => rfl) (fun _ _ _ => rfl) (fun t => by rw [hafter]; unfold Dat.blockOf iblk4; rw [hA]; try rfl) t d).trans
    (by unfold Dat.fetched Dat.blockOf iblk4; rw [hA]; try rfl)
theorem before4_13_of {c : Dev nD} (dat : Dat τ (Elt F) Unit ℕ (UR sig nD τ) ℕ cfg4 c) (hA : dat.A 13 = V c (Pipeline.arrRef spec4 13))
    (hafter : ∀ t, dat.after 13 t = iblk4 V c 13 t) (t : Fin cfg4.N) (d) : dat.before 13 t d = iblk4 V c 13 t :=
  (dat.before_in_eq_fetched 13 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole of an activation block, of a row vector, of a weight matrix: the three rectangles the body reads and
    writes through. -/
abbrev r4_A : Rect S256x1024 := Rect.unit (s := S256x1024) ![0, 0] S256x1024.size inb_S256x1024_S256x1024_0_0
abbrev r4_B : Rect S1x1024 := Rect.unit (s := S1x1024) ![0, 0] S1x1024.size inb_S1x1024_S1x1024_0_0
abbrev r4_C : Rect S1024x1024 := Rect.unit (s := S1024x1024) ![0, 0] S1024x1024.size inb_S1024x1024_S1024x1024_0_0

/-! ## What the body leaves in the output window's buffer -/

/-- Window 14's buffer after the body, from the fourteen input blocks: its one store, of the whole block. Write `x`
    for block 0, `pⱼ` / `bⱼ` for the row vector of window `j` spread over the 256 rows, `Wⱼ` for the matrix of
    window `j`, and `a ⬝ Wᵀ` for the product contracting the second axis of both, its left factor rounded to bf16.
    With `n` the rows of `x` centred and divided by the root of their variance plus a small constant, times `p₁`
    plus `p₂` (`k4_pay3`), and `mⱼ = n · pⱼ + p₃ · (1 − pⱼ)` the mixture of `n` and `p₃` by `pⱼ` (j = 4, 5, 6):
      `e = exp (b₇ + m₄ ⬝ W₁₀ᵀ)`                      (`k4_pay11`),
      `u = b₈ + e · (m₅ ⬝ W₁₁ᵀ)`                      (`k4_pay12`),
      `g = m₆ ⬝ W₁₂ᵀ`                                 (`k4_pay10`),
    and the value stored is `x + (logistic g · (u / (b₉ + e))) ⬝ W₁₃ᵀ` (`k4_pay1`; `b₉` is `k4_pay13`). Each operand
    is the load of a whole buffer, so it is the window's block itself read through the full rectangle. -/
def out4_14 (x0 : Vec F S256x1024 .f32) (x1 x2 x3 x4 x5 x6 x7 x8 x9 : Vec F S1x1024 .f32)
    (x10 x11 x12 x13 : Vec F S1024x1024 .bf16) : Vec F S256x1024 .f32 :=
  View.canon [⟨r4_A, k4_pay1 (k4_pay2 (View.ld x0 r4_A))
    (k4_pay10 (k4_pay3 (View.ld x0 r4_A) (View.ld x1 r4_B) (View.ld x2 r4_B)) (k4_pay4 (View.ld x3 r4_B)) (k4_pay7 (View.ld x6 r4_B)) (View.ld x12 r4_C))
    (k4_pay11 (k4_pay4 (View.ld x3 r4_B)) (k4_pay5 (View.ld x4 r4_B)) (k4_pay8 (View.ld x0 r4_A) (View.ld x1 r4_B) (View.ld x2 r4_B) (View.ld x4 r4_B)) (k4_pay9 (F := F)) (View.ld x10 r4_C) (View.ld x7 r4_B))
    (k4_pay12 (k4_pay3 (View.ld x0 r4_A) (View.ld x1 r4_B) (View.ld x2 r4_B)) (k4_pay4 (View.ld x3 r4_B)) (k4_pay5 (View.ld x4 r4_B)) (k4_pay6 (View.ld x5 r4_B))
      (k4_pay8 (View.ld x0 r4_A) (View.ld x1 r4_B) (View.ld x2 r4_B) (View.ld x4 r4_B)) (k4_pay9 (F := F)) (View.ld x10 r4_C) (View.ld x11 r4_C) (View.ld x7 r4_B) (View.ld x8 r4_B))
    (k4_pay13 (View.ld x9 r4_B))
    (View.ld x13 r4_C)⟩]

/-- The one store is of the whole block, so it covers it. -/
theorem cover4_14 (p0 : Vec F S256x1024 .f32) (y : S256x1024.Idx) :
    ∃ pc ∈ ([⟨r4_A, p0⟩] : List (View.Piece (Elt F) S256x1024 .f32)), y ∈ pc.1.set :=
  View.cover_of_tiled [⟨r4_A, p0⟩] S256x1024.size (by rfl) y

/-! ## The body's triple -/

set_option maxHeartbeats 1000000 in
/-- The body on whole staging memrefs, the inputs' at read contents `x0 … x13` and the output's at anything, runs to
    the continuation holding the inputs' as they were and the output's at `out4_14` of the inputs': every load reads
    the whole of a buffer whose contents are known (the output's own, read once and not used, at whatever it
    holds), and the one store covers the output's buffer. -/
theorem sound_kernel4 (c : Dev nD) (E : Set ℕ) (i : grid4.Coords)
    (arg1 : Memref sig .tc .vmem S256x1024 .f32) (harg1 : arg1.IsWhole)
    (arg2 : Memref sig .tc .vmem S1x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S1024x1024 .bf16) (harg11 : arg11.IsWhole)
    (arg12 : Memref sig .tc .vmem S1024x1024 .bf16) (harg12 : arg12.IsWhole)
    (arg13 : Memref sig .tc .vmem S1024x1024 .bf16) (harg13 : arg13.IsWhole)
    (arg14 : Memref sig .tc .vmem S1024x1024 .bf16) (harg14 : arg14.IsWhole)
    (arg15 : Memref sig .tc .vmem S256x1024 .f32) (harg15 : arg15.IsWhole)
    (x0 : Vec F S256x1024 .f32) (x1 x2 x3 x4 x5 x6 x7 x8 x9 : Vec F S1x1024 .f32)
    (x10 x11 x12 x13 : Vec F S1024x1024 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare (out4_14 x0 x1 x2 x3 x4 x5 x6 x7 x8 x9 x10 x11 x12 x13)) -∗ K ⟨⟩))
      ⊢ wp frame (wpE (defs₀ (F := F)) Variants.none c none) E
          (cc4_attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  sl_unfold [cc4_attn_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover4_14 _)

/-! ## The pipeline's proof data -/

/-- The proof data of pipeline 4 on core `c`: the arrays as the region finds them; after the body at point `t` each
    input's buffer at its block and the output's at `out4_14` of the input blocks; the invariant the launch's own
    (the scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => out4_14 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window: an input's block, and the output's one store. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = iblk4 V c 11 t := by dsimp only [dat4]
theorem after4_12 (c : Dev nD) (t : Fin cfg4.N) : (dat4 V c).after 12 t = iblk4 V c 12 t := by dsimp only [dat4]
theorem after4_13 (c : Dev nD) (t : Fin cfg4.N) : (dat4 V c).after 13 t = iblk4 V c 13 t := by dsimp only [dat4]
theorem after4_14 (c : Dev nD) (t : Fin cfg4.N) :
    (dat4 V c).after 14 t = out4_14 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) := by
  dsimp only [dat4]

/-- Each input's current staging buffer holds its block at every point, brought in there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d
theorem before4_11 (c : Dev nD) (t : Fin cfg4.N) (d) : (dat4 V c).before 11 t d = iblk4 V c 11 t :=
  before4_11_of V (dat4 V c) (A_eq4 V c 11) (after4_11 V c) t d
theorem before4_12 (c : Dev nD) (t : Fin cfg4.N) (d) : (dat4 V c).before 12 t d = iblk4 V c 12 t :=
  before4_12_of V (dat4 V c) (A_eq4 V c 12) (after4_12 V c) t d
theorem before4_13 (c : Dev nD) (t : Fin cfg4.N) (d) : (dat4 V c).before 13 t d = iblk4 V c 13 t :=
  before4_13_of V (dat4 V c) (A_eq4 V c 13) (after4_13 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d))
    ∗ (∃ d, owns (c : Thread nD τ) (st4_13 t) fullShare ((dat4 V c).before 13 t d))
    ∗ (∃ d, owns (c : Thread nD τ) (st4_14 t) fullShare ((dat4 V c).before 14 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t)
    ∗ owns (c : Thread nD τ) (st4_13 t) fullShare ((dat4 V c).after 13 t)
    ∗ owns (c : Thread nD τ) (st4_14 t) fullShare ((dat4 V c).after 14 t))

set_option maxHeartbeats 1000000 in
/-- The body at any point: the inputs' memrefs hold their blocks, so the body's triple applies at those blocks; the
    invariant and the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10, before4_11, before4_12, before4_13]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12, after4_13, after4_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel4 c Set.univ _ _ _ _ _ _ _ _ _ _ _ _ _ _ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends, the shares, the debts -/

/-- The invariant before the first point is what the launch hands the kernel, -/
theorem Phi4_in (c : Dev nD) :
    (Pipeline.ΦA (U := UR sig nD τ) (Val := Elt F) spec4 c : sProp 𝕄) ⊢ (dat4 V c).Φ 0 := .rfl

/-- and after the last point what the launch takes back. -/
theorem Phi4_out (c : Dev nD) :
    (dat4 V c).Φ (Fin.last cfg4.N) ⊢ (Pipeline.ΦA (U := UR sig nD τ) (Val := Elt F) spec4 c : sProp 𝕄) := .rfl

theorem share4 (c : Dev nD) : ∀ w, (dat4 V c).q w = fullShare := fun _ => rfl
theorem owed4 (c : Dev nD) : ∀ t, (dat4 V c).owed t = 0 := fun _ => rfl

/-- The proof data records every pair of cells (the structure's default): nothing is excluded from what the core may be owed. -/
theorem recorded4 (c : Dev nD) : ∀ t, (dat4 V c).recorded t = Set.univ := fun _ => rfl

end Cert.KernelIdeal.Hand

end
-- ==== Proof.Region5.lean ====
/- Region 1 of the program's main function: the second TensorCore call (the feed-forward kernel), at a parameter `V`,
   the TensorCore's buffer contents when the region is entered. The call runs on a grid of 32 points, 8 row tiles by 4
   chunks; it carries two scratch buffers from point to point (an accumulator, and a second buffer
   filled at a tile's first chunk and read at its last) and stores its output block at the last chunk of each tile. This module gives: each window's
   block at a point; the body's triple in each of the three cases of its two conditionals; what the scratch buffers
   hold before each point, by recursion on the point; the pipeline's proof data, whose invariant holds the scratch
   buffers at those contents; the body obligation; and the passage from the class's invariant into this one and back. -/
import proofs.«415492_j738734375128_3_alg».proof.Proof.Gen.KernelIdeal.Launch
import proofs.«415492_j738734375128_3_alg».proof.Proof.Gen.KernelIdeal.Skeleton
import proofs.«415492_j738734375128_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: custom_call 5, `cc5_ffn_kernel` (pipeline 5), at the entry contents `V`

The grid has 32 points: 8 row tiles times 4 chunks, the chunk the fast coordinate. Windows 0 to 8
are inputs, window 9 the output, written back at the points of chunk 3. Two scratch buffers are carried from point to
point: an accumulator, zeroed at chunk 0 and added to at every chunk, and a second buffer filled at chunk 0 and read
at chunk 3. -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data
    whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data
    whose array is `V`'s and whose body leaves the block in place: unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data
    whose array is `V`'s and whose body leaves the block in place: unfetched, the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof data
    whose array is `V`'s and whose body leaves the block in place: unfetched, the block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof data
    whose array is `V`'s and whose body leaves the block in place: unfetched, the block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof data
    whose array is `V`'s and whose body leaves the block in place: unfetched, the block index has not moved. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof data
    whose array is `V`'s and whose body leaves the block in place: unfetched, the block index has not moved. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, fetched there or not, for any proof data
    whose array is `V`'s and whose body leaves the block in place: unfetched, the block index has not moved. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, fetched there or not, for any proof data
    whose array is `V`'s and whose body leaves the block in place: unfetched, the block index has not moved. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The two conditionals, decided over the grid -/

/-- The first conditional's condition (the chunk coordinate is 0), as the body computes it from the grid coordinates. -/
abbrev cond5_0 (i : grid5.Coords) : Prop := (Scalar.cmpi .ne (Scalar.extui (Scalar.cmpi .eq (BitVec.ofNat 32 (i 1).val) 0#32)) 0#32) = 1#1
/-- It holds exactly at the points ≡ 0 (mod 4). -/
theorem hcond5_0 : ∀ t : Fin cfg5.N, cond5_0 (grid5.coords t) ↔ t.val % 4 = 0 :=
  (by decide +kernel : ∀ t : Fin grid5.N, cond5_0 (grid5.coords t) ↔ t.val % 4 = 0)
/-- The second conditional's condition (the chunk coordinate is 3). -/
abbrev cond5_1 (i : grid5.Coords) : Prop := k5_cond2 i = 1#1
/-- It holds exactly at the points ≡ 3 (mod 4). -/
theorem hcond5_1 : ∀ t : Fin cfg5.N, cond5_1 (grid5.coords t) ↔ t.val % 4 = 3 :=
  (by decide +kernel : ∀ t : Fin grid5.N, cond5_1 (grid5.coords t) ↔ t.val % 4 = 3)

/-! ## The body's triple, one per case of the conditionals -/
set_option maxHeartbeats 1000000 in
/-- The body at a point of chunk 0, on whole memrefs: the inputs at their read contents, the output buffer and both
    scratch buffers at anything. It refills the second scratch from the inputs, zeroes the accumulator and adds the
    chunk's partial product to it; the output buffer is not touched. -/
theorem sound_kernel5_A (c : Dev nD) (E : Set ℕ) (i : grid5.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : cond5_0 i) (hlc : ¬cond5_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare (k5_pay3 (k5_pay10 xa xb xc xe) (k5_pay11 xd xe) xg k5_pay2 xi) ∗ owns (c : Thread nD τ) arg13 fullShare (k5_pay1 (k5_pay6 xa xb xc) (k5_pay7 xd) (k5_pay9 xf) xh)) -∗ K ⟨⟩))
      ⊢ wp frame (wpE (defs₀ (F := F)) Variants.none c none) E (cc5_ffn_kernel i arg2 harg2 arg3 harg3 arg4 harg4 arg5 harg5 arg6 harg6 arg7 harg7 arg8 harg8 arg9 harg9 arg10 harg10 arg11 harg11 arg12 harg12 arg13 harg13) K := by
  simp only [cc5_ffn_kernel_eq_skeleton]; unfold cc5_ffn_kernel_skel
  simp only [k5_part1_eq_skeleton]; unfold k5_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists _; isplitr
  swap; · iexact Hl
  ipureintro
  refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
  sl_unfold_run_names
  simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]

set_option maxHeartbeats 1000000 in
/-- The body at a point of chunk 1 or 2: the accumulator at `a` gains the chunk's partial product; the second scratch
    and the output buffer are not touched. -/
theorem sound_kernel5_B (c : Dev nD) (E : Set ℕ) (i : grid5.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : ¬cond5_0 i) (hlc : ¬cond5_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare (k5_pay3 (k5_pay10 xa xb xc xe) (k5_pay11 xd xe) xg a xi) ∗ owns (c : Thread nD τ) arg13 fullShare r) -∗ K ⟨⟩))
      ⊢ wp frame (wpE (defs₀ (F := F)) Variants.none c none) E (cc5_ffn_kernel i arg2 harg2 arg3 harg3 arg4 harg4 arg5 harg5 arg6 harg6 arg7 harg7 arg8 harg8 arg9 harg9 arg10 harg10 arg11 harg11 arg12 harg12 arg13 harg13) K := by
  simp only [cc5_ffn_kernel_eq_skeleton]; unfold cc5_ffn_kernel_skel
  simp only [k5_part1_eq_skeleton]; unfold k5_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists fl; isplitr; · ipureintro; rfl
  iexact Hl

set_option maxHeartbeats 1000000 in
/-- The body at a point of chunk 3: the accumulator gains the last partial product, and the output buffer is stored
    whole, from the input block, the second scratch and the finished accumulator. -/
theorem sound_kernel5_C (c : Dev nD) (E : Set ℕ) (i : grid5.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : ¬cond5_0 i) (hlc : cond5_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare (k5_pay4 (k5_pay5 xa) r (k5_pay3 (k5_pay10 xa xb xc xe) (k5_pay11 xd xe) xg a xi)) ∗ owns (c : Thread nD τ) arg12 fullShare (k5_pay3 (k5_pay10 xa xb xc xe) (k5_pay11 xd xe) xg a xi) ∗ owns (c : Thread nD τ) arg13 fullShare r) -∗ K ⟨⟩))
      ⊢ wp frame (wpE (defs₀ (F := F)) Variants.none c none) E (cc5_ffn_kernel i arg2 harg2 arg3 harg3 arg4 harg4 arg5 harg5 arg6 harg6 arg7 harg7 arg8 harg8 arg9 harg9 arg10 harg10 arg11 harg11 arg12 harg12 arg13 harg13) K := by
  simp only [cc5_ffn_kernel_eq_skeleton]; unfold cc5_ffn_kernel_skel
  simp only [k5_part1_eq_skeleton]; unfold k5_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists _; isplitr
    swap; · iexact Hj
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists fl; isplitr; · ipureintro; rfl
  iexact Hl

/-! ## The carried scratch, point by point -/

/-- What the two scratch buffers hold BEFORE point `n` (after point `n - 1`), as the pair (accumulator, second
    buffer), by recursion on the point: a point of chunk 0 refills the second buffer from its input blocks and leaves
    the accumulator at the chunk's partial product over zero; any other point keeps the second buffer and adds its
    partial product to the accumulator. Before a point of chunk 0 the value is never read (the body overwrites both
    buffers there before loading them). -/
def sc5 (c : Dev nD) : ℕ → Vec F S256x1024 .f32 × Vec F S256x1024 .f32
  | 0 => (k5_pay2, k5_pay2)
  | n + 1 =>
    if h : n < cfg5.N then
      if n % 4 = 0 then
        ((k5_pay3 (k5_pay10 (iblk5 V c 0 ⟨n, h⟩) (iblk5 V c 1 ⟨n, h⟩) (iblk5 V c 2 ⟨n, h⟩) (iblk5 V c 4 ⟨n, h⟩)) (k5_pay11 (iblk5 V c 3 ⟨n, h⟩) (iblk5 V c 4 ⟨n, h⟩)) (iblk5 V c 6 ⟨n, h⟩) k5_pay2 (iblk5 V c 8 ⟨n, h⟩)),
          (k5_pay1 (k5_pay6 (iblk5 V c 0 ⟨n, h⟩) (iblk5 V c 1 ⟨n, h⟩) (iblk5 V c 2 ⟨n, h⟩)) (k5_pay7 (iblk5 V c 3 ⟨n, h⟩)) (k5_pay9 (iblk5 V c 5 ⟨n, h⟩)) (iblk5 V c 7 ⟨n, h⟩)))
      else
        ((k5_pay3 (k5_pay10 (iblk5 V c 0 ⟨n, h⟩) (iblk5 V c 1 ⟨n, h⟩) (iblk5 V c 2 ⟨n, h⟩) (iblk5 V c 4 ⟨n, h⟩)) (k5_pay11 (iblk5 V c 3 ⟨n, h⟩) (iblk5 V c 4 ⟨n, h⟩)) (iblk5 V c 6 ⟨n, h⟩) (sc5 c n).1 (iblk5 V c 8 ⟨n, h⟩)),
          (sc5 c n).2)
    else sc5 c n

/-- After a point of chunk 0: the accumulator is the chunk's partial product over zero, the second buffer is refilled. -/
theorem sc5_zero_chunk (c : Dev nD) (t : Fin cfg5.N) (h : t.val % 4 = 0) :
    sc5 V c (t.val + 1) = ((k5_pay3 (k5_pay10 (iblk5 V c 0 t) (iblk5 V c 1 t) (iblk5 V c 2 t) (iblk5 V c 4 t)) (k5_pay11 (iblk5 V c 3 t) (iblk5 V c 4 t)) (iblk5 V c 6 t) k5_pay2 (iblk5 V c 8 t)),
      (k5_pay1 (k5_pay6 (iblk5 V c 0 t) (iblk5 V c 1 t) (iblk5 V c 2 t)) (k5_pay7 (iblk5 V c 3 t)) (k5_pay9 (iblk5 V c 5 t)) (iblk5 V c 7 t))) := by
  obtain ⟨n, hn⟩ := t
  show sc5 V c (n + 1) = _
  rw [sc5, dif_pos hn, if_pos h]

/-- After a point of any other chunk: the accumulator has gained the chunk's partial product, the second buffer is kept. -/
theorem sc5_succ (c : Dev nD) (t : Fin cfg5.N) (h : ¬t.val % 4 = 0) :
    sc5 V c (t.val + 1) = ((k5_pay3 (k5_pay10 (iblk5 V c 0 t) (iblk5 V c 1 t) (iblk5 V c 2 t) (iblk5 V c 4 t)) (k5_pay11 (iblk5 V c 3 t) (iblk5 V c 4 t)) (iblk5 V c 6 t) (sc5 V c t.val).1 (iblk5 V c 8 t)),
      (sc5 V c t.val).2) := by
  obtain ⟨n, hn⟩ := t
  show sc5 V c (n + 1) = _
  rw [sc5, dif_pos hn, if_neg h]

/-- What a point of chunk 3 stores into the output window's buffer: from the point's block of window 0, the second
    scratch buffer and the accumulator as that point leaves them. -/
def out5_9 (c : Dev nD) (t : Fin cfg5.N) : Vec F S256x1024 .f32 :=
  k5_pay4 (k5_pay5 (iblk5 V c 0 t)) (sc5 V c (t.val + 1)).2 (sc5 V c (t.val + 1)).1

/-- The region invariant before point `n`: the two scratch buffers — at anything before a point of chunk 0, which
    overwrites them, else at `sc5` —, the rest of the core's scoped buffers unopened, the generator register at some
    state. -/
def Phi5 (c : Dev nD) (n : ℕ) : sProp 𝕄 :=
  iprop(iprop((if n % 4 = 0 then
        (iprop((∃ X, owns (c : Thread nD τ) (Memref.whole cc5_scratch0) fullShare X) ∗ (∃ X, owns (c : Thread nD τ) (Memref.whole cc5_scratch1) fullShare X)) : sProp 𝕄)
      else iprop(owns (c : Thread nD τ) (Memref.whole cc5_scratch0) fullShare (sc5 V c n).1 ∗ owns (c : Thread nD τ) (Memref.whole cc5_scratch1) fullShare (sc5 V c n).2))
    ∗ Pipeline.scopedRestBut (Ix := Unit) (Name := ℕ) (U := UR sig nD τ) (Lvl := ℕ) (Val := Elt F) spec5 c [cc5_scratch0, cc5_scratch1]) ∗ ∃ r, prngReg c r)

/-! ## The pipeline's proof data -/

/-- The proof data of pipeline 5 on core `c`: the arrays as the region finds them (`V`); after the body at point `t`
    each input's buffer at its block and the output's at `out5_9` (read only at the points of chunk 3: elsewhere the
    window is idle and not written back); the invariant `Phi5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 V c t
  Φ t := Phi5 V c t.val
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9_all (c : Dev nD) (t : Fin cfg5.N) : (dat5 V c).after 9 t = out5_9 V c t := by dsimp only [dat5]
theorem after5_9 (c : Dev nD) (t : Fin cfg5.N) (h : t.val % 4 = 3) : (dat5 V c).after 9 t = out5_9 V c t := after5_9_all V c t

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-- The invariant at a point's start and at its end, restated at the point's number. -/
theorem Phi5_castSucc (c : Dev nD) (t : Fin cfg5.N) : (dat5 V c).Φ t.castSucc = Phi5 V c t.val := rfl
theorem Phi5_succ (c : Dev nD) (t : Fin cfg5.N) : (dat5 V c).Φ t.succ = Phi5 V c (t.val + 1) := rfl

/-- Off chunk 3 the output window is idle and not written back: the obligation hands its buffer back as found. -/
theorem leaves5_9_idle (c : Dev nD) (t : Fin cfg5.N) (h : ¬cond5_1 (grid5.coords t)) :
    (dat5 V c).leavesExact 9 t = iprop(∃ d, owns (c : Thread nD τ) (st5_9 t) fullShare ((dat5 V c).before 9 t d)) :=
  (dat5 V c).leavesExact_idle 9 t
    (by show (!(k5_cond2 (grid5.coords t) == 1#1)) = true
        rw [Bool.not_eq_true', beq_eq_false_iff_ne]; exact h)
    (Bool.eq_false_iff.mpr fun hfl => h ((hcond5_1 t).mpr ((flush5_9 t).mp hfl)))

/-- At chunk 3 it is live: its buffer is left at what the body stored. -/
theorem leaves5_9_live (c : Dev nD) (t : Fin cfg5.N) (h : cond5_1 (grid5.coords t)) :
    (dat5 V c).leavesExact 9 t = owns (c : Thread nD τ) (st5_9 t) fullShare ((dat5 V c).after 9 t) := by
  have hi : cfg5.idle 9 (cfg5.grid.coords t) = false := by
    show (!(k5_cond2 (grid5.coords t) == 1#1)) = false
    rw [Bool.not_eq_false', beq_iff_eq]; exact h
  unfold Dat.leavesExact; rw [hi]

/-! ## The body obligation, at a generic point -/

/-- What the body is called with at point `t`: the invariant, what the core owes, every window's current buffer. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- What it returns: the invariant at the next point, the inputs' buffers as they were, the output's as the window's
    schedule has it (stored at chunk 3, handed back as found elsewhere). -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ (dat5 V c).leavesExact 9 t)

set_option maxHeartbeats 1000000 in
/-- The body at any point, by the point's chunk: the inputs' memrefs hold their blocks, the scratch buffers what the
    invariant says, so that chunk's triple applies; what it leaves in the scratch buffers is the invariant at the
    next point (`sc5`'s recursion), forgotten again after chunk 3. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).owesAt () t.succ = (dat5 V c).owesAt () t.castSucc from rfl,
    after5_0, after5_1, after5_2, after5_3, after5_4, after5_5, after5_6, after5_7, after5_8, Phi5_castSucc, Phi5_succ]
  unfold Phi5
  by_cases hA : t.val % 4 = 0
  · have hzc : cond5_0 (grid5.coords t) := (hcond5_0 t).mpr hA
    have hlc : ¬cond5_1 (grid5.coords t) := fun h => by have := (hcond5_1 t).mp h; omega
    rw [leaves5_9_idle V c t hlc, if_pos hA, if_neg (show ¬(t.val + 1) % 4 = 0 by omega), sc5_zero_chunk V c t hA]
    iintro ⟨⟨⟨⟨⟨%gacc, Hacc⟩, ⟨%grr, Hrr⟩⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply (sound_kernel5_A c Set.univ _ _ _ _ _ _ _ _ _ _ _ _ _ _ _ _ _ _ _ _ _ _ _ _ _ hzc hlc (iblk5 V c 0 t) (iblk5 V c 1 t) (iblk5 V c 2 t) (iblk5 V c 3 t) (iblk5 V c 4 t) (iblk5 V c 5 t) (iblk5 V c 6 t) (iblk5 V c 7 t) (iblk5 V c 8 t) _ _ _ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    isplitl [Hi]; · iexact Hi
    isplitl [Hj]; · iexact Hj
    isplitl [Hacc]; · iexact Hacc
    isplitl [Hrr]; · iexact Hrr
    iintro ⟨Ha, Hb, Hc, Hd, He, Hf, Hg, Hh, Hi, Hj, Hacc, Hrr⟩
    isplitl [Hacc Hrr Hrest Hp]
    · isplitr [Hp]
      · isplitr [Hrest]
        · isplitl [Hacc]; · iexact Hacc
          iexact Hrr
        · iexact Hrest
      · iexact Hp
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    isplitl [Hi]; · iexact Hi
    iexists dj; iexact Hj

  · have hzc : ¬cond5_0 (grid5.coords t) := fun h => hA ((hcond5_0 t).mp h)
    by_cases hC : t.val % 4 = 3
    · have hlc : cond5_1 (grid5.coords t) := (hcond5_1 t).mpr hC
      rw [leaves5_9_live V c t hlc, after5_9_all, if_neg hA, if_pos (show (t.val + 1) % 4 = 0 by omega)]
      iintro ⟨⟨⟨⟨Hacc, Hrr⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
      iapply (sound_kernel5_C c Set.univ _ _ _ _ _ _ _ _ _ _ _ _ _ _ _ _ _ _ _ _ _ _ _ _ _ hzc hlc (iblk5 V c 0 t) (iblk5 V c 1 t) (iblk5 V c 2 t) (iblk5 V c 3 t) (iblk5 V c 4 t) (iblk5 V c 5 t) (iblk5 V c 6 t) (iblk5 V c 7 t) (iblk5 V c 8 t) _ _ _ _)
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [Hj]; · iexact Hj
      isplitl [Hacc]; · iexact Hacc
      isplitl [Hrr]; · iexact Hrr
      iintro ⟨Ha, Hb, Hc, Hd, He, Hf, Hg, Hh, Hi, Hj, Hacc, Hrr⟩
      isplitl [Hacc Hrr Hrest Hp]
      · isplitr [Hp]
        · isplitr [Hrest]
          · isplitl [Hacc]
            · iexists _; iexact Hacc
            iexists _; iexact Hrr
          · iexact Hrest
        · iexact Hp
      isplitl [Ho]; · iexact Ho
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      unfold out5_9; rw [sc5_succ V c t hA]
      iexact Hj

    · have hlc : ¬cond5_1 (grid5.coords t) := fun h => hC ((hcond5_1 t).mp h)
      rw [leaves5_9_idle V c t hlc, if_neg hA, if_neg (show ¬(t.val + 1) % 4 = 0 by omega), sc5_succ V c t hA]
      iintro ⟨⟨⟨⟨Hacc, Hrr⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
      iapply (sound_kernel5_B c Set.univ _ _ _ _ _ _ _ _ _ _ _ _ _ _ _ _ _ _ _ _ _ _ _ _ _ hzc hlc (iblk5 V c 0 t) (iblk5 V c 1 t) (iblk5 V c 2 t) (iblk5 V c 3 t) (iblk5 V c 4 t) (iblk5 V c 5 t) (iblk5 V c 6 t) (iblk5 V c 7 t) (iblk5 V c 8 t) _ _ _ _)
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [Hj]; · iexact Hj
      isplitl [Hacc]; · iexact Hacc
      isplitl [Hrr]; · iexact Hrr
      iintro ⟨Ha, Hb, Hc, Hd, He, Hf, Hg, Hh, Hi, Hj, Hacc, Hrr⟩
      isplitl [Hacc Hrr Hrest Hp]
      · isplitr [Hp]
        · isplitr [Hrest]
          · isplitl [Hacc]; · iexact Hacc
            iexact Hrr
          · iexact Hrest
        · iexact Hp
      isplitl [Ho]; · iexact Ho
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      iexists dj; iexact Hj

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## Into the invariant and out of it -/

/-- The class's invariant gives the invariant before the first point: the scoped rest split at the two scratch buffers,
    each at whatever it holds. -/
theorem Phi5_in (c : Dev nD) : (Pipeline.ΦA (U := UR sig nD τ) (Val := Elt F) spec5 c : sProp 𝕄) ⊢ (dat5 V c).Φ 0 := by
  show _ ⊢ Phi5 V c 0
  unfold Pipeline.ΦA Phi5
  rw [scopedRest5_split, if_pos (Nat.zero_mod 4)]
  iintro ⟨⟨⟨⟨%gacc, Hacc⟩, ⟨%grr, Hrr⟩⟩, Hrest⟩, Hp⟩
  isplitr [Hp]
  · isplitr [Hrest]
    · isplitl [Hacc]
      · iexists gacc; rw [owns_whole]; iexact Hacc
      · iexists grr; rw [owns_whole]; iexact Hrr
    · iexact Hrest
  · iexact Hp

/-- After the last point (of chunk 3) the scratch buffers' contents are forgotten: the class's invariant again. -/
theorem Phi5_out (c : Dev nD) : (dat5 V c).Φ (Fin.last cfg5.N) ⊢ (Pipeline.ΦA (U := UR sig nD τ) (Val := Elt F) spec5 c : sProp 𝕄) := by
  show Phi5 V c cfg5.N ⊢ _
  unfold Pipeline.ΦA Phi5
  rw [scopedRest5_split, if_pos (show cfg5.N % 4 = 0 by rw [show cfg5.N = 32 from N_5])]
  iintro ⟨⟨⟨⟨%gacc, Hacc⟩, ⟨%grr, Hrr⟩⟩, Hrest⟩, Hp⟩
  isplitr [Hp]
  · isplitr [Hrest]
    · isplitl [Hacc]
      · iexists gacc; rw [← owns_whole]; iexact Hacc
      · iexists grr; rw [← owns_whole]; iexact Hrr
    · iexact Hrest
  · iexact Hp

theorem share5 (c : Dev nD) : ∀ w, (dat5 V c).q w = fullShare := fun _ => rfl
theorem owed5 (c : Dev nD) : ∀ t, (dat5 V c).owed t = 0 := fun _ => rfl
theorem recorded5 (c : Dev nD) : ∀ t, (dat5 V c).recorded t = Set.univ := fun _ => rfl

end Cert.KernelIdeal.Hand

end
-- ==== Proof.Region6.lean ====
/- REGION 6: a launch of the attention kernel (custom call 6, pipeline 6; a grid of 8 points, windows 0..13
   read and window 14 written), stated at the contents `V` the TensorCore's buffers hold when the region is entered.

   At a point `t` the body reads the whole of each input window's staging buffer, which holds the window's block of
   its array at `t` (window 0 moves with the point; windows 1..13 have one block, brought in at the first point and
   found in place at every later one, the block index not having moved). It also reads the output window's own
   buffer once, a value it does not use, and then writes ONE value over the whole of the output window's buffer:
   the sum `k6_pay1` of block 0 and a projection of a gated ratio computed from the other thirteen blocks (spelled
   out at `out6_14`). So after the body the output buffer holds exactly that value, a pure function of the fourteen
   input blocks, whatever it held before, and every input buffer holds what it held. Nothing is kept between
   points: the invariant is the launch's own (`Pipeline.ΦA`), nothing is owed, every share is full. -/
import proofs.«415492_j738734375128_3_alg».proof.Proof.Gen.KernelIdeal.Launch
import proofs.«415492_j738734375128_3_alg».proof.Proof.Gen.KernelIdeal.Skeleton
import proofs.«415492_j738734375128_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the part of its array, as the region finds it, that the window shows there. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's current buffer holds its block at every point, brought in there or not: where the pipeline
    brings nothing in, the window's block index is the one of the point before, and the body left the block in
    place. This holds for ANY proof data over the entry contents `V` whose body leaves the window's block where it
    found it; windows 1..13, brought in at the first point only, are the case "not brought in" at points 1..7. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)
theorem before6_10_of {c : Dev nD} (dat : Dat τ (Elt F) Unit ℕ (UR sig nD τ) ℕ cfg6 c) (hA : dat.A 10 = V c (Pipeline.arrRef spec6 10))
    (hafter : ∀ t, dat.after 10 t = iblk6 V c 10 t) (t : Fin cfg6.N) (d) : dat.before 10 t d = iblk6 V c 10 t :=
  (dat.before_in_eq_fetched 10 rfl (fun _ => rfl) (fun _ _ _ => rfl) (fun t => by rw [hafter]; unfold Dat.blockOf iblk6; rw [hA]; try rfl) t d).trans
    (by unfold Dat.fetched Dat.blockOf iblk6; rw [hA]; try rfl)
theorem before6_11_of {c : Dev nD} (dat : Dat τ (Elt F) Unit ℕ (UR sig nD τ) ℕ cfg6 c) (hA : dat.A 11 = V c (Pipeline.arrRef spec6 11))
    (hafter : ∀ t, dat.after 11 t = iblk6 V c 11 t) (t : Fin cfg6.N) (d) : dat.before 11 t d = iblk6 V c 11 t :=
  (dat.before_in_eq_fetched 11 rfl (fun _ => rfl) (fun _ _ _ => rfl) (fun t => by rw [hafter]; unfold Dat.blockOf iblk6; rw [hA]; try rfl) t d).trans
    (by unfold Dat.fetched Dat.blockOf iblk6; rw [hA]; try rfl)
theorem before6_12_of {c : Dev nD} (dat : Dat τ (Elt F) Unit ℕ (UR sig nD τ) ℕ cfg6 c) (hA : dat.A 12 = V c (Pipeline.arrRef spec6 12))
    (hafter : ∀ t, dat.after 12 t = iblk6 V c 12 t) (t : Fin cfg6.N) (d) : dat.before 12 t d = iblk6 V c 12 t :=
  (dat.before_in_eq_fetched 12 rfl (fun _ => rfl) (fun _ _ _ => rfl) (fun t => by rw [hafter]; unfold Dat.blockOf iblk6; rw [hA]; try rfl) t d).trans
    (by unfold Dat.fetched Dat.blockOf iblk6; rw [hA]; try rfl)
theorem before6_13_of {c : Dev nD} (dat : Dat τ (Elt F) Unit ℕ (UR sig nD τ) ℕ cfg6 c) (hA : dat.A 13 = V c (Pipeline.arrRef spec6 13))
    (hafter : ∀ t, dat.after 13 t = iblk6 V c 13 t) (t : Fin cfg6.N) (d) : dat.before 13 t d = iblk6 V c 13 t :=
  (dat.before_in_eq_fetched 13 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole of an activation block, of a row vector, of a weight matrix: the three rectangles the body reads and
    writes through. -/
abbrev r6_A : Rect S256x1024 := Rect.unit (s := S256x1024) ![0, 0] S256x1024.size inb_S256x1024_S256x1024_0_0
abbrev r6_B : Rect S1x1024 := Rect.unit (s := S1x1024) ![0, 0] S1x1024.size inb_S1x1024_S1x1024_0_0
abbrev r6_C : Rect S1024x1024 := Rect.unit (s := S1024x1024) ![0, 0] S1024x1024.size inb_S1024x1024_S1024x1024_0_0

/-! ## What the body leaves in the output window's buffer -/

/-- Window 14's buffer after the body, from the fourteen input blocks: its one store, of the whole block. Write `x`
    for block 0, `pⱼ` / `bⱼ` for the row vector of window `j` spread over the 256 rows, `Wⱼ` for the matrix of
    window `j`, and `a ⬝ Wᵀ` for the product contracting the second axis of both, its left factor rounded to bf16.
    With `n` the rows of `x` centred and divided by the root of their variance plus a small constant, times `p₁`
    plus `p₂` (`k6_pay3`), and `mⱼ = n · pⱼ + p₃ · (1 − pⱼ)` the mixture of `n` and `p₃` by `pⱼ` (j = 4, 5, 6):
      `e = exp (b₇ + m₄ ⬝ W₁₀ᵀ)`                      (`k6_pay11`),
      `u = b₈ + e · (m₅ ⬝ W₁₁ᵀ)`                      (`k6_pay12`),
      `g = m₆ ⬝ W₁₂ᵀ`                                 (`k6_pay10`),
    and the value stored is `x + (logistic g · (u / (b₉ + e))) ⬝ W₁₃ᵀ` (`k6_pay1`; `b₉` is `k6_pay13`). Each operand
    is the load of a whole buffer, so it is the window's block itself read through the full rectangle. -/
def out6_14 (x0 : Vec F S256x1024 .f32) (x1 x2 x3 x4 x5 x6 x7 x8 x9 : Vec F S1x1024 .f32)
    (x10 x11 x12 x13 : Vec F S1024x1024 .bf16) : Vec F S256x1024 .f32 :=
  View.canon [⟨r6_A, k6_pay1 (k6_pay2 (View.ld x0 r6_A))
    (k6_pay10 (k6_pay3 (View.ld x0 r6_A) (View.ld x1 r6_B) (View.ld x2 r6_B)) (k6_pay4 (View.ld x3 r6_B)) (k6_pay7 (View.ld x6 r6_B)) (View.ld x12 r6_C))
    (k6_pay11 (k6_pay4 (View.ld x3 r6_B)) (k6_pay5 (View.ld x4 r6_B)) (k6_pay8 (View.ld x0 r6_A) (View.ld x1 r6_B) (View.ld x2 r6_B) (View.ld x4 r6_B)) (k6_pay9 (F := F)) (View.ld x10 r6_C) (View.ld x7 r6_B))
    (k6_pay12 (k6_pay3 (View.ld x0 r6_A) (View.ld x1 r6_B) (View.ld x2 r6_B)) (k6_pay4 (View.ld x3 r6_B)) (k6_pay5 (View.ld x4 r6_B)) (k6_pay6 (View.ld x5 r6_B))
      (k6_pay8 (View.ld x0 r6_A) (View.ld x1 r6_B) (View.ld x2 r6_B) (View.ld x4 r6_B)) (k6_pay9 (F := F)) (View.ld x10 r6_C) (View.ld x11 r6_C) (View.ld x7 r6_B) (View.ld x8 r6_B))
    (k6_pay13 (View.ld x9 r6_B))
    (View.ld x13 r6_C)⟩]

/-- The one store is of the whole block, so it covers it. -/
theorem cover6_14 (p0 : Vec F S256x1024 .f32) (y : S256x1024.Idx) :
    ∃ pc ∈ ([⟨r6_A, p0⟩] : List (View.Piece (Elt F) S256x1024 .f32)), y ∈ pc.1.set :=
  View.cover_of_tiled [⟨r6_A, p0⟩] S256x1024.size (by rfl) y

/-! ## The body's triple -/

set_option maxHeartbeats 1000000 in
/-- The body on whole staging memrefs, the inputs' at read contents `x0 … x13` and the output's at anything, runs to
    the continuation holding the inputs' as they were and the output's at `out6_14` of the inputs': every load reads
    the whole of a buffer whose contents are known (the output's own, read once and not used, at whatever it
    holds), and the one store covers the output's buffer. -/
theorem sound_kernel6 (c : Dev nD) (E : Set ℕ) (i : grid6.Coords)
    (arg1 : Memref sig .tc .vmem S256x1024 .f32) (harg1 : arg1.IsWhole)
    (arg2 : Memref sig .tc .vmem S1x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S1024x1024 .bf16) (harg11 : arg11.IsWhole)
    (arg12 : Memref sig .tc .vmem S1024x1024 .bf16) (harg12 : arg12.IsWhole)
    (arg13 : Memref sig .tc .vmem S1024x1024 .bf16) (harg13 : arg13.IsWhole)
    (arg14 : Memref sig .tc .vmem S1024x1024 .bf16) (harg14 : arg14.IsWhole)
    (arg15 : Memref sig .tc .vmem S256x1024 .f32) (harg15 : arg15.IsWhole)
    (x0 : Vec F S256x1024 .f32) (x1 x2 x3 x4 x5 x6 x7 x8 x9 : Vec F S1x1024 .f32)
    (x10 x11 x12 x13 : Vec F S1024x1024 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare (out6_14 x0 x1 x2 x3 x4 x5 x6 x7 x8 x9 x10 x11 x12 x13)) -∗ K ⟨⟩))
      ⊢ wp frame (wpE (defs₀ (F := F)) Variants.none c none) E
          (cc6_attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  sl_unfold [cc6_attn_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover6_14 _)

/-! ## The pipeline's proof data -/

/-- The proof data of pipeline 6 on core `c`: the arrays as the region finds them; after the body at point `t` each
    input's buffer at its block and the output's at `out6_14` of the input blocks; the invariant the launch's own
    (the scoped rest and the generator register, untouched); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => iblk6 V c 11 t
    | ⟨12, _⟩ => iblk6 V c 12 t
    | ⟨13, _⟩ => iblk6 V c 13 t
    | ⟨14, _⟩ => out6_14 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window: an input's block, and the output's one store. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = iblk6 V c 10 t := by dsimp only [dat6]
theorem after6_11 (c : Dev nD) (t : Fin cfg6.N) : (dat6 V c).after 11 t = iblk6 V c 11 t := by dsimp only [dat6]
theorem after6_12 (c : Dev nD) (t : Fin cfg6.N) : (dat6 V c).after 12 t = iblk6 V c 12 t := by dsimp only [dat6]
theorem after6_13 (c : Dev nD) (t : Fin cfg6.N) : (dat6 V c).after 13 t = iblk6 V c 13 t := by dsimp only [dat6]
theorem after6_14 (c : Dev nD) (t : Fin cfg6.N) :
    (dat6 V c).after 14 t = out6_14 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) := by
  dsimp only [dat6]

/-- Each input's current staging buffer holds its block at every point, brought in there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d
theorem before6_10 (c : Dev nD) (t : Fin cfg6.N) (d) : (dat6 V c).before 10 t d = iblk6 V c 10 t :=
  before6_10_of V (dat6 V c) (A_eq6 V c 10) (after6_10 V c) t d
theorem before6_11 (c : Dev nD) (t : Fin cfg6.N) (d) : (dat6 V c).before 11 t d = iblk6 V c 11 t :=
  before6_11_of V (dat6 V c) (A_eq6 V c 11) (after6_11 V c) t d
theorem before6_12 (c : Dev nD) (t : Fin cfg6.N) (d) : (dat6 V c).before 12 t d = iblk6 V c 12 t :=
  before6_12_of V (dat6 V c) (A_eq6 V c 12) (after6_12 V c) t d
theorem before6_13 (c : Dev nD) (t : Fin cfg6.N) (d) : (dat6 V c).before 13 t d = iblk6 V c 13 t :=
  before6_13_of V (dat6 V c) (A_eq6 V c 13) (after6_13 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d))
    ∗ (∃ d, owns (c : Thread nD τ) (st6_11 t) fullShare ((dat6 V c).before 11 t d))
    ∗ (∃ d, owns (c : Thread nD τ) (st6_12 t) fullShare ((dat6 V c).before 12 t d))
    ∗ (∃ d, owns (c : Thread nD τ) (st6_13 t) fullShare ((dat6 V c).before 13 t d))
    ∗ (∃ d, owns (c : Thread nD τ) (st6_14 t) fullShare ((dat6 V c).before 14 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t)
    ∗ owns (c : Thread nD τ) (st6_11 t) fullShare ((dat6 V c).after 11 t)
    ∗ owns (c : Thread nD τ) (st6_12 t) fullShare ((dat6 V c).after 12 t)
    ∗ owns (c : Thread nD τ) (st6_13 t) fullShare ((dat6 V c).after 13 t)
    ∗ owns (c : Thread nD τ) (st6_14 t) fullShare ((dat6 V c).after 14 t))

set_option maxHeartbeats 1000000 in
/-- The body at any point: the inputs' memrefs hold their blocks, so the body's triple applies at those blocks; the
    invariant and the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9, before6_10, before6_11, before6_12, before6_13]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10, after6_11, after6_12, after6_13, after6_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel6 c Set.univ _ _ _ _ _ _ _ _ _ _ _ _ _ _ _ _ _ _ _ _ _ _ _ _ _ _ _ _ _ _ _
    (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's ends, the shares, the debts -/

/-- The invariant before the first point is what the launch hands the kernel, -/
theorem Phi6_in (c : Dev nD) :
    (Pipeline.ΦA (U := UR sig nD τ) (Val := Elt F) spec6 c : sProp 𝕄) ⊢ (dat6 V c).Φ 0 := .rfl

/-- and after the last point what the launch takes back. -/
theorem Phi6_out (c : Dev nD) :
    (dat6 V c).Φ (Fin.last cfg6.N) ⊢ (Pipeline.ΦA (U := UR sig nD τ) (Val := Elt F) spec6 c : sProp 𝕄) := .rfl

theorem share6 (c : Dev nD) : ∀ w, (dat6 V c).q w = fullShare := fun _ => rfl
theorem owed6 (c : Dev nD) : ∀ t, (dat6 V c).owed t = 0 := fun _ => rfl

/-- The proof data records every pair of cells (the structure's default): nothing is excluded from what the core may be owed. -/
theorem recorded6 (c : Dev nD) : ∀ t, (dat6 V c).recorded t = Set.univ := fun _ => rfl

end Cert.KernelIdeal.Hand

end
-- ==== Proof.Region7.lean ====
/- Region 1 of the program's main function: the second TensorCore call (the feed-forward kernel), at a parameter `V`,
   the TensorCore's buffer contents when the region is entered. The call runs on a grid of 32 points, 8 row tiles by 4
   chunks; it carries two scratch buffers from point to point (an accumulator, and a second buffer
   filled at a tile's first chunk and read at its last) and stores its output block at the last chunk of each tile. This module gives: each window's
   block at a point; the body's triple in each of the three cases of its two conditionals; what the scratch buffers
   hold before each point, by recursion on the point; the pipeline's proof data, whose invariant holds the scratch
   buffers at those contents; the body obligation; and the passage from the class's invariant into this one and back. -/
import proofs.«415492_j738734375128_3_alg».proof.Proof.Gen.KernelIdeal.Launch
import proofs.«415492_j738734375128_3_alg».proof.Proof.Gen.KernelIdeal.Skeleton
import proofs.«415492_j738734375128_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: custom_call 7, `cc7_ffn_kernel` (pipeline 7), at the entry contents `V`

The grid has 32 points: 8 row tiles times 4 chunks, the chunk the fast coordinate. Windows 0 to 8
are inputs, window 9 the output, written back at the points of chunk 3. Two scratch buffers are carried from point to
point: an accumulator, zeroed at chunk 0 and added to at every chunk, and a second buffer filled at chunk 0 and read
at chunk 3. -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof data
    whose array is `V`'s and whose body leaves the block in place: unfetched, the block index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof data
    whose array is `V`'s and whose body leaves the block in place: unfetched, the block index has not moved. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof data
    whose array is `V`'s and whose body leaves the block in place: unfetched, the block index has not moved. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof data
    whose array is `V`'s and whose body leaves the block in place: unfetched, the block index has not moved. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof data
    whose array is `V`'s and whose body leaves the block in place: unfetched, the block index has not moved. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not, for any proof data
    whose array is `V`'s and whose body leaves the block in place: unfetched, the block index has not moved. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not, for any proof data
    whose array is `V`'s and whose body leaves the block in place: unfetched, the block index has not moved. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- Input window 7's current staging buffer holds its block at every point, fetched there or not, for any proof data
    whose array is `V`'s and whose body leaves the block in place: unfetched, the block index has not moved. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- Input window 8's current staging buffer holds its block at every point, fetched there or not, for any proof data
    whose array is `V`'s and whose body leaves the block in place: unfetched, the block index has not moved. -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-! ## The two conditionals, decided over the grid -/

/-- The first conditional's condition (the chunk coordinate is 0), as the body computes it from the grid coordinates. -/
abbrev cond7_0 (i : grid7.Coords) : Prop := (Scalar.cmpi .ne (Scalar.extui (Scalar.cmpi .eq (BitVec.ofNat 32 (i 1).val) 0#32)) 0#32) = 1#1
/-- It holds exactly at the points ≡ 0 (mod 4). -/
theorem hcond7_0 : ∀ t : Fin cfg7.N, cond7_0 (grid7.coords t) ↔ t.val % 4 = 0 :=
  (by decide +kernel : ∀ t : Fin grid7.N, cond7_0 (grid7.coords t) ↔ t.val % 4 = 0)
/-- The second conditional's condition (the chunk coordinate is 3). -/
abbrev cond7_1 (i : grid7.Coords) : Prop := k7_cond2 i = 1#1
/-- It holds exactly at the points ≡ 3 (mod 4). -/
theorem hcond7_1 : ∀ t : Fin cfg7.N, cond7_1 (grid7.coords t) ↔ t.val % 4 = 3 :=
  (by decide +kernel : ∀ t : Fin grid7.N, cond7_1 (grid7.coords t) ↔ t.val % 4 = 3)

/-! ## The body's triple, one per case of the conditionals -/
set_option maxHeartbeats 1000000 in
/-- The body at a point of chunk 0, on whole memrefs: the inputs at their read contents, the output buffer and both
    scratch buffers at anything. It refills the second scratch from the inputs, zeroes the accumulator and adds the
    chunk's partial product to it; the output buffer is not touched. -/
theorem sound_kernel7_A (c : Dev nD) (E : Set ℕ) (i : grid7.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : cond7_0 i) (hlc : ¬cond7_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare (k7_pay3 (k7_pay10 xa xb xc xe) (k7_pay11 xd xe) xg k7_pay2 xi) ∗ owns (c : Thread nD τ) arg13 fullShare (k7_pay1 (k7_pay6 xa xb xc) (k7_pay7 xd) (k7_pay9 xf) xh)) -∗ K ⟨⟩))
      ⊢ wp frame (wpE (defs₀ (F := F)) Variants.none c none) E (cc7_ffn_kernel i arg2 harg2 arg3 harg3 arg4 harg4 arg5 harg5 arg6 harg6 arg7 harg7 arg8 harg8 arg9 harg9 arg10 harg10 arg11 harg11 arg12 harg12 arg13 harg13) K := by
  simp only [cc7_ffn_kernel_eq_skeleton]; unfold cc7_ffn_kernel_skel
  simp only [k7_part1_eq_skeleton]; unfold k7_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists _; isplitr
  swap; · iexact Hl
  ipureintro
  refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
  sl_unfold_run_names
  simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]

set_option maxHeartbeats 1000000 in
/-- The body at a point of chunk 1 or 2: the accumulator at `a` gains the chunk's partial product; the second scratch
    and the output buffer are not touched. -/
theorem sound_kernel7_B (c : Dev nD) (E : Set ℕ) (i : grid7.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : ¬cond7_0 i) (hlc : ¬cond7_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare (k7_pay3 (k7_pay10 xa xb xc xe) (k7_pay11 xd xe) xg a xi) ∗ owns (c : Thread nD τ) arg13 fullShare r) -∗ K ⟨⟩))
      ⊢ wp frame (wpE (defs₀ (F := F)) Variants.none c none) E (cc7_ffn_kernel i arg2 harg2 arg3 harg3 arg4 harg4 arg5 harg5 arg6 harg6 arg7 harg7 arg8 harg8 arg9 harg9 arg10 harg10 arg11 harg11 arg12 harg12 arg13 harg13) K := by
  simp only [cc7_ffn_kernel_eq_skeleton]; unfold cc7_ffn_kernel_skel
  simp only [k7_part1_eq_skeleton]; unfold k7_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists fl; isplitr; · ipureintro; rfl
  iexact Hl

set_option maxHeartbeats 1000000 in
/-- The body at a point of chunk 3: the accumulator gains the last partial product, and the output buffer is stored
    whole, from the input block, the second scratch and the finished accumulator. -/
theorem sound_kernel7_C (c : Dev nD) (E : Set ℕ) (i : grid7.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : ¬cond7_0 i) (hlc : cond7_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare (k7_pay4 (k7_pay5 xa) r (k7_pay3 (k7_pay10 xa xb xc xe) (k7_pay11 xd xe) xg a xi)) ∗ owns (c : Thread nD τ) arg12 fullShare (k7_pay3 (k7_pay10 xa xb xc xe) (k7_pay11 xd xe) xg a xi) ∗ owns (c : Thread nD τ) arg13 fullShare r) -∗ K ⟨⟩))
      ⊢ wp frame (wpE (defs₀ (F := F)) Variants.none c none) E (cc7_ffn_kernel i arg2 harg2 arg3 harg3 arg4 harg4 arg5 harg5 arg6 harg6 arg7 harg7 arg8 harg8 arg9 harg9 arg10 harg10 arg11 harg11 arg12 harg12 arg13 harg13) K := by
  simp only [cc7_ffn_kernel_eq_skeleton]; unfold cc7_ffn_kernel_skel
  simp only [k7_part1_eq_skeleton]; unfold k7_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists _; isplitr
    swap; · iexact Hj
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists fl; isplitr; · ipureintro; rfl
  iexact Hl

/-! ## The carried scratch, point by point -/

/-- What the two scratch buffers hold BEFORE point `n` (after point `n - 1`), as the pair (accumulator, second
    buffer), by recursion on the point: a point of chunk 0 refills the second buffer from its input blocks and leaves
    the accumulator at the chunk's partial product over zero; any other point keeps the second buffer and adds its
    partial product to the accumulator. Before a point of chunk 0 the value is never read (the body overwrites both
    buffers there before loading them). -/
def sc7 (c : Dev nD) : ℕ → Vec F S256x1024 .f32 × Vec F S256x1024 .f32
  | 0 => (k7_pay2, k7_pay2)
  | n + 1 =>
    if h : n < cfg7.N then
      if n % 4 = 0 then
        ((k7_pay3 (k7_pay10 (iblk7 V c 0 ⟨n, h⟩) (iblk7 V c 1 ⟨n, h⟩) (iblk7 V c 2 ⟨n, h⟩) (iblk7 V c 4 ⟨n, h⟩)) (k7_pay11 (iblk7 V c 3 ⟨n, h⟩) (iblk7 V c 4 ⟨n, h⟩)) (iblk7 V c 6 ⟨n, h⟩) k7_pay2 (iblk7 V c 8 ⟨n, h⟩)),
          (k7_pay1 (k7_pay6 (iblk7 V c 0 ⟨n, h⟩) (iblk7 V c 1 ⟨n, h⟩) (iblk7 V c 2 ⟨n, h⟩)) (k7_pay7 (iblk7 V c 3 ⟨n, h⟩)) (k7_pay9 (iblk7 V c 5 ⟨n, h⟩)) (iblk7 V c 7 ⟨n, h⟩)))
      else
        ((k7_pay3 (k7_pay10 (iblk7 V c 0 ⟨n, h⟩) (iblk7 V c 1 ⟨n, h⟩) (iblk7 V c 2 ⟨n, h⟩) (iblk7 V c 4 ⟨n, h⟩)) (k7_pay11 (iblk7 V c 3 ⟨n, h⟩) (iblk7 V c 4 ⟨n, h⟩)) (iblk7 V c 6 ⟨n, h⟩) (sc7 c n).1 (iblk7 V c 8 ⟨n, h⟩)),
          (sc7 c n).2)
    else sc7 c n

/-- After a point of chunk 0: the accumulator is the chunk's partial product over zero, the second buffer is refilled. -/
theorem sc7_zero_chunk (c : Dev nD) (t : Fin cfg7.N) (h : t.val % 4 = 0) :
    sc7 V c (t.val + 1) = ((k7_pay3 (k7_pay10 (iblk7 V c 0 t) (iblk7 V c 1 t) (iblk7 V c 2 t) (iblk7 V c 4 t)) (k7_pay11 (iblk7 V c 3 t) (iblk7 V c 4 t)) (iblk7 V c 6 t) k7_pay2 (iblk7 V c 8 t)),
      (k7_pay1 (k7_pay6 (iblk7 V c 0 t) (iblk7 V c 1 t) (iblk7 V c 2 t)) (k7_pay7 (iblk7 V c 3 t)) (k7_pay9 (iblk7 V c 5 t)) (iblk7 V c 7 t))) := by
  obtain ⟨n, hn⟩ := t
  show sc7 V c (n + 1) = _
  rw [sc7, dif_pos hn, if_pos h]

/-- After a point of any other chunk: the accumulator has gained the chunk's partial product, the second buffer is kept. -/
theorem sc7_succ (c : Dev nD) (t : Fin cfg7.N) (h : ¬t.val % 4 = 0) :
    sc7 V c (t.val + 1) = ((k7_pay3 (k7_pay10 (iblk7 V c 0 t) (iblk7 V c 1 t) (iblk7 V c 2 t) (iblk7 V c 4 t)) (k7_pay11 (iblk7 V c 3 t) (iblk7 V c 4 t)) (iblk7 V c 6 t) (sc7 V c t.val).1 (iblk7 V c 8 t)),
      (sc7 V c t.val).2) := by
  obtain ⟨n, hn⟩ := t
  show sc7 V c (n + 1) = _
  rw [sc7, dif_pos hn, if_neg h]

/-- What a point of chunk 3 stores into the output window's buffer: from the point's block of window 0, the second
    scratch buffer and the accumulator as that point leaves them. -/
def out7_9 (c : Dev nD) (t : Fin cfg7.N) : Vec F S256x1024 .f32 :=
  k7_pay4 (k7_pay5 (iblk7 V c 0 t)) (sc7 V c (t.val + 1)).2 (sc7 V c (t.val + 1)).1

/-- The region invariant before point `n`: the two scratch buffers — at anything before a point of chunk 0, which
    overwrites them, else at `sc7` —, the rest of the core's scoped buffers unopened, the generator register at some
    state. -/
def Phi7 (c : Dev nD) (n : ℕ) : sProp 𝕄 :=
  iprop(iprop((if n % 4 = 0 then
        (iprop((∃ X, owns (c : Thread nD τ) (Memref.whole cc7_scratch0) fullShare X) ∗ (∃ X, owns (c : Thread nD τ) (Memref.whole cc7_scratch1) fullShare X)) : sProp 𝕄)
      else iprop(owns (c : Thread nD τ) (Memref.whole cc7_scratch0) fullShare (sc7 V c n).1 ∗ owns (c : Thread nD τ) (Memref.whole cc7_scratch1) fullShare (sc7 V c n).2))
    ∗ Pipeline.scopedRestBut (Ix := Unit) (Name := ℕ) (U := UR sig nD τ) (Lvl := ℕ) (Val := Elt F) spec7 c [cc7_scratch0, cc7_scratch1]) ∗ ∃ r, prngReg c r)

/-! ## The pipeline's proof data -/

/-- The proof data of pipeline 7 on core `c`: the arrays as the region finds them (`V`); after the body at point `t`
    each input's buffer at its block and the output's at `out7_9` (read only at the points of chunk 3: elsewhere the
    window is idle and not written back); the invariant `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7_9 V c t
  Φ t := Phi7 V c t.val
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9_all (c : Dev nD) (t : Fin cfg7.N) : (dat7 V c).after 9 t = out7_9 V c t := by dsimp only [dat7]
theorem after7_9 (c : Dev nD) (t : Fin cfg7.N) (h : t.val % 4 = 3) : (dat7 V c).after 9 t = out7_9 V c t := after7_9_all V c t

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d

/-- The invariant at a point's start and at its end, restated at the point's number. -/
theorem Phi7_castSucc (c : Dev nD) (t : Fin cfg7.N) : (dat7 V c).Φ t.castSucc = Phi7 V c t.val := rfl
theorem Phi7_succ (c : Dev nD) (t : Fin cfg7.N) : (dat7 V c).Φ t.succ = Phi7 V c (t.val + 1) := rfl

/-- Off chunk 3 the output window is idle and not written back: the obligation hands its buffer back as found. -/
theorem leaves7_9_idle (c : Dev nD) (t : Fin cfg7.N) (h : ¬cond7_1 (grid7.coords t)) :
    (dat7 V c).leavesExact 9 t = iprop(∃ d, owns (c : Thread nD τ) (st7_9 t) fullShare ((dat7 V c).before 9 t d)) :=
  (dat7 V c).leavesExact_idle 9 t
    (by show (!(k7_cond2 (grid7.coords t) == 1#1)) = true
        rw [Bool.not_eq_true', beq_eq_false_iff_ne]; exact h)
    (Bool.eq_false_iff.mpr fun hfl => h ((hcond7_1 t).mpr ((flush7_9 t).mp hfl)))

/-- At chunk 3 it is live: its buffer is left at what the body stored. -/
theorem leaves7_9_live (c : Dev nD) (t : Fin cfg7.N) (h : cond7_1 (grid7.coords t)) :
    (dat7 V c).leavesExact 9 t = owns (c : Thread nD τ) (st7_9 t) fullShare ((dat7 V c).after 9 t) := by
  have hi : cfg7.idle 9 (cfg7.grid.coords t) = false := by
    show (!(k7_cond2 (grid7.coords t) == 1#1)) = false
    rw [Bool.not_eq_false', beq_iff_eq]; exact h
  unfold Dat.leavesExact; rw [hi]

/-! ## The body obligation, at a generic point -/

/-- What the body is called with at point `t`: the invariant, what the core owes, every window's current buffer. -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d)))

/-- What it returns: the invariant at the next point, the inputs' buffers as they were, the output's as the window's
    schedule has it (stored at chunk 3, handed back as found elsewhere). -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ (dat7 V c).leavesExact 9 t)

set_option maxHeartbeats 1000000 in
/-- The body at any point, by the point's chunk: the inputs' memrefs hold their blocks, the scratch buffers what the
    invariant says, so that chunk's triple applies; what it leaves in the scratch buffers is the invariant at the
    next point (`sc7`'s recursion), forgotten again after chunk 3. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8]
  rw [show (dat7 V c).owesAt () t.succ = (dat7 V c).owesAt () t.castSucc from rfl,
    after7_0, after7_1, after7_2, after7_3, after7_4, after7_5, after7_6, after7_7, after7_8, Phi7_castSucc, Phi7_succ]
  unfold Phi7
  by_cases hA : t.val % 4 = 0
  · have hzc : cond7_0 (grid7.coords t) := (hcond7_0 t).mpr hA
    have hlc : ¬cond7_1 (grid7.coords t) := fun h => by have := (hcond7_1 t).mp h; omega
    rw [leaves7_9_idle V c t hlc, if_pos hA, if_neg (show ¬(t.val + 1) % 4 = 0 by omega), sc7_zero_chunk V c t hA]
    iintro ⟨⟨⟨⟨⟨%gacc, Hacc⟩, ⟨%grr, Hrr⟩⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply (sound_kernel7_A c Set.univ _ _ _ _ _ _ _ _ _ _ _ _ _ _ _ _ _ _ _ _ _ _ _ _ _ hzc hlc (iblk7 V c 0 t) (iblk7 V c 1 t) (iblk7 V c 2 t) (iblk7 V c 3 t) (iblk7 V c 4 t) (iblk7 V c 5 t) (iblk7 V c 6 t) (iblk7 V c 7 t) (iblk7 V c 8 t) _ _ _ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    isplitl [Hi]; · iexact Hi
    isplitl [Hj]; · iexact Hj
    isplitl [Hacc]; · iexact Hacc
    isplitl [Hrr]; · iexact Hrr
    iintro ⟨Ha, Hb, Hc, Hd, He, Hf, Hg, Hh, Hi, Hj, Hacc, Hrr⟩
    isplitl [Hacc Hrr Hrest Hp]
    · isplitr [Hp]
      · isplitr [Hrest]
        · isplitl [Hacc]; · iexact Hacc
          iexact Hrr
        · iexact Hrest
      · iexact Hp
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    isplitl [Hi]; · iexact Hi
    iexists dj; iexact Hj

  · have hzc : ¬cond7_0 (grid7.coords t) := fun h => hA ((hcond7_0 t).mp h)
    by_cases hC : t.val % 4 = 3
    · have hlc : cond7_1 (grid7.coords t) := (hcond7_1 t).mpr hC
      rw [leaves7_9_live V c t hlc, after7_9_all, if_neg hA, if_pos (show (t.val + 1) % 4 = 0 by omega)]
      iintro ⟨⟨⟨⟨Hacc, Hrr⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
      iapply (sound_kernel7_C c Set.univ _ _ _ _ _ _ _ _ _ _ _ _ _ _ _ _ _ _ _ _ _ _ _ _ _ hzc hlc (iblk7 V c 0 t) (iblk7 V c 1 t) (iblk7 V c 2 t) (iblk7 V c 3 t) (iblk7 V c 4 t) (iblk7 V c 5 t) (iblk7 V c 6 t) (iblk7 V c 7 t) (iblk7 V c 8 t) _ _ _ _)
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [Hj]; · iexact Hj
      isplitl [Hacc]; · iexact Hacc
      isplitl [Hrr]; · iexact Hrr
      iintro ⟨Ha, Hb, Hc, Hd, He, Hf, Hg, Hh, Hi, Hj, Hacc, Hrr⟩
      isplitl [Hacc Hrr Hrest Hp]
      · isplitr [Hp]
        · isplitr [Hrest]
          · isplitl [Hacc]
            · iexists _; iexact Hacc
            iexists _; iexact Hrr
          · iexact Hrest
        · iexact Hp
      isplitl [Ho]; · iexact Ho
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      unfold out7_9; rw [sc7_succ V c t hA]
      iexact Hj

    · have hlc : ¬cond7_1 (grid7.coords t) := fun h => hC ((hcond7_1 t).mp h)
      rw [leaves7_9_idle V c t hlc, if_neg hA, if_neg (show ¬(t.val + 1) % 4 = 0 by omega), sc7_succ V c t hA]
      iintro ⟨⟨⟨⟨Hacc, Hrr⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
      iapply (sound_kernel7_B c Set.univ _ _ _ _ _ _ _ _ _ _ _ _ _ _ _ _ _ _ _ _ _ _ _ _ _ hzc hlc (iblk7 V c 0 t) (iblk7 V c 1 t) (iblk7 V c 2 t) (iblk7 V c 3 t) (iblk7 V c 4 t) (iblk7 V c 5 t) (iblk7 V c 6 t) (iblk7 V c 7 t) (iblk7 V c 8 t) _ _ _ _)
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [Hj]; · iexact Hj
      isplitl [Hacc]; · iexact Hacc
      isplitl [Hrr]; · iexact Hrr
      iintro ⟨Ha, Hb, Hc, Hd, He, Hf, Hg, Hh, Hi, Hj, Hacc, Hrr⟩
      isplitl [Hacc Hrr Hrest Hp]
      · isplitr [Hp]
        · isplitr [Hrest]
          · isplitl [Hacc]; · iexact Hacc
            iexact Hrr
          · iexact Hrest
        · iexact Hp
      isplitl [Ho]; · iexact Ho
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      iexists dj; iexact Hj

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Into the invariant and out of it -/

/-- The class's invariant gives the invariant before the first point: the scoped rest split at the two scratch buffers,
    each at whatever it holds. -/
theorem Phi7_in (c : Dev nD) : (Pipeline.ΦA (U := UR sig nD τ) (Val := Elt F) spec7 c : sProp 𝕄) ⊢ (dat7 V c).Φ 0 := by
  show _ ⊢ Phi7 V c 0
  unfold Pipeline.ΦA Phi7
  rw [scopedRest7_split, if_pos (Nat.zero_mod 4)]
  iintro ⟨⟨⟨⟨%gacc, Hacc⟩, ⟨%grr, Hrr⟩⟩, Hrest⟩, Hp⟩
  isplitr [Hp]
  · isplitr [Hrest]
    · isplitl [Hacc]
      · iexists gacc; rw [owns_whole]; iexact Hacc
      · iexists grr; rw [owns_whole]; iexact Hrr
    · iexact Hrest
  · iexact Hp

/-- After the last point (of chunk 3) the scratch buffers' contents are forgotten: the class's invariant again. -/
theorem Phi7_out (c : Dev nD) : (dat7 V c).Φ (Fin.last cfg7.N) ⊢ (Pipeline.ΦA (U := UR sig nD τ) (Val := Elt F) spec7 c : sProp 𝕄) := by
  show Phi7 V c cfg7.N ⊢ _
  unfold Pipeline.ΦA Phi7
  rw [scopedRest7_split, if_pos (show cfg7.N % 4 = 0 by rw [show cfg7.N = 32 from N_7])]
  iintro ⟨⟨⟨⟨%gacc, Hacc⟩, ⟨%grr, Hrr⟩⟩, Hrest⟩, Hp⟩
  isplitr [Hp]
  · isplitr [Hrest]
    · isplitl [Hacc]
      · iexists gacc; rw [← owns_whole]; iexact Hacc
      · iexists grr; rw [← owns_whole]; iexact Hrr
    · iexact Hrest
  · iexact Hp

theorem share7 (c : Dev nD) : ∀ w, (dat7 V c).q w = fullShare := fun _ => rfl
theorem owed7 (c : Dev nD) : ∀ t, (dat7 V c).owed t = 0 := fun _ => rfl
theorem recorded7 (c : Dev nD) : ∀ t, (dat7 V c).recorded t = Set.univ := fun _ => rfl

end Cert.KernelIdeal.Hand

end
-- ==== Proof.Region8.lean ====
/- REGION 8 of @main: custom_call 8, `cc8_head_kernel` (pipeline 8), at the region-entry contents `V`.
   The grid is one axis of 99 points. Window 0 (the activations, 2048×1024, bf16) is the whole array, fetched at
   the first point; window 1 (the weight tile, 512×1024, bf16) is row block `i` of the padded weight matrix.
   At point `i` the body computes the tile of logits x·wᵀ (2048×512, f32), replaces the columns whose global
   index `i·512 + j` is not below the vocabulary size by a large negative constant, and stores three results:
   window 2, the masked tile rounded to bf16; window 3, the tile's maximum broadcast over an 8×128 block;
   window 4, the sum over the tile of exp(logit − maximum) on the unmasked columns, broadcast likewise.
   The arithmetic reads the grid coordinate (the column base `i·512`), so each output is a function of the
   coordinate and of the two input blocks. Every store is of its window's whole block, so what the body leaves
   in an output's buffer is the canon of that one store. -/
import proofs.«415492_j738734375128_3_alg».proof.Proof.Gen.KernelIdeal.Launch
import proofs.«415492_j738734375128_3_alg».proof.Proof.Gen.KernelIdeal.Skeleton
import proofs.«415492_j738734375128_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place: unfetched, the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's likewise. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each the whole of its buffer -/

abbrev r8_0 : Rect S2048x1024 := Rect.unit (s := S2048x1024) ![0, 0] S2048x1024.size inb_S2048x1024_S2048x1024_0_0
abbrev r8_1 : Rect S512x1024 := Rect.unit (s := S512x1024) ![0, 0] S512x1024.size inb_S512x1024_S512x1024_0_0
abbrev r8_2 : Rect S2048x512 := Rect.unit (s := S2048x512) ![0, 0] S2048x512.size inb_S2048x512_S2048x512_0_0
abbrev r8_3 : Rect S1x8x128 := Rect.unit (s := S1x8x128) ![0, 0, 0] S1x8x128.size inb_S1x8x128_S1x8x128_0_0_0

/-! ## What the body leaves in each output window's buffer -/

/-- Window 2's staging buffer after the body at coordinate `i`, from the input windows' blocks: the masked
    logits tile rounded to bf16, stored whole. -/
def out8_2 (i : grid8.Coords) (x0 : Vec F S2048x1024 .bf16) (x1 : Vec F S512x1024 .bf16) : Vec F S2048x512 .bf16 :=
  View.canon [⟨r8_2, k8_pay4 i (View.ld x0 r8_0) (View.ld x1 r8_1)⟩]

/-- Window 3's: the tile's maximum, broadcast, stored whole. -/
def out8_3 (i : grid8.Coords) (x0 : Vec F S2048x1024 .bf16) (x1 : Vec F S512x1024 .bf16) : Vec F S1x8x128 .f32 :=
  View.canon [⟨r8_3, k8_pay6 i (View.ld x0 r8_0) (View.ld x1 r8_1)⟩]

/-- Window 4's: the tile's sum of exponentials about that maximum, broadcast, stored whole. -/
def out8_4 (i : grid8.Coords) (x0 : Vec F S2048x1024 .bf16) (x1 : Vec F S512x1024 .bf16) : Vec F S1x8x128 .f32 :=
  View.canon [⟨r8_3, k8_pay1 (k8_pay7 i (View.ld x0 r8_0) (View.ld x1 r8_1))⟩]

/-- One store of the whole block tiles it, so it covers it. -/
theorem cover8_2 (p0 : Vec F S2048x512 .bf16) (y : S2048x512.Idx) :
    ∃ pc ∈ ([⟨r8_2, p0⟩] : List (View.Piece (Elt F) S2048x512 .bf16)), y ∈ pc.1.set :=
  View.cover_of_tiled [⟨r8_2, p0⟩] S2048x512.size (by rfl) y

theorem cover8_3 (p0 : Vec F S1x8x128 .f32) (y : S1x8x128.Idx) :
    ∃ pc ∈ ([⟨r8_3, p0⟩] : List (View.Piece (Elt F) S1x8x128 .f32)), y ∈ pc.1.set :=
  View.cover_of_tiled [⟨r8_3, p0⟩] S1x8x128.size (by rfl) y

/-! ## The body's triple -/

set_option maxHeartbeats 4000000 in
/-- The kernel body at coordinate `i` on whole staging memrefs, the inputs' at read contents `x0`, `x1` and the
    outputs' at anything, runs to the continuation holding the inputs' as they were and each output's at its
    `out8_w` of the coordinate and the inputs'. -/
theorem sound_kernel8 (c : Dev nD) (E : Set ℕ) (i : grid8.Coords)
    (arg1 : Memref sig .tc .vmem S2048x1024 .bf16) (harg1 : arg1.IsWhole) (arg2 : Memref sig .tc .vmem S512x1024 .bf16) (harg2 : arg2.IsWhole)
    (arg3 : Memref sig .tc .vmem S2048x512 .bf16) (harg3 : arg3.IsWhole) (arg4 : Memref sig .tc .vmem S1x8x128 .f32) (harg4 : arg4.IsWhole)
    (arg5 : Memref sig .tc .vmem S1x8x128 .f32) (harg5 : arg5.IsWhole)
    (x0 : Vec F S2048x1024 .bf16) (x1 : Vec F S512x1024 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (out8_2 i x0 x1) ∗ owns (c : Thread nD τ) arg4 fullShare (out8_3 i x0 x1)
            ∗ owns (c : Thread nD τ) arg5 fullShare (out8_4 i x0 x1)) -∗ K ⟨⟩))
      ⊢ wp frame (wpE (defs₀ (F := F)) Variants.none c none) E (cc8_head_kernel i arg1 harg1 arg2 harg2 arg3 harg3 arg4 harg4 arg5 harg5) K := by
  simp only [cc8_head_kernel_eq_skeleton]; unfold cc8_head_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover8_2 _)
  isplitl [H3]
  · iexists _; isplitr
    swap; · iexact H3
    ipureintro
    exact View.read_writes_eq_canon _ _ _ (cover8_3 _)
  iexists _; isplitr
  swap; · iexact H4
  ipureintro
  exact View.read_writes_eq_canon _ _ _ (cover8_3 _)

/-! ## The pipeline's proof data -/

/-- The proof data of pipeline 8 on core `c`: the arrays as the region finds them (`V`); after the body at point
    `t` each input's buffer at its block and each output's at `out8_w` of the point's coordinate and the input
    blocks; the invariant the scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (cfg8.grid.coords t) (iblk8 V c 0 t) (iblk8 V c 1 t)
    | ⟨3, _⟩ => out8_3 (cfg8.grid.coords t) (iblk8 V c 0 t) (iblk8 V c 1 t)
    | ⟨4, _⟩ => out8_4 (cfg8.grid.coords t) (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) :
    (dat8 V c).after 2 t = out8_2 (cfg8.grid.coords t) (iblk8 V c 0 t) (iblk8 V c 1 t) := by dsimp only [dat8]
theorem after8_3 (c : Dev nD) (t : Fin cfg8.N) :
    (dat8 V c).after 3 t = out8_3 (cfg8.grid.coords t) (iblk8 V c 0 t) (iblk8 V c 1 t) := by dsimp only [dat8]
theorem after8_4 (c : Dev nD) (t : Fin cfg8.N) :
    (dat8 V c).after 4 t = out8_4 (cfg8.grid.coords t) (iblk8 V c 0 t) (iblk8 V c 1 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

theorem share8 (c : Dev nD) : ∀ w, (dat8 V c).q w = fullShare := fun _ => rfl
theorem owed8 (c : Dev nD) : ∀ t, (dat8 V c).owed t = 0 := fun _ => rfl

/-- The invariant is the class's at both ends of the region. -/
theorem Phi8_in (c : Dev nD) :
    (Pipeline.ΦA (U := UR sig nD τ) (Val := Elt F) spec8 c : sProp 𝕄) ⊢ (dat8 V c).Φ 0 := .rfl
theorem Phi8_out (c : Dev nD) :
    (dat8 V c).Φ (Fin.last cfg8.N) ⊢ (Pipeline.ΦA (U := UR sig nD τ) (Val := Elt F) spec8 c : sProp 𝕄) := .rfl

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' memrefs hold their blocks, so the body's triple applies at the point's
    coordinate; the invariant and the core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ (grid8.coords t) _ _ _ _ _ _ _ _ _ _ (iblk8 V c 0 t) (iblk8 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation8 (c : Dev nD) : BodyObligation (dat8 (F := F) V c) (defs₀ (F := F)) Variants.none () Set.univ := fun t => by
  rw [bigSep_W8, bigSep_W8]
  exact sound_body8 V c t

/-- The proof data records every pair of cells (the structure's default): nothing is excluded from what the core may be owed. -/
theorem recorded8 (c : Dev nD) : ∀ t, (dat8 V c).recorded t = Set.univ := fun _ => rfl

end Cert.KernelIdeal.Hand

end
-- ==== Proof.Run.lean ====
/- THE RUN of @main: twenty items from the launch to the return — eleven stretches of host operations and nine regions.
   The buffer contents at every boundary as a fold from the launch memory (a stretch's operations applied in order; a
   region's window arrays at what its write-backs leave, every other buffer as entered); each argument array read back
   through the fold to its launch contents (no stretch writes one, none is a window's array); every pipeline's proof
   data at its region's entry contents; a segment per item over the thread state "every unscoped buffer at the
   boundary's contents, the generator register at some state, nothing owed"; and the run itself at any element type:
   every weakly fair execution terminates, nothing faulting, every final state holding each unscoped buffer at the last
   boundary's contents — whence the argument arrays as launched and the result array at the fold's last value. -/
import proofs.«415492_j738734375128_3_alg».proof.Proof.Region0
import proofs.«415492_j738734375128_3_alg».proof.Proof.Region1
import proofs.«415492_j738734375128_3_alg».proof.Proof.Region2
import proofs.«415492_j738734375128_3_alg».proof.Proof.Region3
import proofs.«415492_j738734375128_3_alg».proof.Proof.Region4
import proofs.«415492_j738734375128_3_alg».proof.Proof.Region5
import proofs.«415492_j738734375128_3_alg».proof.Proof.Region6
import proofs.«415492_j738734375128_3_alg».proof.Proof.Region7
import proofs.«415492_j738734375128_3_alg».proof.Proof.Region8
import proofs.«415492_j738734375128_3_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the host stretches write: no operation allocates a buffer, and each writes one listed reference -/

/-- No operation of `hostOps0` allocates a buffer. -/
theorem hostOps0_fresh : (hostOps0 : List (HloOp τ sig (Elt F))).Forall fun op => op.fresh = ∅ := by
  simp only [List.Forall]; repeat' constructor
/-- The references `hostOps0`'s operations write, in order. -/
abbrev hostOps0_W : List (Ref sig .tc) :=
  [main_c, main_v0, main_v1, main_c_0, main_v2, main_v3, main_v4, main_v5, main_v6, main_cst,
   main_v7, main_v8, main_cst_1, main_v9, main_v10, main_v11, main_v12, main_v13, main_cst_2, main_v14,
   main_v15, main_cst_3, main_v16, main_v17, main_v18, main_v19, main_cst_4, main_v20, main_v21, main_v22,
   main_v23, main_v24, main_v25, main_v26, main_v27, main_v28, main_v29, main_v30, main_v31, main_v32,
   main_v33, main_v34, main_v35, main_v36, main_v37, main_v38, main_v39, main_v40, main_v41, main_v42,
   main_v43, main_v44, main_v45, main_v46, main_v47, main_v48, main_v49, main_v50, main_v51, main_v52,
   main_v53, main_v54, main_v55, main_v56, main_v57, main_v58, main_v59, main_v60, main_v61, main_v62,
   main_v63, main_v64, main_v65, main_v66, main_v67, main_v68, main_v69, main_v70]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps1` allocates a buffer. -/
theorem hostOps1_fresh : (hostOps1 : List (HloOp τ sig (Elt F))).Forall fun op => op.fresh = ∅ := by
  simp only [List.Forall]; repeat' constructor
/-- The references `hostOps1`'s operations write, in order. -/
abbrev hostOps1_W : List (Ref sig .tc) :=
  [main_v72, main_v73, main_v74, main_v75, main_v76, main_v77, main_v78, main_v79, main_v80, main_v81,
   main_v82, main_v83, main_v84, main_v85, main_v86, main_v87, main_v88, main_v89, main_v90, main_v91,
   main_v92, main_v93, main_v94, main_v95]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps2` allocates a buffer. -/
theorem hostOps2_fresh : (hostOps2 : List (HloOp τ sig (Elt F))).Forall fun op => op.fresh = ∅ := by
  simp only [List.Forall]; repeat' constructor
/-- The references `hostOps2`'s operations write, in order. -/
abbrev hostOps2_W : List (Ref sig .tc) :=
  [main_v97, main_v98, main_v99, main_v100, main_v101, main_v102, main_v103, main_v104, main_v105, main_v106,
   main_v107, main_v108, main_v109, main_v110, main_v111, main_v112, main_v113, main_v114, main_v115, main_v116,
   main_v117, main_v118, main_v119, main_v120, main_v121, main_v122, main_v123, main_v124, main_v125, main_v126,
   main_v127, main_v128, main_v129, main_v130, main_v131, main_v132, main_v133, main_v134, main_v135]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps3` allocates a buffer. -/
theorem hostOps3_fresh : (hostOps3 : List (HloOp τ sig (Elt F))).Forall fun op => op.fresh = ∅ := by
  simp only [List.Forall]; repeat' constructor
/-- The references `hostOps3`'s operations write, in order. -/
abbrev hostOps3_W : List (Ref sig .tc) :=
  [main_v137, main_v138, main_v139, main_v140, main_v141, main_v142, main_v143, main_v144, main_v145, main_v146,
   main_v147, main_v148, main_v149, main_v150, main_v151, main_v152, main_v153, main_v154, main_v155, main_v156,
   main_v157, main_v158, main_v159, main_v160]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps4` allocates a buffer. -/
theorem hostOps4_fresh : (hostOps4 : List (HloOp τ sig (Elt F))).Forall fun op => op.fresh = ∅ := by
  simp only [List.Forall]; repeat' constructor
/-- The references `hostOps4`'s operations write, in order. -/
abbrev hostOps4_W : List (Ref sig .tc) :=
  [main_v162, main_v163, main_v164, main_v165, main_v166, main_v167, main_v168, main_v169, main_v170, main_v171,
   main_v172, main_v173, main_v174, main_v175, main_v176, main_v177, main_v178, main_v179, main_v180, main_v181,
   main_v182, main_v183, main_v184, main_v185, main_v186, main_v187, main_v188, main_v189, main_v190, main_v191,
   main_v192, main_v193, main_v194, main_v195, main_v196, main_v197, main_v198, main_v199, main_v200]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps5` allocates a buffer. -/
theorem hostOps5_fresh : (hostOps5 : List (HloOp τ sig (Elt F))).Forall fun op => op.fresh = ∅ := by
  simp only [List.Forall]; repeat' constructor
/-- The references `hostOps5`'s operations write, in order. -/
abbrev hostOps5_W : List (Ref sig .tc) :=
  [main_v202, main_v203, main_v204, main_v205, main_v206, main_v207, main_v208, main_v209, main_v210, main_v211,
   main_v212, main_v213, main_v214, main_v215, main_v216, main_v217, main_v218, main_v219, main_v220, main_v221,
   main_v222, main_v223, main_v224, main_v225]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps6` allocates a buffer. -/
theorem hostOps6_fresh : (hostOps6 : List (HloOp τ sig (Elt F))).Forall fun op => op.fresh = ∅ := by
  simp only [List.Forall]; repeat' constructor
/-- The references `hostOps6`'s operations write, in order. -/
abbrev hostOps6_W : List (Ref sig .tc) :=
  [main_v227, main_v228, main_v229, main_v230, main_v231, main_v232, main_v233, main_v234, main_v235, main_v236,
   main_v237, main_v238, main_v239, main_v240, main_v241, main_v242, main_v243, main_v244, main_v245, main_v246,
   main_v247, main_v248, main_v249, main_v250, main_v251, main_v252, main_v253, main_v254, main_v255, main_v256,
   main_v257, main_v258, main_v259, main_v260, main_v261, main_v262, main_v263, main_v264, main_v265]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps7` allocates a buffer. -/
theorem hostOps7_fresh : (hostOps7 : List (HloOp τ sig (Elt F))).Forall fun op => op.fresh = ∅ := by
  simp only [List.Forall]; repeat' constructor
/-- The references `hostOps7`'s operations write, in order. -/
abbrev hostOps7_W : List (Ref sig .tc) :=
  [main_v267, main_v268, main_v269, main_v270, main_v271, main_v272, main_v273, main_v274, main_v275, main_v276,
   main_v277, main_v278, main_v279, main_v280, main_v281, main_v282, main_v283, main_v284, main_v285, main_v286,
   main_v287, main_v288, main_v289, main_v290]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps8` allocates a buffer. -/
theorem hostOps8_fresh : (hostOps8 : List (HloOp τ sig (Elt F))).Forall fun op => op.fresh = ∅ := by
  simp only [List.Forall]; repeat' constructor
/-- The references `hostOps8`'s operations write, in order. -/
abbrev hostOps8_W : List (Ref sig .tc) :=
  [main_cst_5, main_v292, main_v293, main_cst_6, main_v294, main_v295, main_v296, main_v297, main_v298, main_cst_7,
   main_v299, main_v300, main_cst_8, main_v301, main_v302, main_v303, main_v304, main_cst_9, main_v305, main_v306,
   main_v307, main_v308, main_v309, main_v310, main_v311, main_v312, main_v313, main_v314, main_v315, main_v316,
   main_v317, main_c_10]
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps8_1` allocates a buffer. -/
theorem hostOps8_1_fresh : (hostOps8_1 : List (HloOp τ sig (Elt F))).Forall fun op => op.fresh = ∅ := by
  simp only [List.Forall]; repeat' constructor
/-- The references `hostOps8_1`'s operations write, in order. -/
abbrev hostOps8_1_W : List (Ref sig .tc) :=
  [main_call0_v0, main_v318]
theorem hostOps8_1_writes : (hostOps8_1 : List (HloOp τ sig (Elt F))).Forall fun op => op.writes ⊆ (hostOps8_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps9` allocates a buffer. -/
theorem hostOps9_fresh : (hostOps9 : List (HloOp τ sig (Elt F))).Forall fun op => op.fresh = ∅ := by
  simp only [List.Forall]; repeat' constructor
/-- The references `hostOps9`'s operations write, in order. -/
abbrev hostOps9_W : List (Ref sig .tc) :=
  [main_v320, main_v321, main_v322, main_v323, main_cst_11, main_v324, main_v325, main_v326, main_v327, main_v328,
   main_cst_12, main_v329, main_v330, main_v331, main_v332, main_v333, main_v334, main_v335, main_v336, main_v337]
theorem hostOps9_writes : (hostOps9 : List (HloOp τ sig (Elt F))).Forall fun op => op.writes ⊆ (hostOps9_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! # THE RUN: @main's twenty items from the launch to the return

## The buffer contents at each boundary: a fold through @main -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- A reference `hostOps0` does not write keeps its contents. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- At region 0's exit: its windows' arrays at what the pipeline leaves (an input as entered, an output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- A reference `hostOps1` does not write keeps its contents. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- At region 1's exit: its windows' arrays at what the pipeline leaves (an input as entered, an output's
    write-backs folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- A reference `hostOps2` does not write keeps its contents. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- At region 2's exit: its windows' arrays at what the pipeline leaves (an input as entered, an output's
    write-backs folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- A reference `hostOps3` does not write keeps its contents. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-- At region 3's exit: its windows' arrays at what the pipeline leaves (an input as entered, an output's
    write-backs folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4`. -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- A reference `hostOps4` does not write keeps its contents. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

/-- At region 4's exit: its windows' arrays at what the pipeline leaves (an input as entered, an output's
    write-backs folded), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves, every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5`. -/
abbrev W11 : Dev nD → Valuation τ sig (Elt F) := fun c => StableHlo.after hostOps5 (W10 m ρ c)
/-- The same read at the TensorCore's references. -/
abbrev V11 : (c : Dev nD) → (b : Ref sig .tc) → Buf (Elt F) ((c : Thread nD τ).loc b) := fun c b => W11 m ρ c b
/-- A reference `hostOps5` does not write keeps its contents. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

/-- At region 5's exit: its windows' arrays at what the pipeline leaves (an input as entered, an output's
    write-backs folded), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves, every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After `hostOps6`. -/
abbrev W13 : Dev nD → Valuation τ sig (Elt F) := fun c => StableHlo.after hostOps6 (W12 m ρ c)
/-- The same read at the TensorCore's references. -/
abbrev V13 : (c : Dev nD) → (b : Ref sig .tc) → Buf (Elt F) ((c : Thread nD τ).loc b) := fun c b => W13 m ρ c b
/-- A reference `hostOps6` does not write keeps its contents. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h

/-- At region 6's exit: its windows' arrays at what the pipeline leaves (an input as entered, an output's
    write-backs folded), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves, every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After `hostOps7`. -/
abbrev W15 : Dev nD → Valuation τ sig (Elt F) := fun c => StableHlo.after hostOps7 (W14 m ρ c)
/-- The same read at the TensorCore's references. -/
abbrev V15 : (c : Dev nD) → (b : Ref sig .tc) → Buf (Elt F) ((c : Thread nD τ).loc b) := fun c b => W15 m ρ c b
/-- A reference `hostOps7` does not write keeps its contents. -/
theorem W15_of (c : Dev nD) (r : Ref sig .tc) (h : r ∉ hostOps7_W) :
    W15 m ρ c (Proc.devRef .tc r) = W14 m ρ c (Proc.devRef .tc r) :=
  StableHlo.after_of_writes_sub hostOps7 _ hostOps7_writes h

/-- At region 7's exit: its windows' arrays at what the pipeline leaves (an input as entered, an output's
    write-backs folded), every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
/-- At region 7's exit each of its arrays holds what the pipeline leaves, every other buffer what it held at entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After `hostOps8`. -/
abbrev W17 : Dev nD → Valuation τ sig (Elt F) := fun c => StableHlo.after hostOps8 (W16 m ρ c)
/-- The same read at the TensorCore's references. -/
abbrev V17 : (c : Dev nD) → (b : Ref sig .tc) → Buf (Elt F) ((c : Thread nD τ).loc b) := fun c b => W17 m ρ c b
/-- A reference `hostOps8` does not write keeps its contents. -/
theorem W17_of (c : Dev nD) (r : Ref sig .tc) (h : r ∉ hostOps8_W) :
    W17 m ρ c (Proc.devRef .tc r) = W16 m ρ c (Proc.devRef .tc r) :=
  StableHlo.after_of_writes_sub hostOps8 _ hostOps8_writes h

/-- After `hostOps8_1`. -/
abbrev W18 : Dev nD → Valuation τ sig (Elt F) := fun c => StableHlo.after hostOps8_1 (W17 m ρ c)
/-- The same read at the TensorCore's references. -/
abbrev V18 : (c : Dev nD) → (b : Ref sig .tc) → Buf (Elt F) ((c : Thread nD τ).loc b) := fun c b => W18 m ρ c b
/-- A reference `hostOps8_1` does not write keeps its contents. -/
theorem W18_of (c : Dev nD) (r : Ref sig .tc) (h : r ∉ hostOps8_1_W) :
    W18 m ρ c (Proc.devRef .tc r) = W17 m ρ c (Proc.devRef .tc r) :=
  StableHlo.after_of_writes_sub hostOps8_1 _ hostOps8_1_writes h

/-- At region 8's exit: its windows' arrays at what the pipeline leaves (an input as entered, an output's
    write-backs folded), every other buffer as entered. -/
def W19 (c : Dev nD) : Valuation τ sig (Elt F) :=
  Pipeline.withArrays spec8 c (W18 m ρ c) fun w => (dat8 (V18 m ρ) c).arrAt w cfg8.N
theorem W19_arr (c : Dev nD) (w : Fin cfg8.W) :
    W19 m ρ c (Proc.devRef .tc (Pipeline.arrRef spec8 w)) = (dat8 (V18 m ρ) c).arrAt w cfg8.N := by
  unfold W19; exact Pipeline.withArrays_arr spec8 launch8.win.arr_inj c _ _ w
theorem W19_of_ne (c : Dev nD) (b : Ref sig .tc) (hb : ∀ w, Pipeline.arrRef spec8 w ≠ b) :
    W19 m ρ c (Proc.devRef .tc b) = W18 m ρ c (Proc.devRef .tc b) := by
  unfold W19; exact Pipeline.withArrays_of_ne spec8 c _ _ b hb
/-- The same read at the TensorCore's references (region 8's exit contents). -/
abbrev V19 : (c : Dev nD) → (b : Ref sig .tc) → Buf (Elt F) ((c : Thread nD τ).loc b) := fun c b => W19 m ρ c b
/-- At region 8's exit each of its arrays holds what the pipeline leaves, every other buffer what it held at entry. -/
theorem hF8 (c : Dev nD) (w : Fin cfg8.W) : (dat8 (V18 m ρ) c).arrAt w cfg8.N = V19 m ρ c (Pipeline.arrRef spec8 w) :=
  (W19_arr m ρ c w).symm
theorem hrest8 (c : Dev nD) : ∀ b, b ∉ Finset.univ.image (Pipeline.arrRef spec8) → V19 m ρ c b = V18 m ρ c b :=
  fun b hb => W19_of_ne m ρ c b fun w e => hb (Finset.mem_image.mpr ⟨w, Finset.mem_univ _, e⟩)

/-- After `hostOps9`. -/
abbrev W20 : Dev nD → Valuation τ sig (Elt F) := fun c => StableHlo.after hostOps9 (W19 m ρ c)
/-- The same read at the TensorCore's references. -/
abbrev V20 : (c : Dev nD) → (b : Ref sig .tc) → Buf (Elt F) ((c : Thread nD τ).loc b) := fun c b => W20 m ρ c b
/-- A reference `hostOps9` does not write keeps its contents. -/
theorem W20_of (c : Dev nD) (r : Ref sig .tc) (h : r ∉ hostOps9_W) :
    W20 m ρ c (Proc.devRef .tc r) = W19 m ρ c (Proc.devRef .tc r) :=
  StableHlo.after_of_writes_sub hostOps9 _ hostOps9_writes h

/-! ## A reference no item touches holds its launch contents at every boundary -/

/-- No host stretch writes `r` and `r` is no window's array of any region (the twenty items, in @main's order). -/
abbrev Untouched (r : Ref sig .tc) : Prop :=
  r ∉ hostOps0_W ∧
  (∀ w, Pipeline.arrRef spec0 w ≠ r) ∧
  r ∉ hostOps1_W ∧
  (∀ w, Pipeline.arrRef spec1 w ≠ r) ∧
  r ∉ hostOps2_W ∧
  (∀ w, Pipeline.arrRef spec2 w ≠ r) ∧
  r ∉ hostOps3_W ∧
  (∀ w, Pipeline.arrRef spec3 w ≠ r) ∧
  r ∉ hostOps4_W ∧
  (∀ w, Pipeline.arrRef spec4 w ≠ r) ∧
  r ∉ hostOps5_W ∧
  (∀ w, Pipeline.arrRef spec5 w ≠ r) ∧
  r ∉ hostOps6_W ∧
  (∀ w, Pipeline.arrRef spec6 w ≠ r) ∧
  r ∉ hostOps7_W ∧
  (∀ w, Pipeline.arrRef spec7 w ≠ r) ∧
  r ∉ hostOps8_W ∧
  r ∉ hostOps8_1_W ∧
  (∀ w, Pipeline.arrRef spec8 w ≠ r) ∧
  r ∉ hostOps9_W

theorem W1_of_untouched (c : Dev nD) (r : Ref sig .tc) (h : Untouched r) :
    W1 m ρ c (Proc.devRef .tc r) = m ((c : Thread nD τ).loc r) :=
  (W1_of m ρ c r h.1).trans rfl
theorem W2_of_untouched (c : Dev nD) (r : Ref sig .tc) (h : Untouched r) :
    W2 m ρ c (Proc.devRef .tc r) = m ((c : Thread nD τ).loc r) :=
  (W2_of_ne m ρ c r h.2.1).trans (W1_of_untouched m ρ c r h)
theorem W3_of_untouched (c : Dev nD) (r : Ref sig .tc) (h : Untouched r) :
    W3 m ρ c (Proc.devRef .tc r) = m ((c : Thread nD τ).loc r) :=
  (W3_of m ρ c r h.2.2.1).trans (W2_of_untouched m ρ c r h)
theorem W4_of_untouched (c : Dev nD) (r : Ref sig .tc) (h : Untouched r) :
    W4 m ρ c (Proc.devRef .tc r) = m ((c : Thread nD τ).loc r) :=
  (W4_of_ne m ρ c r h.2.2.2.1).trans (W3_of_untouched m ρ c r h)
theorem W5_of_untouched (c : Dev nD) (r : Ref sig .tc) (h : Untouched r) :
    W5 m ρ c (Proc.devRef .tc r) = m ((c : Thread nD τ).loc r) :=
  (W5_of m ρ c r h.2.2.2.2.1).trans (W4_of_untouched m ρ c r h)
theorem W6_of_untouched (c : Dev nD) (r : Ref sig .tc) (h : Untouched r) :
    W6 m ρ c (Proc.devRef .tc r) = m ((c : Thread nD τ).loc r) :=
  (W6_of_ne m ρ c r h.2.2.2.2.2.1).trans (W5_of_untouched m ρ c r h)
theorem W7_of_untouched (c : Dev nD) (r : Ref sig .tc) (h : Untouched r) :
    W7 m ρ c (Proc.devRef .tc r) = m ((c : Thread nD τ).loc r) :=
  (W7_of m ρ c r h.2.2.2.2.2.2.1).trans (W6_of_untouched m ρ c r h)
theorem W8_of_untouched (c : Dev nD) (r : Ref sig .tc) (h : Untouched r) :
    W8 m ρ c (Proc.devRef .tc r) = m ((c : Thread nD τ).loc r) :=
  (W8_of_ne m ρ c r h.2.2.2.2.2.2.2.1).trans (W7_of_untouched m ρ c r h)
theorem W9_of_untouched (c : Dev nD) (r : Ref sig .tc) (h : Untouched r) :
    W9 m ρ c (Proc.devRef .tc r) = m ((c : Thread nD τ).loc r) :=
  (W9_of m ρ c r h.2.2.2.2.2.2.2.2.1).trans (W8_of_untouched m ρ c r h)
theorem W10_of_untouched (c : Dev nD) (r : Ref sig .tc) (h : Untouched r) :
    W10 m ρ c (Proc.devRef .tc r) = m ((c : Thread nD τ).loc r) :=
  (W10_of_ne m ρ c r h.2.2.2.2.2.2.2.2.2.1).trans (W9_of_untouched m ρ c r h)
theorem W11_of_untouched (c : Dev nD) (r : Ref sig .tc) (h : Untouched r) :
    W11 m ρ c (Proc.devRef .tc r) = m ((c : Thread nD τ).loc r) :=
  (W11_of m ρ c r h.2.2.2.2.2.2.2.2.2.2.1).trans (W10_of_untouched m ρ c r h)
theorem W12_of_untouched (c : Dev nD) (r : Ref sig .tc) (h : Untouched r) :
    W12 m ρ c (Proc.devRef .tc r) = m ((c : Thread nD τ).loc r) :=
  (W12_of_ne m ρ c r h.2.2.2.2.2.2.2.2.2.2.2.1).trans (W11_of_untouched m ρ c r h)
theorem W13_of_untouched (c : Dev nD) (r : Ref sig .tc) (h : Untouched r) :
    W13 m ρ c (Proc.devRef .tc r) = m ((c : Thread nD τ).loc r) :=
  (W13_of m ρ c r h.2.2.2.2.2.2.2.2.2.2.2.2.1).trans (W12_of_untouched m ρ c r h)
theorem W14_of_untouched (c : Dev nD) (r : Ref sig .tc) (h : Untouched r) :
    W14 m ρ c (Proc.devRef .tc r) = m ((c : Thread nD τ).loc r) :=
  (W14_of_ne m ρ c r h.2.2.2.2.2.2.2.2.2.2.2.2.2.1).trans (W13_of_untouched m ρ c r h)
theorem W15_of_untouched (c : Dev nD) (r : Ref sig .tc) (h : Untouched r) :
    W15 m ρ c (Proc.devRef .tc r) = m ((c : Thread nD τ).loc r) :=
  (W15_of m ρ c r h.2.2.2.2.2.2.2.2.2.2.2.2.2.2.1).trans (W14_of_untouched m ρ c r h)
theorem W16_of_untouched (c : Dev nD) (r : Ref sig .tc) (h : Untouched r) :
    W16 m ρ c (Proc.devRef .tc r) = m ((c : Thread nD τ).loc r) :=
  (W16_of_ne m ρ c r h.2.2.2.2.2.2.2.2.2.2.2.2.2.2.2.1).trans (W15_of_untouched m ρ c r h)
theorem W17_of_untouched (c : Dev nD) (r : Ref sig .tc) (h : Untouched r) :
    W17 m ρ c (Proc.devRef .tc r) = m ((c : Thread nD τ).loc r) :=
  (W17_of m ρ c r h.2.2.2.2.2.2.2.2.2.2.2.2.2.2.2.2.1).trans (W16_of_untouched m ρ c r h)
theorem W18_of_untouched (c : Dev nD) (r : Ref sig .tc) (h : Untouched r) :
    W18 m ρ c (Proc.devRef .tc r) = m ((c : Thread nD τ).loc r) :=
  (W18_of m ρ c r h.2.2.2.2.2.2.2.2.2.2.2.2.2.2.2.2.2.1).trans (W17_of_untouched m ρ c r h)
theorem W19_of_untouched (c : Dev nD) (r : Ref sig .tc) (h : Untouched r) :
    W19 m ρ c (Proc.devRef .tc r) = m ((c : Thread nD τ).loc r) :=
  (W19_of_ne m ρ c r h.2.2.2.2.2.2.2.2.2.2.2.2.2.2.2.2.2.2.1).trans (W18_of_untouched m ρ c r h)
theorem W20_of_untouched (c : Dev nD) (r : Ref sig .tc) (h : Untouched r) :
    W20 m ρ c (Proc.devRef .tc r) = m ((c : Thread nD τ).loc r) :=
  (W20_of m ρ c r h.2.2.2.2.2.2.2.2.2.2.2.2.2.2.2.2.2.2.2).trans (W19_of_untouched m ρ c r h)

/-! ### The arguments: no host operation writes one and none is a window's array of a region -/

theorem untouched_main_arg0 : Untouched main_arg0 := by decide
theorem untouched_main_arg1 : Untouched main_arg1 := by decide
theorem untouched_main_arg2 : Untouched main_arg2 := by decide
theorem untouched_main_arg3 : Untouched main_arg3 := by decide
theorem untouched_main_arg4 : Untouched main_arg4 := by decide
theorem untouched_main_arg5 : Untouched main_arg5 := by decide
theorem untouched_main_arg6 : Untouched main_arg6 := by decide
theorem untouched_main_arg7 : Untouched main_arg7 := by decide
theorem untouched_main_arg8 : Untouched main_arg8 := by decide
theorem untouched_main_arg9 : Untouched main_arg9 := by decide
theorem untouched_main_arg10 : Untouched main_arg10 := by decide
theorem untouched_main_arg11 : Untouched main_arg11 := by decide
theorem untouched_main_arg12 : Untouched main_arg12 := by decide
theorem untouched_main_arg13 : Untouched main_arg13 := by decide
theorem untouched_main_arg14 : Untouched main_arg14 := by decide
theorem untouched_main_arg15 : Untouched main_arg15 := by decide
theorem untouched_main_arg16 : Untouched main_arg16 := by decide
theorem untouched_main_arg17 : Untouched main_arg17 := by decide
theorem untouched_main_arg18 : Untouched main_arg18 := by decide
theorem untouched_main_arg19 : Untouched main_arg19 := by decide
theorem untouched_main_arg20 : Untouched main_arg20 := by decide
theorem untouched_main_arg21 : Untouched main_arg21 := by decide
theorem untouched_main_arg22 : Untouched main_arg22 := by decide
theorem untouched_main_arg23 : Untouched main_arg23 := by decide
theorem untouched_main_arg24 : Untouched main_arg24 := by decide
theorem untouched_main_arg25 : Untouched main_arg25 := by decide
theorem untouched_main_arg26 : Untouched main_arg26 := by decide
theorem untouched_main_arg27 : Untouched main_arg27 := by decide
theorem untouched_main_arg28 : Untouched main_arg28 := by decide

theorem W20_main_arg0 (c : Dev nD) : W20 m ρ c (Proc.devRef .tc main_arg0) = m ((c : Thread nD τ).loc main_arg0) :=
  W20_of_untouched m ρ c main_arg0 untouched_main_arg0
theorem W20_main_arg1 (c : Dev nD) : W20 m ρ c (Proc.devRef .tc main_arg1) = m ((c : Thread nD τ).loc main_arg1) :=
  W20_of_untouched m ρ c main_arg1 untouched_main_arg1
theorem W20_main_arg2 (c : Dev nD) : W20 m ρ c (Proc.devRef .tc main_arg2) = m ((c : Thread nD τ).loc main_arg2) :=
  W20_of_untouched m ρ c main_arg2 untouched_main_arg2
theorem W20_main_arg3 (c : Dev nD) : W20 m ρ c (Proc.devRef .tc main_arg3) = m ((c : Thread nD τ).loc main_arg3) :=
  W20_of_untouched m ρ c main_arg3 untouched_main_arg3
theorem W20_main_arg4 (c : Dev nD) : W20 m ρ c (Proc.devRef .tc main_arg4) = m ((c : Thread nD τ).loc main_arg4) :=
  W20_of_untouched m ρ c main_arg4 untouched_main_arg4
theorem W20_main_arg5 (c : Dev nD) : W20 m ρ c (Proc.devRef .tc main_arg5) = m ((c : Thread nD τ).loc main_arg5) :=
  W20_of_untouched m ρ c main_arg5 untouched_main_arg5
theorem W20_main_arg6 (c : Dev nD) : W20 m ρ c (Proc.devRef .tc main_arg6) = m ((c : Thread nD τ).loc main_arg6) :=
  W20_of_untouched m ρ c main_arg6 untouched_main_arg6
theorem W20_main_arg7 (c : Dev nD) : W20 m ρ c (Proc.devRef .tc main_arg7) = m ((c : Thread nD τ).loc main_arg7) :=
  W20_of_untouched m ρ c main_arg7 untouched_main_arg7
theorem W20_main_arg8 (c : Dev nD) : W20 m ρ c (Proc.devRef .tc main_arg8) = m ((c : Thread nD τ).loc main_arg8) :=
  W20_of_untouched m ρ c main_arg8 untouched_main_arg8
theorem W20_main_arg9 (c : Dev nD) : W20 m ρ c (Proc.devRef .tc main_arg9) = m ((c : Thread nD τ).loc main_arg9) :=
  W20_of_untouched m ρ c main_arg9 untouched_main_arg9
theorem W20_main_arg10 (c : Dev nD) : W20 m ρ c (Proc.devRef .tc main_arg10) = m ((c : Thread nD τ).loc main_arg10) :=
  W20_of_untouched m ρ c main_arg10 untouched_main_arg10
theorem W20_main_arg11 (c : Dev nD) : W20 m ρ c (Proc.devRef .tc main_arg11) = m ((c : Thread nD τ).loc main_arg11) :=
  W20_of_untouched m ρ c main_arg11 untouched_main_arg11
theorem W20_main_arg12 (c : Dev nD) : W20 m ρ c (Proc.devRef .tc main_arg12) = m ((c : Thread nD τ).loc main_arg12) :=
  W20_of_untouched m ρ c main_arg12 untouched_main_arg12
theorem W20_main_arg13 (c : Dev nD) : W20 m ρ c (Proc.devRef .tc main_arg13) = m ((c : Thread nD τ).loc main_arg13) :=
  W20_of_untouched m ρ c main_arg13 untouched_main_arg13
theorem W20_main_arg14 (c : Dev nD) : W20 m ρ c (Proc.devRef .tc main_arg14) = m ((c : Thread nD τ).loc main_arg14) :=
  W20_of_untouched m ρ c main_arg14 untouched_main_arg14
theorem W20_main_arg15 (c : Dev nD) : W20 m ρ c (Proc.devRef .tc main_arg15) = m ((c : Thread nD τ).loc main_arg15) :=
  W20_of_untouched m ρ c main_arg15 untouched_main_arg15
theorem W20_main_arg16 (c : Dev nD) : W20 m ρ c (Proc.devRef .tc main_arg16) = m ((c : Thread nD τ).loc main_arg16) :=
  W20_of_untouched m ρ c main_arg16 untouched_main_arg16
theorem W20_main_arg17 (c : Dev nD) : W20 m ρ c (Proc.devRef .tc main_arg17) = m ((c : Thread nD τ).loc main_arg17) :=
  W20_of_untouched m ρ c main_arg17 untouched_main_arg17
theorem W20_main_arg18 (c : Dev nD) : W20 m ρ c (Proc.devRef .tc main_arg18) = m ((c : Thread nD τ).loc main_arg18) :=
  W20_of_untouched m ρ c main_arg18 untouched_main_arg18
theorem W20_main_arg19 (c : Dev nD) : W20 m ρ c (Proc.devRef .tc main_arg19) = m ((c : Thread nD τ).loc main_arg19) :=
  W20_of_untouched m ρ c main_arg19 untouched_main_arg19
theorem W20_main_arg20 (c : Dev nD) : W20 m ρ c (Proc.devRef .tc main_arg20) = m ((c : Thread nD τ).loc main_arg20) :=
  W20_of_untouched m ρ c main_arg20 untouched_main_arg20
theorem W20_main_arg21 (c : Dev nD) : W20 m ρ c (Proc.devRef .tc main_arg21) = m ((c : Thread nD τ).loc main_arg21) :=
  W20_of_untouched m ρ c main_arg21 untouched_main_arg21
theorem W20_main_arg22 (c : Dev nD) : W20 m ρ c (Proc.devRef .tc main_arg22) = m ((c : Thread nD τ).loc main_arg22) :=
  W20_of_untouched m ρ c main_arg22 untouched_main_arg22
theorem W20_main_arg23 (c : Dev nD) : W20 m ρ c (Proc.devRef .tc main_arg23) = m ((c : Thread nD τ).loc main_arg23) :=
  W20_of_untouched m ρ c main_arg23 untouched_main_arg23
theorem W20_main_arg24 (c : Dev nD) : W20 m ρ c (Proc.devRef .tc main_arg24) = m ((c : Thread nD τ).loc main_arg24) :=
  W20_of_untouched m ρ c main_arg24 untouched_main_arg24
theorem W20_main_arg25 (c : Dev nD) : W20 m ρ c (Proc.devRef .tc main_arg25) = m ((c : Thread nD τ).loc main_arg25) :=
  W20_of_untouched m ρ c main_arg25 untouched_main_arg25
theorem W20_main_arg26 (c : Dev nD) : W20 m ρ c (Proc.devRef .tc main_arg26) = m ((c : Thread nD τ).loc main_arg26) :=
  W20_of_untouched m ρ c main_arg26 untouched_main_arg26
theorem W20_main_arg27 (c : Dev nD) : W20 m ρ c (Proc.devRef .tc main_arg27) = m ((c : Thread nD τ).loc main_arg27) :=
  W20_of_untouched m ρ c main_arg27 untouched_main_arg27
theorem W20_main_arg28 (c : Dev nD) : W20 m ρ c (Proc.devRef .tc main_arg28) = m ((c : Thread nD τ).loc main_arg28) :=
  W20_of_untouched m ρ c main_arg28 untouched_main_arg28

/-! ## The proof data family and the thread state -/

/-- The prefetched tables' admissible contents: no pipeline has a table. -/
abbrev adm : (p : Fin 9) → (pcfgs (F := F) p).Adm := fun p => (cfgs p).toPCfg_adm
/-- Every pipeline's proof data, each at its region's entry contents: a literal `match` on the pipeline's number. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V18 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W20`, the
    generator register at some state. -/
abbrev Tₙ (c : Dev nD) : sProp 𝕄 := iprop(StableHlo.held (c : Thread nD τ) (Pipeline.ucRefs τ sig) (W20 m ρ c) ∗ ∃ r, prngReg c r)
/-- A valuation read at the TensorCore's references. -/
abbrev atTc (W : Dev nD → Valuation τ sig (Elt F)) : (c : Dev nD) → (b : Ref sig .tc) → Buf (Elt F) ((c : Thread nD τ).loc b) :=
  fun c b => W c b

/-! ## A region as a segment, once for all nine

Entered from every unscoped buffer at `Win`, left at `Wout`. Its arrays split out of the unscoped buffers and put back at
the exit contents; the generator register into the class invariant and out, through the region's own invariant at its
two ends; nothing owed; no semaphore of the kernel's own. What is asked of the pipeline's proof data is asked by name:
the tallies owed are zero, the recorded pairs unbounded, the shares full, the arrays the entry contents, the invariant
between the class's at both ends. -/

section Region
variable (p : Fin 9)

/-- A core owing nothing enters a region whose data owe nothing at the first point and bound no recorded pair. -/
theorem owes_in (c : Dev nD) (h0 : (pdats m ρ p c).owed 0 = 0) (hr : (pdats m ρ p c).recorded 0 = Set.univ) :
    (iprop(∃ W, owes (c : Thread nD τ) (0 : CellTallies nD τ sig Unit) W) : sProp 𝕄) ⊢ (pdats m ρ p c).owesAt () 0 := by
  unfold Pipeline.Dat.owesAt Pipeline.owesWithin
  rw [h0]
  iintro ⟨%W, HO⟩; iexists W; isplitr
  · ipureintro; exact fun x _ => Or.inl (show x ∈ (pdats m ρ p c).recorded 0 by rw [hr]; exact Set.mem_univ x)
  iexact HO

/-- And leaves it owing nothing when the data owe nothing at the last point. -/
theorem owes_out (c : Dev nD) (hN : (pdats m ρ p c).owed (Fin.last _) = 0) :
    (pdats m ρ p c).owesAt () (Fin.last _) ⊢ (iprop(∃ W, owes (c : Thread nD τ) (0 : CellTallies nD τ sig Unit) W) : sProp 𝕄) := by
  unfold Pipeline.Dat.owesAt Pipeline.owesWithin
  rw [hN]
  iintro ⟨%W, -, HO⟩; iexists W; iexact HO

set_option backward.isDefEq.respectTransparency.types false in
/-- Pipeline `p`'s region over the thread state. -/
def mkReg (lf : Pipeline.LaunchFacts (nD := nD) (τ := τ) cfgs p) (Win Wout : Dev nD → Valuation τ sig (Elt F))
    (hbody : ∀ c, BodyObligation (pdats m ρ p c) (defs₀ (F := F)) Variants.none () Set.univ)
    (howed : ∀ c t, (pdats m ρ p c).owed t = 0)
    (hrec : ∀ c t, (pdats m ρ p c).recorded t = Set.univ)
    (hq : ∀ c w, (pdats m ρ p c).q w = fullShare)
    (hA : ∀ c w, (pdats m ρ p c).A w = atTc Win c (Pipeline.arrRef (Pipeline.pin (pcfgs (F := F)) adm p).spec w))
    (hΦi : ∀ c, (Pipeline.ΦA (U := UR sig nD τ) (Val := Elt F) (Pipeline.pin (pcfgs (F := F)) adm p).spec c : sProp 𝕄) ⊢ (pdats m ρ p c).Φ 0)
    (hΦo : ∀ c, (pdats m ρ p c).Φ (Fin.last _) ⊢ (Pipeline.ΦA (U := UR sig nD τ) (Val := Elt F) (Pipeline.pin (pcfgs (F := F)) adm p).spec c : sProp 𝕄))
    (hF : ∀ c w, (pdats m ρ p c).arrAt w (Pipeline.pin (pcfgs (F := F)) adm p).N = atTc Wout c (Pipeline.arrRef (Pipeline.pin (pcfgs (F := F)) adm p).spec w))
    (hrest : ∀ c b, b ∉ Finset.univ.image (Pipeline.arrRef (Pipeline.pin (pcfgs (F := F)) adm p).spec) → atTc Wout c b = atTc Win c b) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (atTc Win c)
  hentry c := by
    rw [Pipeline.ownSems0_none]
    have hsplit := Pipeline.arrays_of_unscopedBufs (p := p) (pcfgs (F := F)) adm (pdats m ρ) lf.win lf.arr_whole c
      ((pdats m ρ p c).share_full (hq c)) (atTc Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_in m ρ p c (howed c 0) (hrec c 0)); iexact HO
    isplitl [Hp]; · iexact Hp
    iexact Hrest
  hin c := by
    refine .trans ?_ (hΦi c)
    unfold Pipeline.ΦA
    iintro ⟨Hp, -, Hr⟩
    isplitl [Hr]; · iexact Hr
    iexact Hp
  hout c := by
    rw [Pipeline.ownSems0_none]
    refine (hΦo c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (atTc Win c) (atTc Wout c) ((pdats m ρ p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out m ρ p c (howed c _)); iexact HO

end Region

/-! ## The nine regions -/

set_option backward.isDefEq.respectTransparency.types false in
/-- REGION 0: entered from every unscoped buffer at `W1`, left at `W2`. -/
def reg0 : Pipeline.RegionSeg (pcfgs (F := F)) adm (pdats m ρ) () defs₀ 𝒱₀ L lv 0 :=
  mkReg m ρ 0 launch0 (W1 m ρ) (W2 m ρ) (fun c => body_obligation0 (V1 m ρ) c) (fun c => owed0 (V1 m ρ) c)
    (fun c => recorded0 (V1 m ρ) c) (fun c => share0 (V1 m ρ) c) (fun c => A_eq0 (V1 m ρ) c)
    (fun c => Phi0_in (V1 m ρ) c) (fun c => Phi0_out (V1 m ρ) c) (hF0 m ρ) (hrest0 m ρ)

set_option backward.isDefEq.respectTransparency.types false in
/-- REGION 1: entered from every unscoped buffer at `W3`, left at `W4`. -/
def reg1 : Pipeline.RegionSeg (pcfgs (F := F)) adm (pdats m ρ) () defs₀ 𝒱₀ L lv 1 :=
  mkReg m ρ 1 launch1 (W3 m ρ) (W4 m ρ) (fun c => body_obligation1 (V3 m ρ) c) (fun c => owed1 (V3 m ρ) c)
    (fun c => recorded1 (V3 m ρ) c) (fun c => share1 (V3 m ρ) c) (fun c => A_eq1 (V3 m ρ) c)
    (fun c => Phi1_in (V3 m ρ) c) (fun c => Phi1_out (V3 m ρ) c) (hF1 m ρ) (hrest1 m ρ)

set_option backward.isDefEq.respectTransparency.types false in
/-- REGION 2: entered from every unscoped buffer at `W5`, left at `W6`. -/
def reg2 : Pipeline.RegionSeg (pcfgs (F := F)) adm (pdats m ρ) () defs₀ 𝒱₀ L lv 2 :=
  mkReg m ρ 2 launch2 (W5 m ρ) (W6 m ρ) (fun c => body_obligation2 (V5 m ρ) c) (fun c => owed2 (V5 m ρ) c)
    (fun c => recorded2 (V5 m ρ) c) (fun c => share2 (V5 m ρ) c) (fun c => A_eq2 (V5 m ρ) c)
    (fun c => Phi2_in (V5 m ρ) c) (fun c => Phi2_out (V5 m ρ) c) (hF2 m ρ) (hrest2 m ρ)

set_option backward.isDefEq.respectTransparency.types false in
/-- REGION 3: entered from every unscoped buffer at `W7`, left at `W8`. -/
def reg3 : Pipeline.RegionSeg (pcfgs (F := F)) adm (pdats m ρ) () defs₀ 𝒱₀ L lv 3 :=
  mkReg m ρ 3 launch3 (W7 m ρ) (W8 m ρ) (fun c => body_obligation3 (V7 m ρ) c) (fun c => owed3 (V7 m ρ) c)
    (fun c => recorded3 (V7 m ρ) c) (fun c => share3 (V7 m ρ) c) (fun c => A_eq3 (V7 m ρ) c)
    (fun c => Phi3_in (V7 m ρ) c) (fun c => Phi3_out (V7 m ρ) c) (hF3 m ρ) (hrest3 m ρ)

set_option backward.isDefEq.respectTransparency.types false in
/-- REGION 4: entered from every unscoped buffer at `W9`, left at `W10`. -/
def reg4 : Pipeline.RegionSeg (pcfgs (F := F)) adm (pdats m ρ) () defs₀ 𝒱₀ L lv 4 :=
  mkReg m ρ 4 launch4 (W9 m ρ) (W10 m ρ) (fun c => body_obligation4 (V9 m ρ) c) (fun c => owed4 (V9 m ρ) c)
    (fun c => recorded4 (V9 m ρ) c) (fun c => share4 (V9 m ρ) c) (fun c => A_eq4 (V9 m ρ) c)
    (fun c => Phi4_in (V9 m ρ) c) (fun c => Phi4_out (V9 m ρ) c) (hF4 m ρ) (hrest4 m ρ)

set_option backward.isDefEq.respectTransparency.types false in
/-- REGION 5: entered from every unscoped buffer at `W11`, left at `W12`. -/
def reg5 : Pipeline.RegionSeg (pcfgs (F := F)) adm (pdats m ρ) () defs₀ 𝒱₀ L lv 5 :=
  mkReg m ρ 5 launch5 (W11 m ρ) (W12 m ρ) (fun c => body_obligation5 (V11 m ρ) c) (fun c => owed5 (V11 m ρ) c)
    (fun c => recorded5 (V11 m ρ) c) (fun c => share5 (V11 m ρ) c) (fun c => A_eq5 (V11 m ρ) c)
    (fun c => Phi5_in (V11 m ρ) c) (fun c => Phi5_out (V11 m ρ) c) (hF5 m ρ) (hrest5 m ρ)

set_option backward.isDefEq.respectTransparency.types false in
/-- REGION 6: entered from every unscoped buffer at `W13`, left at `W14`. -/
def reg6 : Pipeline.RegionSeg (pcfgs (F := F)) adm (pdats m ρ) () defs₀ 𝒱₀ L lv 6 :=
  mkReg m ρ 6 launch6 (W13 m ρ) (W14 m ρ) (fun c => body_obligation6 (V13 m ρ) c) (fun c => owed6 (V13 m ρ) c)
    (fun c => recorded6 (V13 m ρ) c) (fun c => share6 (V13 m ρ) c) (fun c => A_eq6 (V13 m ρ) c)
    (fun c => Phi6_in (V13 m ρ) c) (fun c => Phi6_out (V13 m ρ) c) (hF6 m ρ) (hrest6 m ρ)

set_option backward.isDefEq.respectTransparency.types false in
/-- REGION 7: entered from every unscoped buffer at `W15`, left at `W16`. -/
def reg7 : Pipeline.RegionSeg (pcfgs (F := F)) adm (pdats m ρ) () defs₀ 𝒱₀ L lv 7 :=
  mkReg m ρ 7 launch7 (W15 m ρ) (W16 m ρ) (fun c => body_obligation7 (V15 m ρ) c) (fun c => owed7 (V15 m ρ) c)
    (fun c => recorded7 (V15 m ρ) c) (fun c => share7 (V15 m ρ) c) (fun c => A_eq7 (V15 m ρ) c)
    (fun c => Phi7_in (V15 m ρ) c) (fun c => Phi7_out (V15 m ρ) c) (hF7 m ρ) (hrest7 m ρ)

set_option backward.isDefEq.respectTransparency.types false in
/-- REGION 8: entered from every unscoped buffer at `W18`, left at `W19`. -/
def reg8 : Pipeline.RegionSeg (pcfgs (F := F)) adm (pdats m ρ) () defs₀ 𝒱₀ L lv 8 :=
  mkReg m ρ 8 launch8 (W18 m ρ) (W19 m ρ) (fun c => body_obligation8 (V18 m ρ) c) (fun c => owed8 (V18 m ρ) c)
    (fun c => recorded8 (V18 m ρ) c) (fun c => share8 (V18 m ρ) c) (fun c => A_eq8 (V18 m ρ) c)
    (fun c => Phi8_in (V18 m ρ) c) (fun c => Phi8_out (V18 m ρ) c) (hF8 m ρ) (hrest8 m ρ)

/-! ## @main as segments, and the launch -/

/-- @main's twenty segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .host (hseg hostOps8_1 hostOps8_1_sub hostOps8_1_fresh (W17 m ρ)),
    .region (reg8 m ρ),
    .host (hseg hostOps9 hostOps9_sub hostOps9_fresh (W19 m ρ)) ]
/-- @main IS the run of the segments: its chain of items, then the segments' run against that chain. -/
theorem main_run (c : Dev nD) : main (F := F) c = Pipeline.Seg.run (segs m ρ) := (main_chain c).trans (by chain_rfl)

set_option backward.isDefEq.respectTransparency.types false in
/-- THE RUN, at any post the last boundary's contents imply: at the compiled mesh, from any memory with zero counters,
    every weakly fair execution of @main on the TensorCores terminates, nothing faulting, and every final state holds
    each unscoped buffer at `W20` — the launch over the segments, the last thread state read against the final state. -/
theorem run_post {Q : PUnit × MemSt nD τ sig (Elt F) → Prop}
    (hQ : ∀ s : MemSt nD τ sig (Elt F),
      (∀ c : Dev nD, ∀ b ∈ Pipeline.ucRefs τ sig, s.mem ((c : Thread nD τ).1, b) = W20 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W20 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := hQ)

/-- Every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W20 m ρ c b) :=
  run_post m ρ fun s h => h

/-- THE FRAME: every final state has the argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  run_post m ρ fun s h c =>
    ⟨(h c _ (mem_uc main_arg0 (by decide))).trans (W20_main_arg0 m ρ c),
     (h c _ (mem_uc main_arg1 (by decide))).trans (W20_main_arg1 m ρ c),
     (h c _ (mem_uc main_arg2 (by decide))).trans (W20_main_arg2 m ρ c),
     (h c _ (mem_uc main_arg3 (by decide))).trans (W20_main_arg3 m ρ c),
     (h c _ (mem_uc main_arg4 (by decide))).trans (W20_main_arg4 m ρ c),
     (h c _ (mem_uc main_arg5 (by decide))).trans (W20_main_arg5 m ρ c),
     (h c _ (mem_uc main_arg6 (by decide))).trans (W20_main_arg6 m ρ c),
     (h c _ (mem_uc main_arg7 (by decide))).trans (W20_main_arg7 m ρ c),
     (h c _ (mem_uc main_arg8 (by decide))).trans (W20_main_arg8 m ρ c),
     (h c _ (mem_uc main_arg9 (by decide))).trans (W20_main_arg9 m ρ c),
     (h c _ (mem_uc main_arg10 (by decide))).trans (W20_main_arg10 m ρ c),
     (h c _ (mem_uc main_arg11 (by decide))).trans (W20_main_arg11 m ρ c),
     (h c _ (mem_uc main_arg12 (by decide))).trans (W20_main_arg12 m ρ c),
     (h c _ (mem_uc main_arg13 (by decide))).trans (W20_main_arg13 m ρ c),
     (h c _ (mem_uc main_arg14 (by decide))).trans (W20_main_arg14 m ρ c),
     (h c _ (mem_uc main_arg15 (by decide))).trans (W20_main_arg15 m ρ c),
     (h c _ (mem_uc main_arg16 (by decide))).trans (W20_main_arg16 m ρ c),
     (h c _ (mem_uc main_arg17 (by decide))).trans (W20_main_arg17 m ρ c),
     (h c _ (mem_uc main_arg18 (by decide))).trans (W20_main_arg18 m ρ c),
     (h c _ (mem_uc main_arg19 (by decide))).trans (W20_main_arg19 m ρ c),
     (h c _ (mem_uc main_arg20 (by decide))).trans (W20_main_arg20 m ρ c),
     (h c _ (mem_uc main_arg21 (by decide))).trans (W20_main_arg21 m ρ c),
     (h c _ (mem_uc main_arg22 (by decide))).trans (W20_main_arg22 m ρ c),
     (h c _ (mem_uc main_arg23 (by decide))).trans (W20_main_arg23 m ρ c),
     (h c _ (mem_uc main_arg24 (by decide))).trans (W20_main_arg24 m ρ c),
     (h c _ (mem_uc main_arg25 (by decide))).trans (W20_main_arg25 m ρ c),
     (h c _ (mem_uc main_arg26 (by decide))).trans (W20_main_arg26 m ρ c),
     (h c _ (mem_uc main_arg27 (by decide))).trans (W20_main_arg27 m ρ c),
     (h c _ (mem_uc main_arg28 (by decide))).trans (W20_main_arg28 m ρ c)⟩

/-- THE RESULT: every final state holds the result array at the last boundary's contents, the argument arrays as launched. -/
theorem result_all : θ_run defs (onTc (τ := τ) (main (F := F))) ⟨m, fun _ => 0, ρ⟩ (fun r => ∀ c : Dev nD,
      r.2.mem ((c.tc : Thread nD τ).loc main_v337) = W20 m ρ c (Proc.devRef .tc main_v337)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  run_post m ρ fun s h c =>
    ⟨h c _ (mem_uc main_v337 (by decide)),
     (h c _ (mem_uc main_arg0 (by decide))).trans (W20_main_arg0 m ρ c),
     (h c _ (mem_uc main_arg1 (by decide))).trans (W20_main_arg1 m ρ c),
     (h c _ (mem_uc main_arg2 (by decide))).trans (W20_main_arg2 m ρ c),
     (h c _ (mem_uc main_arg3 (by decide))).trans (W20_main_arg3 m ρ c),
     (h c _ (mem_uc main_arg4 (by decide))).trans (W20_main_arg4 m ρ c),
     (h c _ (mem_uc main_arg5 (by decide))).trans (W20_main_arg5 m ρ c),
     (h c _ (mem_uc main_arg6 (by decide))).trans (W20_main_arg6 m ρ c),
     (h c _ (mem_uc main_arg7 (by decide))).trans (W20_main_arg7 m ρ c),
     (h c _ (mem_uc main_arg8 (by decide))).trans (W20_main_arg8 m ρ c),
     (h c _ (mem_uc main_arg9 (by decide))).trans (W20_main_arg9 m ρ c),
     (h c _ (mem_uc main_arg10 (by decide))).trans (W20_main_arg10 m ρ c),
     (h c _ (mem_uc main_arg11 (by decide))).trans (W20_main_arg11 m ρ c),
     (h c _ (mem_uc main_arg12 (by decide))).trans (W20_main_arg12 m ρ c),
     (h c _ (mem_uc main_arg13 (by decide))).trans (W20_main_arg13 m ρ c),
     (h c _ (mem_uc main_arg14 (by decide))).trans (W20_main_arg14 m ρ c),
     (h c _ (mem_uc main_arg15 (by decide))).trans (W20_main_arg15 m ρ c),
     (h c _ (mem_uc main_arg16 (by decide))).trans (W20_main_arg16 m ρ c),
     (h c _ (mem_uc main_arg17 (by decide))).trans (W20_main_arg17 m ρ c),
     (h c _ (mem_uc main_arg18 (by decide))).trans (W20_main_arg18 m ρ c),
     (h c _ (mem_uc main_arg19 (by decide))).trans (W20_main_arg19 m ρ c),
     (h c _ (mem_uc main_arg20 (by decide))).trans (W20_main_arg20 m ρ c),
     (h c _ (mem_uc main_arg21 (by decide))).trans (W20_main_arg21 m ρ c),
     (h c _ (mem_uc main_arg22 (by decide))).trans (W20_main_arg22 m ρ c),
     (h c _ (mem_uc main_arg23 (by decide))).trans (W20_main_arg23 m ρ c),
     (h c _ (mem_uc main_arg24 (by decide))).trans (W20_main_arg24 m ρ c),
     (h c _ (mem_uc main_arg25 (by decide))).trans (W20_main_arg25 m ρ c),
     (h c _ (mem_uc main_arg26 (by decide))).trans (W20_main_arg26 m ρ c),
     (h c _ (mem_uc main_arg27 (by decide))).trans (W20_main_arg27 m ρ c),
     (h c _ (mem_uc main_arg28 (by decide))).trans (W20_main_arg28 m ρ c)⟩

end Cert.KernelIdeal.Hand

end
-- ==== Proof.Spec.lean ====
/-
  The mathematics both programs compute, as functions on the extended reals (no program is imported).

  A state is a matrix of 2048 rows (position r = b·1024 + t) of 1024 channels. Every layer acts ROW BY ROW:
  a row x goes to  x + Wo·(σ(r) ⊙ (num + e^{tf+k} ⊙ v) / (den + e^{tf+k}))  (time mixing; k, v, r the three
  projections of the row's normalised, state-mixed copy) and then to  x + σ(r₂) ⊙ Wv·(max(k₂, 0))²  (channel mixing).
  The logits of a row are the head's projection of its normalised copy, and the result is the softmax over ALL
  2048 × 50257 logits at once.  Sums are finite sums on the extended reals (a commutative monoid: any grouping
  of a sum is the same sum); the quotient, the exponential, the reciprocal square root and the logistic function
  are the ideal instance's, with its conventions at the infinities and at zero.
-/
import Idealize.ShloMosaic.PureOps.Ideal
import Mathlib.Algebra.BigOperators.Group.Finset.Basic
import Mathlib.Data.Finset.Lattice.Fold

noncomputable section

namespace Cert.Spec

open Idealize.ShloMosaic

/-- A row of 1024 channels. -/
abbrev Row := Fin 1024 → EReal
/-- A weight matrix of `O` outputs by `I` inputs, read `W o i`. -/
abbrev Mat (O I : Nat) := Fin O → Fin I → EReal

/-- The three float constants the layers use, as the programs spell them: 1024, 10⁻⁵ rounded to single precision, 1. -/
def c1024 : EReal := Ideal.ofBits .f32 0x44800000#32
def ceps : EReal := Ideal.ofBits .f32 0x3727C5AC#32
def cone : EReal := Ideal.ofBits .f32 0x3F800000#32
/-- The zero word. -/
def czero : EReal := Ideal.ofBits .f32 0x00000000#32

/-- The mean of a row. -/
def mean (x : Row) : EReal := Ideal.div (∑ k, x k) c1024
/-- The (biased) variance of a row about its mean. -/
def var (x : Row) : EReal := Ideal.div (∑ k, (x k - mean x) * (x k - mean x)) c1024
/-- Layer normalisation of a row with gain `w` and bias `b`. -/
def lnRow (w b x : Row) : Row := fun d => (x d - mean x) * Ideal.rsqrt (var x + ceps) * w d + b d

/-- A row mixed with the layer's carried state: h ⊙ μ + s ⊙ (1 − μ). -/
def mixRow (h s μ : Row) : Row := fun d => h d * μ d + s d * (cone - μ d)

/-- The projection of a row by a matrix: (W x)ₒ = Σ_d x_d · W_{o d}. -/
def proj {O I : Nat} (W : Mat O I) (x : Fin I → EReal) : Fin O → EReal := fun o => ∑ d, x d * W o d

/-- The parameters of one time-mixing layer. -/
structure AttnP where
  lnw : Row
  lnb : Row
  sx : Row
  mixk : Row
  mixv : Row
  mixr : Row
  tf : Row
  num : Row
  den : Row
  Wk : Mat 1024 1024
  Wv : Mat 1024 1024
  Wr : Mat 1024 1024
  Wo : Mat 1024 1024

/-- The gated weighted key-value of a time-mixing layer, channel by channel. -/
def attnGate (p : AttnP) (x : Row) : Row := fun o =>
  let h := lnRow p.lnw p.lnb x
  let k := proj p.Wk (mixRow h p.sx p.mixk) o
  let v := proj p.Wv (mixRow h p.sx p.mixv) o
  let r := proj p.Wr (mixRow h p.sx p.mixr) o
  let ek := Ideal.exp (p.tf o + k)
  Ideal.logistic r * Ideal.div (p.num o + ek * v) (p.den o + ek)

/-- One time-mixing layer on a row. -/
def attnRow (p : AttnP) (x : Row) : Row := fun o => x o + proj p.Wo (attnGate p x) o

/-- The parameters of one channel-mixing layer. -/
structure FfnP where
  lnw : Row
  lnb : Row
  sx : Row
  mixk : Row
  mixr : Row
  Wk : Mat 4096 1024
  Wr : Mat 1024 1024
  Wv : Mat 1024 4096

/-- The squared rectified key of a channel-mixing layer, hidden unit by hidden unit. -/
def ffnKey (p : FfnP) (x : Row) : Fin 4096 → EReal := fun f =>
  let k := proj p.Wk (mixRow (lnRow p.lnw p.lnb x) p.sx p.mixk) f
  max k czero * max k czero

/-- One channel-mixing layer on a row. -/
def ffnRow (p : FfnP) (x : Row) : Row := fun o =>
  x o + Ideal.logistic (proj p.Wr (mixRow (lnRow p.lnw p.lnb x) p.sx p.mixr) o) * proj p.Wv (ffnKey p x) o

/-- The logits of a row: the head's projection of its normalised copy. -/
def logitsRow (w b : Row) (Wh : Mat 50257 1024) (x : Row) : Fin 50257 → EReal := proj Wh (lnRow w b x)

/-- The largest of all the logits. -/
def gmax (L : Fin 2048 → Fin 50257 → EReal) : EReal := Finset.univ.sup fun p : Fin 2048 × Fin 50257 => L p.1 p.2

/-- The softmax over ALL positions and tokens at once. -/
def softmaxAll (L : Fin 2048 → Fin 50257 → EReal) : Fin 2048 → Fin 50257 → EReal := fun r v =>
  Ideal.div (Ideal.exp (L r v - gmax L)) (∑ p : Fin 2048 × Fin 50257, Ideal.exp (L p.1 p.2 - gmax L))

/-- Four layers of (time mixing, channel mixing) on a row. -/
def layers (a : Fin 4 → AttnP) (f : Fin 4 → FfnP) (x : Row) : Row :=
  ffnRow (f 3) (attnRow (a 3) (ffnRow (f 2) (attnRow (a 2) (ffnRow (f 1) (attnRow (a 1) (ffnRow (f 0) (attnRow (a 0) x)))))))

/-! ## The whole model over its arguments -/

/-- The float arguments of the model, as index functions (layer index first where an argument is stacked over the
    four layers). The token ids enter only through the embedding rows they select, which are an input of `model`. -/
structure Args where
  ln0w : Row
  ln0b : Row
  ln1w : Fin 4 → Row
  ln1b : Fin 4 → Row
  ln2w : Fin 4 → Row
  ln2b : Fin 4 → Row
  tfirst : Fin 4 → Row
  amixk : Fin 4 → Row
  amixv : Fin 4 → Row
  amixr : Fin 4 → Row
  aWk : Fin 4 → Mat 1024 1024
  aWv : Fin 4 → Mat 1024 1024
  aWr : Fin 4 → Mat 1024 1024
  aWo : Fin 4 → Mat 1024 1024
  fmixk : Fin 4 → Row
  fmixr : Fin 4 → Row
  fWk : Fin 4 → Mat 4096 1024
  fWr : Fin 4 → Mat 1024 1024
  fWv : Fin 4 → Mat 1024 4096
  lnow : Row
  lnob : Row
  headW : Mat 50257 1024
  asx : Fin 4 → Row
  anum : Fin 4 → Row
  aden : Fin 4 → Row
  fsx : Fin 4 → Row

/-- Layer `i`'s time-mixing parameters. -/
def Args.attn (A : Args) (i : Fin 4) : AttnP where
  lnw := A.ln1w i
  lnb := A.ln1b i
  sx := A.asx i
  mixk := A.amixk i
  mixv := A.amixv i
  mixr := A.amixr i
  tf := A.tfirst i
  num := A.anum i
  den := A.aden i
  Wk := A.aWk i
  Wv := A.aWv i
  Wr := A.aWr i
  Wo := A.aWo i

/-- Layer `i`'s channel-mixing parameters. -/
def Args.ffn (A : Args) (i : Fin 4) : FfnP where
  lnw := A.ln2w i
  lnb := A.ln2b i
  sx := A.fsx i
  mixk := A.fmixk i
  mixr := A.fmixr i
  Wk := A.fWk i
  Wr := A.fWr i
  Wv := A.fWv i

/-- Position (b, t) as a row number. -/
def pos (b : Fin 2) (t : Fin 1024) : Fin 2048 := ⟨b.val * 1024 + t.val, by have := b.isLt; have := t.isLt; omega⟩

/-- The state after the embedding's normalisation and the four layers, row by row, from the gathered embedding rows `G`. -/
def stateRow (A : Args) (G : Fin 2048 → Row) (r : Fin 2048) : Row := layers A.attn A.ffn (lnRow A.ln0w A.ln0b (G r))

/-- All the logits. -/
def logits (A : Args) (G : Fin 2048 → Row) : Fin 2048 → Fin 50257 → EReal := fun r => logitsRow A.lnow A.lnob A.headW (stateRow A G r)

/-- The model's output: the global softmax of the logits, at position (b, t) and token v. -/
def model (A : Args) (G : Fin 2048 → Row) (b : Fin 2) (t : Fin 1024) (v : Fin 50257) : EReal := softmaxAll (logits A G) (pos b t) v

end Cert.Spec

end
-- ==== Proof.HostK.lean ====
/-
  The host stretches of the kernel program that prepare each layer's parameters, read at an index.

  Between two launches the program slices row `i` (or matrix `i`) out of each argument stacked over the four layers,
  reshapes it to the form the launch reads (a 1×1024 row; an O×I matrix, re-typed to bf16, which changes nothing on the
  extended reals) and touches nothing else.  So after such a stretch, started from ANY contents `W` of the
  TensorCore's buffers, every parameter window of the next launch holds, entry by entry, the corresponding entry of
  the argument in `W`: row `i` of a stacked vector at column `d`, matrix `i` of a stacked matrix at `(o, d)`.
  Everything is stated for a valuation `W` the stretch starts from, so the facts compose along the program.
  `argsK W` collects the program's float arguments, as `W` holds them, in the form the specification takes them.
  This module holds the two reading lemmas and `argsK`; the stretches themselves are read in the modules that import it.
-/
import proofs.«415492_j738734375128_3_alg».proof.Proof.Gen.KernelIdeal.Launch
import proofs.«415492_j738734375128_3_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx

/-! ## Slices of the stacked arguments at an index -/

/-- Row `i` of a stack of four rows, taken as a 1×1024 slice, flattened, and reshaped back to 1×1024: at column `d` it
    is the stack at `(i, d)`. -/
theorem rowSlice_apply {α : Type} (x : S4x1024.Idx → α) (i : Fin 4) (h : S4x1024.Slices ![i.val, 0] S1x1024)
    (h1 : S1x1024.ShapeCasts S1024) (h2 : S1024.ShapeCasts S1x1024) (d : Fin 1024) :
    shapeCast S1x1024 (shapeCast S1024 (extractStridedSlice S1x1024 ![i.val, 0] x h) h1) h2 (ix2 0 d) = x (ix2 i d) := by
  refine (shapeCast_apply _ h2 (ix2 0 d) (ix1 d) ?_).trans ?_
  · rw [Shape.rowMajor_val_one, Shape.rowMajor_val_two]; show d.val = 0 * 1024 + d.val; omega
  refine (shapeCast_apply _ h1 (ix1 d) (ix2 0 d) ?_).trans ?_
  · rw [Shape.rowMajor_val_one, Shape.rowMajor_val_two]; show 0 * 1024 + d.val = d.val; omega
  refine extractStridedSlice_apply _ x h (ix2 0 d) (ix2 i d) fun a => ?_
  match a with
  | ⟨0, _⟩ => rfl
  | ⟨1, _⟩ => show d.val = 0 + d.val; omega

/-- Matrix `i` of a stack of four `O × I` matrices, taken as a 1×O×I slice and reshaped to O×I: at `(o, d)` it is the
    stack at `(i, o, d)`. -/
theorem matSlice_apply {α : Type} {O I : Nat} (x : (⟨3, ![4, O, I]⟩ : Shape).Idx → α) (i : Fin 4)
    (h : (⟨3, ![4, O, I]⟩ : Shape).Slices ![i.val, 0, 0] ⟨3, ![1, O, I]⟩)
    (h1 : (⟨3, ![1, O, I]⟩ : Shape).ShapeCasts ⟨2, ![O, I]⟩) (o : Fin O) (d : Fin I) :
    shapeCast ⟨2, ![O, I]⟩ (extractStridedSlice ⟨3, ![1, O, I]⟩ ![i.val, 0, 0] x h) h1 (ix2 o d) = x (ix3 i o d) := by
  refine (shapeCast_apply _ h1 (ix2 o d) (ix3 0 o d) ?_).trans ?_
  · rw [Shape.rowMajor_val_two, Shape.rowMajor_val_three]
    show (0 * O + o.val) * I + d.val = o.val * I + d.val
    rw [Nat.zero_mul, Nat.zero_add]
  refine extractStridedSlice_apply _ x h (ix3 0 o d) (ix3 i o d) fun a => ?_
  match a with
  | ⟨0, _⟩ => rfl
  | ⟨1, _⟩ => show o.val = 0 + o.val; omega
  | ⟨2, _⟩ => show d.val = 0 + d.val; omega

variable (W : Valuation τ sig (Elt Ideal))

/-! ## The program's float arguments, as `W` holds them -/

/-- The float arguments of the model read off the contents `W` of the program's argument buffers (stacked arguments
    with the layer index first). -/
def argsK : Cert.Spec.Args where
  ln0w d := (W (Proc.devRef .tc main_arg2) : S1024.Idx → EReal) (ix1 d)
  ln0b d := (W (Proc.devRef .tc main_arg3) : S1024.Idx → EReal) (ix1 d)
  ln1w i d := (W (Proc.devRef .tc main_arg4) : S4x1024.Idx → EReal) (ix2 i d)
  ln1b i d := (W (Proc.devRef .tc main_arg5) : S4x1024.Idx → EReal) (ix2 i d)
  ln2w i d := (W (Proc.devRef .tc main_arg6) : S4x1024.Idx → EReal) (ix2 i d)
  ln2b i d := (W (Proc.devRef .tc main_arg7) : S4x1024.Idx → EReal) (ix2 i d)
  tfirst i d := (W (Proc.devRef .tc main_arg9) : S4x1024.Idx → EReal) (ix2 i d)
  amixk i d := (W (Proc.devRef .tc main_arg10) : S4x1024.Idx → EReal) (ix2 i d)
  amixv i d := (W (Proc.devRef .tc main_arg11) : S4x1024.Idx → EReal) (ix2 i d)
  amixr i d := (W (Proc.devRef .tc main_arg12) : S4x1024.Idx → EReal) (ix2 i d)
  aWk i o d := (W (Proc.devRef .tc main_arg13) : S4x1024x1024.Idx → EReal) (ix3 i o d)
  aWv i o d := (W (Proc.devRef .tc main_arg14) : S4x1024x1024.Idx → EReal) (ix3 i o d)
  aWr i o d := (W (Proc.devRef .tc main_arg15) : S4x1024x1024.Idx → EReal) (ix3 i o d)
  aWo i o d := (W (Proc.devRef .tc main_arg16) : S4x1024x1024.Idx → EReal) (ix3 i o d)
  fmixk i d := (W (Proc.devRef .tc main_arg17) : S4x1024.Idx → EReal) (ix2 i d)
  fmixr i d := (W (Proc.devRef .tc main_arg18) : S4x1024.Idx → EReal) (ix2 i d)
  fWk i f d := (W (Proc.devRef .tc main_arg19) : S4x4096x1024.Idx → EReal) (ix3 i f d)
  fWr i o d := (W (Proc.devRef .tc main_arg20) : S4x1024x1024.Idx → EReal) (ix3 i o d)
  fWv i o f := (W (Proc.devRef .tc main_arg21) : S4x1024x4096.Idx → EReal) (ix3 i o f)
  lnow d := (W (Proc.devRef .tc main_arg22) : S1024.Idx → EReal) (ix1 d)
  lnob d := (W (Proc.devRef .tc main_arg23) : S1024.Idx → EReal) (ix1 d)
  headW v d := (W (Proc.devRef .tc main_arg24) : S50257x1024.Idx → EReal) (ix2 v d)
  asx i d := (W (Proc.devRef .tc main_arg25) : S4x1024.Idx → EReal) (ix2 i d)
  anum i d := (W (Proc.devRef .tc main_arg26) : S4x1024.Idx → EReal) (ix2 i d)
  aden i d := (W (Proc.devRef .tc main_arg27) : S4x1024.Idx → EReal) (ix2 i d)
  fsx i d := (W (Proc.devRef .tc main_arg28) : S4x1024.Idx → EReal) (ix2 i d)

/-- The references of the float arguments. -/
abbrev argRefs : List (Ref sig .tc) :=
  [main_arg2, main_arg3, main_arg4, main_arg5, main_arg6, main_arg7, main_arg9, main_arg10, main_arg11, main_arg12,
   main_arg13, main_arg14, main_arg15, main_arg16, main_arg17, main_arg18, main_arg19, main_arg20, main_arg21,
   main_arg22, main_arg23, main_arg24, main_arg25, main_arg26, main_arg27, main_arg28]

/-- Two valuations that agree on the float arguments' buffers give the same arguments. -/
theorem argsK_congr {W W' : Valuation τ sig (Elt Ideal)}
    (h : ∀ r ∈ argRefs, W' (Proc.devRef .tc r) = W (Proc.devRef .tc r)) : argsK W' = argsK W := by
  unfold argsK
  rw [h main_arg2 (by decide), h main_arg3 (by decide), h main_arg4 (by decide), h main_arg5 (by decide),
    h main_arg6 (by decide), h main_arg7 (by decide), h main_arg9 (by decide), h main_arg10 (by decide),
    h main_arg11 (by decide), h main_arg12 (by decide), h main_arg13 (by decide), h main_arg14 (by decide),
    h main_arg15 (by decide), h main_arg16 (by decide), h main_arg17 (by decide), h main_arg18 (by decide),
    h main_arg19 (by decide), h main_arg20 (by decide), h main_arg21 (by decide), h main_arg22 (by decide),
    h main_arg23 (by decide), h main_arg24 (by decide), h main_arg25 (by decide), h main_arg26 (by decide),
    h main_arg27 (by decide), h main_arg28 (by decide)]

end Cert.KernelIdeal.Val
-- ==== Proof.KArgs.lean ====
/-
  The argument arrays at every boundary between launches are the launch contents: no host stretch writes an argument
  and no launch has one as a window's array. So the model's parameters, read at any boundary, are those read at launch.
-/
import proofs.«415492_j738734375128_3_alg».proof.Proof.Run
import proofs.«415492_j738734375128_3_alg».proof.Proof.HostK

noncomputable section

namespace Cert.KernelIdeal.Val

open Cert.KernelIdeal Cert.KernelIdeal.Gen Cert.KernelIdeal.Hand Idealize.ShloMosaic Idealize.ShloMosaic.ValueIdx

variable (m : (ℓ : Loc nD τ sig) → Buf (Elt Ideal) ℓ) (ρ : Dev nD → PrngReg) (c : Dev nD)

/-- Every float argument is untouched by every item of the program. -/
theorem untouched_of_mem_argRefs : ∀ r ∈ argRefs, Untouched r := by
  intro r hr
  simp only [argRefs, List.mem_cons, List.not_mem_nil, or_false] at hr
  rcases hr with rfl | rfl | rfl | rfl | rfl | rfl | rfl | rfl | rfl | rfl | rfl | rfl | rfl | rfl | rfl | rfl | rfl | rfl | rfl | rfl | rfl | rfl | rfl | rfl | rfl | rfl
  exacts [untouched_main_arg2, untouched_main_arg3, untouched_main_arg4, untouched_main_arg5, untouched_main_arg6, untouched_main_arg7, untouched_main_arg9, untouched_main_arg10, untouched_main_arg11, untouched_main_arg12, untouched_main_arg13, untouched_main_arg14, untouched_main_arg15, untouched_main_arg16, untouched_main_arg17, untouched_main_arg18, untouched_main_arg19, untouched_main_arg20, untouched_main_arg21, untouched_main_arg22, untouched_main_arg23, untouched_main_arg24, untouched_main_arg25, untouched_main_arg26, untouched_main_arg27, untouched_main_arg28]

theorem argsK_W0 : argsK (W0 m ρ c) = argsK (W0 m ρ c) := rfl
theorem argsK_W2 : argsK (W2 m ρ c) = argsK (W0 m ρ c) :=
  argsK_congr fun r hr => (W2_of_untouched m ρ c r (untouched_of_mem_argRefs r hr)).trans rfl
theorem argsK_W4 : argsK (W4 m ρ c) = argsK (W0 m ρ c) :=
  argsK_congr fun r hr => (W4_of_untouched m ρ c r (untouched_of_mem_argRefs r hr)).trans rfl
theorem argsK_W6 : argsK (W6 m ρ c) = argsK (W0 m ρ c) :=
  argsK_congr fun r hr => (W6_of_untouched m ρ c r (untouched_of_mem_argRefs r hr)).trans rfl
theorem argsK_W8 : argsK (W8 m ρ c) = argsK (W0 m ρ c) :=
  argsK_congr fun r hr => (W8_of_untouched m ρ c r (untouched_of_mem_argRefs r hr)).trans rfl
theorem argsK_W10 : argsK (W10 m ρ c) = argsK (W0 m ρ c) :=
  argsK_congr fun r hr => (W10_of_untouched m ρ c r (untouched_of_mem_argRefs r hr)).trans rfl
theorem argsK_W12 : argsK (W12 m ρ c) = argsK (W0 m ρ c) :=
  argsK_congr fun r hr => (W12_of_untouched m ρ c r (untouched_of_mem_argRefs r hr)).trans rfl
theorem argsK_W14 : argsK (W14 m ρ c) = argsK (W0 m ρ c) :=
  argsK_congr fun r hr => (W14_of_untouched m ρ c r (untouched_of_mem_argRefs r hr)).trans rfl
theorem argsK_W16 : argsK (W16 m ρ c) = argsK (W0 m ρ c) :=
  argsK_congr fun r hr => (W16_of_untouched m ρ c r (untouched_of_mem_argRefs r hr)).trans rfl

end Cert.KernelIdeal.Val

end
-- ==== Proof.ValAttn0.lean ====
/-
  REGION 0, read as values: what the attention kernel's launch leaves in its result array is, row by row, the
  specification's time-mixing layer.

  The launch walks the 2048 rows of the activation array in eight blocks of 256 rows. At a point the body sees the
  point's block x of activations and the whole of thirteen parameter arrays (nine rows of 1024 channels: the gain and
  bias of the normalisation, the carried state, the three mixing rows, the bonus, the carried numerator and
  denominator; four 1024 × 1024 matrices), and stores one value over the output block. Entry (p, o) of that value is
      x(p, o) + Σ_d g(p, d) · Wo(o, d),
  where, with n = the normalisation of row p (centred, divided by the root of its variance plus a small constant,
  times the gain plus the bias) and m_μ = n ⊙ μ + s ⊙ (1 − μ) its mixture with the carried state s by a mixing row μ,
      k = Σ_d m_μk(d) · Wk(·, d),   v = Σ_d m_μv(d) · Wv(·, d),   r = Σ_d m_μr(d) · Wr(·, d),   e = exp (tf + k),
      g = σ(r) · (num + e · v) / (den + e).
  Every quantity in it depends on row p of the block alone: the two lane sums run along the row, the four products
  contract the row against a matrix's rows, everything else acts entry by entry. So entry (p, o) is the
  specification's layer applied to row p, at channel o. The block at point t is rows 256·t … 256·t + 255 of the
  activation array and the parameter blocks are the parameter arrays themselves; the output block of point t is
  written back onto those same rows, and the eight blocks cover the result array. Sums are finite sums on the extended
  reals; a change of float format is the identity there; no finiteness is used.
-/
import proofs.«415492_j738734375128_3_alg».proof.Proof.Region0
import proofs.«415492_j738734375128_3_alg».proof.Proof.Spec
import Idealize.ShloMosaic.PureOps.Ideal.Laws
import Idealize.ShloMosaic.Lib.ValueIdx
import Idealize.ShloMosaic.Lib.ValueLayout
import Idealize.ShloMosaic.Lib.Pipeline.Value

-- membership of an index in a rectangle of these extents is decided structurally, one step per coordinate
set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## The operations the body is made of, read at an index -/

/-- A sum along the lanes of a row: the sum over the row's 1024 entries. -/
theorem val0_sumRow (src : FVec Ideal S256x1024 .f32) (h : S256x1024.Reduces [1] S256) (hφ : FKind.Formats .f32)
    (hacc : (0x00000000#32 : BitVec 32) = 0x00000000#32) (p : Fin 256) :
    multiReduction .add [1] S256 src 0x00000000#32 h hφ hacc (ix1 p) = ∑ k : Fin 1024, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-- A vector of 256 entries seen as a column: its entry at (p, 0) is the entry at p. -/
theorem val0_castCol {α : Type} (v : S256.Idx → α) (h : S256.ShapeCasts S256x1) (p : Fin 256) (u : Fin 1) :
    shapeCast S256x1 v h (ix2 p u) = v (ix1 p) :=
  shapeCast_apply v h _ _ (by
    have hu : u.val = 0 := by omega
    rw [Shape.rowMajor_val_two, Shape.rowMajor_val_one]
    show p.val = p.val * 1 + u.val
    omega)

/-- A column spread over the 1024 lanes: every lane of row p holds the column's entry at p. -/
theorem val0_bcastCol {α : Type} (v : S256x1.Idx → α) (h : S256x1.Broadcasts S256x1024) (p : Fin 256) (d : Fin 1024) :
    broadcastTo S256x1024 v h (ix2 p d) = v (ix2 p (0 : Fin 1)) := by
  refine broadcastTo_apply v h (ix2 p d) (ix2 p (0 : Fin 1)) fun ax => ?_
  match ax with
  | ⟨0, _⟩ => rfl
  | ⟨1, _⟩ => rfl

/-- The three transcendental operations act entry by entry. -/
theorem val0_rsqrt_apply {s : Shape} {φ : FTy} (a : FVec Ideal s φ) (i : s.Idx) : rsqrt a i = Ideal.rsqrt (a i) := rfl
theorem val0_exp_apply {s : Shape} {φ : FTy} (a : FVec Ideal s φ) (i : s.Idx) : exp a i = Ideal.exp (a i) := rfl
theorem val0_logistic_apply {s : Shape} {φ : FTy} (a : FVec Ideal s φ) (i : s.Idx) : logistic a i = Ideal.logistic (a i) := rfl

/-- The product of a block of 256 rows with the transpose of a 1024 × 1024 matrix, into a zero accumulator: entry
    (p, o) is the sum over the contracted coordinate k of row p at k times the matrix at (o, k). -/
theorem val0_matT (lhs : FVec Ideal S256x1024 .bf16) (rhs : FVec Ideal S1024x1024 .bf16) (p : Fin 256) (o : Fin 1024) :
    matmul dot_S256x1024_S1024x1024_S256x1024_1_1_0_0_n_n none lhs rhs (constant S256x1024 .f32 0x00000000#32) (ix2 p o)
      = ∑ k : Fin 1024, lhs (ix2 p k) * rhs (ix2 o k) := by
  show FloatOps.matmul dot_S256x1024_S1024x1024_S256x1024_1_1_0_0_n_n none lhs rhs (constant S256x1024 .f32 0x00000000#32) (ix2 p o) = _
  rw [Ideal.matmul_constant_zero_apply,
    ← Equiv.sum_comp (contrEquiv1 dot_S256x1024_S1024x1024_S256x1024_1_1_0_0_n_n 1024 rfl rfl).symm]
  refine Finset.sum_congr rfl fun k _ => ?_
  have ck := contrEquiv1_symm_val dot_S256x1024_S1024x1024_S256x1024_1_1_0_0_n_n 1024 rfl rfl k
  have hl : dot_S256x1024_S1024x1024_S256x1024_1_1_0_0_n_n.lhsIdx (ix2 p o)
      ((contrEquiv1 dot_S256x1024_S1024x1024_S256x1024_1_1_0_0_n_n 1024 rfl rfl).symm k) = ix2 p k := by
    funext ax; apply Fin.ext
    match ax with
    | ⟨0, _⟩ => simp [DotDims.lhsIdx, dot_S256x1024_S1024x1024_S256x1024_1_1_0_0_n_n]; rfl
    | ⟨1, _⟩ => simp [DotDims.lhsIdx, dot_S256x1024_S1024x1024_S256x1024_1_1_0_0_n_n]; exact ck
  have hr : dot_S256x1024_S1024x1024_S256x1024_1_1_0_0_n_n.rhsIdx (ix2 p o)
      ((contrEquiv1 dot_S256x1024_S1024x1024_S256x1024_1_1_0_0_n_n 1024 rfl rfl).symm k) = ix2 o k := by
    funext ax; apply Fin.ext
    match ax with
    | ⟨0, _⟩ => simp [DotDims.rhsIdx, dot_S256x1024_S1024x1024_S256x1024_1_1_0_0_n_n]; rfl
    | ⟨1, _⟩ => simp [DotDims.rhsIdx, dot_S256x1024_S1024x1024_S256x1024_1_1_0_0_n_n]; exact ck
  rw [hl, hr]

/-! ## The body's values at an entry -/

/-- The normalised row: entry (p, d) of the body's first value is the layer normalisation of row p, with the gain
    and bias rows, at channel d. The two lane sums are the row's mean and its variance about that mean. -/
theorem pay0_3_apply (x0 : Vec Ideal S256x1024 .f32) (x1 x2 : Vec Ideal S1x1024 .f32) (p : Fin 256) (d : Fin 1024) :
    k0_pay3 x0 x1 x2 (ix2 p d)
      = Cert.Spec.lnRow (fun k => x1 (ix2 (0 : Fin 1) k)) (fun k => x2 (ix2 (0 : Fin 1) k)) (fun k => x0 (ix2 p k)) d := by
  unfold k0_pay3 k0_pay2
  simp only [shapeCast_self, addf_apply, mulf_apply, subf_apply, divf_apply, val0_rsqrt_apply, broadcast_apply,
    broadcastTo_1b_ab_apply, val0_bcastCol, val0_castCol]
  rw [val0_sumRow, val0_sumRow]
  simp only [shapeCast_self, mulf_apply, subf_apply, divf_apply, broadcast_apply, val0_bcastCol, val0_castCol]
  rw [val0_sumRow]
  rfl

/-- Four of the body's values are parameter rows as loaded. -/
theorem pay0_2_eq (v : Vec Ideal S256x1024 .f32) : k0_pay2 v = v := by unfold k0_pay2; exact shapeCast_self _ _
theorem pay0_4_eq (v : Vec Ideal S1x1024 .f32) : k0_pay4 v = v := by unfold k0_pay4; exact shapeCast_self _ _
theorem pay0_5_eq (v : Vec Ideal S1x1024 .f32) : k0_pay5 v = v := by unfold k0_pay5; exact shapeCast_self _ _
theorem pay0_6_eq (v : Vec Ideal S1x1024 .f32) : k0_pay6 v = v := by unfold k0_pay6; exact shapeCast_self _ _
theorem pay0_7_eq (v : Vec Ideal S1x1024 .f32) : k0_pay7 v = v := by unfold k0_pay7; exact shapeCast_self _ _

/-- The row of ones. -/
theorem pay0_9_apply (u : Fin 1) (d : Fin 1024) : k0_pay9 (F := Ideal) (ix2 u d) = Cert.Spec.cone := rfl

/-- The normalised row times the key's mixing row. -/
theorem pay0_8_apply (x0 : Vec Ideal S256x1024 .f32) (x1 x2 x4 : Vec Ideal S1x1024 .f32) (p : Fin 256) (d : Fin 1024) :
    k0_pay8 x0 x1 x2 x4 (ix2 p d) = k0_pay3 x0 x1 x2 (ix2 p d) * x4 (ix2 (0 : Fin 1) d) := by
  unfold k0_pay8 k0_pay5
  simp only [shapeCast_self, mulf_apply, broadcastTo_1b_ab_apply]

/-- The receptance's projection: the row mixed with the carried state by the receptance's mixing row, times the
    transpose of its matrix. -/
theorem pay0_10_apply (v27 : FVec Ideal S256x1024 .f32) (v29 v35 : FVec Ideal S1x1024 .f32) (v66 : Vec Ideal S1024x1024 .bf16)
    (p : Fin 256) (o : Fin 1024) :
    k0_pay10 v27 v29 v35 v66 (ix2 p o)
      = ∑ k : Fin 1024, (v27 (ix2 p k) * v35 (ix2 (0 : Fin 1) k)
          + v29 (ix2 (0 : Fin 1) k) * (Cert.Spec.cone - v35 (ix2 (0 : Fin 1) k))) * v66 (ix2 o k) := by
  unfold k0_pay10
  simp only [shapeCast_self, val0_matT, truncf_apply, addf_apply, mulf_apply, subf_apply, broadcast_apply,
    broadcastTo_1b_ab_apply]
  rfl

/-- The exponential of the bonus row plus the key's projection. -/
theorem pay0_11_apply (v29 v31 : FVec Ideal S1x1024 .f32) (v37 : FVec Ideal S256x1024 .f32) (v38 : FVec Ideal S1x1024 .f32)
    (v58 : Vec Ideal S1024x1024 .bf16) (v69 : Vec Ideal S1x1024 .f32) (p : Fin 256) (o : Fin 1024) :
    k0_pay11 v29 v31 v37 v38 v58 v69 (ix2 p o)
      = Ideal.exp (v69 (ix2 (0 : Fin 1) o) + ∑ k : Fin 1024, (v37 (ix2 p k)
          + v29 (ix2 (0 : Fin 1) k) * (v38 (ix2 (0 : Fin 1) k) - v31 (ix2 (0 : Fin 1) k))) * v58 (ix2 o k)) := by
  unfold k0_pay11
  simp only [shapeCast_self, val0_matT, truncf_apply, addf_apply, mulf_apply, subf_apply, val0_exp_apply,
    broadcastTo_1b_ab_apply]

/-- The numerator: the carried numerator row plus that exponential times the value's projection. -/
theorem pay0_12_apply (v27 : FVec Ideal S256x1024 .f32) (v29 v31 v33 : FVec Ideal S1x1024 .f32) (v37 : FVec Ideal S256x1024 .f32)
    (v38 : FVec Ideal S1x1024 .f32) (v58 v62 : Vec Ideal S1024x1024 .bf16) (v69 v71 : Vec Ideal S1x1024 .f32)
    (p : Fin 256) (o : Fin 1024) :
    k0_pay12 v27 v29 v31 v33 v37 v38 v58 v62 v69 v71 (ix2 p o)
      = v71 (ix2 (0 : Fin 1) o) + k0_pay11 v29 v31 v37 v38 v58 v69 (ix2 p o)
          * ∑ k : Fin 1024, (v27 (ix2 p k) * v33 (ix2 (0 : Fin 1) k)
              + v29 (ix2 (0 : Fin 1) k) * (Cert.Spec.cone - v33 (ix2 (0 : Fin 1) k))) * v62 (ix2 o k) := by
  unfold k0_pay12
  simp only [shapeCast_self, val0_matT, truncf_apply, addf_apply, mulf_apply, subf_apply, broadcast_apply,
    broadcastTo_1b_ab_apply]
  rfl

/-- The carried denominator row, spread over the rows. -/
theorem pay0_13_apply (v73 : Vec Ideal S1x1024 .f32) (p : Fin 256) (o : Fin 1024) :
    k0_pay13 v73 (ix2 p o) = v73 (ix2 (0 : Fin 1) o) := by
  unfold k0_pay13
  simp only [shapeCast_self, broadcastTo_1b_ab_apply]

/-- The stored value: the row plus the output matrix's projection of the gated ratio. -/
theorem pay0_1_apply (v1 v68 v77 v80 v81 : FVec Ideal S256x1024 .f32) (v87 : Vec Ideal S1024x1024 .bf16)
    (p : Fin 256) (o : Fin 1024) :
    k0_pay1 v1 v68 v77 v80 v81 v87 (ix2 p o)
      = v1 (ix2 p o) + ∑ k : Fin 1024, (Ideal.logistic (v68 (ix2 p k))
          * Ideal.div (v80 (ix2 p k)) (v81 (ix2 p k) + v77 (ix2 p k))) * v87 (ix2 o k) := by
  unfold k0_pay1
  simp only [shapeCast_self, val0_matT, truncf_apply, addf_apply, mulf_apply, divf_apply, val0_logistic_apply]

/-! ## What the body leaves in the output block, at an entry -/

theorem hz0 : (![0, 0] : Fin 2 → Nat) = fun _ => 0 := funext fun a => by fin_cases a <;> rfl

/-- The layer's parameters as thirteen blocks hold them: nine rows and four matrices. -/
def attnP0_of (x1 x2 x3 x4 x5 x6 x7 x8 x9 : Vec Ideal S1x1024 .f32) (x10 x11 x12 x13 : Vec Ideal S1024x1024 .bf16) :
    Cert.Spec.AttnP where
  lnw := fun d => x1 (ix2 (0 : Fin 1) d)
  lnb := fun d => x2 (ix2 (0 : Fin 1) d)
  sx := fun d => x3 (ix2 (0 : Fin 1) d)
  mixk := fun d => x4 (ix2 (0 : Fin 1) d)
  mixv := fun d => x5 (ix2 (0 : Fin 1) d)
  mixr := fun d => x6 (ix2 (0 : Fin 1) d)
  tf := fun d => x7 (ix2 (0 : Fin 1) d)
  num := fun d => x8 (ix2 (0 : Fin 1) d)
  den := fun d => x9 (ix2 (0 : Fin 1) d)
  Wk := fun o d => x10 (ix2 o d)
  Wv := fun o d => x11 (ix2 o d)
  Wr := fun o d => x12 (ix2 o d)
  Wo := fun o d => x13 (ix2 o d)

/-- Equal blocks hold equal parameters. -/
theorem attnP0_congr {x1 x2 x3 x4 x5 x6 x7 x8 x9 y1 y2 y3 y4 y5 y6 y7 y8 y9 : Vec Ideal S1x1024 .f32}
    {x10 x11 x12 x13 y10 y11 y12 y13 : Vec Ideal S1024x1024 .bf16}
    (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) :
    attnP0_of x1 x2 x3 x4 x5 x6 x7 x8 x9 x10 x11 x12 x13 = attnP0_of y1 y2 y3 y4 y5 y6 y7 y8 y9 y10 y11 y12 y13 := by
  subst h1 h2 h3 h4 h5 h6 h7 h8 h9 h10 h11 h12 h13
  rfl

/-- Entry (p, o) of what the body stores is the time-mixing layer, with the parameters the thirteen parameter
    blocks hold, applied to row p of the activation block, at channel o. -/
theorem val0_out (x0 : Vec Ideal S256x1024 .f32) (x1 x2 x3 x4 x5 x6 x7 x8 x9 : Vec Ideal S1x1024 .f32)
    (x10 x11 x12 x13 : Vec Ideal S1024x1024 .bf16) (p : Fin 256) (o : Fin 1024) :
    out0_14 x0 x1 x2 x3 x4 x5 x6 x7 x8 x9 x10 x11 x12 x13 (ix2 p o)
      = Cert.Spec.attnRow (attnP0_of x1 x2 x3 x4 x5 x6 x7 x8 x9 x10 x11 x12 x13) (fun k => x0 (ix2 p k)) o := by
  unfold out0_14
  rw [View.canon_unit_zero hz0]
  simp only [View.ld_unit_zero (S := S256x1024) hz0, View.ld_unit_zero (S := S1x1024) hz0,
    View.ld_unit_zero (S := S1024x1024) hz0]
  rw [pay0_1_apply]
  simp only [pay0_10_apply, pay0_11_apply, pay0_12_apply, pay0_13_apply, pay0_8_apply, pay0_3_apply, pay0_2_eq, pay0_4_eq,
    pay0_5_eq, pay0_6_eq, pay0_7_eq, pay0_9_apply]
  rfl

/-! ## The blocks the windows show, read off their arrays -/

variable (V : (c : Dev nD) → (b : Ref sig .tc) → Buf (Elt Ideal) ((c : Thread nD τ).loc b))

/-- The index maps over the eight points: the activation window and the output window show the point's own block of
    256 rows; every parameter window shows its one block at every point. -/
theorem val0_idx_0 : ∀ t : Fin cfg0.N, win0_0.index t (0 : Fin 2) = t.val ∧ win0_0.index t (1 : Fin 2) = 0 :=
  (by decide +kernel : ∀ t : Fin grid0.N, _)
theorem val0_idx_14 : ∀ t : Fin cfg0.N, win0_14.index t (0 : Fin 2) = t.val ∧ win0_14.index t (1 : Fin 2) = 0 :=
  (by decide +kernel : ∀ t : Fin grid0.N, _)
theorem val0_idx_1 : ∀ t : Fin cfg0.N, win0_1.index t (0 : Fin 2) = 0 ∧ win0_1.index t (1 : Fin 2) = 0 :=
  (by decide +kernel : ∀ t : Fin grid0.N, _)
theorem val0_idx_2 : ∀ t : Fin cfg0.N, win0_2.index t (0 : Fin 2) = 0 ∧ win0_2.index t (1 : Fin 2) = 0 :=
  (by decide +kernel : ∀ t : Fin grid0.N, _)
theorem val0_idx_3 : ∀ t : Fin cfg0.N, win0_3.index t (0 : Fin 2) = 0 ∧ win0_3.index t (1 : Fin 2) = 0 :=
  (by decide +kernel : ∀ t : Fin grid0.N, _)
theorem val0_idx_4 : ∀ t : Fin cfg0.N, win0_4.index t (0 : Fin 2) = 0 ∧ win0_4.index t (1 : Fin 2) = 0 :=
  (by decide +kernel : ∀ t : Fin grid0.N, _)
theorem val0_idx_5 : ∀ t : Fin cfg0.N, win0_5.index t (0 : Fin 2) = 0 ∧ win0_5.index t (1 : Fin 2) = 0 :=
  (by decide +kernel : ∀ t : Fin grid0.N, _)
theorem val0_idx_6 : ∀ t : Fin cfg0.N, win0_6.index t (0 : Fin 2) = 0 ∧ win0_6.index t (1 : Fin 2) = 0 :=
  (by decide +kernel : ∀ t : Fin grid0.N, _)
theorem val0_idx_7 : ∀ t : Fin cfg0.N, win0_7.index t (0 : Fin 2) = 0 ∧ win0_7.index t (1 : Fin 2) = 0 :=
  (by decide +kernel : ∀ t : Fin grid0.N, _)
theorem val0_idx_8 : ∀ t : Fin cfg0.N, win0_8.index t (0 : Fin 2) = 0 ∧ win0_8.index t (1 : Fin 2) = 0 :=
  (by decide +kernel : ∀ t : Fin grid0.N, _)
theorem val0_idx_9 : ∀ t : Fin cfg0.N, win0_9.index t (0 : Fin 2) = 0 ∧ win0_9.index t (1 : Fin 2) = 0 :=
  (by decide +kernel : ∀ t : Fin grid0.N, _)
theorem val0_idx_10 : ∀ t : Fin cfg0.N, win0_10.index t (0 : Fin 2) = 0 ∧ win0_10.index t (1 : Fin 2) = 0 :=
  (by decide +kernel : ∀ t : Fin grid0.N, _)
theorem val0_idx_11 : ∀ t : Fin cfg0.N, win0_11.index t (0 : Fin 2) = 0 ∧ win0_11.index t (1 : Fin 2) = 0 :=
  (by decide +kernel : ∀ t : Fin grid0.N, _)
theorem val0_idx_12 : ∀ t : Fin cfg0.N, win0_12.index t (0 : Fin 2) = 0 ∧ win0_12.index t (1 : Fin 2) = 0 :=
  (by decide +kernel : ∀ t : Fin grid0.N, _)
theorem val0_idx_13 : ∀ t : Fin cfg0.N, win0_13.index t (0 : Fin 2) = 0 ∧ win0_13.index t (1 : Fin 2) = 0 :=
  (by decide +kernel : ∀ t : Fin grid0.N, _)

/-- The activation window's block at point t is rows 256·t … 256·t + 255 of its array. -/
theorem blk0_0 (c : Dev nD) (t : Fin cfg0.N) (p : Fin 256) (d : Fin 1024) (r : Fin 2048) (hr : r.val = t.val * 256 + p.val) :
    (iblk0 (F := Ideal) V c 0 t : S256x1024.Idx → EReal) (ix2 p d)
      = (V c (Pipeline.arrRef spec0 0) : S2048x1024.Idx → EReal) (ix2 r d) := by
  obtain ⟨e0, e1⟩ := val0_idx_0 t
  unfold iblk0
  rw [View.read_apply]
  show (V c (Pipeline.arrRef spec0 0) : S2048x1024.Idx → EReal) _ = _
  refine congrArg (V c (Pipeline.arrRef spec0 0) : S2048x1024.Idx → EReal) ?_
  funext a; apply Fin.ext
  match a with
  | ⟨0, _⟩ => show win0_0.index t (0 : Fin 2) * 256 + 1 * p.val = r.val; rw [e0, hr]; omega
  | ⟨1, _⟩ => show win0_0.index t (1 : Fin 2) * 1024 + 1 * d.val = d.val; rw [e1]; omega

/-- A parameter window's block is its whole array, at every point. -/
theorem blk0_1 (c : Dev nD) (t : Fin cfg0.N) :
    (iblk0 (F := Ideal) V c 1 t : S1x1024.Idx → EReal) = (V c (Pipeline.arrRef spec0 1) : S1x1024.Idx → EReal) := by
  obtain ⟨e0, e1⟩ := val0_idx_1 t
  funext y
  unfold iblk0
  rw [View.read_apply]
  show (V c (Pipeline.arrRef spec0 1) : S1x1024.Idx → EReal) _ = _
  refine congrArg (V c (Pipeline.arrRef spec0 1) : S1x1024.Idx → EReal) ?_
  funext a; apply Fin.ext
  match a with
  | ⟨0, _⟩ => show win0_1.index t (0 : Fin 2) * 1 + 1 * (y 0).val = (y 0).val; rw [e0]; omega
  | ⟨1, _⟩ => show win0_1.index t (1 : Fin 2) * 1024 + 1 * (y 1).val = (y 1).val; rw [e1]; omega
theorem blk0_2 (c : Dev nD) (t : Fin cfg0.N) :
    (iblk0 (F := Ideal) V c 2 t : S1x1024.Idx → EReal) = (V c (Pipeline.arrRef spec0 2) : S1x1024.Idx → EReal) := by
  obtain ⟨e0, e1⟩ := val0_idx_2 t
  funext y
  unfold iblk0
  rw [View.read_apply]
  show (V c (Pipeline.arrRef spec0 2) : S1x1024.Idx → EReal) _ = _
  refine congrArg (V c (Pipeline.arrRef spec0 2) : S1x1024.Idx → EReal) ?_
  funext a; apply Fin.ext
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega
theorem blk0_3 (c : Dev nD) (t : Fin cfg0.N) :
    (iblk0 (F := Ideal) V c 3 t : S1x1024.Idx → EReal) = (V c (Pipeline.arrRef spec0 3) : S1x1024.Idx → EReal) := by
  obtain ⟨e0, e1⟩ := val0_idx_3 t
  funext y
  unfold iblk0
  rw [View.read_apply]
  show (V c (Pipeline.arrRef spec0 3) : S1x1024.Idx → EReal) _ = _
  refine congrArg (V c (Pipeline.arrRef spec0 3) : S1x1024.Idx → EReal) ?_
  funext a; apply Fin.ext
  match a with
  | ⟨0, _⟩ => show win0_3.index t (0 : Fin 2) * 1 + 1 * (y 0).val = (y 0).val; rw [e0]; omega
  | ⟨1, _⟩ => show win0_3.index t (1 : Fin 2) * 1024 + 1 * (y 1).val = (y 1).val; rw [e1]; omega
theorem blk0_4 (c : Dev nD) (t : Fin cfg0.N) :
    (iblk0 (F := Ideal) V c 4 t : S1x1024.Idx → EReal) = (V c (Pipeline.arrRef spec0 4) : S1x1024.Idx → EReal) := by
  obtain ⟨e0, e1⟩ := val0_idx_4 t
  funext y
  unfold iblk0
  rw [View.read_apply]
  show (V c (Pipeline.arrRef spec0 4) : S1x1024.Idx → EReal) _ = _
  refine congrArg (V c (Pipeline.arrRef spec0 4) : S1x1024.Idx → EReal) ?_
  funext a; apply Fin.ext
  match a with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega
theorem blk0_5 (c : Dev nD) (t : Fin cfg0.N) :
    (iblk0 (F := Ideal) V c 5 t : S1x1024.Idx → EReal) = (V c (Pipeline.arrRef spec0 5) : S1x1024.Idx → EReal) := by
  obtain ⟨e0, e1⟩ := val0_idx_5 t
  funext y
  unfold iblk0
  rw [View.read_apply]
  show (V c (Pipeline.arrRef spec0 5) : S1x1024.Idx → EReal) _ = _
  refine congrArg (V c (Pipeline.arrRef spec0 5) : S1x1024.Idx → EReal) ?_
  funext a; apply Fin.ext
  match a with
  | ⟨0, _⟩ => show win0_5.index t (0 : Fin 2) * 1 + 1 * (y 0).val = (y 0).val; rw [e0]; omega
  | ⟨1, _⟩ => show win0_5.index t (1 : Fin 2) * 1024 + 1 * (y 1).val = (y 1).val; rw [e1]; omega
theorem blk0_6 (c : Dev nD) (t : Fin cfg0.N) :
    (iblk0 (F := Ideal) V c 6 t : S1x1024.Idx → EReal) = (V c (Pipeline.arrRef spec0 6) : S1x1024.Idx → EReal) := by
  obtain ⟨e0, e1⟩ := val0_idx_6 t
  funext y
  unfold iblk0
  rw [View.read_apply]
  show (V c (Pipeline.arrRef spec0 6) : S1x1024.Idx → EReal) _ = _
  refine congrArg (V c (Pipeline.arrRef spec0 6) : S1x1024.Idx → EReal) ?_
  funext a; apply Fin.ext
  match a with
  | ⟨0, _⟩ => show win0_6.index t (0 : Fin 2) * 1 + 1 * (y 0).val = (y 0).val; rw [e0]; omega
  | ⟨1, _⟩ => show win0_6.index t (1 : Fin 2) * 1024 + 1 * (y 1).val = (y 1).val; rw [e1]; omega
theorem blk0_7 (c : Dev nD) (t : Fin cfg0.N) :
    (iblk0 (F := Ideal) V c 7 t : S1x1024.Idx → EReal) = (V c (Pipeline.arrRef spec0 7) : S1x1024.Idx → EReal) := by
  obtain ⟨e0, e1⟩ := val0_idx_7 t
  funext y
  unfold iblk0
  rw [View.read_apply]
  show (V c (Pipeline.arrRef spec0 7) : S1x1024.Idx → EReal) _ = _
  refine congrArg (V c (Pipeline.arrRef spec0 7) : S1x1024.Idx → EReal) ?_
  funext a; apply Fin.ext
  match a with
  | ⟨0, _⟩ => show win0_7.index t (0 : Fin 2) * 1 + 1 * (y 0).val = (y 0).val; rw [e0]; omega
  | ⟨1, _⟩ => show win0_7.index t (1 : Fin 2) * 1024 + 1 * (y 1).val = (y 1).val; rw [e1]; omega
theorem blk0_8 (c : Dev nD) (t : Fin cfg0.N) :
    (iblk0 (F := Ideal) V c 8 t : S1x1024.Idx → EReal) = (V c (Pipeline.arrRef spec0 8) : S1x1024.Idx → EReal) := by
  obtain ⟨e0, e1⟩ := val0_idx_8 t
  funext y
  unfold iblk0
  rw [View.read_apply]
  show (V c (Pipeline.arrRef spec0 8) : S1x1024.Idx → EReal) _ = _
  refine congrArg (V c (Pipeline.arrRef spec0 8) : S1x1024.Idx → EReal) ?_
  funext a; apply Fin.ext
  match a with
  | ⟨0, _⟩ => show win0_8.index t (0 : Fin 2) * 1 + 1 * (y 0).val = (y 0).val; rw [e0]; omega
  | ⟨1, _⟩ => show win0_8.index t (1 : Fin 2) * 1024 + 1 * (y 1).val = (y 1).val; rw [e1]; omega
theorem blk0_9 (c : Dev nD) (t : Fin cfg0.N) :
    (iblk0 (F := Ideal) V c 9 t : S1x1024.Idx → EReal) = (V c (Pipeline.arrRef spec0 9) : S1x1024.Idx → EReal) := by
  obtain ⟨e0, e1⟩ := val0_idx_9 t
  funext y
  unfold iblk0
  rw [View.read_apply]
  show (V c (Pipeline.arrRef spec0 9) : S1x1024.Idx → EReal) _ = _
  refine congrArg (V c (Pipeline.arrRef spec0 9) : S1x1024.Idx → EReal) ?_
  funext a; apply Fin.ext
  match a with
  | ⟨0, _⟩ => show win0_9.index t (0 : Fin 2) * 1 + 1 * (y 0).val = (y 0).val; rw [e0]; omega
  | ⟨1, _⟩ => show win0_9.index t (1 : Fin 2) * 1024 + 1 * (y 1).val = (y 1).val; rw [e1]; omega
theorem blk0_10 (c : Dev nD) (t : Fin cfg0.N) :
    (iblk0 (F := Ideal) V c 10 t : S1024x1024.Idx → EReal) = (V c (Pipeline.arrRef spec0 10) : S1024x1024.Idx → EReal) := by
  obtain ⟨e0, e1⟩ := val0_idx_10 t
  funext y
  unfold iblk0
  rw [View.read_apply]
  show (V c (Pipeline.arrRef spec0 10) : S1024x1024.Idx → EReal) _ = _
  refine congrArg (V c (Pipeline.arrRef spec0 10) : S1024x1024.Idx → EReal) ?_
  funext a; apply Fin.ext
  match a with
  | ⟨0, _⟩ => show win0_10.index t (0 : Fin 2) * 1024 + 1 * (y 0).val = (y 0).val; rw [e0]; omega
  | ⟨1, _⟩ => show win0_10.index t (1 : Fin 2) * 1024 + 1 * (y 1).val = (y 1).val; rw [e1]; omega
theorem blk0_11 (c : Dev nD) (t : Fin cfg0.N) :
    (iblk0 (F := Ideal) V c 11 t : S1024x1024.Idx → EReal) = (V c (Pipeline.arrRef spec0 11) : S1024x1024.Idx → EReal) := by
  obtain ⟨e0, e1⟩ := val0_idx_11 t
  funext y
  unfold iblk0
  rw [View.read_apply]
  show (V c (Pipeline.arrRef spec0 11) : S1024x1024.Idx → EReal) _ = _
  refine congrArg (V c (Pipeline.arrRef spec0 11) : S1024x1024.Idx → EReal) ?_
  funext a; apply Fin.ext
  match a with
  | ⟨0, _⟩ => show win0_11.index t (0 : Fin 2) * 1024 + 1 * (y 0).val = (y 0).val; rw [e0]; omega
  | ⟨1, _⟩ => show win0_11.index t (1 : Fin 2) * 1024 + 1 * (y 1).val = (y 1).val; rw [e1]; omega
theorem blk0_12 (c : Dev nD) (t : Fin cfg0.N) :
    (iblk0 (F := Ideal) V c 12 t : S1024x1024.Idx → EReal) = (V c (Pipeline.arrRef spec0 12) : S1024x1024.Idx → EReal) := by
  obtain ⟨e0, e1⟩ := val0_idx_12 t
  funext y
  unfold iblk0
  rw [View.read_apply]
  show (V c (Pipeline.arrRef spec0 12) : S1024x1024.Idx → EReal) _ = _
  refine congrArg (V c (Pipeline.arrRef spec0 12) : S1024x1024.Idx → EReal) ?_
  funext a; apply Fin.ext
  match a with
  | ⟨0, _⟩ => show win0_12.index t (0 : Fin 2) * 1024 + 1 * (y 0).val = (y 0).val; rw [e0]; omega
  | ⟨1, _⟩ => show win0_12.index t (1 : Fin 2) * 1024 + 1 * (y 1).val = (y 1).val; rw [e1]; omega
theorem blk0_13 (c : Dev nD) (t : Fin cfg0.N) :
    (iblk0 (F := Ideal) V c 13 t : S1024x1024.Idx → EReal) = (V c (Pipeline.arrRef spec0 13) : S1024x1024.Idx → EReal) := by
  obtain ⟨e0, e1⟩ := val0_idx_13 t
  funext y
  unfold iblk0
  rw [View.read_apply]
  show (V c (Pipeline.arrRef spec0 13) : S1024x1024.Idx → EReal) _ = _
  refine congrArg (V c (Pipeline.arrRef spec0 13) : S1024x1024.Idx → EReal) ?_
  funext a; apply Fin.ext
  match a with
  | ⟨0, _⟩ => show win0_13.index t (0 : Fin 2) * 1024 + 1 * (y 0).val = (y 0).val; rw [e0]; omega
  | ⟨1, _⟩ => show win0_13.index t (1 : Fin 2) * 1024 + 1 * (y 1).val = (y 1).val; rw [e1]; omega

/-! ## The result array -/

/-- The layer's parameters, read off the region's thirteen parameter arrays. -/
def attnP0 (c : Dev nD) : Cert.Spec.AttnP :=
  attnP0_of (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13))

/-- Row r of the region's activation array. -/
def xrow0 (c : Dev nD) (r : Fin 2048) : Cert.Spec.Row :=
  fun d => (V c (Pipeline.arrRef spec0 0) : S2048x1024.Idx → EReal) (ix2 r d)

/-- The whole result as one function of the region's arrays: row r is the layer applied to row r of the activations. -/
def arr0_G (c : Dev nD) : S2048x1024.Idx → EReal :=
  fun i => Cert.Spec.attnRow (attnP0 V c) (xrow0 V c (i 0)) (i 1)

/-- At every point the thirteen parameter blocks hold the layer's parameters. -/
theorem row0_P (c : Dev nD) (t : Fin cfg0.N) :
    attnP0_of (iblk0 (F := Ideal) V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) = attnP0 V c :=
  attnP0_congr (blk0_1 V c t) (blk0_2 V c t) (blk0_3 V c t) (blk0_4 V c t) (blk0_5 V c t) (blk0_6 V c t) (blk0_7 V c t) (blk0_8 V c t) (blk0_9 V c t) (blk0_10 V c t) (blk0_11 V c t) (blk0_12 V c t) (blk0_13 V c t)

/-- Row p of the activation block at point t is row 256·t + p of the activation array. -/
theorem row0_x (c : Dev nD) (t : Fin cfg0.N) (p : Fin 256) (r : Fin 2048) (hr : r.val = t.val * 256 + p.val) :
    (fun k => (iblk0 (F := Ideal) V c 0 t : S256x1024.Idx → EReal) (ix2 p k)) = xrow0 V c r :=
  funext fun k => blk0_0 V c t p k r hr

/-- What point t writes back is its block of 256 rows of the whole result: the stored entry (p, o) is the layer on
    row p of the activation block, which is row 256·t + p of the array, and the block lands on those same rows. -/
theorem flushed0_eq (c : Dev nD) (t : Fin cfg0.N) :
    (dat0 (F := Ideal) V c).flushed 14 t = ((cfg0.win 14).blk t).view.read (Elt Ideal) (arr0_G V c) := by
  obtain ⟨e0, e1⟩ := val0_idx_14 t
  have hN : cfg0.N = 8 := N_0
  have ht : t.val < 8 := hN ▸ t.isLt
  show (cfg0.win 14).cut (grid0.coords t) ((dat0 (F := Ideal) V c).after 14 t) = _
  rw [after0_14]
  funext j
  have hj0 : (j 0).val < 256 := (j 0).isLt
  have hj1 : (j 1).val < 1024 := (j 1).isLt
  obtain ⟨p, hp⟩ : ∃ p : Fin 256, p.val = (j 0).val := ⟨⟨(j 0).val, hj0⟩, rfl⟩
  obtain ⟨o, ho⟩ : ∃ o : Fin 1024, o.val = (j 1).val := ⟨⟨(j 1).val, hj1⟩, rfl⟩
  obtain ⟨r, hr⟩ : ∃ r : Fin 2048, r.val = t.val * 256 + p.val := ⟨⟨t.val * 256 + p.val, by omega⟩, rfl⟩
  have hy : ((cfg0.win 14).xinj (grid0.coords t) j : S256x1024.Idx) = ix2 p o := by
    funext a; apply Fin.ext
    match a with
    | ⟨0, _⟩ => exact hp.symm
    | ⟨1, _⟩ => exact ho.symm
  have hemb : (((cfg0.win 14).blk t).view.emb j : S2048x1024.Idx) = ix2 r o := by
    funext a; apply Fin.ext
    match a with
    | ⟨0, _⟩ => show win0_14.index t (0 : Fin 2) * 256 + 1 * (j 0).val = r.val; rw [e0, hr, hp]; omega
    | ⟨1, _⟩ => show win0_14.index t (1 : Fin 2) * 1024 + 1 * (j 1).val = o.val; rw [e1, ho]; omega
  rw [View.read_apply]
  show out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) ((cfg0.win 14).xinj (grid0.coords t) j)
    = arr0_G V c (((cfg0.win 14).blk t).view.emb j)
  rw [hy, hemb]
  refine (val0_out (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) p o).trans ?_
  show Cert.Spec.attnRow (attnP0_of (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)) (fun k => (iblk0 V c 0 t : S256x1024.Idx → EReal) (ix2 p k)) o
    = Cert.Spec.attnRow (attnP0 V c) (xrow0 V c r) o
  exact congrArg₂ (fun P x => Cert.Spec.attnRow P x o) (row0_P V c t) (row0_x V c t p r hr)

/-- Every entry of the result array is in the block some point writes back: row r is in the block of point r / 256. -/
theorem val0_cover (i : S2048x1024.Idx) :
    ∃ t : Fin cfg0.N, (cfg0.win 14).flush t = true ∧ i ∈ ((cfg0.win 14).blk t).view.set := by
  have h0 : (i 0).val < 2048 := (i 0).isLt
  have h1 : (i 1).val < 1024 := (i 1).isLt
  have hN : cfg0.N = 8 := N_0
  obtain ⟨t, ht⟩ : ∃ t : Fin cfg0.N, t.val = (i 0).val / 256 := ⟨⟨(i 0).val / 256, by rw [hN]; omega⟩, rfl⟩
  obtain ⟨e0, e1⟩ := val0_idx_14 t
  refine ⟨t, flush0_14 t, ?_⟩
  show i ∈ ((View.whole (Pipeline.arrRef spec0 14)).slice (win0_14.rect t)).set
  rw [View.set_slice_whole, Rect.mem_set_unit]
  intro a
  match a with
  | ⟨0, _⟩ =>
    show win0_14.index t (0 : Fin 2) * 256 ≤ (i 0).val ∧ (i 0).val < win0_14.index t (0 : Fin 2) * 256 + 256
    rw [e0, ht]; omega
  | ⟨1, _⟩ =>
    show win0_14.index t (1 : Fin 2) * 1024 ≤ (i 1).val ∧ (i 1).val < win0_14.index t (1 : Fin 2) * 1024 + 1024
    rw [e1]; omega

/-- After the region the result array holds, row by row, the time-mixing layer of the activation array's rows. -/
theorem arr0_eq (c : Dev nD) : (dat0 (F := Ideal) V c).arrAt 14 cfg0.N = arr0_G V c :=
  (dat0 (F := Ideal) V c).arrAt_eq_of_cover 14 (arr0_G V c) (fun t _ => flushed0_eq V c t) val0_cover

/-- Entry (r, o) of the result array is the layer, with the region's parameters, on row r of the activations, at o. -/
theorem final0 (c : Dev nD) (r : Fin 2048) (o : Fin 1024) :
    ((dat0 (F := Ideal) V c).arrAt 14 cfg0.N : S2048x1024.Idx → EReal) (ix2 r o)
      = Cert.Spec.attnRow (attnP0 V c) (xrow0 V c r) o :=
  congrFun (arr0_eq V c) (ix2 r o)

end Cert.KernelIdeal.Val

end
-- ==== Proof.ValFfn1.lean ====
/- The value of region 1 (the feed-forward call) at the ideal reals: the array the region writes holds, row by row, the
   channel-mixing layer of the specification applied to that row of the state the region is entered with, the layer's
   parameters read off the region's other arrays. First the body's payloads at an index (layer normalisation, the two
   mixes, a block product as a sum over its contraction, one chunk's step of the accumulator); then one tile's value:
   the four chunks' steps over zero regroup to the one sum over the 4096 hidden units; then the windows' blocks as parts
   of their arrays, what a tile's last point writes back, the cover of the array by those blocks, and the result. -/
import proofs.«415492_j738734375128_3_alg».proof.Proof.Region1
import proofs.«415492_j738734375128_3_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin

noncomputable section

namespace Cert.KernelIdeal.Val

open Cert.KernelIdeal Cert.KernelIdeal.Gen
open Idealize.ShloMosaic Idealize.ShloMosaic.ValueIdx

/-! Everything but the three results lives in a namespace of this region's own. -/
namespace Ffn1

/-! ## Layout operations at an index: the column forms -/

/-- An `[a]` array cast to `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` (more than one row) reads, at `(p, c)`, the column at `p`. -/
theorem broadcastTo_a1_ab_apply {α : Type} {a b : ℕ} (ha : a ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-! ## The block product at an index -/

/-- The left operand's row is the output's row, -/
theorem lhs_dot_0 (j : S256x1024.Idx) (k : dot_S256x1024_S1024x1024_S256x1024_1_1_0_0_n_n.contr.Idx) :
    ((dot_S256x1024_S1024x1024_S256x1024_1_1_0_0_n_n.lhsIdx j k) 0).val = (j 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl
/-- its column the contraction position; -/
theorem lhs_dot_1 (j : S256x1024.Idx) (k : dot_S256x1024_S1024x1024_S256x1024_1_1_0_0_n_n.contr.Idx) :
    ((dot_S256x1024_S1024x1024_S256x1024_1_1_0_0_n_n.lhsIdx j k) 1).val = (k ⟨0, by decide⟩).val :=
  dot_S256x1024_S1024x1024_S256x1024_1_1_0_0_n_n.lhsIdx_val_of_single (cl := 1) rfl j k
/-- the right operand's row is the output's column, -/
theorem rhs_dot_0 (j : S256x1024.Idx) (k : dot_S256x1024_S1024x1024_S256x1024_1_1_0_0_n_n.contr.Idx) :
    ((dot_S256x1024_S1024x1024_S256x1024_1_1_0_0_n_n.rhsIdx j k) 0).val = (j 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl
/-- its column the contraction position. -/
theorem rhs_dot_1 (j : S256x1024.Idx) (k : dot_S256x1024_S1024x1024_S256x1024_1_1_0_0_n_n.contr.Idx) :
    ((dot_S256x1024_S1024x1024_S256x1024_1_1_0_0_n_n.rhsIdx j k) 1).val = (k ⟨0, by decide⟩).val :=
  dot_S256x1024_S1024x1024_S256x1024_1_1_0_0_n_n.rhsIdx_val_of_single (cr := 1) rfl j k

/-- A block product into the zero accumulator, at row `p` and output `o`: the sum over the 1024 contraction positions
    of the left operand's row times the right operand's ROW `o` (the right operand is contracted along its columns). -/
theorem matmul_k1_apply (lhs : FVec Ideal S256x1024 .bf16) (rhs : FVec Ideal S1024x1024 .bf16) (p : Fin 256) (o : Fin 1024) :
    matmul dot_S256x1024_S1024x1024_S256x1024_1_1_0_0_n_n none lhs rhs (constant (F := Ideal) S256x1024 .f32 0x00000000#32) (ix2 p o)
      = ∑ k : Fin 1024, lhs (ix2 p k) * rhs (ix2 o k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have hl : dot_S256x1024_S1024x1024_S256x1024_1_1_0_0_n_n.lhsIdx (ix2 p o) ((contrEquiv1 dot_S256x1024_S1024x1024_S256x1024_1_1_0_0_n_n 1024 rfl rfl).symm k) = ix2 p k := by
    funext a; apply Fin.ext
    match a with
    | ⟨0, _⟩ => exact lhs_dot_0 _ _
    | ⟨1, _⟩ => exact (lhs_dot_1 _ _).trans hk
  have hr : dot_S256x1024_S1024x1024_S256x1024_1_1_0_0_n_n.rhsIdx (ix2 p o) ((contrEquiv1 dot_S256x1024_S1024x1024_S256x1024_1_1_0_0_n_n 1024 rfl rfl).symm k) = ix2 o k := by
    funext a; apply Fin.ext
    match a with
    | ⟨0, _⟩ => exact rhs_dot_0 _ _
    | ⟨1, _⟩ => exact (rhs_dot_1 _ _).trans hk
  rw [hl, hr]

/-! ## The payloads at an index -/

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-- A lane sum kept as a column: at `(q, u)` the sum of row `q`. -/
theorem rowSum_apply (y : FVec Ideal S256x1024 .f32) (hφ : FKind.Formats .f32)
    (hacc : (0x00000000#32 : BitVec 32) = FKind.add.neutral .f32 hφ) (q : Fin 256) (u : Fin 1) :
    shapeCast S256x1 (multiReduction (F := Ideal) .add [1] S256 y 0x00000000#32 reduces_S256x1024_S256 hφ hacc) shapeCasts_S256_S256x1 (ix2 q u)
      = ∑ e : Fin 1024, y (ix2 q e) :=
  (shapeCast_a_a1_apply _ _ q u).trans
    ((Ideal.multiReduction_add_single y 0x00000000#32 reduces_S256x1024_S256 hφ hacc (ix1 q)).trans
      (Finset.sum_congr rfl fun e _ => congrArg y (funext fun a => by match a with | ⟨0, _⟩ => rfl | ⟨1, _⟩ => rfl)))

/-- The column of row means of a tile: each row's lane sum divided by the row length. -/
def meanCol (y : FVec Ideal S256x1024 .f32) : FVec Ideal S256x1 .f32 :=
  divf (shapeCast S256x1 (multiReduction (F := Ideal) .add [1] S256 y 0x00000000#32 reduces_S256x1024_S256 (.inl rfl) rfl) shapeCasts_S256_S256x1)
    (broadcast S256x1 (Scalar.ofBits .f32 0x44800000#32))

theorem meanCol_apply (y : FVec Ideal S256x1024 .f32) (q : Fin 256) (u : Fin 1) :
    meanCol y (ix2 q u) = Ideal.div (∑ e : Fin 1024, y (ix2 q e)) Cert.Spec.c1024 :=
  congrArg (fun s => Ideal.div s Cert.Spec.c1024) (rowSum_apply y (.inl rfl) rfl q u)

/-- The normalised tile as the body computes it: centre each row on its mean, scale by the reciprocal root of the mean
    squared deviation plus the small constant, then gain and bias. -/
theorem k1_pay6_eq (xt : FVec Ideal S256x1024 .f32) (w b : FVec Ideal S1x1024 .f32) :
    k1_pay6 (F := Ideal) xt w b
      = addf (mulf (mulf (subf xt (broadcastTo S256x1024 (meanCol xt) broadcasts_S256x1_S256x1024))
            (broadcastTo S256x1024 (rsqrt (addf
              (meanCol (mulf (subf xt (broadcastTo S256x1024 (meanCol xt) broadcasts_S256x1_S256x1024))
                (subf xt (broadcastTo S256x1024 (meanCol xt) broadcasts_S256x1_S256x1024))))
              (broadcast S256x1 (Scalar.ofBits .f32 0x3727C5AC#32)))) broadcasts_S256x1_S256x1024))
          (broadcastTo S256x1024 w broadcasts_S1x1024_S256x1024))
        (broadcastTo S256x1024 b broadcasts_S1x1024_S256x1024) := by
  unfold k1_pay6 k1_pay5 meanCol
  simp only [shapeCast_self]

/-- The normalised row tile: row `p` of the block, layer-normalised with the gain and bias rows. -/
theorem k1_pay6_apply (xt : FVec Ideal S256x1024 .f32) (w b : FVec Ideal S1x1024 .f32) (p : Fin 256) (d : Fin 1024) :
    k1_pay6 (F := Ideal) xt w b (ix2 p d)
      = Cert.Spec.lnRow (fun e => w (ix2 (0 : Fin 1) e)) (fun e => b (ix2 (0 : Fin 1) e)) (fun e => xt (ix2 p e)) d := by
  rw [k1_pay6_eq]
  simp only [addf_apply, mulf_apply, subf_apply, rsqrt_apply, broadcast_apply,
    broadcastTo_1b_ab_apply, broadcastTo_a1_ab_apply (show (256 : ℕ) ≠ 1 by decide), meanCol_apply]
  rfl

/-- The key's operand at one point: the normalised tile mixed with the carried row by the key's mixing row. -/
theorem keyMix_apply (xt : FVec Ideal S256x1024 .f32) (w b sx mk : FVec Ideal S1x1024 .f32) (p : Fin 256) (d : Fin 1024) :
    k1_pay10 (F := Ideal) xt w b mk (ix2 p d) + k1_pay11 (F := Ideal) sx mk (ix2 p d)
      = Cert.Spec.mixRow (Cert.Spec.lnRow (fun e => w (ix2 (0 : Fin 1) e)) (fun e => b (ix2 (0 : Fin 1) e)) (fun e => xt (ix2 p e)))
          (fun e => sx (ix2 (0 : Fin 1) e)) (fun e => mk (ix2 (0 : Fin 1) e)) d := by
  unfold k1_pay10 k1_pay11 k1_pay7 k1_pay8
  simp only [shapeCast_self, mulf_apply, subf_apply, broadcast_apply, broadcastTo_1b_ab_apply, k1_pay6_apply]
  rfl

/-- One chunk's step of the accumulator, at row `p` and output `o`: the accumulator there plus, over the chunk's 1024
    hidden units, the squared rectified key (the key's operand projected by the chunk's rows of the key matrix) times
    the chunk's entries of the value matrix's row `o`. -/
theorem k1_pay3_apply (kl kr : FVec Ideal S256x1024 .f32) (wk : FVec Ideal S1024x1024 .bf16) (acc : FVec Ideal S256x1024 .f32)
    (wv : FVec Ideal S1024x1024 .bf16) (p : Fin 256) (o : Fin 1024) :
    k1_pay3 (F := Ideal) kl kr wk acc wv (ix2 p o)
      = acc (ix2 p o) + ∑ f : Fin 1024,
          (max (∑ d : Fin 1024, (kl (ix2 p d) + kr (ix2 p d)) * wk (ix2 f d)) Cert.Spec.czero
            * max (∑ d : Fin 1024, (kl (ix2 p d) + kr (ix2 p d)) * wk (ix2 f d)) Cert.Spec.czero) * wv (ix2 o f) := by
  unfold k1_pay3
  simp only [shapeCast_self, addf_apply, mulf_apply, maximumf_apply, truncf_apply, broadcast_apply, matmul_k1_apply]
  rfl

/-- The second scratch buffer's contents, at row `p` and output `o`: the receptance's operand projected by the
    receptance matrix. -/
theorem k1_pay1_apply (h : FVec Ideal S256x1024 .f32) (sx mr : FVec Ideal S1x1024 .f32) (wr : FVec Ideal S1024x1024 .bf16)
    (p : Fin 256) (o : Fin 1024) :
    k1_pay1 (F := Ideal) h sx mr wr (ix2 p o)
      = ∑ d : Fin 1024, (h (ix2 p d) * mr (ix2 (0 : Fin 1) d) + sx (ix2 (0 : Fin 1) d) * (Cert.Spec.cone - mr (ix2 (0 : Fin 1) d))) * wr (ix2 o d) := by
  unfold k1_pay1
  simp only [shapeCast_self, addf_apply, mulf_apply, subf_apply, truncf_apply, broadcast_apply, broadcastTo_1b_ab_apply, matmul_k1_apply]
  rfl

/-- The stored output, at row `p` and output `o`. -/
theorem k1_pay4_apply (xs r acc : FVec Ideal S256x1024 .f32) (p : Fin 256) (o : Fin 1024) :
    k1_pay4 (F := Ideal) xs r acc (ix2 p o) = xs (ix2 p o) + Ideal.logistic (r (ix2 p o)) * acc (ix2 p o) := by
  unfold k1_pay4
  simp only [addf_apply, mulf_apply, logistic_apply]

/-- The fresh accumulator is zero everywhere. -/
theorem k1_pay2_apply (i : S256x1024.Idx) : (k1_pay2 (F := Ideal)) i = 0 := by
  unfold k1_pay2
  simp only [shapeCast_self, broadcast_apply]
  exact Ideal.ofBits_zero_f32

/-! ## One tile's value -/

/-- Position `f` of chunk `q` among the 4096 hidden units. -/
def chunkIdx (q : Fin 4) (f : Fin 1024) : Fin 4096 := ⟨1024 * q.val + f.val, by have := q.isLt; have := f.isLt; omega⟩

/-- A sum over the 4096 hidden units is the sum over the four chunks of each chunk's sum. -/
theorem sum_chunks {M : Type} [AddCommMonoid M] (g : Fin 4096 → M) :
    ∑ f' : Fin 4096, g f' = ∑ q : Fin 4, ∑ f : Fin 1024, g (chunkIdx q f) := by
  have h := Equiv.sum_comp (finProdFinEquiv (m := 4) (n := 1024)) (fun i : Fin (4 * 1024) => g i)
  rw [Fintype.sum_prod_type] at h
  exact h.symm.trans (Finset.sum_congr rfl fun q _ => Finset.sum_congr rfl fun f _ => congrArg g (Fin.ext (by
    show f.val + 1024 * q.val = 1024 * q.val + f.val; omega)))

/-- The key's operand at a point whose blocks are the layer's rows and the row `x` of the state. -/
theorem keyMixP_apply (P : Cert.Spec.FfnP) (x : Cert.Spec.Row) (xt : FVec Ideal S256x1024 .f32) (w b sx mk : FVec Ideal S1x1024 .f32) (p : Fin 256)
    (hx : ∀ e, xt (ix2 p e) = x e) (hw : ∀ e, w (ix2 (0 : Fin 1) e) = P.lnw e) (hb : ∀ e, b (ix2 (0 : Fin 1) e) = P.lnb e)
    (hsx : ∀ e, sx (ix2 (0 : Fin 1) e) = P.sx e) (hmk : ∀ e, mk (ix2 (0 : Fin 1) e) = P.mixk e) (d : Fin 1024) :
    k1_pay10 (F := Ideal) xt w b mk (ix2 p d) + k1_pay11 (F := Ideal) sx mk (ix2 p d)
      = Cert.Spec.mixRow (Cert.Spec.lnRow P.lnw P.lnb x) P.sx P.mixk d := by
  have ea : (fun e => w (ix2 (0 : Fin 1) e)) = P.lnw := funext hw
  have eb : (fun e => b (ix2 (0 : Fin 1) e)) = P.lnb := funext hb
  have ec : (fun e => xt (ix2 p e)) = x := funext hx
  have ed : (fun e => sx (ix2 (0 : Fin 1) e)) = P.sx := funext hsx
  have ee : (fun e => mk (ix2 (0 : Fin 1) e)) = P.mixk := funext hmk
  rw [keyMix_apply, ea, eb, ec, ed, ee]

/-- The second scratch buffer at such a point: the receptance before its logistic. -/
theorem recept_apply (P : Cert.Spec.FfnP) (x : Cert.Spec.Row) (xt : FVec Ideal S256x1024 .f32) (w b sx mr : FVec Ideal S1x1024 .f32)
    (wr : FVec Ideal S1024x1024 .bf16) (p : Fin 256) (o : Fin 1024)
    (hx : ∀ e, xt (ix2 p e) = x e) (hw : ∀ e, w (ix2 (0 : Fin 1) e) = P.lnw e) (hb : ∀ e, b (ix2 (0 : Fin 1) e) = P.lnb e)
    (hsx : ∀ e, sx (ix2 (0 : Fin 1) e) = P.sx e) (hmr : ∀ e, mr (ix2 (0 : Fin 1) e) = P.mixr e) (hr : ∀ d, wr (ix2 o d) = P.Wr o d) :
    k1_pay1 (F := Ideal) (k1_pay6 xt w b) (k1_pay7 sx) (k1_pay9 mr) wr (ix2 p o)
      = Cert.Spec.proj P.Wr (Cert.Spec.mixRow (Cert.Spec.lnRow P.lnw P.lnb x) P.sx P.mixr) o := by
  have ea : (fun e => w (ix2 (0 : Fin 1) e)) = P.lnw := funext hw
  have eb : (fun e => b (ix2 (0 : Fin 1) e)) = P.lnb := funext hb
  have ec : (fun e => xt (ix2 p e)) = x := funext hx
  rw [k1_pay1_apply]
  unfold k1_pay7 k1_pay9
  simp only [shapeCast_self, k1_pay6_apply, hsx, hmr, hr]
  rw [ea, eb, ec]
  rfl

/-- A TILE'S OUTPUT. The four chunks' steps of the accumulator over zero, the second scratch buffer and the final store,
    at row `p` and output `o`, are the channel-mixing layer on the row: the four chunk sums are one sum over the 4096
    hidden units. Each chunk's key operands are its own point's (they read the same rows at every point of the tile). -/
theorem ffnTile_apply (P : Cert.Spec.FfnP) (x : Cert.Spec.Row) (p : Fin 256) (o : Fin 1024)
    (xs R : FVec Ideal S256x1024 .f32) (kla kra klb krb klc krc kld krd : FVec Ideal S256x1024 .f32)
    (wka wkb wkc wkd wva wvb wvc wvd : FVec Ideal S1024x1024 .bf16)
    (hxs : xs (ix2 p o) = x o)
    (hR : R (ix2 p o) = Cert.Spec.proj P.Wr (Cert.Spec.mixRow (Cert.Spec.lnRow P.lnw P.lnb x) P.sx P.mixr) o)
    (hKa : ∀ d, kla (ix2 p d) + kra (ix2 p d) = Cert.Spec.mixRow (Cert.Spec.lnRow P.lnw P.lnb x) P.sx P.mixk d) (hKb : ∀ d, klb (ix2 p d) + krb (ix2 p d) = Cert.Spec.mixRow (Cert.Spec.lnRow P.lnw P.lnb x) P.sx P.mixk d) (hKc : ∀ d, klc (ix2 p d) + krc (ix2 p d) = Cert.Spec.mixRow (Cert.Spec.lnRow P.lnw P.lnb x) P.sx P.mixk d) (hKd : ∀ d, kld (ix2 p d) + krd (ix2 p d) = Cert.Spec.mixRow (Cert.Spec.lnRow P.lnw P.lnb x) P.sx P.mixk d)
    (hka : ∀ f d, wka (ix2 f d) = P.Wk (chunkIdx 0 f) d) (hkb : ∀ f d, wkb (ix2 f d) = P.Wk (chunkIdx 1 f) d) (hkc : ∀ f d, wkc (ix2 f d) = P.Wk (chunkIdx 2 f) d) (hkd : ∀ f d, wkd (ix2 f d) = P.Wk (chunkIdx 3 f) d)
    (hva : ∀ f, wva (ix2 o f) = P.Wv o (chunkIdx 0 f)) (hvb : ∀ f, wvb (ix2 o f) = P.Wv o (chunkIdx 1 f)) (hvc : ∀ f, wvc (ix2 o f) = P.Wv o (chunkIdx 2 f)) (hvd : ∀ f, wvd (ix2 o f) = P.Wv o (chunkIdx 3 f)) :
    k1_pay4 (F := Ideal) xs R (k1_pay3 kld krd wkd (k1_pay3 klc krc wkc (k1_pay3 klb krb wkb (k1_pay3 kla kra wka (k1_pay2 (F := Ideal)) wva) wvb) wvc) wvd) (ix2 p o)
      = Cert.Spec.ffnRow P x o := by
  rw [k1_pay4_apply, k1_pay3_apply, k1_pay3_apply, k1_pay3_apply, k1_pay3_apply, k1_pay2_apply, zero_add, hxs, hR]
  simp only [hKa, hKb, hKc, hKd, hka, hkb, hkc, hkd, hva, hvb, hvc, hvd]
  unfold Cert.Spec.ffnRow
  rw [show Cert.Spec.proj P.Wv (Cert.Spec.ffnKey P x) o = _ from sum_chunks _, Fin.sum_univ_four]
  rfl

end Ffn1

open Ffn1

/-! # The value of region 1: the output array, row by row -/

open Cert.KernelIdeal.Hand
open Idealize.ShloMosaic.TcCoe Idealize.SL.Sem
open Idealize.ShloMosaic.Pipeline (Dat)

variable (V : (c : Dev nD) → (b : Ref sig .tc) → Buf (Elt Ideal) ((c : Thread nD τ).loc b))

/-- Row `r` of the state the region is entered with (window 0's array). -/
def xrow1 (c : Dev nD) (r : Fin 2048) : Cert.Spec.Row := fun d => V c (Pipeline.arrRef spec1 0) (ix2 r d)

/-- The layer's parameters, read off the arrays of windows 1 to 8. -/
def ffnP1 (c : Dev nD) : Cert.Spec.FfnP where
  lnw d := V c (Pipeline.arrRef spec1 1) (ix2 (0 : Fin 1) d)
  lnb d := V c (Pipeline.arrRef spec1 2) (ix2 (0 : Fin 1) d)
  sx d := V c (Pipeline.arrRef spec1 3) (ix2 (0 : Fin 1) d)
  mixk d := V c (Pipeline.arrRef spec1 4) (ix2 (0 : Fin 1) d)
  mixr d := V c (Pipeline.arrRef spec1 5) (ix2 (0 : Fin 1) d)
  Wk f d := V c (Pipeline.arrRef spec1 6) (ix2 f d)
  Wr o d := V c (Pipeline.arrRef spec1 7) (ix2 o d)
  Wv o f := V c (Pipeline.arrRef spec1 8) (ix2 o f)

namespace Ffn1

/-! ## The windows' blocks, read off the arrays -/

/-- The printed index maps, decided over the grid: window 0 and the output follow the row tile, windows 6 and 8 the
    chunk (on the key matrix's rows and the value matrix's columns), the others do not move. -/
theorem idx1_0 : ∀ t : Fin cfg1.N, win1_0.index t (0 : Fin 2) = t.val / 4 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_6 : ∀ t : Fin cfg1.N, win1_6.index t (0 : Fin 2) = t.val % 4 ∧ win1_6.index t (1 : Fin 2) = 0 :=
  (by decide +kernel : ∀ t : Fin grid1.N, _)
theorem idx1_8 : ∀ t : Fin cfg1.N, win1_8.index t (0 : Fin 2) = 0 ∧ win1_8.index t (1 : Fin 2) = t.val % 4 :=
  (by decide +kernel : ∀ t : Fin grid1.N, _)
theorem idx1_9 : ∀ t : Fin cfg1.N, win1_9.index t (0 : Fin 2) = t.val / 4 ∧ win1_9.index t (1 : Fin 2) = 0 :=
  (by decide +kernel : ∀ t : Fin grid1.N, _)

/-- Window 0's block at point `t` is rows `256 (t / 4) …` of the state. -/
theorem blk1_0 (c : Dev nD) (t : Fin cfg1.N) (p : Fin 256) (d : Fin 1024) (r : Fin 2048) (hr : r.val = 256 * (t.val / 4) + p.val) :
    (iblk1 V c 0 t : Vec Ideal S256x1024 .f32) (ix2 p d) = xrow1 V c r d := by
  obtain ⟨e0, e1⟩ := idx1_0 t
  unfold iblk1 xrow1
  rw [View.read_apply]
  refine congrArg (V c (Pipeline.arrRef spec1 0)) (funext fun a => Fin.ext ?_)
  match a with
  | ⟨0, _⟩ => show win1_0.index t (0 : Fin 2) * 256 + 1 * p.val = r.val; rw [e0]; omega
  | ⟨1, _⟩ => show win1_0.index t (1 : Fin 2) * 1024 + 1 * d.val = d.val; rw [e1]; omega

/-- Window 1's block is its one-row array, at every point. -/
theorem blk1_1 (c : Dev nD) (t : Fin cfg1.N) (d : Fin 1024) :
    (iblk1 V c 1 t : Vec Ideal S1x1024 .f32) (ix2 (0 : Fin 1) d) = (ffnP1 V c).lnw d := by
  obtain ⟨e0, e1⟩ := idx1_1 t
  unfold iblk1
  rw [View.read_apply]
  refine congrArg (V c (Pipeline.arrRef spec1 1)) (funext fun a => Fin.ext ?_)
  match a with
  | ⟨0, _⟩ => show win1_1.index t (0 : Fin 2) * 1 + 1 * 0 = 0; rw [e0]
  | ⟨1, _⟩ => show win1_1.index t (1 : Fin 2) * 1024 + 1 * d.val = d.val; rw [e1]; omega

/-- Window 2's block is its one-row array, at every point. -/
theorem blk1_2 (c : Dev nD) (t : Fin cfg1.N) (d : Fin 1024) :
    (iblk1 V c 2 t : Vec Ideal S1x1024 .f32) (ix2 (0 : Fin 1) d) = (ffnP1 V c).lnb d := by
  obtain ⟨e0, e1⟩ := idx1_2 t
  unfold iblk1
  rw [View.read_apply]
  refine congrArg (V c (Pipeline.arrRef spec1 2)) (funext fun a => Fin.ext ?_)
  match a with
  | ⟨0, _⟩ => show win1_2.index t (0 : Fin 2) * 1 + 1 * 0 = 0; rw [e0]
  | ⟨1, _⟩ => show win1_2.index t (1 : Fin 2) * 1024 + 1 * d.val = d.val; rw [e1]; omega

/-- Window 3's block is its one-row array, at every point. -/
theorem blk1_3 (c : Dev nD) (t : Fin cfg1.N) (d : Fin 1024) :
    (iblk1 V c 3 t : Vec Ideal S1x1024 .f32) (ix2 (0 : Fin 1) d) = (ffnP1 V c).sx d := by
  obtain ⟨e0, e1⟩ := idx1_3 t
  unfold iblk1
  rw [View.read_apply]
  refine congrArg (V c (Pipeline.arrRef spec1 3)) (funext fun a => Fin.ext ?_)
  match a with
  | ⟨0, _⟩ => show win1_3.index t (0 : Fin 2) * 1 + 1 * 0 = 0; rw [e0]
  | ⟨1, _⟩ => show win1_3.index t (1 : Fin 2) * 1024 + 1 * d.val = d.val; rw [e1]; omega

/-- Window 4's block is its one-row array, at every point. -/
theorem blk1_4 (c : Dev nD) (t : Fin cfg1.N) (d : Fin 1024) :
    (iblk1 V c 4 t : Vec Ideal S1x1024 .f32) (ix2 (0 : Fin 1) d) = (ffnP1 V c).mixk d := by
  obtain ⟨e0, e1⟩ := idx1_4 t
  unfold iblk1
  rw [View.read_apply]
  refine congrArg (V c (Pipeline.arrRef spec1 4)) (funext fun a => Fin.ext ?_)
  match a with
  | ⟨0, _⟩ => show win1_4.index t (0 : Fin 2) * 1 + 1 * 0 = 0; rw [e0]
  | ⟨1, _⟩ => show win1_4.index t (1 : Fin 2) * 1024 + 1 * d.val = d.val; rw [e1]; omega

/-- Window 5's block is its one-row array, at every point. -/
theorem blk1_5 (c : Dev nD) (t : Fin cfg1.N) (d : Fin 1024) :
    (iblk1 V c 5 t : Vec Ideal S1x1024 .f32) (ix2 (0 : Fin 1) d) = (ffnP1 V c).mixr d := by
  obtain ⟨e0, e1⟩ := idx1_5 t
  unfold iblk1
  rw [View.read_apply]
  refine congrArg (V c (Pipeline.arrRef spec1 5)) (funext fun a => Fin.ext ?_)
  match a with
  | ⟨0, _⟩ => show win1_5.index t (0 : Fin 2) * 1 + 1 * 0 = 0; rw [e0]
  | ⟨1, _⟩ => show win1_5.index t (1 : Fin 2) * 1024 + 1 * d.val = d.val; rw [e1]; omega

/-- Window 6's block at point `t` is rows `1024 (t % 4) …` of the key matrix. -/
theorem blk1_6 (c : Dev nD) (t : Fin cfg1.N) (f d : Fin 1024) (g : Fin 4096) (hg : g.val = 1024 * (t.val % 4) + f.val) :
    (iblk1 V c 6 t : Vec Ideal S1024x1024 .bf16) (ix2 f d) = (ffnP1 V c).Wk g d := by
  obtain ⟨e0, e1⟩ := idx1_6 t
  unfold iblk1
  rw [View.read_apply]
  refine congrArg (V c (Pipeline.arrRef spec1 6)) (funext fun a => Fin.ext ?_)
  match a with
  | ⟨0, _⟩ => show win1_6.index t (0 : Fin 2) * 1024 + 1 * f.val = g.val; rw [e0]; omega
  | ⟨1, _⟩ => show win1_6.index t (1 : Fin 2) * 1024 + 1 * d.val = d.val; rw [e1]; omega

/-- Window 7's block is the whole receptance matrix. -/
theorem blk1_7 (c : Dev nD) (t : Fin cfg1.N) (o d : Fin 1024) :
    (iblk1 V c 7 t : Vec Ideal S1024x1024 .bf16) (ix2 o d) = (ffnP1 V c).Wr o d := by
  obtain ⟨e0, e1⟩ := idx1_7 t
  unfold iblk1
  rw [View.read_apply]
  refine congrArg (V c (Pipeline.arrRef spec1 7)) (funext fun a => Fin.ext ?_)
  match a with
  | ⟨0, _⟩ => show win1_7.index t (0 : Fin 2) * 1024 + 1 * o.val = o.val; rw [e0]; omega
  | ⟨1, _⟩ => show win1_7.index t (1 : Fin 2) * 1024 + 1 * d.val = d.val; rw [e1]; omega

/-- Window 8's block at point `t` is columns `1024 (t % 4) …` of the value matrix. -/
theorem blk1_8 (c : Dev nD) (t : Fin cfg1.N) (o f : Fin 1024) (g : Fin 4096) (hg : g.val = 1024 * (t.val % 4) + f.val) :
    (iblk1 V c 8 t : Vec Ideal S1024x1024 .bf16) (ix2 o f) = (ffnP1 V c).Wv o g := by
  obtain ⟨e0, e1⟩ := idx1_8 t
  unfold iblk1
  rw [View.read_apply]
  refine congrArg (V c (Pipeline.arrRef spec1 8)) (funext fun a => Fin.ext ?_)
  match a with
  | ⟨0, _⟩ => show win1_8.index t (0 : Fin 2) * 1024 + 1 * o.val = o.val; rw [e0]; omega
  | ⟨1, _⟩ => show win1_8.index t (1 : Fin 2) * 1024 + 1 * f.val = g.val; rw [e1]; omega

/-! ## A tile's four points -/

/-- Point `q` of tile `T`. -/
def pt1 (T : Fin 8) (q : Fin 4) : Fin cfg1.N :=
  ⟨4 * T.val + q.val, lt_of_lt_of_eq (by have := T.isLt; have := q.isLt; omega : 4 * T.val + q.val < 32) N_1.symm⟩

/-- The scratch buffers after a tile's last point: the accumulator has gone through the four chunks' steps over zero,
    the second buffer is as the tile's first point filled it. -/
theorem sc1_tile (c : Dev nD) (T : Fin 8) :
    sc1 V c ((pt1 T 3).val + 1)
      = (k1_pay3 (k1_pay10 (iblk1 V c 0 (pt1 T 3)) (iblk1 V c 1 (pt1 T 3)) (iblk1 V c 2 (pt1 T 3)) (iblk1 V c 4 (pt1 T 3))) (k1_pay11 (iblk1 V c 3 (pt1 T 3)) (iblk1 V c 4 (pt1 T 3))) (iblk1 V c 6 (pt1 T 3))
          (k1_pay3 (k1_pay10 (iblk1 V c 0 (pt1 T 2)) (iblk1 V c 1 (pt1 T 2)) (iblk1 V c 2 (pt1 T 2)) (iblk1 V c 4 (pt1 T 2))) (k1_pay11 (iblk1 V c 3 (pt1 T 2)) (iblk1 V c 4 (pt1 T 2))) (iblk1 V c 6 (pt1 T 2))
            (k1_pay3 (k1_pay10 (iblk1 V c 0 (pt1 T 1)) (iblk1 V c 1 (pt1 T 1)) (iblk1 V c 2 (pt1 T 1)) (iblk1 V c 4 (pt1 T 1))) (k1_pay11 (iblk1 V c 3 (pt1 T 1)) (iblk1 V c 4 (pt1 T 1))) (iblk1 V c 6 (pt1 T 1))
              (k1_pay3 (k1_pay10 (iblk1 V c 0 (pt1 T 0)) (iblk1 V c 1 (pt1 T 0)) (iblk1 V c 2 (pt1 T 0)) (iblk1 V c 4 (pt1 T 0))) (k1_pay11 (iblk1 V c 3 (pt1 T 0)) (iblk1 V c 4 (pt1 T 0))) (iblk1 V c 6 (pt1 T 0))
                (k1_pay2 (F := Ideal)) (iblk1 V c 8 (pt1 T 0))) (iblk1 V c 8 (pt1 T 1))) (iblk1 V c 8 (pt1 T 2))) (iblk1 V c 8 (pt1 T 3)),
        k1_pay1 (k1_pay6 (iblk1 V c 0 (pt1 T 0)) (iblk1 V c 1 (pt1 T 0)) (iblk1 V c 2 (pt1 T 0))) (k1_pay7 (iblk1 V c 3 (pt1 T 0))) (k1_pay9 (iblk1 V c 5 (pt1 T 0))) (iblk1 V c 7 (pt1 T 0))) := by
  have ha := sc1_zero_chunk V c (pt1 T 0) (by show (4 * T.val + 0) % 4 = 0; omega)
  have hb := sc1_succ V c (pt1 T 1) (by show ¬(4 * T.val + 1) % 4 = 0; omega)
  have hc := sc1_succ V c (pt1 T 2) (by show ¬(4 * T.val + 2) % 4 = 0; omega)
  have hd := sc1_succ V c (pt1 T 3) (by show ¬(4 * T.val + 3) % 4 = 0; omega)
  rw [show sc1 V c (pt1 T 1).val = sc1 V c ((pt1 T 0).val + 1) from rfl, ha] at hb
  rw [show sc1 V c (pt1 T 2).val = sc1 V c ((pt1 T 1).val + 1) from rfl, hb] at hc
  rw [show sc1 V c (pt1 T 3).val = sc1 V c ((pt1 T 2).val + 1) from rfl, hc] at hd
  exact hd

/-- WHAT A TILE'S LAST POINT STORES, at row `p` of the tile and output `o`: the layer on row `256 T + p` of the state. -/
theorem out_tile1 (c : Dev nD) (T : Fin 8) (p : Fin 256) (o : Fin 1024) (r : Fin 2048) (o' : Fin 1024)
    (hr : r.val = 256 * T.val + p.val) (ho : o'.val = o.val) :
    out1_9 V c (pt1 T 3) (ix2 p o) = Cert.Spec.ffnRow (ffnP1 V c) (xrow1 V c r) o' := by
  obtain rfl : o = o' := (Fin.ext ho).symm
  unfold out1_9
  rw [sc1_tile V c T]
  refine ffnTile_apply (ffnP1 V c) (xrow1 V c r) p o _ _ _ _ _ _ _ _ _ _ _ _ _ _ _ _ _ _ ?_ ?_ ?_ ?_ ?_ ?_ ?_ ?_ ?_ ?_ ?_ ?_ ?_ ?_
  · unfold k1_pay5; rw [shapeCast_self]
    exact blk1_0 V c (pt1 T 3) p o r (by show r.val = 256 * ((4 * T.val + 3) / 4) + p.val; omega)
  · exact recept_apply (ffnP1 V c) (xrow1 V c r) _ _ _ _ _ _ p o (fun e => blk1_0 V c (pt1 T 0) p e r (by show r.val = 256 * ((4 * T.val + 0) / 4) + p.val; omega)) (fun e => blk1_1 V c (pt1 T 0) e) (fun e => blk1_2 V c (pt1 T 0) e) (fun e => blk1_3 V c (pt1 T 0) e) (fun e => blk1_5 V c (pt1 T 0) e)
      (fun d => blk1_7 V c (pt1 T 0) o d)
  · exact keyMixP_apply (ffnP1 V c) (xrow1 V c r) _ _ _ _ _ p (fun e => blk1_0 V c (pt1 T 0) p e r (by show r.val = 256 * ((4 * T.val + 0) / 4) + p.val; omega)) (fun e => blk1_1 V c (pt1 T 0) e) (fun e => blk1_2 V c (pt1 T 0) e) (fun e => blk1_3 V c (pt1 T 0) e) (fun e => blk1_4 V c (pt1 T 0) e)
  · exact keyMixP_apply (ffnP1 V c) (xrow1 V c r) _ _ _ _ _ p (fun e => blk1_0 V c (pt1 T 1) p e r (by show r.val = 256 * ((4 * T.val + 1) / 4) + p.val; omega)) (fun e => blk1_1 V c (pt1 T 1) e) (fun e => blk1_2 V c (pt1 T 1) e) (fun e => blk1_3 V c (pt1 T 1) e) (fun e => blk1_4 V c (pt1 T 1) e)
  · exact keyMixP_apply (ffnP1 V c) (xrow1 V c r) _ _ _ _ _ p (fun e => blk1_0 V c (pt1 T 2) p e r (by show r.val = 256 * ((4 * T.val + 2) / 4) + p.val; omega)) (fun e => blk1_1 V c (pt1 T 2) e) (fun e => blk1_2 V c (pt1 T 2) e) (fun e => blk1_3 V c (pt1 T 2) e) (fun e => blk1_4 V c (pt1 T 2) e)
  · exact keyMixP_apply (ffnP1 V c) (xrow1 V c r) _ _ _ _ _ p (fun e => blk1_0 V c (pt1 T 3) p e r (by show r.val = 256 * ((4 * T.val + 3) / 4) + p.val; omega)) (fun e => blk1_1 V c (pt1 T 3) e) (fun e => blk1_2 V c (pt1 T 3) e) (fun e => blk1_3 V c (pt1 T 3) e) (fun e => blk1_4 V c (pt1 T 3) e)
  · exact fun f d => blk1_6 V c (pt1 T 0) f d (chunkIdx 0 f) (by show 1024 * 0 + f.val = 1024 * ((4 * T.val + 0) % 4) + f.val; omega)
  · exact fun f d => blk1_6 V c (pt1 T 1) f d (chunkIdx 1 f) (by show 1024 * 1 + f.val = 1024 * ((4 * T.val + 1) % 4) + f.val; omega)
  · exact fun f d => blk1_6 V c (pt1 T 2) f d (chunkIdx 2 f) (by show 1024 * 2 + f.val = 1024 * ((4 * T.val + 2) % 4) + f.val; omega)
  · exact fun f d => blk1_6 V c (pt1 T 3) f d (chunkIdx 3 f) (by show 1024 * 3 + f.val = 1024 * ((4 * T.val + 3) % 4) + f.val; omega)
  · exact fun f => blk1_8 V c (pt1 T 0) o f (chunkIdx 0 f) (by show 1024 * 0 + f.val = 1024 * ((4 * T.val + 0) % 4) + f.val; omega)
  · exact fun f => blk1_8 V c (pt1 T 1) o f (chunkIdx 1 f) (by show 1024 * 1 + f.val = 1024 * ((4 * T.val + 1) % 4) + f.val; omega)
  · exact fun f => blk1_8 V c (pt1 T 2) o f (chunkIdx 2 f) (by show 1024 * 2 + f.val = 1024 * ((4 * T.val + 2) % 4) + f.val; omega)
  · exact fun f => blk1_8 V c (pt1 T 3) o f (chunkIdx 3 f) (by show 1024 * 3 + f.val = 1024 * ((4 * T.val + 3) % 4) + f.val; omega)

/-! ## The output array -/

/-- What the output array ends holding: at `(r, o)` the layer on row `r` of the state, at channel `o`. -/
def G1 (c : Dev nD) : S2048x1024.Idx → EReal := fun i =>
  Cert.Spec.ffnRow (ffnP1 V c) (xrow1 V c ⟨(i 0).val, idx2_lt0 i⟩) ⟨(i 1).val, idx2_lt1 i⟩

/-- What a tile's last point writes back is its block of `G1`. -/
theorem flushed1_9 (c : Dev nD) (T : Fin 8) :
    (dat1 (F := Ideal) V c).flushed 9 (pt1 T 3) = ((cfg1.win 9).blk (pt1 T 3)).view.read (Elt Ideal) (G1 V c) := by
  show (cfg1.win 9).cut (grid1.coords (pt1 T 3)) ((dat1 (F := Ideal) V c).after 9 (pt1 T 3)) = _
  rw [after1_9_all]
  obtain ⟨e0, e1⟩ := idx1_9 (pt1 T 3)
  funext j
  rw [View.read_apply]
  have hj : j = ix2 (⟨(j 0).val, (j 0).isLt⟩ : Fin 256) (⟨(j 1).val, (j 1).isLt⟩ : Fin 1024) :=
    funext fun a => by match a with | ⟨0, _⟩ => rfl | ⟨1, _⟩ => rfl
  have ha : ((((cfg1.win 9).blk (pt1 T 3)).view.emb j) 0).val = 256 * T.val + (j 0).val := by
    show win1_9.index (pt1 T 3) (0 : Fin 2) * 256 + 1 * (j 0).val = _
    rw [e0]; show (4 * T.val + 3) / 4 * 256 + 1 * (j 0).val = _; omega
  have hb : ((((cfg1.win 9).blk (pt1 T 3)).view.emb j) 1).val = (j 1).val := by
    show win1_9.index (pt1 T 3) (1 : Fin 2) * 1024 + 1 * (j 1).val = _
    rw [e1]; omega
  exact (congrArg (out1_9 V c (pt1 T 3)) hj).trans (out_tile1 V c T _ _ _ _ ha hb)

/-- The same at any point that writes back: it is some tile's last. -/
theorem flushedAt1_9 (c : Dev nD) (t : Fin cfg1.N) (T : Fin 8) (ht : t = pt1 T 3) :
    (dat1 (F := Ideal) V c).flushed 9 t = ((cfg1.win 9).blk t).view.read (Elt Ideal) (G1 V c) := by
  subst ht; exact flushed1_9 V c T

/-- An index of the array is in point `t`'s block iff each coordinate is in the block's range on its axis. -/
theorem mem_blk1_9 (t : Fin cfg1.N) (i : S2048x1024.Idx) :
    i ∈ ((cfg1.win 9).blk t).view.set ↔ ∀ a : Fin 2, win1_9.index t a * S256x1024.size a ≤ (i a).val ∧ (i a).val < win1_9.index t a * S256x1024.size a + S256x1024.size a := by
  show i ∈ ((View.whole main_v96).slice (win1_9.rect t)).set ↔ _
  rw [View.set_slice_whole, Rect.mem_set_unit]
  exact Iff.rfl

/-- Every row of the array is in the block of its tile's last point. -/
theorem cover1_9 (i : S2048x1024.Idx) : ∃ t : Fin cfg1.N, (cfg1.win 9).flush t = true ∧ i ∈ ((cfg1.win 9).blk t).view.set := by
  have hi : (i 0).val < 2048 := idx2_lt0 i
  have hk : (i 1).val < 1024 := idx2_lt1 i
  refine ⟨pt1 ⟨(i 0).val / 256, by omega⟩ 3, (flush1_9 _).mpr (by show (4 * ((i 0).val / 256) + 3) % 4 = 3; omega), ?_⟩
  rw [mem_blk1_9]
  obtain ⟨e0, e1⟩ := idx1_9 (pt1 ⟨(i 0).val / 256, by omega⟩ 3)
  intro a
  match a with
  | ⟨0, _⟩ =>
    show win1_9.index _ (0 : Fin 2) * 256 ≤ (i 0).val ∧ (i 0).val < win1_9.index _ (0 : Fin 2) * 256 + 256
    rw [e0]
    show (4 * ((i 0).val / 256) + 3) / 4 * 256 ≤ (i 0).val ∧ (i 0).val < (4 * ((i 0).val / 256) + 3) / 4 * 256 + 256
    omega
  | ⟨1, _⟩ =>
    show win1_9.index _ (1 : Fin 2) * 1024 ≤ (i 1).val ∧ (i 1).val < win1_9.index _ (1 : Fin 2) * 1024 + 1024
    rw [e1]; omega

end Ffn1

/-- THE OUTPUT ARRAY after the region, at row `r` and channel `o`: the channel-mixing layer on row `r` of the state. -/
theorem final1 (c : Dev nD) (r : Fin 2048) (o : Fin 1024) :
    (dat1 (F := Ideal) V c).arrAt 9 cfg1.N (ix2 r o) = Cert.Spec.ffnRow (ffnP1 V c) (xrow1 V c r) o := by
  have h := (dat1 (F := Ideal) V c).arrAt_eq_of_cover 9 (G1 V c) (fun t ht => by
      have hq : t.val % 4 = 3 := (flush1_9 t).mp ht
      have hN : t.val < 32 := lt_of_lt_of_eq t.isLt N_1
      exact flushedAt1_9 V c t ⟨t.val / 4, by omega⟩ (Fin.ext (by show t.val = 4 * (t.val / 4) + 3; omega))) cover1_9
  rw [h]
  rfl

end Cert.KernelIdeal.Val

end
-- ==== Proof.HostKL0.lean ====
/-
  Layer 0's parameters as the two host stretches before its launches leave them.

  The stretch before a time-mixing launch slices row 0 of each stacked vector argument and matrix 0 of each stacked
  matrix argument, reshapes the row to 1×1024 and the matrix to 1024×1024 (re-typed to bf16, the identity on the
  extended reals); the stretch before a channel-mixing launch does the same for its five vectors and three matrices.
  Read at an index, each parameter window's array is therefore the argument's entry at layer 0: window by window
  first, then bundled as the parameter record the specification takes, which is `(argsK W).attn 0`, resp.
  `(argsK W).ffn 0`, whatever contents `W` the stretch starts from.
-/
import proofs.«415492_j738734375128_3_alg».proof.Proof.HostK

set_option maxRecDepth 16384

noncomputable section

namespace Cert.KernelIdeal.Val

open Cert.KernelIdeal Cert.KernelIdeal.Gen
open Idealize.ShloMosaic Idealize.ShloMosaic.TcCoe Idealize.ShloMosaic.ValueIdx

variable (W : Valuation τ sig (Elt Ideal))

/-! ## Layer 0's time-mixing parameters (the second half of the stretch before the time-mixing launch) -/

theorem host0_w1 (d : Fin 1024) :
    (StableHlo.after (hostOps0 (F := Ideal)) W (Proc.devRef .tc main_v62) : S1x1024.Idx → EReal) (ix2 0 d) = ((argsK W).attn 0).lnw d := by
  have e : (StableHlo.after (hostOps0 (F := Ideal)) W (Proc.devRef .tc main_v62) : S1x1024.Idx → EReal)
      = shapeCast S1x1024 (shapeCast S1024 (extractStridedSlice S1x1024 ![0, 0] (W (Proc.devRef .tc main_arg4) : S4x1024.Idx → EReal) slices_S4x1024_S1x1024_0_0) shapeCasts_S1x1024_S1024) shapeCasts_S1024_S1x1024 := by
    dsimp only [hostOps0]; after_results; rfl
  rw [e]; exact rowSlice_apply _ 0 _ _ _ d

theorem host0_w2 (d : Fin 1024) :
    (StableHlo.after (hostOps0 (F := Ideal)) W (Proc.devRef .tc main_v63) : S1x1024.Idx → EReal) (ix2 0 d) = ((argsK W).attn 0).lnb d := by
  have e : (StableHlo.after (hostOps0 (F := Ideal)) W (Proc.devRef .tc main_v63) : S1x1024.Idx → EReal)
      = shapeCast S1x1024 (shapeCast S1024 (extractStridedSlice S1x1024 ![0, 0] (W (Proc.devRef .tc main_arg5) : S4x1024.Idx → EReal) slices_S4x1024_S1x1024_0_0) shapeCasts_S1x1024_S1024) shapeCasts_S1024_S1x1024 := by
    dsimp only [hostOps0]; after_results; rfl
  rw [e]; exact rowSlice_apply _ 0 _ _ _ d

theorem host0_w3 (d : Fin 1024) :
    (StableHlo.after (hostOps0 (F := Ideal)) W (Proc.devRef .tc main_v64) : S1x1024.Idx → EReal) (ix2 0 d) = ((argsK W).attn 0).sx d := by
  have e : (StableHlo.after (hostOps0 (F := Ideal)) W (Proc.devRef .tc main_v64) : S1x1024.Idx → EReal)
      = shapeCast S1x1024 (shapeCast S1024 (extractStridedSlice S1x1024 ![0, 0] (W (Proc.devRef .tc main_arg25) : S4x1024.Idx → EReal) slices_S4x1024_S1x1024_0_0) shapeCasts_S1x1024_S1024) shapeCasts_S1024_S1x1024 := by
    dsimp only [hostOps0]; after_results; rfl
  rw [e]; exact rowSlice_apply _ 0 _ _ _ d

theorem host0_w4 (d : Fin 1024) :
    (StableHlo.after (hostOps0 (F := Ideal)) W (Proc.devRef .tc main_v65) : S1x1024.Idx → EReal) (ix2 0 d) = ((argsK W).attn 0).mixk d := by
  have e : (StableHlo.after (hostOps0 (F := Ideal)) W (Proc.devRef .tc main_v65) : S1x1024.Idx → EReal)
      = shapeCast S1x1024 (shapeCast S1024 (extractStridedSlice S1x1024 ![0, 0] (W (Proc.devRef .tc main_arg10) : S4x1024.Idx → EReal) slices_S4x1024_S1x1024_0_0) shapeCasts_S1x1024_S1024) shapeCasts_S1024_S1x1024 := by
    dsimp only [hostOps0]; after_results; rfl
  rw [e]; exact rowSlice_apply _ 0 _ _ _ d

theorem host0_w5 (d : Fin 1024) :
    (StableHlo.after (hostOps0 (F := Ideal)) W (Proc.devRef .tc main_v66) : S1x1024.Idx → EReal) (ix2 0 d) = ((argsK W).attn 0).mixv d := by
  have e : (StableHlo.after (hostOps0 (F := Ideal)) W (Proc.devRef .tc main_v66) : S1x1024.Idx → EReal)
      = shapeCast S1x1024 (shapeCast S1024 (extractStridedSlice S1x1024 ![0, 0] (W (Proc.devRef .tc main_arg11) : S4x1024.Idx → EReal) slices_S4x1024_S1x1024_0_0) shapeCasts_S1x1024_S1024) shapeCasts_S1024_S1x1024 := by
    dsimp only [hostOps0]; after_results; rfl
  rw [e]; exact rowSlice_apply _ 0 _ _ _ d

theorem host0_w6 (d : Fin 1024) :
    (StableHlo.after (hostOps0 (F := Ideal)) W (Proc.devRef .tc main_v67) : S1x1024.Idx → EReal) (ix2 0 d) = ((argsK W).attn 0).mixr d := by
  have e : (StableHlo.after (hostOps0 (F := Ideal)) W (Proc.devRef .tc main_v67) : S1x1024.Idx → EReal)
      = shapeCast S1x1024 (shapeCast S1024 (extractStridedSlice S1x1024 ![0, 0] (W (Proc.devRef .tc main_arg12) : S4x1024.Idx → EReal) slices_S4x1024_S1x1024_0_0) shapeCasts_S1x1024_S1024) shapeCasts_S1024_S1x1024 := by
    dsimp only [hostOps0]; after_results; rfl
  rw [e]; exact rowSlice_apply _ 0 _ _ _ d

theorem host0_w7 (d : Fin 1024) :
    (StableHlo.after (hostOps0 (F := Ideal)) W (Proc.devRef .tc main_v68) : S1x1024.Idx → EReal) (ix2 0 d) = ((argsK W).attn 0).tf d := by
  have e : (StableHlo.after (hostOps0 (F := Ideal)) W (Proc.devRef .tc main_v68) : S1x1024.Idx → EReal)
      = shapeCast S1x1024 (shapeCast S1024 (extractStridedSlice S1x1024 ![0, 0] (W (Proc.devRef .tc main_arg9) : S4x1024.Idx → EReal) slices_S4x1024_S1x1024_0_0) shapeCasts_S1x1024_S1024) shapeCasts_S1024_S1x1024 := by
    dsimp only [hostOps0]; after_results; rfl
  rw [e]; exact rowSlice_apply _ 0 _ _ _ d

theorem host0_w8 (d : Fin 1024) :
    (StableHlo.after (hostOps0 (F := Ideal)) W (Proc.devRef .tc main_v69) : S1x1024.Idx → EReal) (ix2 0 d) = ((argsK W).attn 0).num d := by
  have e : (StableHlo.after (hostOps0 (F := Ideal)) W (Proc.devRef .tc main_v69) : S1x1024.Idx → EReal)
      = shapeCast S1x1024 (shapeCast S1024 (extractStridedSlice S1x1024 ![0, 0] (W (Proc.devRef .tc main_arg26) : S4x1024.Idx → EReal) slices_S4x1024_S1x1024_0_0) shapeCasts_S1x1024_S1024) shapeCasts_S1024_S1x1024 := by
    dsimp only [hostOps0]; after_results; rfl
  rw [e]; exact rowSlice_apply _ 0 _ _ _ d

theorem host0_w9 (d : Fin 1024) :
    (StableHlo.after (hostOps0 (F := Ideal)) W (Proc.devRef .tc main_v70) : S1x1024.Idx → EReal) (ix2 0 d) = ((argsK W).attn 0).den d := by
  have e : (StableHlo.after (hostOps0 (F := Ideal)) W (Proc.devRef .tc main_v70) : S1x1024.Idx → EReal)
      = shapeCast S1x1024 (shapeCast S1024 (extractStridedSlice S1x1024 ![0, 0] (W (Proc.devRef .tc main_arg27) : S4x1024.Idx → EReal) slices_S4x1024_S1x1024_0_0) shapeCasts_S1x1024_S1024) shapeCasts_S1024_S1x1024 := by
    dsimp only [hostOps0]; after_results; rfl
  rw [e]; exact rowSlice_apply _ 0 _ _ _ d

theorem host0_w10 (o : Fin 1024) (d : Fin 1024) :
    (StableHlo.after (hostOps0 (F := Ideal)) W (Proc.devRef .tc main_v58) : S1024x1024.Idx → EReal) (ix2 o d) = ((argsK W).attn 0).Wk o d := by
  have e : (StableHlo.after (hostOps0 (F := Ideal)) W (Proc.devRef .tc main_v58) : S1024x1024.Idx → EReal)
      = shapeCast S1024x1024 (extractStridedSlice S1x1024x1024 ![0, 0, 0] (W (Proc.devRef .tc main_arg13) : S4x1024x1024.Idx → EReal) slices_S4x1024x1024_S1x1024x1024_0_0_0) shapeCasts_S1x1024x1024_S1024x1024 := by
    dsimp only [hostOps0]; after_results; rfl
  rw [e]; exact matSlice_apply _ 0 _ _ o d

theorem host0_w11 (o : Fin 1024) (d : Fin 1024) :
    (StableHlo.after (hostOps0 (F := Ideal)) W (Proc.devRef .tc main_v59) : S1024x1024.Idx → EReal) (ix2 o d) = ((argsK W).attn 0).Wv o d := by
  have e : (StableHlo.after (hostOps0 (F := Ideal)) W (Proc.devRef .tc main_v59) : S1024x1024.Idx → EReal)
      = shapeCast S1024x1024 (extractStridedSlice S1x1024x1024 ![0, 0, 0] (W (Proc.devRef .tc main_arg14) : S4x1024x1024.Idx → EReal) slices_S4x1024x1024_S1x1024x1024_0_0_0) shapeCasts_S1x1024x1024_S1024x1024 := by
    dsimp only [hostOps0]; after_results; rfl
  rw [e]; exact matSlice_apply _ 0 _ _ o d

theorem host0_w12 (o : Fin 1024) (d : Fin 1024) :
    (StableHlo.after (hostOps0 (F := Ideal)) W (Proc.devRef .tc main_v60) : S1024x1024.Idx → EReal) (ix2 o d) = ((argsK W).attn 0).Wr o d := by
  have e : (StableHlo.after (hostOps0 (F := Ideal)) W (Proc.devRef .tc main_v60) : S1024x1024.Idx → EReal)
      = shapeCast S1024x1024 (extractStridedSlice S1x1024x1024 ![0, 0, 0] (W (Proc.devRef .tc main_arg15) : S4x1024x1024.Idx → EReal) slices_S4x1024x1024_S1x1024x1024_0_0_0) shapeCasts_S1x1024x1024_S1024x1024 := by
    dsimp only [hostOps0]; after_results; rfl
  rw [e]; exact matSlice_apply _ 0 _ _ o d

theorem host0_w13 (o : Fin 1024) (d : Fin 1024) :
    (StableHlo.after (hostOps0 (F := Ideal)) W (Proc.devRef .tc main_v61) : S1024x1024.Idx → EReal) (ix2 o d) = ((argsK W).attn 0).Wo o d := by
  have e : (StableHlo.after (hostOps0 (F := Ideal)) W (Proc.devRef .tc main_v61) : S1024x1024.Idx → EReal)
      = shapeCast S1024x1024 (extractStridedSlice S1x1024x1024 ![0, 0, 0] (W (Proc.devRef .tc main_arg16) : S4x1024x1024.Idx → EReal) slices_S4x1024x1024_S1x1024x1024_0_0_0) shapeCasts_S1x1024x1024_S1024x1024 := by
    dsimp only [hostOps0]; after_results; rfl
  rw [e]; exact matSlice_apply _ 0 _ _ o d

/-- The thirteen parameter windows of the time-mixing launch, bundled: layer 0's time-mixing parameters. -/
theorem hostL0_attn :
    ({ lnw := fun d => (StableHlo.after (hostOps0 (F := Ideal)) W (Proc.devRef .tc (Pipeline.arrRef spec0 1)) : S1x1024.Idx → EReal) (ix2 (0 : Fin 1) d)
       lnb := fun d => (StableHlo.after (hostOps0 (F := Ideal)) W (Proc.devRef .tc (Pipeline.arrRef spec0 2)) : S1x1024.Idx → EReal) (ix2 (0 : Fin 1) d)
       sx := fun d => (StableHlo.after (hostOps0 (F := Ideal)) W (Proc.devRef .tc (Pipeline.arrRef spec0 3)) : S1x1024.Idx → EReal) (ix2 (0 : Fin 1) d)
       mixk := fun d => (StableHlo.after (hostOps0 (F := Ideal)) W (Proc.devRef .tc (Pipeline.arrRef spec0 4)) : S1x1024.Idx → EReal) (ix2 (0 : Fin 1) d)
       mixv := fun d => (StableHlo.after (hostOps0 (F := Ideal)) W (Proc.devRef .tc (Pipeline.arrRef spec0 5)) : S1x1024.Idx → EReal) (ix2 (0 : Fin 1) d)
       mixr := fun d => (StableHlo.after (hostOps0 (F := Ideal)) W (Proc.devRef .tc (Pipeline.arrRef spec0 6)) : S1x1024.Idx → EReal) (ix2 (0 : Fin 1) d)
       tf := fun d => (StableHlo.after (hostOps0 (F := Ideal)) W (Proc.devRef .tc (Pipeline.arrRef spec0 7)) : S1x1024.Idx → EReal) (ix2 (0 : Fin 1) d)
       num := fun d => (StableHlo.after (hostOps0 (F := Ideal)) W (Proc.devRef .tc (Pipeline.arrRef spec0 8)) : S1x1024.Idx → EReal) (ix2 (0 : Fin 1) d)
       den := fun d => (StableHlo.after (hostOps0 (F := Ideal)) W (Proc.devRef .tc (Pipeline.arrRef spec0 9)) : S1x1024.Idx → EReal) (ix2 (0 : Fin 1) d)
       Wk := fun o d => (StableHlo.after (hostOps0 (F := Ideal)) W (Proc.devRef .tc (Pipeline.arrRef spec0 10)) : S1024x1024.Idx → EReal) (ix2 o d)
       Wv := fun o d => (StableHlo.after (hostOps0 (F := Ideal)) W (Proc.devRef .tc (Pipeline.arrRef spec0 11)) : S1024x1024.Idx → EReal) (ix2 o d)
       Wr := fun o d => (StableHlo.after (hostOps0 (F := Ideal)) W (Proc.devRef .tc (Pipeline.arrRef spec0 12)) : S1024x1024.Idx → EReal) (ix2 o d)
       Wo := fun o d => (StableHlo.after (hostOps0 (F := Ideal)) W (Proc.devRef .tc (Pipeline.arrRef spec0 13)) : S1024x1024.Idx → EReal) (ix2 o d) } : Cert.Spec.AttnP)
      = (argsK W).attn 0 := by
  unfold Cert.Spec.Args.attn
  rw [Cert.Spec.AttnP.mk.injEq]
  exact ⟨funext (host0_w1 W), funext (host0_w2 W), funext (host0_w3 W), funext (host0_w4 W), funext (host0_w5 W),
    funext (host0_w6 W), funext (host0_w7 W), funext (host0_w8 W), funext (host0_w9 W),
    funext fun o => funext (host0_w10 W o), funext fun o => funext (host0_w11 W o),
    funext fun o => funext (host0_w12 W o), funext fun o => funext (host0_w13 W o)⟩

/-! ## Layer 0's channel-mixing parameters (the stretch before the channel-mixing launch) -/

theorem host1_w1 (d : Fin 1024) :
    (StableHlo.after (hostOps1 (F := Ideal)) W (Proc.devRef .tc main_v91) : S1x1024.Idx → EReal) (ix2 0 d) = ((argsK W).ffn 0).lnw d := by
  have e : (StableHlo.after (hostOps1 (F := Ideal)) W (Proc.devRef .tc main_v91) : S1x1024.Idx → EReal)
      = shapeCast S1x1024 (shapeCast S1024 (extractStridedSlice S1x1024 ![0, 0] (W (Proc.devRef .tc main_arg6) : S4x1024.Idx → EReal) slices_S4x1024_S1x1024_0_0) shapeCasts_S1x1024_S1024) shapeCasts_S1024_S1x1024 := by
    dsimp only [hostOps1]; after_results; rfl
  rw [e]; exact rowSlice_apply _ 0 _ _ _ d

theorem host1_w2 (d : Fin 1024) :
    (StableHlo.after (hostOps1 (F := Ideal)) W (Proc.devRef .tc main_v92) : S1x1024.Idx → EReal) (ix2 0 d) = ((argsK W).ffn 0).lnb d := by
  have e : (StableHlo.after (hostOps1 (F := Ideal)) W (Proc.devRef .tc main_v92) : S1x1024.Idx → EReal)
      = shapeCast S1x1024 (shapeCast S1024 (extractStridedSlice S1x1024 ![0, 0] (W (Proc.devRef .tc main_arg7) : S4x1024.Idx → EReal) slices_S4x1024_S1x1024_0_0) shapeCasts_S1x1024_S1024) shapeCasts_S1024_S1x1024 := by
    dsimp only [hostOps1]; after_results; rfl
  rw [e]; exact rowSlice_apply _ 0 _ _ _ d

theorem host1_w3 (d : Fin 1024) :
    (StableHlo.after (hostOps1 (F := Ideal)) W (Proc.devRef .tc main_v93) : S1x1024.Idx → EReal) (ix2 0 d) = ((argsK W).ffn 0).sx d := by
  have e : (StableHlo.after (hostOps1 (F := Ideal)) W (Proc.devRef .tc main_v93) : S1x1024.Idx → EReal)
      = shapeCast S1x1024 (shapeCast S1024 (extractStridedSlice S1x1024 ![0, 0] (W (Proc.devRef .tc main_arg28) : S4x1024.Idx → EReal) slices_S4x1024_S1x1024_0_0) shapeCasts_S1x1024_S1024) shapeCasts_S1024_S1x1024 := by
    dsimp only [hostOps1]; after_results; rfl
  rw [e]; exact rowSlice_apply _ 0 _ _ _ d

theorem host1_w4 (d : Fin 1024) :
    (StableHlo.after (hostOps1 (F := Ideal)) W (Proc.devRef .tc main_v94) : S1x1024.Idx → EReal) (ix2 0 d) = ((argsK W).ffn 0).mixk d := by
  have e : (StableHlo.after (hostOps1 (F := Ideal)) W (Proc.devRef .tc main_v94) : S1x1024.Idx → EReal)
      = shapeCast S1x1024 (shapeCast S1024 (extractStridedSlice S1x1024 ![0, 0] (W (Proc.devRef .tc main_arg17) : S4x1024.Idx → EReal) slices_S4x1024_S1x1024_0_0) shapeCasts_S1x1024_S1024) shapeCasts_S1024_S1x1024 := by
    dsimp only [hostOps1]; after_results; rfl
  rw [e]; exact rowSlice_apply _ 0 _ _ _ d

theorem host1_w5 (d : Fin 1024) :
    (StableHlo.after (hostOps1 (F := Ideal)) W (Proc.devRef .tc main_v95) : S1x1024.Idx → EReal) (ix2 0 d) = ((argsK W).ffn 0).mixr d := by
  have e : (StableHlo.after (hostOps1 (F := Ideal)) W (Proc.devRef .tc main_v95) : S1x1024.Idx → EReal)
      = shapeCast S1x1024 (shapeCast S1024 (extractStridedSlice S1x1024 ![0, 0] (W (Proc.devRef .tc main_arg18) : S4x1024.Idx → EReal) slices_S4x1024_S1x1024_0_0) shapeCasts_S1x1024_S1024) shapeCasts_S1024_S1x1024 := by
    dsimp only [hostOps1]; after_results; rfl
  rw [e]; exact rowSlice_apply _ 0 _ _ _ d

theorem host1_w6 (f : Fin 4096) (d : Fin 1024) :
    (StableHlo.after (hostOps1 (F := Ideal)) W (Proc.devRef .tc main_v88) : S4096x1024.Idx → EReal) (ix2 f d) = ((argsK W).ffn 0).Wk f d := by
  have e : (StableHlo.after (hostOps1 (F := Ideal)) W (Proc.devRef .tc main_v88) : S4096x1024.Idx → EReal)
      = shapeCast S4096x1024 (extractStridedSlice S1x4096x1024 ![0, 0, 0] (W (Proc.devRef .tc main_arg19) : S4x4096x1024.Idx → EReal) slices_S4x4096x1024_S1x4096x1024_0_0_0) shapeCasts_S1x4096x1024_S4096x1024 := by
    dsimp only [hostOps1]; after_results; rfl
  rw [e]; exact matSlice_apply _ 0 _ _ f d

theorem host1_w7 (o : Fin 1024) (d : Fin 1024) :
    (StableHlo.after (hostOps1 (F := Ideal)) W (Proc.devRef .tc main_v89) : S1024x1024.Idx → EReal) (ix2 o d) = ((argsK W).ffn 0).Wr o d := by
  have e : (StableHlo.after (hostOps1 (F := Ideal)) W (Proc.devRef .tc main_v89) : S1024x1024.Idx → EReal)
      = shapeCast S1024x1024 (extractStridedSlice S1x1024x1024 ![0, 0, 0] (W (Proc.devRef .tc main_arg20) : S4x1024x1024.Idx → EReal) slices_S4x1024x1024_S1x1024x1024_0_0_0) shapeCasts_S1x1024x1024_S1024x1024 := by
    dsimp only [hostOps1]; after_results; rfl
  rw [e]; exact matSlice_apply _ 0 _ _ o d

theorem host1_w8 (o : Fin 1024) (f : Fin 4096) :
    (StableHlo.after (hostOps1 (F := Ideal)) W (Proc.devRef .tc main_v90) : S1024x4096.Idx → EReal) (ix2 o f) = ((argsK W).ffn 0).Wv o f := by
  have e : (StableHlo.after (hostOps1 (F := Ideal)) W (Proc.devRef .tc main_v90) : S1024x4096.Idx → EReal)
      = shapeCast S1024x4096 (extractStridedSlice S1x1024x4096 ![0, 0, 0] (W (Proc.devRef .tc main_arg21) : S4x1024x4096.Idx → EReal) slices_S4x1024x4096_S1x1024x4096_0_0_0) shapeCasts_S1x1024x4096_S1024x4096 := by
    dsimp only [hostOps1]; after_results; rfl
  rw [e]; exact matSlice_apply _ 0 _ _ o f

/-- The eight parameter windows of the channel-mixing launch, bundled: layer 0's channel-mixing parameters. -/
theorem hostL0_ffn :
    ({ lnw := fun d => (StableHlo.after (hostOps1 (F := Ideal)) W (Proc.devRef .tc (Pipeline.arrRef spec1 1)) : S1x1024.Idx → EReal) (ix2 (0 : Fin 1) d)
       lnb := fun d => (StableHlo.after (hostOps1 (F := Ideal)) W (Proc.devRef .tc (Pipeline.arrRef spec1 2)) : S1x1024.Idx → EReal) (ix2 (0 : Fin 1) d)
       sx := fun d => (StableHlo.after (hostOps1 (F := Ideal)) W (Proc.devRef .tc (Pipeline.arrRef spec1 3)) : S1x1024.Idx → EReal) (ix2 (0 : Fin 1) d)
       mixk := fun d => (StableHlo.after (hostOps1 (F := Ideal)) W (Proc.devRef .tc (Pipeline.arrRef spec1 4)) : S1x1024.Idx → EReal) (ix2 (0 : Fin 1) d)
       mixr := fun d => (StableHlo.after (hostOps1 (F := Ideal)) W (Proc.devRef .tc (Pipeline.arrRef spec1 5)) : S1x1024.Idx → EReal) (ix2 (0 : Fin 1) d)
       Wk := fun f d => (StableHlo.after (hostOps1 (F := Ideal)) W (Proc.devRef .tc (Pipeline.arrRef spec1 6)) : S4096x1024.Idx → EReal) (ix2 f d)
       Wr := fun o d => (StableHlo.after (hostOps1 (F := Ideal)) W (Proc.devRef .tc (Pipeline.arrRef spec1 7)) : S1024x1024.Idx → EReal) (ix2 o d)
       Wv := fun o f => (StableHlo.after (hostOps1 (F := Ideal)) W (Proc.devRef .tc (Pipeline.arrRef spec1 8)) : S1024x4096.Idx → EReal) (ix2 o f) } : Cert.Spec.FfnP)
      = (argsK W).ffn 0 := by
  unfold Cert.Spec.Args.ffn
  rw [Cert.Spec.FfnP.mk.injEq]
  exact ⟨funext (host1_w1 W), funext (host1_w2 W), funext (host1_w3 W), funext (host1_w4 W), funext (host1_w5 W),
    funext fun f => funext (host1_w6 W f), funext fun o => funext (host1_w7 W o), funext fun o => funext (host1_w8 W o)⟩

end Cert.KernelIdeal.Val
-- ==== Proof.HostKeeps.lean ====
/-
  What the parameter-preparing host stretches of the kernel program leave alone.

  Each stretch is a list of operations, and each operation writes exactly one reference, its result.  Listing the
  results of a stretch in order, a reference outside the list holds after the stretch what it held before.  In
  particular no stretch writes a float argument of the program, so the arguments read off the buffers after a stretch
  are those read off before it, and no stretch from the second on writes the array the following launch reads its
  state from (the output array of the launch before it).
-/
import proofs.«415492_j738734375128_3_alg».proof.Proof.HostK

set_option maxRecDepth 16384

noncomputable section

namespace Cert.KernelIdeal.Val

open Cert.KernelIdeal Cert.KernelIdeal.Gen
open Idealize.ShloMosaic Idealize.ShloMosaic.TcCoe

variable (W : Valuation τ sig (Elt Ideal))

/-! ## The stretch before the first launch -/

/-- The references the stretch writes, in order. -/
abbrev host0_W : List (Ref sig .tc) :=
  [main_c, main_v0, main_v1, main_c_0, main_v2, main_v3, main_v4, main_v5, main_v6, main_cst,
   main_v7, main_v8, main_cst_1, main_v9, main_v10, main_v11, main_v12, main_v13, main_cst_2, main_v14,
   main_v15, main_cst_3, main_v16, main_v17, main_v18, main_v19, main_cst_4, main_v20, main_v21, main_v22,
   main_v23, main_v24, main_v25, main_v26, main_v27, main_v28, main_v29, main_v30, main_v31, main_v32,
   main_v33, main_v34, main_v35, main_v36, main_v37, main_v38, main_v39, main_v40, main_v41, main_v42,
   main_v43, main_v44, main_v45, main_v46, main_v47, main_v48, main_v49, main_v50, main_v51, main_v52,
   main_v53, main_v54, main_v55, main_v56, main_v57, main_v58, main_v59, main_v60, main_v61, main_v62,
   main_v63, main_v64, main_v65, main_v66, main_v67, main_v68, main_v69, main_v70]

theorem host0_writes : (hostOps0 : List (HloOp τ sig (Elt Ideal))).Forall fun op => op.writes ⊆ (host0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A reference the stretch does not write keeps its contents. -/
theorem host0_keeps {r : Ref sig .tc} (hr : r ∉ host0_W) :
    StableHlo.after (hostOps0 (F := Ideal)) W (Proc.devRef .tc r) = W (Proc.devRef .tc r) :=
  StableHlo.after_of_writes_sub _ W host0_writes hr

/-- The stretch writes no float argument. -/
theorem host0_args : argsK (StableHlo.after (hostOps0 (F := Ideal)) W) = argsK W :=
  argsK_congr fun r hr => host0_keeps W ((by decide : ∀ r ∈ argRefs, r ∉ host0_W) r hr)

/-! ## Layer 0, before the channel-mixing launch -/

/-- The references the stretch writes, in order. -/
abbrev host1_W : List (Ref sig .tc) :=
  [main_v72, main_v73, main_v74, main_v75, main_v76, main_v77, main_v78, main_v79, main_v80, main_v81,
   main_v82, main_v83, main_v84, main_v85, main_v86, main_v87, main_v88, main_v89, main_v90, main_v91,
   main_v92, main_v93, main_v94, main_v95]

theorem host1_writes : (hostOps1 : List (HloOp τ sig (Elt Ideal))).Forall fun op => op.writes ⊆ (host1_W.map (Proc.devRef (τ := τ) .tc)).toFinset := by
  simp only [List.Forall, StableHlo.unary_writes, StableHlo.reshape_writes, Finset.singleton_subset_iff, List.mem_toFinset]
  repeat' apply And.intro
  all_goals exact List.mem_map_of_mem (by decide)

/-- A reference the stretch does not write keeps its contents. -/
theorem host1_keeps {r : Ref sig .tc} (hr : r ∉ host1_W) :
    StableHlo.after (hostOps1 (F := Ideal)) W (Proc.devRef .tc r) = W (Proc.devRef .tc r) :=
  StableHlo.after_of_writes_sub _ W host1_writes hr

/-- The stretch writes no float argument. -/
theorem host1_args : argsK (StableHlo.after (hostOps1 (F := Ideal)) W) = argsK W :=
  argsK_congr fun r hr => host1_keeps W ((by decide : ∀ r ∈ argRefs, r ∉ host1_W) r hr)

/-- The stretch does not write the array the following launch reads its state from (the output array of launch 0). -/
theorem host1_keeps_x :
    StableHlo.after (hostOps1 (F := Ideal)) W (Proc.devRef .tc (Pipeline.arrRef spec1 0)) = W (Proc.devRef .tc (Pipeline.arrRef spec1 0)) :=
  host1_keeps W (r := main_v71) (by decide)

/-! ## Layer 1, before the time-mixing launch -/

/-- The references the stretch writes, in order. -/
abbrev host2_W : List (Ref sig .tc) :=
  [main_v97, main_v98, main_v99, main_v100, main_v101, main_v102, main_v103, main_v104, main_v105, main_v106,
   main_v107, main_v108, main_v109, main_v110, main_v111, main_v112, main_v113, main_v114, main_v115, main_v116,
   main_v117, main_v118, main_v119, main_v120, main_v121, main_v122, main_v123, main_v124, main_v125, main_v126,
   main_v127, main_v128, main_v129, main_v130, main_v131, main_v132, main_v133, main_v134, main_v135]

theorem host2_writes : (hostOps2 : List (HloOp τ sig (Elt Ideal))).Forall fun op => op.writes ⊆ (host2_W.map (Proc.devRef (τ := τ) .tc)).toFinset := by
  simp only [List.Forall, StableHlo.unary_writes, StableHlo.reshape_writes, Finset.singleton_subset_iff, List.mem_toFinset]
  repeat' apply And.intro
  all_goals exact List.mem_map_of_mem (by decide)

/-- A reference the stretch does not write keeps its contents. -/
theorem host2_keeps {r : Ref sig .tc} (hr : r ∉ host2_W) :
    StableHlo.after (hostOps2 (F := Ideal)) W (Proc.devRef .tc r) = W (Proc.devRef .tc r) :=
  StableHlo.after_of_writes_sub _ W host2_writes hr

/-- The stretch writes no float argument. -/
theorem host2_args : argsK (StableHlo.after (hostOps2 (F := Ideal)) W) = argsK W :=
  argsK_congr fun r hr => host2_keeps W ((by decide : ∀ r ∈ argRefs, r ∉ host2_W) r hr)

/-- The stretch does not write the array the following launch reads its state from (the output array of launch 1). -/
theorem host2_keeps_x :
    StableHlo.after (hostOps2 (F := Ideal)) W (Proc.devRef .tc (Pipeline.arrRef spec2 0)) = W (Proc.devRef .tc (Pipeline.arrRef spec2 0)) :=
  host2_keeps W (r := main_v96) (by decide)

/-! ## Layer 1, before the channel-mixing launch -/

/-- The references the stretch writes, in order. -/
abbrev host3_W : List (Ref sig .tc) :=
  [main_v137, main_v138, main_v139, main_v140, main_v141, main_v142, main_v143, main_v144, main_v145, main_v146,
   main_v147, main_v148, main_v149, main_v150, main_v151, main_v152, main_v153, main_v154, main_v155, main_v156,
   main_v157, main_v158, main_v159, main_v160]

theorem host3_writes : (hostOps3 : List (HloOp τ sig (Elt Ideal))).Forall fun op => op.writes ⊆ (host3_W.map (Proc.devRef (τ := τ) .tc)).toFinset := by
  simp only [List.Forall, StableHlo.unary_writes, StableHlo.reshape_writes, Finset.singleton_subset_iff, List.mem_toFinset]
  repeat' apply And.intro
  all_goals exact List.mem_map_of_mem (by decide)

/-- A reference the stretch does not write keeps its contents. -/
theorem host3_keeps {r : Ref sig .tc} (hr : r ∉ host3_W) :
    StableHlo.after (hostOps3 (F := Ideal)) W (Proc.devRef .tc r) = W (Proc.devRef .tc r) :=
  StableHlo.after_of_writes_sub _ W host3_writes hr

/-- The stretch writes no float argument. -/
theorem host3_args : argsK (StableHlo.after (hostOps3 (F := Ideal)) W) = argsK W :=
  argsK_congr fun r hr => host3_keeps W ((by decide : ∀ r ∈ argRefs, r ∉ host3_W) r hr)

/-- The stretch does not write the array the following launch reads its state from (the output array of launch 2). -/
theorem host3_keeps_x :
    StableHlo.after (hostOps3 (F := Ideal)) W (Proc.devRef .tc (Pipeline.arrRef spec3 0)) = W (Proc.devRef .tc (Pipeline.arrRef spec3 0)) :=
  host3_keeps W (r := main_v136) (by decide)

/-! ## Layer 2, before the time-mixing launch -/

/-- The references the stretch writes, in order. -/
abbrev host4_W : List (Ref sig .tc) :=
  [main_v162, main_v163, main_v164, main_v165, main_v166, main_v167, main_v168, main_v169, main_v170, main_v171,
   main_v172, main_v173, main_v174, main_v175, main_v176, main_v177, main_v178, main_v179, main_v180, main_v181,
   main_v182, main_v183, main_v184, main_v185, main_v186, main_v187, main_v188, main_v189, main_v190, main_v191,
   main_v192, main_v193, main_v194, main_v195, main_v196, main_v197, main_v198, main_v199, main_v200]

theorem host4_writes : (hostOps4 : List (HloOp τ sig (Elt Ideal))).Forall fun op => op.writes ⊆ (host4_W.map (Proc.devRef (τ := τ) .tc)).toFinset := by
  simp only [List.Forall, StableHlo.unary_writes, StableHlo.reshape_writes, Finset.singleton_subset_iff, List.mem_toFinset]
  repeat' apply And.intro
  all_goals exact List.mem_map_of_mem (by decide)

/-- A reference the stretch does not write keeps its contents. -/
theorem host4_keeps {r : Ref sig .tc} (hr : r ∉ host4_W) :
    StableHlo.after (hostOps4 (F := Ideal)) W (Proc.devRef .tc r) = W (Proc.devRef .tc r) :=
  StableHlo.after_of_writes_sub _ W host4_writes hr

/-- The stretch writes no float argument. -/
theorem host4_args : argsK (StableHlo.after (hostOps4 (F := Ideal)) W) = argsK W :=
  argsK_congr fun r hr => host4_keeps W ((by decide : ∀ r ∈ argRefs, r ∉ host4_W) r hr)

/-- The stretch does not write the array the following launch reads its state from (the output array of launch 3). -/
theorem host4_keeps_x :
    StableHlo.after (hostOps4 (F := Ideal)) W (Proc.devRef .tc (Pipeline.arrRef spec4 0)) = W (Proc.devRef .tc (Pipeline.arrRef spec4 0)) :=
  host4_keeps W (r := main_v161) (by decide)

/-! ## Layer 2, before the channel-mixing launch -/

/-- The references the stretch writes, in order. -/
abbrev host5_W : List (Ref sig .tc) :=
  [main_v202, main_v203, main_v204, main_v205, main_v206, main_v207, main_v208, main_v209, main_v210, main_v211,
   main_v212, main_v213, main_v214, main_v215, main_v216, main_v217, main_v218, main_v219, main_v220, main_v221,
   main_v222, main_v223, main_v224, main_v225]

theorem host5_writes : (hostOps5 : List (HloOp τ sig (Elt Ideal))).Forall fun op => op.writes ⊆ (host5_W.map (Proc.devRef (τ := τ) .tc)).toFinset := by
  simp only [List.Forall, StableHlo.unary_writes, StableHlo.reshape_writes, Finset.singleton_subset_iff, List.mem_toFinset]
  repeat' apply And.intro
  all_goals exact List.mem_map_of_mem (by decide)

/-- A reference the stretch does not write keeps its contents. -/
theorem host5_keeps {r : Ref sig .tc} (hr : r ∉ host5_W) :
    StableHlo.after (hostOps5 (F := Ideal)) W (Proc.devRef .tc r) = W (Proc.devRef .tc r) :=
  StableHlo.after_of_writes_sub _ W host5_writes hr

/-- The stretch writes no float argument. -/
theorem host5_args : argsK (StableHlo.after (hostOps5 (F := Ideal)) W) = argsK W :=
  argsK_congr fun r hr => host5_keeps W ((by decide : ∀ r ∈ argRefs, r ∉ host5_W) r hr)

/-- The stretch does not write the array the following launch reads its state from (the output array of launch 4). -/
theorem host5_keeps_x :
    StableHlo.after (hostOps5 (F := Ideal)) W (Proc.devRef .tc (Pipeline.arrRef spec5 0)) = W (Proc.devRef .tc (Pipeline.arrRef spec5 0)) :=
  host5_keeps W (r := main_v201) (by decide)

/-! ## Layer 3, before the time-mixing launch -/

/-- The references the stretch writes, in order. -/
abbrev host6_W : List (Ref sig .tc) :=
  [main_v227, main_v228, main_v229, main_v230, main_v231, main_v232, main_v233, main_v234, main_v235, main_v236,
   main_v237, main_v238, main_v239, main_v240, main_v241, main_v242, main_v243, main_v244, main_v245, main_v246,
   main_v247, main_v248, main_v249, main_v250, main_v251, main_v252, main_v253, main_v254, main_v255, main_v256,
   main_v257, main_v258, main_v259, main_v260, main_v261, main_v262, main_v263, main_v264, main_v265]

theorem host6_writes : (hostOps6 : List (HloOp τ sig (Elt Ideal))).Forall fun op => op.writes ⊆ (host6_W.map (Proc.devRef (τ := τ) .tc)).toFinset := by
  simp only [List.Forall, StableHlo.unary_writes, StableHlo.reshape_writes, Finset.singleton_subset_iff, List.mem_toFinset]
  repeat' apply And.intro
  all_goals exact List.mem_map_of_mem (by decide)

/-- A reference the stretch does not write keeps its contents. -/
theorem host6_keeps {r : Ref sig .tc} (hr : r ∉ host6_W) :
    StableHlo.after (hostOps6 (F := Ideal)) W (Proc.devRef .tc r) = W (Proc.devRef .tc r) :=
  StableHlo.after_of_writes_sub _ W host6_writes hr

/-- The stretch writes no float argument. -/
theorem host6_args : argsK (StableHlo.after (hostOps6 (F := Ideal)) W) = argsK W :=
  argsK_congr fun r hr => host6_keeps W ((by decide : ∀ r ∈ argRefs, r ∉ host6_W) r hr)

/-- The stretch does not write the array the following launch reads its state from (the output array of launch 5). -/
theorem host6_keeps_x :
    StableHlo.after (hostOps6 (F := Ideal)) W (Proc.devRef .tc (Pipeline.arrRef spec6 0)) = W (Proc.devRef .tc (Pipeline.arrRef spec6 0)) :=
  host6_keeps W (r := main_v226) (by decide)

/-! ## Layer 3, before the channel-mixing launch -/

/-- The references the stretch writes, in order. -/
abbrev host7_W : List (Ref sig .tc) :=
  [main_v267, main_v268, main_v269, main_v270, main_v271, main_v272, main_v273, main_v274, main_v275, main_v276,
   main_v277, main_v278, main_v279, main_v280, main_v281, main_v282, main_v283, main_v284, main_v285, main_v286,
   main_v287, main_v288, main_v289, main_v290]

theorem host7_writes : (hostOps7 : List (HloOp τ sig (Elt Ideal))).Forall fun op => op.writes ⊆ (host7_W.map (Proc.devRef (τ := τ) .tc)).toFinset := by
  simp only [List.Forall, StableHlo.unary_writes, StableHlo.reshape_writes, Finset.singleton_subset_iff, List.mem_toFinset]
  repeat' apply And.intro
  all_goals exact List.mem_map_of_mem (by decide)

/-- A reference the stretch does not write keeps its contents. -/
theorem host7_keeps {r : Ref sig .tc} (hr : r ∉ host7_W) :
    StableHlo.after (hostOps7 (F := Ideal)) W (Proc.devRef .tc r) = W (Proc.devRef .tc r) :=
  StableHlo.after_of_writes_sub _ W host7_writes hr

/-- The stretch writes no float argument. -/
theorem host7_args : argsK (StableHlo.after (hostOps7 (F := Ideal)) W) = argsK W :=
  argsK_congr fun r hr => host7_keeps W ((by decide : ∀ r ∈ argRefs, r ∉ host7_W) r hr)

/-- The stretch does not write the array the following launch reads its state from (the output array of launch 6). -/
theorem host7_keeps_x :
    StableHlo.after (hostOps7 (F := Ideal)) W (Proc.devRef .tc (Pipeline.arrRef spec7 0)) = W (Proc.devRef .tc (Pipeline.arrRef spec7 0)) :=
  host7_keeps W (r := main_v266) (by decide)

end Cert.KernelIdeal.Val
-- ==== Proof.KLayer0.lean ====
/-
  Layer 0 of the kernel, boundary to boundary. The attention launch's output array, row by row, is the specification's
  time-mixing layer of the rows it was given, with the layer's parameters drawn from the argument arrays (the host
  stretch before the launch only slices, reshapes and re-formats them); the feed-forward launch's output array is
  the channel-mixing layer of those rows. No host stretch writes the state's array in between.
-/
import proofs.«415492_j738734375128_3_alg».proof.Proof.KArgs
import proofs.«415492_j738734375128_3_alg».proof.Proof.ValAttn0
import proofs.«415492_j738734375128_3_alg».proof.Proof.ValFfn1
import proofs.«415492_j738734375128_3_alg».proof.Proof.HostKL0
import proofs.«415492_j738734375128_3_alg».proof.Proof.HostKeeps

noncomputable section

namespace Cert.KernelIdeal.Val

open Cert.KernelIdeal Cert.KernelIdeal.Gen Cert.KernelIdeal.Hand Idealize.ShloMosaic Idealize.ShloMosaic.ValueIdx

variable (m : (ℓ : Loc nD τ sig) → Buf (Elt Ideal) ℓ) (ρ : Dev nD → PrngReg) (c : Dev nD)

/-- The state's rows as the attention launch of layer 0 finds them, -/
def stIn0 (r : Fin 2048) : Cert.Spec.Row := fun d => (W1 m ρ c (Proc.devRef .tc (Pipeline.arrRef spec0 0)) : S2048x1024.Idx → EReal) (ix2 r d)
/-- as it leaves them, -/
def stMid0 (r : Fin 2048) : Cert.Spec.Row := fun d => (W2 m ρ c (Proc.devRef .tc (Pipeline.arrRef spec0 14)) : S2048x1024.Idx → EReal) (ix2 r d)
/-- and as the feed-forward launch of layer 0 leaves them. -/
def stOut0 (r : Fin 2048) : Cert.Spec.Row := fun d => (W4 m ρ c (Proc.devRef .tc (Pipeline.arrRef spec1 9)) : S2048x1024.Idx → EReal) (ix2 r d)

/-- Time mixing, layer 0. -/
theorem stMid0_eq (r : Fin 2048) : stMid0 m ρ c r = Cert.Spec.attnRow ((argsK (W0 m ρ c)).attn 0) (stIn0 m ρ c r) := by
  funext o
  have h1 := congrFun (W2_arr m ρ c 14) (ix2 r o)
  have h2 := final0 (V1 m ρ) c r o
  have hp : attnP0 (V1 m ρ) c = (argsK (W0 m ρ c)).attn 0 := (hostL0_attn (W0 m ρ c)).trans (congrArg (fun A => A.attn 0) (argsK_W0 m ρ c))
  have hx : xrow0 (V1 m ρ) c r = stIn0 m ρ c r := rfl
  exact h1.trans (h2.trans (by rw [hp, hx]))

/-- Channel mixing, layer 0. -/
theorem stOut0_eq (r : Fin 2048) : stOut0 m ρ c r = Cert.Spec.ffnRow ((argsK (W0 m ρ c)).ffn 0) (stMid0 m ρ c r) := by
  funext o
  have h1 := congrFun (W4_arr m ρ c 9) (ix2 r o)
  have h2 := final1 (V3 m ρ) c r o
  have hp : ffnP1 (V3 m ρ) c = (argsK (W0 m ρ c)).ffn 0 := (hostL0_ffn (W2 m ρ c)).trans (congrArg (fun A => A.ffn 0) (argsK_W2 m ρ c))
  have hx : xrow1 (V3 m ρ) c r = stMid0 m ρ c r := by
    funext d
    show (StableHlo.after hostOps1 (W2 m ρ c) (Proc.devRef .tc (Pipeline.arrRef spec1 0)) : S2048x1024.Idx → EReal) (ix2 r d) = _
    rw [host1_keeps_x (W2 m ρ c)]
    rfl
  exact h1.trans (h2.trans (by rw [hp, hx]))

end Cert.KernelIdeal.Val

end
-- ==== Proof.ValAttn2.lean ====
/-
  REGION 2, read as values: what the attention kernel's launch leaves in its result array is, row by row, the
  specification's time-mixing layer.

  The launch walks the 2048 rows of the activation array in eight blocks of 256 rows. At a point the body sees the
  point's block x of activations and the whole of thirteen parameter arrays (nine rows of 1024 channels: the gain and
  bias of the normalisation, the carried state, the three mixing rows, the bonus, the carried numerator and
  denominator; four 1024 × 1024 matrices), and stores one value over the output block. Entry (p, o) of that value is
      x(p, o) + Σ_d g(p, d) · Wo(o, d),
  where, with n = the normalisation of row p (centred, divided by the root of its variance plus a small constant,
  times the gain plus the bias) and m_μ = n ⊙ μ + s ⊙ (1 − μ) its mixture with the carried state s by a mixing row μ,
      k = Σ_d m_μk(d) · Wk(·, d),   v = Σ_d m_μv(d) · Wv(·, d),   r = Σ_d m_μr(d) · Wr(·, d),   e = exp (tf + k),
      g = σ(r) · (num + e · v) / (den + e).
  Every quantity in it depends on row p of the block alone: the two lane sums run along the row, the four products
  contract the row against a matrix's rows, everything else acts entry by entry. So entry (p, o) is the
  specification's layer applied to row p, at channel o. The block at point t is rows 256·t … 256·t + 255 of the
  activation array and the parameter blocks are the parameter arrays themselves; the output block of point t is
  written back onto those same rows, and the eight blocks cover the result array. Sums are finite sums on the extended
  reals; a change of float format is the identity there; no finiteness is used.
-/
import proofs.«415492_j738734375128_3_alg».proof.Proof.Region2
import proofs.«415492_j738734375128_3_alg».proof.Proof.Spec
import Idealize.ShloMosaic.PureOps.Ideal.Laws
import Idealize.ShloMosaic.Lib.ValueIdx
import Idealize.ShloMosaic.Lib.ValueLayout
import Idealize.ShloMosaic.Lib.Pipeline.Value

-- membership of an index in a rectangle of these extents is decided structurally, one step per coordinate
set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## The operations the body is made of, read at an index -/

/-- A sum along the lanes of a row: the sum over the row's 1024 entries. -/
theorem val2_sumRow (src : FVec Ideal S256x1024 .f32) (h : S256x1024.Reduces [1] S256) (hφ : FKind.Formats .f32)
    (hacc : (0x00000000#32 : BitVec 32) = 0x00000000#32) (p : Fin 256) :
    multiReduction .add [1] S256 src 0x00000000#32 h hφ hacc (ix1 p) = ∑ k : Fin 1024, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-- A vector of 256 entries seen as a column: its entry at (p, 0) is the entry at p. -/
theorem val2_castCol {α : Type} (v : S256.Idx → α) (h : S256.ShapeCasts S256x1) (p : Fin 256) (u : Fin 1) :
    shapeCast S256x1 v h (ix2 p u) = v (ix1 p) :=
  shapeCast_apply v h _ _ (by
    have hu : u.val = 0 := by omega
    rw [Shape.rowMajor_val_two, Shape.rowMajor_val_one]
    show p.val = p.val * 1 + u.val
    omega)

/-- A column spread over the 1024 lanes: every lane of row p holds the column's entry at p. -/
theorem val2_bcastCol {α : Type} (v : S256x1.Idx → α) (h : S256x1.Broadcasts S256x1024) (p : Fin 256) (d : Fin 1024) :
    broadcastTo S256x1024 v h (ix2 p d) = v (ix2 p (0 : Fin 1)) := by
  refine broadcastTo_apply v h (ix2 p d) (ix2 p (0 : Fin 1)) fun ax => ?_
  match ax with
  | ⟨0, _⟩ => rfl
  | ⟨1, _⟩ => rfl

/-- The three transcendental operations act entry by entry. -/
theorem val2_rsqrt_apply {s : Shape} {φ : FTy} (a : FVec Ideal s φ) (i : s.Idx) : rsqrt a i = Ideal.rsqrt (a i) := rfl
theorem val2_exp_apply {s : Shape} {φ : FTy} (a : FVec Ideal s φ) (i : s.Idx) : exp a i = Ideal.exp (a i) := rfl
theorem val2_logistic_apply {s : Shape} {φ : FTy} (a : FVec Ideal s φ) (i : s.Idx) : logistic a i = Ideal.logistic (a i) := rfl

/-- The product of a block of 256 rows with the transpose of a 1024 × 1024 matrix, into a zero accumulator: entry
    (p, o) is the sum over the contracted coordinate k of row p at k times the matrix at (o, k). -/
theorem val2_matT (lhs : FVec Ideal S256x1024 .bf16) (rhs : FVec Ideal S1024x1024 .bf16) (p : Fin 256) (o : Fin 1024) :
    matmul dot_S256x1024_S1024x1024_S256x1024_1_1_0_0_n_n none lhs rhs (constant S256x1024 .f32 0x00000000#32) (ix2 p o)
      = ∑ k : Fin 1024, lhs (ix2 p k) * rhs (ix2 o k) := by
  show FloatOps.matmul dot_S256x1024_S1024x1024_S256x1024_1_1_0_0_n_n none lhs rhs (constant S256x1024 .f32 0x00000000#32) (ix2 p o) = _
  rw [Ideal.matmul_constant_zero_apply,
    ← Equiv.sum_comp (contrEquiv1 dot_S256x1024_S1024x1024_S256x1024_1_1_0_0_n_n 1024 rfl rfl).symm]
  refine Finset.sum_congr rfl fun k _ => ?_
  have ck := contrEquiv1_symm_val dot_S256x1024_S1024x1024_S256x1024_1_1_0_0_n_n 1024 rfl rfl k
  have hl : dot_S256x1024_S1024x1024_S256x1024_1_1_0_0_n_n.lhsIdx (ix2 p o)
      ((contrEquiv1 dot_S256x1024_S1024x1024_S256x1024_1_1_0_0_n_n 1024 rfl rfl).symm k) = ix2 p k := by
    funext ax; apply Fin.ext
    match ax with
    | ⟨0, _⟩ => simp [DotDims.lhsIdx, dot_S256x1024_S1024x1024_S256x1024_1_1_0_0_n_n]; rfl
    | ⟨1, _⟩ => simp [DotDims.lhsIdx, dot_S256x1024_S1024x1024_S256x1024_1_1_0_0_n_n]; exact ck
  have hr : dot_S256x1024_S1024x1024_S256x1024_1_1_0_0_n_n.rhsIdx (ix2 p o)
      ((contrEquiv1 dot_S256x1024_S1024x1024_S256x1024_1_1_0_0_n_n 1024 rfl rfl).symm k) = ix2 o k := by
    funext ax; apply Fin.ext
    match ax with
    | ⟨0, _⟩ => simp [DotDims.rhsIdx, dot_S256x1024_S1024x1024_S256x1024_1_1_0_0_n_n]; rfl
    | ⟨1, _⟩ => simp [DotDims.rhsIdx, dot_S256x1024_S1024x1024_S256x1024_1_1_0_0_n_n]; exact ck
  rw [hl, hr]

/-! ## The body's values at an entry -/

/-- The normalised row: entry (p, d) of the body's first value is the layer normalisation of row p, with the gain
    and bias rows, at channel d. The two lane sums are the row's mean and its variance about that mean. -/
theorem pay2_3_apply (x0 : Vec Ideal S256x1024 .f32) (x1 x2 : Vec Ideal S1x1024 .f32) (p : Fin 256) (d : Fin 1024) :
    k2_pay3 x0 x1 x2 (ix2 p d)
      = Cert.Spec.lnRow (fun k => x1 (ix2 (0 : Fin 1) k)) (fun k => x2 (ix2 (0 : Fin 1) k)) (fun k => x0 (ix2 p k)) d := by
  unfold k2_pay3 k2_pay2
  simp only [shapeCast_self, addf_apply, mulf_apply, subf_apply, divf_apply, val2_rsqrt_apply, broadcast_apply,
    broadcastTo_1b_ab_apply, val2_bcastCol, val2_castCol]
  rw [val2_sumRow, val2_sumRow]
  simp only [shapeCast_self, mulf_apply, subf_apply, divf_apply, broadcast_apply, val2_bcastCol, val2_castCol]
  rw [val2_sumRow]
  rfl

/-- Four of the body's values are parameter rows as loaded. -/
theorem pay2_2_eq (v : Vec Ideal S256x1024 .f32) : k2_pay2 v = v := by unfold k2_pay2; exact shapeCast_self _ _
theorem pay2_4_eq (v : Vec Ideal S1x1024 .f32) : k2_pay4 v = v := by unfold k2_pay4; exact shapeCast_self _ _
theorem pay2_5_eq (v : Vec Ideal S1x1024 .f32) : k2_pay5 v = v := by unfold k2_pay5; exact shapeCast_self _ _
theorem pay2_6_eq (v : Vec Ideal S1x1024 .f32) : k2_pay6 v = v := by unfold k2_pay6; exact shapeCast_self _ _
theorem pay2_7_eq (v : Vec Ideal S1x1024 .f32) : k2_pay7 v = v := by unfold k2_pay7; exact shapeCast_self _ _

/-- The row of ones. -/
theorem pay2_9_apply (u : Fin 1) (d : Fin 1024) : k2_pay9 (F := Ideal) (ix2 u d) = Cert.Spec.cone := rfl

/-- The normalised row times the key's mixing row. -/
theorem pay2_8_apply (x0 : Vec Ideal S256x1024 .f32) (x1 x2 x4 : Vec Ideal S1x1024 .f32) (p : Fin 256) (d : Fin 1024) :
    k2_pay8 x0 x1 x2 x4 (ix2 p d) = k2_pay3 x0 x1 x2 (ix2 p d) * x4 (ix2 (0 : Fin 1) d) := by
  unfold k2_pay8 k2_pay5
  simp only [shapeCast_self, mulf_apply, broadcastTo_1b_ab_apply]

/-- The receptance's projection: the row mixed with the carried state by the receptance's mixing row, times the
    transpose of its matrix. -/
theorem pay2_10_apply (v27 : FVec Ideal S256x1024 .f32) (v29 v35 : FVec Ideal S1x1024 .f32) (v66 : Vec Ideal S1024x1024 .bf16)
    (p : Fin 256) (o : Fin 1024) :
    k2_pay10 v27 v29 v35 v66 (ix2 p o)
      = ∑ k : Fin 1024, (v27 (ix2 p k) * v35 (ix2 (0 : Fin 1) k)
          + v29 (ix2 (0 : Fin 1) k) * (Cert.Spec.cone - v35 (ix2 (0 : Fin 1) k))) * v66 (ix2 o k) := by
  unfold k2_pay10
  simp only [shapeCast_self, val2_matT, truncf_apply, addf_apply, mulf_apply, subf_apply, broadcast_apply,
    broadcastTo_1b_ab_apply]
  rfl

/-- The exponential of the bonus row plus the key's projection. -/
theorem pay2_11_apply (v29 v31 : FVec Ideal S1x1024 .f32) (v37 : FVec Ideal S256x1024 .f32) (v38 : FVec Ideal S1x1024 .f32)
    (v58 : Vec Ideal S1024x1024 .bf16) (v69 : Vec Ideal S1x1024 .f32) (p : Fin 256) (o : Fin 1024) :
    k2_pay11 v29 v31 v37 v38 v58 v69 (ix2 p o)
      = Ideal.exp (v69 (ix2 (0 : Fin 1) o) + ∑ k : Fin 1024, (v37 (ix2 p k)
          + v29 (ix2 (0 : Fin 1) k) * (v38 (ix2 (0 : Fin 1) k) - v31 (ix2 (0 : Fin 1) k))) * v58 (ix2 o k)) := by
  unfold k2_pay11
  simp only [shapeCast_self, val2_matT, truncf_apply, addf_apply, mulf_apply, subf_apply, val2_exp_apply,
    broadcastTo_1b_ab_apply]

/-- The numerator: the carried numerator row plus that exponential times the value's projection. -/
theorem pay2_12_apply (v27 : FVec Ideal S256x1024 .f32) (v29 v31 v33 : FVec Ideal S1x1024 .f32) (v37 : FVec Ideal S256x1024 .f32)
    (v38 : FVec Ideal S1x1024 .f32) (v58 v62 : Vec Ideal S1024x1024 .bf16) (v69 v71 : Vec Ideal S1x1024 .f32)
    (p : Fin 256) (o : Fin 1024) :
    k2_pay12 v27 v29 v31 v33 v37 v38 v58 v62 v69 v71 (ix2 p o)
      = v71 (ix2 (0 : Fin 1) o) + k2_pay11 v29 v31 v37 v38 v58 v69 (ix2 p o)
          * ∑ k : Fin 1024, (v27 (ix2 p k) * v33 (ix2 (0 : Fin 1) k)
              + v29 (ix2 (0 : Fin 1) k) * (Cert.Spec.cone - v33 (ix2 (0 : Fin 1) k))) * v62 (ix2 o k) := by
  unfold k2_pay12
  simp only [shapeCast_self, val2_matT, truncf_apply, addf_apply, mulf_apply, subf_apply, broadcast_apply,
    broadcastTo_1b_ab_apply]
  rfl

/-- The carried denominator row, spread over the rows. -/
theorem pay2_13_apply (v73 : Vec Ideal S1x1024 .f32) (p : Fin 256) (o : Fin 1024) :
    k2_pay13 v73 (ix2 p o) = v73 (ix2 (0 : Fin 1) o) := by
  unfold k2_pay13
  simp only [shapeCast_self, broadcastTo_1b_ab_apply]

/-- The stored value: the row plus the output matrix's projection of the gated ratio. -/
theorem pay2_1_apply (v1 v68 v77 v80 v81 : FVec Ideal S256x1024 .f32) (v87 : Vec Ideal S1024x1024 .bf16)
    (p : Fin 256) (o : Fin 1024) :
    k2_pay1 v1 v68 v77 v80 v81 v87 (ix2 p o)
      = v1 (ix2 p o) + ∑ k : Fin 1024, (Ideal.logistic (v68 (ix2 p k))
          * Ideal.div (v80 (ix2 p k)) (v81 (ix2 p k) + v77 (ix2 p k))) * v87 (ix2 o k) := by
  unfold k2_pay1
  simp only [shapeCast_self, val2_matT, truncf_apply, addf_apply, mulf_apply, divf_apply, val2_logistic_apply]

/-! ## What the body leaves in the output block, at an entry -/

theorem hz2 : (![0, 0] : Fin 2 → Nat) = fun _ => 0 := funext fun a => by fin_cases a <;> rfl

/-- The layer's parameters as thirteen blocks hold them: nine rows and four matrices. -/
def attnP2_of (x1 x2 x3 x4 x5 x6 x7 x8 x9 : Vec Ideal S1x1024 .f32) (x10 x11 x12 x13 : Vec Ideal S1024x1024 .bf16) :
    Cert.Spec.AttnP where
  lnw := fun d => x1 (ix2 (0 : Fin 1) d)
  lnb := fun d => x2 (ix2 (0 : Fin 1) d)
  sx := fun d => x3 (ix2 (0 : Fin 1) d)
  mixk := fun d => x4 (ix2 (0 : Fin 1) d)
  mixv := fun d => x5 (ix2 (0 : Fin 1) d)
  mixr := fun d => x6 (ix2 (0 : Fin 1) d)
  tf := fun d => x7 (ix2 (0 : Fin 1) d)
  num := fun d => x8 (ix2 (0 : Fin 1) d)
  den := fun d => x9 (ix2 (0 : Fin 1) d)
  Wk := fun o d => x10 (ix2 o d)
  Wv := fun o d => x11 (ix2 o d)
  Wr := fun o d => x12 (ix2 o d)
  Wo := fun o d => x13 (ix2 o d)

/-- Equal blocks hold equal parameters. -/
theorem attnP2_congr {x1 x2 x3 x4 x5 x6 x7 x8 x9 y1 y2 y3 y4 y5 y6 y7 y8 y9 : Vec Ideal S1x1024 .f32}
    {x10 x11 x12 x13 y10 y11 y12 y13 : Vec Ideal S1024x1024 .bf16}
    (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) :
    attnP2_of x1 x2 x3 x4 x5 x6 x7 x8 x9 x10 x11 x12 x13 = attnP2_of y1 y2 y3 y4 y5 y6 y7 y8 y9 y10 y11 y12 y13 := by
  subst h1 h2 h3 h4 h5 h6 h7 h8 h9 h10 h11 h12 h13
  rfl

/-- Entry (p, o) of what the body stores is the time-mixing layer, with the parameters the thirteen parameter
    blocks hold, applied to row p of the activation block, at channel o. -/
theorem val2_out (x0 : Vec Ideal S256x1024 .f32) (x1 x2 x3 x4 x5 x6 x7 x8 x9 : Vec Ideal S1x1024 .f32)
    (x10 x11 x12 x13 : Vec Ideal S1024x1024 .bf16) (p : Fin 256) (o : Fin 1024) :
    out2_14 x0 x1 x2 x3 x4 x5 x6 x7 x8 x9 x10 x11 x12 x13 (ix2 p o)
      = Cert.Spec.attnRow (attnP2_of x1 x2 x3 x4 x5 x6 x7 x8 x9 x10 x11 x12 x13) (fun k => x0 (ix2 p k)) o := by
  unfold out2_14
  rw [View.canon_unit_zero hz2]
  simp only [View.ld_unit_zero (S := S256x1024) hz2, View.ld_unit_zero (S := S1x1024) hz2,
    View.ld_unit_zero (S := S1024x1024) hz2]
  rw [pay2_1_apply]
  simp only [pay2_10_apply, pay2_11_apply, pay2_12_apply, pay2_13_apply, pay2_8_apply, pay2_3_apply, pay2_2_eq, pay2_4_eq,
    pay2_5_eq, pay2_6_eq, pay2_7_eq, pay2_9_apply]
  rfl

/-! ## The blocks the windows show, read off their arrays -/

variable (V : (c : Dev nD) → (b : Ref sig .tc) → Buf (Elt Ideal) ((c : Thread nD τ).loc b))

/-- The index maps over the eight points: the activation window and the output window show the point's own block of
    256 rows; every parameter window shows its one block at every point. -/
theorem val2_idx_0 : ∀ t : Fin cfg2.N, win2_0.index t (0 : Fin 2) = t.val ∧ win2_0.index t (1 : Fin 2) = 0 :=
  (by decide +kernel : ∀ t : Fin grid2.N, _)
theorem val2_idx_14 : ∀ t : Fin cfg2.N, win2_14.index t (0 : Fin 2) = t.val ∧ win2_14.index t (1 : Fin 2) = 0 :=
  (by decide +kernel : ∀ t : Fin grid2.N, _)
theorem val2_idx_1 : ∀ t : Fin cfg2.N, win2_1.index t (0 : Fin 2) = 0 ∧ win2_1.index t (1 : Fin 2) = 0 :=
  (by decide +kernel : ∀ t : Fin grid2.N, _)
theorem val2_idx_2 : ∀ t : Fin cfg2.N, win2_2.index t (0 : Fin 2) = 0 ∧ win2_2.index t (1 : Fin 2) = 0 :=
  (by decide +kernel : ∀ t : Fin grid2.N, _)
theorem val2_idx_3 : ∀ t : Fin cfg2.N, win2_3.index t (0 : Fin 2) = 0 ∧ win2_3.index t (1 : Fin 2) = 0 :=
  (by decide +kernel : ∀ t : Fin grid2.N, _)
theorem val2_idx_4 : ∀ t : Fin cfg2.N, win2_4.index t (0 : Fin 2) = 0 ∧ win2_4.index t (1 : Fin 2) = 0 :=
  (by decide +kernel : ∀ t : Fin grid2.N, _)
theorem val2_idx_5 : ∀ t : Fin cfg2.N, win2_5.index t (0 : Fin 2) = 0 ∧ win2_5.index t (1 : Fin 2) = 0 :=
  (by decide +kernel : ∀ t : Fin grid2.N, _)
theorem val2_idx_6 : ∀ t : Fin cfg2.N, win2_6.index t (0 : Fin 2) = 0 ∧ win2_6.index t (1 : Fin 2) = 0 :=
  (by decide +kernel : ∀ t : Fin grid2.N, _)
theorem val2_idx_7 : ∀ t : Fin cfg2.N, win2_7.index t (0 : Fin 2) = 0 ∧ win2_7.index t (1 : Fin 2) = 0 :=
  (by decide +kernel : ∀ t : Fin grid2.N, _)
theorem val2_idx_8 : ∀ t : Fin cfg2.N, win2_8.index t (0 : Fin 2) = 0 ∧ win2_8.index t (1 : Fin 2) = 0 :=
  (by decide +kernel : ∀ t : Fin grid2.N, _)
theorem val2_idx_9 : ∀ t : Fin cfg2.N, win2_9.index t (0 : Fin 2) = 0 ∧ win2_9.index t (1 : Fin 2) = 0 :=
  (by decide +kernel : ∀ t : Fin grid2.N, _)
theorem val2_idx_10 : ∀ t : Fin cfg2.N, win2_10.index t (0 : Fin 2) = 0 ∧ win2_10.index t (1 : Fin 2) = 0 :=
  (by decide +kernel : ∀ t : Fin grid2.N, _)
theorem val2_idx_11 : ∀ t : Fin cfg2.N, win2_11.index t (0 : Fin 2) = 0 ∧ win2_11.index t (1 : Fin 2) = 0 :=
  (by decide +kernel : ∀ t : Fin grid2.N, _)
theorem val2_idx_12 : ∀ t : Fin cfg2.N, win2_12.index t (0 : Fin 2) = 0 ∧ win2_12.index t (1 : Fin 2) = 0 :=
  (by decide +kernel : ∀ t : Fin grid2.N, _)
theorem val2_idx_13 : ∀ t : Fin cfg2.N, win2_13.index t (0 : Fin 2) = 0 ∧ win2_13.index t (1 : Fin 2) = 0 :=
  (by decide +kernel : ∀ t : Fin grid2.N, _)

/-- The activation window's block at point t is rows 256·t … 256·t + 255 of its array. -/
theorem blk2_0 (c : Dev nD) (t : Fin cfg2.N) (p : Fin 256) (d : Fin 1024) (r : Fin 2048) (hr : r.val = t.val * 256 + p.val) :
    (iblk2 (F := Ideal) V c 0 t : S256x1024.Idx → EReal) (ix2 p d)
      = (V c (Pipeline.arrRef spec2 0) : S2048x1024.Idx → EReal) (ix2 r d) := by
  obtain ⟨e0, e1⟩ := val2_idx_0 t
  unfold iblk2
  rw [View.read_apply]
  show (V c (Pipeline.arrRef spec2 0) : S2048x1024.Idx → EReal) _ = _
  refine congrArg (V c (Pipeline.arrRef spec2 0) : S2048x1024.Idx → EReal) ?_
  funext a; apply Fin.ext
  match a with
  | ⟨0, _⟩ => show win2_0.index t (0 : Fin 2) * 256 + 1 * p.val = r.val; rw [e0, hr]; omega
  | ⟨1, _⟩ => show win2_0.index t (1 : Fin 2) * 1024 + 1 * d.val = d.val; rw [e1]; omega

/-- A parameter window's block is its whole array, at every point. -/
theorem blk2_1 (c : Dev nD) (t : Fin cfg2.N) :
    (iblk2 (F := Ideal) V c 1 t : S1x1024.Idx → EReal) = (V c (Pipeline.arrRef spec2 1) : S1x1024.Idx → EReal) := by
  obtain ⟨e0, e1⟩ := val2_idx_1 t
  funext y
  unfold iblk2
  rw [View.read_apply]
  show (V c (Pipeline.arrRef spec2 1) : S1x1024.Idx → EReal) _ = _
  refine congrArg (V c (Pipeline.arrRef spec2 1) : S1x1024.Idx → EReal) ?_
  funext a; apply Fin.ext
  match a with
  | ⟨0, _⟩ => show win2_1.index t (0 : Fin 2) * 1 + 1 * (y 0).val = (y 0).val; rw [e0]; omega
  | ⟨1, _⟩ => show win2_1.index t (1 : Fin 2) * 1024 + 1 * (y 1).val = (y 1).val; rw [e1]; omega
theorem blk2_2 (c : Dev nD) (t : Fin cfg2.N) :
    (iblk2 (F := Ideal) V c 2 t : S1x1024.Idx → EReal) = (V c (Pipeline.arrRef spec2 2) : S1x1024.Idx → EReal) := by
  obtain ⟨e0, e1⟩ := val2_idx_2 t
  funext y
  unfold iblk2
  rw [View.read_apply]
  show (V c (Pipeline.arrRef spec2 2) : S1x1024.Idx → EReal) _ = _
  refine congrArg (V c (Pipeline.arrRef spec2 2) : S1x1024.Idx → EReal) ?_
  funext a; apply Fin.ext
  match a with
  | ⟨0, _⟩ => show win2_2.index t (0 : Fin 2) * 1 + 1 * (y 0).val = (y 0).val; rw [e0]; omega
  | ⟨1, _⟩ => show win2_2.index t (1 : Fin 2) * 1024 + 1 * (y 1).val = (y 1).val; rw [e1]; omega
theorem blk2_3 (c : Dev nD) (t : Fin cfg2.N) :
    (iblk2 (F := Ideal) V c 3 t : S1x1024.Idx → EReal) = (V c (Pipeline.arrRef spec2 3) : S1x1024.Idx → EReal) := by
  obtain ⟨e0, e1⟩ := val2_idx_3 t
  funext y
  unfold iblk2
  rw [View.read_apply]
  show (V c (Pipeline.arrRef spec2 3) : S1x1024.Idx → EReal) _ = _
  refine congrArg (V c (Pipeline.arrRef spec2 3) : S1x1024.Idx → EReal) ?_
  funext a; apply Fin.ext
  match a with
  | ⟨0, _⟩ => show win2_3.index t (0 : Fin 2) * 1 + 1 * (y 0).val = (y 0).val; rw [e0]; omega
  | ⟨1, _⟩ => show win2_3.index t (1 : Fin 2) * 1024 + 1 * (y 1).val = (y 1).val; rw [e1]; omega
theorem blk2_4 (c : Dev nD) (t : Fin cfg2.N) :
    (iblk2 (F := Ideal) V c 4 t : S1x1024.Idx → EReal) = (V c (Pipeline.arrRef spec2 4) : S1x1024.Idx → EReal) := by
  obtain ⟨e0, e1⟩ := val2_idx_4 t
  funext y
  unfold iblk2
  rw [View.read_apply]
  show (V c (Pipeline.arrRef spec2 4) : S1x1024.Idx → EReal) _ = _
  refine congrArg (V c (Pipeline.arrRef spec2 4) : S1x1024.Idx → EReal) ?_
  funext a; apply Fin.ext
  match a with
  | ⟨0, _⟩ => show win2_4.index t (0 : Fin 2) * 1 + 1 * (y 0).val = (y 0).val; rw [e0]; omega
  | ⟨1, _⟩ => show win2_4.index t (1 : Fin 2) * 1024 + 1 * (y 1).val = (y 1).val; rw [e1]; omega
theorem blk2_5 (c : Dev nD) (t : Fin cfg2.N) :
    (iblk2 (F := Ideal) V c 5 t : S1x1024.Idx → EReal) = (V c (Pipeline.arrRef spec2 5) : S1x1024.Idx → EReal) := by
  obtain ⟨e0, e1⟩ := val2_idx_5 t
  funext y
  unfold iblk2
  rw [View.read_apply]
  show (V c (Pipeline.arrRef spec2 5) : S1x1024.Idx → EReal) _ = _
  refine congrArg (V c (Pipeline.arrRef spec2 5) : S1x1024.Idx → EReal) ?_
  funext a; apply Fin.ext
  match a with
  | ⟨0, _⟩ => show win2_5.index t (0 : Fin 2) * 1 + 1 * (y 0).val = (y 0).val; rw [e0]; omega
  | ⟨1, _⟩ => show win2_5.index t (1 : Fin 2) * 1024 + 1 * (y 1).val = (y 1).val; rw [e1]; omega
theorem blk2_6 (c : Dev nD) (t : Fin cfg2.N) :
    (iblk2 (F := Ideal) V c 6 t : S1x1024.Idx → EReal) = (V c (Pipeline.arrRef spec2 6) : S1x1024.Idx → EReal) := by
  obtain ⟨e0, e1⟩ := val2_idx_6 t
  funext y
  unfold iblk2
  rw [View.read_apply]
  show (V c (Pipeline.arrRef spec2 6) : S1x1024.Idx → EReal) _ = _
  refine congrArg (V c (Pipeline.arrRef spec2 6) : S1x1024.Idx → EReal) ?_
  funext a; apply Fin.ext
  match a with
  | ⟨0, _⟩ => show win2_6.index t (0 : Fin 2) * 1 + 1 * (y 0).val = (y 0).val; rw [e0]; omega
  | ⟨1, _⟩ => show win2_6.index t (1 : Fin 2) * 1024 + 1 * (y 1).val = (y 1).val; rw [e1]; omega
theorem blk2_7 (c : Dev nD) (t : Fin cfg2.N) :
    (iblk2 (F := Ideal) V c 7 t : S1x1024.Idx → EReal) = (V c (Pipeline.arrRef spec2 7) : S1x1024.Idx → EReal) := by
  obtain ⟨e0, e1⟩ := val2_idx_7 t
  funext y
  unfold iblk2
  rw [View.read_apply]
  show (V c (Pipeline.arrRef spec2 7) : S1x1024.Idx → EReal) _ = _
  refine congrArg (V c (Pipeline.arrRef spec2 7) : S1x1024.Idx → EReal) ?_
  funext a; apply Fin.ext
  match a with
  | ⟨0, _⟩ => show win2_7.index t (0 : Fin 2) * 1 + 1 * (y 0).val = (y 0).val; rw [e0]; omega
  | ⟨1, _⟩ => show win2_7.index t (1 : Fin 2) * 1024 + 1 * (y 1).val = (y 1).val; rw [e1]; omega
theorem blk2_8 (c : Dev nD) (t : Fin cfg2.N) :
    (iblk2 (F := Ideal) V c 8 t : S1x1024.Idx → EReal) = (V c (Pipeline.arrRef spec2 8) : S1x1024.Idx → EReal) := by
  obtain ⟨e0, e1⟩ := val2_idx_8 t
  funext y
  unfold iblk2
  rw [View.read_apply]
  show (V c (Pipeline.arrRef spec2 8) : S1x1024.Idx → EReal) _ = _
  refine congrArg (V c (Pipeline.arrRef spec2 8) : S1x1024.Idx → EReal) ?_
  funext a; apply Fin.ext
  match a with
  | ⟨0, _⟩ => show win2_8.index t (0 : Fin 2) * 1 + 1 * (y 0).val = (y 0).val; rw [e0]; omega
  | ⟨1, _⟩ => show win2_8.index t (1 : Fin 2) * 1024 + 1 * (y 1).val = (y 1).val; rw [e1]; omega
theorem blk2_9 (c : Dev nD) (t : Fin cfg2.N) :
    (iblk2 (F := Ideal) V c 9 t : S1x1024.Idx → EReal) = (V c (Pipeline.arrRef spec2 9) : S1x1024.Idx → EReal) := by
  obtain ⟨e0, e1⟩ := val2_idx_9 t
  funext y
  unfold iblk2
  rw [View.read_apply]
  show (V c (Pipeline.arrRef spec2 9) : S1x1024.Idx → EReal) _ = _
  refine congrArg (V c (Pipeline.arrRef spec2 9) : S1x1024.Idx → EReal) ?_
  funext a; apply Fin.ext
  match a with
  | ⟨0, _⟩ => show win2_9.index t (0 : Fin 2) * 1 + 1 * (y 0).val = (y 0).val; rw [e0]; omega
  | ⟨1, _⟩ => show win2_9.index t (1 : Fin 2) * 1024 + 1 * (y 1).val = (y 1).val; rw [e1]; omega
theorem blk2_10 (c : Dev nD) (t : Fin cfg2.N) :
    (iblk2 (F := Ideal) V c 10 t : S1024x1024.Idx → EReal) = (V c (Pipeline.arrRef spec2 10) : S1024x1024.Idx → EReal) := by
  obtain ⟨e0, e1⟩ := val2_idx_10 t
  funext y
  unfold iblk2
  rw [View.read_apply]
  show (V c (Pipeline.arrRef spec2 10) : S1024x1024.Idx → EReal) _ = _
  refine congrArg (V c (Pipeline.arrRef spec2 10) : S1024x1024.Idx → EReal) ?_
  funext a; apply Fin.ext
  match a with
  | ⟨0, _⟩ => show win2_10.index t (0 : Fin 2) * 1024 + 1 * (y 0).val = (y 0).val; rw [e0]; omega
  | ⟨1, _⟩ => show win2_10.index t (1 : Fin 2) * 1024 + 1 * (y 1).val = (y 1).val; rw [e1]; omega
theorem blk2_11 (c : Dev nD) (t : Fin cfg2.N) :
    (iblk2 (F := Ideal) V c 11 t : S1024x1024.Idx → EReal) = (V c (Pipeline.arrRef spec2 11) : S1024x1024.Idx → EReal) := by
  obtain ⟨e0, e1⟩ := val2_idx_11 t
  funext y
  unfold iblk2
  rw [View.read_apply]
  show (V c (Pipeline.arrRef spec2 11) : S1024x1024.Idx → EReal) _ = _
  refine congrArg (V c (Pipeline.arrRef spec2 11) : S1024x1024.Idx → EReal) ?_
  funext a; apply Fin.ext
  match a with
  | ⟨0, _⟩ => show win2_11.index t (0 : Fin 2) * 1024 + 1 * (y 0).val = (y 0).val; rw [e0]; omega
  | ⟨1, _⟩ => show win2_11.index t (1 : Fin 2) * 1024 + 1 * (y 1).val = (y 1).val; rw [e1]; omega
theorem blk2_12 (c : Dev nD) (t : Fin cfg2.N) :
    (iblk2 (F := Ideal) V c 12 t : S1024x1024.Idx → EReal) = (V c (Pipeline.arrRef spec2 12) : S1024x1024.Idx → EReal) := by
  obtain ⟨e0, e1⟩ := val2_idx_12 t
  funext y
  unfold iblk2
  rw [View.read_apply]
  show (V c (Pipeline.arrRef spec2 12) : S1024x1024.Idx → EReal) _ = _
  refine congrArg (V c (Pipeline.arrRef spec2 12) : S1024x1024.Idx → EReal) ?_
  funext a; apply Fin.ext
  match a with
  | ⟨0, _⟩ => show win2_12.index t (0 : Fin 2) * 1024 + 1 * (y 0).val = (y 0).val; rw [e0]; omega
  | ⟨1, _⟩ => show win2_12.index t (1 : Fin 2) * 1024 + 1 * (y 1).val = (y 1).val; rw [e1]; omega
theorem blk2_13 (c : Dev nD) (t : Fin cfg2.N) :
    (iblk2 (F := Ideal) V c 13 t : S1024x1024.Idx → EReal) = (V c (Pipeline.arrRef spec2 13) : S1024x1024.Idx → EReal) := by
  obtain ⟨e0, e1⟩ := val2_idx_13 t
  funext y
  unfold iblk2
  rw [View.read_apply]
  show (V c (Pipeline.arrRef spec2 13) : S1024x1024.Idx → EReal) _ = _
  refine congrArg (V c (Pipeline.arrRef spec2 13) : S1024x1024.Idx → EReal) ?_
  funext a; apply Fin.ext
  match a with
  | ⟨0, _⟩ => show win2_13.index t (0 : Fin 2) * 1024 + 1 * (y 0).val = (y 0).val; rw [e0]; omega
  | ⟨1, _⟩ => show win2_13.index t (1 : Fin 2) * 1024 + 1 * (y 1).val = (y 1).val; rw [e1]; omega

/-! ## The result array -/

/-- The layer's parameters, read off the region's thirteen parameter arrays. -/
def attnP2 (c : Dev nD) : Cert.Spec.AttnP :=
  attnP2_of (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13))

/-- Row r of the region's activation array. -/
def xrow2 (c : Dev nD) (r : Fin 2048) : Cert.Spec.Row :=
  fun d => (V c (Pipeline.arrRef spec2 0) : S2048x1024.Idx → EReal) (ix2 r d)

/-- The whole result as one function of the region's arrays: row r is the layer applied to row r of the activations. -/
def arr2_G (c : Dev nD) : S2048x1024.Idx → EReal :=
  fun i => Cert.Spec.attnRow (attnP2 V c) (xrow2 V c (i 0)) (i 1)

/-- At every point the thirteen parameter blocks hold the layer's parameters. -/
theorem row2_P (c : Dev nD) (t : Fin cfg2.N) :
    attnP2_of (iblk2 (F := Ideal) V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) = attnP2 V c :=
  attnP2_congr (blk2_1 V c t) (blk2_2 V c t) (blk2_3 V c t) (blk2_4 V c t) (blk2_5 V c t) (blk2_6 V c t) (blk2_7 V c t) (blk2_8 V c t) (blk2_9 V c t) (blk2_10 V c t) (blk2_11 V c t) (blk2_12 V c t) (blk2_13 V c t)

/-- Row p of the activation block at point t is row 256·t + p of the activation array. -/
theorem row2_x (c : Dev nD) (t : Fin cfg2.N) (p : Fin 256) (r : Fin 2048) (hr : r.val = t.val * 256 + p.val) :
    (fun k => (iblk2 (F := Ideal) V c 0 t : S256x1024.Idx → EReal) (ix2 p k)) = xrow2 V c r :=
  funext fun k => blk2_0 V c t p k r hr

/-- What point t writes back is its block of 256 rows of the whole result: the stored entry (p, o) is the layer on
    row p of the activation block, which is row 256·t + p of the array, and the block lands on those same rows. -/
theorem flushed2_eq (c : Dev nD) (t : Fin cfg2.N) :
    (dat2 (F := Ideal) V c).flushed 14 t = ((cfg2.win 14).blk t).view.read (Elt Ideal) (arr2_G V c) := by
  obtain ⟨e0, e1⟩ := val2_idx_14 t
  have hN : cfg2.N = 8 := N_2
  have ht : t.val < 8 := hN ▸ t.isLt
  show (cfg2.win 14).cut (grid2.coords t) ((dat2 (F := Ideal) V c).after 14 t) = _
  rw [after2_14]
  funext j
  have hj0 : (j 0).val < 256 := (j 0).isLt
  have hj1 : (j 1).val < 1024 := (j 1).isLt
  obtain ⟨p, hp⟩ : ∃ p : Fin 256, p.val = (j 0).val := ⟨⟨(j 0).val, hj0⟩, rfl⟩
  obtain ⟨o, ho⟩ : ∃ o : Fin 1024, o.val = (j 1).val := ⟨⟨(j 1).val, hj1⟩, rfl⟩
  obtain ⟨r, hr⟩ : ∃ r : Fin 2048, r.val = t.val * 256 + p.val := ⟨⟨t.val * 256 + p.val, by omega⟩, rfl⟩
  have hy : ((cfg2.win 14).xinj (grid2.coords t) j : S256x1024.Idx) = ix2 p o := by
    funext a; apply Fin.ext
    match a with
    | ⟨0, _⟩ => exact hp.symm
    | ⟨1, _⟩ => exact ho.symm
  have hemb : (((cfg2.win 14).blk t).view.emb j : S2048x1024.Idx) = ix2 r o := by
    funext a; apply Fin.ext
    match a with
    | ⟨0, _⟩ => show win2_14.index t (0 : Fin 2) * 256 + 1 * (j 0).val = r.val; rw [e0, hr, hp]; omega
    | ⟨1, _⟩ => show win2_14.index t (1 : Fin 2) * 1024 + 1 * (j 1).val = o.val; rw [e1, ho]; omega
  rw [View.read_apply]
  show out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) ((cfg2.win 14).xinj (grid2.coords t) j)
    = arr2_G V c (((cfg2.win 14).blk t).view.emb j)
  rw [hy, hemb]
  refine (val2_out (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) p o).trans ?_
  show Cert.Spec.attnRow (attnP2_of (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)) (fun k => (iblk2 V c 0 t : S256x1024.Idx → EReal) (ix2 p k)) o
    = Cert.Spec.attnRow (attnP2 V c) (xrow2 V c r) o
  exact congrArg₂ (fun P x => Cert.Spec.attnRow P x o) (row2_P V c t) (row2_x V c t p r hr)

/-- Every entry of the result array is in the block some point writes back: row r is in the block of point r / 256. -/
theorem val2_cover (i : S2048x1024.Idx) :
    ∃ t : Fin cfg2.N, (cfg2.win 14).flush t = true ∧ i ∈ ((cfg2.win 14).blk t).view.set := by
  have h0 : (i 0).val < 2048 := (i 0).isLt
  have h1 : (i 1).val < 1024 := (i 1).isLt
  have hN : cfg2.N = 8 := N_2
  obtain ⟨t, ht⟩ : ∃ t : Fin cfg2.N, t.val = (i 0).val / 256 := ⟨⟨(i 0).val / 256, by rw [hN]; omega⟩, rfl⟩
  obtain ⟨e0, e1⟩ := val2_idx_14 t
  refine ⟨t, flush2_14 t, ?_⟩
  show i ∈ ((View.whole (Pipeline.arrRef spec2 14)).slice (win2_14.rect t)).set
  rw [View.set_slice_whole, Rect.mem_set_unit]
  intro a
  match a with
  | ⟨0, _⟩ =>
    show win2_14.index t (0 : Fin 2) * 256 ≤ (i 0).val ∧ (i 0).val < win2_14.index t (0 : Fin 2) * 256 + 256
    rw [e0, ht]; omega
  | ⟨1, _⟩ =>
    show win2_14.index t (1 : Fin 2) * 1024 ≤ (i 1).val ∧ (i 1).val < win2_14.index t (1 : Fin 2) * 1024 + 1024
    rw [e1]; omega

/-- After the region the result array holds, row by row, the time-mixing layer of the activation array's rows. -/
theorem arr2_eq (c : Dev nD) : (dat2 (F := Ideal) V c).arrAt 14 cfg2.N = arr2_G V c :=
  (dat2 (F := Ideal) V c).arrAt_eq_of_cover 14 (arr2_G V c) (fun t _ => flushed2_eq V c t) val2_cover

/-- Entry (r, o) of the result array is the layer, with the region's parameters, on row r of the activations, at o. -/
theorem final2 (c : Dev nD) (r : Fin 2048) (o : Fin 1024) :
    ((dat2 (F := Ideal) V c).arrAt 14 cfg2.N : S2048x1024.Idx → EReal) (ix2 r o)
      = Cert.Spec.attnRow (attnP2 V c) (xrow2 V c r) o :=
  congrFun (arr2_eq V c) (ix2 r o)

end Cert.KernelIdeal.Val

end
-- ==== Proof.ValFfn3.lean ====
/- The value of region 1 (the feed-forward call) at the ideal reals: the array the region writes holds, row by row, the
   channel-mixing layer of the specification applied to that row of the state the region is entered with, the layer's
   parameters read off the region's other arrays. First the body's payloads at an index (layer normalisation, the two
   mixes, a block product as a sum over its contraction, one chunk's step of the accumulator); then one tile's value:
   the four chunks' steps over zero regroup to the one sum over the 4096 hidden units; then the windows' blocks as parts
   of their arrays, what a tile's last point writes back, the cover of the array by those blocks, and the result. -/
import proofs.«415492_j738734375128_3_alg».proof.Proof.Region3
import proofs.«415492_j738734375128_3_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin

noncomputable section

namespace Cert.KernelIdeal.Val

open Cert.KernelIdeal Cert.KernelIdeal.Gen
open Idealize.ShloMosaic Idealize.ShloMosaic.ValueIdx

/-! Everything but the three results lives in a namespace of this region's own. -/
namespace Ffn3

/-! ## Layout operations at an index: the column forms -/

/-- An `[a]` array cast to `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` (more than one row) reads, at `(p, c)`, the column at `p`. -/
theorem broadcastTo_a1_ab_apply {α : Type} {a b : ℕ} (ha : a ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-! ## The block product at an index -/

/-- The left operand's row is the output's row, -/
theorem lhs_dot_0 (j : S256x1024.Idx) (k : dot_S256x1024_S1024x1024_S256x1024_1_1_0_0_n_n.contr.Idx) :
    ((dot_S256x1024_S1024x1024_S256x1024_1_1_0_0_n_n.lhsIdx j k) 0).val = (j 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl
/-- its column the contraction position; -/
theorem lhs_dot_1 (j : S256x1024.Idx) (k : dot_S256x1024_S1024x1024_S256x1024_1_1_0_0_n_n.contr.Idx) :
    ((dot_S256x1024_S1024x1024_S256x1024_1_1_0_0_n_n.lhsIdx j k) 1).val = (k ⟨0, by decide⟩).val :=
  dot_S256x1024_S1024x1024_S256x1024_1_1_0_0_n_n.lhsIdx_val_of_single (cl := 1) rfl j k
/-- the right operand's row is the output's column, -/
theorem rhs_dot_0 (j : S256x1024.Idx) (k : dot_S256x1024_S1024x1024_S256x1024_1_1_0_0_n_n.contr.Idx) :
    ((dot_S256x1024_S1024x1024_S256x1024_1_1_0_0_n_n.rhsIdx j k) 0).val = (j 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl
/-- its column the contraction position. -/
theorem rhs_dot_1 (j : S256x1024.Idx) (k : dot_S256x1024_S1024x1024_S256x1024_1_1_0_0_n_n.contr.Idx) :
    ((dot_S256x1024_S1024x1024_S256x1024_1_1_0_0_n_n.rhsIdx j k) 1).val = (k ⟨0, by decide⟩).val :=
  dot_S256x1024_S1024x1024_S256x1024_1_1_0_0_n_n.rhsIdx_val_of_single (cr := 1) rfl j k

/-- A block product into the zero accumulator, at row `p` and output `o`: the sum over the 1024 contraction positions
    of the left operand's row times the right operand's ROW `o` (the right operand is contracted along its columns). -/
theorem matmul_k3_apply (lhs : FVec Ideal S256x1024 .bf16) (rhs : FVec Ideal S1024x1024 .bf16) (p : Fin 256) (o : Fin 1024) :
    matmul dot_S256x1024_S1024x1024_S256x1024_1_1_0_0_n_n none lhs rhs (constant (F := Ideal) S256x1024 .f32 0x00000000#32) (ix2 p o)
      = ∑ k : Fin 1024, lhs (ix2 p k) * rhs (ix2 o k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have hl : dot_S256x1024_S1024x1024_S256x1024_1_1_0_0_n_n.lhsIdx (ix2 p o) ((contrEquiv1 dot_S256x1024_S1024x1024_S256x1024_1_1_0_0_n_n 1024 rfl rfl).symm k) = ix2 p k := by
    funext a; apply Fin.ext
    match a with
    | ⟨0, _⟩ => exact lhs_dot_0 _ _
    | ⟨1, _⟩ => exact (lhs_dot_1 _ _).trans hk
  have hr : dot_S256x1024_S1024x1024_S256x1024_1_1_0_0_n_n.rhsIdx (ix2 p o) ((contrEquiv1 dot_S256x1024_S1024x1024_S256x1024_1_1_0_0_n_n 1024 rfl rfl).symm k) = ix2 o k := by
    funext a; apply Fin.ext
    match a with
    | ⟨0, _⟩ => exact rhs_dot_0 _ _
    | ⟨1, _⟩ => exact (rhs_dot_1 _ _).trans hk
  rw [hl, hr]

/-! ## The payloads at an index -/

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-- A lane sum kept as a column: at `(q, u)` the sum of row `q`. -/
theorem rowSum_apply (y : FVec Ideal S256x1024 .f32) (hφ : FKind.Formats .f32)
    (hacc : (0x00000000#32 : BitVec 32) = FKind.add.neutral .f32 hφ) (q : Fin 256) (u : Fin 1) :
    shapeCast S256x1 (multiReduction (F := Ideal) .add [1] S256 y 0x00000000#32 reduces_S256x1024_S256 hφ hacc) shapeCasts_S256_S256x1 (ix2 q u)
      = ∑ e : Fin 1024, y (ix2 q e) :=
  (shapeCast_a_a1_apply _ _ q u).trans
    ((Ideal.multiReduction_add_single y 0x00000000#32 reduces_S256x1024_S256 hφ hacc (ix1 q)).trans
      (Finset.sum_congr rfl fun e _ => congrArg y (funext fun a => by match a with | ⟨0, _⟩ => rfl | ⟨1, _⟩ => rfl)))

/-- The column of row means of a tile: each row's lane sum divided by the row length. -/
def meanCol (y : FVec Ideal S256x1024 .f32) : FVec Ideal S256x1 .f32 :=
  divf (shapeCast S256x1 (multiReduction (F := Ideal) .add [1] S256 y 0x00000000#32 reduces_S256x1024_S256 (.inl rfl) rfl) shapeCasts_S256_S256x1)
    (broadcast S256x1 (Scalar.ofBits .f32 0x44800000#32))

theorem meanCol_apply (y : FVec Ideal S256x1024 .f32) (q : Fin 256) (u : Fin 1) :
    meanCol y (ix2 q u) = Ideal.div (∑ e : Fin 1024, y (ix2 q e)) Cert.Spec.c1024 :=
  congrArg (fun s => Ideal.div s Cert.Spec.c1024) (rowSum_apply y (.inl rfl) rfl q u)

/-- The normalised tile as the body computes it: centre each row on its mean, scale by the reciprocal root of the mean
    squared deviation plus the small constant, then gain and bias. -/
theorem k3_pay6_eq (xt : FVec Ideal S256x1024 .f32) (w b : FVec Ideal S1x1024 .f32) :
    k3_pay6 (F := Ideal) xt w b
      = addf (mulf (mulf (subf xt (broadcastTo S256x1024 (meanCol xt) broadcasts_S256x1_S256x1024))
            (broadcastTo S256x1024 (rsqrt (addf
              (meanCol (mulf (subf xt (broadcastTo S256x1024 (meanCol xt) broadcasts_S256x1_S256x1024))
                (subf xt (broadcastTo S256x1024 (meanCol xt) broadcasts_S256x1_S256x1024))))
              (broadcast S256x1 (Scalar.ofBits .f32 0x3727C5AC#32)))) broadcasts_S256x1_S256x1024))
          (broadcastTo S256x1024 w broadcasts_S1x1024_S256x1024))
        (broadcastTo S256x1024 b broadcasts_S1x1024_S256x1024) := by
  unfold k3_pay6 k3_pay5 meanCol
  simp only [shapeCast_self]

/-- The normalised row tile: row `p` of the block, layer-normalised with the gain and bias rows. -/
theorem k3_pay6_apply (xt : FVec Ideal S256x1024 .f32) (w b : FVec Ideal S1x1024 .f32) (p : Fin 256) (d : Fin 1024) :
    k3_pay6 (F := Ideal) xt w b (ix2 p d)
      = Cert.Spec.lnRow (fun e => w (ix2 (0 : Fin 1) e)) (fun e => b (ix2 (0 : Fin 1) e)) (fun e => xt (ix2 p e)) d := by
  rw [k3_pay6_eq]
  simp only [addf_apply, mulf_apply, subf_apply, rsqrt_apply, broadcast_apply,
    broadcastTo_1b_ab_apply, broadcastTo_a1_ab_apply (show (256 : ℕ) ≠ 1 by decide), meanCol_apply]
  rfl

/-- The key's operand at one point: the normalised tile mixed with the carried row by the key's mixing row. -/
theorem keyMix_apply (xt : FVec Ideal S256x1024 .f32) (w b sx mk : FVec Ideal S1x1024 .f32) (p : Fin 256) (d : Fin 1024) :
    k3_pay10 (F := Ideal) xt w b mk (ix2 p d) + k3_pay11 (F := Ideal) sx mk (ix2 p d)
      = Cert.Spec.mixRow (Cert.Spec.lnRow (fun e => w (ix2 (0 : Fin 1) e)) (fun e => b (ix2 (0 : Fin 1) e)) (fun e => xt (ix2 p e)))
          (fun e => sx (ix2 (0 : Fin 1) e)) (fun e => mk (ix2 (0 : Fin 1) e)) d := by
  unfold k3_pay10 k3_pay11 k3_pay7 k3_pay8
  simp only [shapeCast_self, mulf_apply, subf_apply, broadcast_apply, broadcastTo_1b_ab_apply, k3_pay6_apply]
  rfl

/-- One chunk's step of the accumulator, at row `p` and output `o`: the accumulator there plus, over the chunk's 1024
    hidden units, the squared rectified key (the key's operand projected by the chunk's rows of the key matrix) times
    the chunk's entries of the value matrix's row `o`. -/
theorem k3_pay3_apply (kl kr : FVec Ideal S256x1024 .f32) (wk : FVec Ideal S1024x1024 .bf16) (acc : FVec Ideal S256x1024 .f32)
    (wv : FVec Ideal S1024x1024 .bf16) (p : Fin 256) (o : Fin 1024) :
    k3_pay3 (F := Ideal) kl kr wk acc wv (ix2 p o)
      = acc (ix2 p o) + ∑ f : Fin 1024,
          (max (∑ d : Fin 1024, (kl (ix2 p d) + kr (ix2 p d)) * wk (ix2 f d)) Cert.Spec.czero
            * max (∑ d : Fin 1024, (kl (ix2 p d) + kr (ix2 p d)) * wk (ix2 f d)) Cert.Spec.czero) * wv (ix2 o f) := by
  unfold k3_pay3
  simp only [shapeCast_self, addf_apply, mulf_apply, maximumf_apply, truncf_apply, broadcast_apply, matmul_k3_apply]
  rfl

/-- The second scratch buffer's contents, at row `p` and output `o`: the receptance's operand projected by the
    receptance matrix. -/
theorem k3_pay1_apply (h : FVec Ideal S256x1024 .f32) (sx mr : FVec Ideal S1x1024 .f32) (wr : FVec Ideal S1024x1024 .bf16)
    (p : Fin 256) (o : Fin 1024) :
    k3_pay1 (F := Ideal) h sx mr wr (ix2 p o)
      = ∑ d : Fin 1024, (h (ix2 p d) * mr (ix2 (0 : Fin 1) d) + sx (ix2 (0 : Fin 1) d) * (Cert.Spec.cone - mr (ix2 (0 : Fin 1) d))) * wr (ix2 o d) := by
  unfold k3_pay1
  simp only [shapeCast_self, addf_apply, mulf_apply, subf_apply, truncf_apply, broadcast_apply, broadcastTo_1b_ab_apply, matmul_k3_apply]
  rfl

/-- The stored output, at row `p` and output `o`. -/
theorem k3_pay4_apply (xs r acc : FVec Ideal S256x1024 .f32) (p : Fin 256) (o : Fin 1024) :
    k3_pay4 (F := Ideal) xs r acc (ix2 p o) = xs (ix2 p o) + Ideal.logistic (r (ix2 p o)) * acc (ix2 p o) := by
  unfold k3_pay4
  simp only [addf_apply, mulf_apply, logistic_apply]

/-- The fresh accumulator is zero everywhere. -/
theorem k3_pay2_apply (i : S256x1024.Idx) : (k3_pay2 (F := Ideal)) i = 0 := by
  unfold k3_pay2
  simp only [shapeCast_self, broadcast_apply]
  exact Ideal.ofBits_zero_f32

/-! ## One tile's value -/

/-- Position `f` of chunk `q` among the 4096 hidden units. -/
def chunkIdx (q : Fin 4) (f : Fin 1024) : Fin 4096 := ⟨1024 * q.val + f.val, by have := q.isLt; have := f.isLt; omega⟩

/-- A sum over the 4096 hidden units is the sum over the four chunks of each chunk's sum. -/
theorem sum_chunks {M : Type} [AddCommMonoid M] (g : Fin 4096 → M) :
    ∑ f' : Fin 4096, g f' = ∑ q : Fin 4, ∑ f : Fin 1024, g (chunkIdx q f) := by
  have h := Equiv.sum_comp (finProdFinEquiv (m := 4) (n := 1024)) (fun i : Fin (4 * 1024) => g i)
  rw [Fintype.sum_prod_type] at h
  exact h.symm.trans (Finset.sum_congr rfl fun q _ => Finset.sum_congr rfl fun f _ => congrArg g (Fin.ext (by
    show f.val + 1024 * q.val = 1024 * q.val + f.val; omega)))

/-- The key's operand at a point whose blocks are the layer's rows and the row `x` of the state. -/
theorem keyMixP_apply (P : Cert.Spec.FfnP) (x : Cert.Spec.Row) (xt : FVec Ideal S256x1024 .f32) (w b sx mk : FVec Ideal S1x1024 .f32) (p : Fin 256)
    (hx : ∀ e, xt (ix2 p e) = x e) (hw : ∀ e, w (ix2 (0 : Fin 1) e) = P.lnw e) (hb : ∀ e, b (ix2 (0 : Fin 1) e) = P.lnb e)
    (hsx : ∀ e, sx (ix2 (0 : Fin 1) e) = P.sx e) (hmk : ∀ e, mk (ix2 (0 : Fin 1) e) = P.mixk e) (d : Fin 1024) :
    k3_pay10 (F := Ideal) xt w b mk (ix2 p d) + k3_pay11 (F := Ideal) sx mk (ix2 p d)
      = Cert.Spec.mixRow (Cert.Spec.lnRow P.lnw P.lnb x) P.sx P.mixk d := by
  have ea : (fun e => w (ix2 (0 : Fin 1) e)) = P.lnw := funext hw
  have eb : (fun e => b (ix2 (0 : Fin 1) e)) = P.lnb := funext hb
  have ec : (fun e => xt (ix2 p e)) = x := funext hx
  have ed : (fun e => sx (ix2 (0 : Fin 1) e)) = P.sx := funext hsx
  have ee : (fun e => mk (ix2 (0 : Fin 1) e)) = P.mixk := funext hmk
  rw [keyMix_apply, ea, eb, ec, ed, ee]

/-- The second scratch buffer at such a point: the receptance before its logistic. -/
theorem recept_apply (P : Cert.Spec.FfnP) (x : Cert.Spec.Row) (xt : FVec Ideal S256x1024 .f32) (w b sx mr : FVec Ideal S1x1024 .f32)
    (wr : FVec Ideal S1024x1024 .bf16) (p : Fin 256) (o : Fin 1024)
    (hx : ∀ e, xt (ix2 p e) = x e) (hw : ∀ e, w (ix2 (0 : Fin 1) e) = P.lnw e) (hb : ∀ e, b (ix2 (0 : Fin 1) e) = P.lnb e)
    (hsx : ∀ e, sx (ix2 (0 : Fin 1) e) = P.sx e) (hmr : ∀ e, mr (ix2 (0 : Fin 1) e) = P.mixr e) (hr : ∀ d, wr (ix2 o d) = P.Wr o d) :
    k3_pay1 (F := Ideal) (k3_pay6 xt w b) (k3_pay7 sx) (k3_pay9 mr) wr (ix2 p o)
      = Cert.Spec.proj P.Wr (Cert.Spec.mixRow (Cert.Spec.lnRow P.lnw P.lnb x) P.sx P.mixr) o := by
  have ea : (fun e => w (ix2 (0 : Fin 1) e)) = P.lnw := funext hw
  have eb : (fun e => b (ix2 (0 : Fin 1) e)) = P.lnb := funext hb
  have ec : (fun e => xt (ix2 p e)) = x := funext hx
  rw [k3_pay1_apply]
  unfold k3_pay7 k3_pay9
  simp only [shapeCast_self, k3_pay6_apply, hsx, hmr, hr]
  rw [ea, eb, ec]
  rfl

/-- A TILE'S OUTPUT. The four chunks' steps of the accumulator over zero, the second scratch buffer and the final store,
    at row `p` and output `o`, are the channel-mixing layer on the row: the four chunk sums are one sum over the 4096
    hidden units. Each chunk's key operands are its own point's (they read the same rows at every point of the tile). -/
theorem ffnTile_apply (P : Cert.Spec.FfnP) (x : Cert.Spec.Row) (p : Fin 256) (o : Fin 1024)
    (xs R : FVec Ideal S256x1024 .f32) (kla kra klb krb klc krc kld krd : FVec Ideal S256x1024 .f32)
    (wka wkb wkc wkd wva wvb wvc wvd : FVec Ideal S1024x1024 .bf16)
    (hxs : xs (ix2 p o) = x o)
    (hR : R (ix2 p o) = Cert.Spec.proj P.Wr (Cert.Spec.mixRow (Cert.Spec.lnRow P.lnw P.lnb x) P.sx P.mixr) o)
    (hKa : ∀ d, kla (ix2 p d) + kra (ix2 p d) = Cert.Spec.mixRow (Cert.Spec.lnRow P.lnw P.lnb x) P.sx P.mixk d) (hKb : ∀ d, klb (ix2 p d) + krb (ix2 p d) = Cert.Spec.mixRow (Cert.Spec.lnRow P.lnw P.lnb x) P.sx P.mixk d) (hKc : ∀ d, klc (ix2 p d) + krc (ix2 p d) = Cert.Spec.mixRow (Cert.Spec.lnRow P.lnw P.lnb x) P.sx P.mixk d) (hKd : ∀ d, kld (ix2 p d) + krd (ix2 p d) = Cert.Spec.mixRow (Cert.Spec.lnRow P.lnw P.lnb x) P.sx P.mixk d)
    (hka : ∀ f d, wka (ix2 f d) = P.Wk (chunkIdx 0 f) d) (hkb : ∀ f d, wkb (ix2 f d) = P.Wk (chunkIdx 1 f) d) (hkc : ∀ f d, wkc (ix2 f d) = P.Wk (chunkIdx 2 f) d) (hkd : ∀ f d, wkd (ix2 f d) = P.Wk (chunkIdx 3 f) d)
    (hva : ∀ f, wva (ix2 o f) = P.Wv o (chunkIdx 0 f)) (hvb : ∀ f, wvb (ix2 o f) = P.Wv o (chunkIdx 1 f)) (hvc : ∀ f, wvc (ix2 o f) = P.Wv o (chunkIdx 2 f)) (hvd : ∀ f, wvd (ix2 o f) = P.Wv o (chunkIdx 3 f)) :
    k3_pay4 (F := Ideal) xs R (k3_pay3 kld krd wkd (k3_pay3 klc krc wkc (k3_pay3 klb krb wkb (k3_pay3 kla kra wka (k3_pay2 (F := Ideal)) wva) wvb) wvc) wvd) (ix2 p o)
      = Cert.Spec.ffnRow P x o := by
  rw [k3_pay4_apply, k3_pay3_apply, k3_pay3_apply, k3_pay3_apply, k3_pay3_apply, k3_pay2_apply, zero_add, hxs, hR]
  simp only [hKa, hKb, hKc, hKd, hka, hkb, hkc, hkd, hva, hvb, hvc, hvd]
  unfold Cert.Spec.ffnRow
  rw [show Cert.Spec.proj P.Wv (Cert.Spec.ffnKey P x) o = _ from sum_chunks _, Fin.sum_univ_four]
  rfl

end Ffn3

open Ffn3

/-! # The value of region 1: the output array, row by row -/

open Cert.KernelIdeal.Hand
open Idealize.ShloMosaic.TcCoe Idealize.SL.Sem
open Idealize.ShloMosaic.Pipeline (Dat)

variable (V : (c : Dev nD) → (b : Ref sig .tc) → Buf (Elt Ideal) ((c : Thread nD τ).loc b))

/-- Row `r` of the state the region is entered with (window 0's array). -/
def xrow3 (c : Dev nD) (r : Fin 2048) : Cert.Spec.Row := fun d => V c (Pipeline.arrRef spec3 0) (ix2 r d)

/-- The layer's parameters, read off the arrays of windows 1 to 8. -/
def ffnP3 (c : Dev nD) : Cert.Spec.FfnP where
  lnw d := V c (Pipeline.arrRef spec3 1) (ix2 (0 : Fin 1) d)
  lnb d := V c (Pipeline.arrRef spec3 2) (ix2 (0 : Fin 1) d)
  sx d := V c (Pipeline.arrRef spec3 3) (ix2 (0 : Fin 1) d)
  mixk d := V c (Pipeline.arrRef spec3 4) (ix2 (0 : Fin 1) d)
  mixr d := V c (Pipeline.arrRef spec3 5) (ix2 (0 : Fin 1) d)
  Wk f d := V c (Pipeline.arrRef spec3 6) (ix2 f d)
  Wr o d := V c (Pipeline.arrRef spec3 7) (ix2 o d)
  Wv o f := V c (Pipeline.arrRef spec3 8) (ix2 o f)

namespace Ffn3

/-! ## The windows' blocks, read off the arrays -/

/-- The printed index maps, decided over the grid: window 0 and the output follow the row tile, windows 6 and 8 the
    chunk (on the key matrix's rows and the value matrix's columns), the others do not move. -/
theorem idx3_0 : ∀ t : Fin cfg3.N, win3_0.index t (0 : Fin 2) = t.val / 4 ∧ win3_0.index t (1 : Fin 2) = 0 :=
  (by decide +kernel : ∀ t : Fin grid3.N, _)
theorem idx3_1 : ∀ t : Fin cfg3.N, win3_1.index t (0 : Fin 2) = 0 ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_6 : ∀ t : Fin cfg3.N, win3_6.index t (0 : Fin 2) = t.val % 4 ∧ win3_6.index t (1 : Fin 2) = 0 :=
  (by decide +kernel : ∀ t : Fin grid3.N, _)
theorem idx3_8 : ∀ t : Fin cfg3.N, win3_8.index t (0 : Fin 2) = 0 ∧ win3_8.index t (1 : Fin 2) = t.val % 4 :=
  (by decide +kernel : ∀ t : Fin grid3.N, _)
theorem idx3_9 : ∀ t : Fin cfg3.N, win3_9.index t (0 : Fin 2) = t.val / 4 ∧ win3_9.index t (1 : Fin 2) = 0 :=
  (by decide +kernel : ∀ t : Fin grid3.N, _)

/-- Window 0's block at point `t` is rows `256 (t / 4) …` of the state. -/
theorem blk3_0 (c : Dev nD) (t : Fin cfg3.N) (p : Fin 256) (d : Fin 1024) (r : Fin 2048) (hr : r.val = 256 * (t.val / 4) + p.val) :
    (iblk3 V c 0 t : Vec Ideal S256x1024 .f32) (ix2 p d) = xrow3 V c r d := by
  obtain ⟨e0, e1⟩ := idx3_0 t
  unfold iblk3 xrow3
  rw [View.read_apply]
  refine congrArg (V c (Pipeline.arrRef spec3 0)) (funext fun a => Fin.ext ?_)
  match a with
  | ⟨0, _⟩ => show win3_0.index t (0 : Fin 2) * 256 + 1 * p.val = r.val; rw [e0]; omega
  | ⟨1, _⟩ => show win3_0.index t (1 : Fin 2) * 1024 + 1 * d.val = d.val; rw [e1]; omega

/-- Window 1's block is its one-row array, at every point. -/
theorem blk3_1 (c : Dev nD) (t : Fin cfg3.N) (d : Fin 1024) :
    (iblk3 V c 1 t : Vec Ideal S1x1024 .f32) (ix2 (0 : Fin 1) d) = (ffnP3 V c).lnw d := by
  obtain ⟨e0, e1⟩ := idx3_1 t
  unfold iblk3
  rw [View.read_apply]
  refine congrArg (V c (Pipeline.arrRef spec3 1)) (funext fun a => Fin.ext ?_)
  match a with
  | ⟨0, _⟩ => show win3_1.index t (0 : Fin 2) * 1 + 1 * 0 = 0; rw [e0]
  | ⟨1, _⟩ => show win3_1.index t (1 : Fin 2) * 1024 + 1 * d.val = d.val; rw [e1]; omega

/-- Window 2's block is its one-row array, at every point. -/
theorem blk3_2 (c : Dev nD) (t : Fin cfg3.N) (d : Fin 1024) :
    (iblk3 V c 2 t : Vec Ideal S1x1024 .f32) (ix2 (0 : Fin 1) d) = (ffnP3 V c).lnb d := by
  obtain ⟨e0, e1⟩ := idx3_2 t
  unfold iblk3
  rw [View.read_apply]
  refine congrArg (V c (Pipeline.arrRef spec3 2)) (funext fun a => Fin.ext ?_)
  match a with
  | ⟨0, _⟩ => show win3_2.index t (0 : Fin 2) * 1 + 1 * 0 = 0; rw [e0]
  | ⟨1, _⟩ => show win3_2.index t (1 : Fin 2) * 1024 + 1 * d.val = d.val; rw [e1]; omega

/-- Window 3's block is its one-row array, at every point. -/
theorem blk3_3 (c : Dev nD) (t : Fin cfg3.N) (d : Fin 1024) :
    (iblk3 V c 3 t : Vec Ideal S1x1024 .f32) (ix2 (0 : Fin 1) d) = (ffnP3 V c).sx d := by
  obtain ⟨e0, e1⟩ := idx3_3 t
  unfold iblk3
  rw [View.read_apply]
  refine congrArg (V c (Pipeline.arrRef spec3 3)) (funext fun a => Fin.ext ?_)
  match a with
  | ⟨0, _⟩ => show win3_3.index t (0 : Fin 2) * 1 + 1 * 0 = 0; rw [e0]
  | ⟨1, _⟩ => show win3_3.index t (1 : Fin 2) * 1024 + 1 * d.val = d.val; rw [e1]; omega

/-- Window 4's block is its one-row array, at every point. -/
theorem blk3_4 (c : Dev nD) (t : Fin cfg3.N) (d : Fin 1024) :
    (iblk3 V c 4 t : Vec Ideal S1x1024 .f32) (ix2 (0 : Fin 1) d) = (ffnP3 V c).mixk d := by
  obtain ⟨e0, e1⟩ := idx3_4 t
  unfold iblk3
  rw [View.read_apply]
  refine congrArg (V c (Pipeline.arrRef spec3 4)) (funext fun a => Fin.ext ?_)
  match a with
  | ⟨0, _⟩ => show win3_4.index t (0 : Fin 2) * 1 + 1 * 0 = 0; rw [e0]
  | ⟨1, _⟩ => show win3_4.index t (1 : Fin 2) * 1024 + 1 * d.val = d.val; rw [e1]; omega

/-- Window 5's block is its one-row array, at every point. -/
theorem blk3_5 (c : Dev nD) (t : Fin cfg3.N) (d : Fin 1024) :
    (iblk3 V c 5 t : Vec Ideal S1x1024 .f32) (ix2 (0 : Fin 1) d) = (ffnP3 V c).mixr d := by
  obtain ⟨e0, e1⟩ := idx3_5 t
  unfold iblk3
  rw [View.read_apply]
  refine congrArg (V c (Pipeline.arrRef spec3 5)) (funext fun a => Fin.ext ?_)
  match a with
  | ⟨0, _⟩ => show win3_5.index t (0 : Fin 2) * 1 + 1 * 0 = 0; rw [e0]
  | ⟨1, _⟩ => show win3_5.index t (1 : Fin 2) * 1024 + 1 * d.val = d.val; rw [e1]; omega

/-- Window 6's block at point `t` is rows `1024 (t % 4) …` of the key matrix. -/
theorem blk3_6 (c : Dev nD) (t : Fin cfg3.N) (f d : Fin 1024) (g : Fin 4096) (hg : g.val = 1024 * (t.val % 4) + f.val) :
    (iblk3 V c 6 t : Vec Ideal S1024x1024 .bf16) (ix2 f d) = (ffnP3 V c).Wk g d := by
  obtain ⟨e0, e1⟩ := idx3_6 t
  unfold iblk3
  rw [View.read_apply]
  refine congrArg (V c (Pipeline.arrRef spec3 6)) (funext fun a => Fin.ext ?_)
  match a with
  | ⟨0, _⟩ => show win3_6.index t (0 : Fin 2) * 1024 + 1 * f.val = g.val; rw [e0]; omega
  | ⟨1, _⟩ => show win3_6.index t (1 : Fin 2) * 1024 + 1 * d.val = d.val; rw [e1]; omega

/-- Window 7's block is the whole receptance matrix. -/
theorem blk3_7 (c : Dev nD) (t : Fin cfg3.N) (o d : Fin 1024) :
    (iblk3 V c 7 t : Vec Ideal S1024x1024 .bf16) (ix2 o d) = (ffnP3 V c).Wr o d := by
  obtain ⟨e0, e1⟩ := idx3_7 t
  unfold iblk3
  rw [View.read_apply]
  refine congrArg (V c (Pipeline.arrRef spec3 7)) (funext fun a => Fin.ext ?_)
  match a with
  | ⟨0, _⟩ => show win3_7.index t (0 : Fin 2) * 1024 + 1 * o.val = o.val; rw [e0]; omega
  | ⟨1, _⟩ => show win3_7.index t (1 : Fin 2) * 1024 + 1 * d.val = d.val; rw [e1]; omega

/-- Window 8's block at point `t` is columns `1024 (t % 4) …` of the value matrix. -/
theorem blk3_8 (c : Dev nD) (t : Fin cfg3.N) (o f : Fin 1024) (g : Fin 4096) (hg : g.val = 1024 * (t.val % 4) + f.val) :
    (iblk3 V c 8 t : Vec Ideal S1024x1024 .bf16) (ix2 o f) = (ffnP3 V c).Wv o g := by
  obtain ⟨e0, e1⟩ := idx3_8 t
  unfold iblk3
  rw [View.read_apply]
  refine congrArg (V c (Pipeline.arrRef spec3 8)) (funext fun a => Fin.ext ?_)
  match a with
  | ⟨0, _⟩ => show win3_8.index t (0 : Fin 2) * 1024 + 1 * o.val = o.val; rw [e0]; omega
  | ⟨1, _⟩ => show win3_8.index t (1 : Fin 2) * 1024 + 1 * f.val = g.val; rw [e1]; omega

/-! ## A tile's four points -/

/-- Point `q` of tile `T`. -/
def pt3 (T : Fin 8) (q : Fin 4) : Fin cfg3.N :=
  ⟨4 * T.val + q.val, lt_of_lt_of_eq (by have := T.isLt; have := q.isLt; omega : 4 * T.val + q.val < 32) N_3.symm⟩

/-- The scratch buffers after a tile's last point: the accumulator has gone through the four chunks' steps over zero,
    the second buffer is as the tile's first point filled it. -/
theorem sc3_tile (c : Dev nD) (T : Fin 8) :
    sc3 V c ((pt3 T 3).val + 1)
      = (k3_pay3 (k3_pay10 (iblk3 V c 0 (pt3 T 3)) (iblk3 V c 1 (pt3 T 3)) (iblk3 V c 2 (pt3 T 3)) (iblk3 V c 4 (pt3 T 3))) (k3_pay11 (iblk3 V c 3 (pt3 T 3)) (iblk3 V c 4 (pt3 T 3))) (iblk3 V c 6 (pt3 T 3))
          (k3_pay3 (k3_pay10 (iblk3 V c 0 (pt3 T 2)) (iblk3 V c 1 (pt3 T 2)) (iblk3 V c 2 (pt3 T 2)) (iblk3 V c 4 (pt3 T 2))) (k3_pay11 (iblk3 V c 3 (pt3 T 2)) (iblk3 V c 4 (pt3 T 2))) (iblk3 V c 6 (pt3 T 2))
            (k3_pay3 (k3_pay10 (iblk3 V c 0 (pt3 T 1)) (iblk3 V c 1 (pt3 T 1)) (iblk3 V c 2 (pt3 T 1)) (iblk3 V c 4 (pt3 T 1))) (k3_pay11 (iblk3 V c 3 (pt3 T 1)) (iblk3 V c 4 (pt3 T 1))) (iblk3 V c 6 (pt3 T 1))
              (k3_pay3 (k3_pay10 (iblk3 V c 0 (pt3 T 0)) (iblk3 V c 1 (pt3 T 0)) (iblk3 V c 2 (pt3 T 0)) (iblk3 V c 4 (pt3 T 0))) (k3_pay11 (iblk3 V c 3 (pt3 T 0)) (iblk3 V c 4 (pt3 T 0))) (iblk3 V c 6 (pt3 T 0))
                (k3_pay2 (F := Ideal)) (iblk3 V c 8 (pt3 T 0))) (iblk3 V c 8 (pt3 T 1))) (iblk3 V c 8 (pt3 T 2))) (iblk3 V c 8 (pt3 T 3)),
        k3_pay1 (k3_pay6 (iblk3 V c 0 (pt3 T 0)) (iblk3 V c 1 (pt3 T 0)) (iblk3 V c 2 (pt3 T 0))) (k3_pay7 (iblk3 V c 3 (pt3 T 0))) (k3_pay9 (iblk3 V c 5 (pt3 T 0))) (iblk3 V c 7 (pt3 T 0))) := by
  have ha := sc3_zero_chunk V c (pt3 T 0) (by show (4 * T.val + 0) % 4 = 0; omega)
  have hb := sc3_succ V c (pt3 T 1) (by show ¬(4 * T.val + 1) % 4 = 0; omega)
  have hc := sc3_succ V c (pt3 T 2) (by show ¬(4 * T.val + 2) % 4 = 0; omega)
  have hd := sc3_succ V c (pt3 T 3) (by show ¬(4 * T.val + 3) % 4 = 0; omega)
  rw [show sc3 V c (pt3 T 1).val = sc3 V c ((pt3 T 0).val + 1) from rfl, ha] at hb
  rw [show sc3 V c (pt3 T 2).val = sc3 V c ((pt3 T 1).val + 1) from rfl, hb] at hc
  rw [show sc3 V c (pt3 T 3).val = sc3 V c ((pt3 T 2).val + 1) from rfl, hc] at hd
  exact hd

/-- WHAT A TILE'S LAST POINT STORES, at row `p` of the tile and output `o`: the layer on row `256 T + p` of the state. -/
theorem out_tile3 (c : Dev nD) (T : Fin 8) (p : Fin 256) (o : Fin 1024) (r : Fin 2048) (o' : Fin 1024)
    (hr : r.val = 256 * T.val + p.val) (ho : o'.val = o.val) :
    out3_9 V c (pt3 T 3) (ix2 p o) = Cert.Spec.ffnRow (ffnP3 V c) (xrow3 V c r) o' := by
  obtain rfl : o = o' := (Fin.ext ho).symm
  unfold out3_9
  rw [sc3_tile V c T]
  refine ffnTile_apply (ffnP3 V c) (xrow3 V c r) p o _ _ _ _ _ _ _ _ _ _ _ _ _ _ _ _ _ _ ?_ ?_ ?_ ?_ ?_ ?_ ?_ ?_ ?_ ?_ ?_ ?_ ?_ ?_
  · unfold k3_pay5; rw [shapeCast_self]
    exact blk3_0 V c (pt3 T 3) p o r (by show r.val = 256 * ((4 * T.val + 3) / 4) + p.val; omega)
  · exact recept_apply (ffnP3 V c) (xrow3 V c r) _ _ _ _ _ _ p o (fun e => blk3_0 V c (pt3 T 0) p e r (by show r.val = 256 * ((4 * T.val + 0) / 4) + p.val; omega)) (fun e => blk3_1 V c (pt3 T 0) e) (fun e => blk3_2 V c (pt3 T 0) e) (fun e => blk3_3 V c (pt3 T 0) e) (fun e => blk3_5 V c (pt3 T 0) e)
      (fun d => blk3_7 V c (pt3 T 0) o d)
  · exact keyMixP_apply (ffnP3 V c) (xrow3 V c r) _ _ _ _ _ p (fun e => blk3_0 V c (pt3 T 0) p e r (by show r.val = 256 * ((4 * T.val + 0) / 4) + p.val; omega)) (fun e => blk3_1 V c (pt3 T 0) e) (fun e => blk3_2 V c (pt3 T 0) e) (fun e => blk3_3 V c (pt3 T 0) e) (fun e => blk3_4 V c (pt3 T 0) e)
  · exact keyMixP_apply (ffnP3 V c) (xrow3 V c r) _ _ _ _ _ p (fun e => blk3_0 V c (pt3 T 1) p e r (by show r.val = 256 * ((4 * T.val + 1) / 4) + p.val; omega)) (fun e => blk3_1 V c (pt3 T 1) e) (fun e => blk3_2 V c (pt3 T 1) e) (fun e => blk3_3 V c (pt3 T 1) e) (fun e => blk3_4 V c (pt3 T 1) e)
  · exact keyMixP_apply (ffnP3 V c) (xrow3 V c r) _ _ _ _ _ p (fun e => blk3_0 V c (pt3 T 2) p e r (by show r.val = 256 * ((4 * T.val + 2) / 4) + p.val; omega)) (fun e => blk3_1 V c (pt3 T 2) e) (fun e => blk3_2 V c (pt3 T 2) e) (fun e => blk3_3 V c (pt3 T 2) e) (fun e => blk3_4 V c (pt3 T 2) e)
  · exact keyMixP_apply (ffnP3 V c) (xrow3 V c r) _ _ _ _ _ p (fun e => blk3_0 V c (pt3 T 3) p e r (by show r.val = 256 * ((4 * T.val + 3) / 4) + p.val; omega)) (fun e => blk3_1 V c (pt3 T 3) e) (fun e => blk3_2 V c (pt3 T 3) e) (fun e => blk3_3 V c (pt3 T 3) e) (fun e => blk3_4 V c (pt3 T 3) e)
  · exact fun f d => blk3_6 V c (pt3 T 0) f d (chunkIdx 0 f) (by show 1024 * 0 + f.val = 1024 * ((4 * T.val + 0) % 4) + f.val; omega)
  · exact fun f d => blk3_6 V c (pt3 T 1) f d (chunkIdx 1 f) (by show 1024 * 1 + f.val = 1024 * ((4 * T.val + 1) % 4) + f.val; omega)
  · exact fun f d => blk3_6 V c (pt3 T 2) f d (chunkIdx 2 f) (by show 1024 * 2 + f.val = 1024 * ((4 * T.val + 2) % 4) + f.val; omega)
  · exact fun f d => blk3_6 V c (pt3 T 3) f d (chunkIdx 3 f) (by show 1024 * 3 + f.val = 1024 * ((4 * T.val + 3) % 4) + f.val; omega)
  · exact fun f => blk3_8 V c (pt3 T 0) o f (chunkIdx 0 f) (by show 1024 * 0 + f.val = 1024 * ((4 * T.val + 0) % 4) + f.val; omega)
  · exact fun f => blk3_8 V c (pt3 T 1) o f (chunkIdx 1 f) (by show 1024 * 1 + f.val = 1024 * ((4 * T.val + 1) % 4) + f.val; omega)
  · exact fun f => blk3_8 V c (pt3 T 2) o f (chunkIdx 2 f) (by show 1024 * 2 + f.val = 1024 * ((4 * T.val + 2) % 4) + f.val; omega)
  · exact fun f => blk3_8 V c (pt3 T 3) o f (chunkIdx 3 f) (by show 1024 * 3 + f.val = 1024 * ((4 * T.val + 3) % 4) + f.val; omega)

/-! ## The output array -/

/-- What the output array ends holding: at `(r, o)` the layer on row `r` of the state, at channel `o`. -/
def G3 (c : Dev nD) : S2048x1024.Idx → EReal := fun i =>
  Cert.Spec.ffnRow (ffnP3 V c) (xrow3 V c ⟨(i 0).val, idx2_lt0 i⟩) ⟨(i 1).val, idx2_lt1 i⟩

/-- What a tile's last point writes back is its block of `G3`. -/
theorem flushed3_9 (c : Dev nD) (T : Fin 8) :
    (dat3 (F := Ideal) V c).flushed 9 (pt3 T 3) = ((cfg3.win 9).blk (pt3 T 3)).view.read (Elt Ideal) (G3 V c) := by
  show (cfg3.win 9).cut (grid3.coords (pt3 T 3)) ((dat3 (F := Ideal) V c).after 9 (pt3 T 3)) = _
  rw [after3_9_all]
  obtain ⟨e0, e1⟩ := idx3_9 (pt3 T 3)
  funext j
  rw [View.read_apply]
  have hj : j = ix2 (⟨(j 0).val, (j 0).isLt⟩ : Fin 256) (⟨(j 1).val, (j 1).isLt⟩ : Fin 1024) :=
    funext fun a => by match a with | ⟨0, _⟩ => rfl | ⟨1, _⟩ => rfl
  have ha : ((((cfg3.win 9).blk (pt3 T 3)).view.emb j) 0).val = 256 * T.val + (j 0).val := by
    show win3_9.index (pt3 T 3) (0 : Fin 2) * 256 + 1 * (j 0).val = _
    rw [e0]; show (4 * T.val + 3) / 4 * 256 + 1 * (j 0).val = _; omega
  have hb : ((((cfg3.win 9).blk (pt3 T 3)).view.emb j) 1).val = (j 1).val := by
    show win3_9.index (pt3 T 3) (1 : Fin 2) * 1024 + 1 * (j 1).val = _
    rw [e1]; omega
  exact (congrArg (out3_9 V c (pt3 T 3)) hj).trans (out_tile3 V c T _ _ _ _ ha hb)

/-- The same at any point that writes back: it is some tile's last. -/
theorem flushedAt3_9 (c : Dev nD) (t : Fin cfg3.N) (T : Fin 8) (ht : t = pt3 T 3) :
    (dat3 (F := Ideal) V c).flushed 9 t = ((cfg3.win 9).blk t).view.read (Elt Ideal) (G3 V c) := by
  subst ht; exact flushed3_9 V c T

/-- An index of the array is in point `t`'s block iff each coordinate is in the block's range on its axis. -/
theorem mem_blk3_9 (t : Fin cfg3.N) (i : S2048x1024.Idx) :
    i ∈ ((cfg3.win 9).blk t).view.set ↔ ∀ a : Fin 2, win3_9.index t a * S256x1024.size a ≤ (i a).val ∧ (i a).val < win3_9.index t a * S256x1024.size a + S256x1024.size a := by
  show i ∈ ((View.whole main_v161).slice (win3_9.rect t)).set ↔ _
  rw [View.set_slice_whole, Rect.mem_set_unit]
  exact Iff.rfl

/-- Every row of the array is in the block of its tile's last point. -/
theorem cover3_9 (i : S2048x1024.Idx) : ∃ t : Fin cfg3.N, (cfg3.win 9).flush t = true ∧ i ∈ ((cfg3.win 9).blk t).view.set := by
  have hi : (i 0).val < 2048 := idx2_lt0 i
  have hk : (i 1).val < 1024 := idx2_lt1 i
  refine ⟨pt3 ⟨(i 0).val / 256, by omega⟩ 3, (flush3_9 _).mpr (by show (4 * ((i 0).val / 256) + 3) % 4 = 3; omega), ?_⟩
  rw [mem_blk3_9]
  obtain ⟨e0, e1⟩ := idx3_9 (pt3 ⟨(i 0).val / 256, by omega⟩ 3)
  intro a
  match a with
  | ⟨0, _⟩ =>
    show win3_9.index _ (0 : Fin 2) * 256 ≤ (i 0).val ∧ (i 0).val < win3_9.index _ (0 : Fin 2) * 256 + 256
    rw [e0]
    show (4 * ((i 0).val / 256) + 3) / 4 * 256 ≤ (i 0).val ∧ (i 0).val < (4 * ((i 0).val / 256) + 3) / 4 * 256 + 256
    omega
  | ⟨1, _⟩ =>
    show win3_9.index _ (1 : Fin 2) * 1024 ≤ (i 1).val ∧ (i 1).val < win3_9.index _ (1 : Fin 2) * 1024 + 1024
    rw [e1]; omega

end Ffn3

/-- THE OUTPUT ARRAY after the region, at row `r` and channel `o`: the channel-mixing layer on row `r` of the state. -/
theorem final3 (c : Dev nD) (r : Fin 2048) (o : Fin 1024) :
    (dat3 (F := Ideal) V c).arrAt 9 cfg3.N (ix2 r o) = Cert.Spec.ffnRow (ffnP3 V c) (xrow3 V c r) o := by
  have h := (dat3 (F := Ideal) V c).arrAt_eq_of_cover 9 (G3 V c) (fun t ht => by
      have hq : t.val % 4 = 3 := (flush3_9 t).mp ht
      have hN : t.val < 32 := lt_of_lt_of_eq t.isLt N_3
      exact flushedAt3_9 V c t ⟨t.val / 4, by omega⟩ (Fin.ext (by show t.val = 4 * (t.val / 4) + 3; omega))) cover3_9
  rw [h]
  rfl

end Cert.KernelIdeal.Val

end
-- ==== Proof.HostKL1.lean ====
/-
  Layer 1's parameters as the two host stretches before its launches leave them.

  The stretch before a time-mixing launch slices row 1 of each stacked vector argument and matrix 1 of each stacked
  matrix argument, reshapes the row to 1×1024 and the matrix to 1024×1024 (re-typed to bf16, the identity on the
  extended reals); the stretch before a channel-mixing launch does the same for its five vectors and three matrices.
  Read at an index, each parameter window's array is therefore the argument's entry at layer 1: window by window
  first, then bundled as the parameter record the specification takes, which is `(argsK W).attn 1`, resp.
  `(argsK W).ffn 1`, whatever contents `W` the stretch starts from.
-/
import proofs.«415492_j738734375128_3_alg».proof.Proof.HostK

set_option maxRecDepth 16384

noncomputable section

namespace Cert.KernelIdeal.Val

open Cert.KernelIdeal Cert.KernelIdeal.Gen
open Idealize.ShloMosaic Idealize.ShloMosaic.TcCoe Idealize.ShloMosaic.ValueIdx

variable (W : Valuation τ sig (Elt Ideal))

/-! ## Layer 1's time-mixing parameters (the second half of the stretch before the time-mixing launch) -/

theorem host2_w1 (d : Fin 1024) :
    (StableHlo.after (hostOps2 (F := Ideal)) W (Proc.devRef .tc main_v127) : S1x1024.Idx → EReal) (ix2 0 d) = ((argsK W).attn 1).lnw d := by
  have e : (StableHlo.after (hostOps2 (F := Ideal)) W (Proc.devRef .tc main_v127) : S1x1024.Idx → EReal)
      = shapeCast S1x1024 (shapeCast S1024 (extractStridedSlice S1x1024 ![1, 0] (W (Proc.devRef .tc main_arg4) : S4x1024.Idx → EReal) slices_S4x1024_S1x1024_1_0) shapeCasts_S1x1024_S1024) shapeCasts_S1024_S1x1024 := by
    dsimp only [hostOps2]; after_results; rfl
  rw [e]; exact rowSlice_apply _ 1 _ _ _ d

theorem host2_w2 (d : Fin 1024) :
    (StableHlo.after (hostOps2 (F := Ideal)) W (Proc.devRef .tc main_v128) : S1x1024.Idx → EReal) (ix2 0 d) = ((argsK W).attn 1).lnb d := by
  have e : (StableHlo.after (hostOps2 (F := Ideal)) W (Proc.devRef .tc main_v128) : S1x1024.Idx → EReal)
      = shapeCast S1x1024 (shapeCast S1024 (extractStridedSlice S1x1024 ![1, 0] (W (Proc.devRef .tc main_arg5) : S4x1024.Idx → EReal) slices_S4x1024_S1x1024_1_0) shapeCasts_S1x1024_S1024) shapeCasts_S1024_S1x1024 := by
    dsimp only [hostOps2]; after_results; rfl
  rw [e]; exact rowSlice_apply _ 1 _ _ _ d

theorem host2_w3 (d : Fin 1024) :
    (StableHlo.after (hostOps2 (F := Ideal)) W (Proc.devRef .tc main_v129) : S1x1024.Idx → EReal) (ix2 0 d) = ((argsK W).attn 1).sx d := by
  have e : (StableHlo.after (hostOps2 (F := Ideal)) W (Proc.devRef .tc main_v129) : S1x1024.Idx → EReal)
      = shapeCast S1x1024 (shapeCast S1024 (extractStridedSlice S1x1024 ![1, 0] (W (Proc.devRef .tc main_arg25) : S4x1024.Idx → EReal) slices_S4x1024_S1x1024_1_0) shapeCasts_S1x1024_S1024) shapeCasts_S1024_S1x1024 := by
    dsimp only [hostOps2]; after_results; rfl
  rw [e]; exact rowSlice_apply _ 1 _ _ _ d

theorem host2_w4 (d : Fin 1024) :
    (StableHlo.after (hostOps2 (F := Ideal)) W (Proc.devRef .tc main_v130) : S1x1024.Idx → EReal) (ix2 0 d) = ((argsK W).attn 1).mixk d := by
  have e : (StableHlo.after (hostOps2 (F := Ideal)) W (Proc.devRef .tc main_v130) : S1x1024.Idx → EReal)
      = shapeCast S1x1024 (shapeCast S1024 (extractStridedSlice S1x1024 ![1, 0] (W (Proc.devRef .tc main_arg10) : S4x1024.Idx → EReal) slices_S4x1024_S1x1024_1_0) shapeCasts_S1x1024_S1024) shapeCasts_S1024_S1x1024 := by
    dsimp only [hostOps2]; after_results; rfl
  rw [e]; exact rowSlice_apply _ 1 _ _ _ d

theorem host2_w5 (d : Fin 1024) :
    (StableHlo.after (hostOps2 (F := Ideal)) W (Proc.devRef .tc main_v131) : S1x1024.Idx → EReal) (ix2 0 d) = ((argsK W).attn 1).mixv d := by
  have e : (StableHlo.after (hostOps2 (F := Ideal)) W (Proc.devRef .tc main_v131) : S1x1024.Idx → EReal)
      = shapeCast S1x1024 (shapeCast S1024 (extractStridedSlice S1x1024 ![1, 0] (W (Proc.devRef .tc main_arg11) : S4x1024.Idx → EReal) slices_S4x1024_S1x1024_1_0) shapeCasts_S1x1024_S1024) shapeCasts_S1024_S1x1024 := by
    dsimp only [hostOps2]; after_results; rfl
  rw [e]; exact rowSlice_apply _ 1 _ _ _ d

theorem host2_w6 (d : Fin 1024) :
    (StableHlo.after (hostOps2 (F := Ideal)) W (Proc.devRef .tc main_v132) : S1x1024.Idx → EReal) (ix2 0 d) = ((argsK W).attn 1).mixr d := by
  have e : (StableHlo.after (hostOps2 (F := Ideal)) W (Proc.devRef .tc main_v132) : S1x1024.Idx → EReal)
      = shapeCast S1x1024 (shapeCast S1024 (extractStridedSlice S1x1024 ![1, 0] (W (Proc.devRef .tc main_arg12) : S4x1024.Idx → EReal) slices_S4x1024_S1x1024_1_0) shapeCasts_S1x1024_S1024) shapeCasts_S1024_S1x1024 := by
    dsimp only [hostOps2]; after_results; rfl
  rw [e]; exact rowSlice_apply _ 1 _ _ _ d

theorem host2_w7 (d : Fin 1024) :
    (StableHlo.after (hostOps2 (F := Ideal)) W (Proc.devRef .tc main_v133) : S1x1024.Idx → EReal) (ix2 0 d) = ((argsK W).attn 1).tf d := by
  have e : (StableHlo.after (hostOps2 (F := Ideal)) W (Proc.devRef .tc main_v133) : S1x1024.Idx → EReal)
      = shapeCast S1x1024 (shapeCast S1024 (extractStridedSlice S1x1024 ![1, 0] (W (Proc.devRef .tc main_arg9) : S4x1024.Idx → EReal) slices_S4x1024_S1x1024_1_0) shapeCasts_S1x1024_S1024) shapeCasts_S1024_S1x1024 := by
    dsimp only [hostOps2]; after_results; rfl
  rw [e]; exact rowSlice_apply _ 1 _ _ _ d

theorem host2_w8 (d : Fin 1024) :
    (StableHlo.after (hostOps2 (F := Ideal)) W (Proc.devRef .tc main_v134) : S1x1024.Idx → EReal) (ix2 0 d) = ((argsK W).attn 1).num d := by
  have e : (StableHlo.after (hostOps2 (F := Ideal)) W (Proc.devRef .tc main_v134) : S1x1024.Idx → EReal)
      = shapeCast S1x1024 (shapeCast S1024 (extractStridedSlice S1x1024 ![1, 0] (W (Proc.devRef .tc main_arg26) : S4x1024.Idx → EReal) slices_S4x1024_S1x1024_1_0) shapeCasts_S1x1024_S1024) shapeCasts_S1024_S1x1024 := by
    dsimp only [hostOps2]; after_results; rfl
  rw [e]; exact rowSlice_apply _ 1 _ _ _ d

theorem host2_w9 (d : Fin 1024) :
    (StableHlo.after (hostOps2 (F := Ideal)) W (Proc.devRef .tc main_v135) : S1x1024.Idx → EReal) (ix2 0 d) = ((argsK W).attn 1).den d := by
  have e : (StableHlo.after (hostOps2 (F := Ideal)) W (Proc.devRef .tc main_v135) : S1x1024.Idx → EReal)
      = shapeCast S1x1024 (shapeCast S1024 (extractStridedSlice S1x1024 ![1, 0] (W (Proc.devRef .tc main_arg27) : S4x1024.Idx → EReal) slices_S4x1024_S1x1024_1_0) shapeCasts_S1x1024_S1024) shapeCasts_S1024_S1x1024 := by
    dsimp only [hostOps2]; after_results; rfl
  rw [e]; exact rowSlice_apply _ 1 _ _ _ d

theorem host2_w10 (o : Fin 1024) (d : Fin 1024) :
    (StableHlo.after (hostOps2 (F := Ideal)) W (Proc.devRef .tc main_v123) : S1024x1024.Idx → EReal) (ix2 o d) = ((argsK W).attn 1).Wk o d := by
  have e : (StableHlo.after (hostOps2 (F := Ideal)) W (Proc.devRef .tc main_v123) : S1024x1024.Idx → EReal)
      = shapeCast S1024x1024 (extractStridedSlice S1x1024x1024 ![1, 0, 0] (W (Proc.devRef .tc main_arg13) : S4x1024x1024.Idx → EReal) slices_S4x1024x1024_S1x1024x1024_1_0_0) shapeCasts_S1x1024x1024_S1024x1024 := by
    dsimp only [hostOps2]; after_results; rfl
  rw [e]; exact matSlice_apply _ 1 _ _ o d

theorem host2_w11 (o : Fin 1024) (d : Fin 1024) :
    (StableHlo.after (hostOps2 (F := Ideal)) W (Proc.devRef .tc main_v124) : S1024x1024.Idx → EReal) (ix2 o d) = ((argsK W).attn 1).Wv o d := by
  have e : (StableHlo.after (hostOps2 (F := Ideal)) W (Proc.devRef .tc main_v124) : S1024x1024.Idx → EReal)
      = shapeCast S1024x1024 (extractStridedSlice S1x1024x1024 ![1, 0, 0] (W (Proc.devRef .tc main_arg14) : S4x1024x1024.Idx → EReal) slices_S4x1024x1024_S1x1024x1024_1_0_0) shapeCasts_S1x1024x1024_S1024x1024 := by
    dsimp only [hostOps2]; after_results; rfl
  rw [e]; exact matSlice_apply _ 1 _ _ o d

theorem host2_w12 (o : Fin 1024) (d : Fin 1024) :
    (StableHlo.after (hostOps2 (F := Ideal)) W (Proc.devRef .tc main_v125) : S1024x1024.Idx → EReal) (ix2 o d) = ((argsK W).attn 1).Wr o d := by
  have e : (StableHlo.after (hostOps2 (F := Ideal)) W (Proc.devRef .tc main_v125) : S1024x1024.Idx → EReal)
      = shapeCast S1024x1024 (extractStridedSlice S1x1024x1024 ![1, 0, 0] (W (Proc.devRef .tc main_arg15) : S4x1024x1024.Idx → EReal) slices_S4x1024x1024_S1x1024x1024_1_0_0) shapeCasts_S1x1024x1024_S1024x1024 := by
    dsimp only [hostOps2]; after_results; rfl
  rw [e]; exact matSlice_apply _ 1 _ _ o d

theorem host2_w13 (o : Fin 1024) (d : Fin 1024) :
    (StableHlo.after (hostOps2 (F := Ideal)) W (Proc.devRef .tc main_v126) : S1024x1024.Idx → EReal) (ix2 o d) = ((argsK W).attn 1).Wo o d := by
  have e : (StableHlo.after (hostOps2 (F := Ideal)) W (Proc.devRef .tc main_v126) : S1024x1024.Idx → EReal)
      = shapeCast S1024x1024 (extractStridedSlice S1x1024x1024 ![1, 0, 0] (W (Proc.devRef .tc main_arg16) : S4x1024x1024.Idx → EReal) slices_S4x1024x1024_S1x1024x1024_1_0_0) shapeCasts_S1x1024x1024_S1024x1024 := by
    dsimp only [hostOps2]; after_results; rfl
  rw [e]; exact matSlice_apply _ 1 _ _ o d

/-- The thirteen parameter windows of the time-mixing launch, bundled: layer 1's time-mixing parameters. -/
theorem hostL1_attn :
    ({ lnw := fun d => (StableHlo.after (hostOps2 (F := Ideal)) W (Proc.devRef .tc (Pipeline.arrRef spec2 1)) : S1x1024.Idx → EReal) (ix2 (0 : Fin 1) d)
       lnb := fun d => (StableHlo.after (hostOps2 (F := Ideal)) W (Proc.devRef .tc (Pipeline.arrRef spec2 2)) : S1x1024.Idx → EReal) (ix2 (0 : Fin 1) d)
       sx := fun d => (StableHlo.after (hostOps2 (F := Ideal)) W (Proc.devRef .tc (Pipeline.arrRef spec2 3)) : S1x1024.Idx → EReal) (ix2 (0 : Fin 1) d)
       mixk := fun d => (StableHlo.after (hostOps2 (F := Ideal)) W (Proc.devRef .tc (Pipeline.arrRef spec2 4)) : S1x1024.Idx → EReal) (ix2 (0 : Fin 1) d)
       mixv := fun d => (StableHlo.after (hostOps2 (F := Ideal)) W (Proc.devRef .tc (Pipeline.arrRef spec2 5)) : S1x1024.Idx → EReal) (ix2 (0 : Fin 1) d)
       mixr := fun d => (StableHlo.after (hostOps2 (F := Ideal)) W (Proc.devRef .tc (Pipeline.arrRef spec2 6)) : S1x1024.Idx → EReal) (ix2 (0 : Fin 1) d)
       tf := fun d => (StableHlo.after (hostOps2 (F := Ideal)) W (Proc.devRef .tc (Pipeline.arrRef spec2 7)) : S1x1024.Idx → EReal) (ix2 (0 : Fin 1) d)
       num := fun d => (StableHlo.after (hostOps2 (F := Ideal)) W (Proc.devRef .tc (Pipeline.arrRef spec2 8)) : S1x1024.Idx → EReal) (ix2 (0 : Fin 1) d)
       den := fun d => (StableHlo.after (hostOps2 (F := Ideal)) W (Proc.devRef .tc (Pipeline.arrRef spec2 9)) : S1x1024.Idx → EReal) (ix2 (0 : Fin 1) d)
       Wk := fun o d => (StableHlo.after (hostOps2 (F := Ideal)) W (Proc.devRef .tc (Pipeline.arrRef spec2 10)) : S1024x1024.Idx → EReal) (ix2 o d)
       Wv := fun o d => (StableHlo.after (hostOps2 (F := Ideal)) W (Proc.devRef .tc (Pipeline.arrRef spec2 11)) : S1024x1024.Idx → EReal) (ix2 o d)
       Wr := fun o d => (StableHlo.after (hostOps2 (F := Ideal)) W (Proc.devRef .tc (Pipeline.arrRef spec2 12)) : S1024x1024.Idx → EReal) (ix2 o d)
       Wo := fun o d => (StableHlo.after (hostOps2 (F := Ideal)) W (Proc.devRef .tc (Pipeline.arrRef spec2 13)) : S1024x1024.Idx → EReal) (ix2 o d) } : Cert.Spec.AttnP)
      = (argsK W).attn 1 := by
  unfold Cert.Spec.Args.attn
  rw [Cert.Spec.AttnP.mk.injEq]
  exact ⟨funext (host2_w1 W), funext (host2_w2 W), funext (host2_w3 W), funext (host2_w4 W), funext (host2_w5 W),
    funext (host2_w6 W), funext (host2_w7 W), funext (host2_w8 W), funext (host2_w9 W),
    funext fun o => funext (host2_w10 W o), funext fun o => funext (host2_w11 W o),
    funext fun o => funext (host2_w12 W o), funext fun o => funext (host2_w13 W o)⟩

/-! ## Layer 1's channel-mixing parameters (the stretch before the channel-mixing launch) -/

theorem host3_w1 (d : Fin 1024) :
    (StableHlo.after (hostOps3 (F := Ideal)) W (Proc.devRef .tc main_v156) : S1x1024.Idx → EReal) (ix2 0 d) = ((argsK W).ffn 1).lnw d := by
  have e : (StableHlo.after (hostOps3 (F := Ideal)) W (Proc.devRef .tc main_v156) : S1x1024.Idx → EReal)
      = shapeCast S1x1024 (shapeCast S1024 (extractStridedSlice S1x1024 ![1, 0] (W (Proc.devRef .tc main_arg6) : S4x1024.Idx → EReal) slices_S4x1024_S1x1024_1_0) shapeCasts_S1x1024_S1024) shapeCasts_S1024_S1x1024 := by
    dsimp only [hostOps3]; after_results; rfl
  rw [e]; exact rowSlice_apply _ 1 _ _ _ d

theorem host3_w2 (d : Fin 1024) :
    (StableHlo.after (hostOps3 (F := Ideal)) W (Proc.devRef .tc main_v157) : S1x1024.Idx → EReal) (ix2 0 d) = ((argsK W).ffn 1).lnb d := by
  have e : (StableHlo.after (hostOps3 (F := Ideal)) W (Proc.devRef .tc main_v157) : S1x1024.Idx → EReal)
      = shapeCast S1x1024 (shapeCast S1024 (extractStridedSlice S1x1024 ![1, 0] (W (Proc.devRef .tc main_arg7) : S4x1024.Idx → EReal) slices_S4x1024_S1x1024_1_0) shapeCasts_S1x1024_S1024) shapeCasts_S1024_S1x1024 := by
    dsimp only [hostOps3]; after_results; rfl
  rw [e]; exact rowSlice_apply _ 1 _ _ _ d

theorem host3_w3 (d : Fin 1024) :
    (StableHlo.after (hostOps3 (F := Ideal)) W (Proc.devRef .tc main_v158) : S1x1024.Idx → EReal) (ix2 0 d) = ((argsK W).ffn 1).sx d := by
  have e : (StableHlo.after (hostOps3 (F := Ideal)) W (Proc.devRef .tc main_v158) : S1x1024.Idx → EReal)
      = shapeCast S1x1024 (shapeCast S1024 (extractStridedSlice S1x1024 ![1, 0] (W (Proc.devRef .tc main_arg28) : S4x1024.Idx → EReal) slices_S4x1024_S1x1024_1_0) shapeCasts_S1x1024_S1024) shapeCasts_S1024_S1x1024 := by
    dsimp only [hostOps3]; after_results; rfl
  rw [e]; exact rowSlice_apply _ 1 _ _ _ d

theorem host3_w4 (d : Fin 1024) :
    (StableHlo.after (hostOps3 (F := Ideal)) W (Proc.devRef .tc main_v159) : S1x1024.Idx → EReal) (ix2 0 d) = ((argsK W).ffn 1).mixk d := by
  have e : (StableHlo.after (hostOps3 (F := Ideal)) W (Proc.devRef .tc main_v159) : S1x1024.Idx → EReal)
      = shapeCast S1x1024 (shapeCast S1024 (extractStridedSlice S1x1024 ![1, 0] (W (Proc.devRef .tc main_arg17) : S4x1024.Idx → EReal) slices_S4x1024_S1x1024_1_0) shapeCasts_S1x1024_S1024) shapeCasts_S1024_S1x1024 := by
    dsimp only [hostOps3]; after_results; rfl
  rw [e]; exact rowSlice_apply _ 1 _ _ _ d

theorem host3_w5 (d : Fin 1024) :
    (StableHlo.after (hostOps3 (F := Ideal)) W (Proc.devRef .tc main_v160) : S1x1024.Idx → EReal) (ix2 0 d) = ((argsK W).ffn 1).mixr d := by
  have e : (StableHlo.after (hostOps3 (F := Ideal)) W (Proc.devRef .tc main_v160) : S1x1024.Idx → EReal)
      = shapeCast S1x1024 (shapeCast S1024 (extractStridedSlice S1x1024 ![1, 0] (W (Proc.devRef .tc main_arg18) : S4x1024.Idx → EReal) slices_S4x1024_S1x1024_1_0) shapeCasts_S1x1024_S1024) shapeCasts_S1024_S1x1024 := by
    dsimp only [hostOps3]; after_results; rfl
  rw [e]; exact rowSlice_apply _ 1 _ _ _ d

theorem host3_w6 (f : Fin 4096) (d : Fin 1024) :
    (StableHlo.after (hostOps3 (F := Ideal)) W (Proc.devRef .tc main_v153) : S4096x1024.Idx → EReal) (ix2 f d) = ((argsK W).ffn 1).Wk f d := by
  have e : (StableHlo.after (hostOps3 (F := Ideal)) W (Proc.devRef .tc main_v153) : S4096x1024.Idx → EReal)
      = shapeCast S4096x1024 (extractStridedSlice S1x4096x1024 ![1, 0, 0] (W (Proc.devRef .tc main_arg19) : S4x4096x1024.Idx → EReal) slices_S4x4096x1024_S1x4096x1024_1_0_0) shapeCasts_S1x4096x1024_S4096x1024 := by
    dsimp only [hostOps3]; after_results; rfl
  rw [e]; exact matSlice_apply _ 1 _ _ f d

theorem host3_w7 (o : Fin 1024) (d : Fin 1024) :
    (StableHlo.after (hostOps3 (F := Ideal)) W (Proc.devRef .tc main_v154) : S1024x1024.Idx → EReal) (ix2 o d) = ((argsK W).ffn 1).Wr o d := by
  have e : (StableHlo.after (hostOps3 (F := Ideal)) W (Proc.devRef .tc main_v154) : S1024x1024.Idx → EReal)
      = shapeCast S1024x1024 (extractStridedSlice S1x1024x1024 ![1, 0, 0] (W (Proc.devRef .tc main_arg20) : S4x1024x1024.Idx → EReal) slices_S4x1024x1024_S1x1024x1024_1_0_0) shapeCasts_S1x1024x1024_S1024x1024 := by
    dsimp only [hostOps3]; after_results; rfl
  rw [e]; exact matSlice_apply _ 1 _ _ o d

theorem host3_w8 (o : Fin 1024) (f : Fin 4096) :
    (StableHlo.after (hostOps3 (F := Ideal)) W (Proc.devRef .tc main_v155) : S1024x4096.Idx → EReal) (ix2 o f) = ((argsK W).ffn 1).Wv o f := by
  have e : (StableHlo.after (hostOps3 (F := Ideal)) W (Proc.devRef .tc main_v155) : S1024x4096.Idx → EReal)
      = shapeCast S1024x4096 (extractStridedSlice S1x1024x4096 ![1, 0, 0] (W (Proc.devRef .tc main_arg21) : S4x1024x4096.Idx → EReal) slices_S4x1024x4096_S1x1024x4096_1_0_0) shapeCasts_S1x1024x4096_S1024x4096 := by
    dsimp only [hostOps3]; after_results; rfl
  rw [e]; exact matSlice_apply _ 1 _ _ o f

/-- The eight parameter windows of the channel-mixing launch, bundled: layer 1's channel-mixing parameters. -/
theorem hostL1_ffn :
    ({ lnw := fun d => (StableHlo.after (hostOps3 (F := Ideal)) W (Proc.devRef .tc (Pipeline.arrRef spec3 1)) : S1x1024.Idx → EReal) (ix2 (0 : Fin 1) d)
       lnb := fun d => (StableHlo.after (hostOps3 (F := Ideal)) W (Proc.devRef .tc (Pipeline.arrRef spec3 2)) : S1x1024.Idx → EReal) (ix2 (0 : Fin 1) d)
       sx := fun d => (StableHlo.after (hostOps3 (F := Ideal)) W (Proc.devRef .tc (Pipeline.arrRef spec3 3)) : S1x1024.Idx → EReal) (ix2 (0 : Fin 1) d)
       mixk := fun d => (StableHlo.after (hostOps3 (F := Ideal)) W (Proc.devRef .tc (Pipeline.arrRef spec3 4)) : S1x1024.Idx → EReal) (ix2 (0 : Fin 1) d)
       mixr := fun d => (StableHlo.after (hostOps3 (F := Ideal)) W (Proc.devRef .tc (Pipeline.arrRef spec3 5)) : S1x1024.Idx → EReal) (ix2 (0 : Fin 1) d)
       Wk := fun f d => (StableHlo.after (hostOps3 (F := Ideal)) W (Proc.devRef .tc (Pipeline.arrRef spec3 6)) : S4096x1024.Idx → EReal) (ix2 f d)
       Wr := fun o d => (StableHlo.after (hostOps3 (F := Ideal)) W (Proc.devRef .tc (Pipeline.arrRef spec3 7)) : S1024x1024.Idx → EReal) (ix2 o d)
       Wv := fun o f => (StableHlo.after (hostOps3 (F := Ideal)) W (Proc.devRef .tc (Pipeline.arrRef spec3 8)) : S1024x4096.Idx → EReal) (ix2 o f) } : Cert.Spec.FfnP)
      = (argsK W).ffn 1 := by
  unfold Cert.Spec.Args.ffn
  rw [Cert.Spec.FfnP.mk.injEq]
  exact ⟨funext (host3_w1 W), funext (host3_w2 W), funext (host3_w3 W), funext (host3_w4 W), funext (host3_w5 W),
    funext fun f => funext (host3_w6 W f), funext fun o => funext (host3_w7 W o), funext fun o => funext (host3_w8 W o)⟩

end Cert.KernelIdeal.Val
-- ==== Proof.KLayer1.lean ====
/-
  Layer 1 of the kernel, boundary to boundary. The attention launch's output array, row by row, is the specification's
  time-mixing layer of the rows it was given, with the layer's parameters drawn from the argument arrays (the host
  stretch before the launch only slices, reshapes and re-formats them); the feed-forward launch's output array is
  the channel-mixing layer of those rows. No host stretch writes the state's array in between.
-/
import proofs.«415492_j738734375128_3_alg».proof.Proof.KArgs
import proofs.«415492_j738734375128_3_alg».proof.Proof.ValAttn2
import proofs.«415492_j738734375128_3_alg».proof.Proof.ValFfn3
import proofs.«415492_j738734375128_3_alg».proof.Proof.HostKL1
import proofs.«415492_j738734375128_3_alg».proof.Proof.HostKeeps

noncomputable section

namespace Cert.KernelIdeal.Val

open Cert.KernelIdeal Cert.KernelIdeal.Gen Cert.KernelIdeal.Hand Idealize.ShloMosaic Idealize.ShloMosaic.ValueIdx

variable (m : (ℓ : Loc nD τ sig) → Buf (Elt Ideal) ℓ) (ρ : Dev nD → PrngReg) (c : Dev nD)

/-- The state's rows as the attention launch of layer 1 finds them, -/
def stIn1 (r : Fin 2048) : Cert.Spec.Row := fun d => (W5 m ρ c (Proc.devRef .tc (Pipeline.arrRef spec2 0)) : S2048x1024.Idx → EReal) (ix2 r d)
/-- as it leaves them, -/
def stMid1 (r : Fin 2048) : Cert.Spec.Row := fun d => (W6 m ρ c (Proc.devRef .tc (Pipeline.arrRef spec2 14)) : S2048x1024.Idx → EReal) (ix2 r d)
/-- and as the feed-forward launch of layer 1 leaves them. -/
def stOut1 (r : Fin 2048) : Cert.Spec.Row := fun d => (W8 m ρ c (Proc.devRef .tc (Pipeline.arrRef spec3 9)) : S2048x1024.Idx → EReal) (ix2 r d)

/-- Time mixing, layer 1. -/
theorem stMid1_eq (r : Fin 2048) : stMid1 m ρ c r = Cert.Spec.attnRow ((argsK (W0 m ρ c)).attn 1) (stIn1 m ρ c r) := by
  funext o
  have h1 := congrFun (W6_arr m ρ c 14) (ix2 r o)
  have h2 := final2 (V5 m ρ) c r o
  have hp : attnP2 (V5 m ρ) c = (argsK (W0 m ρ c)).attn 1 := (hostL1_attn (W4 m ρ c)).trans (congrArg (fun A => A.attn 1) (argsK_W4 m ρ c))
  have hx : xrow2 (V5 m ρ) c r = stIn1 m ρ c r := rfl
  exact h1.trans (h2.trans (by rw [hp, hx]))

/-- Channel mixing, layer 1. -/
theorem stOut1_eq (r : Fin 2048) : stOut1 m ρ c r = Cert.Spec.ffnRow ((argsK (W0 m ρ c)).ffn 1) (stMid1 m ρ c r) := by
  funext o
  have h1 := congrFun (W8_arr m ρ c 9) (ix2 r o)
  have h2 := final3 (V7 m ρ) c r o
  have hp : ffnP3 (V7 m ρ) c = (argsK (W0 m ρ c)).ffn 1 := (hostL1_ffn (W6 m ρ c)).trans (congrArg (fun A => A.ffn 1) (argsK_W6 m ρ c))
  have hx : xrow3 (V7 m ρ) c r = stMid1 m ρ c r := by
    funext d
    show (StableHlo.after hostOps3 (W6 m ρ c) (Proc.devRef .tc (Pipeline.arrRef spec3 0)) : S2048x1024.Idx → EReal) (ix2 r d) = _
    rw [host3_keeps_x (W6 m ρ c)]
    rfl
  exact h1.trans (h2.trans (by rw [hp, hx]))

end Cert.KernelIdeal.Val

end
-- ==== Proof.ValAttn4.lean ====
/-
  REGION 4, read as values: what the attention kernel's launch leaves in its result array is, row by row, the
  specification's time-mixing layer.

  The launch walks the 2048 rows of the activation array in eight blocks of 256 rows. At a point the body sees the
  point's block x of activations and the whole of thirteen parameter arrays (nine rows of 1024 channels: the gain and
  bias of the normalisation, the carried state, the three mixing rows, the bonus, the carried numerator and
  denominator; four 1024 × 1024 matrices), and stores one value over the output block. Entry (p, o) of that value is
      x(p, o) + Σ_d g(p, d) · Wo(o, d),
  where, with n = the normalisation of row p (centred, divided by the root of its variance plus a small constant,
  times the gain plus the bias) and m_μ = n ⊙ μ + s ⊙ (1 − μ) its mixture with the carried state s by a mixing row μ,
      k = Σ_d m_μk(d) · Wk(·, d),   v = Σ_d m_μv(d) · Wv(·, d),   r = Σ_d m_μr(d) · Wr(·, d),   e = exp (tf + k),
      g = σ(r) · (num + e · v) / (den + e).
  Every quantity in it depends on row p of the block alone: the two lane sums run along the row, the four products
  contract the row against a matrix's rows, everything else acts entry by entry. So entry (p, o) is the
  specification's layer applied to row p, at channel o. The block at point t is rows 256·t … 256·t + 255 of the
  activation array and the parameter blocks are the parameter arrays themselves; the output block of point t is
  written back onto those same rows, and the eight blocks cover the result array. Sums are finite sums on the extended
  reals; a change of float format is the identity there; no finiteness is used.
-/
import proofs.«415492_j738734375128_3_alg».proof.Proof.Region4
import proofs.«415492_j738734375128_3_alg».proof.Proof.Spec
import Idealize.ShloMosaic.PureOps.Ideal.Laws
import Idealize.ShloMosaic.Lib.ValueIdx
import Idealize.ShloMosaic.Lib.ValueLayout
import Idealize.ShloMosaic.Lib.Pipeline.Value

-- membership of an index in a rectangle of these extents is decided structurally, one step per coordinate
set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## The operations the body is made of, read at an index -/

/-- A sum along the lanes of a row: the sum over the row's 1024 entries. -/
theorem val4_sumRow (src : FVec Ideal S256x1024 .f32) (h : S256x1024.Reduces [1] S256) (hφ : FKind.Formats .f32)
    (hacc : (0x00000000#32 : BitVec 32) = 0x00000000#32) (p : Fin 256) :
    multiReduction .add [1] S256 src 0x00000000#32 h hφ hacc (ix1 p) = ∑ k : Fin 1024, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-- A vector of 256 entries seen as a column: its entry at (p, 0) is the entry at p. -/
theorem val4_castCol {α : Type} (v : S256.Idx → α) (h : S256.ShapeCasts S256x1) (p : Fin 256) (u : Fin 1) :
    shapeCast S256x1 v h (ix2 p u) = v (ix1 p) :=
  shapeCast_apply v h _ _ (by
    have hu : u.val = 0 := by omega
    rw [Shape.rowMajor_val_two, Shape.rowMajor_val_one]
    show p.val = p.val * 1 + u.val
    omega)

/-- A column spread over the 1024 lanes: every lane of row p holds the column's entry at p. -/
theorem val4_bcastCol {α : Type} (v : S256x1.Idx → α) (h : S256x1.Broadcasts S256x1024) (p : Fin 256) (d : Fin 1024) :
    broadcastTo S256x1024 v h (ix2 p d) = v (ix2 p (0 : Fin 1)) := by
  refine broadcastTo_apply v h (ix2 p d) (ix2 p (0 : Fin 1)) fun ax => ?_
  match ax with
  | ⟨0, _⟩ => rfl
  | ⟨1, _⟩ => rfl

/-- The three transcendental operations act entry by entry. -/
theorem val4_rsqrt_apply {s : Shape} {φ : FTy} (a : FVec Ideal s φ) (i : s.Idx) : rsqrt a i = Ideal.rsqrt (a i) := rfl
theorem val4_exp_apply {s : Shape} {φ : FTy} (a : FVec Ideal s φ) (i : s.Idx) : exp a i = Ideal.exp (a i) := rfl
theorem val4_logistic_apply {s : Shape} {φ : FTy} (a : FVec Ideal s φ) (i : s.Idx) : logistic a i = Ideal.logistic (a i) := rfl

/-- The product of a block of 256 rows with the transpose of a 1024 × 1024 matrix, into a zero accumulator: entry
    (p, o) is the sum over the contracted coordinate k of row p at k times the matrix at (o, k). -/
theorem val4_matT (lhs : FVec Ideal S256x1024 .bf16) (rhs : FVec Ideal S1024x1024 .bf16) (p : Fin 256) (o : Fin 1024) :
    matmul dot_S256x1024_S1024x1024_S256x1024_1_1_0_0_n_n none lhs rhs (constant S256x1024 .f32 0x00000000#32) (ix2 p o)
      = ∑ k : Fin 1024, lhs (ix2 p k) * rhs (ix2 o k) := by
  show FloatOps.matmul dot_S256x1024_S1024x1024_S256x1024_1_1_0_0_n_n none lhs rhs (constant S256x1024 .f32 0x00000000#32) (ix2 p o) = _
  rw [Ideal.matmul_constant_zero_apply,
    ← Equiv.sum_comp (contrEquiv1 dot_S256x1024_S1024x1024_S256x1024_1_1_0_0_n_n 1024 rfl rfl).symm]
  refine Finset.sum_congr rfl fun k _ => ?_
  have ck := contrEquiv1_symm_val dot_S256x1024_S1024x1024_S256x1024_1_1_0_0_n_n 1024 rfl rfl k
  have hl : dot_S256x1024_S1024x1024_S256x1024_1_1_0_0_n_n.lhsIdx (ix2 p o)
      ((contrEquiv1 dot_S256x1024_S1024x1024_S256x1024_1_1_0_0_n_n 1024 rfl rfl).symm k) = ix2 p k := by
    funext ax; apply Fin.ext
    match ax with
    | ⟨0, _⟩ => simp [DotDims.lhsIdx, dot_S256x1024_S1024x1024_S256x1024_1_1_0_0_n_n]; rfl
    | ⟨1, _⟩ => simp [DotDims.lhsIdx, dot_S256x1024_S1024x1024_S256x1024_1_1_0_0_n_n]; exact ck
  have hr : dot_S256x1024_S1024x1024_S256x1024_1_1_0_0_n_n.rhsIdx (ix2 p o)
      ((contrEquiv1 dot_S256x1024_S1024x1024_S256x1024_1_1_0_0_n_n 1024 rfl rfl).symm k) = ix2 o k := by
    funext ax; apply Fin.ext
    match ax with
    | ⟨0, _⟩ => simp [DotDims.rhsIdx, dot_S256x1024_S1024x1024_S256x1024_1_1_0_0_n_n]; rfl
    | ⟨1, _⟩ => simp [DotDims.rhsIdx, dot_S256x1024_S1024x1024_S256x1024_1_1_0_0_n_n]; exact ck
  rw [hl, hr]

/-! ## The body's values at an entry -/

/-- The normalised row: entry (p, d) of the body's first value is the layer normalisation of row p, with the gain
    and bias rows, at channel d. The two lane sums are the row's mean and its variance about that mean. -/
theorem pay4_3_apply (x0 : Vec Ideal S256x1024 .f32) (x1 x2 : Vec Ideal S1x1024 .f32) (p : Fin 256) (d : Fin 1024) :
    k4_pay3 x0 x1 x2 (ix2 p d)
      = Cert.Spec.lnRow (fun k => x1 (ix2 (0 : Fin 1) k)) (fun k => x2 (ix2 (0 : Fin 1) k)) (fun k => x0 (ix2 p k)) d := by
  unfold k4_pay3 k4_pay2
  simp only [shapeCast_self, addf_apply, mulf_apply, subf_apply, divf_apply, val4_rsqrt_apply, broadcast_apply,
    broadcastTo_1b_ab_apply, val4_bcastCol, val4_castCol]
  rw [val4_sumRow, val4_sumRow]
  simp only [shapeCast_self, mulf_apply, subf_apply, divf_apply, broadcast_apply, val4_bcastCol, val4_castCol]
  rw [val4_sumRow]
  rfl

/-- Four of the body's values are parameter rows as loaded. -/
theorem pay4_2_eq (v : Vec Ideal S256x1024 .f32) : k4_pay2 v = v := by unfold k4_pay2; exact shapeCast_self _ _
theorem pay4_4_eq (v : Vec Ideal S1x1024 .f32) : k4_pay4 v = v := by unfold k4_pay4; exact shapeCast_self _ _
theorem pay4_5_eq (v : Vec Ideal S1x1024 .f32) : k4_pay5 v = v := by unfold k4_pay5; exact shapeCast_self _ _
theorem pay4_6_eq (v : Vec Ideal S1x1024 .f32) : k4_pay6 v = v := by unfold k4_pay6; exact shapeCast_self _ _
theorem pay4_7_eq (v : Vec Ideal S1x1024 .f32) : k4_pay7 v = v := by unfold k4_pay7; exact shapeCast_self _ _

/-- The row of ones. -/
theorem pay4_9_apply (u : Fin 1) (d : Fin 1024) : k4_pay9 (F := Ideal) (ix2 u d) = Cert.Spec.cone := rfl

/-- The normalised row times the key's mixing row. -/
theorem pay4_8_apply (x0 : Vec Ideal S256x1024 .f32) (x1 x2 x4 : Vec Ideal S1x1024 .f32) (p : Fin 256) (d : Fin 1024) :
    k4_pay8 x0 x1 x2 x4 (ix2 p d) = k4_pay3 x0 x1 x2 (ix2 p d) * x4 (ix2 (0 : Fin 1) d) := by
  unfold k4_pay8 k4_pay5
  simp only [shapeCast_self, mulf_apply, broadcastTo_1b_ab_apply]

/-- The receptance's projection: the row mixed with the carried state by the receptance's mixing row, times the
    transpose of its matrix. -/
theorem pay4_10_apply (v27 : FVec Ideal S256x1024 .f32) (v29 v35 : FVec Ideal S1x1024 .f32) (v66 : Vec Ideal S1024x1024 .bf16)
    (p : Fin 256) (o : Fin 1024) :
    k4_pay10 v27 v29 v35 v66 (ix2 p o)
      = ∑ k : Fin 1024, (v27 (ix2 p k) * v35 (ix2 (0 : Fin 1) k)
          + v29 (ix2 (0 : Fin 1) k) * (Cert.Spec.cone - v35 (ix2 (0 : Fin 1) k))) * v66 (ix2 o k) := by
  unfold k4_pay10
  simp only [shapeCast_self, val4_matT, truncf_apply, addf_apply, mulf_apply, subf_apply, broadcast_apply,
    broadcastTo_1b_ab_apply]
  rfl

/-- The exponential of the bonus row plus the key's projection. -/
theorem pay4_11_apply (v29 v31 : FVec Ideal S1x1024 .f32) (v37 : FVec Ideal S256x1024 .f32) (v38 : FVec Ideal S1x1024 .f32)
    (v58 : Vec Ideal S1024x1024 .bf16) (v69 : Vec Ideal S1x1024 .f32) (p : Fin 256) (o : Fin 1024) :
    k4_pay11 v29 v31 v37 v38 v58 v69 (ix2 p o)
      = Ideal.exp (v69 (ix2 (0 : Fin 1) o) + ∑ k : Fin 1024, (v37 (ix2 p k)
          + v29 (ix2 (0 : Fin 1) k) * (v38 (ix2 (0 : Fin 1) k) - v31 (ix2 (0 : Fin 1) k))) * v58 (ix2 o k)) := by
  unfold k4_pay11
  simp only [shapeCast_self, val4_matT, truncf_apply, addf_apply, mulf_apply, subf_apply, val4_exp_apply,
    broadcastTo_1b_ab_apply]

/-- The numerator: the carried numerator row plus that exponential times the value's projection. -/
theorem pay4_12_apply (v27 : FVec Ideal S256x1024 .f32) (v29 v31 v33 : FVec Ideal S1x1024 .f32) (v37 : FVec Ideal S256x1024 .f32)
    (v38 : FVec Ideal S1x1024 .f32) (v58 v62 : Vec Ideal S1024x1024 .bf16) (v69 v71 : Vec Ideal S1x1024 .f32)
    (p : Fin 256) (o : Fin 1024) :
    k4_pay12 v27 v29 v31 v33 v37 v38 v58 v62 v69 v71 (ix2 p o)
      = v71 (ix2 (0 : Fin 1) o) + k4_pay11 v29 v31 v37 v38 v58 v69 (ix2 p o)
          * ∑ k : Fin 1024, (v27 (ix2 p k) * v33 (ix2 (0 : Fin 1) k)
              + v29 (ix2 (0 : Fin 1) k) * (Cert.Spec.cone - v33 (ix2 (0 : Fin 1) k))) * v62 (ix2 o k) := by
  unfold k4_pay12
  simp only [shapeCast_self, val4_matT, truncf_apply, addf_apply, mulf_apply, subf_apply, broadcast_apply,
    broadcastTo_1b_ab_apply]
  rfl

/-- The carried denominator row, spread over the rows. -/
theorem pay4_13_apply (v73 : Vec Ideal S1x1024 .f32) (p : Fin 256) (o : Fin 1024) :
    k4_pay13 v73 (ix2 p o) = v73 (ix2 (0 : Fin 1) o) := by
  unfold k4_pay13
  simp only [shapeCast_self, broadcastTo_1b_ab_apply]

/-- The stored value: the row plus the output matrix's projection of the gated ratio. -/
theorem pay4_1_apply (v1 v68 v77 v80 v81 : FVec Ideal S256x1024 .f32) (v87 : Vec Ideal S1024x1024 .bf16)
    (p : Fin 256) (o : Fin 1024) :
    k4_pay1 v1 v68 v77 v80 v81 v87 (ix2 p o)
      = v1 (ix2 p o) + ∑ k : Fin 1024, (Ideal.logistic (v68 (ix2 p k))
          * Ideal.div (v80 (ix2 p k)) (v81 (ix2 p k) + v77 (ix2 p k))) * v87 (ix2 o k) := by
  unfold k4_pay1
  simp only [shapeCast_self, val4_matT, truncf_apply, addf_apply, mulf_apply, divf_apply, val4_logistic_apply]

/-! ## What the body leaves in the output block, at an entry -/

theorem hz4 : (![0, 0] : Fin 2 → Nat) = fun _ => 0 := funext fun a => by fin_cases a <;> rfl

/-- The layer's parameters as thirteen blocks hold them: nine rows and four matrices. -/
def attnP4_of (x1 x2 x3 x4 x5 x6 x7 x8 x9 : Vec Ideal S1x1024 .f32) (x10 x11 x12 x13 : Vec Ideal S1024x1024 .bf16) :
    Cert.Spec.AttnP where
  lnw := fun d => x1 (ix2 (0 : Fin 1) d)
  lnb := fun d => x2 (ix2 (0 : Fin 1) d)
  sx := fun d => x3 (ix2 (0 : Fin 1) d)
  mixk := fun d => x4 (ix2 (0 : Fin 1) d)
  mixv := fun d => x5 (ix2 (0 : Fin 1) d)
  mixr := fun d => x6 (ix2 (0 : Fin 1) d)
  tf := fun d => x7 (ix2 (0 : Fin 1) d)
  num := fun d => x8 (ix2 (0 : Fin 1) d)
  den := fun d => x9 (ix2 (0 : Fin 1) d)
  Wk := fun o d => x10 (ix2 o d)
  Wv := fun o d => x11 (ix2 o d)
  Wr := fun o d => x12 (ix2 o d)
  Wo := fun o d => x13 (ix2 o d)

/-- Equal blocks hold equal parameters. -/
theorem attnP4_congr {x1 x2 x3 x4 x5 x6 x7 x8 x9 y1 y2 y3 y4 y5 y6 y7 y8 y9 : Vec Ideal S1x1024 .f32}
    {x10 x11 x12 x13 y10 y11 y12 y13 : Vec Ideal S1024x1024 .bf16}
    (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) :
    attnP4_of x1 x2 x3 x4 x5 x6 x7 x8 x9 x10 x11 x12 x13 = attnP4_of y1 y2 y3 y4 y5 y6 y7 y8 y9 y10 y11 y12 y13 := by
  subst h1 h2 h3 h4 h5 h6 h7 h8 h9 h10 h11 h12 h13
  rfl

/-- Entry (p, o) of what the body stores is the time-mixing layer, with the parameters the thirteen parameter
    blocks hold, applied to row p of the activation block, at channel o. -/
theorem val4_out (x0 : Vec Ideal S256x1024 .f32) (x1 x2 x3 x4 x5 x6 x7 x8 x9 : Vec Ideal S1x1024 .f32)
    (x10 x11 x12 x13 : Vec Ideal S1024x1024 .bf16) (p : Fin 256) (o : Fin 1024) :
    out4_14 x0 x1 x2 x3 x4 x5 x6 x7 x8 x9 x10 x11 x12 x13 (ix2 p o)
      = Cert.Spec.attnRow (attnP4_of x1 x2 x3 x4 x5 x6 x7 x8 x9 x10 x11 x12 x13) (fun k => x0 (ix2 p k)) o := by
  unfold out4_14
  rw [View.canon_unit_zero hz4]
  simp only [View.ld_unit_zero (S := S256x1024) hz4, View.ld_unit_zero (S := S1x1024) hz4,
    View.ld_unit_zero (S := S1024x1024) hz4]
  rw [pay4_1_apply]
  simp only [pay4_10_apply, pay4_11_apply, pay4_12_apply, pay4_13_apply, pay4_8_apply, pay4_3_apply, pay4_2_eq, pay4_4_eq,
    pay4_5_eq, pay4_6_eq, pay4_7_eq, pay4_9_apply]
  rfl

/-! ## The blocks the windows show, read off their arrays -/

variable (V : (c : Dev nD) → (b : Ref sig .tc) → Buf (Elt Ideal) ((c : Thread nD τ).loc b))

/-- The index maps over the eight points: the activation window and the output window show the point's own block of
    256 rows; every parameter window shows its one block at every point. -/
theorem val4_idx_0 : ∀ t : Fin cfg4.N, win4_0.index t (0 : Fin 2) = t.val ∧ win4_0.index t (1 : Fin 2) = 0 :=
  (by decide +kernel : ∀ t : Fin grid4.N, _)
theorem val4_idx_14 : ∀ t : Fin cfg4.N, win4_14.index t (0 : Fin 2) = t.val ∧ win4_14.index t (1 : Fin 2) = 0 :=
  (by decide +kernel : ∀ t : Fin grid4.N, _)
theorem val4_idx_1 : ∀ t : Fin cfg4.N, win4_1.index t (0 : Fin 2) = 0 ∧ win4_1.index t (1 : Fin 2) = 0 :=
  (by decide +kernel : ∀ t : Fin grid4.N, _)
theorem val4_idx_2 : ∀ t : Fin cfg4.N, win4_2.index t (0 : Fin 2) = 0 ∧ win4_2.index t (1 : Fin 2) = 0 :=
  (by decide +kernel : ∀ t : Fin grid4.N, _)
theorem val4_idx_3 : ∀ t : Fin cfg4.N, win4_3.index t (0 : Fin 2) = 0 ∧ win4_3.index t (1 : Fin 2) = 0 :=
  (by decide +kernel : ∀ t : Fin grid4.N, _)
theorem val4_idx_4 : ∀ t : Fin cfg4.N, win4_4.index t (0 : Fin 2) = 0 ∧ win4_4.index t (1 : Fin 2) = 0 :=
  (by decide +kernel : ∀ t : Fin grid4.N, _)
theorem val4_idx_5 : ∀ t : Fin cfg4.N, win4_5.index t (0 : Fin 2) = 0 ∧ win4_5.index t (1 : Fin 2) = 0 :=
  (by decide +kernel : ∀ t : Fin grid4.N, _)
theorem val4_idx_6 : ∀ t : Fin cfg4.N, win4_6.index t (0 : Fin 2) = 0 ∧ win4_6.index t (1 : Fin 2) = 0 :=
  (by decide +kernel : ∀ t : Fin grid4.N, _)
theorem val4_idx_7 : ∀ t : Fin cfg4.N, win4_7.index t (0 : Fin 2) = 0 ∧ win4_7.index t (1 : Fin 2) = 0 :=
  (by decide +kernel : ∀ t : Fin grid4.N, _)
theorem val4_idx_8 : ∀ t : Fin cfg4.N, win4_8.index t (0 : Fin 2) = 0 ∧ win4_8.index t (1 : Fin 2) = 0 :=
  (by decide +kernel : ∀ t : Fin grid4.N, _)
theorem val4_idx_9 : ∀ t : Fin cfg4.N, win4_9.index t (0 : Fin 2) = 0 ∧ win4_9.index t (1 : Fin 2) = 0 :=
  (by decide +kernel : ∀ t : Fin grid4.N, _)
theorem val4_idx_10 : ∀ t : Fin cfg4.N, win4_10.index t (0 : Fin 2) = 0 ∧ win4_10.index t (1 : Fin 2) = 0 :=
  (by decide +kernel : ∀ t : Fin grid4.N, _)
theorem val4_idx_11 : ∀ t : Fin cfg4.N, win4_11.index t (0 : Fin 2) = 0 ∧ win4_11.index t (1 : Fin 2) = 0 :=
  (by decide +kernel : ∀ t : Fin grid4.N, _)
theorem val4_idx_12 : ∀ t : Fin cfg4.N, win4_12.index t (0 : Fin 2) = 0 ∧ win4_12.index t (1 : Fin 2) = 0 :=
  (by decide +kernel : ∀ t : Fin grid4.N, _)
theorem val4_idx_13 : ∀ t : Fin cfg4.N, win4_13.index t (0 : Fin 2) = 0 ∧ win4_13.index t (1 : Fin 2) = 0 :=
  (by decide +kernel : ∀ t : Fin grid4.N, _)

/-- The activation window's block at point t is rows 256·t … 256·t + 255 of its array. -/
theorem blk4_0 (c : Dev nD) (t : Fin cfg4.N) (p : Fin 256) (d : Fin 1024) (r : Fin 2048) (hr : r.val = t.val * 256 + p.val) :
    (iblk4 (F := Ideal) V c 0 t : S256x1024.Idx → EReal) (ix2 p d)
      = (V c (Pipeline.arrRef spec4 0) : S2048x1024.Idx → EReal) (ix2 r d) := by
  obtain ⟨e0, e1⟩ := val4_idx_0 t
  unfold iblk4
  rw [View.read_apply]
  show (V c (Pipeline.arrRef spec4 0) : S2048x1024.Idx → EReal) _ = _
  refine congrArg (V c (Pipeline.arrRef spec4 0) : S2048x1024.Idx → EReal) ?_
  funext a; apply Fin.ext
  match a with
  | ⟨0, _⟩ => show win4_0.index t (0 : Fin 2) * 256 + 1 * p.val = r.val; rw [e0, hr]; omega
  | ⟨1, _⟩ => show win4_0.index t (1 : Fin 2) * 1024 + 1 * d.val = d.val; rw [e1]; omega

/-- A parameter window's block is its whole array, at every point. -/
theorem blk4_1 (c : Dev nD) (t : Fin cfg4.N) :
    (iblk4 (F := Ideal) V c 1 t : S1x1024.Idx → EReal) = (V c (Pipeline.arrRef spec4 1) : S1x1024.Idx → EReal) := by
  obtain ⟨e0, e1⟩ := val4_idx_1 t
  funext y
  unfold iblk4
  rw [View.read_apply]
  show (V c (Pipeline.arrRef spec4 1) : S1x1024.Idx → EReal) _ = _
  refine congrArg (V c (Pipeline.arrRef spec4 1) : S1x1024.Idx → EReal) ?_
  funext a; apply Fin.ext
  match a with
  | ⟨0, _⟩ => show win4_1.index t (0 : Fin 2) * 1 + 1 * (y 0).val = (y 0).val; rw [e0]; omega
  | ⟨1, _⟩ => show win4_1.index t (1 : Fin 2) * 1024 + 1 * (y 1).val = (y 1).val; rw [e1]; omega
theorem blk4_2 (c : Dev nD) (t : Fin cfg4.N) :
    (iblk4 (F := Ideal) V c 2 t : S1x1024.Idx → EReal) = (V c (Pipeline.arrRef spec4 2) : S1x1024.Idx → EReal) := by
  obtain ⟨e0, e1⟩ := val4_idx_2 t
  funext y
  unfold iblk4
  rw [View.read_apply]
  show (V c (Pipeline.arrRef spec4 2) : S1x1024.Idx → EReal) _ = _
  refine congrArg (V c (Pipeline.arrRef spec4 2) : S1x1024.Idx → EReal) ?_
  funext a; apply Fin.ext
  match a with
  | ⟨0, _⟩ => show win4_2.index t (0 : Fin 2) * 1 + 1 * (y 0).val = (y 0).val; rw [e0]; omega
  | ⟨1, _⟩ => show win4_2.index t (1 : Fin 2) * 1024 + 1 * (y 1).val = (y 1).val; rw [e1]; omega
theorem blk4_3 (c : Dev nD) (t : Fin cfg4.N) :
    (iblk4 (F := Ideal) V c 3 t : S1x1024.Idx → EReal) = (V c (Pipeline.arrRef spec4 3) : S1x1024.Idx → EReal) := by
  obtain ⟨e0, e1⟩ := val4_idx_3 t
  funext y
  unfold iblk4
  rw [View.read_apply]
  show (V c (Pipeline.arrRef spec4 3) : S1x1024.Idx → EReal) _ = _
  refine congrArg (V c (Pipeline.arrRef spec4 3) : S1x1024.Idx → EReal) ?_
  funext a; apply Fin.ext
  match a with
  | ⟨0, _⟩ => show win4_3.index t (0 : Fin 2) * 1 + 1 * (y 0).val = (y 0).val; rw [e0]; omega
  | ⟨1, _⟩ => show win4_3.index t (1 : Fin 2) * 1024 + 1 * (y 1).val = (y 1).val; rw [e1]; omega
theorem blk4_4 (c : Dev nD) (t : Fin cfg4.N) :
    (iblk4 (F := Ideal) V c 4 t : S1x1024.Idx → EReal) = (V c (Pipeline.arrRef spec4 4) : S1x1024.Idx → EReal) := by
  obtain ⟨e0, e1⟩ := val4_idx_4 t
  funext y
  unfold iblk4
  rw [View.read_apply]
  show (V c (Pipeline.arrRef spec4 4) : S1x1024.Idx → EReal) _ = _
  refine congrArg (V c (Pipeline.arrRef spec4 4) : S1x1024.Idx → EReal) ?_
  funext a; apply Fin.ext
  match a with
  | ⟨0, _⟩ => show win4_4.index t (0 : Fin 2) * 1 + 1 * (y 0).val = (y 0).val; rw [e0]; omega
  | ⟨1, _⟩ => show win4_4.index t (1 : Fin 2) * 1024 + 1 * (y 1).val = (y 1).val; rw [e1]; omega
theorem blk4_5 (c : Dev nD) (t : Fin cfg4.N) :
    (iblk4 (F := Ideal) V c 5 t : S1x1024.Idx → EReal) = (V c (Pipeline.arrRef spec4 5) : S1x1024.Idx → EReal) := by
  obtain ⟨e0, e1⟩ := val4_idx_5 t
  funext y
  unfold iblk4
  rw [View.read_apply]
  show (V c (Pipeline.arrRef spec4 5) : S1x1024.Idx → EReal) _ = _
  refine congrArg (V c (Pipeline.arrRef spec4 5) : S1x1024.Idx → EReal) ?_
  funext a; apply Fin.ext
  match a with
  | ⟨0, _⟩ => show win4_5.index t (0 : Fin 2) * 1 + 1 * (y 0).val = (y 0).val; rw [e0]; omega
  | ⟨1, _⟩ => show win4_5.index t (1 : Fin 2) * 1024 + 1 * (y 1).val = (y 1).val; rw [e1]; omega
theorem blk4_6 (c : Dev nD) (t : Fin cfg4.N) :
    (iblk4 (F := Ideal) V c 6 t : S1x1024.Idx → EReal) = (V c (Pipeline.arrRef spec4 6) : S1x1024.Idx → EReal) := by
  obtain ⟨e0, e1⟩ := val4_idx_6 t
  funext y
  unfold iblk4
  rw [View.read_apply]
  show (V c (Pipeline.arrRef spec4 6) : S1x1024.Idx → EReal) _ = _
  refine congrArg (V c (Pipeline.arrRef spec4 6) : S1x1024.Idx → EReal) ?_
  funext a; apply Fin.ext
  match a with
  | ⟨0, _⟩ => show win4_6.index t (0 : Fin 2) * 1 + 1 * (y 0).val = (y 0).val; rw [e0]; omega
  | ⟨1, _⟩ => show win4_6.index t (1 : Fin 2) * 1024 + 1 * (y 1).val = (y 1).val; rw [e1]; omega
theorem blk4_7 (c : Dev nD) (t : Fin cfg4.N) :
    (iblk4 (F := Ideal) V c 7 t : S1x1024.Idx → EReal) = (V c (Pipeline.arrRef spec4 7) : S1x1024.Idx → EReal) := by
  obtain ⟨e0, e1⟩ := val4_idx_7 t
  funext y
  unfold iblk4
  rw [View.read_apply]
  show (V c (Pipeline.arrRef spec4 7) : S1x1024.Idx → EReal) _ = _
  refine congrArg (V c (Pipeline.arrRef spec4 7) : S1x1024.Idx → EReal) ?_
  funext a; apply Fin.ext
  match a with
  | ⟨0, _⟩ => show win4_7.index t (0 : Fin 2) * 1 + 1 * (y 0).val = (y 0).val; rw [e0]; omega
  | ⟨1, _⟩ => show win4_7.index t (1 : Fin 2) * 1024 + 1 * (y 1).val = (y 1).val; rw [e1]; omega
theorem blk4_8 (c : Dev nD) (t : Fin cfg4.N) :
    (iblk4 (F := Ideal) V c 8 t : S1x1024.Idx → EReal) = (V c (Pipeline.arrRef spec4 8) : S1x1024.Idx → EReal) := by
  obtain ⟨e0, e1⟩ := val4_idx_8 t
  funext y
  unfold iblk4
  rw [View.read_apply]
  show (V c (Pipeline.arrRef spec4 8) : S1x1024.Idx → EReal) _ = _
  refine congrArg (V c (Pipeline.arrRef spec4 8) : S1x1024.Idx → EReal) ?_
  funext a; apply Fin.ext
  match a with
  | ⟨0, _⟩ => show win4_8.index t (0 : Fin 2) * 1 + 1 * (y 0).val = (y 0).val; rw [e0]; omega
  | ⟨1, _⟩ => show win4_8.index t (1 : Fin 2) * 1024 + 1 * (y 1).val = (y 1).val; rw [e1]; omega
theorem blk4_9 (c : Dev nD) (t : Fin cfg4.N) :
    (iblk4 (F := Ideal) V c 9 t : S1x1024.Idx → EReal) = (V c (Pipeline.arrRef spec4 9) : S1x1024.Idx → EReal) := by
  obtain ⟨e0, e1⟩ := val4_idx_9 t
  funext y
  unfold iblk4
  rw [View.read_apply]
  show (V c (Pipeline.arrRef spec4 9) : S1x1024.Idx → EReal) _ = _
  refine congrArg (V c (Pipeline.arrRef spec4 9) : S1x1024.Idx → EReal) ?_
  funext a; apply Fin.ext
  match a with
  | ⟨0, _⟩ => show win4_9.index t (0 : Fin 2) * 1 + 1 * (y 0).val = (y 0).val; rw [e0]; omega
  | ⟨1, _⟩ => show win4_9.index t (1 : Fin 2) * 1024 + 1 * (y 1).val = (y 1).val; rw [e1]; omega
theorem blk4_10 (c : Dev nD) (t : Fin cfg4.N) :
    (iblk4 (F := Ideal) V c 10 t : S1024x1024.Idx → EReal) = (V c (Pipeline.arrRef spec4 10) : S1024x1024.Idx → EReal) := by
  obtain ⟨e0, e1⟩ := val4_idx_10 t
  funext y
  unfold iblk4
  rw [View.read_apply]
  show (V c (Pipeline.arrRef spec4 10) : S1024x1024.Idx → EReal) _ = _
  refine congrArg (V c (Pipeline.arrRef spec4 10) : S1024x1024.Idx → EReal) ?_
  funext a; apply Fin.ext
  match a with
  | ⟨0, _⟩ => show win4_10.index t (0 : Fin 2) * 1024 + 1 * (y 0).val = (y 0).val; rw [e0]; omega
  | ⟨1, _⟩ => show win4_10.index t (1 : Fin 2) * 1024 + 1 * (y 1).val = (y 1).val; rw [e1]; omega
theorem blk4_11 (c : Dev nD) (t : Fin cfg4.N) :
    (iblk4 (F := Ideal) V c 11 t : S1024x1024.Idx → EReal) = (V c (Pipeline.arrRef spec4 11) : S1024x1024.Idx → EReal) := by
  obtain ⟨e0, e1⟩ := val4_idx_11 t
  funext y
  unfold iblk4
  rw [View.read_apply]
  show (V c (Pipeline.arrRef spec4 11) : S1024x1024.Idx → EReal) _ = _
  refine congrArg (V c (Pipeline.arrRef spec4 11) : S1024x1024.Idx → EReal) ?_
  funext a; apply Fin.ext
  match a with
  | ⟨0, _⟩ => show win4_11.index t (0 : Fin 2) * 1024 + 1 * (y 0).val = (y 0).val; rw [e0]; omega
  | ⟨1, _⟩ => show win4_11.index t (1 : Fin 2) * 1024 + 1 * (y 1).val = (y 1).val; rw [e1]; omega
theorem blk4_12 (c : Dev nD) (t : Fin cfg4.N) :
    (iblk4 (F := Ideal) V c 12 t : S1024x1024.Idx → EReal) = (V c (Pipeline.arrRef spec4 12) : S1024x1024.Idx → EReal) := by
  obtain ⟨e0, e1⟩ := val4_idx_12 t
  funext y
  unfold iblk4
  rw [View.read_apply]
  show (V c (Pipeline.arrRef spec4 12) : S1024x1024.Idx → EReal) _ = _
  refine congrArg (V c (Pipeline.arrRef spec4 12) : S1024x1024.Idx → EReal) ?_
  funext a; apply Fin.ext
  match a with
  | ⟨0, _⟩ => show win4_12.index t (0 : Fin 2) * 1024 + 1 * (y 0).val = (y 0).val; rw [e0]; omega
  | ⟨1, _⟩ => show win4_12.index t (1 : Fin 2) * 1024 + 1 * (y 1).val = (y 1).val; rw [e1]; omega
theorem blk4_13 (c : Dev nD) (t : Fin cfg4.N) :
    (iblk4 (F := Ideal) V c 13 t : S1024x1024.Idx → EReal) = (V c (Pipeline.arrRef spec4 13) : S1024x1024.Idx → EReal) := by
  obtain ⟨e0, e1⟩ := val4_idx_13 t
  funext y
  unfold iblk4
  rw [View.read_apply]
  show (V c (Pipeline.arrRef spec4 13) : S1024x1024.Idx → EReal) _ = _
  refine congrArg (V c (Pipeline.arrRef spec4 13) : S1024x1024.Idx → EReal) ?_
  funext a; apply Fin.ext
  match a with
  | ⟨0, _⟩ => show win4_13.index t (0 : Fin 2) * 1024 + 1 * (y 0).val = (y 0).val; rw [e0]; omega
  | ⟨1, _⟩ => show win4_13.index t (1 : Fin 2) * 1024 + 1 * (y 1).val = (y 1).val; rw [e1]; omega

/-! ## The result array -/

/-- The layer's parameters, read off the region's thirteen parameter arrays. -/
def attnP4 (c : Dev nD) : Cert.Spec.AttnP :=
  attnP4_of (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13))

/-- Row r of the region's activation array. -/
def xrow4 (c : Dev nD) (r : Fin 2048) : Cert.Spec.Row :=
  fun d => (V c (Pipeline.arrRef spec4 0) : S2048x1024.Idx → EReal) (ix2 r d)

/-- The whole result as one function of the region's arrays: row r is the layer applied to row r of the activations. -/
def arr4_G (c : Dev nD) : S2048x1024.Idx → EReal :=
  fun i => Cert.Spec.attnRow (attnP4 V c) (xrow4 V c (i 0)) (i 1)

/-- At every point the thirteen parameter blocks hold the layer's parameters. -/
theorem row4_P (c : Dev nD) (t : Fin cfg4.N) :
    attnP4_of (iblk4 (F := Ideal) V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) = attnP4 V c :=
  attnP4_congr (blk4_1 V c t) (blk4_2 V c t) (blk4_3 V c t) (blk4_4 V c t) (blk4_5 V c t) (blk4_6 V c t) (blk4_7 V c t) (blk4_8 V c t) (blk4_9 V c t) (blk4_10 V c t) (blk4_11 V c t) (blk4_12 V c t) (blk4_13 V c t)

/-- Row p of the activation block at point t is row 256·t + p of the activation array. -/
theorem row4_x (c : Dev nD) (t : Fin cfg4.N) (p : Fin 256) (r : Fin 2048) (hr : r.val = t.val * 256 + p.val) :
    (fun k => (iblk4 (F := Ideal) V c 0 t : S256x1024.Idx → EReal) (ix2 p k)) = xrow4 V c r :=
  funext fun k => blk4_0 V c t p k r hr

/-- What point t writes back is its block of 256 rows of the whole result: the stored entry (p, o) is the layer on
    row p of the activation block, which is row 256·t + p of the array, and the block lands on those same rows. -/
theorem flushed4_eq (c : Dev nD) (t : Fin cfg4.N) :
    (dat4 (F := Ideal) V c).flushed 14 t = ((cfg4.win 14).blk t).view.read (Elt Ideal) (arr4_G V c) := by
  obtain ⟨e0, e1⟩ := val4_idx_14 t
  have hN : cfg4.N = 8 := N_4
  have ht : t.val < 8 := hN ▸ t.isLt
  show (cfg4.win 14).cut (grid4.coords t) ((dat4 (F := Ideal) V c).after 14 t) = _
  rw [after4_14]
  funext j
  have hj0 : (j 0).val < 256 := (j 0).isLt
  have hj1 : (j 1).val < 1024 := (j 1).isLt
  obtain ⟨p, hp⟩ : ∃ p : Fin 256, p.val = (j 0).val := ⟨⟨(j 0).val, hj0⟩, rfl⟩
  obtain ⟨o, ho⟩ : ∃ o : Fin 1024, o.val = (j 1).val := ⟨⟨(j 1).val, hj1⟩, rfl⟩
  obtain ⟨r, hr⟩ : ∃ r : Fin 2048, r.val = t.val * 256 + p.val := ⟨⟨t.val * 256 + p.val, by omega⟩, rfl⟩
  have hy : ((cfg4.win 14).xinj (grid4.coords t) j : S256x1024.Idx) = ix2 p o := by
    funext a; apply Fin.ext
    match a with
    | ⟨0, _⟩ => exact hp.symm
    | ⟨1, _⟩ => exact ho.symm
  have hemb : (((cfg4.win 14).blk t).view.emb j : S2048x1024.Idx) = ix2 r o := by
    funext a; apply Fin.ext
    match a with
    | ⟨0, _⟩ => show win4_14.index t (0 : Fin 2) * 256 + 1 * (j 0).val = r.val; rw [e0, hr, hp]; omega
    | ⟨1, _⟩ => show win4_14.index t (1 : Fin 2) * 1024 + 1 * (j 1).val = o.val; rw [e1, ho]; omega
  rw [View.read_apply]
  show out4_14 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) ((cfg4.win 14).xinj (grid4.coords t) j)
    = arr4_G V c (((cfg4.win 14).blk t).view.emb j)
  rw [hy, hemb]
  refine (val4_out (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) p o).trans ?_
  show Cert.Spec.attnRow (attnP4_of (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t)) (fun k => (iblk4 V c 0 t : S256x1024.Idx → EReal) (ix2 p k)) o
    = Cert.Spec.attnRow (attnP4 V c) (xrow4 V c r) o
  exact congrArg₂ (fun P x => Cert.Spec.attnRow P x o) (row4_P V c t) (row4_x V c t p r hr)

/-- Every entry of the result array is in the block some point writes back: row r is in the block of point r / 256. -/
theorem val4_cover (i : S2048x1024.Idx) :
    ∃ t : Fin cfg4.N, (cfg4.win 14).flush t = true ∧ i ∈ ((cfg4.win 14).blk t).view.set := by
  have h0 : (i 0).val < 2048 := (i 0).isLt
  have h1 : (i 1).val < 1024 := (i 1).isLt
  have hN : cfg4.N = 8 := N_4
  obtain ⟨t, ht⟩ : ∃ t : Fin cfg4.N, t.val = (i 0).val / 256 := ⟨⟨(i 0).val / 256, by rw [hN]; omega⟩, rfl⟩
  obtain ⟨e0, e1⟩ := val4_idx_14 t
  refine ⟨t, flush4_14 t, ?_⟩
  show i ∈ ((View.whole (Pipeline.arrRef spec4 14)).slice (win4_14.rect t)).set
  rw [View.set_slice_whole, Rect.mem_set_unit]
  intro a
  match a with
  | ⟨0, _⟩ =>
    show win4_14.index t (0 : Fin 2) * 256 ≤ (i 0).val ∧ (i 0).val < win4_14.index t (0 : Fin 2) * 256 + 256
    rw [e0, ht]; omega
  | ⟨1, _⟩ =>
    show win4_14.index t (1 : Fin 2) * 1024 ≤ (i 1).val ∧ (i 1).val < win4_14.index t (1 : Fin 2) * 1024 + 1024
    rw [e1]; omega

/-- After the region the result array holds, row by row, the time-mixing layer of the activation array's rows. -/
theorem arr4_eq (c : Dev nD) : (dat4 (F := Ideal) V c).arrAt 14 cfg4.N = arr4_G V c :=
  (dat4 (F := Ideal) V c).arrAt_eq_of_cover 14 (arr4_G V c) (fun t _ => flushed4_eq V c t) val4_cover

/-- Entry (r, o) of the result array is the layer, with the region's parameters, on row r of the activations, at o. -/
theorem final4 (c : Dev nD) (r : Fin 2048) (o : Fin 1024) :
    ((dat4 (F := Ideal) V c).arrAt 14 cfg4.N : S2048x1024.Idx → EReal) (ix2 r o)
      = Cert.Spec.attnRow (attnP4 V c) (xrow4 V c r) o :=
  congrFun (arr4_eq V c) (ix2 r o)

end Cert.KernelIdeal.Val

end
-- ==== Proof.ValFfn5.lean ====
/- The value of region 1 (the feed-forward call) at the ideal reals: the array the region writes holds, row by row, the
   channel-mixing layer of the specification applied to that row of the state the region is entered with, the layer's
   parameters read off the region's other arrays. First the body's payloads at an index (layer normalisation, the two
   mixes, a block product as a sum over its contraction, one chunk's step of the accumulator); then one tile's value:
   the four chunks' steps over zero regroup to the one sum over the 4096 hidden units; then the windows' blocks as parts
   of their arrays, what a tile's last point writes back, the cover of the array by those blocks, and the result. -/
import proofs.«415492_j738734375128_3_alg».proof.Proof.Region5
import proofs.«415492_j738734375128_3_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin

noncomputable section

namespace Cert.KernelIdeal.Val

open Cert.KernelIdeal Cert.KernelIdeal.Gen
open Idealize.ShloMosaic Idealize.ShloMosaic.ValueIdx

/-! Everything but the three results lives in a namespace of this region's own. -/
namespace Ffn5

/-! ## Layout operations at an index: the column forms -/

/-- An `[a]` array cast to `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` (more than one row) reads, at `(p, c)`, the column at `p`. -/
theorem broadcastTo_a1_ab_apply {α : Type} {a b : ℕ} (ha : a ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-! ## The block product at an index -/

/-- The left operand's row is the output's row, -/
theorem lhs_dot_0 (j : S256x1024.Idx) (k : dot_S256x1024_S1024x1024_S256x1024_1_1_0_0_n_n.contr.Idx) :
    ((dot_S256x1024_S1024x1024_S256x1024_1_1_0_0_n_n.lhsIdx j k) 0).val = (j 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl
/-- its column the contraction position; -/
theorem lhs_dot_1 (j : S256x1024.Idx) (k : dot_S256x1024_S1024x1024_S256x1024_1_1_0_0_n_n.contr.Idx) :
    ((dot_S256x1024_S1024x1024_S256x1024_1_1_0_0_n_n.lhsIdx j k) 1).val = (k ⟨0, by decide⟩).val :=
  dot_S256x1024_S1024x1024_S256x1024_1_1_0_0_n_n.lhsIdx_val_of_single (cl := 1) rfl j k
/-- the right operand's row is the output's column, -/
theorem rhs_dot_0 (j : S256x1024.Idx) (k : dot_S256x1024_S1024x1024_S256x1024_1_1_0_0_n_n.contr.Idx) :
    ((dot_S256x1024_S1024x1024_S256x1024_1_1_0_0_n_n.rhsIdx j k) 0).val = (j 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl
/-- its column the contraction position. -/
theorem rhs_dot_1 (j : S256x1024.Idx) (k : dot_S256x1024_S1024x1024_S256x1024_1_1_0_0_n_n.contr.Idx) :
    ((dot_S256x1024_S1024x1024_S256x1024_1_1_0_0_n_n.rhsIdx j k) 1).val = (k ⟨0, by decide⟩).val :=
  dot_S256x1024_S1024x1024_S256x1024_1_1_0_0_n_n.rhsIdx_val_of_single (cr := 1) rfl j k

/-- A block product into the zero accumulator, at row `p` and output `o`: the sum over the 1024 contraction positions
    of the left operand's row times the right operand's ROW `o` (the right operand is contracted along its columns). -/
theorem matmul_k5_apply (lhs : FVec Ideal S256x1024 .bf16) (rhs : FVec Ideal S1024x1024 .bf16) (p : Fin 256) (o : Fin 1024) :
    matmul dot_S256x1024_S1024x1024_S256x1024_1_1_0_0_n_n none lhs rhs (constant (F := Ideal) S256x1024 .f32 0x00000000#32) (ix2 p o)
      = ∑ k : Fin 1024, lhs (ix2 p k) * rhs (ix2 o k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have hl : dot_S256x1024_S1024x1024_S256x1024_1_1_0_0_n_n.lhsIdx (ix2 p o) ((contrEquiv1 dot_S256x1024_S1024x1024_S256x1024_1_1_0_0_n_n 1024 rfl rfl).symm k) = ix2 p k := by
    funext a; apply Fin.ext
    match a with
    | ⟨0, _⟩ => exact lhs_dot_0 _ _
    | ⟨1, _⟩ => exact (lhs_dot_1 _ _).trans hk
  have hr : dot_S256x1024_S1024x1024_S256x1024_1_1_0_0_n_n.rhsIdx (ix2 p o) ((contrEquiv1 dot_S256x1024_S1024x1024_S256x1024_1_1_0_0_n_n 1024 rfl rfl).symm k) = ix2 o k := by
    funext a; apply Fin.ext
    match a with
    | ⟨0, _⟩ => exact rhs_dot_0 _ _
    | ⟨1, _⟩ => exact (rhs_dot_1 _ _).trans hk
  rw [hl, hr]

/-! ## The payloads at an index -/

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-- A lane sum kept as a column: at `(q, u)` the sum of row `q`. -/
theorem rowSum_apply (y : FVec Ideal S256x1024 .f32) (hφ : FKind.Formats .f32)
    (hacc : (0x00000000#32 : BitVec 32) = FKind.add.neutral .f32 hφ) (q : Fin 256) (u : Fin 1) :
    shapeCast S256x1 (multiReduction (F := Ideal) .add [1] S256 y 0x00000000#32 reduces_S256x1024_S256 hφ hacc) shapeCasts_S256_S256x1 (ix2 q u)
      = ∑ e : Fin 1024, y (ix2 q e) :=
  (shapeCast_a_a1_apply _ _ q u).trans
    ((Ideal.multiReduction_add_single y 0x00000000#32 reduces_S256x1024_S256 hφ hacc (ix1 q)).trans
      (Finset.sum_congr rfl fun e _ => congrArg y (funext fun a => by match a with | ⟨0, _⟩ => rfl | ⟨1, _⟩ => rfl)))

/-- The column of row means of a tile: each row's lane sum divided by the row length. -/
def meanCol (y : FVec Ideal S256x1024 .f32) : FVec Ideal S256x1 .f32 :=
  divf (shapeCast S256x1 (multiReduction (F := Ideal) .add [1] S256 y 0x00000000#32 reduces_S256x1024_S256 (.inl rfl) rfl) shapeCasts_S256_S256x1)
    (broadcast S256x1 (Scalar.ofBits .f32 0x44800000#32))

theorem meanCol_apply (y : FVec Ideal S256x1024 .f32) (q : Fin 256) (u : Fin 1) :
    meanCol y (ix2 q u) = Ideal.div (∑ e : Fin 1024, y (ix2 q e)) Cert.Spec.c1024 :=
  congrArg (fun s => Ideal.div s Cert.Spec.c1024) (rowSum_apply y (.inl rfl) rfl q u)

/-- The normalised tile as the body computes it: centre each row on its mean, scale by the reciprocal root of the mean
    squared deviation plus the small constant, then gain and bias. -/
theorem k5_pay6_eq (xt : FVec Ideal S256x1024 .f32) (w b : FVec Ideal S1x1024 .f32) :
    k5_pay6 (F := Ideal) xt w b
      = addf (mulf (mulf (subf xt (broadcastTo S256x1024 (meanCol xt) broadcasts_S256x1_S256x1024))
            (broadcastTo S256x1024 (rsqrt (addf
              (meanCol (mulf (subf xt (broadcastTo S256x1024 (meanCol xt) broadcasts_S256x1_S256x1024))
                (subf xt (broadcastTo S256x1024 (meanCol xt) broadcasts_S256x1_S256x1024))))
              (broadcast S256x1 (Scalar.ofBits .f32 0x3727C5AC#32)))) broadcasts_S256x1_S256x1024))
          (broadcastTo S256x1024 w broadcasts_S1x1024_S256x1024))
        (broadcastTo S256x1024 b broadcasts_S1x1024_S256x1024) := by
  unfold k5_pay6 k5_pay5 meanCol
  simp only [shapeCast_self]

/-- The normalised row tile: row `p` of the block, layer-normalised with the gain and bias rows. -/
theorem k5_pay6_apply (xt : FVec Ideal S256x1024 .f32) (w b : FVec Ideal S1x1024 .f32) (p : Fin 256) (d : Fin 1024) :
    k5_pay6 (F := Ideal) xt w b (ix2 p d)
      = Cert.Spec.lnRow (fun e => w (ix2 (0 : Fin 1) e)) (fun e => b (ix2 (0 : Fin 1) e)) (fun e => xt (ix2 p e)) d := by
  rw [k5_pay6_eq]
  simp only [addf_apply, mulf_apply, subf_apply, rsqrt_apply, broadcast_apply,
    broadcastTo_1b_ab_apply, broadcastTo_a1_ab_apply (show (256 : ℕ) ≠ 1 by decide), meanCol_apply]
  rfl

/-- The key's operand at one point: the normalised tile mixed with the carried row by the key's mixing row. -/
theorem keyMix_apply (xt : FVec Ideal S256x1024 .f32) (w b sx mk : FVec Ideal S1x1024 .f32) (p : Fin 256) (d : Fin 1024) :
    k5_pay10 (F := Ideal) xt w b mk (ix2 p d) + k5_pay11 (F := Ideal) sx mk (ix2 p d)
      = Cert.Spec.mixRow (Cert.Spec.lnRow (fun e => w (ix2 (0 : Fin 1) e)) (fun e => b (ix2 (0 : Fin 1) e)) (fun e => xt (ix2 p e)))
          (fun e => sx (ix2 (0 : Fin 1) e)) (fun e => mk (ix2 (0 : Fin 1) e)) d := by
  unfold k5_pay10 k5_pay11 k5_pay7 k5_pay8
  simp only [shapeCast_self, mulf_apply, subf_apply, broadcast_apply, broadcastTo_1b_ab_apply, k5_pay6_apply]
  rfl

/-- One chunk's step of the accumulator, at row `p` and output `o`: the accumulator there plus, over the chunk's 1024
    hidden units, the squared rectified key (the key's operand projected by the chunk's rows of the key matrix) times
    the chunk's entries of the value matrix's row `o`. -/
theorem k5_pay3_apply (kl kr : FVec Ideal S256x1024 .f32) (wk : FVec Ideal S1024x1024 .bf16) (acc : FVec Ideal S256x1024 .f32)
    (wv : FVec Ideal S1024x1024 .bf16) (p : Fin 256) (o : Fin 1024) :
    k5_pay3 (F := Ideal) kl kr wk acc wv (ix2 p o)
      = acc (ix2 p o) + ∑ f : Fin 1024,
          (max (∑ d : Fin 1024, (kl (ix2 p d) + kr (ix2 p d)) * wk (ix2 f d)) Cert.Spec.czero
            * max (∑ d : Fin 1024, (kl (ix2 p d) + kr (ix2 p d)) * wk (ix2 f d)) Cert.Spec.czero) * wv (ix2 o f) := by
  unfold k5_pay3
  simp only [shapeCast_self, addf_apply, mulf_apply, maximumf_apply, truncf_apply, broadcast_apply, matmul_k5_apply]
  rfl

/-- The second scratch buffer's contents, at row `p` and output `o`: the receptance's operand projected by the
    receptance matrix. -/
theorem k5_pay1_apply (h : FVec Ideal S256x1024 .f32) (sx mr : FVec Ideal S1x1024 .f32) (wr : FVec Ideal S1024x1024 .bf16)
    (p : Fin 256) (o : Fin 1024) :
    k5_pay1 (F := Ideal) h sx mr wr (ix2 p o)
      = ∑ d : Fin 1024, (h (ix2 p d) * mr (ix2 (0 : Fin 1) d) + sx (ix2 (0 : Fin 1) d) * (Cert.Spec.cone - mr (ix2 (0 : Fin 1) d))) * wr (ix2 o d) := by
  unfold k5_pay1
  simp only [shapeCast_self, addf_apply, mulf_apply, subf_apply, truncf_apply, broadcast_apply, broadcastTo_1b_ab_apply, matmul_k5_apply]
  rfl

/-- The stored output, at row `p` and output `o`. -/
theorem k5_pay4_apply (xs r acc : FVec Ideal S256x1024 .f32) (p : Fin 256) (o : Fin 1024) :
    k5_pay4 (F := Ideal) xs r acc (ix2 p o) = xs (ix2 p o) + Ideal.logistic (r (ix2 p o)) * acc (ix2 p o) := by
  unfold k5_pay4
  simp only [addf_apply, mulf_apply, logistic_apply]

/-- The fresh accumulator is zero everywhere. -/
theorem k5_pay2_apply (i : S256x1024.Idx) : (k5_pay2 (F := Ideal)) i = 0 := by
  unfold k5_pay2
  simp only [shapeCast_self, broadcast_apply]
  exact Ideal.ofBits_zero_f32

/-! ## One tile's value -/

/-- Position `f` of chunk `q` among the 4096 hidden units. -/
def chunkIdx (q : Fin 4) (f : Fin 1024) : Fin 4096 := ⟨1024 * q.val + f.val, by have := q.isLt; have := f.isLt; omega⟩

/-- A sum over the 4096 hidden units is the sum over the four chunks of each chunk's sum. -/
theorem sum_chunks {M : Type} [AddCommMonoid M] (g : Fin 4096 → M) :
    ∑ f' : Fin 4096, g f' = ∑ q : Fin 4, ∑ f : Fin 1024, g (chunkIdx q f) := by
  have h := Equiv.sum_comp (finProdFinEquiv (m := 4) (n := 1024)) (fun i : Fin (4 * 1024) => g i)
  rw [Fintype.sum_prod_type] at h
  exact h.symm.trans (Finset.sum_congr rfl fun q _ => Finset.sum_congr rfl fun f _ => congrArg g (Fin.ext (by
    show f.val + 1024 * q.val = 1024 * q.val + f.val; omega)))

/-- The key's operand at a point whose blocks are the layer's rows and the row `x` of the state. -/
theorem keyMixP_apply (P : Cert.Spec.FfnP) (x : Cert.Spec.Row) (xt : FVec Ideal S256x1024 .f32) (w b sx mk : FVec Ideal S1x1024 .f32) (p : Fin 256)
    (hx : ∀ e, xt (ix2 p e) = x e) (hw : ∀ e, w (ix2 (0 : Fin 1) e) = P.lnw e) (hb : ∀ e, b (ix2 (0 : Fin 1) e) = P.lnb e)
    (hsx : ∀ e, sx (ix2 (0 : Fin 1) e) = P.sx e) (hmk : ∀ e, mk (ix2 (0 : Fin 1) e) = P.mixk e) (d : Fin 1024) :
    k5_pay10 (F := Ideal) xt w b mk (ix2 p d) + k5_pay11 (F := Ideal) sx mk (ix2 p d)
      = Cert.Spec.mixRow (Cert.Spec.lnRow P.lnw P.lnb x) P.sx P.mixk d := by
  have ea : (fun e => w (ix2 (0 : Fin 1) e)) = P.lnw := funext hw
  have eb : (fun e => b (ix2 (0 : Fin 1) e)) = P.lnb := funext hb
  have ec : (fun e => xt (ix2 p e)) = x := funext hx
  have ed : (fun e => sx (ix2 (0 : Fin 1) e)) = P.sx := funext hsx
  have ee : (fun e => mk (ix2 (0 : Fin 1) e)) = P.mixk := funext hmk
  rw [keyMix_apply, ea, eb, ec, ed, ee]

/-- The second scratch buffer at such a point: the receptance before its logistic. -/
theorem recept_apply (P : Cert.Spec.FfnP) (x : Cert.Spec.Row) (xt : FVec Ideal S256x1024 .f32) (w b sx mr : FVec Ideal S1x1024 .f32)
    (wr : FVec Ideal S1024x1024 .bf16) (p : Fin 256) (o : Fin 1024)
    (hx : ∀ e, xt (ix2 p e) = x e) (hw : ∀ e, w (ix2 (0 : Fin 1) e) = P.lnw e) (hb : ∀ e, b (ix2 (0 : Fin 1) e) = P.lnb e)
    (hsx : ∀ e, sx (ix2 (0 : Fin 1) e) = P.sx e) (hmr : ∀ e, mr (ix2 (0 : Fin 1) e) = P.mixr e) (hr : ∀ d, wr (ix2 o d) = P.Wr o d) :
    k5_pay1 (F := Ideal) (k5_pay6 xt w b) (k5_pay7 sx) (k5_pay9 mr) wr (ix2 p o)
      = Cert.Spec.proj P.Wr (Cert.Spec.mixRow (Cert.Spec.lnRow P.lnw P.lnb x) P.sx P.mixr) o := by
  have ea : (fun e => w (ix2 (0 : Fin 1) e)) = P.lnw := funext hw
  have eb : (fun e => b (ix2 (0 : Fin 1) e)) = P.lnb := funext hb
  have ec : (fun e => xt (ix2 p e)) = x := funext hx
  rw [k5_pay1_apply]
  unfold k5_pay7 k5_pay9
  simp only [shapeCast_self, k5_pay6_apply, hsx, hmr, hr]
  rw [ea, eb, ec]
  rfl

/-- A TILE'S OUTPUT. The four chunks' steps of the accumulator over zero, the second scratch buffer and the final store,
    at row `p` and output `o`, are the channel-mixing layer on the row: the four chunk sums are one sum over the 4096
    hidden units. Each chunk's key operands are its own point's (they read the same rows at every point of the tile). -/
theorem ffnTile_apply (P : Cert.Spec.FfnP) (x : Cert.Spec.Row) (p : Fin 256) (o : Fin 1024)
    (xs R : FVec Ideal S256x1024 .f32) (kla kra klb krb klc krc kld krd : FVec Ideal S256x1024 .f32)
    (wka wkb wkc wkd wva wvb wvc wvd : FVec Ideal S1024x1024 .bf16)
    (hxs : xs (ix2 p o) = x o)
    (hR : R (ix2 p o) = Cert.Spec.proj P.Wr (Cert.Spec.mixRow (Cert.Spec.lnRow P.lnw P.lnb x) P.sx P.mixr) o)
    (hKa : ∀ d, kla (ix2 p d) + kra (ix2 p d) = Cert.Spec.mixRow (Cert.Spec.lnRow P.lnw P.lnb x) P.sx P.mixk d) (hKb : ∀ d, klb (ix2 p d) + krb (ix2 p d) = Cert.Spec.mixRow (Cert.Spec.lnRow P.lnw P.lnb x) P.sx P.mixk d) (hKc : ∀ d, klc (ix2 p d) + krc (ix2 p d) = Cert.Spec.mixRow (Cert.Spec.lnRow P.lnw P.lnb x) P.sx P.mixk d) (hKd : ∀ d, kld (ix2 p d) + krd (ix2 p d) = Cert.Spec.mixRow (Cert.Spec.lnRow P.lnw P.lnb x) P.sx P.mixk d)
    (hka : ∀ f d, wka (ix2 f d) = P.Wk (chunkIdx 0 f) d) (hkb : ∀ f d, wkb (ix2 f d) = P.Wk (chunkIdx 1 f) d) (hkc : ∀ f d, wkc (ix2 f d) = P.Wk (chunkIdx 2 f) d) (hkd : ∀ f d, wkd (ix2 f d) = P.Wk (chunkIdx 3 f) d)
    (hva : ∀ f, wva (ix2 o f) = P.Wv o (chunkIdx 0 f)) (hvb : ∀ f, wvb (ix2 o f) = P.Wv o (chunkIdx 1 f)) (hvc : ∀ f, wvc (ix2 o f) = P.Wv o (chunkIdx 2 f)) (hvd : ∀ f, wvd (ix2 o f) = P.Wv o (chunkIdx 3 f)) :
    k5_pay4 (F := Ideal) xs R (k5_pay3 kld krd wkd (k5_pay3 klc krc wkc (k5_pay3 klb krb wkb (k5_pay3 kla kra wka (k5_pay2 (F := Ideal)) wva) wvb) wvc) wvd) (ix2 p o)
      = Cert.Spec.ffnRow P x o := by
  rw [k5_pay4_apply, k5_pay3_apply, k5_pay3_apply, k5_pay3_apply, k5_pay3_apply, k5_pay2_apply, zero_add, hxs, hR]
  simp only [hKa, hKb, hKc, hKd, hka, hkb, hkc, hkd, hva, hvb, hvc, hvd]
  unfold Cert.Spec.ffnRow
  rw [show Cert.Spec.proj P.Wv (Cert.Spec.ffnKey P x) o = _ from sum_chunks _, Fin.sum_univ_four]
  rfl

end Ffn5

open Ffn5

/-! # The value of region 1: the output array, row by row -/

open Cert.KernelIdeal.Hand
open Idealize.ShloMosaic.TcCoe Idealize.SL.Sem
open Idealize.ShloMosaic.Pipeline (Dat)

variable (V : (c : Dev nD) → (b : Ref sig .tc) → Buf (Elt Ideal) ((c : Thread nD τ).loc b))

/-- Row `r` of the state the region is entered with (window 0's array). -/
def xrow5 (c : Dev nD) (r : Fin 2048) : Cert.Spec.Row := fun d => V c (Pipeline.arrRef spec5 0) (ix2 r d)

/-- The layer's parameters, read off the arrays of windows 1 to 8. -/
def ffnP5 (c : Dev nD) : Cert.Spec.FfnP where
  lnw d := V c (Pipeline.arrRef spec5 1) (ix2 (0 : Fin 1) d)
  lnb d := V c (Pipeline.arrRef spec5 2) (ix2 (0 : Fin 1) d)
  sx d := V c (Pipeline.arrRef spec5 3) (ix2 (0 : Fin 1) d)
  mixk d := V c (Pipeline.arrRef spec5 4) (ix2 (0 : Fin 1) d)
  mixr d := V c (Pipeline.arrRef spec5 5) (ix2 (0 : Fin 1) d)
  Wk f d := V c (Pipeline.arrRef spec5 6) (ix2 f d)
  Wr o d := V c (Pipeline.arrRef spec5 7) (ix2 o d)
  Wv o f := V c (Pipeline.arrRef spec5 8) (ix2 o f)

namespace Ffn5

/-! ## The windows' blocks, read off the arrays -/

/-- The printed index maps, decided over the grid: window 0 and the output follow the row tile, windows 6 and 8 the
    chunk (on the key matrix's rows and the value matrix's columns), the others do not move. -/
theorem idx5_0 : ∀ t : Fin cfg5.N, win5_0.index t (0 : Fin 2) = t.val / 4 ∧ win5_0.index t (1 : Fin 2) = 0 :=
  (by decide +kernel : ∀ t : Fin grid5.N, _)
theorem idx5_1 : ∀ t : Fin cfg5.N, win5_1.index t (0 : Fin 2) = 0 ∧ win5_1.index t (1 : Fin 2) = 0 :=
  (by decide +kernel : ∀ t : Fin grid5.N, _)
theorem idx5_2 : ∀ t : Fin cfg5.N, win5_2.index t (0 : Fin 2) = 0 ∧ win5_2.index t (1 : Fin 2) = 0 :=
  (by decide +kernel : ∀ t : Fin grid5.N, _)
theorem idx5_3 : ∀ t : Fin cfg5.N, win5_3.index t (0 : Fin 2) = 0 ∧ win5_3.index t (1 : Fin 2) = 0 :=
  (by decide +kernel : ∀ t : Fin grid5.N, _)
theorem idx5_4 : ∀ t : Fin cfg5.N, win5_4.index t (0 : Fin 2) = 0 ∧ win5_4.index t (1 : Fin 2) = 0 :=
  (by decide +kernel : ∀ t : Fin grid5.N, _)
theorem idx5_5 : ∀ t : Fin cfg5.N, win5_5.index t (0 : Fin 2) = 0 ∧ win5_5.index t (1 : Fin 2) = 0 :=
  (by decide +kernel : ∀ t : Fin grid5.N, _)
theorem idx5_7 : ∀ t : Fin cfg5.N, win5_7.index t (0 : Fin 2) = 0 ∧ win5_7.index t (1 : Fin 2) = 0 :=
  (by decide +kernel : ∀ t : Fin grid5.N, _)
theorem idx5_6 : ∀ t : Fin cfg5.N, win5_6.index t (0 : Fin 2) = t.val % 4 ∧ win5_6.index t (1 : Fin 2) = 0 :=
  (by decide +kernel : ∀ t : Fin grid5.N, _)
theorem idx5_8 : ∀ t : Fin cfg5.N, win5_8.index t (0 : Fin 2) = 0 ∧ win5_8.index t (1 : Fin 2) = t.val % 4 :=
  (by decide +kernel : ∀ t : Fin grid5.N, _)
theorem idx5_9 : ∀ t : Fin cfg5.N, win5_9.index t (0 : Fin 2) = t.val / 4 ∧ win5_9.index t (1 : Fin 2) = 0 :=
  (by decide +kernel : ∀ t : Fin grid5.N, _)

/-- Window 0's block at point `t` is rows `256 (t / 4) …` of the state. -/
theorem blk5_0 (c : Dev nD) (t : Fin cfg5.N) (p : Fin 256) (d : Fin 1024) (r : Fin 2048) (hr : r.val = 256 * (t.val / 4) + p.val) :
    (iblk5 V c 0 t : Vec Ideal S256x1024 .f32) (ix2 p d) = xrow5 V c r d := by
  obtain ⟨e0, e1⟩ := idx5_0 t
  unfold iblk5 xrow5
  rw [View.read_apply]
  refine congrArg (V c (Pipeline.arrRef spec5 0)) (funext fun a => Fin.ext ?_)
  match a with
  | ⟨0, _⟩ => show win5_0.index t (0 : Fin 2) * 256 + 1 * p.val = r.val; rw [e0]; omega
  | ⟨1, _⟩ => show win5_0.index t (1 : Fin 2) * 1024 + 1 * d.val = d.val; rw [e1]; omega

/-- Window 1's block is its one-row array, at every point. -/
theorem blk5_1 (c : Dev nD) (t : Fin cfg5.N) (d : Fin 1024) :
    (iblk5 V c 1 t : Vec Ideal S1x1024 .f32) (ix2 (0 : Fin 1) d) = (ffnP5 V c).lnw d := by
  obtain ⟨e0, e1⟩ := idx5_1 t
  unfold iblk5
  rw [View.read_apply]
  refine congrArg (V c (Pipeline.arrRef spec5 1)) (funext fun a => Fin.ext ?_)
  match a with
  | ⟨0, _⟩ => show win5_1.index t (0 : Fin 2) * 1 + 1 * 0 = 0; rw [e0]
  | ⟨1, _⟩ => show win5_1.index t (1 : Fin 2) * 1024 + 1 * d.val = d.val; rw [e1]; omega

/-- Window 2's block is its one-row array, at every point. -/
theorem blk5_2 (c : Dev nD) (t : Fin cfg5.N) (d : Fin 1024) :
    (iblk5 V c 2 t : Vec Ideal S1x1024 .f32) (ix2 (0 : Fin 1) d) = (ffnP5 V c).lnb d := by
  obtain ⟨e0, e1⟩ := idx5_2 t
  unfold iblk5
  rw [View.read_apply]
  refine congrArg (V c (Pipeline.arrRef spec5 2)) (funext fun a => Fin.ext ?_)
  match a with
  | ⟨0, _⟩ => show win5_2.index t (0 : Fin 2) * 1 + 1 * 0 = 0; rw [e0]
  | ⟨1, _⟩ => show win5_2.index t (1 : Fin 2) * 1024 + 1 * d.val = d.val; rw [e1]; omega

/-- Window 3's block is its one-row array, at every point. -/
theorem blk5_3 (c : Dev nD) (t : Fin cfg5.N) (d : Fin 1024) :
    (iblk5 V c 3 t : Vec Ideal S1x1024 .f32) (ix2 (0 : Fin 1) d) = (ffnP5 V c).sx d := by
  obtain ⟨e0, e1⟩ := idx5_3 t
  unfold iblk5
  rw [View.read_apply]
  refine congrArg (V c (Pipeline.arrRef spec5 3)) (funext fun a => Fin.ext ?_)
  match a with
  | ⟨0, _⟩ => show win5_3.index t (0 : Fin 2) * 1 + 1 * 0 = 0; rw [e0]
  | ⟨1, _⟩ => show win5_3.index t (1 : Fin 2) * 1024 + 1 * d.val = d.val; rw [e1]; omega

/-- Window 4's block is its one-row array, at every point. -/
theorem blk5_4 (c : Dev nD) (t : Fin cfg5.N) (d : Fin 1024) :
    (iblk5 V c 4 t : Vec Ideal S1x1024 .f32) (ix2 (0 : Fin 1) d) = (ffnP5 V c).mixk d := by
  obtain ⟨e0, e1⟩ := idx5_4 t
  unfold iblk5
  rw [View.read_apply]
  refine congrArg (V c (Pipeline.arrRef spec5 4)) (funext fun a => Fin.ext ?_)
  match a with
  | ⟨0, _⟩ => show win5_4.index t (0 : Fin 2) * 1 + 1 * 0 = 0; rw [e0]
  | ⟨1, _⟩ => show win5_4.index t (1 : Fin 2) * 1024 + 1 * d.val = d.val; rw [e1]; omega

/-- Window 5's block is its one-row array, at every point. -/
theorem blk5_5 (c : Dev nD) (t : Fin cfg5.N) (d : Fin 1024) :
    (iblk5 V c 5 t : Vec Ideal S1x1024 .f32) (ix2 (0 : Fin 1) d) = (ffnP5 V c).mixr d := by
  obtain ⟨e0, e1⟩ := idx5_5 t
  unfold iblk5
  rw [View.read_apply]
  refine congrArg (V c (Pipeline.arrRef spec5 5)) (funext fun a => Fin.ext ?_)
  match a with
  | ⟨0, _⟩ => show win5_5.index t (0 : Fin 2) * 1 + 1 * 0 = 0; rw [e0]
  | ⟨1, _⟩ => show win5_5.index t (1 : Fin 2) * 1024 + 1 * d.val = d.val; rw [e1]; omega

/-- Window 6's block at point `t` is rows `1024 (t % 4) …` of the key matrix. -/
theorem blk5_6 (c : Dev nD) (t : Fin cfg5.N) (f d : Fin 1024) (g : Fin 4096) (hg : g.val = 1024 * (t.val % 4) + f.val) :
    (iblk5 V c 6 t : Vec Ideal S1024x1024 .bf16) (ix2 f d) = (ffnP5 V c).Wk g d := by
  obtain ⟨e0, e1⟩ := idx5_6 t
  unfold iblk5
  rw [View.read_apply]
  refine congrArg (V c (Pipeline.arrRef spec5 6)) (funext fun a => Fin.ext ?_)
  match a with
  | ⟨0, _⟩ => show win5_6.index t (0 : Fin 2) * 1024 + 1 * f.val = g.val; rw [e0]; omega
  | ⟨1, _⟩ => show win5_6.index t (1 : Fin 2) * 1024 + 1 * d.val = d.val; rw [e1]; omega

/-- Window 7's block is the whole receptance matrix. -/
theorem blk5_7 (c : Dev nD) (t : Fin cfg5.N) (o d : Fin 1024) :
    (iblk5 V c 7 t : Vec Ideal S1024x1024 .bf16) (ix2 o d) = (ffnP5 V c).Wr o d := by
  obtain ⟨e0, e1⟩ := idx5_7 t
  unfold iblk5
  rw [View.read_apply]
  refine congrArg (V c (Pipeline.arrRef spec5 7)) (funext fun a => Fin.ext ?_)
  match a with
  | ⟨0, _⟩ => show win5_7.index t (0 : Fin 2) * 1024 + 1 * o.val = o.val; rw [e0]; omega
  | ⟨1, _⟩ => show win5_7.index t (1 : Fin 2) * 1024 + 1 * d.val = d.val; rw [e1]; omega

/-- Window 8's block at point `t` is columns `1024 (t % 4) …` of the value matrix. -/
theorem blk5_8 (c : Dev nD) (t : Fin cfg5.N) (o f : Fin 1024) (g : Fin 4096) (hg : g.val = 1024 * (t.val % 4) + f.val) :
    (iblk5 V c 8 t : Vec Ideal S1024x1024 .bf16) (ix2 o f) = (ffnP5 V c).Wv o g := by
  obtain ⟨e0, e1⟩ := idx5_8 t
  unfold iblk5
  rw [View.read_apply]
  refine congrArg (V c (Pipeline.arrRef spec5 8)) (funext fun a => Fin.ext ?_)
  match a with
  | ⟨0, _⟩ => show win5_8.index t (0 : Fin 2) * 1024 + 1 * o.val = o.val; rw [e0]; omega
  | ⟨1, _⟩ => show win5_8.index t (1 : Fin 2) * 1024 + 1 * f.val = g.val; rw [e1]; omega

/-! ## A tile's four points -/

/-- Point `q` of tile `T`. -/
def pt5 (T : Fin 8) (q : Fin 4) : Fin cfg5.N :=
  ⟨4 * T.val + q.val, lt_of_lt_of_eq (by have := T.isLt; have := q.isLt; omega : 4 * T.val + q.val < 32) N_5.symm⟩

/-- The scratch buffers after a tile's last point: the accumulator has gone through the four chunks' steps over zero,
    the second buffer is as the tile's first point filled it. -/
theorem sc5_tile (c : Dev nD) (T : Fin 8) :
    sc5 V c ((pt5 T 3).val + 1)
      = (k5_pay3 (k5_pay10 (iblk5 V c 0 (pt5 T 3)) (iblk5 V c 1 (pt5 T 3)) (iblk5 V c 2 (pt5 T 3)) (iblk5 V c 4 (pt5 T 3))) (k5_pay11 (iblk5 V c 3 (pt5 T 3)) (iblk5 V c 4 (pt5 T 3))) (iblk5 V c 6 (pt5 T 3))
          (k5_pay3 (k5_pay10 (iblk5 V c 0 (pt5 T 2)) (iblk5 V c 1 (pt5 T 2)) (iblk5 V c 2 (pt5 T 2)) (iblk5 V c 4 (pt5 T 2))) (k5_pay11 (iblk5 V c 3 (pt5 T 2)) (iblk5 V c 4 (pt5 T 2))) (iblk5 V c 6 (pt5 T 2))
            (k5_pay3 (k5_pay10 (iblk5 V c 0 (pt5 T 1)) (iblk5 V c 1 (pt5 T 1)) (iblk5 V c 2 (pt5 T 1)) (iblk5 V c 4 (pt5 T 1))) (k5_pay11 (iblk5 V c 3 (pt5 T 1)) (iblk5 V c 4 (pt5 T 1))) (iblk5 V c 6 (pt5 T 1))
              (k5_pay3 (k5_pay10 (iblk5 V c 0 (pt5 T 0)) (iblk5 V c 1 (pt5 T 0)) (iblk5 V c 2 (pt5 T 0)) (iblk5 V c 4 (pt5 T 0))) (k5_pay11 (iblk5 V c 3 (pt5 T 0)) (iblk5 V c 4 (pt5 T 0))) (iblk5 V c 6 (pt5 T 0))
                (k5_pay2 (F := Ideal)) (iblk5 V c 8 (pt5 T 0))) (iblk5 V c 8 (pt5 T 1))) (iblk5 V c 8 (pt5 T 2))) (iblk5 V c 8 (pt5 T 3)),
        k5_pay1 (k5_pay6 (iblk5 V c 0 (pt5 T 0)) (iblk5 V c 1 (pt5 T 0)) (iblk5 V c 2 (pt5 T 0))) (k5_pay7 (iblk5 V c 3 (pt5 T 0))) (k5_pay9 (iblk5 V c 5 (pt5 T 0))) (iblk5 V c 7 (pt5 T 0))) := by
  have ha := sc5_zero_chunk V c (pt5 T 0) (by show (4 * T.val + 0) % 4 = 0; omega)
  have hb := sc5_succ V c (pt5 T 1) (by show ¬(4 * T.val + 1) % 4 = 0; omega)
  have hc := sc5_succ V c (pt5 T 2) (by show ¬(4 * T.val + 2) % 4 = 0; omega)
  have hd := sc5_succ V c (pt5 T 3) (by show ¬(4 * T.val + 3) % 4 = 0; omega)
  rw [show sc5 V c (pt5 T 1).val = sc5 V c ((pt5 T 0).val + 1) from rfl, ha] at hb
  rw [show sc5 V c (pt5 T 2).val = sc5 V c ((pt5 T 1).val + 1) from rfl, hb] at hc
  rw [show sc5 V c (pt5 T 3).val = sc5 V c ((pt5 T 2).val + 1) from rfl, hc] at hd
  exact hd

/-- WHAT A TILE'S LAST POINT STORES, at row `p` of the tile and output `o`: the layer on row `256 T + p` of the state. -/
theorem out_tile5 (c : Dev nD) (T : Fin 8) (p : Fin 256) (o : Fin 1024) (r : Fin 2048) (o' : Fin 1024)
    (hr : r.val = 256 * T.val + p.val) (ho : o'.val = o.val) :
    out5_9 V c (pt5 T 3) (ix2 p o) = Cert.Spec.ffnRow (ffnP5 V c) (xrow5 V c r) o' := by
  obtain rfl : o = o' := (Fin.ext ho).symm
  unfold out5_9
  rw [sc5_tile V c T]
  refine ffnTile_apply (ffnP5 V c) (xrow5 V c r) p o _ _ _ _ _ _ _ _ _ _ _ _ _ _ _ _ _ _ ?_ ?_ ?_ ?_ ?_ ?_ ?_ ?_ ?_ ?_ ?_ ?_ ?_ ?_
  · unfold k5_pay5; rw [shapeCast_self]
    exact blk5_0 V c (pt5 T 3) p o r (by show r.val = 256 * ((4 * T.val + 3) / 4) + p.val; omega)
  · exact recept_apply (ffnP5 V c) (xrow5 V c r) _ _ _ _ _ _ p o (fun e => blk5_0 V c (pt5 T 0) p e r (by show r.val = 256 * ((4 * T.val + 0) / 4) + p.val; omega)) (fun e => blk5_1 V c (pt5 T 0) e) (fun e => blk5_2 V c (pt5 T 0) e) (fun e => blk5_3 V c (pt5 T 0) e) (fun e => blk5_5 V c (pt5 T 0) e)
      (fun d => blk5_7 V c (pt5 T 0) o d)
  · exact keyMixP_apply (ffnP5 V c) (xrow5 V c r) _ _ _ _ _ p (fun e => blk5_0 V c (pt5 T 0) p e r (by show r.val = 256 * ((4 * T.val + 0) / 4) + p.val; omega)) (fun e => blk5_1 V c (pt5 T 0) e) (fun e => blk5_2 V c (pt5 T 0) e) (fun e => blk5_3 V c (pt5 T 0) e) (fun e => blk5_4 V c (pt5 T 0) e)
  · exact keyMixP_apply (ffnP5 V c) (xrow5 V c r) _ _ _ _ _ p (fun e => blk5_0 V c (pt5 T 1) p e r (by show r.val = 256 * ((4 * T.val + 1) / 4) + p.val; omega)) (fun e => blk5_1 V c (pt5 T 1) e) (fun e => blk5_2 V c (pt5 T 1) e) (fun e => blk5_3 V c (pt5 T 1) e) (fun e => blk5_4 V c (pt5 T 1) e)
  · exact keyMixP_apply (ffnP5 V c) (xrow5 V c r) _ _ _ _ _ p (fun e => blk5_0 V c (pt5 T 2) p e r (by show r.val = 256 * ((4 * T.val + 2) / 4) + p.val; omega)) (fun e => blk5_1 V c (pt5 T 2) e) (fun e => blk5_2 V c (pt5 T 2) e) (fun e => blk5_3 V c (pt5 T 2) e) (fun e => blk5_4 V c (pt5 T 2) e)
  · exact keyMixP_apply (ffnP5 V c) (xrow5 V c r) _ _ _ _ _ p (fun e => blk5_0 V c (pt5 T 3) p e r (by show r.val = 256 * ((4 * T.val + 3) / 4) + p.val; omega)) (fun e => blk5_1 V c (pt5 T 3) e) (fun e => blk5_2 V c (pt5 T 3) e) (fun e => blk5_3 V c (pt5 T 3) e) (fun e => blk5_4 V c (pt5 T 3) e)
  · exact fun f d => blk5_6 V c (pt5 T 0) f d (chunkIdx 0 f) (by show 1024 * 0 + f.val = 1024 * ((4 * T.val + 0) % 4) + f.val; omega)
  · exact fun f d => blk5_6 V c (pt5 T 1) f d (chunkIdx 1 f) (by show 1024 * 1 + f.val = 1024 * ((4 * T.val + 1) % 4) + f.val; omega)
  · exact fun f d => blk5_6 V c (pt5 T 2) f d (chunkIdx 2 f) (by show 1024 * 2 + f.val = 1024 * ((4 * T.val + 2) % 4) + f.val; omega)
  · exact fun f d => blk5_6 V c (pt5 T 3) f d (chunkIdx 3 f) (by show 1024 * 3 + f.val = 1024 * ((4 * T.val + 3) % 4) + f.val; omega)
  · exact fun f => blk5_8 V c (pt5 T 0) o f (chunkIdx 0 f) (by show 1024 * 0 + f.val = 1024 * ((4 * T.val + 0) % 4) + f.val; omega)
  · exact fun f => blk5_8 V c (pt5 T 1) o f (chunkIdx 1 f) (by show 1024 * 1 + f.val = 1024 * ((4 * T.val + 1) % 4) + f.val; omega)
  · exact fun f => blk5_8 V c (pt5 T 2) o f (chunkIdx 2 f) (by show 1024 * 2 + f.val = 1024 * ((4 * T.val + 2) % 4) + f.val; omega)
  · exact fun f => blk5_8 V c (pt5 T 3) o f (chunkIdx 3 f) (by show 1024 * 3 + f.val = 1024 * ((4 * T.val + 3) % 4) + f.val; omega)

/-! ## The output array -/

/-- What the output array ends holding: at `(r, o)` the layer on row `r` of the state, at channel `o`. -/
def G5 (c : Dev nD) : S2048x1024.Idx → EReal := fun i =>
  Cert.Spec.ffnRow (ffnP5 V c) (xrow5 V c ⟨(i 0).val, idx2_lt0 i⟩) ⟨(i 1).val, idx2_lt1 i⟩

/-- What a tile's last point writes back is its block of `G5`. -/
theorem flushed5_9 (c : Dev nD) (T : Fin 8) :
    (dat5 (F := Ideal) V c).flushed 9 (pt5 T 3) = ((cfg5.win 9).blk (pt5 T 3)).view.read (Elt Ideal) (G5 V c) := by
  show (cfg5.win 9).cut (grid5.coords (pt5 T 3)) ((dat5 (F := Ideal) V c).after 9 (pt5 T 3)) = _
  rw [after5_9_all]
  obtain ⟨e0, e1⟩ := idx5_9 (pt5 T 3)
  funext j
  rw [View.read_apply]
  have hj : j = ix2 (⟨(j 0).val, (j 0).isLt⟩ : Fin 256) (⟨(j 1).val, (j 1).isLt⟩ : Fin 1024) :=
    funext fun a => by match a with | ⟨0, _⟩ => rfl | ⟨1, _⟩ => rfl
  have ha : ((((cfg5.win 9).blk (pt5 T 3)).view.emb j) 0).val = 256 * T.val + (j 0).val := by
    show win5_9.index (pt5 T 3) (0 : Fin 2) * 256 + 1 * (j 0).val = _
    rw [e0]; show (4 * T.val + 3) / 4 * 256 + 1 * (j 0).val = _; omega
  have hb : ((((cfg5.win 9).blk (pt5 T 3)).view.emb j) 1).val = (j 1).val := by
    show win5_9.index (pt5 T 3) (1 : Fin 2) * 1024 + 1 * (j 1).val = _
    rw [e1]; omega
  exact (congrArg (out5_9 V c (pt5 T 3)) hj).trans (out_tile5 V c T _ _ _ _ ha hb)

/-- The same at any point that writes back: it is some tile's last. -/
theorem flushedAt5_9 (c : Dev nD) (t : Fin cfg5.N) (T : Fin 8) (ht : t = pt5 T 3) :
    (dat5 (F := Ideal) V c).flushed 9 t = ((cfg5.win 9).blk t).view.read (Elt Ideal) (G5 V c) := by
  subst ht; exact flushed5_9 V c T

/-- An index of the array is in point `t`'s block iff each coordinate is in the block's range on its axis. -/
theorem mem_blk5_9 (t : Fin cfg5.N) (i : S2048x1024.Idx) :
    i ∈ ((cfg5.win 9).blk t).view.set ↔ ∀ a : Fin 2, win5_9.index t a * S256x1024.size a ≤ (i a).val ∧ (i a).val < win5_9.index t a * S256x1024.size a + S256x1024.size a := by
  show i ∈ ((View.whole main_v226).slice (win5_9.rect t)).set ↔ _
  rw [View.set_slice_whole, Rect.mem_set_unit]
  exact Iff.rfl

/-- Every row of the array is in the block of its tile's last point. -/
theorem cover5_9 (i : S2048x1024.Idx) : ∃ t : Fin cfg5.N, (cfg5.win 9).flush t = true ∧ i ∈ ((cfg5.win 9).blk t).view.set := by
  have hi : (i 0).val < 2048 := idx2_lt0 i
  have hk : (i 1).val < 1024 := idx2_lt1 i
  refine ⟨pt5 ⟨(i 0).val / 256, by omega⟩ 3, (flush5_9 _).mpr (by show (4 * ((i 0).val / 256) + 3) % 4 = 3; omega), ?_⟩
  rw [mem_blk5_9]
  obtain ⟨e0, e1⟩ := idx5_9 (pt5 ⟨(i 0).val / 256, by omega⟩ 3)
  intro a
  match a with
  | ⟨0, _⟩ =>
    show win5_9.index _ (0 : Fin 2) * 256 ≤ (i 0).val ∧ (i 0).val < win5_9.index _ (0 : Fin 2) * 256 + 256
    rw [e0]
    show (4 * ((i 0).val / 256) + 3) / 4 * 256 ≤ (i 0).val ∧ (i 0).val < (4 * ((i 0).val / 256) + 3) / 4 * 256 + 256
    omega
  | ⟨1, _⟩ =>
    show win5_9.index _ (1 : Fin 2) * 1024 ≤ (i 1).val ∧ (i 1).val < win5_9.index _ (1 : Fin 2) * 1024 + 1024
    rw [e1]; omega

end Ffn5

/-- THE OUTPUT ARRAY after the region, at row `r` and channel `o`: the channel-mixing layer on row `r` of the state. -/
theorem final5 (c : Dev nD) (r : Fin 2048) (o : Fin 1024) :
    (dat5 (F := Ideal) V c).arrAt 9 cfg5.N (ix2 r o) = Cert.Spec.ffnRow (ffnP5 V c) (xrow5 V c r) o := by
  have h := (dat5 (F := Ideal) V c).arrAt_eq_of_cover 9 (G5 V c) (fun t ht => by
      have hq : t.val % 4 = 3 := (flush5_9 t).mp ht
      have hN : t.val < 32 := lt_of_lt_of_eq t.isLt N_5
      exact flushedAt5_9 V c t ⟨t.val / 4, by omega⟩ (Fin.ext (by show t.val = 4 * (t.val / 4) + 3; omega))) cover5_9
  rw [h]
  rfl

end Cert.KernelIdeal.Val

end
-- ==== Proof.HostKL2.lean ====
/-
  Layer 2's parameters as the two host stretches before its launches leave them.

  The stretch before a time-mixing launch slices row 2 of each stacked vector argument and matrix 2 of each stacked
  matrix argument, reshapes the row to 1×1024 and the matrix to 1024×1024 (re-typed to bf16, the identity on the
  extended reals); the stretch before a channel-mixing launch does the same for its five vectors and three matrices.
  Read at an index, each parameter window's array is therefore the argument's entry at layer 2: window by window
  first, then bundled as the parameter record the specification takes, which is `(argsK W).attn 2`, resp.
  `(argsK W).ffn 2`, whatever contents `W` the stretch starts from.
-/
import proofs.«415492_j738734375128_3_alg».proof.Proof.HostK

set_option maxRecDepth 16384

noncomputable section

namespace Cert.KernelIdeal.Val

open Cert.KernelIdeal Cert.KernelIdeal.Gen
open Idealize.ShloMosaic Idealize.ShloMosaic.TcCoe Idealize.ShloMosaic.ValueIdx

variable (W : Valuation τ sig (Elt Ideal))

/-! ## Layer 2's time-mixing parameters (the second half of the stretch before the time-mixing launch) -/

theorem host4_w1 (d : Fin 1024) :
    (StableHlo.after (hostOps4 (F := Ideal)) W (Proc.devRef .tc main_v192) : S1x1024.Idx → EReal) (ix2 0 d) = ((argsK W).attn 2).lnw d := by
  have e : (StableHlo.after (hostOps4 (F := Ideal)) W (Proc.devRef .tc main_v192) : S1x1024.Idx → EReal)
      = shapeCast S1x1024 (shapeCast S1024 (extractStridedSlice S1x1024 ![2, 0] (W (Proc.devRef .tc main_arg4) : S4x1024.Idx → EReal) slices_S4x1024_S1x1024_2_0) shapeCasts_S1x1024_S1024) shapeCasts_S1024_S1x1024 := by
    dsimp only [hostOps4]; after_results; rfl
  rw [e]; exact rowSlice_apply _ 2 _ _ _ d

theorem host4_w2 (d : Fin 1024) :
    (StableHlo.after (hostOps4 (F := Ideal)) W (Proc.devRef .tc main_v193) : S1x1024.Idx → EReal) (ix2 0 d) = ((argsK W).attn 2).lnb d := by
  have e : (StableHlo.after (hostOps4 (F := Ideal)) W (Proc.devRef .tc main_v193) : S1x1024.Idx → EReal)
      = shapeCast S1x1024 (shapeCast S1024 (extractStridedSlice S1x1024 ![2, 0] (W (Proc.devRef .tc main_arg5) : S4x1024.Idx → EReal) slices_S4x1024_S1x1024_2_0) shapeCasts_S1x1024_S1024) shapeCasts_S1024_S1x1024 := by
    dsimp only [hostOps4]; after_results; rfl
  rw [e]; exact rowSlice_apply _ 2 _ _ _ d

theorem host4_w3 (d : Fin 1024) :
    (StableHlo.after (hostOps4 (F := Ideal)) W (Proc.devRef .tc main_v194) : S1x1024.Idx → EReal) (ix2 0 d) = ((argsK W).attn 2).sx d := by
  have e : (StableHlo.after (hostOps4 (F := Ideal)) W (Proc.devRef .tc main_v194) : S1x1024.Idx → EReal)
      = shapeCast S1x1024 (shapeCast S1024 (extractStridedSlice S1x1024 ![2, 0] (W (Proc.devRef .tc main_arg25) : S4x1024.Idx → EReal) slices_S4x1024_S1x1024_2_0) shapeCasts_S1x1024_S1024) shapeCasts_S1024_S1x1024 := by
    dsimp only [hostOps4]; after_results; rfl
  rw [e]; exact rowSlice_apply _ 2 _ _ _ d

theorem host4_w4 (d : Fin 1024) :
    (StableHlo.after (hostOps4 (F := Ideal)) W (Proc.devRef .tc main_v195) : S1x1024.Idx → EReal) (ix2 0 d) = ((argsK W).attn 2).mixk d := by
  have e : (StableHlo.after (hostOps4 (F := Ideal)) W (Proc.devRef .tc main_v195) : S1x1024.Idx → EReal)
      = shapeCast S1x1024 (shapeCast S1024 (extractStridedSlice S1x1024 ![2, 0] (W (Proc.devRef .tc main_arg10) : S4x1024.Idx → EReal) slices_S4x1024_S1x1024_2_0) shapeCasts_S1x1024_S1024) shapeCasts_S1024_S1x1024 := by
    dsimp only [hostOps4]; after_results; rfl
  rw [e]; exact rowSlice_apply _ 2 _ _ _ d

theorem host4_w5 (d : Fin 1024) :
    (StableHlo.after (hostOps4 (F := Ideal)) W (Proc.devRef .tc main_v196) : S1x1024.Idx → EReal) (ix2 0 d) = ((argsK W).attn 2).mixv d := by
  have e : (StableHlo.after (hostOps4 (F := Ideal)) W (Proc.devRef .tc main_v196) : S1x1024.Idx → EReal)
      = shapeCast S1x1024 (shapeCast S1024 (extractStridedSlice S1x1024 ![2, 0] (W (Proc.devRef .tc main_arg11) : S4x1024.Idx → EReal) slices_S4x1024_S1x1024_2_0) shapeCasts_S1x1024_S1024) shapeCasts_S1024_S1x1024 := by
    dsimp only [hostOps4]; after_results; rfl
  rw [e]; exact rowSlice_apply _ 2 _ _ _ d

theorem host4_w6 (d : Fin 1024) :
    (StableHlo.after (hostOps4 (F := Ideal)) W (Proc.devRef .tc main_v197) : S1x1024.Idx → EReal) (ix2 0 d) = ((argsK W).attn 2).mixr d := by
  have e : (StableHlo.after (hostOps4 (F := Ideal)) W (Proc.devRef .tc main_v197) : S1x1024.Idx → EReal)
      = shapeCast S1x1024 (shapeCast S1024 (extractStridedSlice S1x1024 ![2, 0] (W (Proc.devRef .tc main_arg12) : S4x1024.Idx → EReal) slices_S4x1024_S1x1024_2_0) shapeCasts_S1x1024_S1024) shapeCasts_S1024_S1x1024 := by
    dsimp only [hostOps4]; after_results; rfl
  rw [e]; exact rowSlice_apply _ 2 _ _ _ d

theorem host4_w7 (d : Fin 1024) :
    (StableHlo.after (hostOps4 (F := Ideal)) W (Proc.devRef .tc main_v198) : S1x1024.Idx → EReal) (ix2 0 d) = ((argsK W).attn 2).tf d := by
  have e : (StableHlo.after (hostOps4 (F := Ideal)) W (Proc.devRef .tc main_v198) : S1x1024.Idx → EReal)
      = shapeCast S1x1024 (shapeCast S1024 (extractStridedSlice S1x1024 ![2, 0] (W (Proc.devRef .tc main_arg9) : S4x1024.Idx → EReal) slices_S4x1024_S1x1024_2_0) shapeCasts_S1x1024_S1024) shapeCasts_S1024_S1x1024 := by
    dsimp only [hostOps4]; after_results; rfl
  rw [e]; exact rowSlice_apply _ 2 _ _ _ d

theorem host4_w8 (d : Fin 1024) :
    (StableHlo.after (hostOps4 (F := Ideal)) W (Proc.devRef .tc main_v199) : S1x1024.Idx → EReal) (ix2 0 d) = ((argsK W).attn 2).num d := by
  have e : (StableHlo.after (hostOps4 (F := Ideal)) W (Proc.devRef .tc main_v199) : S1x1024.Idx → EReal)
      = shapeCast S1x1024 (shapeCast S1024 (extractStridedSlice S1x1024 ![2, 0] (W (Proc.devRef .tc main_arg26) : S4x1024.Idx → EReal) slices_S4x1024_S1x1024_2_0) shapeCasts_S1x1024_S1024) shapeCasts_S1024_S1x1024 := by
    dsimp only [hostOps4]; after_results; rfl
  rw [e]; exact rowSlice_apply _ 2 _ _ _ d

theorem host4_w9 (d : Fin 1024) :
    (StableHlo.after (hostOps4 (F := Ideal)) W (Proc.devRef .tc main_v200) : S1x1024.Idx → EReal) (ix2 0 d) = ((argsK W).attn 2).den d := by
  have e : (StableHlo.after (hostOps4 (F := Ideal)) W (Proc.devRef .tc main_v200) : S1x1024.Idx → EReal)
      = shapeCast S1x1024 (shapeCast S1024 (extractStridedSlice S1x1024 ![2, 0] (W (Proc.devRef .tc main_arg27) : S4x1024.Idx → EReal) slices_S4x1024_S1x1024_2_0) shapeCasts_S1x1024_S1024) shapeCasts_S1024_S1x1024 := by
    dsimp only [hostOps4]; after_results; rfl
  rw [e]; exact rowSlice_apply _ 2 _ _ _ d

theorem host4_w10 (o : Fin 1024) (d : Fin 1024) :
    (StableHlo.after (hostOps4 (F := Ideal)) W (Proc.devRef .tc main_v188) : S1024x1024.Idx → EReal) (ix2 o d) = ((argsK W).attn 2).Wk o d := by
  have e : (StableHlo.after (hostOps4 (F := Ideal)) W (Proc.devRef .tc main_v188) : S1024x1024.Idx → EReal)
      = shapeCast S1024x1024 (extractStridedSlice S1x1024x1024 ![2, 0, 0] (W (Proc.devRef .tc main_arg13) : S4x1024x1024.Idx → EReal) slices_S4x1024x1024_S1x1024x1024_2_0_0) shapeCasts_S1x1024x1024_S1024x1024 := by
    dsimp only [hostOps4]; after_results; rfl
  rw [e]; exact matSlice_apply _ 2 _ _ o d

theorem host4_w11 (o : Fin 1024) (d : Fin 1024) :
    (StableHlo.after (hostOps4 (F := Ideal)) W (Proc.devRef .tc main_v189) : S1024x1024.Idx → EReal) (ix2 o d) = ((argsK W).attn 2).Wv o d := by
  have e : (StableHlo.after (hostOps4 (F := Ideal)) W (Proc.devRef .tc main_v189) : S1024x1024.Idx → EReal)
      = shapeCast S1024x1024 (extractStridedSlice S1x1024x1024 ![2, 0, 0] (W (Proc.devRef .tc main_arg14) : S4x1024x1024.Idx → EReal) slices_S4x1024x1024_S1x1024x1024_2_0_0) shapeCasts_S1x1024x1024_S1024x1024 := by
    dsimp only [hostOps4]; after_results; rfl
  rw [e]; exact matSlice_apply _ 2 _ _ o d

theorem host4_w12 (o : Fin 1024) (d : Fin 1024) :
    (StableHlo.after (hostOps4 (F := Ideal)) W (Proc.devRef .tc main_v190) : S1024x1024.Idx → EReal) (ix2 o d) = ((argsK W).attn 2).Wr o d := by
  have e : (StableHlo.after (hostOps4 (F := Ideal)) W (Proc.devRef .tc main_v190) : S1024x1024.Idx → EReal)
      = shapeCast S1024x1024 (extractStridedSlice S1x1024x1024 ![2, 0, 0] (W (Proc.devRef .tc main_arg15) : S4x1024x1024.Idx → EReal) slices_S4x1024x1024_S1x1024x1024_2_0_0) shapeCasts_S1x1024x1024_S1024x1024 := by
    dsimp only [hostOps4]; after_results; rfl
  rw [e]; exact matSlice_apply _ 2 _ _ o d

theorem host4_w13 (o : Fin 1024) (d : Fin 1024) :
    (StableHlo.after (hostOps4 (F := Ideal)) W (Proc.devRef .tc main_v191) : S1024x1024.Idx → EReal) (ix2 o d) = ((argsK W).attn 2).Wo o d := by
  have e : (StableHlo.after (hostOps4 (F := Ideal)) W (Proc.devRef .tc main_v191) : S1024x1024.Idx → EReal)
      = shapeCast S1024x1024 (extractStridedSlice S1x1024x1024 ![2, 0, 0] (W (Proc.devRef .tc main_arg16) : S4x1024x1024.Idx → EReal) slices_S4x1024x1024_S1x1024x1024_2_0_0) shapeCasts_S1x1024x1024_S1024x1024 := by
    dsimp only [hostOps4]; after_results; rfl
  rw [e]; exact matSlice_apply _ 2 _ _ o d

/-- The thirteen parameter windows of the time-mixing launch, bundled: layer 2's time-mixing parameters. -/
theorem hostL2_attn :
    ({ lnw := fun d => (StableHlo.after (hostOps4 (F := Ideal)) W (Proc.devRef .tc (Pipeline.arrRef spec4 1)) : S1x1024.Idx → EReal) (ix2 (0 : Fin 1) d)
       lnb := fun d => (StableHlo.after (hostOps4 (F := Ideal)) W (Proc.devRef .tc (Pipeline.arrRef spec4 2)) : S1x1024.Idx → EReal) (ix2 (0 : Fin 1) d)
       sx := fun d => (StableHlo.after (hostOps4 (F := Ideal)) W (Proc.devRef .tc (Pipeline.arrRef spec4 3)) : S1x1024.Idx → EReal) (ix2 (0 : Fin 1) d)
       mixk := fun d => (StableHlo.after (hostOps4 (F := Ideal)) W (Proc.devRef .tc (Pipeline.arrRef spec4 4)) : S1x1024.Idx → EReal) (ix2 (0 : Fin 1) d)
       mixv := fun d => (StableHlo.after (hostOps4 (F := Ideal)) W (Proc.devRef .tc (Pipeline.arrRef spec4 5)) : S1x1024.Idx → EReal) (ix2 (0 : Fin 1) d)
       mixr := fun d => (StableHlo.after (hostOps4 (F := Ideal)) W (Proc.devRef .tc (Pipeline.arrRef spec4 6)) : S1x1024.Idx → EReal) (ix2 (0 : Fin 1) d)
       tf := fun d => (StableHlo.after (hostOps4 (F := Ideal)) W (Proc.devRef .tc (Pipeline.arrRef spec4 7)) : S1x1024.Idx → EReal) (ix2 (0 : Fin 1) d)
       num := fun d => (StableHlo.after (hostOps4 (F := Ideal)) W (Proc.devRef .tc (Pipeline.arrRef spec4 8)) : S1x1024.Idx → EReal) (ix2 (0 : Fin 1) d)
       den := fun d => (StableHlo.after (hostOps4 (F := Ideal)) W (Proc.devRef .tc (Pipeline.arrRef spec4 9)) : S1x1024.Idx → EReal) (ix2 (0 : Fin 1) d)
       Wk := fun o d => (StableHlo.after (hostOps4 (F := Ideal)) W (Proc.devRef .tc (Pipeline.arrRef spec4 10)) : S1024x1024.Idx → EReal) (ix2 o d)
       Wv := fun o d => (StableHlo.after (hostOps4 (F := Ideal)) W (Proc.devRef .tc (Pipeline.arrRef spec4 11)) : S1024x1024.Idx → EReal) (ix2 o d)
       Wr := fun o d => (StableHlo.after (hostOps4 (F := Ideal)) W (Proc.devRef .tc (Pipeline.arrRef spec4 12)) : S1024x1024.Idx → EReal) (ix2 o d)
       Wo := fun o d => (StableHlo.after (hostOps4 (F := Ideal)) W (Proc.devRef .tc (Pipeline.arrRef spec4 13)) : S1024x1024.Idx → EReal) (ix2 o d) } : Cert.Spec.AttnP)
      = (argsK W).attn 2 := by
  unfold Cert.Spec.Args.attn
  rw [Cert.Spec.AttnP.mk.injEq]
  exact ⟨funext (host4_w1 W), funext (host4_w2 W), funext (host4_w3 W), funext (host4_w4 W), funext (host4_w5 W),
    funext (host4_w6 W), funext (host4_w7 W), funext (host4_w8 W), funext (host4_w9 W),
    funext fun o => funext (host4_w10 W o), funext fun o => funext (host4_w11 W o),
    funext fun o => funext (host4_w12 W o), funext fun o => funext (host4_w13 W o)⟩

/-! ## Layer 2's channel-mixing parameters (the stretch before the channel-mixing launch) -/

theorem host5_w1 (d : Fin 1024) :
    (StableHlo.after (hostOps5 (F := Ideal)) W (Proc.devRef .tc main_v221) : S1x1024.Idx → EReal) (ix2 0 d) = ((argsK W).ffn 2).lnw d := by
  have e : (StableHlo.after (hostOps5 (F := Ideal)) W (Proc.devRef .tc main_v221) : S1x1024.Idx → EReal)
      = shapeCast S1x1024 (shapeCast S1024 (extractStridedSlice S1x1024 ![2, 0] (W (Proc.devRef .tc main_arg6) : S4x1024.Idx → EReal) slices_S4x1024_S1x1024_2_0) shapeCasts_S1x1024_S1024) shapeCasts_S1024_S1x1024 := by
    dsimp only [hostOps5]; after_results; rfl
  rw [e]; exact rowSlice_apply _ 2 _ _ _ d

theorem host5_w2 (d : Fin 1024) :
    (StableHlo.after (hostOps5 (F := Ideal)) W (Proc.devRef .tc main_v222) : S1x1024.Idx → EReal) (ix2 0 d) = ((argsK W).ffn 2).lnb d := by
  have e : (StableHlo.after (hostOps5 (F := Ideal)) W (Proc.devRef .tc main_v222) : S1x1024.Idx → EReal)
      = shapeCast S1x1024 (shapeCast S1024 (extractStridedSlice S1x1024 ![2, 0] (W (Proc.devRef .tc main_arg7) : S4x1024.Idx → EReal) slices_S4x1024_S1x1024_2_0) shapeCasts_S1x1024_S1024) shapeCasts_S1024_S1x1024 := by
    dsimp only [hostOps5]; after_results; rfl
  rw [e]; exact rowSlice_apply _ 2 _ _ _ d

theorem host5_w3 (d : Fin 1024) :
    (StableHlo.after (hostOps5 (F := Ideal)) W (Proc.devRef .tc main_v223) : S1x1024.Idx → EReal) (ix2 0 d) = ((argsK W).ffn 2).sx d := by
  have e : (StableHlo.after (hostOps5 (F := Ideal)) W (Proc.devRef .tc main_v223) : S1x1024.Idx → EReal)
      = shapeCast S1x1024 (shapeCast S1024 (extractStridedSlice S1x1024 ![2, 0] (W (Proc.devRef .tc main_arg28) : S4x1024.Idx → EReal) slices_S4x1024_S1x1024_2_0) shapeCasts_S1x1024_S1024) shapeCasts_S1024_S1x1024 := by
    dsimp only [hostOps5]; after_results; rfl
  rw [e]; exact rowSlice_apply _ 2 _ _ _ d

theorem host5_w4 (d : Fin 1024) :
    (StableHlo.after (hostOps5 (F := Ideal)) W (Proc.devRef .tc main_v224) : S1x1024.Idx → EReal) (ix2 0 d) = ((argsK W).ffn 2).mixk d := by
  have e : (StableHlo.after (hostOps5 (F := Ideal)) W (Proc.devRef .tc main_v224) : S1x1024.Idx → EReal)
      = shapeCast S1x1024 (shapeCast S1024 (extractStridedSlice S1x1024 ![2, 0] (W (Proc.devRef .tc main_arg17) : S4x1024.Idx → EReal) slices_S4x1024_S1x1024_2_0) shapeCasts_S1x1024_S1024) shapeCasts_S1024_S1x1024 := by
    dsimp only [hostOps5]; after_results; rfl
  rw [e]; exact rowSlice_apply _ 2 _ _ _ d

theorem host5_w5 (d : Fin 1024) :
    (StableHlo.after (hostOps5 (F := Ideal)) W (Proc.devRef .tc main_v225) : S1x1024.Idx → EReal) (ix2 0 d) = ((argsK W).ffn 2).mixr d := by
  have e : (StableHlo.after (hostOps5 (F := Ideal)) W (Proc.devRef .tc main_v225) : S1x1024.Idx → EReal)
      = shapeCast S1x1024 (shapeCast S1024 (extractStridedSlice S1x1024 ![2, 0] (W (Proc.devRef .tc main_arg18) : S4x1024.Idx → EReal) slices_S4x1024_S1x1024_2_0) shapeCasts_S1x1024_S1024) shapeCasts_S1024_S1x1024 := by
    dsimp only [hostOps5]; after_results; rfl
  rw [e]; exact rowSlice_apply _ 2 _ _ _ d

theorem host5_w6 (f : Fin 4096) (d : Fin 1024) :
    (StableHlo.after (hostOps5 (F := Ideal)) W (Proc.devRef .tc main_v218) : S4096x1024.Idx → EReal) (ix2 f d) = ((argsK W).ffn 2).Wk f d := by
  have e : (StableHlo.after (hostOps5 (F := Ideal)) W (Proc.devRef .tc main_v218) : S4096x1024.Idx → EReal)
      = shapeCast S4096x1024 (extractStridedSlice S1x4096x1024 ![2, 0, 0] (W (Proc.devRef .tc main_arg19) : S4x4096x1024.Idx → EReal) slices_S4x4096x1024_S1x4096x1024_2_0_0) shapeCasts_S1x4096x1024_S4096x1024 := by
    dsimp only [hostOps5]; after_results; rfl
  rw [e]; exact matSlice_apply _ 2 _ _ f d

theorem host5_w7 (o : Fin 1024) (d : Fin 1024) :
    (StableHlo.after (hostOps5 (F := Ideal)) W (Proc.devRef .tc main_v219) : S1024x1024.Idx → EReal) (ix2 o d) = ((argsK W).ffn 2).Wr o d := by
  have e : (StableHlo.after (hostOps5 (F := Ideal)) W (Proc.devRef .tc main_v219) : S1024x1024.Idx → EReal)
      = shapeCast S1024x1024 (extractStridedSlice S1x1024x1024 ![2, 0, 0] (W (Proc.devRef .tc main_arg20) : S4x1024x1024.Idx → EReal) slices_S4x1024x1024_S1x1024x1024_2_0_0) shapeCasts_S1x1024x1024_S1024x1024 := by
    dsimp only [hostOps5]; after_results; rfl
  rw [e]; exact matSlice_apply _ 2 _ _ o d

theorem host5_w8 (o : Fin 1024) (f : Fin 4096) :
    (StableHlo.after (hostOps5 (F := Ideal)) W (Proc.devRef .tc main_v220) : S1024x4096.Idx → EReal) (ix2 o f) = ((argsK W).ffn 2).Wv o f := by
  have e : (StableHlo.after (hostOps5 (F := Ideal)) W (Proc.devRef .tc main_v220) : S1024x4096.Idx → EReal)
      = shapeCast S1024x4096 (extractStridedSlice S1x1024x4096 ![2, 0, 0] (W (Proc.devRef .tc main_arg21) : S4x1024x4096.Idx → EReal) slices_S4x1024x4096_S1x1024x4096_2_0_0) shapeCasts_S1x1024x4096_S1024x4096 := by
    dsimp only [hostOps5]; after_results; rfl
  rw [e]; exact matSlice_apply _ 2 _ _ o f

/-- The eight parameter windows of the channel-mixing launch, bundled: layer 2's channel-mixing parameters. -/
theorem hostL2_ffn :
    ({ lnw := fun d => (StableHlo.after (hostOps5 (F := Ideal)) W (Proc.devRef .tc (Pipeline.arrRef spec5 1)) : S1x1024.Idx → EReal) (ix2 (0 : Fin 1) d)
       lnb := fun d => (StableHlo.after (hostOps5 (F := Ideal)) W (Proc.devRef .tc (Pipeline.arrRef spec5 2)) : S1x1024.Idx → EReal) (ix2 (0 : Fin 1) d)
       sx := fun d => (StableHlo.after (hostOps5 (F := Ideal)) W (Proc.devRef .tc (Pipeline.arrRef spec5 3)) : S1x1024.Idx → EReal) (ix2 (0 : Fin 1) d)
       mixk := fun d => (StableHlo.after (hostOps5 (F := Ideal)) W (Proc.devRef .tc (Pipeline.arrRef spec5 4)) : S1x1024.Idx → EReal) (ix2 (0 : Fin 1) d)
       mixr := fun d => (StableHlo.after (hostOps5 (F := Ideal)) W (Proc.devRef .tc (Pipeline.arrRef spec5 5)) : S1x1024.Idx → EReal) (ix2 (0 : Fin 1) d)
       Wk := fun f d => (StableHlo.after (hostOps5 (F := Ideal)) W (Proc.devRef .tc (Pipeline.arrRef spec5 6)) : S4096x1024.Idx → EReal) (ix2 f d)
       Wr := fun o d => (StableHlo.after (hostOps5 (F := Ideal)) W (Proc.devRef .tc (Pipeline.arrRef spec5 7)) : S1024x1024.Idx → EReal) (ix2 o d)
       Wv := fun o f => (StableHlo.after (hostOps5 (F := Ideal)) W (Proc.devRef .tc (Pipeline.arrRef spec5 8)) : S1024x4096.Idx → EReal) (ix2 o f) } : Cert.Spec.FfnP)
      = (argsK W).ffn 2 := by
  unfold Cert.Spec.Args.ffn
  rw [Cert.Spec.FfnP.mk.injEq]
  exact ⟨funext (host5_w1 W), funext (host5_w2 W), funext (host5_w3 W), funext (host5_w4 W), funext (host5_w5 W),
    funext fun f => funext (host5_w6 W f), funext fun o => funext (host5_w7 W o), funext fun o => funext (host5_w8 W o)⟩

end Cert.KernelIdeal.Val
-- ==== Proof.KLayer2.lean ====
/-
  Layer 2 of the kernel, boundary to boundary. The attention launch's output array, row by row, is the specification's
  time-mixing layer of the rows it was given, with the layer's parameters drawn from the argument arrays (the host
  stretch before the launch only slices, reshapes and re-formats them); the feed-forward launch's output array is
  the channel-mixing layer of those rows. No host stretch writes the state's array in between.
-/
import proofs.«415492_j738734375128_3_alg».proof.Proof.KArgs
import proofs.«415492_j738734375128_3_alg».proof.Proof.ValAttn4
import proofs.«415492_j738734375128_3_alg».proof.Proof.ValFfn5
import proofs.«415492_j738734375128_3_alg».proof.Proof.HostKL2
import proofs.«415492_j738734375128_3_alg».proof.Proof.HostKeeps

noncomputable section

namespace Cert.KernelIdeal.Val

open Cert.KernelIdeal Cert.KernelIdeal.Gen Cert.KernelIdeal.Hand Idealize.ShloMosaic Idealize.ShloMosaic.ValueIdx

variable (m : (ℓ : Loc nD τ sig) → Buf (Elt Ideal) ℓ) (ρ : Dev nD → PrngReg) (c : Dev nD)

/-- The state's rows as the attention launch of layer 2 finds them, -/
def stIn2 (r : Fin 2048) : Cert.Spec.Row := fun d => (W9 m ρ c (Proc.devRef .tc (Pipeline.arrRef spec4 0)) : S2048x1024.Idx → EReal) (ix2 r d)
/-- as it leaves them, -/
def stMid2 (r : Fin 2048) : Cert.Spec.Row := fun d => (W10 m ρ c (Proc.devRef .tc (Pipeline.arrRef spec4 14)) : S2048x1024.Idx → EReal) (ix2 r d)
/-- and as the feed-forward launch of layer 2 leaves them. -/
def stOut2 (r : Fin 2048) : Cert.Spec.Row := fun d => (W12 m ρ c (Proc.devRef .tc (Pipeline.arrRef spec5 9)) : S2048x1024.Idx → EReal) (ix2 r d)

/-- Time mixing, layer 2. -/
theorem stMid2_eq (r : Fin 2048) : stMid2 m ρ c r = Cert.Spec.attnRow ((argsK (W0 m ρ c)).attn 2) (stIn2 m ρ c r) := by
  funext o
  have h1 := congrFun (W10_arr m ρ c 14) (ix2 r o)
  have h2 := final4 (V9 m ρ) c r o
  have hp : attnP4 (V9 m ρ) c = (argsK (W0 m ρ c)).attn 2 := (hostL2_attn (W8 m ρ c)).trans (congrArg (fun A => A.attn 2) (argsK_W8 m ρ c))
  have hx : xrow4 (V9 m ρ) c r = stIn2 m ρ c r := rfl
  exact h1.trans (h2.trans (by rw [hp, hx]))

/-- Channel mixing, layer 2. -/
theorem stOut2_eq (r : Fin 2048) : stOut2 m ρ c r = Cert.Spec.ffnRow ((argsK (W0 m ρ c)).ffn 2) (stMid2 m ρ c r) := by
  funext o
  have h1 := congrFun (W12_arr m ρ c 9) (ix2 r o)
  have h2 := final5 (V11 m ρ) c r o
  have hp : ffnP5 (V11 m ρ) c = (argsK (W0 m ρ c)).ffn 2 := (hostL2_ffn (W10 m ρ c)).trans (congrArg (fun A => A.ffn 2) (argsK_W10 m ρ c))
  have hx : xrow5 (V11 m ρ) c r = stMid2 m ρ c r := by
    funext d
    show (StableHlo.after hostOps5 (W10 m ρ c) (Proc.devRef .tc (Pipeline.arrRef spec5 0)) : S2048x1024.Idx → EReal) (ix2 r d) = _
    rw [host5_keeps_x (W10 m ρ c)]
    rfl
  exact h1.trans (h2.trans (by rw [hp, hx]))

end Cert.KernelIdeal.Val

end
-- ==== Proof.ValAttn6.lean ====
/-
  REGION 6, read as values: what the attention kernel's launch leaves in its result array is, row by row, the
  specification's time-mixing layer.

  The launch walks the 2048 rows of the activation array in eight blocks of 256 rows. At a point the body sees the
  point's block x of activations and the whole of thirteen parameter arrays (nine rows of 1024 channels: the gain and
  bias of the normalisation, the carried state, the three mixing rows, the bonus, the carried numerator and
  denominator; four 1024 × 1024 matrices), and stores one value over the output block. Entry (p, o) of that value is
      x(p, o) + Σ_d g(p, d) · Wo(o, d),
  where, with n = the normalisation of row p (centred, divided by the root of its variance plus a small constant,
  times the gain plus the bias) and m_μ = n ⊙ μ + s ⊙ (1 − μ) its mixture with the carried state s by a mixing row μ,
      k = Σ_d m_μk(d) · Wk(·, d),   v = Σ_d m_μv(d) · Wv(·, d),   r = Σ_d m_μr(d) · Wr(·, d),   e = exp (tf + k),
      g = σ(r) · (num + e · v) / (den + e).
  Every quantity in it depends on row p of the block alone: the two lane sums run along the row, the four products
  contract the row against a matrix's rows, everything else acts entry by entry. So entry (p, o) is the
  specification's layer applied to row p, at channel o. The block at point t is rows 256·t … 256·t + 255 of the
  activation array and the parameter blocks are the parameter arrays themselves; the output block of point t is
  written back onto those same rows, and the eight blocks cover the result array. Sums are finite sums on the extended
  reals; a change of float format is the identity there; no finiteness is used.
-/
import proofs.«415492_j738734375128_3_alg».proof.Proof.Region6
import proofs.«415492_j738734375128_3_alg».proof.Proof.Spec
import Idealize.ShloMosaic.PureOps.Ideal.Laws
import Idealize.ShloMosaic.Lib.ValueIdx
import Idealize.ShloMosaic.Lib.ValueLayout
import Idealize.ShloMosaic.Lib.Pipeline.Value

-- membership of an index in a rectangle of these extents is decided structurally, one step per coordinate
set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## The operations the body is made of, read at an index -/

/-- A sum along the lanes of a row: the sum over the row's 1024 entries. -/
theorem val6_sumRow (src : FVec Ideal S256x1024 .f32) (h : S256x1024.Reduces [1] S256) (hφ : FKind.Formats .f32)
    (hacc : (0x00000000#32 : BitVec 32) = 0x00000000#32) (p : Fin 256) :
    multiReduction .add [1] S256 src 0x00000000#32 h hφ hacc (ix1 p) = ∑ k : Fin 1024, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-- A vector of 256 entries seen as a column: its entry at (p, 0) is the entry at p. -/
theorem val6_castCol {α : Type} (v : S256.Idx → α) (h : S256.ShapeCasts S256x1) (p : Fin 256) (u : Fin 1) :
    shapeCast S256x1 v h (ix2 p u) = v (ix1 p) :=
  shapeCast_apply v h _ _ (by
    have hu : u.val = 0 := by omega
    rw [Shape.rowMajor_val_two, Shape.rowMajor_val_one]
    show p.val = p.val * 1 + u.val
    omega)

/-- A column spread over the 1024 lanes: every lane of row p holds the column's entry at p. -/
theorem val6_bcastCol {α : Type} (v : S256x1.Idx → α) (h : S256x1.Broadcasts S256x1024) (p : Fin 256) (d : Fin 1024) :
    broadcastTo S256x1024 v h (ix2 p d) = v (ix2 p (0 : Fin 1)) := by
  refine broadcastTo_apply v h (ix2 p d) (ix2 p (0 : Fin 1)) fun ax => ?_
  match ax with
  | ⟨0, _⟩ => rfl
  | ⟨1, _⟩ => rfl

/-- The three transcendental operations act entry by entry. -/
theorem val6_rsqrt_apply {s : Shape} {φ : FTy} (a : FVec Ideal s φ) (i : s.Idx) : rsqrt a i = Ideal.rsqrt (a i) := rfl
theorem val6_exp_apply {s : Shape} {φ : FTy} (a : FVec Ideal s φ) (i : s.Idx) : exp a i = Ideal.exp (a i) := rfl
theorem val6_logistic_apply {s : Shape} {φ : FTy} (a : FVec Ideal s φ) (i : s.Idx) : logistic a i = Ideal.logistic (a i) := rfl

/-- The product of a block of 256 rows with the transpose of a 1024 × 1024 matrix, into a zero accumulator: entry
    (p, o) is the sum over the contracted coordinate k of row p at k times the matrix at (o, k). -/
theorem val6_matT (lhs : FVec Ideal S256x1024 .bf16) (rhs : FVec Ideal S1024x1024 .bf16) (p : Fin 256) (o : Fin 1024) :
    matmul dot_S256x1024_S1024x1024_S256x1024_1_1_0_0_n_n none lhs rhs (constant S256x1024 .f32 0x00000000#32) (ix2 p o)
      = ∑ k : Fin 1024, lhs (ix2 p k) * rhs (ix2 o k) := by
  show FloatOps.matmul dot_S256x1024_S1024x1024_S256x1024_1_1_0_0_n_n none lhs rhs (constant S256x1024 .f32 0x00000000#32) (ix2 p o) = _
  rw [Ideal.matmul_constant_zero_apply,
    ← Equiv.sum_comp (contrEquiv1 dot_S256x1024_S1024x1024_S256x1024_1_1_0_0_n_n 1024 rfl rfl).symm]
  refine Finset.sum_congr rfl fun k _ => ?_
  have ck := contrEquiv1_symm_val dot_S256x1024_S1024x1024_S256x1024_1_1_0_0_n_n 1024 rfl rfl k
  have hl : dot_S256x1024_S1024x1024_S256x1024_1_1_0_0_n_n.lhsIdx (ix2 p o)
      ((contrEquiv1 dot_S256x1024_S1024x1024_S256x1024_1_1_0_0_n_n 1024 rfl rfl).symm k) = ix2 p k := by
    funext ax; apply Fin.ext
    match ax with
    | ⟨0, _⟩ => simp [DotDims.lhsIdx, dot_S256x1024_S1024x1024_S256x1024_1_1_0_0_n_n]; rfl
    | ⟨1, _⟩ => simp [DotDims.lhsIdx, dot_S256x1024_S1024x1024_S256x1024_1_1_0_0_n_n]; exact ck
  have hr : dot_S256x1024_S1024x1024_S256x1024_1_1_0_0_n_n.rhsIdx (ix2 p o)
      ((contrEquiv1 dot_S256x1024_S1024x1024_S256x1024_1_1_0_0_n_n 1024 rfl rfl).symm k) = ix2 o k := by
    funext ax; apply Fin.ext
    match ax with
    | ⟨0, _⟩ => simp [DotDims.rhsIdx, dot_S256x1024_S1024x1024_S256x1024_1_1_0_0_n_n]; rfl
    | ⟨1, _⟩ => simp [DotDims.rhsIdx, dot_S256x1024_S1024x1024_S256x1024_1_1_0_0_n_n]; exact ck
  rw [hl, hr]

/-! ## The body's values at an entry -/

/-- The normalised row: entry (p, d) of the body's first value is the layer normalisation of row p, with the gain
    and bias rows, at channel d. The two lane sums are the row's mean and its variance about that mean. -/
theorem pay6_3_apply (x0 : Vec Ideal S256x1024 .f32) (x1 x2 : Vec Ideal S1x1024 .f32) (p : Fin 256) (d : Fin 1024) :
    k6_pay3 x0 x1 x2 (ix2 p d)
      = Cert.Spec.lnRow (fun k => x1 (ix2 (0 : Fin 1) k)) (fun k => x2 (ix2 (0 : Fin 1) k)) (fun k => x0 (ix2 p k)) d := by
  unfold k6_pay3 k6_pay2
  simp only [shapeCast_self, addf_apply, mulf_apply, subf_apply, divf_apply, val6_rsqrt_apply, broadcast_apply,
    broadcastTo_1b_ab_apply, val6_bcastCol, val6_castCol]
  rw [val6_sumRow, val6_sumRow]
  simp only [shapeCast_self, mulf_apply, subf_apply, divf_apply, broadcast_apply, val6_bcastCol, val6_castCol]
  rw [val6_sumRow]
  rfl

/-- Four of the body's values are parameter rows as loaded. -/
theorem pay6_2_eq (v : Vec Ideal S256x1024 .f32) : k6_pay2 v = v := by unfold k6_pay2; exact shapeCast_self _ _
theorem pay6_4_eq (v : Vec Ideal S1x1024 .f32) : k6_pay4 v = v := by unfold k6_pay4; exact shapeCast_self _ _
theorem pay6_5_eq (v : Vec Ideal S1x1024 .f32) : k6_pay5 v = v := by unfold k6_pay5; exact shapeCast_self _ _
theorem pay6_6_eq (v : Vec Ideal S1x1024 .f32) : k6_pay6 v = v := by unfold k6_pay6; exact shapeCast_self _ _
theorem pay6_7_eq (v : Vec Ideal S1x1024 .f32) : k6_pay7 v = v := by unfold k6_pay7; exact shapeCast_self _ _

/-- The row of ones. -/
theorem pay6_9_apply (u : Fin 1) (d : Fin 1024) : k6_pay9 (F := Ideal) (ix2 u d) = Cert.Spec.cone := rfl

/-- The normalised row times the key's mixing row. -/
theorem pay6_8_apply (x0 : Vec Ideal S256x1024 .f32) (x1 x2 x4 : Vec Ideal S1x1024 .f32) (p : Fin 256) (d : Fin 1024) :
    k6_pay8 x0 x1 x2 x4 (ix2 p d) = k6_pay3 x0 x1 x2 (ix2 p d) * x4 (ix2 (0 : Fin 1) d) := by
  unfold k6_pay8 k6_pay5
  simp only [shapeCast_self, mulf_apply, broadcastTo_1b_ab_apply]

/-- The receptance's projection: the row mixed with the carried state by the receptance's mixing row, times the
    transpose of its matrix. -/
theorem pay6_10_apply (v27 : FVec Ideal S256x1024 .f32) (v29 v35 : FVec Ideal S1x1024 .f32) (v66 : Vec Ideal S1024x1024 .bf16)
    (p : Fin 256) (o : Fin 1024) :
    k6_pay10 v27 v29 v35 v66 (ix2 p o)
      = ∑ k : Fin 1024, (v27 (ix2 p k) * v35 (ix2 (0 : Fin 1) k)
          + v29 (ix2 (0 : Fin 1) k) * (Cert.Spec.cone - v35 (ix2 (0 : Fin 1) k))) * v66 (ix2 o k) := by
  unfold k6_pay10
  simp only [shapeCast_self, val6_matT, truncf_apply, addf_apply, mulf_apply, subf_apply, broadcast_apply,
    broadcastTo_1b_ab_apply]
  rfl

/-- The exponential of the bonus row plus the key's projection. -/
theorem pay6_11_apply (v29 v31 : FVec Ideal S1x1024 .f32) (v37 : FVec Ideal S256x1024 .f32) (v38 : FVec Ideal S1x1024 .f32)
    (v58 : Vec Ideal S1024x1024 .bf16) (v69 : Vec Ideal S1x1024 .f32) (p : Fin 256) (o : Fin 1024) :
    k6_pay11 v29 v31 v37 v38 v58 v69 (ix2 p o)
      = Ideal.exp (v69 (ix2 (0 : Fin 1) o) + ∑ k : Fin 1024, (v37 (ix2 p k)
          + v29 (ix2 (0 : Fin 1) k) * (v38 (ix2 (0 : Fin 1) k) - v31 (ix2 (0 : Fin 1) k))) * v58 (ix2 o k)) := by
  unfold k6_pay11
  simp only [shapeCast_self, val6_matT, truncf_apply, addf_apply, mulf_apply, subf_apply, val6_exp_apply,
    broadcastTo_1b_ab_apply]

/-- The numerator: the carried numerator row plus that exponential times the value's projection. -/
theorem pay6_12_apply (v27 : FVec Ideal S256x1024 .f32) (v29 v31 v33 : FVec Ideal S1x1024 .f32) (v37 : FVec Ideal S256x1024 .f32)
    (v38 : FVec Ideal S1x1024 .f32) (v58 v62 : Vec Ideal S1024x1024 .bf16) (v69 v71 : Vec Ideal S1x1024 .f32)
    (p : Fin 256) (o : Fin 1024) :
    k6_pay12 v27 v29 v31 v33 v37 v38 v58 v62 v69 v71 (ix2 p o)
      = v71 (ix2 (0 : Fin 1) o) + k6_pay11 v29 v31 v37 v38 v58 v69 (ix2 p o)
          * ∑ k : Fin 1024, (v27 (ix2 p k) * v33 (ix2 (0 : Fin 1) k)
              + v29 (ix2 (0 : Fin 1) k) * (Cert.Spec.cone - v33 (ix2 (0 : Fin 1) k))) * v62 (ix2 o k) := by
  unfold k6_pay12
  simp only [shapeCast_self, val6_matT, truncf_apply, addf_apply, mulf_apply, subf_apply, broadcast_apply,
    broadcastTo_1b_ab_apply]
  rfl

/-- The carried denominator row, spread over the rows. -/
theorem pay6_13_apply (v73 : Vec Ideal S1x1024 .f32) (p : Fin 256) (o : Fin 1024) :
    k6_pay13 v73 (ix2 p o) = v73 (ix2 (0 : Fin 1) o) := by
  unfold k6_pay13
  simp only [shapeCast_self, broadcastTo_1b_ab_apply]

/-- The stored value: the row plus the output matrix's projection of the gated ratio. -/
theorem pay6_1_apply (v1 v68 v77 v80 v81 : FVec Ideal S256x1024 .f32) (v87 : Vec Ideal S1024x1024 .bf16)
    (p : Fin 256) (o : Fin 1024) :
    k6_pay1 v1 v68 v77 v80 v81 v87 (ix2 p o)
      = v1 (ix2 p o) + ∑ k : Fin 1024, (Ideal.logistic (v68 (ix2 p k))
          * Ideal.div (v80 (ix2 p k)) (v81 (ix2 p k) + v77 (ix2 p k))) * v87 (ix2 o k) := by
  unfold k6_pay1
  simp only [shapeCast_self, val6_matT, truncf_apply, addf_apply, mulf_apply, divf_apply, val6_logistic_apply]

/-! ## What the body leaves in the output block, at an entry -/

theorem hz6 : (![0, 0] : Fin 2 → Nat) = fun _ => 0 := funext fun a => by fin_cases a <;> rfl

/-- The layer's parameters as thirteen blocks hold them: nine rows and four matrices. -/
def attnP6_of (x1 x2 x3 x4 x5 x6 x7 x8 x9 : Vec Ideal S1x1024 .f32) (x10 x11 x12 x13 : Vec Ideal S1024x1024 .bf16) :
    Cert.Spec.AttnP where
  lnw := fun d => x1 (ix2 (0 : Fin 1) d)
  lnb := fun d => x2 (ix2 (0 : Fin 1) d)
  sx := fun d => x3 (ix2 (0 : Fin 1) d)
  mixk := fun d => x4 (ix2 (0 : Fin 1) d)
  mixv := fun d => x5 (ix2 (0 : Fin 1) d)
  mixr := fun d => x6 (ix2 (0 : Fin 1) d)
  tf := fun d => x7 (ix2 (0 : Fin 1) d)
  num := fun d => x8 (ix2 (0 : Fin 1) d)
  den := fun d => x9 (ix2 (0 : Fin 1) d)
  Wk := fun o d => x10 (ix2 o d)
  Wv := fun o d => x11 (ix2 o d)
  Wr := fun o d => x12 (ix2 o d)
  Wo := fun o d => x13 (ix2 o d)

/-- Equal blocks hold equal parameters. -/
theorem attnP6_congr {x1 x2 x3 x4 x5 x6 x7 x8 x9 y1 y2 y3 y4 y5 y6 y7 y8 y9 : Vec Ideal S1x1024 .f32}
    {x10 x11 x12 x13 y10 y11 y12 y13 : Vec Ideal S1024x1024 .bf16}
    (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) :
    attnP6_of x1 x2 x3 x4 x5 x6 x7 x8 x9 x10 x11 x12 x13 = attnP6_of y1 y2 y3 y4 y5 y6 y7 y8 y9 y10 y11 y12 y13 := by
  subst h1 h2 h3 h4 h5 h6 h7 h8 h9 h10 h11 h12 h13
  rfl

/-- Entry (p, o) of what the body stores is the time-mixing layer, with the parameters the thirteen parameter
    blocks hold, applied to row p of the activation block, at channel o. -/
theorem val6_out (x0 : Vec Ideal S256x1024 .f32) (x1 x2 x3 x4 x5 x6 x7 x8 x9 : Vec Ideal S1x1024 .f32)
    (x10 x11 x12 x13 : Vec Ideal S1024x1024 .bf16) (p : Fin 256) (o : Fin 1024) :
    out6_14 x0 x1 x2 x3 x4 x5 x6 x7 x8 x9 x10 x11 x12 x13 (ix2 p o)
      = Cert.Spec.attnRow (attnP6_of x1 x2 x3 x4 x5 x6 x7 x8 x9 x10 x11 x12 x13) (fun k => x0 (ix2 p k)) o := by
  unfold out6_14
  rw [View.canon_unit_zero hz6]
  simp only [View.ld_unit_zero (S := S256x1024) hz6, View.ld_unit_zero (S := S1x1024) hz6,
    View.ld_unit_zero (S := S1024x1024) hz6]
  rw [pay6_1_apply]
  simp only [pay6_10_apply, pay6_11_apply, pay6_12_apply, pay6_13_apply, pay6_8_apply, pay6_3_apply, pay6_2_eq, pay6_4_eq,
    pay6_5_eq, pay6_6_eq, pay6_7_eq, pay6_9_apply]
  rfl

/-! ## The blocks the windows show, read off their arrays -/

variable (V : (c : Dev nD) → (b : Ref sig .tc) → Buf (Elt Ideal) ((c : Thread nD τ).loc b))

/-- The index maps over the eight points: the activation window and the output window show the point's own block of
    256 rows; every parameter window shows its one block at every point. -/
theorem val6_idx_0 : ∀ t : Fin cfg6.N, win6_0.index t (0 : Fin 2) = t.val ∧ win6_0.index t (1 : Fin 2) = 0 :=
  (by decide +kernel : ∀ t : Fin grid6.N, _)
theorem val6_idx_14 : ∀ t : Fin cfg6.N, win6_14.index t (0 : Fin 2) = t.val ∧ win6_14.index t (1 : Fin 2) = 0 :=
  (by decide +kernel : ∀ t : Fin grid6.N, _)
theorem val6_idx_1 : ∀ t : Fin cfg6.N, win6_1.index t (0 : Fin 2) = 0 ∧ win6_1.index t (1 : Fin 2) = 0 :=
  (by decide +kernel : ∀ t : Fin grid6.N, _)
theorem val6_idx_2 : ∀ t : Fin cfg6.N, win6_2.index t (0 : Fin 2) = 0 ∧ win6_2.index t (1 : Fin 2) = 0 :=
  (by decide +kernel : ∀ t : Fin grid6.N, _)
theorem val6_idx_3 : ∀ t : Fin cfg6.N, win6_3.index t (0 : Fin 2) = 0 ∧ win6_3.index t (1 : Fin 2) = 0 :=
  (by decide +kernel : ∀ t : Fin grid6.N, _)
theorem val6_idx_4 : ∀ t : Fin cfg6.N, win6_4.index t (0 : Fin 2) = 0 ∧ win6_4.index t (1 : Fin 2) = 0 :=
  (by decide +kernel : ∀ t : Fin grid6.N, _)
theorem val6_idx_5 : ∀ t : Fin cfg6.N, win6_5.index t (0 : Fin 2) = 0 ∧ win6_5.index t (1 : Fin 2) = 0 :=
  (by decide +kernel : ∀ t : Fin grid6.N, _)
theorem val6_idx_6 : ∀ t : Fin cfg6.N, win6_6.index t (0 : Fin 2) = 0 ∧ win6_6.index t (1 : Fin 2) = 0 :=
  (by decide +kernel : ∀ t : Fin grid6.N, _)
theorem val6_idx_7 : ∀ t : Fin cfg6.N, win6_7.index t (0 : Fin 2) = 0 ∧ win6_7.index t (1 : Fin 2) = 0 :=
  (by decide +kernel : ∀ t : Fin grid6.N, _)
theorem val6_idx_8 : ∀ t : Fin cfg6.N, win6_8.index t (0 : Fin 2) = 0 ∧ win6_8.index t (1 : Fin 2) = 0 :=
  (by decide +kernel : ∀ t : Fin grid6.N, _)
theorem val6_idx_9 : ∀ t : Fin cfg6.N, win6_9.index t (0 : Fin 2) = 0 ∧ win6_9.index t (1 : Fin 2) = 0 :=
  (by decide +kernel : ∀ t : Fin grid6.N, _)
theorem val6_idx_10 : ∀ t : Fin cfg6.N, win6_10.index t (0 : Fin 2) = 0 ∧ win6_10.index t (1 : Fin 2) = 0 :=
  (by decide +kernel : ∀ t : Fin grid6.N, _)
theorem val6_idx_11 : ∀ t : Fin cfg6.N, win6_11.index t (0 : Fin 2) = 0 ∧ win6_11.index t (1 : Fin 2) = 0 :=
  (by decide +kernel : ∀ t : Fin grid6.N, _)
theorem val6_idx_12 : ∀ t : Fin cfg6.N, win6_12.index t (0 : Fin 2) = 0 ∧ win6_12.index t (1 : Fin 2) = 0 :=
  (by decide +kernel : ∀ t : Fin grid6.N, _)
theorem val6_idx_13 : ∀ t : Fin cfg6.N, win6_13.index t (0 : Fin 2) = 0 ∧ win6_13.index t (1 : Fin 2) = 0 :=
  (by decide +kernel : ∀ t : Fin grid6.N, _)

/-- The activation window's block at point t is rows 256·t … 256·t + 255 of its array. -/
theorem blk6_0 (c : Dev nD) (t : Fin cfg6.N) (p : Fin 256) (d : Fin 1024) (r : Fin 2048) (hr : r.val = t.val * 256 + p.val) :
    (iblk6 (F := Ideal) V c 0 t : S256x1024.Idx → EReal) (ix2 p d)
      = (V c (Pipeline.arrRef spec6 0) : S2048x1024.Idx → EReal) (ix2 r d) := by
  obtain ⟨e0, e1⟩ := val6_idx_0 t
  unfold iblk6
  rw [View.read_apply]
  show (V c (Pipeline.arrRef spec6 0) : S2048x1024.Idx → EReal) _ = _
  refine congrArg (V c (Pipeline.arrRef spec6 0) : S2048x1024.Idx → EReal) ?_
  funext a; apply Fin.ext
  match a with
  | ⟨0, _⟩ => show win6_0.index t (0 : Fin 2) * 256 + 1 * p.val = r.val; rw [e0, hr]; omega
  | ⟨1, _⟩ => show win6_0.index t (1 : Fin 2) * 1024 + 1 * d.val = d.val; rw [e1]; omega

/-- A parameter window's block is its whole array, at every point. -/
theorem blk6_1 (c : Dev nD) (t : Fin cfg6.N) :
    (iblk6 (F := Ideal) V c 1 t : S1x1024.Idx → EReal) = (V c (Pipeline.arrRef spec6 1) : S1x1024.Idx → EReal) := by
  obtain ⟨e0, e1⟩ := val6_idx_1 t
  funext y
  unfold iblk6
  rw [View.read_apply]
  show (V c (Pipeline.arrRef spec6 1) : S1x1024.Idx → EReal) _ = _
  refine congrArg (V c (Pipeline.arrRef spec6 1) : S1x1024.Idx → EReal) ?_
  funext a; apply Fin.ext
  match a with
  | ⟨0, _⟩ => show win6_1.index t (0 : Fin 2) * 1 + 1 * (y 0).val = (y 0).val; rw [e0]; omega
  | ⟨1, _⟩ => show win6_1.index t (1 : Fin 2) * 1024 + 1 * (y 1).val = (y 1).val; rw [e1]; omega
theorem blk6_2 (c : Dev nD) (t : Fin cfg6.N) :
    (iblk6 (F := Ideal) V c 2 t : S1x1024.Idx → EReal) = (V c (Pipeline.arrRef spec6 2) : S1x1024.Idx → EReal) := by
  obtain ⟨e0, e1⟩ := val6_idx_2 t
  funext y
  unfold iblk6
  rw [View.read_apply]
  show (V c (Pipeline.arrRef spec6 2) : S1x1024.Idx → EReal) _ = _
  refine congrArg (V c (Pipeline.arrRef spec6 2) : S1x1024.Idx → EReal) ?_
  funext a; apply Fin.ext
  match a with
  | ⟨0, _⟩ => show win6_2.index t (0 : Fin 2) * 1 + 1 * (y 0).val = (y 0).val; rw [e0]; omega
  | ⟨1, _⟩ => show win6_2.index t (1 : Fin 2) * 1024 + 1 * (y 1).val = (y 1).val; rw [e1]; omega
theorem blk6_3 (c : Dev nD) (t : Fin cfg6.N) :
    (iblk6 (F := Ideal) V c 3 t : S1x1024.Idx → EReal) = (V c (Pipeline.arrRef spec6 3) : S1x1024.Idx → EReal) := by
  obtain ⟨e0, e1⟩ := val6_idx_3 t
  funext y
  unfold iblk6
  rw [View.read_apply]
  show (V c (Pipeline.arrRef spec6 3) : S1x1024.Idx → EReal) _ = _
  refine congrArg (V c (Pipeline.arrRef spec6 3) : S1x1024.Idx → EReal) ?_
  funext a; apply Fin.ext
  match a with
  | ⟨0, _⟩ => show win6_3.index t (0 : Fin 2) * 1 + 1 * (y 0).val = (y 0).val; rw [e0]; omega
  | ⟨1, _⟩ => show win6_3.index t (1 : Fin 2) * 1024 + 1 * (y 1).val = (y 1).val; rw [e1]; omega
theorem blk6_4 (c : Dev nD) (t : Fin cfg6.N) :
    (iblk6 (F := Ideal) V c 4 t : S1x1024.Idx → EReal) = (V c (Pipeline.arrRef spec6 4) : S1x1024.Idx → EReal) := by
  obtain ⟨e0, e1⟩ := val6_idx_4 t
  funext y
  unfold iblk6
  rw [View.read_apply]
  show (V c (Pipeline.arrRef spec6 4) : S1x1024.Idx → EReal) _ = _
  refine congrArg (V c (Pipeline.arrRef spec6 4) : S1x1024.Idx → EReal) ?_
  funext a; apply Fin.ext
  match a with
  | ⟨0, _⟩ => show win6_4.index t (0 : Fin 2) * 1 + 1 * (y 0).val = (y 0).val; rw [e0]; omega
  | ⟨1, _⟩ => show win6_4.index t (1 : Fin 2) * 1024 + 1 * (y 1).val = (y 1).val; rw [e1]; omega
theorem blk6_5 (c : Dev nD) (t : Fin cfg6.N) :
    (iblk6 (F := Ideal) V c 5 t : S1x1024.Idx → EReal) = (V c (Pipeline.arrRef spec6 5) : S1x1024.Idx → EReal) := by
  obtain ⟨e0, e1⟩ := val6_idx_5 t
  funext y
  unfold iblk6
  rw [View.read_apply]
  show (V c (Pipeline.arrRef spec6 5) : S1x1024.Idx → EReal) _ = _
  refine congrArg (V c (Pipeline.arrRef spec6 5) : S1x1024.Idx → EReal) ?_
  funext a; apply Fin.ext
  match a with
  | ⟨0, _⟩ => show win6_5.index t (0 : Fin 2) * 1 + 1 * (y 0).val = (y 0).val; rw [e0]; omega
  | ⟨1, _⟩ => show win6_5.index t (1 : Fin 2) * 1024 + 1 * (y 1).val = (y 1).val; rw [e1]; omega
theorem blk6_6 (c : Dev nD) (t : Fin cfg6.N) :
    (iblk6 (F := Ideal) V c 6 t : S1x1024.Idx → EReal) = (V c (Pipeline.arrRef spec6 6) : S1x1024.Idx → EReal) := by
  obtain ⟨e0, e1⟩ := val6_idx_6 t
  funext y
  unfold iblk6
  rw [View.read_apply]
  show (V c (Pipeline.arrRef spec6 6) : S1x1024.Idx → EReal) _ = _
  refine congrArg (V c (Pipeline.arrRef spec6 6) : S1x1024.Idx → EReal) ?_
  funext a; apply Fin.ext
  match a with
  | ⟨0, _⟩ => show win6_6.index t (0 : Fin 2) * 1 + 1 * (y 0).val = (y 0).val; rw [e0]; omega
  | ⟨1, _⟩ => show win6_6.index t (1 : Fin 2) * 1024 + 1 * (y 1).val = (y 1).val; rw [e1]; omega
theorem blk6_7 (c : Dev nD) (t : Fin cfg6.N) :
    (iblk6 (F := Ideal) V c 7 t : S1x1024.Idx → EReal) = (V c (Pipeline.arrRef spec6 7) : S1x1024.Idx → EReal) := by
  obtain ⟨e0, e1⟩ := val6_idx_7 t
  funext y
  unfold iblk6
  rw [View.read_apply]
  show (V c (Pipeline.arrRef spec6 7) : S1x1024.Idx → EReal) _ = _
  refine congrArg (V c (Pipeline.arrRef spec6 7) : S1x1024.Idx → EReal) ?_
  funext a; apply Fin.ext
  match a with
  | ⟨0, _⟩ => show win6_7.index t (0 : Fin 2) * 1 + 1 * (y 0).val = (y 0).val; rw [e0]; omega
  | ⟨1, _⟩ => show win6_7.index t (1 : Fin 2) * 1024 + 1 * (y 1).val = (y 1).val; rw [e1]; omega
theorem blk6_8 (c : Dev nD) (t : Fin cfg6.N) :
    (iblk6 (F := Ideal) V c 8 t : S1x1024.Idx → EReal) = (V c (Pipeline.arrRef spec6 8) : S1x1024.Idx → EReal) := by
  obtain ⟨e0, e1⟩ := val6_idx_8 t
  funext y
  unfold iblk6
  rw [View.read_apply]
  show (V c (Pipeline.arrRef spec6 8) : S1x1024.Idx → EReal) _ = _
  refine congrArg (V c (Pipeline.arrRef spec6 8) : S1x1024.Idx → EReal) ?_
  funext a; apply Fin.ext
  match a with
  | ⟨0, _⟩ => show win6_8.index t (0 : Fin 2) * 1 + 1 * (y 0).val = (y 0).val; rw [e0]; omega
  | ⟨1, _⟩ => show win6_8.index t (1 : Fin 2) * 1024 + 1 * (y 1).val = (y 1).val; rw [e1]; omega
theorem blk6_9 (c : Dev nD) (t : Fin cfg6.N) :
    (iblk6 (F := Ideal) V c 9 t : S1x1024.Idx → EReal) = (V c (Pipeline.arrRef spec6 9) : S1x1024.Idx → EReal) := by
  obtain ⟨e0, e1⟩ := val6_idx_9 t
  funext y
  unfold iblk6
  rw [View.read_apply]
  show (V c (Pipeline.arrRef spec6 9) : S1x1024.Idx → EReal) _ = _
  refine congrArg (V c (Pipeline.arrRef spec6 9) : S1x1024.Idx → EReal) ?_
  funext a; apply Fin.ext
  match a with
  | ⟨0, _⟩ => show win6_9.index t (0 : Fin 2) * 1 + 1 * (y 0).val = (y 0).val; rw [e0]; omega
  | ⟨1, _⟩ => show win6_9.index t (1 : Fin 2) * 1024 + 1 * (y 1).val = (y 1).val; rw [e1]; omega
theorem blk6_10 (c : Dev nD) (t : Fin cfg6.N) :
    (iblk6 (F := Ideal) V c 10 t : S1024x1024.Idx → EReal) = (V c (Pipeline.arrRef spec6 10) : S1024x1024.Idx → EReal) := by
  obtain ⟨e0, e1⟩ := val6_idx_10 t
  funext y
  unfold iblk6
  rw [View.read_apply]
  show (V c (Pipeline.arrRef spec6 10) : S1024x1024.Idx → EReal) _ = _
  refine congrArg (V c (Pipeline.arrRef spec6 10) : S1024x1024.Idx → EReal) ?_
  funext a; apply Fin.ext
  match a with
  | ⟨0, _⟩ => show win6_10.index t (0 : Fin 2) * 1024 + 1 * (y 0).val = (y 0).val; rw [e0]; omega
  | ⟨1, _⟩ => show win6_10.index t (1 : Fin 2) * 1024 + 1 * (y 1).val = (y 1).val; rw [e1]; omega
theorem blk6_11 (c : Dev nD) (t : Fin cfg6.N) :
    (iblk6 (F := Ideal) V c 11 t : S1024x1024.Idx → EReal) = (V c (Pipeline.arrRef spec6 11) : S1024x1024.Idx → EReal) := by
  obtain ⟨e0, e1⟩ := val6_idx_11 t
  funext y
  unfold iblk6
  rw [View.read_apply]
  show (V c (Pipeline.arrRef spec6 11) : S1024x1024.Idx → EReal) _ = _
  refine congrArg (V c (Pipeline.arrRef spec6 11) : S1024x1024.Idx → EReal) ?_
  funext a; apply Fin.ext
  match a with
  | ⟨0, _⟩ => show win6_11.index t (0 : Fin 2) * 1024 + 1 * (y 0).val = (y 0).val; rw [e0]; omega
  | ⟨1, _⟩ => show win6_11.index t (1 : Fin 2) * 1024 + 1 * (y 1).val = (y 1).val; rw [e1]; omega
theorem blk6_12 (c : Dev nD) (t : Fin cfg6.N) :
    (iblk6 (F := Ideal) V c 12 t : S1024x1024.Idx → EReal) = (V c (Pipeline.arrRef spec6 12) : S1024x1024.Idx → EReal) := by
  obtain ⟨e0, e1⟩ := val6_idx_12 t
  funext y
  unfold iblk6
  rw [View.read_apply]
  show (V c (Pipeline.arrRef spec6 12) : S1024x1024.Idx → EReal) _ = _
  refine congrArg (V c (Pipeline.arrRef spec6 12) : S1024x1024.Idx → EReal) ?_
  funext a; apply Fin.ext
  match a with
  | ⟨0, _⟩ => show win6_12.index t (0 : Fin 2) * 1024 + 1 * (y 0).val = (y 0).val; rw [e0]; omega
  | ⟨1, _⟩ => show win6_12.index t (1 : Fin 2) * 1024 + 1 * (y 1).val = (y 1).val; rw [e1]; omega
theorem blk6_13 (c : Dev nD) (t : Fin cfg6.N) :
    (iblk6 (F := Ideal) V c 13 t : S1024x1024.Idx → EReal) = (V c (Pipeline.arrRef spec6 13) : S1024x1024.Idx → EReal) := by
  obtain ⟨e0, e1⟩ := val6_idx_13 t
  funext y
  unfold iblk6
  rw [View.read_apply]
  show (V c (Pipeline.arrRef spec6 13) : S1024x1024.Idx → EReal) _ = _
  refine congrArg (V c (Pipeline.arrRef spec6 13) : S1024x1024.Idx → EReal) ?_
  funext a; apply Fin.ext
  match a with
  | ⟨0, _⟩ => show win6_13.index t (0 : Fin 2) * 1024 + 1 * (y 0).val = (y 0).val; rw [e0]; omega
  | ⟨1, _⟩ => show win6_13.index t (1 : Fin 2) * 1024 + 1 * (y 1).val = (y 1).val; rw [e1]; omega

/-! ## The result array -/

/-- The layer's parameters, read off the region's thirteen parameter arrays. -/
def attnP6 (c : Dev nD) : Cert.Spec.AttnP :=
  attnP6_of (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10)) (V c (Pipeline.arrRef spec6 11)) (V c (Pipeline.arrRef spec6 12)) (V c (Pipeline.arrRef spec6 13))

/-- Row r of the region's activation array. -/
def xrow6 (c : Dev nD) (r : Fin 2048) : Cert.Spec.Row :=
  fun d => (V c (Pipeline.arrRef spec6 0) : S2048x1024.Idx → EReal) (ix2 r d)

/-- The whole result as one function of the region's arrays: row r is the layer applied to row r of the activations. -/
def arr6_G (c : Dev nD) : S2048x1024.Idx → EReal :=
  fun i => Cert.Spec.attnRow (attnP6 V c) (xrow6 V c (i 0)) (i 1)

/-- At every point the thirteen parameter blocks hold the layer's parameters. -/
theorem row6_P (c : Dev nD) (t : Fin cfg6.N) :
    attnP6_of (iblk6 (F := Ideal) V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) = attnP6 V c :=
  attnP6_congr (blk6_1 V c t) (blk6_2 V c t) (blk6_3 V c t) (blk6_4 V c t) (blk6_5 V c t) (blk6_6 V c t) (blk6_7 V c t) (blk6_8 V c t) (blk6_9 V c t) (blk6_10 V c t) (blk6_11 V c t) (blk6_12 V c t) (blk6_13 V c t)

/-- Row p of the activation block at point t is row 256·t + p of the activation array. -/
theorem row6_x (c : Dev nD) (t : Fin cfg6.N) (p : Fin 256) (r : Fin 2048) (hr : r.val = t.val * 256 + p.val) :
    (fun k => (iblk6 (F := Ideal) V c 0 t : S256x1024.Idx → EReal) (ix2 p k)) = xrow6 V c r :=
  funext fun k => blk6_0 V c t p k r hr

/-- What point t writes back is its block of 256 rows of the whole result: the stored entry (p, o) is the layer on
    row p of the activation block, which is row 256·t + p of the array, and the block lands on those same rows. -/
theorem flushed6_eq (c : Dev nD) (t : Fin cfg6.N) :
    (dat6 (F := Ideal) V c).flushed 14 t = ((cfg6.win 14).blk t).view.read (Elt Ideal) (arr6_G V c) := by
  obtain ⟨e0, e1⟩ := val6_idx_14 t
  have hN : cfg6.N = 8 := N_6
  have ht : t.val < 8 := hN ▸ t.isLt
  show (cfg6.win 14).cut (grid6.coords t) ((dat6 (F := Ideal) V c).after 14 t) = _
  rw [after6_14]
  funext j
  have hj0 : (j 0).val < 256 := (j 0).isLt
  have hj1 : (j 1).val < 1024 := (j 1).isLt
  obtain ⟨p, hp⟩ : ∃ p : Fin 256, p.val = (j 0).val := ⟨⟨(j 0).val, hj0⟩, rfl⟩
  obtain ⟨o, ho⟩ : ∃ o : Fin 1024, o.val = (j 1).val := ⟨⟨(j 1).val, hj1⟩, rfl⟩
  obtain ⟨r, hr⟩ : ∃ r : Fin 2048, r.val = t.val * 256 + p.val := ⟨⟨t.val * 256 + p.val, by omega⟩, rfl⟩
  have hy : ((cfg6.win 14).xinj (grid6.coords t) j : S256x1024.Idx) = ix2 p o := by
    funext a; apply Fin.ext
    match a with
    | ⟨0, _⟩ => exact hp.symm
    | ⟨1, _⟩ => exact ho.symm
  have hemb : (((cfg6.win 14).blk t).view.emb j : S2048x1024.Idx) = ix2 r o := by
    funext a; apply Fin.ext
    match a with
    | ⟨0, _⟩ => show win6_14.index t (0 : Fin 2) * 256 + 1 * (j 0).val = r.val; rw [e0, hr, hp]; omega
    | ⟨1, _⟩ => show win6_14.index t (1 : Fin 2) * 1024 + 1 * (j 1).val = o.val; rw [e1, ho]; omega
  rw [View.read_apply]
  show out6_14 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) ((cfg6.win 14).xinj (grid6.coords t) j)
    = arr6_G V c (((cfg6.win 14).blk t).view.emb j)
  rw [hy, hemb]
  refine (val6_out (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) p o).trans ?_
  show Cert.Spec.attnRow (attnP6_of (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t)) (fun k => (iblk6 V c 0 t : S256x1024.Idx → EReal) (ix2 p k)) o
    = Cert.Spec.attnRow (attnP6 V c) (xrow6 V c r) o
  exact congrArg₂ (fun P x => Cert.Spec.attnRow P x o) (row6_P V c t) (row6_x V c t p r hr)

/-- Every entry of the result array is in the block some point writes back: row r is in the block of point r / 256. -/
theorem val6_cover (i : S2048x1024.Idx) :
    ∃ t : Fin cfg6.N, (cfg6.win 14).flush t = true ∧ i ∈ ((cfg6.win 14).blk t).view.set := by
  have h0 : (i 0).val < 2048 := (i 0).isLt
  have h1 : (i 1).val < 1024 := (i 1).isLt
  have hN : cfg6.N = 8 := N_6
  obtain ⟨t, ht⟩ : ∃ t : Fin cfg6.N, t.val = (i 0).val / 256 := ⟨⟨(i 0).val / 256, by rw [hN]; omega⟩, rfl⟩
  obtain ⟨e0, e1⟩ := val6_idx_14 t
  refine ⟨t, flush6_14 t, ?_⟩
  show i ∈ ((View.whole (Pipeline.arrRef spec6 14)).slice (win6_14.rect t)).set
  rw [View.set_slice_whole, Rect.mem_set_unit]
  intro a
  match a with
  | ⟨0, _⟩ =>
    show win6_14.index t (0 : Fin 2) * 256 ≤ (i 0).val ∧ (i 0).val < win6_14.index t (0 : Fin 2) * 256 + 256
    rw [e0, ht]; omega
  | ⟨1, _⟩ =>
    show win6_14.index t (1 : Fin 2) * 1024 ≤ (i 1).val ∧ (i 1).val < win6_14.index t (1 : Fin 2) * 1024 + 1024
    rw [e1]; omega

/-- After the region the result array holds, row by row, the time-mixing layer of the activation array's rows. -/
theorem arr6_eq (c : Dev nD) : (dat6 (F := Ideal) V c).arrAt 14 cfg6.N = arr6_G V c :=
  (dat6 (F := Ideal) V c).arrAt_eq_of_cover 14 (arr6_G V c) (fun t _ => flushed6_eq V c t) val6_cover

/-- Entry (r, o) of the result array is the layer, with the region's parameters, on row r of the activations, at o. -/
theorem final6 (c : Dev nD) (r : Fin 2048) (o : Fin 1024) :
    ((dat6 (F := Ideal) V c).arrAt 14 cfg6.N : S2048x1024.Idx → EReal) (ix2 r o)
      = Cert.Spec.attnRow (attnP6 V c) (xrow6 V c r) o :=
  congrFun (arr6_eq V c) (ix2 r o)

end Cert.KernelIdeal.Val

end
-- ==== Proof.ValFfn7.lean ====
/- The value of region 1 (the feed-forward call) at the ideal reals: the array the region writes holds, row by row, the
   channel-mixing layer of the specification applied to that row of the state the region is entered with, the layer's
   parameters read off the region's other arrays. First the body's payloads at an index (layer normalisation, the two
   mixes, a block product as a sum over its contraction, one chunk's step of the accumulator); then one tile's value:
   the four chunks' steps over zero regroup to the one sum over the 4096 hidden units; then the windows' blocks as parts
   of their arrays, what a tile's last point writes back, the cover of the array by those blocks, and the result. -/
import proofs.«415492_j738734375128_3_alg».proof.Proof.Region7
import proofs.«415492_j738734375128_3_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin

noncomputable section

namespace Cert.KernelIdeal.Val

open Cert.KernelIdeal Cert.KernelIdeal.Gen
open Idealize.ShloMosaic Idealize.ShloMosaic.ValueIdx

/-! Everything but the three results lives in a namespace of this region's own. -/
namespace Ffn7

/-! ## Layout operations at an index: the column forms -/

/-- An `[a]` array cast to `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` (more than one row) reads, at `(p, c)`, the column at `p`. -/
theorem broadcastTo_a1_ab_apply {α : Type} {a b : ℕ} (ha : a ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-! ## The block product at an index -/

/-- The left operand's row is the output's row, -/
theorem lhs_dot_0 (j : S256x1024.Idx) (k : dot_S256x1024_S1024x1024_S256x1024_1_1_0_0_n_n.contr.Idx) :
    ((dot_S256x1024_S1024x1024_S256x1024_1_1_0_0_n_n.lhsIdx j k) 0).val = (j 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl
/-- its column the contraction position; -/
theorem lhs_dot_1 (j : S256x1024.Idx) (k : dot_S256x1024_S1024x1024_S256x1024_1_1_0_0_n_n.contr.Idx) :
    ((dot_S256x1024_S1024x1024_S256x1024_1_1_0_0_n_n.lhsIdx j k) 1).val = (k ⟨0, by decide⟩).val :=
  dot_S256x1024_S1024x1024_S256x1024_1_1_0_0_n_n.lhsIdx_val_of_single (cl := 1) rfl j k
/-- the right operand's row is the output's column, -/
theorem rhs_dot_0 (j : S256x1024.Idx) (k : dot_S256x1024_S1024x1024_S256x1024_1_1_0_0_n_n.contr.Idx) :
    ((dot_S256x1024_S1024x1024_S256x1024_1_1_0_0_n_n.rhsIdx j k) 0).val = (j 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl
/-- its column the contraction position. -/
theorem rhs_dot_1 (j : S256x1024.Idx) (k : dot_S256x1024_S1024x1024_S256x1024_1_1_0_0_n_n.contr.Idx) :
    ((dot_S256x1024_S1024x1024_S256x1024_1_1_0_0_n_n.rhsIdx j k) 1).val = (k ⟨0, by decide⟩).val :=
  dot_S256x1024_S1024x1024_S256x1024_1_1_0_0_n_n.rhsIdx_val_of_single (cr := 1) rfl j k

/-- A block product into the zero accumulator, at row `p` and output `o`: the sum over the 1024 contraction positions
    of the left operand's row times the right operand's ROW `o` (the right operand is contracted along its columns). -/
theorem matmul_k7_apply (lhs : FVec Ideal S256x1024 .bf16) (rhs : FVec Ideal S1024x1024 .bf16) (p : Fin 256) (o : Fin 1024) :
    matmul dot_S256x1024_S1024x1024_S256x1024_1_1_0_0_n_n none lhs rhs (constant (F := Ideal) S256x1024 .f32 0x00000000#32) (ix2 p o)
      = ∑ k : Fin 1024, lhs (ix2 p k) * rhs (ix2 o k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have hl : dot_S256x1024_S1024x1024_S256x1024_1_1_0_0_n_n.lhsIdx (ix2 p o) ((contrEquiv1 dot_S256x1024_S1024x1024_S256x1024_1_1_0_0_n_n 1024 rfl rfl).symm k) = ix2 p k := by
    funext a; apply Fin.ext
    match a with
    | ⟨0, _⟩ => exact lhs_dot_0 _ _
    | ⟨1, _⟩ => exact (lhs_dot_1 _ _).trans hk
  have hr : dot_S256x1024_S1024x1024_S256x1024_1_1_0_0_n_n.rhsIdx (ix2 p o) ((contrEquiv1 dot_S256x1024_S1024x1024_S256x1024_1_1_0_0_n_n 1024 rfl rfl).symm k) = ix2 o k := by
    funext a; apply Fin.ext
    match a with
    | ⟨0, _⟩ => exact rhs_dot_0 _ _
    | ⟨1, _⟩ => exact (rhs_dot_1 _ _).trans hk
  rw [hl, hr]

/-! ## The payloads at an index -/

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-- A lane sum kept as a column: at `(q, u)` the sum of row `q`. -/
theorem rowSum_apply (y : FVec Ideal S256x1024 .f32) (hφ : FKind.Formats .f32)
    (hacc : (0x00000000#32 : BitVec 32) = FKind.add.neutral .f32 hφ) (q : Fin 256) (u : Fin 1) :
    shapeCast S256x1 (multiReduction (F := Ideal) .add [1] S256 y 0x00000000#32 reduces_S256x1024_S256 hφ hacc) shapeCasts_S256_S256x1 (ix2 q u)
      = ∑ e : Fin 1024, y (ix2 q e) :=
  (shapeCast_a_a1_apply _ _ q u).trans
    ((Ideal.multiReduction_add_single y 0x00000000#32 reduces_S256x1024_S256 hφ hacc (ix1 q)).trans
      (Finset.sum_congr rfl fun e _ => congrArg y (funext fun a => by match a with | ⟨0, _⟩ => rfl | ⟨1, _⟩ => rfl)))

/-- The column of row means of a tile: each row's lane sum divided by the row length. -/
def meanCol (y : FVec Ideal S256x1024 .f32) : FVec Ideal S256x1 .f32 :=
  divf (shapeCast S256x1 (multiReduction (F := Ideal) .add [1] S256 y 0x00000000#32 reduces_S256x1024_S256 (.inl rfl) rfl) shapeCasts_S256_S256x1)
    (broadcast S256x1 (Scalar.ofBits .f32 0x44800000#32))

theorem meanCol_apply (y : FVec Ideal S256x1024 .f32) (q : Fin 256) (u : Fin 1) :
    meanCol y (ix2 q u) = Ideal.div (∑ e : Fin 1024, y (ix2 q e)) Cert.Spec.c1024 :=
  congrArg (fun s => Ideal.div s Cert.Spec.c1024) (rowSum_apply y (.inl rfl) rfl q u)

/-- The normalised tile as the body computes it: centre each row on its mean, scale by the reciprocal root of the mean
    squared deviation plus the small constant, then gain and bias. -/
theorem k7_pay6_eq (xt : FVec Ideal S256x1024 .f32) (w b : FVec Ideal S1x1024 .f32) :
    k7_pay6 (F := Ideal) xt w b
      = addf (mulf (mulf (subf xt (broadcastTo S256x1024 (meanCol xt) broadcasts_S256x1_S256x1024))
            (broadcastTo S256x1024 (rsqrt (addf
              (meanCol (mulf (subf xt (broadcastTo S256x1024 (meanCol xt) broadcasts_S256x1_S256x1024))
                (subf xt (broadcastTo S256x1024 (meanCol xt) broadcasts_S256x1_S256x1024))))
              (broadcast S256x1 (Scalar.ofBits .f32 0x3727C5AC#32)))) broadcasts_S256x1_S256x1024))
          (broadcastTo S256x1024 w broadcasts_S1x1024_S256x1024))
        (broadcastTo S256x1024 b broadcasts_S1x1024_S256x1024) := by
  unfold k7_pay6 k7_pay5 meanCol
  simp only [shapeCast_self]

/-- The normalised row tile: row `p` of the block, layer-normalised with the gain and bias rows. -/
theorem k7_pay6_apply (xt : FVec Ideal S256x1024 .f32) (w b : FVec Ideal S1x1024 .f32) (p : Fin 256) (d : Fin 1024) :
    k7_pay6 (F := Ideal) xt w b (ix2 p d)
      = Cert.Spec.lnRow (fun e => w (ix2 (0 : Fin 1) e)) (fun e => b (ix2 (0 : Fin 1) e)) (fun e => xt (ix2 p e)) d := by
  rw [k7_pay6_eq]
  simp only [addf_apply, mulf_apply, subf_apply, rsqrt_apply, broadcast_apply,
    broadcastTo_1b_ab_apply, broadcastTo_a1_ab_apply (show (256 : ℕ) ≠ 1 by decide), meanCol_apply]
  rfl

/-- The key's operand at one point: the normalised tile mixed with the carried row by the key's mixing row. -/
theorem keyMix_apply (xt : FVec Ideal S256x1024 .f32) (w b sx mk : FVec Ideal S1x1024 .f32) (p : Fin 256) (d : Fin 1024) :
    k7_pay10 (F := Ideal) xt w b mk (ix2 p d) + k7_pay11 (F := Ideal) sx mk (ix2 p d)
      = Cert.Spec.mixRow (Cert.Spec.lnRow (fun e => w (ix2 (0 : Fin 1) e)) (fun e => b (ix2 (0 : Fin 1) e)) (fun e => xt (ix2 p e)))
          (fun e => sx (ix2 (0 : Fin 1) e)) (fun e => mk (ix2 (0 : Fin 1) e)) d := by
  unfold k7_pay10 k7_pay11 k7_pay7 k7_pay8
  simp only [shapeCast_self, mulf_apply, subf_apply, broadcast_apply, broadcastTo_1b_ab_apply, k7_pay6_apply]
  rfl

/-- One chunk's step of the accumulator, at row `p` and output `o`: the accumulator there plus, over the chunk's 1024
    hidden units, the squared rectified key (the key's operand projected by the chunk's rows of the key matrix) times
    the chunk's entries of the value matrix's row `o`. -/
theorem k7_pay3_apply (kl kr : FVec Ideal S256x1024 .f32) (wk : FVec Ideal S1024x1024 .bf16) (acc : FVec Ideal S256x1024 .f32)
    (wv : FVec Ideal S1024x1024 .bf16) (p : Fin 256) (o : Fin 1024) :
    k7_pay3 (F := Ideal) kl kr wk acc wv (ix2 p o)
      = acc (ix2 p o) + ∑ f : Fin 1024,
          (max (∑ d : Fin 1024, (kl (ix2 p d) + kr (ix2 p d)) * wk (ix2 f d)) Cert.Spec.czero
            * max (∑ d : Fin 1024, (kl (ix2 p d) + kr (ix2 p d)) * wk (ix2 f d)) Cert.Spec.czero) * wv (ix2 o f) := by
  unfold k7_pay3
  simp only [shapeCast_self, addf_apply, mulf_apply, maximumf_apply, truncf_apply, broadcast_apply, matmul_k7_apply]
  rfl

/-- The second scratch buffer's contents, at row `p` and output `o`: the receptance's operand projected by the
    receptance matrix. -/
theorem k7_pay1_apply (h : FVec Ideal S256x1024 .f32) (sx mr : FVec Ideal S1x1024 .f32) (wr : FVec Ideal S1024x1024 .bf16)
    (p : Fin 256) (o : Fin 1024) :
    k7_pay1 (F := Ideal) h sx mr wr (ix2 p o)
      = ∑ d : Fin 1024, (h (ix2 p d) * mr (ix2 (0 : Fin 1) d) + sx (ix2 (0 : Fin 1) d) * (Cert.Spec.cone - mr (ix2 (0 : Fin 1) d))) * wr (ix2 o d) := by
  unfold k7_pay1
  simp only [shapeCast_self, addf_apply, mulf_apply, subf_apply, truncf_apply, broadcast_apply, broadcastTo_1b_ab_apply, matmul_k7_apply]
  rfl

/-- The stored output, at row `p` and output `o`. -/
theorem k7_pay4_apply (xs r acc : FVec Ideal S256x1024 .f32) (p : Fin 256) (o : Fin 1024) :
    k7_pay4 (F := Ideal) xs r acc (ix2 p o) = xs (ix2 p o) + Ideal.logistic (r (ix2 p o)) * acc (ix2 p o) := by
  unfold k7_pay4
  simp only [addf_apply, mulf_apply, logistic_apply]

/-- The fresh accumulator is zero everywhere. -/
theorem k7_pay2_apply (i : S256x1024.Idx) : (k7_pay2 (F := Ideal)) i = 0 := by
  unfold k7_pay2
  simp only [shapeCast_self, broadcast_apply]
  exact Ideal.ofBits_zero_f32

/-! ## One tile's value -/

/-- Position `f` of chunk `q` among the 4096 hidden units. -/
def chunkIdx (q : Fin 4) (f : Fin 1024) : Fin 4096 := ⟨1024 * q.val + f.val, by have := q.isLt; have := f.isLt; omega⟩

/-- A sum over the 4096 hidden units is the sum over the four chunks of each chunk's sum. -/
theorem sum_chunks {M : Type} [AddCommMonoid M] (g : Fin 4096 → M) :
    ∑ f' : Fin 4096, g f' = ∑ q : Fin 4, ∑ f : Fin 1024, g (chunkIdx q f) := by
  have h := Equiv.sum_comp (finProdFinEquiv (m := 4) (n := 1024)) (fun i : Fin (4 * 1024) => g i)
  rw [Fintype.sum_prod_type] at h
  exact h.symm.trans (Finset.sum_congr rfl fun q _ => Finset.sum_congr rfl fun f _ => congrArg g (Fin.ext (by
    show f.val + 1024 * q.val = 1024 * q.val + f.val; omega)))

/-- The key's operand at a point whose blocks are the layer's rows and the row `x` of the state. -/
theorem keyMixP_apply (P : Cert.Spec.FfnP) (x : Cert.Spec.Row) (xt : FVec Ideal S256x1024 .f32) (w b sx mk : FVec Ideal S1x1024 .f32) (p : Fin 256)
    (hx : ∀ e, xt (ix2 p e) = x e) (hw : ∀ e, w (ix2 (0 : Fin 1) e) = P.lnw e) (hb : ∀ e, b (ix2 (0 : Fin 1) e) = P.lnb e)
    (hsx : ∀ e, sx (ix2 (0 : Fin 1) e) = P.sx e) (hmk : ∀ e, mk (ix2 (0 : Fin 1) e) = P.mixk e) (d : Fin 1024) :
    k7_pay10 (F := Ideal) xt w b mk (ix2 p d) + k7_pay11 (F := Ideal) sx mk (ix2 p d)
      = Cert.Spec.mixRow (Cert.Spec.lnRow P.lnw P.lnb x) P.sx P.mixk d := by
  have ea : (fun e => w (ix2 (0 : Fin 1) e)) = P.lnw := funext hw
  have eb : (fun e => b (ix2 (0 : Fin 1) e)) = P.lnb := funext hb
  have ec : (fun e => xt (ix2 p e)) = x := funext hx
  have ed : (fun e => sx (ix2 (0 : Fin 1) e)) = P.sx := funext hsx
  have ee : (fun e => mk (ix2 (0 : Fin 1) e)) = P.mixk := funext hmk
  rw [keyMix_apply, ea, eb, ec, ed, ee]

/-- The second scratch buffer at such a point: the receptance before its logistic. -/
theorem recept_apply (P : Cert.Spec.FfnP) (x : Cert.Spec.Row) (xt : FVec Ideal S256x1024 .f32) (w b sx mr : FVec Ideal S1x1024 .f32)
    (wr : FVec Ideal S1024x1024 .bf16) (p : Fin 256) (o : Fin 1024)
    (hx : ∀ e, xt (ix2 p e) = x e) (hw : ∀ e, w (ix2 (0 : Fin 1) e) = P.lnw e) (hb : ∀ e, b (ix2 (0 : Fin 1) e) = P.lnb e)
    (hsx : ∀ e, sx (ix2 (0 : Fin 1) e) = P.sx e) (hmr : ∀ e, mr (ix2 (0 : Fin 1) e) = P.mixr e) (hr : ∀ d, wr (ix2 o d) = P.Wr o d) :
    k7_pay1 (F := Ideal) (k7_pay6 xt w b) (k7_pay7 sx) (k7_pay9 mr) wr (ix2 p o)
      = Cert.Spec.proj P.Wr (Cert.Spec.mixRow (Cert.Spec.lnRow P.lnw P.lnb x) P.sx P.mixr) o := by
  have ea : (fun e => w (ix2 (0 : Fin 1) e)) = P.lnw := funext hw
  have eb : (fun e => b (ix2 (0 : Fin 1) e)) = P.lnb := funext hb
  have ec : (fun e => xt (ix2 p e)) = x := funext hx
  rw [k7_pay1_apply]
  unfold k7_pay7 k7_pay9
  simp only [shapeCast_self, k7_pay6_apply, hsx, hmr, hr]
  rw [ea, eb, ec]
  rfl

/-- A TILE'S OUTPUT. The four chunks' steps of the accumulator over zero, the second scratch buffer and the final store,
    at row `p` and output `o`, are the channel-mixing layer on the row: the four chunk sums are one sum over the 4096
    hidden units. Each chunk's key operands are its own point's (they read the same rows at every point of the tile). -/
theorem ffnTile_apply (P : Cert.Spec.FfnP) (x : Cert.Spec.Row) (p : Fin 256) (o : Fin 1024)
    (xs R : FVec Ideal S256x1024 .f32) (kla kra klb krb klc krc kld krd : FVec Ideal S256x1024 .f32)
    (wka wkb wkc wkd wva wvb wvc wvd : FVec Ideal S1024x1024 .bf16)
    (hxs : xs (ix2 p o) = x o)
    (hR : R (ix2 p o) = Cert.Spec.proj P.Wr (Cert.Spec.mixRow (Cert.Spec.lnRow P.lnw P.lnb x) P.sx P.mixr) o)
    (hKa : ∀ d, kla (ix2 p d) + kra (ix2 p d) = Cert.Spec.mixRow (Cert.Spec.lnRow P.lnw P.lnb x) P.sx P.mixk d) (hKb : ∀ d, klb (ix2 p d) + krb (ix2 p d) = Cert.Spec.mixRow (Cert.Spec.lnRow P.lnw P.lnb x) P.sx P.mixk d) (hKc : ∀ d, klc (ix2 p d) + krc (ix2 p d) = Cert.Spec.mixRow (Cert.Spec.lnRow P.lnw P.lnb x) P.sx P.mixk d) (hKd : ∀ d, kld (ix2 p d) + krd (ix2 p d) = Cert.Spec.mixRow (Cert.Spec.lnRow P.lnw P.lnb x) P.sx P.mixk d)
    (hka : ∀ f d, wka (ix2 f d) = P.Wk (chunkIdx 0 f) d) (hkb : ∀ f d, wkb (ix2 f d) = P.Wk (chunkIdx 1 f) d) (hkc : ∀ f d, wkc (ix2 f d) = P.Wk (chunkIdx 2 f) d) (hkd : ∀ f d, wkd (ix2 f d) = P.Wk (chunkIdx 3 f) d)
    (hva : ∀ f, wva (ix2 o f) = P.Wv o (chunkIdx 0 f)) (hvb : ∀ f, wvb (ix2 o f) = P.Wv o (chunkIdx 1 f)) (hvc : ∀ f, wvc (ix2 o f) = P.Wv o (chunkIdx 2 f)) (hvd : ∀ f, wvd (ix2 o f) = P.Wv o (chunkIdx 3 f)) :
    k7_pay4 (F := Ideal) xs R (k7_pay3 kld krd wkd (k7_pay3 klc krc wkc (k7_pay3 klb krb wkb (k7_pay3 kla kra wka (k7_pay2 (F := Ideal)) wva) wvb) wvc) wvd) (ix2 p o)
      = Cert.Spec.ffnRow P x o := by
  rw [k7_pay4_apply, k7_pay3_apply, k7_pay3_apply, k7_pay3_apply, k7_pay3_apply, k7_pay2_apply, zero_add, hxs, hR]
  simp only [hKa, hKb, hKc, hKd, hka, hkb, hkc, hkd, hva, hvb, hvc, hvd]
  unfold Cert.Spec.ffnRow
  rw [show Cert.Spec.proj P.Wv (Cert.Spec.ffnKey P x) o = _ from sum_chunks _, Fin.sum_univ_four]
  rfl

end Ffn7

open Ffn7

/-! # The value of region 1: the output array, row by row -/

open Cert.KernelIdeal.Hand
open Idealize.ShloMosaic.TcCoe Idealize.SL.Sem
open Idealize.ShloMosaic.Pipeline (Dat)

variable (V : (c : Dev nD) → (b : Ref sig .tc) → Buf (Elt Ideal) ((c : Thread nD τ).loc b))

/-- Row `r` of the state the region is entered with (window 0's array). -/
def xrow7 (c : Dev nD) (r : Fin 2048) : Cert.Spec.Row := fun d => V c (Pipeline.arrRef spec7 0) (ix2 r d)

/-- The layer's parameters, read off the arrays of windows 1 to 8. -/
def ffnP7 (c : Dev nD) : Cert.Spec.FfnP where
  lnw d := V c (Pipeline.arrRef spec7 1) (ix2 (0 : Fin 1) d)
  lnb d := V c (Pipeline.arrRef spec7 2) (ix2 (0 : Fin 1) d)
  sx d := V c (Pipeline.arrRef spec7 3) (ix2 (0 : Fin 1) d)
  mixk d := V c (Pipeline.arrRef spec7 4) (ix2 (0 : Fin 1) d)
  mixr d := V c (Pipeline.arrRef spec7 5) (ix2 (0 : Fin 1) d)
  Wk f d := V c (Pipeline.arrRef spec7 6) (ix2 f d)
  Wr o d := V c (Pipeline.arrRef spec7 7) (ix2 o d)
  Wv o f := V c (Pipeline.arrRef spec7 8) (ix2 o f)

namespace Ffn7

/-! ## The windows' blocks, read off the arrays -/

/-- The printed index maps, decided over the grid: window 0 and the output follow the row tile, windows 6 and 8 the
    chunk (on the key matrix's rows and the value matrix's columns), the others do not move. -/
theorem idx7_0 : ∀ t : Fin cfg7.N, win7_0.index t (0 : Fin 2) = t.val / 4 ∧ win7_0.index t (1 : Fin 2) = 0 :=
  (by decide +kernel : ∀ t : Fin grid7.N, _)
theorem idx7_1 : ∀ t : Fin cfg7.N, win7_1.index t (0 : Fin 2) = 0 ∧ win7_1.index t (1 : Fin 2) = 0 :=
  (by decide +kernel : ∀ t : Fin grid7.N, _)
theorem idx7_2 : ∀ t : Fin cfg7.N, win7_2.index t (0 : Fin 2) = 0 ∧ win7_2.index t (1 : Fin 2) = 0 :=
  (by decide +kernel : ∀ t : Fin grid7.N, _)
theorem idx7_3 : ∀ t : Fin cfg7.N, win7_3.index t (0 : Fin 2) = 0 ∧ win7_3.index t (1 : Fin 2) = 0 :=
  (by decide +kernel : ∀ t : Fin grid7.N, _)
theorem idx7_4 : ∀ t : Fin cfg7.N, win7_4.index t (0 : Fin 2) = 0 ∧ win7_4.index t (1 : Fin 2) = 0 :=
  (by decide +kernel : ∀ t : Fin grid7.N, _)
theorem idx7_5 : ∀ t : Fin cfg7.N, win7_5.index t (0 : Fin 2) = 0 ∧ win7_5.index t (1 : Fin 2) = 0 :=
  (by decide +kernel : ∀ t : Fin grid7.N, _)
theorem idx7_7 : ∀ t : Fin cfg7.N, win7_7.index t (0 : Fin 2) = 0 ∧ win7_7.index t (1 : Fin 2) = 0 :=
  (by decide +kernel : ∀ t : Fin grid7.N, _)
theorem idx7_6 : ∀ t : Fin cfg7.N, win7_6.index t (0 : Fin 2) = t.val % 4 ∧ win7_6.index t (1 : Fin 2) = 0 :=
  (by decide +kernel : ∀ t : Fin grid7.N, _)
theorem idx7_8 : ∀ t : Fin cfg7.N, win7_8.index t (0 : Fin 2) = 0 ∧ win7_8.index t (1 : Fin 2) = t.val % 4 :=
  (by decide +kernel : ∀ t : Fin grid7.N, _)
theorem idx7_9 : ∀ t : Fin cfg7.N, win7_9.index t (0 : Fin 2) = t.val / 4 ∧ win7_9.index t (1 : Fin 2) = 0 :=
  (by decide +kernel : ∀ t : Fin grid7.N, _)

/-- Window 0's block at point `t` is rows `256 (t / 4) …` of the state. -/
theorem blk7_0 (c : Dev nD) (t : Fin cfg7.N) (p : Fin 256) (d : Fin 1024) (r : Fin 2048) (hr : r.val = 256 * (t.val / 4) + p.val) :
    (iblk7 V c 0 t : Vec Ideal S256x1024 .f32) (ix2 p d) = xrow7 V c r d := by
  obtain ⟨e0, e1⟩ := idx7_0 t
  unfold iblk7 xrow7
  rw [View.read_apply]
  refine congrArg (V c (Pipeline.arrRef spec7 0)) (funext fun a => Fin.ext ?_)
  match a with
  | ⟨0, _⟩ => show win7_0.index t (0 : Fin 2) * 256 + 1 * p.val = r.val; rw [e0]; omega
  | ⟨1, _⟩ => show win7_0.index t (1 : Fin 2) * 1024 + 1 * d.val = d.val; rw [e1]; omega

/-- Window 1's block is its one-row array, at every point. -/
theorem blk7_1 (c : Dev nD) (t : Fin cfg7.N) (d : Fin 1024) :
    (iblk7 V c 1 t : Vec Ideal S1x1024 .f32) (ix2 (0 : Fin 1) d) = (ffnP7 V c).lnw d := by
  obtain ⟨e0, e1⟩ := idx7_1 t
  unfold iblk7
  rw [View.read_apply]
  refine congrArg (V c (Pipeline.arrRef spec7 1)) (funext fun a => Fin.ext ?_)
  match a with
  | ⟨0, _⟩ => show win7_1.index t (0 : Fin 2) * 1 + 1 * 0 = 0; rw [e0]
  | ⟨1, _⟩ => show win7_1.index t (1 : Fin 2) * 1024 + 1 * d.val = d.val; rw [e1]; omega

/-- Window 2's block is its one-row array, at every point. -/
theorem blk7_2 (c : Dev nD) (t : Fin cfg7.N) (d : Fin 1024) :
    (iblk7 V c 2 t : Vec Ideal S1x1024 .f32) (ix2 (0 : Fin 1) d) = (ffnP7 V c).lnb d := by
  obtain ⟨e0, e1⟩ := idx7_2 t
  unfold iblk7
  rw [View.read_apply]
  refine congrArg (V c (Pipeline.arrRef spec7 2)) (funext fun a => Fin.ext ?_)
  match a with
  | ⟨0, _⟩ => show win7_2.index t (0 : Fin 2) * 1 + 1 * 0 = 0; rw [e0]
  | ⟨1, _⟩ => show win7_2.index t (1 : Fin 2) * 1024 + 1 * d.val = d.val; rw [e1]; omega

/-- Window 3's block is its one-row array, at every point. -/
theorem blk7_3 (c : Dev nD) (t : Fin cfg7.N) (d : Fin 1024) :
    (iblk7 V c 3 t : Vec Ideal S1x1024 .f32) (ix2 (0 : Fin 1) d) = (ffnP7 V c).sx d := by
  obtain ⟨e0, e1⟩ := idx7_3 t
  unfold iblk7
  rw [View.read_apply]
  refine congrArg (V c (Pipeline.arrRef spec7 3)) (funext fun a => Fin.ext ?_)
  match a with
  | ⟨0, _⟩ => show win7_3.index t (0 : Fin 2) * 1 + 1 * 0 = 0; rw [e0]
  | ⟨1, _⟩ => show win7_3.index t (1 : Fin 2) * 1024 + 1 * d.val = d.val; rw [e1]; omega

/-- Window 4's block is its one-row array, at every point. -/
theorem blk7_4 (c : Dev nD) (t : Fin cfg7.N) (d : Fin 1024) :
    (iblk7 V c 4 t : Vec Ideal S1x1024 .f32) (ix2 (0 : Fin 1) d) = (ffnP7 V c).mixk d := by
  obtain ⟨e0, e1⟩ := idx7_4 t
  unfold iblk7
  rw [View.read_apply]
  refine congrArg (V c (Pipeline.arrRef spec7 4)) (funext fun a => Fin.ext ?_)
  match a with
  | ⟨0, _⟩ => show win7_4.index t (0 : Fin 2) * 1 + 1 * 0 = 0; rw [e0]
  | ⟨1, _⟩ => show win7_4.index t (1 : Fin 2) * 1024 + 1 * d.val = d.val; rw [e1]; omega

/-- Window 5's block is its one-row array, at every point. -/
theorem blk7_5 (c : Dev nD) (t : Fin cfg7.N) (d : Fin 1024) :
    (iblk7 V c 5 t : Vec Ideal S1x1024 .f32) (ix2 (0 : Fin 1) d) = (ffnP7 V c).mixr d := by
  obtain ⟨e0, e1⟩ := idx7_5 t
  unfold iblk7
  rw [View.read_apply]
  refine congrArg (V c (Pipeline.arrRef spec7 5)) (funext fun a => Fin.ext ?_)
  match a with
  | ⟨0, _⟩ => show win7_5.index t (0 : Fin 2) * 1 + 1 * 0 = 0; rw [e0]
  | ⟨1, _⟩ => show win7_5.index t (1 : Fin 2) * 1024 + 1 * d.val = d.val; rw [e1]; omega

/-- Window 6's block at point `t` is rows `1024 (t % 4) …` of the key matrix. -/
theorem blk7_6 (c : Dev nD) (t : Fin cfg7.N) (f d : Fin 1024) (g : Fin 4096) (hg : g.val = 1024 * (t.val % 4) + f.val) :
    (iblk7 V c 6 t : Vec Ideal S1024x1024 .bf16) (ix2 f d) = (ffnP7 V c).Wk g d := by
  obtain ⟨e0, e1⟩ := idx7_6 t
  unfold iblk7
  rw [View.read_apply]
  refine congrArg (V c (Pipeline.arrRef spec7 6)) (funext fun a => Fin.ext ?_)
  match a with
  | ⟨0, _⟩ => show win7_6.index t (0 : Fin 2) * 1024 + 1 * f.val = g.val; rw [e0]; omega
  | ⟨1, _⟩ => show win7_6.index t (1 : Fin 2) * 1024 + 1 * d.val = d.val; rw [e1]; omega

/-- Window 7's block is the whole receptance matrix. -/
theorem blk7_7 (c : Dev nD) (t : Fin cfg7.N) (o d : Fin 1024) :
    (iblk7 V c 7 t : Vec Ideal S1024x1024 .bf16) (ix2 o d) = (ffnP7 V c).Wr o d := by
  obtain ⟨e0, e1⟩ := idx7_7 t
  unfold iblk7
  rw [View.read_apply]
  refine congrArg (V c (Pipeline.arrRef spec7 7)) (funext fun a => Fin.ext ?_)
  match a with
  | ⟨0, _⟩ => show win7_7.index t (0 : Fin 2) * 1024 + 1 * o.val = o.val; rw [e0]; omega
  | ⟨1, _⟩ => show win7_7.index t (1 : Fin 2) * 1024 + 1 * d.val = d.val; rw [e1]; omega

/-- Window 8's block at point `t` is columns `1024 (t % 4) …` of the value matrix. -/
theorem blk7_8 (c : Dev nD) (t : Fin cfg7.N) (o f : Fin 1024) (g : Fin 4096) (hg : g.val = 1024 * (t.val % 4) + f.val) :
    (iblk7 V c 8 t : Vec Ideal S1024x1024 .bf16) (ix2 o f) = (ffnP7 V c).Wv o g := by
  obtain ⟨e0, e1⟩ := idx7_8 t
  unfold iblk7
  rw [View.read_apply]
  refine congrArg (V c (Pipeline.arrRef spec7 8)) (funext fun a => Fin.ext ?_)
  match a with
  | ⟨0, _⟩ => show win7_8.index t (0 : Fin 2) * 1024 + 1 * o.val = o.val; rw [e0]; omega
  | ⟨1, _⟩ => show win7_8.index t (1 : Fin 2) * 1024 + 1 * f.val = g.val; rw [e1]; omega

/-! ## A tile's four points -/

/-- Point `q` of tile `T`. -/
def pt7 (T : Fin 8) (q : Fin 4) : Fin cfg7.N :=
  ⟨4 * T.val + q.val, lt_of_lt_of_eq (by have := T.isLt; have := q.isLt; omega : 4 * T.val + q.val < 32) N_7.symm⟩

/-- The scratch buffers after a tile's last point: the accumulator has gone through the four chunks' steps over zero,
    the second buffer is as the tile's first point filled it. -/
theorem sc7_tile (c : Dev nD) (T : Fin 8) :
    sc7 V c ((pt7 T 3).val + 1)
      = (k7_pay3 (k7_pay10 (iblk7 V c 0 (pt7 T 3)) (iblk7 V c 1 (pt7 T 3)) (iblk7 V c 2 (pt7 T 3)) (iblk7 V c 4 (pt7 T 3))) (k7_pay11 (iblk7 V c 3 (pt7 T 3)) (iblk7 V c 4 (pt7 T 3))) (iblk7 V c 6 (pt7 T 3))
          (k7_pay3 (k7_pay10 (iblk7 V c 0 (pt7 T 2)) (iblk7 V c 1 (pt7 T 2)) (iblk7 V c 2 (pt7 T 2)) (iblk7 V c 4 (pt7 T 2))) (k7_pay11 (iblk7 V c 3 (pt7 T 2)) (iblk7 V c 4 (pt7 T 2))) (iblk7 V c 6 (pt7 T 2))
            (k7_pay3 (k7_pay10 (iblk7 V c 0 (pt7 T 1)) (iblk7 V c 1 (pt7 T 1)) (iblk7 V c 2 (pt7 T 1)) (iblk7 V c 4 (pt7 T 1))) (k7_pay11 (iblk7 V c 3 (pt7 T 1)) (iblk7 V c 4 (pt7 T 1))) (iblk7 V c 6 (pt7 T 1))
              (k7_pay3 (k7_pay10 (iblk7 V c 0 (pt7 T 0)) (iblk7 V c 1 (pt7 T 0)) (iblk7 V c 2 (pt7 T 0)) (iblk7 V c 4 (pt7 T 0))) (k7_pay11 (iblk7 V c 3 (pt7 T 0)) (iblk7 V c 4 (pt7 T 0))) (iblk7 V c 6 (pt7 T 0))
                (k7_pay2 (F := Ideal)) (iblk7 V c 8 (pt7 T 0))) (iblk7 V c 8 (pt7 T 1))) (iblk7 V c 8 (pt7 T 2))) (iblk7 V c 8 (pt7 T 3)),
        k7_pay1 (k7_pay6 (iblk7 V c 0 (pt7 T 0)) (iblk7 V c 1 (pt7 T 0)) (iblk7 V c 2 (pt7 T 0))) (k7_pay7 (iblk7 V c 3 (pt7 T 0))) (k7_pay9 (iblk7 V c 5 (pt7 T 0))) (iblk7 V c 7 (pt7 T 0))) := by
  have ha := sc7_zero_chunk V c (pt7 T 0) (by show (4 * T.val + 0) % 4 = 0; omega)
  have hb := sc7_succ V c (pt7 T 1) (by show ¬(4 * T.val + 1) % 4 = 0; omega)
  have hc := sc7_succ V c (pt7 T 2) (by show ¬(4 * T.val + 2) % 4 = 0; omega)
  have hd := sc7_succ V c (pt7 T 3) (by show ¬(4 * T.val + 3) % 4 = 0; omega)
  rw [show sc7 V c (pt7 T 1).val = sc7 V c ((pt7 T 0).val + 1) from rfl, ha] at hb
  rw [show sc7 V c (pt7 T 2).val = sc7 V c ((pt7 T 1).val + 1) from rfl, hb] at hc
  rw [show sc7 V c (pt7 T 3).val = sc7 V c ((pt7 T 2).val + 1) from rfl, hc] at hd
  exact hd

/-- WHAT A TILE'S LAST POINT STORES, at row `p` of the tile and output `o`: the layer on row `256 T + p` of the state. -/
theorem out_tile7 (c : Dev nD) (T : Fin 8) (p : Fin 256) (o : Fin 1024) (r : Fin 2048) (o' : Fin 1024)
    (hr : r.val = 256 * T.val + p.val) (ho : o'.val = o.val) :
    out7_9 V c (pt7 T 3) (ix2 p o) = Cert.Spec.ffnRow (ffnP7 V c) (xrow7 V c r) o' := by
  obtain rfl : o = o' := (Fin.ext ho).symm
  unfold out7_9
  rw [sc7_tile V c T]
  refine ffnTile_apply (ffnP7 V c) (xrow7 V c r) p o _ _ _ _ _ _ _ _ _ _ _ _ _ _ _ _ _ _ ?_ ?_ ?_ ?_ ?_ ?_ ?_ ?_ ?_ ?_ ?_ ?_ ?_ ?_
  · unfold k7_pay5; rw [shapeCast_self]
    exact blk7_0 V c (pt7 T 3) p o r (by show r.val = 256 * ((4 * T.val + 3) / 4) + p.val; omega)
  · exact recept_apply (ffnP7 V c) (xrow7 V c r) _ _ _ _ _ _ p o (fun e => blk7_0 V c (pt7 T 0) p e r (by show r.val = 256 * ((4 * T.val + 0) / 4) + p.val; omega)) (fun e => blk7_1 V c (pt7 T 0) e) (fun e => blk7_2 V c (pt7 T 0) e) (fun e => blk7_3 V c (pt7 T 0) e) (fun e => blk7_5 V c (pt7 T 0) e)
      (fun d => blk7_7 V c (pt7 T 0) o d)
  · exact keyMixP_apply (ffnP7 V c) (xrow7 V c r) _ _ _ _ _ p (fun e => blk7_0 V c (pt7 T 0) p e r (by show r.val = 256 * ((4 * T.val + 0) / 4) + p.val; omega)) (fun e => blk7_1 V c (pt7 T 0) e) (fun e => blk7_2 V c (pt7 T 0) e) (fun e => blk7_3 V c (pt7 T 0) e) (fun e => blk7_4 V c (pt7 T 0) e)
  · exact keyMixP_apply (ffnP7 V c) (xrow7 V c r) _ _ _ _ _ p (fun e => blk7_0 V c (pt7 T 1) p e r (by show r.val = 256 * ((4 * T.val + 1) / 4) + p.val; omega)) (fun e => blk7_1 V c (pt7 T 1) e) (fun e => blk7_2 V c (pt7 T 1) e) (fun e => blk7_3 V c (pt7 T 1) e) (fun e => blk7_4 V c (pt7 T 1) e)
  · exact keyMixP_apply (ffnP7 V c) (xrow7 V c r) _ _ _ _ _ p (fun e => blk7_0 V c (pt7 T 2) p e r (by show r.val = 256 * ((4 * T.val + 2) / 4) + p.val; omega)) (fun e => blk7_1 V c (pt7 T 2) e) (fun e => blk7_2 V c (pt7 T 2) e) (fun e => blk7_3 V c (pt7 T 2) e) (fun e => blk7_4 V c (pt7 T 2) e)
  · exact keyMixP_apply (ffnP7 V c) (xrow7 V c r) _ _ _ _ _ p (fun e => blk7_0 V c (pt7 T 3) p e r (by show r.val = 256 * ((4 * T.val + 3) / 4) + p.val; omega)) (fun e => blk7_1 V c (pt7 T 3) e) (fun e => blk7_2 V c (pt7 T 3) e) (fun e => blk7_3 V c (pt7 T 3) e) (fun e => blk7_4 V c (pt7 T 3) e)
  · exact fun f d => blk7_6 V c (pt7 T 0) f d (chunkIdx 0 f) (by show 1024 * 0 + f.val = 1024 * ((4 * T.val + 0) % 4) + f.val; omega)
  · exact fun f d => blk7_6 V c (pt7 T 1) f d (chunkIdx 1 f) (by show 1024 * 1 + f.val = 1024 * ((4 * T.val + 1) % 4) + f.val; omega)
  · exact fun f d => blk7_6 V c (pt7 T 2) f d (chunkIdx 2 f) (by show 1024 * 2 + f.val = 1024 * ((4 * T.val + 2) % 4) + f.val; omega)
  · exact fun f d => blk7_6 V c (pt7 T 3) f d (chunkIdx 3 f) (by show 1024 * 3 + f.val = 1024 * ((4 * T.val + 3) % 4) + f.val; omega)
  · exact fun f => blk7_8 V c (pt7 T 0) o f (chunkIdx 0 f) (by show 1024 * 0 + f.val = 1024 * ((4 * T.val + 0) % 4) + f.val; omega)
  · exact fun f => blk7_8 V c (pt7 T 1) o f (chunkIdx 1 f) (by show 1024 * 1 + f.val = 1024 * ((4 * T.val + 1) % 4) + f.val; omega)
  · exact fun f => blk7_8 V c (pt7 T 2) o f (chunkIdx 2 f) (by show 1024 * 2 + f.val = 1024 * ((4 * T.val + 2) % 4) + f.val; omega)
  · exact fun f => blk7_8 V c (pt7 T 3) o f (chunkIdx 3 f) (by show 1024 * 3 + f.val = 1024 * ((4 * T.val + 3) % 4) + f.val; omega)

/-! ## The output array -/

/-- What the output array ends holding: at `(r, o)` the layer on row `r` of the state, at channel `o`. -/
def G7 (c : Dev nD) : S2048x1024.Idx → EReal := fun i =>
  Cert.Spec.ffnRow (ffnP7 V c) (xrow7 V c ⟨(i 0).val, idx2_lt0 i⟩) ⟨(i 1).val, idx2_lt1 i⟩

/-- What a tile's last point writes back is its block of `G7`. -/
theorem flushed7_9 (c : Dev nD) (T : Fin 8) :
    (dat7 (F := Ideal) V c).flushed 9 (pt7 T 3) = ((cfg7.win 9).blk (pt7 T 3)).view.read (Elt Ideal) (G7 V c) := by
  show (cfg7.win 9).cut (grid7.coords (pt7 T 3)) ((dat7 (F := Ideal) V c).after 9 (pt7 T 3)) = _
  rw [after7_9_all]
  obtain ⟨e0, e1⟩ := idx7_9 (pt7 T 3)
  funext j
  rw [View.read_apply]
  have hj : j = ix2 (⟨(j 0).val, (j 0).isLt⟩ : Fin 256) (⟨(j 1).val, (j 1).isLt⟩ : Fin 1024) :=
    funext fun a => by match a with | ⟨0, _⟩ => rfl | ⟨1, _⟩ => rfl
  have ha : ((((cfg7.win 9).blk (pt7 T 3)).view.emb j) 0).val = 256 * T.val + (j 0).val := by
    show win7_9.index (pt7 T 3) (0 : Fin 2) * 256 + 1 * (j 0).val = _
    rw [e0]; show (4 * T.val + 3) / 4 * 256 + 1 * (j 0).val = _; omega
  have hb : ((((cfg7.win 9).blk (pt7 T 3)).view.emb j) 1).val = (j 1).val := by
    show win7_9.index (pt7 T 3) (1 : Fin 2) * 1024 + 1 * (j 1).val = _
    rw [e1]; omega
  exact (congrArg (out7_9 V c (pt7 T 3)) hj).trans (out_tile7 V c T _ _ _ _ ha hb)

/-- The same at any point that writes back: it is some tile's last. -/
theorem flushedAt7_9 (c : Dev nD) (t : Fin cfg7.N) (T : Fin 8) (ht : t = pt7 T 3) :
    (dat7 (F := Ideal) V c).flushed 9 t = ((cfg7.win 9).blk t).view.read (Elt Ideal) (G7 V c) := by
  subst ht; exact flushed7_9 V c T

/-- An index of the array is in point `t`'s block iff each coordinate is in the block's range on its axis. -/
theorem mem_blk7_9 (t : Fin cfg7.N) (i : S2048x1024.Idx) :
    i ∈ ((cfg7.win 9).blk t).view.set ↔ ∀ a : Fin 2, win7_9.index t a * S256x1024.size a ≤ (i a).val ∧ (i a).val < win7_9.index t a * S256x1024.size a + S256x1024.size a := by
  show i ∈ ((View.whole main_v291).slice (win7_9.rect t)).set ↔ _
  rw [View.set_slice_whole, Rect.mem_set_unit]
  exact Iff.rfl

/-- Every row of the array is in the block of its tile's last point. -/
theorem cover7_9 (i : S2048x1024.Idx) : ∃ t : Fin cfg7.N, (cfg7.win 9).flush t = true ∧ i ∈ ((cfg7.win 9).blk t).view.set := by
  have hi : (i 0).val < 2048 := idx2_lt0 i
  have hk : (i 1).val < 1024 := idx2_lt1 i
  refine ⟨pt7 ⟨(i 0).val / 256, by omega⟩ 3, (flush7_9 _).mpr (by show (4 * ((i 0).val / 256) + 3) % 4 = 3; omega), ?_⟩
  rw [mem_blk7_9]
  obtain ⟨e0, e1⟩ := idx7_9 (pt7 ⟨(i 0).val / 256, by omega⟩ 3)
  intro a
  match a with
  | ⟨0, _⟩ =>
    show win7_9.index _ (0 : Fin 2) * 256 ≤ (i 0).val ∧ (i 0).val < win7_9.index _ (0 : Fin 2) * 256 + 256
    rw [e0]
    show (4 * ((i 0).val / 256) + 3) / 4 * 256 ≤ (i 0).val ∧ (i 0).val < (4 * ((i 0).val / 256) + 3) / 4 * 256 + 256
    omega
  | ⟨1, _⟩ =>
    show win7_9.index _ (1 : Fin 2) * 1024 ≤ (i 1).val ∧ (i 1).val < win7_9.index _ (1 : Fin 2) * 1024 + 1024
    rw [e1]; omega

end Ffn7

/-- THE OUTPUT ARRAY after the region, at row `r` and channel `o`: the channel-mixing layer on row `r` of the state. -/
theorem final7 (c : Dev nD) (r : Fin 2048) (o : Fin 1024) :
    (dat7 (F := Ideal) V c).arrAt 9 cfg7.N (ix2 r o) = Cert.Spec.ffnRow (ffnP7 V c) (xrow7 V c r) o := by
  have h := (dat7 (F := Ideal) V c).arrAt_eq_of_cover 9 (G7 V c) (fun t ht => by
      have hq : t.val % 4 = 3 := (flush7_9 t).mp ht
      have hN : t.val < 32 := lt_of_lt_of_eq t.isLt N_7
      exact flushedAt7_9 V c t ⟨t.val / 4, by omega⟩ (Fin.ext (by show t.val = 4 * (t.val / 4) + 3; omega))) cover7_9
  rw [h]
  rfl

end Cert.KernelIdeal.Val

end
-- ==== Proof.HostKL3.lean ====
/-
  Layer 3's parameters as the two host stretches before its launches leave them.

  The stretch before a time-mixing launch slices row 3 of each stacked vector argument and matrix 3 of each stacked
  matrix argument, reshapes the row to 1×1024 and the matrix to 1024×1024 (re-typed to bf16, the identity on the
  extended reals); the stretch before a channel-mixing launch does the same for its five vectors and three matrices.
  Read at an index, each parameter window's array is therefore the argument's entry at layer 3: window by window
  first, then bundled as the parameter record the specification takes, which is `(argsK W).attn 3`, resp.
  `(argsK W).ffn 3`, whatever contents `W` the stretch starts from.
-/
import proofs.«415492_j738734375128_3_alg».proof.Proof.HostK

set_option maxRecDepth 16384

noncomputable section

namespace Cert.KernelIdeal.Val

open Cert.KernelIdeal Cert.KernelIdeal.Gen
open Idealize.ShloMosaic Idealize.ShloMosaic.TcCoe Idealize.ShloMosaic.ValueIdx

variable (W : Valuation τ sig (Elt Ideal))

/-! ## Layer 3's time-mixing parameters (the second half of the stretch before the time-mixing launch) -/

theorem host6_w1 (d : Fin 1024) :
    (StableHlo.after (hostOps6 (F := Ideal)) W (Proc.devRef .tc main_v257) : S1x1024.Idx → EReal) (ix2 0 d) = ((argsK W).attn 3).lnw d := by
  have e : (StableHlo.after (hostOps6 (F := Ideal)) W (Proc.devRef .tc main_v257) : S1x1024.Idx → EReal)
      = shapeCast S1x1024 (shapeCast S1024 (extractStridedSlice S1x1024 ![3, 0] (W (Proc.devRef .tc main_arg4) : S4x1024.Idx → EReal) slices_S4x1024_S1x1024_3_0) shapeCasts_S1x1024_S1024) shapeCasts_S1024_S1x1024 := by
    dsimp only [hostOps6]; after_results; rfl
  rw [e]; exact rowSlice_apply _ 3 _ _ _ d

theorem host6_w2 (d : Fin 1024) :
    (StableHlo.after (hostOps6 (F := Ideal)) W (Proc.devRef .tc main_v258) : S1x1024.Idx → EReal) (ix2 0 d) = ((argsK W).attn 3).lnb d := by
  have e : (StableHlo.after (hostOps6 (F := Ideal)) W (Proc.devRef .tc main_v258) : S1x1024.Idx → EReal)
      = shapeCast S1x1024 (shapeCast S1024 (extractStridedSlice S1x1024 ![3, 0] (W (Proc.devRef .tc main_arg5) : S4x1024.Idx → EReal) slices_S4x1024_S1x1024_3_0) shapeCasts_S1x1024_S1024) shapeCasts_S1024_S1x1024 := by
    dsimp only [hostOps6]; after_results; rfl
  rw [e]; exact rowSlice_apply _ 3 _ _ _ d

theorem host6_w3 (d : Fin 1024) :
    (StableHlo.after (hostOps6 (F := Ideal)) W (Proc.devRef .tc main_v259) : S1x1024.Idx → EReal) (ix2 0 d) = ((argsK W).attn 3).sx d := by
  have e : (StableHlo.after (hostOps6 (F := Ideal)) W (Proc.devRef .tc main_v259) : S1x1024.Idx → EReal)
      = shapeCast S1x1024 (shapeCast S1024 (extractStridedSlice S1x1024 ![3, 0] (W (Proc.devRef .tc main_arg25) : S4x1024.Idx → EReal) slices_S4x1024_S1x1024_3_0) shapeCasts_S1x1024_S1024) shapeCasts_S1024_S1x1024 := by
    dsimp only [hostOps6]; after_results; rfl
  rw [e]; exact rowSlice_apply _ 3 _ _ _ d

theorem host6_w4 (d : Fin 1024) :
    (StableHlo.after (hostOps6 (F := Ideal)) W (Proc.devRef .tc main_v260) : S1x1024.Idx → EReal) (ix2 0 d) = ((argsK W).attn 3).mixk d := by
  have e : (StableHlo.after (hostOps6 (F := Ideal)) W (Proc.devRef .tc main_v260) : S1x1024.Idx → EReal)
      = shapeCast S1x1024 (shapeCast S1024 (extractStridedSlice S1x1024 ![3, 0] (W (Proc.devRef .tc main_arg10) : S4x1024.Idx → EReal) slices_S4x1024_S1x1024_3_0) shapeCasts_S1x1024_S1024) shapeCasts_S1024_S1x1024 := by
    dsimp only [hostOps6]; after_results; rfl
  rw [e]; exact rowSlice_apply _ 3 _ _ _ d

theorem host6_w5 (d : Fin 1024) :
    (StableHlo.after (hostOps6 (F := Ideal)) W (Proc.devRef .tc main_v261) : S1x1024.Idx → EReal) (ix2 0 d) = ((argsK W).attn 3).mixv d := by
  have e : (StableHlo.after (hostOps6 (F := Ideal)) W (Proc.devRef .tc main_v261) : S1x1024.Idx → EReal)
      = shapeCast S1x1024 (shapeCast S1024 (extractStridedSlice S1x1024 ![3, 0] (W (Proc.devRef .tc main_arg11) : S4x1024.Idx → EReal) slices_S4x1024_S1x1024_3_0) shapeCasts_S1x1024_S1024) shapeCasts_S1024_S1x1024 := by
    dsimp only [hostOps6]; after_results; rfl
  rw [e]; exact rowSlice_apply _ 3 _ _ _ d

theorem host6_w6 (d : Fin 1024) :
    (StableHlo.after (hostOps6 (F := Ideal)) W (Proc.devRef .tc main_v262) : S1x1024.Idx → EReal) (ix2 0 d) = ((argsK W).attn 3).mixr d := by
  have e : (StableHlo.after (hostOps6 (F := Ideal)) W (Proc.devRef .tc main_v262) : S1x1024.Idx → EReal)
      = shapeCast S1x1024 (shapeCast S1024 (extractStridedSlice S1x1024 ![3, 0] (W (Proc.devRef .tc main_arg12) : S4x1024.Idx → EReal) slices_S4x1024_S1x1024_3_0) shapeCasts_S1x1024_S1024) shapeCasts_S1024_S1x1024 := by
    dsimp only [hostOps6]; after_results; rfl
  rw [e]; exact rowSlice_apply _ 3 _ _ _ d

theorem host6_w7 (d : Fin 1024) :
    (StableHlo.after (hostOps6 (F := Ideal)) W (Proc.devRef .tc main_v263) : S1x1024.Idx → EReal) (ix2 0 d) = ((argsK W).attn 3).tf d := by
  have e : (StableHlo.after (hostOps6 (F := Ideal)) W (Proc.devRef .tc main_v263) : S1x1024.Idx → EReal)
      = shapeCast S1x1024 (shapeCast S1024 (extractStridedSlice S1x1024 ![3, 0] (W (Proc.devRef .tc main_arg9) : S4x1024.Idx → EReal) slices_S4x1024_S1x1024_3_0) shapeCasts_S1x1024_S1024) shapeCasts_S1024_S1x1024 := by
    dsimp only [hostOps6]; after_results; rfl
  rw [e]; exact rowSlice_apply _ 3 _ _ _ d

theorem host6_w8 (d : Fin 1024) :
    (StableHlo.after (hostOps6 (F := Ideal)) W (Proc.devRef .tc main_v264) : S1x1024.Idx → EReal) (ix2 0 d) = ((argsK W).attn 3).num d := by
  have e : (StableHlo.after (hostOps6 (F := Ideal)) W (Proc.devRef .tc main_v264) : S1x1024.Idx → EReal)
      = shapeCast S1x1024 (shapeCast S1024 (extractStridedSlice S1x1024 ![3, 0] (W (Proc.devRef .tc main_arg26) : S4x1024.Idx → EReal) slices_S4x1024_S1x1024_3_0) shapeCasts_S1x1024_S1024) shapeCasts_S1024_S1x1024 := by
    dsimp only [hostOps6]; after_results; rfl
  rw [e]; exact rowSlice_apply _ 3 _ _ _ d

theorem host6_w9 (d : Fin 1024) :
    (StableHlo.after (hostOps6 (F := Ideal)) W (Proc.devRef .tc main_v265) : S1x1024.Idx → EReal) (ix2 0 d) = ((argsK W).attn 3).den d := by
  have e : (StableHlo.after (hostOps6 (F := Ideal)) W (Proc.devRef .tc main_v265) : S1x1024.Idx → EReal)
      = shapeCast S1x1024 (shapeCast S1024 (extractStridedSlice S1x1024 ![3, 0] (W (Proc.devRef .tc main_arg27) : S4x1024.Idx → EReal) slices_S4x1024_S1x1024_3_0) shapeCasts_S1x1024_S1024) shapeCasts_S1024_S1x1024 := by
    dsimp only [hostOps6]; after_results; rfl
  rw [e]; exact rowSlice_apply _ 3 _ _ _ d

theorem host6_w10 (o : Fin 1024) (d : Fin 1024) :
    (StableHlo.after (hostOps6 (F := Ideal)) W (Proc.devRef .tc main_v253) : S1024x1024.Idx → EReal) (ix2 o d) = ((argsK W).attn 3).Wk o d := by
  have e : (StableHlo.after (hostOps6 (F := Ideal)) W (Proc.devRef .tc main_v253) : S1024x1024.Idx → EReal)
      = shapeCast S1024x1024 (extractStridedSlice S1x1024x1024 ![3, 0, 0] (W (Proc.devRef .tc main_arg13) : S4x1024x1024.Idx → EReal) slices_S4x1024x1024_S1x1024x1024_3_0_0) shapeCasts_S1x1024x1024_S1024x1024 := by
    dsimp only [hostOps6]; after_results; rfl
  rw [e]; exact matSlice_apply _ 3 _ _ o d

theorem host6_w11 (o : Fin 1024) (d : Fin 1024) :
    (StableHlo.after (hostOps6 (F := Ideal)) W (Proc.devRef .tc main_v254) : S1024x1024.Idx → EReal) (ix2 o d) = ((argsK W).attn 3).Wv o d := by
  have e : (StableHlo.after (hostOps6 (F := Ideal)) W (Proc.devRef .tc main_v254) : S1024x1024.Idx → EReal)
      = shapeCast S1024x1024 (extractStridedSlice S1x1024x1024 ![3, 0, 0] (W (Proc.devRef .tc main_arg14) : S4x1024x1024.Idx → EReal) slices_S4x1024x1024_S1x1024x1024_3_0_0) shapeCasts_S1x1024x1024_S1024x1024 := by
    dsimp only [hostOps6]; after_results; rfl
  rw [e]; exact matSlice_apply _ 3 _ _ o d

theorem host6_w12 (o : Fin 1024) (d : Fin 1024) :
    (StableHlo.after (hostOps6 (F := Ideal)) W (Proc.devRef .tc main_v255) : S1024x1024.Idx → EReal) (ix2 o d) = ((argsK W).attn 3).Wr o d := by
  have e : (StableHlo.after (hostOps6 (F := Ideal)) W (Proc.devRef .tc main_v255) : S1024x1024.Idx → EReal)
      = shapeCast S1024x1024 (extractStridedSlice S1x1024x1024 ![3, 0, 0] (W (Proc.devRef .tc main_arg15) : S4x1024x1024.Idx → EReal) slices_S4x1024x1024_S1x1024x1024_3_0_0) shapeCasts_S1x1024x1024_S1024x1024 := by
    dsimp only [hostOps6]; after_results; rfl
  rw [e]; exact matSlice_apply _ 3 _ _ o d

theorem host6_w13 (o : Fin 1024) (d : Fin 1024) :
    (StableHlo.after (hostOps6 (F := Ideal)) W (Proc.devRef .tc main_v256) : S1024x1024.Idx → EReal) (ix2 o d) = ((argsK W).attn 3).Wo o d := by
  have e : (StableHlo.after (hostOps6 (F := Ideal)) W (Proc.devRef .tc main_v256) : S1024x1024.Idx → EReal)
      = shapeCast S1024x1024 (extractStridedSlice S1x1024x1024 ![3, 0, 0] (W (Proc.devRef .tc main_arg16) : S4x1024x1024.Idx → EReal) slices_S4x1024x1024_S1x1024x1024_3_0_0) shapeCasts_S1x1024x1024_S1024x1024 := by
    dsimp only [hostOps6]; after_results; rfl
  rw [e]; exact matSlice_apply _ 3 _ _ o d

/-- The thirteen parameter windows of the time-mixing launch, bundled: layer 3's time-mixing parameters. -/
theorem hostL3_attn :
    ({ lnw := fun d => (StableHlo.after (hostOps6 (F := Ideal)) W (Proc.devRef .tc (Pipeline.arrRef spec6 1)) : S1x1024.Idx → EReal) (ix2 (0 : Fin 1) d)
       lnb := fun d => (StableHlo.after (hostOps6 (F := Ideal)) W (Proc.devRef .tc (Pipeline.arrRef spec6 2)) : S1x1024.Idx → EReal) (ix2 (0 : Fin 1) d)
       sx := fun d => (StableHlo.after (hostOps6 (F := Ideal)) W (Proc.devRef .tc (Pipeline.arrRef spec6 3)) : S1x1024.Idx → EReal) (ix2 (0 : Fin 1) d)
       mixk := fun d => (StableHlo.after (hostOps6 (F := Ideal)) W (Proc.devRef .tc (Pipeline.arrRef spec6 4)) : S1x1024.Idx → EReal) (ix2 (0 : Fin 1) d)
       mixv := fun d => (StableHlo.after (hostOps6 (F := Ideal)) W (Proc.devRef .tc (Pipeline.arrRef spec6 5)) : S1x1024.Idx → EReal) (ix2 (0 : Fin 1) d)
       mixr := fun d => (StableHlo.after (hostOps6 (F := Ideal)) W (Proc.devRef .tc (Pipeline.arrRef spec6 6)) : S1x1024.Idx → EReal) (ix2 (0 : Fin 1) d)
       tf := fun d => (StableHlo.after (hostOps6 (F := Ideal)) W (Proc.devRef .tc (Pipeline.arrRef spec6 7)) : S1x1024.Idx → EReal) (ix2 (0 : Fin 1) d)
       num := fun d => (StableHlo.after (hostOps6 (F := Ideal)) W (Proc.devRef .tc (Pipeline.arrRef spec6 8)) : S1x1024.Idx → EReal) (ix2 (0 : Fin 1) d)
       den := fun d => (StableHlo.after (hostOps6 (F := Ideal)) W (Proc.devRef .tc (Pipeline.arrRef spec6 9)) : S1x1024.Idx → EReal) (ix2 (0 : Fin 1) d)
       Wk := fun o d => (StableHlo.after (hostOps6 (F := Ideal)) W (Proc.devRef .tc (Pipeline.arrRef spec6 10)) : S1024x1024.Idx → EReal) (ix2 o d)
       Wv := fun o d => (StableHlo.after (hostOps6 (F := Ideal)) W (Proc.devRef .tc (Pipeline.arrRef spec6 11)) : S1024x1024.Idx → EReal) (ix2 o d)
       Wr := fun o d => (StableHlo.after (hostOps6 (F := Ideal)) W (Proc.devRef .tc (Pipeline.arrRef spec6 12)) : S1024x1024.Idx → EReal) (ix2 o d)
       Wo := fun o d => (StableHlo.after (hostOps6 (F := Ideal)) W (Proc.devRef .tc (Pipeline.arrRef spec6 13)) : S1024x1024.Idx → EReal) (ix2 o d) } : Cert.Spec.AttnP)
      = (argsK W).attn 3 := by
  unfold Cert.Spec.Args.attn
  rw [Cert.Spec.AttnP.mk.injEq]
  exact ⟨funext (host6_w1 W), funext (host6_w2 W), funext (host6_w3 W), funext (host6_w4 W), funext (host6_w5 W),
    funext (host6_w6 W), funext (host6_w7 W), funext (host6_w8 W), funext (host6_w9 W),
    funext fun o => funext (host6_w10 W o), funext fun o => funext (host6_w11 W o),
    funext fun o => funext (host6_w12 W o), funext fun o => funext (host6_w13 W o)⟩

/-! ## Layer 3's channel-mixing parameters (the stretch before the channel-mixing launch) -/

theorem host7_w1 (d : Fin 1024) :
    (StableHlo.after (hostOps7 (F := Ideal)) W (Proc.devRef .tc main_v286) : S1x1024.Idx → EReal) (ix2 0 d) = ((argsK W).ffn 3).lnw d := by
  have e : (StableHlo.after (hostOps7 (F := Ideal)) W (Proc.devRef .tc main_v286) : S1x1024.Idx → EReal)
      = shapeCast S1x1024 (shapeCast S1024 (extractStridedSlice S1x1024 ![3, 0] (W (Proc.devRef .tc main_arg6) : S4x1024.Idx → EReal) slices_S4x1024_S1x1024_3_0) shapeCasts_S1x1024_S1024) shapeCasts_S1024_S1x1024 := by
    dsimp only [hostOps7]; after_results; rfl
  rw [e]; exact rowSlice_apply _ 3 _ _ _ d

theorem host7_w2 (d : Fin 1024) :
    (StableHlo.after (hostOps7 (F := Ideal)) W (Proc.devRef .tc main_v287) : S1x1024.Idx → EReal) (ix2 0 d) = ((argsK W).ffn 3).lnb d := by
  have e : (StableHlo.after (hostOps7 (F := Ideal)) W (Proc.devRef .tc main_v287) : S1x1024.Idx → EReal)
      = shapeCast S1x1024 (shapeCast S1024 (extractStridedSlice S1x1024 ![3, 0] (W (Proc.devRef .tc main_arg7) : S4x1024.Idx → EReal) slices_S4x1024_S1x1024_3_0) shapeCasts_S1x1024_S1024) shapeCasts_S1024_S1x1024 := by
    dsimp only [hostOps7]; after_results; rfl
  rw [e]; exact rowSlice_apply _ 3 _ _ _ d

theorem host7_w3 (d : Fin 1024) :
    (StableHlo.after (hostOps7 (F := Ideal)) W (Proc.devRef .tc main_v288) : S1x1024.Idx → EReal) (ix2 0 d) = ((argsK W).ffn 3).sx d := by
  have e : (StableHlo.after (hostOps7 (F := Ideal)) W (Proc.devRef .tc main_v288) : S1x1024.Idx → EReal)
      = shapeCast S1x1024 (shapeCast S1024 (extractStridedSlice S1x1024 ![3, 0] (W (Proc.devRef .tc main_arg28) : S4x1024.Idx → EReal) slices_S4x1024_S1x1024_3_0) shapeCasts_S1x1024_S1024) shapeCasts_S1024_S1x1024 := by
    dsimp only [hostOps7]; after_results; rfl
  rw [e]; exact rowSlice_apply _ 3 _ _ _ d

theorem host7_w4 (d : Fin 1024) :
    (StableHlo.after (hostOps7 (F := Ideal)) W (Proc.devRef .tc main_v289) : S1x1024.Idx → EReal) (ix2 0 d) = ((argsK W).ffn 3).mixk d := by
  have e : (StableHlo.after (hostOps7 (F := Ideal)) W (Proc.devRef .tc main_v289) : S1x1024.Idx → EReal)
      = shapeCast S1x1024 (shapeCast S1024 (extractStridedSlice S1x1024 ![3, 0] (W (Proc.devRef .tc main_arg17) : S4x1024.Idx → EReal) slices_S4x1024_S1x1024_3_0) shapeCasts_S1x1024_S1024) shapeCasts_S1024_S1x1024 := by
    dsimp only [hostOps7]; after_results; rfl
  rw [e]; exact rowSlice_apply _ 3 _ _ _ d

theorem host7_w5 (d : Fin 1024) :
    (StableHlo.after (hostOps7 (F := Ideal)) W (Proc.devRef .tc main_v290) : S1x1024.Idx → EReal) (ix2 0 d) = ((argsK W).ffn 3).mixr d := by
  have e : (StableHlo.after (hostOps7 (F := Ideal)) W (Proc.devRef .tc main_v290) : S1x1024.Idx → EReal)
      = shapeCast S1x1024 (shapeCast S1024 (extractStridedSlice S1x1024 ![3, 0] (W (Proc.devRef .tc main_arg18) : S4x1024.Idx → EReal) slices_S4x1024_S1x1024_3_0) shapeCasts_S1x1024_S1024) shapeCasts_S1024_S1x1024 := by
    dsimp only [hostOps7]; after_results; rfl
  rw [e]; exact rowSlice_apply _ 3 _ _ _ d

theorem host7_w6 (f : Fin 4096) (d : Fin 1024) :
    (StableHlo.after (hostOps7 (F := Ideal)) W (Proc.devRef .tc main_v283) : S4096x1024.Idx → EReal) (ix2 f d) = ((argsK W).ffn 3).Wk f d := by
  have e : (StableHlo.after (hostOps7 (F := Ideal)) W (Proc.devRef .tc main_v283) : S4096x1024.Idx → EReal)
      = shapeCast S4096x1024 (extractStridedSlice S1x4096x1024 ![3, 0, 0] (W (Proc.devRef .tc main_arg19) : S4x4096x1024.Idx → EReal) slices_S4x4096x1024_S1x4096x1024_3_0_0) shapeCasts_S1x4096x1024_S4096x1024 := by
    dsimp only [hostOps7]; after_results; rfl
  rw [e]; exact matSlice_apply _ 3 _ _ f d

theorem host7_w7 (o : Fin 1024) (d : Fin 1024) :
    (StableHlo.after (hostOps7 (F := Ideal)) W (Proc.devRef .tc main_v284) : S1024x1024.Idx → EReal) (ix2 o d) = ((argsK W).ffn 3).Wr o d := by
  have e : (StableHlo.after (hostOps7 (F := Ideal)) W (Proc.devRef .tc main_v284) : S1024x1024.Idx → EReal)
      = shapeCast S1024x1024 (extractStridedSlice S1x1024x1024 ![3, 0, 0] (W (Proc.devRef .tc main_arg20) : S4x1024x1024.Idx → EReal) slices_S4x1024x1024_S1x1024x1024_3_0_0) shapeCasts_S1x1024x1024_S1024x1024 := by
    dsimp only [hostOps7]; after_results; rfl
  rw [e]; exact matSlice_apply _ 3 _ _ o d

theorem host7_w8 (o : Fin 1024) (f : Fin 4096) :
    (StableHlo.after (hostOps7 (F := Ideal)) W (Proc.devRef .tc main_v285) : S1024x4096.Idx → EReal) (ix2 o f) = ((argsK W).ffn 3).Wv o f := by
  have e : (StableHlo.after (hostOps7 (F := Ideal)) W (Proc.devRef .tc main_v285) : S1024x4096.Idx → EReal)
      = shapeCast S1024x4096 (extractStridedSlice S1x1024x4096 ![3, 0, 0] (W (Proc.devRef .tc main_arg21) : S4x1024x4096.Idx → EReal) slices_S4x1024x4096_S1x1024x4096_3_0_0) shapeCasts_S1x1024x4096_S1024x4096 := by
    dsimp only [hostOps7]; after_results; rfl
  rw [e]; exact matSlice_apply _ 3 _ _ o f

/-- The eight parameter windows of the channel-mixing launch, bundled: layer 3's channel-mixing parameters. -/
theorem hostL3_ffn :
    ({ lnw := fun d => (StableHlo.after (hostOps7 (F := Ideal)) W (Proc.devRef .tc (Pipeline.arrRef spec7 1)) : S1x1024.Idx → EReal) (ix2 (0 : Fin 1) d)
       lnb := fun d => (StableHlo.after (hostOps7 (F := Ideal)) W (Proc.devRef .tc (Pipeline.arrRef spec7 2)) : S1x1024.Idx → EReal) (ix2 (0 : Fin 1) d)
       sx := fun d => (StableHlo.after (hostOps7 (F := Ideal)) W (Proc.devRef .tc (Pipeline.arrRef spec7 3)) : S1x1024.Idx → EReal) (ix2 (0 : Fin 1) d)
       mixk := fun d => (StableHlo.after (hostOps7 (F := Ideal)) W (Proc.devRef .tc (Pipeline.arrRef spec7 4)) : S1x1024.Idx → EReal) (ix2 (0 : Fin 1) d)
       mixr := fun d => (StableHlo.after (hostOps7 (F := Ideal)) W (Proc.devRef .tc (Pipeline.arrRef spec7 5)) : S1x1024.Idx → EReal) (ix2 (0 : Fin 1) d)
       Wk := fun f d => (StableHlo.after (hostOps7 (F := Ideal)) W (Proc.devRef .tc (Pipeline.arrRef spec7 6)) : S4096x1024.Idx → EReal) (ix2 f d)
       Wr := fun o d => (StableHlo.after (hostOps7 (F := Ideal)) W (Proc.devRef .tc (Pipeline.arrRef spec7 7)) : S1024x1024.Idx → EReal) (ix2 o d)
       Wv := fun o f => (StableHlo.after (hostOps7 (F := Ideal)) W (Proc.devRef .tc (Pipeline.arrRef spec7 8)) : S1024x4096.Idx → EReal) (ix2 o f) } : Cert.Spec.FfnP)
      = (argsK W).ffn 3 := by
  unfold Cert.Spec.Args.ffn
  rw [Cert.Spec.FfnP.mk.injEq]
  exact ⟨funext (host7_w1 W), funext (host7_w2 W), funext (host7_w3 W), funext (host7_w4 W), funext (host7_w5 W),
    funext fun f => funext (host7_w6 W f), funext fun o => funext (host7_w7 W o), funext fun o => funext (host7_w8 W o)⟩

end Cert.KernelIdeal.Val
-- ==== Proof.KLayer3.lean ====
/-
  Layer 3 of the kernel, boundary to boundary. The attention launch's output array, row by row, is the specification's
  time-mixing layer of the rows it was given, with the layer's parameters drawn from the argument arrays (the host
  stretch before the launch only slices, reshapes and re-formats them); the feed-forward launch's output array is
  the channel-mixing layer of those rows. No host stretch writes the state's array in between.
-/
import proofs.«415492_j738734375128_3_alg».proof.Proof.KArgs
import proofs.«415492_j738734375128_3_alg».proof.Proof.ValAttn6
import proofs.«415492_j738734375128_3_alg».proof.Proof.ValFfn7
import proofs.«415492_j738734375128_3_alg».proof.Proof.HostKL3
import proofs.«415492_j738734375128_3_alg».proof.Proof.HostKeeps

noncomputable section

namespace Cert.KernelIdeal.Val

open Cert.KernelIdeal Cert.KernelIdeal.Gen Cert.KernelIdeal.Hand Idealize.ShloMosaic Idealize.ShloMosaic.ValueIdx

variable (m : (ℓ : Loc nD τ sig) → Buf (Elt Ideal) ℓ) (ρ : Dev nD → PrngReg) (c : Dev nD)

/-- The state's rows as the attention launch of layer 3 finds them, -/
def stIn3 (r : Fin 2048) : Cert.Spec.Row := fun d => (W13 m ρ c (Proc.devRef .tc (Pipeline.arrRef spec6 0)) : S2048x1024.Idx → EReal) (ix2 r d)
/-- as it leaves them, -/
def stMid3 (r : Fin 2048) : Cert.Spec.Row := fun d => (W14 m ρ c (Proc.devRef .tc (Pipeline.arrRef spec6 14)) : S2048x1024.Idx → EReal) (ix2 r d)
/-- and as the feed-forward launch of layer 3 leaves them. -/
def stOut3 (r : Fin 2048) : Cert.Spec.Row := fun d => (W16 m ρ c (Proc.devRef .tc (Pipeline.arrRef spec7 9)) : S2048x1024.Idx → EReal) (ix2 r d)

/-- Time mixing, layer 3. -/
theorem stMid3_eq (r : Fin 2048) : stMid3 m ρ c r = Cert.Spec.attnRow ((argsK (W0 m ρ c)).attn 3) (stIn3 m ρ c r) := by
  funext o
  have h1 := congrFun (W14_arr m ρ c 14) (ix2 r o)
  have h2 := final6 (V13 m ρ) c r o
  have hp : attnP6 (V13 m ρ) c = (argsK (W0 m ρ c)).attn 3 := (hostL3_attn (W12 m ρ c)).trans (congrArg (fun A => A.attn 3) (argsK_W12 m ρ c))
  have hx : xrow6 (V13 m ρ) c r = stIn3 m ρ c r := rfl
  exact h1.trans (h2.trans (by rw [hp, hx]))

/-- Channel mixing, layer 3. -/
theorem stOut3_eq (r : Fin 2048) : stOut3 m ρ c r = Cert.Spec.ffnRow ((argsK (W0 m ρ c)).ffn 3) (stMid3 m ρ c r) := by
  funext o
  have h1 := congrFun (W16_arr m ρ c 9) (ix2 r o)
  have h2 := final7 (V15 m ρ) c r o
  have hp : ffnP7 (V15 m ρ) c = (argsK (W0 m ρ c)).ffn 3 := (hostL3_ffn (W14 m ρ c)).trans (congrArg (fun A => A.ffn 3) (argsK_W14 m ρ c))
  have hx : xrow7 (V15 m ρ) c r = stMid3 m ρ c r := by
    funext d
    show (StableHlo.after hostOps7 (W14 m ρ c) (Proc.devRef .tc (Pipeline.arrRef spec7 0)) : S2048x1024.Idx → EReal) (ix2 r d) = _
    rw [host7_keeps_x (W14 m ρ c)]
    rfl
  exact h1.trans (h2.trans (by rw [hp, hx]))

end Cert.KernelIdeal.Val

end
-- ==== Proof.ValHead8.lean ====
/- What region 8 leaves in its three output arrays, as functions of its two input arrays as the region finds
   them: the activations `xn` (2048 × 1024) and the padded head weights `wp` (50688 × 1024).
   Entry (r, col) of the logits array is Σ_d xn(r, d) · wp(col, d) where col is below the vocabulary size 50257
   and one fixed finite constant from there on. For each tile j of 512 columns the region also leaves the
   largest masked logit of the tile (over its 2048 rows and 512 columns) and the sum, over the tile's columns
   below the vocabulary size, of the exponentials of the masked logits less that largest value; each of the two
   is broadcast over an 8 × 128 block.
   The body's payloads are read at an index over any blocks: the mask compares the global column 512·i + lane
   with 50257 as signed 32-bit words, which is the comparison of naturals because the sum stays below 2³¹; the
   matrix product into the zero accumulator is the sum over the 1024 channels; the lane maxima followed by the
   row maximum, started from −∞, are one supremum over rows × lanes, and the two sums one sum. Point t's blocks
   are the whole of xn and rows 512·t … 512·t + 511 of wp, and what it writes back is block t of each array;
   the blocks cover the arrays, so the arrays end as stated. -/
import proofs.«415492_j738734375128_3_alg».proof.Proof.Region8
import Idealize.ShloMosaic.PureOps.Ideal.Laws
import Idealize.ShloMosaic.Lib.ValueIdx
import Idealize.ShloMosaic.Lib.Pipeline.Value
import Mathlib.Algebra.BigOperators.Group.Finset.Basic
import Mathlib.Data.Finset.Lattice.Fold

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the TensorCore's buffer contents when the region is entered, at the ideal values
variable (V : (c : Dev nD) → (b : Ref sig .tc) → Buf (Elt Ideal) ((c : Thread nD τ).loc b))

/-! ## The two input arrays and the specification of the three outputs -/

/-- The activations as the region finds them: row `r`, channel `d`. -/
def xn8 (c : Dev nD) (r : Fin 2048) (d : Fin 1024) : EReal :=
  (V c (Pipeline.arrRef spec8 0) : S2048x1024.Idx → Elt Ideal .bf16) (ix2 r d)

/-- The padded head weights as the region finds them: weight row `col`, channel `d`. -/
def wp8 (c : Dev nD) (col : Fin 50688) (d : Fin 1024) : EReal :=
  (V c (Pipeline.arrRef spec8 1) : S50688x1024.Idx → Elt Ideal .bf16) (ix2 col d)

/-- The logit of row `r` at padded column `col`: Σ_d xn(r, d) · wp(col, d). -/
def logit8 (c : Dev nD) (r : Fin 2048) (col : Fin 50688) : EReal := ∑ d : Fin 1024, xn8 V c r d * wp8 V c col d

/-- The constant the body writes over the columns at and beyond the vocabulary size. -/
def fill8 : EReal := Ideal.ofBits .f32 0xFF333332#32

/-- The masked logit: the logit below the vocabulary size, the constant from it on. -/
def masked8 (c : Dev nD) (r : Fin 2048) (col : Fin 50688) : EReal :=
  if col.val < 50257 then logit8 V c r col else fill8

/-- Column `k` of tile `j` as a column of the padded array. -/
def col8 (j : Fin 99) (k : Fin 512) : Fin 50688 := ⟨j.val * 512 + k.val, by have := j.isLt; have := k.isLt; omega⟩

/-- Tile `j`'s largest masked logit, over its 2048 rows and 512 columns. -/
def tmax8 (c : Dev nD) (j : Fin 99) : EReal :=
  Finset.univ.sup fun p : Fin 2048 × Fin 512 => masked8 V c p.1 (col8 j p.2)

/-- Tile `j`'s sum of exponentials about its largest masked logit, over its unmasked columns. -/
def tsum8 (c : Dev nD) (j : Fin 99) : EReal :=
  ∑ p : Fin 2048 × Fin 512, if j.val * 512 + p.2.val < 50257 then Ideal.exp (masked8 V c p.1 (col8 j p.2) - tmax8 V c j) else 0

/-- The fill constant is a finite real: its exponent field is neither all ones nor zero. -/
theorem fill8_real : ∃ x : ℝ, fill8 = (x : EReal) := by
  unfold fill8 Ideal.ofBits Ideal.ieee
  simp only []
  rw [if_neg (by decide), if_neg (by decide)]
  exact ⟨_, rfl⟩

/-! ## Small facts about the words the body uses -/

/-- The word the maximum reductions start from denotes −∞. -/
theorem neutral_bot8 : Ideal.ofBits .f32 0xFF800000#32 = (⊥ : EReal) := by simp [Ideal.ofBits, Ideal.ieee]

/-- A fold of `max` from −∞ is the supremum. -/
theorem fold_max_bot8 {ι : Type} (s : Finset ι) (f : ι → EReal) : s.fold max ⊥ f = s.sup f := rfl

/-- The column base times 512 plus the lane, as 32-bit words, is the word of the natural number. -/
theorem word_col8 (n q : Nat) (hn : n < 99) (hq : q < 512) :
    IntOp.addi (IntOp.muli (BitVec.ofNat 32 n) 512#32) (BitVec.ofNat 32 q) = BitVec.ofNat 32 (n * 512 + q) := by
  unfold IntOp.addi IntOp.muli
  apply BitVec.eq_of_toNat_eq
  simp only [BitVec.toNat_add, BitVec.toNat_mul, BitVec.toNat_ofNat]
  omega

/-- A word below 50688 is nonnegative as a signed word. -/
theorem toInt_col8 (m : Nat) (hm : m < 50688) : (BitVec.ofNat 32 m).toInt = (m : Int) := by
  have h : (BitVec.ofNat 32 m).toNat = m := by simp only [BitVec.toNat_ofNat]; omega
  rw [BitVec.toInt_eq_toNat_of_lt (by rw [h]; omega), h]

/-- The signed comparison of the global column with the vocabulary size is the comparison of naturals. -/
theorem cmp_col8 (n q : Nat) (hn : n < 99) (hq : q < 512) :
    IntOp.cmpi .slt (IntOp.addi (IntOp.muli (BitVec.ofNat 32 n) 512#32) (BitVec.ofNat 32 q)) 50257#32
      = if n * 512 + q < 50257 then 1#1 else 0#1 := by
  rw [word_col8 n q hn hq]
  unfold IntOp.cmpi
  show BitVec.ofBool ((BitVec.ofNat 32 (n * 512 + q)).slt 50257#32) = _
  have h50 : (50257#32 : BitVec 32).toInt = 50257 := by decide
  rw [BitVec.slt, toInt_col8 _ (by omega), h50]
  by_cases h : n * 512 + q < 50257
  · rw [if_pos h, decide_eq_true (by omega : ((n * 512 + q : Nat) : Int) < 50257)]; rfl
  · rw [if_neg h, decide_eq_false (by omega : ¬ ((n * 512 + q : Nat) : Int) < 50257)]; rfl

/-! ## The body's payloads at an index, over any blocks -/

/-- The tile's logit at row `p`, lane `q`: Σ_d x0(p, d) · x1(q, d). -/
def tlogit8 (x0 : Vec Ideal S2048x1024 .bf16) (x1 : Vec Ideal S512x1024 .bf16) (p : Fin 2048) (q : Fin 512) : EReal :=
  ∑ d : Fin 1024, x0 (ix2 p d) * x1 (ix2 q d)

/-- The tile's masked logit at coordinate `i`: the logit where the global column is below the vocabulary size,
    the constant elsewhere. -/
def tmasked8 (i : grid8.Coords) (x0 : Vec Ideal S2048x1024 .bf16) (x1 : Vec Ideal S512x1024 .bf16) (p : Fin 2048) (q : Fin 512) : EReal :=
  if (i 0).val * 512 + q.val < 50257 then tlogit8 x0 x1 p q else fill8

/-- The mask at an index: the global column against the vocabulary size. -/
theorem mask8_apply (i : grid8.Coords) (p : Fin 2048) (q : Fin 512) :
    cmpi .slt (k8_pay2 i) (broadcast S2048x512 50257#32) (ix2 p q) = if (i 0).val * 512 + q.val < 50257 then 1#1 else 0#1 := by
  have hi : (i 0).val < 99 := (i 0).isLt
  have e : k8_pay2 i (ix2 p q) = IntOp.addi (IntOp.muli (BitVec.ofNat 32 (i 0).val) 512#32) (BitVec.ofNat 32 q.val) := by
    unfold k8_pay2
    show IntOp.addi (IntOp.muli (BitVec.ofNat 32 (i 0).val) 512#32) (iota .tc S2048x512 32 [1] iota_S2048x512_d1_w32 (ix2 p q)) = _
    rw [iota_single_apply]
  show IntOp.cmpi .slt (k8_pay2 i (ix2 p q)) 50257#32 = _
  rw [e]
  exact cmp_col8 _ _ hi q.isLt

/-- The product's left operand index: its row is the output's row, -/
theorem lhs8_0 (j : S2048x512.Idx) (k : dot_S2048x1024_S512x1024_S2048x512_1_1_0_0_n_n.contr.Idx) :
    (dot_S2048x1024_S512x1024_S2048x512_1_1_0_0_n_n.lhsIdx j k 0).val = (j 0).val := by
  unfold DotDims.lhsIdx
  rw [dif_neg (show ¬(0 : Fin S2048x1024.rank) ∈ dot_S2048x1024_S512x1024_S2048x512_1_1_0_0_n_n.lhsBatch by decide),
    dif_pos (show (0 : Fin S2048x1024.rank) ∈ dot_S2048x1024_S512x1024_S2048x512_1_1_0_0_n_n.lhsNonContracting by decide)]
  rfl
/-- its channel the contraction's; -/
theorem lhs8_1 (j : S2048x512.Idx) (k : dot_S2048x1024_S512x1024_S2048x512_1_1_0_0_n_n.contr.Idx) :
    (dot_S2048x1024_S512x1024_S2048x512_1_1_0_0_n_n.lhsIdx j k 1).val = (k ⟨0, by decide⟩).val :=
  DotDims.lhsIdx_val_of_single _ rfl j k
/-- the right operand's row is the output's lane, -/
theorem rhs8_0 (j : S2048x512.Idx) (k : dot_S2048x1024_S512x1024_S2048x512_1_1_0_0_n_n.contr.Idx) :
    (dot_S2048x1024_S512x1024_S2048x512_1_1_0_0_n_n.rhsIdx j k 0).val = (j 1).val := by
  unfold DotDims.rhsIdx
  rw [dif_neg (show ¬(0 : Fin S512x1024.rank) ∈ dot_S2048x1024_S512x1024_S2048x512_1_1_0_0_n_n.rhsBatch by decide),
    dif_pos (show (0 : Fin S512x1024.rank) ∈ dot_S2048x1024_S512x1024_S2048x512_1_1_0_0_n_n.rhsNonContracting by decide)]
  rfl
/-- its channel the contraction's. -/
theorem rhs8_1 (j : S2048x512.Idx) (k : dot_S2048x1024_S512x1024_S2048x512_1_1_0_0_n_n.contr.Idx) :
    (dot_S2048x1024_S512x1024_S2048x512_1_1_0_0_n_n.rhsIdx j k 1).val = (k ⟨0, by decide⟩).val :=
  DotDims.rhsIdx_val_of_single _ rfl j k

/-- The matrix product into the zero accumulator, at an index: the tile's logit. -/
theorem matmul8_apply (x0 : Vec Ideal S2048x1024 .bf16) (x1 : Vec Ideal S512x1024 .bf16) (p : Fin 2048) (q : Fin 512) :
    matmul (φ₁ := .bf16) (φ₂ := .bf16) dot_S2048x1024_S512x1024_S2048x512_1_1_0_0_n_n none x0 x1 (constant (F := Ideal) S2048x512 .f32 0x00000000#32) (ix2 p q)
      = tlogit8 x0 x1 p q := by
  refine (Ideal.matmul_constant_zero_apply (φ₁ := .bf16) (φ₂ := .bf16) dot_S2048x1024_S512x1024_S2048x512_1_1_0_0_n_n none x0 x1 (ix2 p q)).trans ?_
  unfold tlogit8
  rw [← Equiv.sum_comp (contrEquiv1 dot_S2048x1024_S512x1024_S2048x512_1_1_0_0_n_n 1024 rfl rfl).symm]
  refine Finset.sum_congr rfl fun d _ => ?_
  have hk := contrEquiv1_symm_val dot_S2048x1024_S512x1024_S2048x512_1_1_0_0_n_n 1024 rfl rfl d
  have hl : dot_S2048x1024_S512x1024_S2048x512_1_1_0_0_n_n.lhsIdx (ix2 p q)
      ((contrEquiv1 dot_S2048x1024_S512x1024_S2048x512_1_1_0_0_n_n 1024 rfl rfl).symm d) = ix2 p d :=
    Shape.idx_ext₂ (lhs8_0 _ _) ((lhs8_1 _ _).trans hk)
  have hr : dot_S2048x1024_S512x1024_S2048x512_1_1_0_0_n_n.rhsIdx (ix2 p q)
      ((contrEquiv1 dot_S2048x1024_S512x1024_S2048x512_1_1_0_0_n_n 1024 rfl rfl).symm d) = ix2 q d :=
    Shape.idx_ext₂ (rhs8_0 _ _) ((rhs8_1 _ _).trans hk)
  rw [hl, hr]

/-- The masked tile (f32) at an index. -/
theorem pay3_apply8 (i : grid8.Coords) (x0 : Vec Ideal S2048x1024 .bf16) (x1 : Vec Ideal S512x1024 .bf16) (p : Fin 2048) (q : Fin 512) :
    k8_pay3 i x0 x1 (ix2 p q) = tmasked8 i x0 x1 p q := by
  unfold k8_pay3 tmasked8
  simp only [shapeCast_self]
  show Scalar.select (cmpi .slt (k8_pay2 i) (broadcast S2048x512 50257#32) (ix2 p q))
      (matmul (φ₁ := .bf16) (φ₂ := .bf16) dot_S2048x1024_S512x1024_S2048x512_1_1_0_0_n_n none x0 x1 (constant (F := Ideal) S2048x512 .f32 0x00000000#32) (ix2 p q))
      (Ideal.ofBits .f32 0xFF333332#32) = _
  rw [mask8_apply, matmul8_apply]
  by_cases h : (i 0).val * 512 + q.val < 50257
  · rw [if_pos h, if_pos h, select_one]
  · rw [if_neg h, if_neg h, select_zero]; rfl

/-- The stored logits tile (bf16) at an index: the rounding is the identity on the ideal values. -/
theorem pay4_apply8 (i : grid8.Coords) (x0 : Vec Ideal S2048x1024 .bf16) (x1 : Vec Ideal S512x1024 .bf16) (p : Fin 2048) (q : Fin 512) :
    k8_pay4 i x0 x1 (ix2 p q) = tmasked8 i x0 x1 p q := by
  unfold k8_pay4
  show k8_pay3 i x0 x1 (ix2 p q) = _
  exact pay3_apply8 i x0 x1 p q

/-! ## The tile's maximum and sum as one supremum and one sum over rows × lanes -/

/-- The lane reduction's source index over row `p` at lane `q`. -/
theorem lift_row8 (p : Fin 2048) (q : Fin 512) : reduces_S2048x512_S2048.lift (ix1 p) q = ix2 p q :=
  Shape.idx_ext₂ rfl rfl

/-- The row reduction's source index at row `p`. -/
theorem lift_col8 (j : S1.Idx) (p : Fin 2048) : reduces_S2048x1_S1.lift j p = ix2 p (0 : Fin 1) :=
  Shape.idx_ext₂ rfl (by have := (reduces_S2048x1_S1.lift j p 1).isLt; show (reduces_S2048x1_S1.lift j p 1).val = 0; have h : (reduces_S2048x1_S1.lift j p 1).val < 1 := this; omega)

/-- A vector of 2048 entries viewed as a column reads the entry. -/
theorem col_apply8 (u : FVec Ideal S2048 .f32) (p : Fin 2048) :
    shapeCast S2048x1 u shapeCasts_S2048_S2048x1 (ix2 p (0 : Fin 1)) = u (ix1 p) := by
  refine shapeCast_apply u shapeCasts_S2048_S2048x1 (ix2 p (0 : Fin 1)) (ix1 p) ?_
  rw [Shape.rowMajor_val_one, Shape.rowMajor_val_two]
  show p.val = p.val * 1 + 0
  omega

/-- A vector of one entry viewed as a 1 × 1 matrix reads the entry. -/
theorem one_apply8 (u : FVec Ideal S1 .f32) (j : S1x1.Idx) :
    shapeCast S1x1 u shapeCasts_S1_S1x1 j = u (ix1 (0 : Fin 1)) := by
  refine shapeCast_apply u shapeCasts_S1_S1x1 j (ix1 (0 : Fin 1)) ?_
  rw [Shape.rowMajor_val_one, Shape.rowMajor_val_two]
  have h0 : (j 0).val < 1 := (j 0).isLt
  have h1 : (j 1).val < 1 := (j 1).isLt
  show 0 = (j 0).val * 1 + (j 1).val
  omega

/-- The maximum over the lanes of row `p`. -/
theorem rowmax8 (v : FVec Ideal S2048x512 .f32) (p : Fin 2048) :
    multiReduction (F := Ideal) .maximumf [1] S2048 v 0xFF800000#32 reduces_S2048x512_S2048 (.inl rfl) rfl (ix1 p)
      = Finset.univ.sup fun q : Fin 512 => v (ix2 p q) := by
  refine (Ideal.multiReduction_maximumf_single v 0xFF800000#32 reduces_S2048x512_S2048 (.inl rfl) rfl (ix1 p)).trans ?_
  rw [Ideal.ofBits_def, neutral_bot8, fold_max_bot8]
  exact Finset.sup_congr rfl fun q _ => congrArg v (lift_row8 p q)

/-- The maximum over the rows of a column. -/
theorem colmax8 (w : FVec Ideal S2048x1 .f32) (j : S1.Idx) :
    multiReduction (F := Ideal) .maximumf [0] S1 w 0xFF800000#32 reduces_S2048x1_S1 (.inl rfl) rfl j
      = Finset.univ.sup fun p : Fin 2048 => w (ix2 p (0 : Fin 1)) := by
  refine (Ideal.multiReduction_maximumf_single w 0xFF800000#32 reduces_S2048x1_S1 (.inl rfl) rfl j).trans ?_
  rw [Ideal.ofBits_def, neutral_bot8, fold_max_bot8]
  exact Finset.sup_congr rfl fun p _ => congrArg w (lift_col8 j p)

/-- The sum over the lanes of row `p`. -/
theorem rowsum8 (v : FVec Ideal S2048x512 .f32) (p : Fin 2048) :
    multiReduction (F := Ideal) .add [1] S2048 v 0x00000000#32 reduces_S2048x512_S2048 (.inl rfl) rfl (ix1 p)
      = ∑ q : Fin 512, v (ix2 p q) := by
  refine (Ideal.multiReduction_add_single v 0x00000000#32 reduces_S2048x512_S2048 (.inl rfl) rfl (ix1 p)).trans ?_
  exact Finset.sum_congr rfl fun q _ => congrArg v (lift_row8 p q)

/-- The sum over the rows of a column. -/
theorem colsum8 (w : FVec Ideal S2048x1 .f32) (j : S1.Idx) :
    multiReduction (F := Ideal) .add [0] S1 w 0x00000000#32 reduces_S2048x1_S1 (.inl rfl) rfl j
      = ∑ p : Fin 2048, w (ix2 p (0 : Fin 1)) := by
  refine (Ideal.multiReduction_add_single w 0x00000000#32 reduces_S2048x1_S1 (.inl rfl) rfl j).trans ?_
  exact Finset.sum_congr rfl fun p _ => congrArg w (lift_col8 j p)

/-- The lane maxima then the row maximum of a tile is the supremum over its rows and lanes. -/
theorem tilemax8 (v : FVec Ideal S2048x512 .f32) (j : S1x1.Idx) :
    shapeCast S1x1 (multiReduction (F := Ideal) .maximumf [0] S1
        (shapeCast S2048x1 (multiReduction (F := Ideal) .maximumf [1] S2048 v 0xFF800000#32 reduces_S2048x512_S2048 (.inl rfl) rfl) shapeCasts_S2048_S2048x1)
        0xFF800000#32 reduces_S2048x1_S1 (.inl rfl) rfl) shapeCasts_S1_S1x1 j
      = Finset.univ.sup fun pq : Fin 2048 × Fin 512 => v (ix2 pq.1 pq.2) := by
  refine (one_apply8 _ j).trans ?_
  refine (colmax8 _ _).trans ?_
  rw [← Finset.univ_product_univ, Finset.sup_product_left]
  refine Finset.sup_congr rfl fun p _ => ?_
  rw [col_apply8]
  exact rowmax8 v p

/-- The lane sums then the row sum of a tile is the sum over its rows and lanes. -/
theorem tilesum8 (v : FVec Ideal S2048x512 .f32) (j : S1x1.Idx) :
    shapeCast S1x1 (multiReduction (F := Ideal) .add [0] S1
        (shapeCast S2048x1 (multiReduction (F := Ideal) .add [1] S2048 v 0x00000000#32 reduces_S2048x512_S2048 (.inl rfl) rfl) shapeCasts_S2048_S2048x1)
        0x00000000#32 reduces_S2048x1_S1 (.inl rfl) rfl) shapeCasts_S1_S1x1 j
      = ∑ pq : Fin 2048 × Fin 512, v (ix2 pq.1 pq.2) := by
  refine (one_apply8 _ j).trans ?_
  refine (colsum8 _ _).trans ?_
  rw [Fintype.sum_prod_type]
  refine Finset.sum_congr rfl fun p _ => ?_
  rw [col_apply8]
  exact rowsum8 v p

/-- A 1 × 1 matrix broadcast over an 8 × 128 block reads its entry. -/
theorem bcast_blk8 (u : FVec Ideal S1x1 .f32) (m : S8x128.Idx) :
    broadcastTo S8x128 u broadcasts_S1x1_S8x128 m = u (ix2 (0 : Fin 1) (0 : Fin 1)) :=
  broadcastTo_apply u broadcasts_S1x1_S8x128 m (ix2 (0 : Fin 1) (0 : Fin 1)) fun a => by
    match a with | ⟨0, _⟩ => rfl | ⟨1, _⟩ => rfl

/-- A 1 × 1 matrix broadcast over the tile reads its entry. -/
theorem bcast_tile8 (u : FVec Ideal S1x1 .f32) (m : S2048x512.Idx) :
    broadcastTo S2048x512 u broadcasts_S1x1_S2048x512 m = u (ix2 (0 : Fin 1) (0 : Fin 1)) :=
  broadcastTo_apply u broadcasts_S1x1_S2048x512 m (ix2 (0 : Fin 1) (0 : Fin 1)) fun a => by
    match a with | ⟨0, _⟩ => rfl | ⟨1, _⟩ => rfl

/-- An 8 × 128 block stored as a 1 × 8 × 128 block reads the block at the trailing coordinates. -/
theorem blk_apply8 (u : FVec Ideal S8x128 .f32) (j : S1x8x128.Idx) :
    shapeCast S1x8x128 u shapeCasts_S8x128_S1x8x128 j = u (fun a => j a.succ) :=
  shapeCast_addUnit_apply (n := 2) ![8, 128] u shapeCasts_S8x128_S1x8x128 j

/-! ## The tile's maximum and sum payloads -/

/-- The tile's largest masked logit. -/
def ttmax8 (i : grid8.Coords) (x0 : Vec Ideal S2048x1024 .bf16) (x1 : Vec Ideal S512x1024 .bf16) : EReal :=
  Finset.univ.sup fun pq : Fin 2048 × Fin 512 => tmasked8 i x0 x1 pq.1 pq.2

/-- The tile's sum of exponentials about its largest masked logit, over the unmasked columns. -/
def ttsum8 (i : grid8.Coords) (x0 : Vec Ideal S2048x1024 .bf16) (x1 : Vec Ideal S512x1024 .bf16) : EReal :=
  ∑ pq : Fin 2048 × Fin 512, if (i 0).val * 512 + pq.2.val < 50257 then Ideal.exp (tmasked8 i x0 x1 pq.1 pq.2 - ttmax8 i x0 x1) else 0

theorem pay5_apply8 (i : grid8.Coords) (x0 : Vec Ideal S2048x1024 .bf16) (x1 : Vec Ideal S512x1024 .bf16) (j : S1x1.Idx) :
    k8_pay5 i x0 x1 j = ttmax8 i x0 x1 := by
  unfold k8_pay5 ttmax8
  refine (tilemax8 (k8_pay3 i x0 x1) j).trans ?_
  exact Finset.sup_congr rfl fun pq _ => pay3_apply8 i x0 x1 pq.1 pq.2

theorem pay6_apply8 (i : grid8.Coords) (x0 : Vec Ideal S2048x1024 .bf16) (x1 : Vec Ideal S512x1024 .bf16) (j : S1x8x128.Idx) :
    k8_pay6 i x0 x1 j = ttmax8 i x0 x1 := by
  unfold k8_pay6
  simp only [shapeCast_self]
  refine (blk_apply8 _ j).trans ?_
  refine (bcast_blk8 _ _).trans ?_
  exact pay5_apply8 i x0 x1 _

theorem pay71_apply8 (i : grid8.Coords) (x0 : Vec Ideal S2048x1024 .bf16) (x1 : Vec Ideal S512x1024 .bf16) (j : S1x8x128.Idx) :
    k8_pay1 (k8_pay7 i x0 x1) j = ttsum8 i x0 x1 := by
  unfold k8_pay1 k8_pay7
  simp only [shapeCast_self]
  refine (blk_apply8 _ j).trans ?_
  refine (bcast_blk8 _ _).trans ?_
  refine (tilesum8 _ _).trans ?_
  unfold ttsum8
  refine Finset.sum_congr rfl fun pq _ => ?_
  show Scalar.select (cmpi .slt (k8_pay2 i) (broadcast S2048x512 50257#32) (ix2 pq.1 pq.2))
      (Ideal.exp (k8_pay3 i x0 x1 (ix2 pq.1 pq.2) - broadcastTo S2048x512 (k8_pay5 i x0 x1) broadcasts_S1x1_S2048x512 (ix2 pq.1 pq.2)))
      (Ideal.ofBits .f32 0x00000000#32) = _
  rw [mask8_apply, pay3_apply8, bcast_tile8, pay5_apply8, Ideal.ofBits_zero_f32]
  by_cases h : (i 0).val * 512 + pq.2.val < 50257
  · rw [if_pos h, if_pos h, select_one]
  · rw [if_neg h, if_neg h, select_zero]

/-! ## From the blocks to the arrays -/

theorem hz2_8 : (![0, 0] : Fin 2 → Nat) = fun _ => 0 := funext fun a => by fin_cases a <;> rfl
theorem hz3_8 : (![0, 0, 0] : Fin 3 → Nat) = fun _ => 0 := funext fun a => by fin_cases a <;> rfl

/-- Point `t` of the grid as a tile number. -/
def pt8 (t : Fin cfg8.N) : Fin 99 := Fin.cast (show cfg8.N = 99 from N_8) t

/-- The grid's one coordinate at point `t` is `t`; each window's block index at `t`. -/
theorem coord8 : ∀ t : Fin cfg8.N, (grid8.coords t 0).val = t.val :=
  (by decide +kernel : ∀ t : Fin grid8.N, _)
theorem idx8_0 : ∀ t : Fin cfg8.N, win8_0.index t (0 : Fin 2) = 0 ∧ win8_0.index t (1 : Fin 2) = 0 :=
  (by decide +kernel : ∀ t : Fin grid8.N, _)
theorem idx8_1 : ∀ t : Fin cfg8.N, win8_1.index t (0 : Fin 2) = t.val ∧ win8_1.index t (1 : Fin 2) = 0 :=
  (by decide +kernel : ∀ t : Fin grid8.N, _)
theorem idx8_2 : ∀ t : Fin cfg8.N, win8_2.index t (0 : Fin 2) = 0 ∧ win8_2.index t (1 : Fin 2) = t.val :=
  (by decide +kernel : ∀ t : Fin grid8.N, _)
theorem idx8_3 : ∀ t : Fin cfg8.N, win8_3.index t (0 : Fin 3) = t.val ∧ win8_3.index t (1 : Fin 3) = 0 ∧ win8_3.index t (2 : Fin 3) = 0 :=
  (by decide +kernel : ∀ t : Fin grid8.N, _)
theorem idx8_4 : ∀ t : Fin cfg8.N, win8_4.index t (0 : Fin 3) = t.val ∧ win8_4.index t (1 : Fin 3) = 0 ∧ win8_4.index t (2 : Fin 3) = 0 :=
  (by decide +kernel : ∀ t : Fin grid8.N, _)

/-- The activations' block at any point is the whole array. -/
theorem iblk8_0_apply (c : Dev nD) (t : Fin cfg8.N) (p : Fin 2048) (d : Fin 1024) :
    (iblk8 V c 0 t : Vec Ideal S2048x1024 .bf16) (ix2 p d) = xn8 V c p d := by
  obtain ⟨e0, e1⟩ := idx8_0 t
  unfold iblk8 xn8
  rw [View.read_apply]
  show (V c (Pipeline.arrRef spec8 0) : S2048x1024.Idx → Elt Ideal .bf16) _
    = (V c (Pipeline.arrRef spec8 0) : S2048x1024.Idx → Elt Ideal .bf16) (ix2 p d)
  refine congrArg _ (funext fun a => Fin.ext ?_)
  match a with
  | ⟨0, _⟩ => show win8_0.index t (0 : Fin 2) * 2048 + 1 * p.val = p.val; rw [e0]; omega
  | ⟨1, _⟩ => show win8_0.index t (1 : Fin 2) * 1024 + 1 * d.val = d.val; rw [e1]; omega

/-- The weights' block at point `t` is rows 512·t … 512·t + 511 of the padded weights. -/
theorem iblk8_1_apply (c : Dev nD) (t : Fin cfg8.N) (q : Fin 512) (d : Fin 1024) :
    (iblk8 V c 1 t : Vec Ideal S512x1024 .bf16) (ix2 q d) = wp8 V c (col8 (pt8 t) q) d := by
  obtain ⟨e0, e1⟩ := idx8_1 t
  unfold iblk8 wp8
  rw [View.read_apply]
  show (V c (Pipeline.arrRef spec8 1) : S50688x1024.Idx → Elt Ideal .bf16) _
    = (V c (Pipeline.arrRef spec8 1) : S50688x1024.Idx → Elt Ideal .bf16) (ix2 (col8 (pt8 t) q) d)
  refine congrArg _ (funext fun a => Fin.ext ?_)
  match a with
  | ⟨0, _⟩ => show win8_1.index t (0 : Fin 2) * 512 + 1 * q.val = t.val * 512 + q.val; rw [e0]; omega
  | ⟨1, _⟩ => show win8_1.index t (1 : Fin 2) * 1024 + 1 * d.val = d.val; rw [e1]; omega

/-- The tile's logit at point `t` is the logit at the tile's column. -/
theorem tile_logit8 (c : Dev nD) (t : Fin cfg8.N) (p : Fin 2048) (q : Fin 512) :
    tlogit8 (iblk8 V c 0 t) (iblk8 V c 1 t) p q = logit8 V c p (col8 (pt8 t) q) := by
  unfold tlogit8 logit8
  exact Finset.sum_congr rfl fun d _ => congrArg₂ (· * ·) (iblk8_0_apply V c t p d) (iblk8_1_apply V c t q d)

/-- The tile's masked logit at point `t` is the masked logit at the tile's column. -/
theorem tile_masked8 (c : Dev nD) (t : Fin cfg8.N) (p : Fin 2048) (q : Fin 512) :
    tmasked8 (cfg8.grid.coords t) (iblk8 V c 0 t) (iblk8 V c 1 t) p q = masked8 V c p (col8 (pt8 t) q) := by
  unfold tmasked8 masked8
  rw [tile_logit8 V c t p q]
  refine if_congr ?_ rfl rfl
  show (grid8.coords t 0).val * 512 + q.val < 50257 ↔ t.val * 512 + q.val < 50257
  rw [coord8 t]

/-- The tile's maximum at point `t`. -/
theorem tile_max8 (c : Dev nD) (t : Fin cfg8.N) :
    ttmax8 (cfg8.grid.coords t) (iblk8 V c 0 t) (iblk8 V c 1 t) = tmax8 V c (pt8 t) := by
  unfold ttmax8 tmax8
  exact Finset.sup_congr rfl fun pq _ => tile_masked8 V c t pq.1 pq.2

/-- The tile's sum at point `t`. -/
theorem tile_sum8 (c : Dev nD) (t : Fin cfg8.N) :
    ttsum8 (cfg8.grid.coords t) (iblk8 V c 0 t) (iblk8 V c 1 t) = tsum8 V c (pt8 t) := by
  unfold ttsum8 tsum8
  refine Finset.sum_congr rfl fun pq _ => ?_
  rw [tile_masked8 V c t pq.1 pq.2, tile_max8 V c t]
  refine if_congr ?_ rfl rfl
  show (grid8.coords t 0).val * 512 + pq.2.val < 50257 ↔ t.val * 512 + pq.2.val < 50257
  rw [coord8 t]

/-- What the body leaves in each output buffer, at an index, over any blocks: the one whole-block store's payload. -/
theorem out8_2_apply (i : grid8.Coords) (x0 : Vec Ideal S2048x1024 .bf16) (x1 : Vec Ideal S512x1024 .bf16) (p : Fin 2048) (q : Fin 512) :
    out8_2 i x0 x1 (ix2 p q) = tmasked8 i x0 x1 p q := by
  unfold out8_2
  rw [View.canon_unit_zero hz2_8]
  simp only [View.ld_unit_zero (S := S2048x1024) hz2_8, View.ld_unit_zero (S := S512x1024) hz2_8]
  exact pay4_apply8 i x0 x1 p q
/-- The same at any index of the tile. -/
theorem out8_2_at (i : grid8.Coords) (x0 : Vec Ideal S2048x1024 .bf16) (x1 : Vec Ideal S512x1024 .bf16) (j : S2048x512.Idx) :
    out8_2 i x0 x1 j = tmasked8 i x0 x1 (j 0) (j 1) :=
  (congrArg (out8_2 i x0 x1) (eq_ix2 j)).trans (out8_2_apply i x0 x1 (j 0) (j 1))
theorem out8_3_apply (i : grid8.Coords) (x0 : Vec Ideal S2048x1024 .bf16) (x1 : Vec Ideal S512x1024 .bf16) (j : S1x8x128.Idx) :
    out8_3 i x0 x1 j = ttmax8 i x0 x1 := by
  unfold out8_3
  rw [View.canon_unit_zero hz3_8]
  simp only [View.ld_unit_zero (S := S2048x1024) hz2_8, View.ld_unit_zero (S := S512x1024) hz2_8]
  exact pay6_apply8 i x0 x1 j
theorem out8_4_apply (i : grid8.Coords) (x0 : Vec Ideal S2048x1024 .bf16) (x1 : Vec Ideal S512x1024 .bf16) (j : S1x8x128.Idx) :
    out8_4 i x0 x1 j = ttsum8 i x0 x1 := by
  unfold out8_4
  rw [View.canon_unit_zero hz3_8]
  simp only [View.ld_unit_zero (S := S2048x1024) hz2_8, View.ld_unit_zero (S := S512x1024) hz2_8]
  exact pay71_apply8 i x0 x1 j

/-- A block of an output array, read, is the array at the block's indices. -/
theorem read_blk8_2 (G : S2048x50688.Idx → Elt Ideal .bf16) (t : Fin cfg8.N) (j : S2048x512.Idx) :
    ((cfg8.win 2).blk t).view.read (Elt Ideal) G j = G (((cfg8.win 2).blk t).view.emb j) := by
  rw [View.read_apply]; rfl
theorem read_blk8_3 (G : S99x8x128.Idx → Elt Ideal .f32) (t : Fin cfg8.N) (j : S1x8x128.Idx) :
    ((cfg8.win 3).blk t).view.read (Elt Ideal) G j = G (((cfg8.win 3).blk t).view.emb j) := by
  rw [View.read_apply]; rfl
theorem read_blk8_4 (G : S99x8x128.Idx → Elt Ideal .f32) (t : Fin cfg8.N) (j : S1x8x128.Idx) :
    ((cfg8.win 4).blk t).view.read (Elt Ideal) G j = G (((cfg8.win 4).blk t).view.emb j) := by
  rw [View.read_apply]; rfl

/-- The three arrays the region leaves, as functions of the index. -/
def arr8_2 (c : Dev nD) : S2048x50688.Idx → Elt Ideal .bf16 := fun i => masked8 V c ⟨(i 0).val, idx2_lt0 i⟩ ⟨(i 1).val, idx2_lt1 i⟩
def arr8_3 (c : Dev nD) : S99x8x128.Idx → Elt Ideal .f32 := fun i => tmax8 V c ⟨(i 0).val, (i 0).isLt⟩
def arr8_4 (c : Dev nD) : S99x8x128.Idx → Elt Ideal .f32 := fun i => tsum8 V c ⟨(i 0).val, (i 0).isLt⟩

/-- What the body leaves of window 2 at point `t`, at an index of the tile, is `arr8_2` at the index's place in
    the array. -/
theorem flushed8_2_at (c : Dev nD) (t : Fin cfg8.N) (j : S2048x512.Idx) :
    out8_2 (cfg8.grid.coords t) (iblk8 V c 0 t) (iblk8 V c 1 t) j = arr8_2 V c (((cfg8.win 2).blk t).view.emb j) := by
  refine (out8_2_at (cfg8.grid.coords t) (iblk8 V c 0 t) (iblk8 V c 1 t) j).trans ?_
  refine (tile_masked8 V c t (j 0) (j 1)).trans ?_
  obtain ⟨e0, e1⟩ := idx8_2 t
  unfold arr8_2
  refine congrArg₂ (masked8 V c) (Fin.ext ?_) (Fin.ext ?_)
  · show (j 0).val = win8_2.index t (0 : Fin 2) * 2048 + 1 * (j 0).val; rw [e0]; omega
  · show t.val * 512 + (j 1).val = win8_2.index t (1 : Fin 2) * 512 + 1 * (j 1).val; rw [e1]; omega

/-- What point `t` writes back of window 2 is block `t` of `arr8_2`. -/
theorem flushed8_2 (c : Dev nD) (t : Fin cfg8.N) :
    (dat8 (F := Ideal) V c).flushed 2 t = ((cfg8.win 2).blk t).view.read (Elt Ideal) (arr8_2 V c) := by
  show (cfg8.win 2).cut (grid8.coords t) ((dat8 (F := Ideal) V c).after 2 t) = _
  rw [after8_2]
  funext j
  rw [read_blk8_2]
  exact flushed8_2_at V c t _

/-- Window 3's. -/
theorem flushed8_3 (c : Dev nD) (t : Fin cfg8.N) :
    (dat8 (F := Ideal) V c).flushed 3 t = ((cfg8.win 3).blk t).view.read (Elt Ideal) (arr8_3 V c) := by
  show (cfg8.win 3).cut (grid8.coords t) ((dat8 (F := Ideal) V c).after 3 t) = _
  rw [after8_3]
  funext j
  rw [read_blk8_3]
  refine (out8_3_apply (cfg8.grid.coords t) (iblk8 V c 0 t) (iblk8 V c 1 t) _).trans ?_
  rw [tile_max8 V c t]
  unfold arr8_3
  obtain ⟨e0, -, -⟩ := idx8_3 t
  have hj : ((j : S1x8x128.Idx) 0).val < 1 := ((j : S1x8x128.Idx) 0).isLt
  congr 1; apply Fin.ext
  show t.val = win8_3.index t (0 : Fin 3) * 1 + 1 * ((j : S1x8x128.Idx) 0).val
  rw [e0]; omega

/-- Window 4's. -/
theorem flushed8_4 (c : Dev nD) (t : Fin cfg8.N) :
    (dat8 (F := Ideal) V c).flushed 4 t = ((cfg8.win 4).blk t).view.read (Elt Ideal) (arr8_4 V c) := by
  show (cfg8.win 4).cut (grid8.coords t) ((dat8 (F := Ideal) V c).after 4 t) = _
  rw [after8_4]
  funext j
  rw [read_blk8_4]
  refine (out8_4_apply (cfg8.grid.coords t) (iblk8 V c 0 t) (iblk8 V c 1 t) _).trans ?_
  rw [tile_sum8 V c t]
  unfold arr8_4
  obtain ⟨e0, -, -⟩ := idx8_4 t
  have hj : ((j : S1x8x128.Idx) 0).val < 1 := ((j : S1x8x128.Idx) 0).isLt
  congr 1; apply Fin.ext
  show t.val = win8_4.index t (0 : Fin 3) * 1 + 1 * ((j : S1x8x128.Idx) 0).val
  rw [e0]; omega

/-- An index of the logits array is in point `t`'s block iff each coordinate is in the block's range. -/
theorem mem_blk8_2 (t : Fin cfg8.N) (i : S2048x50688.Idx) :
    i ∈ ((cfg8.win 2).blk t).view.set ↔ ∀ a : Fin 2, win8_2.index t a * S2048x512.size a ≤ (i a).val ∧ (i a).val < win8_2.index t a * S2048x512.size a + S2048x512.size a := by
  show i ∈ ((View.whole main_v319_0).slice (win8_2.rect t)).set ↔ _
  rw [View.set_slice_whole, Rect.mem_set_unit]
  exact Iff.rfl
theorem mem_blk8_3 (t : Fin cfg8.N) (i : S99x8x128.Idx) :
    i ∈ ((cfg8.win 3).blk t).view.set ↔ ∀ a : Fin 3, win8_3.index t a * S1x8x128.size a ≤ (i a).val ∧ (i a).val < win8_3.index t a * S1x8x128.size a + S1x8x128.size a := by
  show i ∈ ((View.whole main_v319_1).slice (win8_3.rect t)).set ↔ _
  rw [View.set_slice_whole, Rect.mem_set_unit]
  exact Iff.rfl
theorem mem_blk8_4 (t : Fin cfg8.N) (i : S99x8x128.Idx) :
    i ∈ ((cfg8.win 4).blk t).view.set ↔ ∀ a : Fin 3, win8_4.index t a * S1x8x128.size a ≤ (i a).val ∧ (i a).val < win8_4.index t a * S1x8x128.size a + S1x8x128.size a := by
  show i ∈ ((View.whole main_v319_2).slice (win8_4.rect t)).set ↔ _
  rw [View.set_slice_whole, Rect.mem_set_unit]
  exact Iff.rfl

/-- Every column of the logits array is in the block of the point that is its tile number. -/
theorem covers8_2 (i : S2048x50688.Idx) : ∃ t : Fin cfg8.N, (cfg8.win 2).flush t = true ∧ i ∈ ((cfg8.win 2).blk t).view.set := by
  have h0 : (i 0).val < 2048 := idx2_lt0 i
  have h1 : (i 1).val < 50688 := idx2_lt1 i
  have hN : cfg8.N = 99 := N_8
  refine ⟨⟨(i 1).val / 512, by rw [hN]; omega⟩, flush8_2 _, ?_⟩
  rw [mem_blk8_2]
  obtain ⟨e0, e1⟩ := idx8_2 ⟨(i 1).val / 512, by rw [hN]; omega⟩
  intro a
  match a with
  | ⟨0, _⟩ =>
    show win8_2.index _ (0 : Fin 2) * 2048 ≤ (i 0).val ∧ (i 0).val < win8_2.index _ (0 : Fin 2) * 2048 + 2048
    rw [e0]; omega
  | ⟨1, _⟩ =>
    show win8_2.index _ (1 : Fin 2) * 512 ≤ (i 1).val ∧ (i 1).val < win8_2.index _ (1 : Fin 2) * 512 + 512
    rw [e1]; show (i 1).val / 512 * 512 ≤ (i 1).val ∧ (i 1).val < (i 1).val / 512 * 512 + 512; omega

/-- Every tile's 8 × 128 block is the block of the point that is the tile. -/
theorem covers8_3 (i : S99x8x128.Idx) : ∃ t : Fin cfg8.N, (cfg8.win 3).flush t = true ∧ i ∈ ((cfg8.win 3).blk t).view.set := by
  have h0 : (i 0).val < 99 := (i 0).isLt
  have h1 : (i 1).val < 8 := (i 1).isLt
  have h2 : (i 2).val < 128 := (i 2).isLt
  have hN : cfg8.N = 99 := N_8
  refine ⟨⟨(i 0).val, by rw [hN]; omega⟩, flush8_3 _, ?_⟩
  rw [mem_blk8_3]
  obtain ⟨e0, e1, e2⟩ := idx8_3 ⟨(i 0).val, by rw [hN]; omega⟩
  intro a
  match a with
  | ⟨0, _⟩ =>
    show win8_3.index _ (0 : Fin 3) * 1 ≤ (i 0).val ∧ (i 0).val < win8_3.index _ (0 : Fin 3) * 1 + 1
    rw [e0]; show (i 0).val * 1 ≤ (i 0).val ∧ (i 0).val < (i 0).val * 1 + 1; omega
  | ⟨1, _⟩ =>
    show win8_3.index _ (1 : Fin 3) * 8 ≤ (i 1).val ∧ (i 1).val < win8_3.index _ (1 : Fin 3) * 8 + 8
    rw [e1]; omega
  | ⟨2, _⟩ =>
    show win8_3.index _ (2 : Fin 3) * 128 ≤ (i 2).val ∧ (i 2).val < win8_3.index _ (2 : Fin 3) * 128 + 128
    rw [e2]; omega
theorem covers8_4 (i : S99x8x128.Idx) : ∃ t : Fin cfg8.N, (cfg8.win 4).flush t = true ∧ i ∈ ((cfg8.win 4).blk t).view.set := by
  have h0 : (i 0).val < 99 := (i 0).isLt
  have h1 : (i 1).val < 8 := (i 1).isLt
  have h2 : (i 2).val < 128 := (i 2).isLt
  have hN : cfg8.N = 99 := N_8
  refine ⟨⟨(i 0).val, by rw [hN]; omega⟩, flush8_4 _, ?_⟩
  rw [mem_blk8_4]
  obtain ⟨e0, e1, e2⟩ := idx8_4 ⟨(i 0).val, by rw [hN]; omega⟩
  intro a
  match a with
  | ⟨0, _⟩ =>
    show win8_4.index _ (0 : Fin 3) * 1 ≤ (i 0).val ∧ (i 0).val < win8_4.index _ (0 : Fin 3) * 1 + 1
    rw [e0]; show (i 0).val * 1 ≤ (i 0).val ∧ (i 0).val < (i 0).val * 1 + 1; omega
  | ⟨1, _⟩ =>
    show win8_4.index _ (1 : Fin 3) * 8 ≤ (i 1).val ∧ (i 1).val < win8_4.index _ (1 : Fin 3) * 8 + 8
    rw [e1]; omega
  | ⟨2, _⟩ =>
    show win8_4.index _ (2 : Fin 3) * 128 ≤ (i 2).val ∧ (i 2).val < win8_4.index _ (2 : Fin 3) * 128 + 128
    rw [e2]; omega

/-- The three arrays after the region. -/
theorem arrAt8_2 (c : Dev nD) : (dat8 (F := Ideal) V c).arrAt 2 cfg8.N = arr8_2 V c :=
  (dat8 (F := Ideal) V c).arrAt_eq_of_cover 2 (arr8_2 V c) (fun t _ => flushed8_2 V c t) covers8_2
theorem arrAt8_3 (c : Dev nD) : (dat8 (F := Ideal) V c).arrAt 3 cfg8.N = arr8_3 V c :=
  (dat8 (F := Ideal) V c).arrAt_eq_of_cover 3 (arr8_3 V c) (fun t _ => flushed8_3 V c t) covers8_3
theorem arrAt8_4 (c : Dev nD) : (dat8 (F := Ideal) V c).arrAt 4 cfg8.N = arr8_4 V c :=
  (dat8 (F := Ideal) V c).arrAt_eq_of_cover 4 (arr8_4 V c) (fun t _ => flushed8_4 V c t) covers8_4

/-- The logits array after the region. -/
theorem final8_2 (c : Dev nD) (r : Fin 2048) (col : Fin 50688) :
    ((dat8 (F := Ideal) V c).arrAt 2 cfg8.N : S2048x50688.Idx → Elt Ideal .bf16) (ix2 r col) = masked8 V c r col := by
  rw [arrAt8_2 V c]; rfl

/-- The tile maxima after the region. -/
theorem final8_3 (c : Dev nD) (j : Fin 99) (a : Fin 8) (b : Fin 128) :
    ((dat8 (F := Ideal) V c).arrAt 3 cfg8.N : S99x8x128.Idx → Elt Ideal .f32) (ix3 j a b) = tmax8 V c j := by
  rw [arrAt8_3 V c]; rfl

/-- The tile sums after the region. -/
theorem final8_4 (c : Dev nD) (j : Fin 99) (a : Fin 8) (b : Fin 128) :
    ((dat8 (F := Ideal) V c).arrAt 4 cfg8.N : S99x8x128.Idx → Elt Ideal .f32) (ix3 j a b) = tsum8 V c j := by
  rw [arrAt8_4 V c]; rfl

end Cert.KernelIdeal.Val

end
-- ==== Proof.HostKEnds.lean ====
/- The host stretches at the two ends of the kernel program, read at an index, at the exact values.

   Before the first launch the host selects one embedding row per position (a token below zero counts from the end
   of the table), normalises each row (centre, divide by the root of the variance plus a small constant, gain and
   bias) and lays the 2 × 1024 positions out as 2048 rows: row r is position (r / 1024, r % 1024). Before the last
   launch it normalises each row of the state the same way, and puts 431 rows of the padding value under the head's
   matrix. After the last launch it combines the 99 tiles' maxima and sums: with G the largest of the maxima and
   S = Σⱼ sumⱼ · exp (maxⱼ − G), the result at (b, t, v) is exp (logit − G) / S, the logit that of row b·1024 + t
   and token v. Every statement is over an arbitrary contents `W` of the buffers the stretch starts from. A change
   of float format is the identity on the extended reals, and a sum from the zero word is the sum. -/
import proofs.«415492_j738734375128_3_alg».proof.Proof.Gen.KernelIdeal.Launch
import proofs.«415492_j738734375128_3_alg».proof.Proof.Spec
import Idealize.ShloMosaic.Lib.StableHlo.Run
import Idealize.ShloMosaic.Lib.ValueIdx
import Idealize.ShloMosaic.Lib.ValueIdxRank1
import Idealize.ShloMosaic.Lib.IdealHost
import Idealize.ShloMosaic.Lib.KernelVsHost
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx Idealize.ShloMosaic.StableHlo
open scoped BigOperators

/-! ### Reading an array of extended reals at its coordinates -/

abbrev at1 {n : Nat} (x : (⟨1, ![n]⟩ : Shape).Idx → EReal) (a : Fin n) : EReal := x (ix1 a)
abbrev at2 {n0 n1 : Nat} (x : (⟨2, ![n0, n1]⟩ : Shape).Idx → EReal) (a : Fin n0) (b : Fin n1) : EReal := x (ix2 a b)
abbrev at3 {n0 n1 n2 : Nat} (x : (⟨3, ![n0, n1, n2]⟩ : Shape).Idx → EReal) (a : Fin n0) (b : Fin n1) (c : Fin n2) : EReal := x (ix3 a b c)

/-- The host's exponential and reciprocal square root act entry by entry. -/
theorem hostExp_apply {s : Shape} {φ : FTy} (a : FVec Ideal s φ) (i : s.Idx) : Host.exp a i = Ideal.exp (a i) := rfl
theorem hostRsqrt_apply {s : Shape} {φ : FTy} (a : FVec Ideal s φ) (i : s.Idx) : Host.rsqrt a i = Ideal.rsqrt (a i) := rfl

/-! ### The embedding rows -/

/-- The embedding rows the tokens select: a token below zero has the table's height added to it, and the row of the
    table at the token (clamped into the table) is laid at the token's position. -/
def gatherOf (tok : (⟨S2x1024, .i32⟩ : BufTy).Contents (Elt Ideal)) (emb : (⟨S50257x1024, .f32⟩ : BufTy).Contents (Elt Ideal)) :
    (⟨S2x1024x1024, .f32⟩ : BufTy).Contents (Elt Ideal) :=
  Host.gather gather_S50257x1024_S2x1024x1_S2x1024x1024_2_0_n_n_0_2_11024 emb
    (broadcastInDim S2x1024x1 ![0, 1] bcast_S2x1024_S2x1024x1_0_1
      (select (cmpi .slt tok (broadcastInDim S2x1024 ![] bcast_S_S2x1024 (constantI S_ 32 0#32)))
        (addi tok (broadcastInDim S2x1024 ![] bcast_S_S2x1024 (constantI S_ 32 50257#32))) tok))

/-- The embedding row of position r = b·1024 + t. -/
def gatheredK (W : Valuation τ sig (Elt Ideal)) (r : Fin 2048) : Cert.Spec.Row := fun d =>
  at3 (gatherOf (W (Proc.devRef .tc main_arg0)) (W (Proc.devRef .tc main_arg1)))
    (⟨r.val / 1024, by have := r.isLt; omega⟩ : Fin 2) (⟨r.val % 1024, Nat.mod_lt _ (by decide)⟩ : Fin 1024) d

/-! ### Layer normalisation along the last axis of a 2 × 1024 × 1024 array, as the host spells it -/

section Rows3
variable {α : Type}

theorem bc3_col (x : S2x1024.Idx → α) (b : Fin 2) (t : Fin 1024) (u : Fin 1) :
    broadcastInDim S2x1024x1 ![0, 1] bcast_S2x1024_S2x1024x1_0_1 x (ix3 b t u) = x (ix2 b t) :=
  broadcastInDim_apply _ _ x _ _ fun a => match a with | ⟨0, _⟩ => rfl | ⟨1, _⟩ => rfl

theorem bc3_rows (x : S2x1024x1.Idx → α) (b : Fin 2) (t : Fin 1024) (d : Fin 1024) :
    broadcastInDim S2x1024x1024 ![0, 1, 2] bcast_S2x1024x1_S2x1024x1024_0_1_2 x (ix3 b t d) = x (ix3 b t (0 : Fin 1)) :=
  broadcastInDim_apply _ _ x _ _ fun a => match a with | ⟨0, _⟩ => rfl | ⟨1, _⟩ => rfl | ⟨2, _⟩ => rfl

theorem bc3_vec (x : S1024.Idx → α) (u u' : Fin 1) (d : Fin 1024) :
    broadcastInDim S1x1x1024 ![2] bcast_S1024_S1x1x1024_2 x (ix3 u u' d) = x (ix1 d) :=
  broadcastInDim_apply _ _ x _ _ fun a => match a with | ⟨0, _⟩ => rfl

theorem bc3_row (x : S1x1x1024.Idx → α) (b : Fin 2) (t : Fin 1024) (d : Fin 1024) :
    broadcastInDim S2x1024x1024 ![0, 1, 2] bcast_S1x1x1024_S2x1024x1024_0_1_2 x (ix3 b t d) = x (ix3 (0 : Fin 1) (0 : Fin 1) d) :=
  broadcastInDim_apply _ _ x _ _ fun a => match a with | ⟨0, _⟩ => rfl | ⟨1, _⟩ => rfl | ⟨2, _⟩ => rfl

/-- The 2 × 1024 × 1024 array laid out as 2048 rows: row r is (r / 1024, r % 1024). -/
theorem rows2048_apply (Y : S2x1024x1024.Idx → α) (r : Fin 2048) (d : Fin 1024) :
    shapeCast S2048x1024 Y shapeCasts_S2x1024x1024_S2048x1024 (ix2 r d)
      = Y (ix3 (⟨r.val / 1024, by have := r.isLt; omega⟩ : Fin 2) (⟨r.val % 1024, Nat.mod_lt _ (by decide)⟩ : Fin 1024) d) := by
  refine shapeCast_apply _ _ _ _ ?_
  rw [Shape.rowMajor_val_three, Shape.rowMajor_val_two]
  show (r.val / 1024 * 1024 + r.val % 1024) * 1024 + d.val = r.val * 1024 + d.val
  omega

end Rows3

/-- A sum along the last axis, from the zero word. -/
theorem rowSum3 (X : S2x1024x1024.Idx → EReal) (b : Fin 2) (t : Fin 1024) :
    Host.reduceAdd (F := Ideal) (φ := .f32) X (constant (F := Ideal) S_ .f32 0x00000000#32) reducesTo_S2x1024x1024_S2x1024_d2 h_S_ (ix2 b t)
      = ∑ k : Fin 1024, X (ix3 b t k) := by
  show Ideal.hostReduceAdd reducesTo_S2x1024x1024_S2x1024_d2 X (Ideal.ofBits .f32 0x00000000#32) (ix2 b t) = _
  have hR : S2x1024x1024.Reduces [2] S2x1024 := by decide
  rw [Ideal.hostReduceAdd_single reducesTo_S2x1024x1024_S2x1024_d2 hR, Ideal.ofBits_zero_f32, zero_add]
  refine Finset.sum_congr rfl fun k _ => congrArg X ?_
  funext c; apply Fin.ext
  fin_cases c <;> rfl

def meanCol3 (X : FVec Ideal S2x1024x1024 .f32) : FVec Ideal S2x1024x1 .f32 :=
  Host.divf
    (broadcastInDim S2x1024x1 ![0, 1] bcast_S2x1024_S2x1024x1_0_1
      (Host.reduceAdd X (constant S_ .f32 0x00000000#32) reducesTo_S2x1024x1024_S2x1024_d2 h_S_))
    (broadcastInDim S2x1024x1 ![] bcast_S_S2x1024x1 (constant S_ .f32 0x44800000#32))

def cenRows3 (X : FVec Ideal S2x1024x1024 .f32) : FVec Ideal S2x1024x1024 .f32 :=
  subf X (broadcastInDim S2x1024x1024 ![0, 1, 2] bcast_S2x1024x1_S2x1024x1024_0_1_2 (meanCol3 X))

def varCol3 (X : FVec Ideal S2x1024x1024 .f32) : FVec Ideal S2x1024x1 .f32 :=
  Host.divf
    (broadcastInDim S2x1024x1 ![0, 1] bcast_S2x1024_S2x1024x1_0_1
      (Host.reduceAdd (mulf (cenRows3 X) (cenRows3 X)) (constant S_ .f32 0x00000000#32) reducesTo_S2x1024x1024_S2x1024_d2 h_S_))
    (broadcastInDim S2x1024x1 ![] bcast_S_S2x1024x1 (constant S_ .f32 0x44800000#32))

def lnRows3 (X : FVec Ideal S2x1024x1024 .f32) (w b : FVec Ideal S1024 .f32) : FVec Ideal S2x1024x1024 .f32 :=
  addf
    (mulf
      (mulf (cenRows3 X)
        (broadcastInDim S2x1024x1024 ![0, 1, 2] bcast_S2x1024x1_S2x1024x1024_0_1_2
          (Host.rsqrt (addf (varCol3 X) (broadcastInDim S2x1024x1 ![] bcast_S_S2x1024x1 (constant S_ .f32 0x3727C5AC#32))))))
      (broadcastInDim S2x1024x1024 ![0, 1, 2] bcast_S1x1x1024_S2x1024x1024_0_1_2 (broadcastInDim S1x1x1024 ![2] bcast_S1024_S1x1x1024_2 w)))
    (broadcastInDim S2x1024x1024 ![0, 1, 2] bcast_S1x1x1024_S2x1024x1024_0_1_2 (broadcastInDim S1x1x1024 ![2] bcast_S1024_S1x1x1024_2 b))

theorem meanCol3_apply (X : FVec Ideal S2x1024x1024 .f32) (b : Fin 2) (t : Fin 1024) (u : Fin 1) :
    meanCol3 X (ix3 b t u) = Cert.Spec.mean fun k => X (ix3 b t k) := by
  unfold meanCol3 Cert.Spec.mean
  rw [hostDivf_apply, bc3_col, rowSum3, broadcastInDim_scalar_apply]
  rfl

theorem cenRows3_apply (X : FVec Ideal S2x1024x1024 .f32) (b : Fin 2) (t : Fin 1024) (d : Fin 1024) :
    cenRows3 X (ix3 b t d) = X (ix3 b t d) - Cert.Spec.mean fun k => X (ix3 b t k) := by
  unfold cenRows3
  rw [subf_apply, bc3_rows, meanCol3_apply]

theorem varCol3_apply (X : FVec Ideal S2x1024x1024 .f32) (b : Fin 2) (t : Fin 1024) (u : Fin 1) :
    varCol3 X (ix3 b t u) = Cert.Spec.var fun k => X (ix3 b t k) := by
  unfold varCol3 Cert.Spec.var
  rw [hostDivf_apply, bc3_col, rowSum3, broadcastInDim_scalar_apply]
  refine congrArg (fun S => Ideal.div S _) (Finset.sum_congr rfl fun k _ => ?_)
  rw [mulf_apply, cenRows3_apply]

theorem lnRows3_apply (X : FVec Ideal S2x1024x1024 .f32) (w b : FVec Ideal S1024 .f32) (p : Fin 2) (t : Fin 1024) (d : Fin 1024) :
    lnRows3 X w b (ix3 p t d) = Cert.Spec.lnRow (at1 w) (at1 b) (fun k => X (ix3 p t k)) d := by
  unfold lnRows3 Cert.Spec.lnRow
  rw [addf_apply, mulf_apply, mulf_apply, cenRows3_apply, bc3_rows, hostRsqrt_apply, addf_apply, varCol3_apply,
    broadcastInDim_scalar_apply, bc3_row, bc3_vec, bc3_row, bc3_vec]
  rfl

set_option maxHeartbeats 4000000 in
/-- Region 0's first operand as one term of the token array, the embedding table and the first normalisation's gain and bias. -/
theorem v31_eq (W : Valuation τ sig (Elt Ideal)) :
    @Eq ((⟨S2048x1024, .f32⟩ : BufTy).Contents (Elt Ideal)) (StableHlo.after hostOps0 W (Proc.devRef .tc main_v31))
      (shapeCast S2048x1024
        (lnRows3 (gatherOf (W (Proc.devRef .tc main_arg0)) (W (Proc.devRef .tc main_arg1)))
          (W (Proc.devRef .tc main_arg2)) (W (Proc.devRef .tc main_arg3)))
        shapeCasts_S2x1024x1024_S2048x1024) := by
  dsimp only [hostOps0]
  after_results_simp
  rfl

theorem host0_x (W : Valuation τ sig (Elt Ideal)) (r : Fin 2048) (d : Fin 1024) :
    at2 (StableHlo.after hostOps0 W (Proc.devRef .tc main_v31)) r d
      = Cert.Spec.lnRow (at1 (W (Proc.devRef .tc main_arg2))) (at1 (W (Proc.devRef .tc main_arg3))) (gatheredK W r) d := by
  unfold at2
  rw [v31_eq, rows2048_apply]
  exact lnRows3_apply _ _ _ _ _ d

/-! ### Layer normalisation of the rows of a 2048 × 1024 array, as the host spells it -/

section Rows2
variable {α : Type}

theorem bc_col_2048 (x : S2048.Idx → α) (r : Fin 2048) (u : Fin 1) :
    broadcastInDim S2048x1 ![0] bcast_S2048_S2048x1_0 x (ix2 r u) = x (ix1 r) :=
  broadcastInDim_apply _ _ x _ _ fun a => match a with | ⟨0, _⟩ => rfl

theorem bc_rows_2048 (x : S2048x1.Idx → α) (r : Fin 2048) (d : Fin 1024) :
    broadcastInDim S2048x1024 ![0, 1] bcast_S2048x1_S2048x1024_0_1 x (ix2 r d) = x (ix2 r (0 : Fin 1)) :=
  broadcastInDim_apply _ _ x _ _ fun a => match a with | ⟨0, _⟩ => rfl | ⟨1, _⟩ => rfl

theorem bc_vec_1x1024 (x : S1024.Idx → α) (u : Fin 1) (d : Fin 1024) :
    broadcastInDim S1x1024 ![1] bcast_S1024_S1x1024_1 x (ix2 u d) = x (ix1 d) :=
  broadcastInDim_apply _ _ x _ _ fun a => match a with | ⟨0, _⟩ => rfl

theorem bc_row_2048x1024 (x : S1x1024.Idx → α) (r : Fin 2048) (d : Fin 1024) :
    broadcastInDim S2048x1024 ![0, 1] bcast_S1x1024_S2048x1024_0_1 x (ix2 r d) = x (ix2 (0 : Fin 1) d) :=
  broadcastInDim_apply _ _ x _ _ fun a => match a with | ⟨0, _⟩ => rfl | ⟨1, _⟩ => rfl

end Rows2

/-- A row's sum, from the zero word. -/
theorem rowSum_2048 (X : S2048x1024.Idx → EReal) (r : Fin 2048) :
    Host.reduceAdd (F := Ideal) (φ := .f32) X (constant (F := Ideal) S_ .f32 0x00000000#32) reducesTo_S2048x1024_S2048_d1 h_S_ (ix1 r)
      = ∑ k : Fin 1024, X (ix2 r k) := by
  show Ideal.hostReduceAdd reducesTo_S2048x1024_S2048_d1 X (Ideal.ofBits .f32 0x00000000#32) (ix1 r) = _
  have hR : S2048x1024.Reduces [1] S2048 := by decide
  rw [Ideal.hostReduceAdd_single reducesTo_S2048x1024_S2048_d1 hR, Ideal.ofBits_zero_f32, zero_add]
  refine Finset.sum_congr rfl fun k _ => congrArg X ?_
  funext c; apply Fin.ext
  fin_cases c <;> rfl

/-- The column of row means, -/
def meanCol (X : FVec Ideal S2048x1024 .f32) : FVec Ideal S2048x1 .f32 :=
  Host.divf
    (broadcastInDim S2048x1 ![0] bcast_S2048_S2048x1_0
      (Host.reduceAdd X (constant S_ .f32 0x00000000#32) reducesTo_S2048x1024_S2048_d1 h_S_))
    (broadcastInDim S2048x1 ![] bcast_S_S2048x1 (constant S_ .f32 0x44800000#32))

/-- the rows centred, -/
def cenRows (X : FVec Ideal S2048x1024 .f32) : FVec Ideal S2048x1024 .f32 :=
  subf X (broadcastInDim S2048x1024 ![0, 1] bcast_S2048x1_S2048x1024_0_1 (meanCol X))

/-- the column of row variances, -/
def varCol (X : FVec Ideal S2048x1024 .f32) : FVec Ideal S2048x1 .f32 :=
  Host.divf
    (broadcastInDim S2048x1 ![0] bcast_S2048_S2048x1_0
      (Host.reduceAdd (mulf (cenRows X) (cenRows X)) (constant S_ .f32 0x00000000#32) reducesTo_S2048x1024_S2048_d1 h_S_))
    (broadcastInDim S2048x1 ![] bcast_S_S2048x1 (constant S_ .f32 0x44800000#32))

/-- and the rows normalised, with gain `w` and bias `b`. -/
def lnRows (X : FVec Ideal S2048x1024 .f32) (w b : FVec Ideal S1024 .f32) : FVec Ideal S2048x1024 .f32 :=
  addf
    (mulf
      (mulf (cenRows X)
        (broadcastInDim S2048x1024 ![0, 1] bcast_S2048x1_S2048x1024_0_1
          (Host.rsqrt (addf (varCol X) (broadcastInDim S2048x1 ![] bcast_S_S2048x1 (constant S_ .f32 0x3727C5AC#32))))))
      (broadcastInDim S2048x1024 ![0, 1] bcast_S1x1024_S2048x1024_0_1 (broadcastInDim S1x1024 ![1] bcast_S1024_S1x1024_1 w)))
    (broadcastInDim S2048x1024 ![0, 1] bcast_S1x1024_S2048x1024_0_1 (broadcastInDim S1x1024 ![1] bcast_S1024_S1x1024_1 b))

theorem meanCol_apply (X : FVec Ideal S2048x1024 .f32) (r : Fin 2048) (u : Fin 1) :
    meanCol X (ix2 r u) = Cert.Spec.mean fun k => X (ix2 r k) := by
  unfold meanCol Cert.Spec.mean
  rw [hostDivf_apply, bc_col_2048, rowSum_2048, broadcastInDim_scalar_apply]
  rfl

theorem cenRows_apply (X : FVec Ideal S2048x1024 .f32) (r : Fin 2048) (d : Fin 1024) :
    cenRows X (ix2 r d) = X (ix2 r d) - Cert.Spec.mean fun k => X (ix2 r k) := by
  unfold cenRows
  rw [subf_apply, bc_rows_2048, meanCol_apply]

theorem varCol_apply (X : FVec Ideal S2048x1024 .f32) (r : Fin 2048) (u : Fin 1) :
    varCol X (ix2 r u) = Cert.Spec.var fun k => X (ix2 r k) := by
  unfold varCol Cert.Spec.var
  rw [hostDivf_apply, bc_col_2048, rowSum_2048, broadcastInDim_scalar_apply]
  refine congrArg (fun S => Ideal.div S _) (Finset.sum_congr rfl fun k _ => ?_)
  rw [mulf_apply, cenRows_apply]

theorem lnRows_apply (X : FVec Ideal S2048x1024 .f32) (w b : FVec Ideal S1024 .f32) (r : Fin 2048) (d : Fin 1024) :
    lnRows X w b (ix2 r d) = Cert.Spec.lnRow (at1 w) (at1 b) (fun k => X (ix2 r k)) d := by
  unfold lnRows Cert.Spec.lnRow
  rw [addf_apply, mulf_apply, mulf_apply, cenRows_apply, bc_rows_2048, hostRsqrt_apply, addf_apply, varCol_apply,
    broadcastInDim_scalar_apply, bc_row_2048x1024, bc_vec_1x1024, bc_row_2048x1024, bc_vec_1x1024]
  rfl

/-- Region 8's first operand as one term of the state it normalises. -/
theorem v316_eq (W : Valuation τ sig (Elt Ideal)) :
    @Eq ((⟨S2048x1024, .bf16⟩ : BufTy).Contents (Elt Ideal)) (StableHlo.after hostOps8 W (Proc.devRef .tc main_v316))
      (truncf .bf16 (lnRows (W (Proc.devRef .tc main_v291)) (W (Proc.devRef .tc main_arg22)) (W (Proc.devRef .tc main_arg23))) bitsLt_bf16_f32) := by
  dsimp only [hostOps8]
  after_results_simp
  rfl

theorem host8_x (W : Valuation τ sig (Elt Ideal)) (r : Fin 2048) (d : Fin 1024) :
    at2 (StableHlo.after hostOps8 W (Proc.devRef .tc main_v316)) r d
      = Cert.Spec.lnRow (at1 (W (Proc.devRef .tc main_arg22))) (at1 (W (Proc.devRef .tc main_arg23)))
          (at2 (W (Proc.devRef .tc main_v291)) r) d := by
  unfold at2
  rw [v316_eq]
  exact lnRows_apply _ _ _ r d

theorem host8_1_x (W : Valuation τ sig (Elt Ideal)) :
    StableHlo.after hostOps8_1 W (Proc.devRef .tc main_v316) = W (Proc.devRef .tc main_v316) := by
  dsimp only [hostOps8_1]
  after_results_simp

/-- Region 8's second operand: the head's matrix with 431 rows of the padding value below it. -/
theorem v318_eq (W : Valuation τ sig (Elt Ideal)) :
    @Eq ((⟨S50688x1024, .bf16⟩ : BufTy).Contents (Elt Ideal))
      (StableHlo.after hostOps8_1 (StableHlo.after hostOps8 W) (Proc.devRef .tc main_v318))
      (pad S50688x1024 ![0, 0] ![431, 0] ![0, 0]
        (truncf (F := Ideal) .bf16 (W (Proc.devRef .tc main_arg24)) bitsLt_bf16_f32)
        (sitofp (F := Ideal) .bf16 (constantI S_ 32 0#32)) pads_S50257x1024_S50688x1024_04310_000 h_S_) := by
  dsimp only [hostOps8_1, hostOps8]
  after_results_simp
  rfl

theorem host8_w (W : Valuation τ sig (Elt Ideal)) (col : Fin 50688) (d : Fin 1024) :
    at2 (StableHlo.after hostOps8_1 (StableHlo.after hostOps8 W) (Proc.devRef .tc main_v318)) col d
      = if h : col.val < 50257 then at2 (W (Proc.devRef .tc main_arg24)) (⟨col.val, h⟩ : Fin 50257) d else 0 := by
  unfold at2
  rw [v318_eq]
  by_cases h : col.val < 50257
  · rw [dif_pos h]
    exact pad_apply_of_inside _ _ _ _ _ _ _ (ix2 col d) (ix2 (⟨col.val, h⟩ : Fin 50257) d) fun a =>
      match a with
      | ⟨0, _⟩ => by show col.val = 0 + col.val * (0 + 1); omega
      | ⟨1, _⟩ => by show d.val = 0 + d.val * (0 + 1); omega
  · rw [dif_neg h]
    refine (pad_apply_of_not_inside _ _ _ _ _ _ _ (ix2 col d) (0 : Fin 2) ?_).trans ?_
    · intro hh
      have h3 : (col.val - 0) / (0 + 1) < 50257 := hh.2.2
      omega
    · show ((((0#32 : BitVec 32).toInt : ℝ)) : EReal) = 0
      simp

/-! ### The last stretch -/

/-- Entry (j, 0, 0) of each of the 99 tiles of a tile statistic, as a vector of 99. -/
def tileCol (X : S99x8x128.Idx → EReal) : S99.Idx → EReal :=
  shapeCast S99 (extractStridedSlice S99x1x1 ![0, 0, 0] X slices_S99x8x128_S99x1x1_0_0_0) shapeCasts_S99x1x1_S99

theorem tileCol_apply (X : S99x8x128.Idx → EReal) (j : Fin 99) : tileCol X (ix1 j) = X (ix3 j (0 : Fin 8) (0 : Fin 128)) := by
  unfold tileCol
  refine (shapeCast_apply _ _ (ix1 j) (ix3 j (0 : Fin 1) (0 : Fin 1)) ?_).trans ?_
  · rw [Shape.rowMajor_val_three, Shape.rowMajor_val_one]
    show (j.val * 1 + 0) * 1 + 0 = j.val
    omega
  · exact extractStridedSlice_apply _ _ _ _ (ix3 j (0 : Fin 8) (0 : Fin 128)) fun a =>
      match a with
      | ⟨0, _⟩ => (Nat.zero_add _).symm
      | ⟨1, _⟩ => rfl
      | ⟨2, _⟩ => rfl

/-- A fold of the maximum from −∞ is the supremum. -/
theorem fold_maximumf_bot {ι : Type} (s : Finset ι) (f : ι → EReal) :
    s.fold (FloatOps.maximumf (F := Ideal) (φ := .f32)) (⊥ : EReal) f = s.sup f := by
  induction s using Finset.cons_induction with
  | empty => simp
  | cons a s ha ih =>
    rw [Finset.fold_cons, Finset.sup_cons, ih]
    show max (f a) (s.sup f) = f a ⊔ s.sup f
    exact le_antisymm (max_le le_sup_left le_sup_right) (sup_le (le_max_left _ _) (le_max_right _ _))

/-- The host's maximum of a vector of 99 from −∞ is the supremum of its entries. -/
theorem reduceMax99 (x : S99.Idx → EReal) (j : S_.Idx) :
    Host.reduce (FloatOps.maximumf (F := Ideal) (φ := .f32)) x (constant (F := Ideal) S_ .f32 0xFF800000#32) reducesTo_S99_S_d0 h_S_ j
      = Finset.univ.sup fun k : Fin 99 => x (ix1 k) := by
  rw [Host.reduce_eq_fold]
  rw [Finset.filter_true_of_mem fun i _ => funext fun a => a.elim0]
  have hb : (constant (F := Ideal) S_ .f32 0xFF800000#32) (Shape.Idx.first h_S_) = (⊥ : EReal) := by
    show Ideal.ofBits .f32 0xFF800000#32 = ⊥
    simp [Ideal.ofBits, Ideal.ieee]
  rw [hb, fold_maximumf_bot, Finset.sup_univ_eq_iSup, Finset.sup_univ_eq_iSup]
  exact (Equiv.iSup_comp (g := x) idxEquiv1.symm).symm

/-- The host's sum of a vector of 99 from the zero word is the sum of its entries. -/
theorem reduceAdd99 (x : S99.Idx → EReal) (j : S_.Idx) :
    Host.reduceAdd (F := Ideal) (φ := .f32) x (constant (F := Ideal) S_ .f32 0x00000000#32) reducesTo_S99_S_d0 h_S_ j
      = ∑ k : Fin 99, x (ix1 k) := by
  show Ideal.hostReduceAdd reducesTo_S99_S_d0 x (Ideal.ofBits .f32 0x00000000#32) j = _
  rw [Ideal.hostReduceAdd_total _ (fun b => b.elim0), Ideal.ofBits_zero_f32, zero_add]
  exact (Equiv.sum_comp idxEquiv1.symm x).symm

/-- The logits array cut to the 50257 tokens and laid out by (batch, time): entry (b, t, v) is row b·1024 + t, column v. -/
def logitsCut (L : S2048x50688.Idx → EReal) : S2x1024x50257.Idx → EReal :=
  shapeCast S2x1024x50257 (extractStridedSlice S2048x50257 ![0, 0] L slices_S2048x50688_S2048x50257_0_0) shapeCasts_S2048x50257_S2x1024x50257

theorem logitsCut_apply (L : S2048x50688.Idx → EReal) (b : Fin 2) (t : Fin 1024) (v : Fin 50257) :
    logitsCut L (ix3 b t v) = L (ix2 (Cert.Spec.pos b t) (Fin.castLE (by decide : 50257 ≤ 50688) v)) := by
  unfold logitsCut
  refine (shapeCast_apply _ _ (ix3 b t v) (ix2 (Cert.Spec.pos b t) v) ?_).trans ?_
  · rw [Shape.rowMajor_val_two, Shape.rowMajor_val_three]
    rfl
  · exact extractStridedSlice_apply _ _ _ _ (ix2 (Cert.Spec.pos b t) (Fin.castLE (by decide : 50257 ≤ 50688) v)) fun a =>
      match a with
      | ⟨0, _⟩ => (Nat.zero_add _).symm
      | ⟨1, _⟩ => (Nat.zero_add _).symm

/-- The largest of the 99 tile maxima, -/
def gmaxK (W : Valuation τ sig (Elt Ideal)) : EReal :=
  Finset.univ.sup fun j : Fin 99 => at3 (W (Proc.devRef .tc main_v319_1)) j (0 : Fin 8) (0 : Fin 128)
/-- and the tile sums brought to it. -/
def gsumK (W : Valuation τ sig (Elt Ideal)) : EReal :=
  ∑ j : Fin 99, at3 (W (Proc.devRef .tc main_v319_2)) j (0 : Fin 8) (0 : Fin 128)
    * Ideal.exp (at3 (W (Proc.devRef .tc main_v319_1)) j (0 : Fin 8) (0 : Fin 128) - gmaxK W)

/-- The last stretch's result as one term of the three arrays region 8 wrote. -/
theorem v337_eq (W : Valuation τ sig (Elt Ideal)) :
    @Eq ((⟨S2x1024x50257, .f32⟩ : BufTy).Contents (Elt Ideal)) (StableHlo.after hostOps9 W (Proc.devRef .tc main_v337))
      (Host.divf (F := Ideal)
          (Host.exp (subf (extf .f32 (logitsCut (W (Proc.devRef .tc main_v319_0))) bitsLt_bf16_f32)
            (broadcastInDim S2x1024x50257 ![] bcast_S_S2x1024x50257
              (Host.reduce FloatOps.maximumf (tileCol (W (Proc.devRef .tc main_v319_1))) (constant S_ .f32 0xFF800000#32) reducesTo_S99_S_d0 h_S_))))
          (broadcastInDim S2x1024x50257 ![] bcast_S_S2x1024x50257
            (Host.reduceAdd
              (mulf (tileCol (W (Proc.devRef .tc main_v319_2)))
                (Host.exp (subf (tileCol (W (Proc.devRef .tc main_v319_1)))
                  (broadcastInDim S99 ![] bcast_S_S99
                    (Host.reduce FloatOps.maximumf (tileCol (W (Proc.devRef .tc main_v319_1))) (constant S_ .f32 0xFF800000#32) reducesTo_S99_S_d0 h_S_)))))
              (constant S_ .f32 0x00000000#32) reducesTo_S99_S_d0 h_S_))) := by
  dsimp only [hostOps9]
  after_results_simp
  rfl

theorem host9_out (W : Valuation τ sig (Elt Ideal)) (b : Fin 2) (t : Fin 1024) (v : Fin 50257) :
    at3 (StableHlo.after hostOps9 W (Proc.devRef .tc main_v337)) b t v
      = Ideal.div (Ideal.exp (at2 (W (Proc.devRef .tc main_v319_0)) (Cert.Spec.pos b t) (Fin.castLE (by decide : 50257 ≤ 50688) v) - gmaxK W)) (gsumK W) := by
  unfold at3
  rw [v337_eq]
  simp only [hostDivf_apply, hostExp_apply, subf_apply, extf_apply, logitsCut_apply]
  rw [broadcastInDim_scalar_apply, broadcastInDim_scalar_apply, reduceMax99, reduceAdd99]
  simp only [hostExp_apply, subf_apply, mulf_apply, tileCol_apply]
  unfold gsumK gmaxK
  refine congrArg (Ideal.div _) (Finset.sum_congr rfl fun k _ => ?_)
  rw [broadcastInDim_scalar_apply, reduceMax99]
  simp only [tileCol_apply]

end Cert.KernelIdeal.Val

end
-- ==== Proof.LibSoftmaxTiled.lean ====
/-
  A softmax computed from per-tile statistics equals the global softmax, on the extended reals
  with the conventions of the ideal float instance: `x - y` is the extended reals' subtraction
  (`⊤ - ⊤ = ⊥`, `⊥ - ⊥ = ⊥`), `exp ⊥ = 0`, `exp ⊤ = ⊤`, and the quotient is `x * y⁻¹` off a zero
  denominator, `⊤` / `⊥` / `⊥` at `x / 0` for `x` positive / negative / zero. No entry is assumed
  finite: every statement holds with `⊤` and `⊥` among the entries and the bounds.

  • `exp_nonneg`, `exp_sub_ne_top`: the exponential is nonnegative, and finite below its bound.
  • `exp_sub_mul_exp_sub`: `exp (l - m) * exp (m - G) = exp (l - G)` for `l ≤ m ≤ G`.
  • `sum_mul_of_nonneg`: a finite sum of nonnegative terms times a factor is the sum of products.
  • `tile_sums_combine`: rescaled per-tile sums of exponentials add up to the global sum.
  • `div_mul_cancel_right`: a positive real factor cancels in a quotient.
  • `softmax_shift`: the softmax quotient shifted by a real upper bound (or by the maximum) is the
    quotient shifted by the maximum.
-/
import Idealize.ShloMosaic.PureOps.Ideal
import Mathlib.Data.EReal.Basic
import Mathlib.Data.EReal.Operations
import Mathlib.Data.EReal.Inv
import Mathlib.Analysis.SpecialFunctions.Exp
import Mathlib.Algebra.BigOperators.Group.Finset.Basic
import Mathlib.Algebra.Order.BigOperators.Group.Finset
import Mathlib.Data.Finset.Lattice.Fold

open Idealize.ShloMosaic
open scoped BigOperators

namespace Cert.Lib.SoftmaxTiled

/-- The exponential of an extended real is never negative: `0` at `⊥`, `⊤` at `⊤`,
    a positive real in between. -/
theorem exp_nonneg (x : EReal) : 0 ≤ Ideal.exp x := by
  induction x using EReal.rec with
  | bot => simp
  | coe r => simpa using (Real.exp_pos r).le
  | top => simp

/-- Below or at the subtracted bound the exponential is finite: `l - m` is never `⊤` when
    `l ≤ m` (the corner `⊤ - ⊤` is `⊥`). -/
theorem exp_sub_ne_top (l m : EReal) (h : l ≤ m) : Ideal.exp (l - m) ≠ ⊤ := by
  induction l using EReal.rec with
  | bot => simp
  | coe a =>
    induction m using EReal.rec with
    | bot => simp at h
    | coe b => simp [← EReal.coe_sub]
    | top => simp
  | top =>
    have : m = ⊤ := top_le_iff.mp h
    subst this
    simp

/-- Shifting by an intermediate bound: for `l ≤ m ≤ G` the two exponentials multiply to the
    exponential of the whole shift, at the infinities too (every corner has `0` on both sides). -/
theorem exp_sub_mul_exp_sub (l m G : EReal) (h1 : l ≤ m) (h2 : m ≤ G) :
    Ideal.exp (l - m) * Ideal.exp (m - G) = Ideal.exp (l - G) := by
  induction G using EReal.rec with
  | bot =>
    have hm : m = ⊥ := le_bot_iff.mp h2
    subst hm
    have hl : l = ⊥ := le_bot_iff.mp h1
    subst hl
    simp
  | top =>
    simp
  | coe g =>
    induction m using EReal.rec with
    | bot =>
      have hl : l = ⊥ := le_bot_iff.mp h1
      subst hl
      simp
    | top => simp at h2
    | coe b =>
      induction l using EReal.rec with
      | bot => simp
      | top => simp at h1
      | coe a =>
        simp only [← EReal.coe_sub, Ideal.exp_coe, ← EReal.coe_mul, ← Real.exp_add]
        congr 2
        ring

/-- A finite sum of nonnegative extended reals times any factor is the sum of the products
    (multiplication distributes over sums of nonnegative terms, even at an infinite factor). -/
theorem sum_mul_of_nonneg {α : Type} (s : Finset α) (f : α → EReal) (c : EReal)
    (hf : ∀ a ∈ s, 0 ≤ f a) : (∑ a ∈ s, f a) * c = ∑ a ∈ s, f a * c := by
  classical
  induction s using Finset.induction_on with
  | empty => simp
  | insert a s ha ih =>
    rw [Finset.sum_insert ha, Finset.sum_insert ha,
      EReal.right_distrib_of_nonneg (hf a (Finset.mem_insert_self a s))
        (Finset.sum_nonneg fun b hb => hf b (Finset.mem_insert_of_mem hb)),
      ih fun b hb => hf b (Finset.mem_insert_of_mem hb)]

/-- Per-tile sums of exponentials shifted by the tile's bound, each rescaled to the global bound,
    add up to the sum of the exponentials shifted by the global bound. Only `l i ≤ mt (tile i) ≤ G`
    is used; entries and bounds may be infinite. -/
theorem tile_sums_combine {ι J : Type} [Fintype ι] [Fintype J] [DecidableEq J] (tile : ι → J)
    (l : ι → EReal) (mt : J → EReal) (G : EReal) (h1 : ∀ i, l i ≤ mt (tile i))
    (h2 : ∀ j, mt j ≤ G) :
    ∑ j, (∑ i ∈ Finset.univ.filter (fun i => tile i = j), Ideal.exp (l i - mt j))
        * Ideal.exp (mt j - G)
      = ∑ i, Ideal.exp (l i - G) := by
  rw [← Finset.sum_fiberwise Finset.univ tile (fun i => Ideal.exp (l i - G))]
  refine Finset.sum_congr rfl fun j _ => ?_
  rw [sum_mul_of_nonneg _ _ _ (fun i _ => exp_nonneg _)]
  refine Finset.sum_congr rfl fun i hi => ?_
  have hij : tile i = j := (Finset.mem_filter.mp hi).2
  subst hij
  exact exp_sub_mul_exp_sub _ _ _ (h1 i) (h2 _)

/-- A positive real factor common to numerator and denominator cancels in `Ideal.div`, whatever
    the two are: at a zero denominator the sign of the numerator is unchanged, at an infinite one
    both quotients are `0`, and at a nonzero real one it is the cancellation in the reals. -/
theorem div_mul_cancel_right (a S : EReal) {c : ℝ} (hc : 0 < c) :
    Ideal.div (a * c) (S * c) = Ideal.div a S := by
  have hc' : (0 : EReal) < c := EReal.coe_pos.mpr hc
  induction S using EReal.rec with
  | bot =>
    rw [EReal.bot_mul_coe_of_pos hc]
    simp [Ideal.div]
  | top =>
    rw [EReal.top_mul_coe_of_pos hc]
    simp [Ideal.div]
  | coe s =>
    by_cases hs : s = 0
    · subst hs
      have hpos : (0 : EReal) < a * c ↔ 0 < a := by
        rw [EReal.mul_pos_iff]
        constructor
        · rintro (⟨h, _⟩ | ⟨_, h⟩)
          · exact h
          · exact absurd h (not_lt.mpr hc'.le)
        · intro h
          exact Or.inl ⟨h, hc'⟩
      simp [Ideal.div, hpos]
    · have hsc : s * c ≠ 0 := mul_ne_zero hs hc.ne'
      have h1 : ((s : EReal) * c) ≠ 0 := by
        rw [← EReal.coe_mul]
        exact_mod_cast hsc
      have h2 : (s : EReal) ≠ 0 := by exact_mod_cast hs
      rw [Ideal.div, if_neg h1, Ideal.div, if_neg h2, ← EReal.coe_mul, ← EReal.coe_inv,
        ← EReal.coe_inv, mul_assoc, ← EReal.coe_mul]
      congr 2
      field_simp

/-- The softmax is unchanged when the subtracted bound is replaced by the maximum: for a bound `G`
    of all entries that is either the maximum itself or a real number, dividing the exponential
    shifted by `G` by the sum of such exponentials equals the same quotient shifted by the maximum.
    With a real `G`: a `⊤` maximum is impossible; at a real maximum numerator and denominator differ
    by the positive real factor `exp (max - G)`; at a `⊥` maximum both quotients are `0 / 0`. -/
theorem softmax_shift {ι : Type} [Fintype ι] [Nonempty ι] (l : ι → EReal) (G : EReal)
    (hG : ∀ i, l i ≤ G) (hGr : G = Finset.univ.sup l ∨ ∃ r : ℝ, G = (r : EReal)) (i : ι) :
    Ideal.div (Ideal.exp (l i - G)) (∑ k, Ideal.exp (l k - G))
      = Ideal.div (Ideal.exp (l i - Finset.univ.sup l))
          (∑ k, Ideal.exp (l k - Finset.univ.sup l)) := by
  rcases hGr with h | ⟨r, hr⟩
  · rw [h]
  subst hr
  have hle : ∀ k, l k ≤ Finset.univ.sup l := fun k => Finset.le_sup (Finset.mem_univ k)
  have hMG : Finset.univ.sup l ≤ (r : EReal) := Finset.sup_le fun k _ => hG k
  generalize Finset.univ.sup l = M at hle hMG ⊢
  induction M using EReal.rec with
  | top => simp at hMG
  | bot =>
    have hl : ∀ k, l k = ⊥ := fun k => le_bot_iff.mp (hle k)
    simp [hl]
  | coe m =>
    have hterm : ∀ k, Ideal.exp (l k - r)
        = Ideal.exp (l k - m) * ((Real.exp (m - r) : ℝ) : EReal) := by
      intro k
      rw [← exp_sub_mul_exp_sub (l k) m r (hle k) hMG]
      simp [← EReal.coe_sub]
    rw [hterm i, Finset.sum_congr rfl (fun k _ => hterm k),
      ← sum_mul_of_nonneg _ _ _ (fun k _ => exp_nonneg _)]
    exact div_mul_cancel_right _ _ (Real.exp_pos _)

end Cert.Lib.SoftmaxTiled
-- ==== Proof.HeadCombine.lean ====
/-
  The head's statistics recombined. The kernel never forms the global softmax directly: it cuts the 50257 tokens
  into 99 tiles of 512 columns (the last one padded with a finite fill value up to 50688), keeps per tile the maximum
  of the (masked) logits and the sum of their exponentials relative to that maximum, and afterwards shifts every
  tile's sum to the maximum G of the tile maxima. With l ≤ m ≤ G one has e^{l-m}·e^{m-G} = e^{l-G} on the extended
  reals, so the weighted tile sums add up to Σ e^{l-G} over all real columns; and G is either the true maximum of
  the logits or the (real) fill value above it, so the quotient is the softmax (shift invariance).
-/
import proofs.«415492_j738734375128_3_alg».proof.Proof.Spec
import proofs.«415492_j738734375128_3_alg».proof.Proof.LibSoftmaxTiled

noncomputable section

namespace Cert.Spec

open Idealize.ShloMosaic Cert.Lib.SoftmaxTiled

/-- Column `q` of tile `j`, as a column of the padded array. -/
def tcol (j : Fin 99) (q : Fin 512) : Fin 50688 := ⟨j.val * 512 + q.val, by have := j.isLt; have := q.isLt; omega⟩

/-- The tile of a real column. -/
def tileOf (v : Fin 50257) : Fin 99 := ⟨v.val / 512, by have := v.isLt; omega⟩

set_option maxRecDepth 200000 in
theorem head_combine (L : Fin 2048 → Fin 50257 → EReal) (neg : EReal) (hneg : ∃ x : ℝ, neg = (x : EReal))
    (masked : Fin 2048 → Fin 50688 → EReal)
    (hm : ∀ r col, masked r col = if h : col.val < 50257 then L r ⟨col.val, h⟩ else neg)
    (tmax : Fin 99 → EReal)
    (htmax : ∀ j, tmax j = Finset.univ.sup fun p : Fin 2048 × Fin 512 => masked p.1 (tcol j p.2))
    (tsum : Fin 99 → EReal)
    (htsum : ∀ j, tsum j = ∑ p : Fin 2048 × Fin 512,
      if (tcol j p.2).val < 50257 then Ideal.exp (masked p.1 (tcol j p.2) - tmax j) else 0)
    (G : EReal) (hG : G = Finset.univ.sup tmax) (S : EReal) (hS : S = ∑ j, tsum j * Ideal.exp (tmax j - G))
    (r : Fin 2048) (v : Fin 50257) :
    Ideal.div (Ideal.exp (L r v - G)) S = softmaxAll L r v := by
  -- the logits as one family over positions × tokens
  set l : Fin 2048 × Fin 50257 → EReal := fun i => L i.1 i.2 with hl
  have hcolv : ∀ i : Fin 2048 × Fin 50257, tcol (tileOf i.2) ⟨i.2.val % 512, Nat.mod_lt _ (by norm_num)⟩ = ⟨i.2.val, by have := i.2.isLt; omega⟩ := by
    intro i; apply Fin.ext; show i.2.val / 512 * 512 + i.2.val % 512 = i.2.val; exact Nat.div_add_mod' _ _
  -- every logit is below its tile's maximum, every tile maximum below G
  have h1 : ∀ i, l i ≤ tmax (tileOf i.2) := by
    intro i
    rw [htmax]
    have := Finset.le_sup (f := fun p : Fin 2048 × Fin 512 => masked p.1 (tcol (tileOf i.2) p.2))
      (Finset.mem_univ (i.1, (⟨i.2.val % 512, Nat.mod_lt _ (by norm_num)⟩ : Fin 512)))
    refine le_trans (le_of_eq ?_) this
    show L i.1 i.2 = masked i.1 (tcol (tileOf i.2) ⟨i.2.val % 512, _⟩)
    rw [hcolv i, hm, dif_pos i.2.isLt]
  have h2 : ∀ j, tmax j ≤ G := fun j => hG ▸ Finset.le_sup (Finset.mem_univ j)
  -- each tile's sum is the sum over the real columns of the tile
  have hts : ∀ j, tsum j = ∑ i ∈ Finset.univ.filter (fun i : Fin 2048 × Fin 50257 => tileOf i.2 = j), Ideal.exp (l i - tmax j) := by
    intro j
    rw [htsum, ← Finset.sum_filter]
    refine Finset.sum_nbij' (fun p => (p.1, ⟨(tcol j p.2).val % 50257, Nat.mod_lt _ (by norm_num)⟩))
      (fun i => (i.1, ⟨i.2.val % 512, Nat.mod_lt _ (by norm_num)⟩)) ?_ ?_ ?_ ?_ ?_
    · intro p hp
      have hp' : (tcol j p.2).val < 50257 := (Finset.mem_filter.mp hp).2
      refine Finset.mem_filter.mpr ⟨Finset.mem_univ _, Fin.ext ?_⟩
      show (tcol j p.2).val % 50257 / 512 = j.val
      rw [Nat.mod_eq_of_lt hp']
      show (j.val * 512 + p.2.val) / 512 = j.val
      have := p.2.isLt; omega
    · intro i hi
      have hi' : tileOf i.2 = j := (Finset.mem_filter.mp hi).2
      refine Finset.mem_filter.mpr ⟨Finset.mem_univ _, ?_⟩
      rw [← hi', hcolv i]; exact i.2.isLt
    · intro p hp
      have hp' : (tcol j p.2).val < 50257 := (Finset.mem_filter.mp hp).2
      refine Prod.ext rfl (Fin.ext ?_)
      show (tcol j p.2).val % 50257 % 512 = p.2.val
      rw [Nat.mod_eq_of_lt hp']
      show (j.val * 512 + p.2.val) % 512 = p.2.val
      have := p.2.isLt; omega
    · intro i hi
      have hi' : tileOf i.2 = j := (Finset.mem_filter.mp hi).2
      refine Prod.ext rfl (Fin.ext ?_)
      show (tcol j ⟨i.2.val % 512, _⟩).val % 50257 = i.2.val
      rw [← hi', hcolv i]; exact Nat.mod_eq_of_lt i.2.isLt
    · intro p hp
      have hp' : (tcol j p.2).val < 50257 := (Finset.mem_filter.mp hp).2
      show Ideal.exp (masked p.1 (tcol j p.2) - tmax j) = Ideal.exp (L p.1 ⟨(tcol j p.2).val % 50257, _⟩ - tmax j)
      rw [hm, dif_pos hp']
      congr 3
      exact Fin.ext (Nat.mod_eq_of_lt hp').symm
  -- so the shifted tile sums add up to the sum over all logits
  have hSsum : S = ∑ i, Ideal.exp (l i - G) := by
    rw [hS, ← tile_sums_combine (fun i : Fin 2048 × Fin 50257 => tileOf i.2) l tmax G h1 h2]
    exact Finset.sum_congr rfl fun j _ => by rw [hts j]
  have hGl : ∀ i, l i ≤ G := fun i => (h1 i).trans (h2 _)
  -- G is the maximum of the logits, or the fill value above it
  have hnegG : neg ≤ G := by
    have hle : masked ⟨0, by norm_num⟩ (tcol ⟨98, by norm_num⟩ ⟨511, by norm_num⟩) ≤ tmax ⟨98, by norm_num⟩ := by
      rw [htmax]
      exact Finset.le_sup (f := fun p : Fin 2048 × Fin 512 => masked p.1 (tcol ⟨98, by norm_num⟩ p.2))
        (Finset.mem_univ ((⟨0, by norm_num⟩ : Fin 2048), (⟨511, by norm_num⟩ : Fin 512)))
    have hval : masked ⟨0, by norm_num⟩ (tcol ⟨98, by norm_num⟩ ⟨511, by norm_num⟩) = neg := by
      rw [hm, dif_neg]
      show ¬ (98 * 512 + 511 < 50257)
      norm_num
    exact hval ▸ hle.trans (h2 _)
  have hGle : G ≤ max (Finset.univ.sup l) neg := by
    rw [hG]
    refine Finset.sup_le fun j _ => ?_
    rw [htmax]
    refine Finset.sup_le fun p _ => ?_
    rw [hm]
    split
    · rename_i h
      exact le_max_of_le_left (Finset.le_sup (f := l) (Finset.mem_univ (p.1, (⟨(tcol j p.2).val, h⟩ : Fin 50257))))
    · exact le_max_right _ _
  have hsupG : Finset.univ.sup l ≤ G := Finset.sup_le fun i _ => hGl i
  have hGr : G = Finset.univ.sup l ∨ ∃ x : ℝ, G = (x : EReal) := by
    rcases le_total (Finset.univ.sup l) neg with h | h
    · obtain ⟨x, hx⟩ := hneg
      exact Or.inr ⟨x, hx ▸ le_antisymm (hGle.trans (le_of_eq (max_eq_right h))) hnegG⟩
    · exact Or.inl (le_antisymm (hGle.trans (le_of_eq (max_eq_left h))) hsupG)
  haveI : Nonempty (Fin 2048 × Fin 50257) := ⟨(⟨0, by norm_num⟩, ⟨0, by norm_num⟩)⟩
  have := softmax_shift l G hGl hGr (r, v)
  rw [hSsum]
  exact this

end Cert.Spec

end
-- ==== Proof.KHead.lean ====
/-
  The kernel's result read back to the state after the last layer. The last host stretch divides e^{logit − G} by the
  recombined tile sums; the head's launch left the masked logits, the tile maxima and the tile sums; the two stretches
  before it normalised the state's rows, and cast and zero-padded the head's weight. Put together, the result is the
  global softmax of the logits of the last state's rows (the recombination is `Cert.Spec.head_combine`).
-/
import proofs.«415492_j738734375128_3_alg».proof.Proof.Run
import proofs.«415492_j738734375128_3_alg».proof.Proof.ValHead8
import proofs.«415492_j738734375128_3_alg».proof.Proof.HostKEnds
import proofs.«415492_j738734375128_3_alg».proof.Proof.HostK
import proofs.«415492_j738734375128_3_alg».proof.Proof.HeadCombine

set_option maxRecDepth 16384

noncomputable section

namespace Cert.KernelIdeal.Val

open Cert.KernelIdeal Cert.KernelIdeal.Gen Cert.KernelIdeal.Hand Idealize.ShloMosaic Idealize.ShloMosaic.ValueIdx

variable (m : (ℓ : Loc nD τ sig) → Buf (Elt Ideal) ℓ) (ρ : Dev nD → PrngReg) (c : Dev nD)

/-- The state after the last layer, row by row: the last feed-forward launch's output array. -/
def lastState (r : Fin 2048) : Cert.Spec.Row := at2 (W16 m ρ c (Proc.devRef .tc main_v291)) r

/-- The argument arrays reach every boundary as launched; here at the boundary before the final normalisation. -/
theorem W16_arg (r : Ref sig .tc) (h : Untouched r) : W16 m ρ c (Proc.devRef .tc r) = W0 m ρ c (Proc.devRef .tc r) :=
  (W16_of_untouched m ρ c r h).trans rfl

/-- The normalised rows the head reads: window 0 of the head's launch. -/
theorem xn8_eq (r : Fin 2048) (d : Fin 1024) :
    xn8 (V18 m ρ) c r d = Cert.Spec.lnRow (argsK (W0 m ρ c)).lnow (argsK (W0 m ρ c)).lnob (lastState m ρ c r) d := by
  have h1 : xn8 (V18 m ρ) c r d = at2 (StableHlo.after hostOps8_1 (W17 m ρ c) (Proc.devRef .tc main_v316)) r d := rfl
  have e1 : (argsK (W0 m ρ c)).lnow = at1 (W0 m ρ c (Proc.devRef .tc main_arg22)) := rfl
  have e2 : (argsK (W0 m ρ c)).lnob = at1 (W0 m ρ c (Proc.devRef .tc main_arg23)) := rfl
  have e3 : lastState m ρ c r = at2 (W16 m ρ c (Proc.devRef .tc main_v291)) r := rfl
  have h2 := host8_x (W16 m ρ c) r d
  rw [h1, host8_1_x (W17 m ρ c), e1, e2, e3, show W17 m ρ c = StableHlo.after hostOps8 (W16 m ρ c) from rfl, h2, W16_arg m ρ c main_arg22 untouched_main_arg22, W16_arg m ρ c main_arg23 untouched_main_arg23]

/-- The padded head weight: window 1 of the head's launch, at a real column. -/
theorem wp8_eq (v : Fin 50257) (d : Fin 1024) :
    wp8 (V18 m ρ) c (Fin.castLE (by decide : 50257 ≤ 50688) v) d = (argsK (W0 m ρ c)).headW v d := by
  have h1 : wp8 (V18 m ρ) c (Fin.castLE (by decide : 50257 ≤ 50688) v) d
      = at2 (StableHlo.after hostOps8_1 (StableHlo.after hostOps8 (W16 m ρ c)) (Proc.devRef .tc main_v318)) (Fin.castLE (by decide : 50257 ≤ 50688) v) d := rfl
  rw [h1, host8_w (W16 m ρ c), dif_pos (show (Fin.castLE (by decide : 50257 ≤ 50688) v).val < 50257 from v.isLt), W16_arg m ρ c main_arg24 untouched_main_arg24]
  rfl

/-- The logits the head's launch computes are the specification's logits of the last state's rows. -/
theorem logit8_eq (r : Fin 2048) (v : Fin 50257) :
    logit8 (V18 m ρ) c r (Fin.castLE (by decide : 50257 ≤ 50688) v)
      = Cert.Spec.logitsRow (argsK (W0 m ρ c)).lnow (argsK (W0 m ρ c)).lnob (argsK (W0 m ρ c)).headW (lastState m ρ c r) v := by
  unfold logit8 Cert.Spec.logitsRow Cert.Spec.proj
  exact Finset.sum_congr rfl fun d _ => congrArg₂ (· * ·) (xn8_eq m ρ c r d) (wp8_eq m ρ c v d)

/-- What the head's launch leaves, read at the last boundary before the closing stretch. -/
theorem L19 (r : Fin 2048) (col : Fin 50688) : at2 (W19 m ρ c (Proc.devRef .tc main_v319_0)) r col = masked8 (V18 m ρ) c r col :=
  (congrFun (W19_arr m ρ c 2) (ix2 r col)).trans (final8_2 (V18 m ρ) c r col)
theorem Mx19 (j : Fin 99) : at3 (W19 m ρ c (Proc.devRef .tc main_v319_1)) j (0 : Fin 8) (0 : Fin 128) = tmax8 (V18 m ρ) c j :=
  (congrFun (W19_arr m ρ c 3) (ix3 j 0 0)).trans (final8_3 (V18 m ρ) c j 0 0)
theorem Sm19 (j : Fin 99) : at3 (W19 m ρ c (Proc.devRef .tc main_v319_2)) j (0 : Fin 8) (0 : Fin 128) = tsum8 (V18 m ρ) c j :=
  (congrFun (W19_arr m ρ c 4) (ix3 j 0 0)).trans (final8_4 (V18 m ρ) c j 0 0)

/-- The masked logits are the logits below the vocabulary size and the fill constant from there on. -/
theorem masked8_split (r : Fin 2048) (col : Fin 50688) :
    masked8 (V18 m ρ) c r col
      = if h : col.val < 50257 then logit8 (V18 m ρ) c r (Fin.castLE (by decide : 50257 ≤ 50688) (⟨col.val, h⟩ : Fin 50257)) else fill8 := by
  unfold masked8
  by_cases h : col.val < 50257
  · rw [if_pos h, dif_pos h]
    exact congrArg (logit8 (V18 m ρ) c r) (Fin.ext rfl : col = Fin.castLE (by decide : 50257 ≤ 50688) (⟨col.val, h⟩ : Fin 50257))
  · rw [if_neg h, dif_neg h]

/-- The kernel's result is the global softmax of the logits of the last state's rows. -/
theorem head_value (b : Fin 2) (t : Fin 1024) (v : Fin 50257) :
    at3 (W20 m ρ c (Proc.devRef .tc main_v337)) b t v
      = Cert.Spec.softmaxAll (fun r v' => Cert.Spec.logitsRow (argsK (W0 m ρ c)).lnow (argsK (W0 m ρ c)).lnob
          (argsK (W0 m ρ c)).headW (lastState m ρ c r) v') (Cert.Spec.pos b t) v := by
  rw [show W20 m ρ c = StableHlo.after hostOps9 (W19 m ρ c) from rfl, host9_out (W19 m ρ c) b t v, L19 m ρ c,
    show masked8 (V18 m ρ) c (Cert.Spec.pos b t) (Fin.castLE (by decide : 50257 ≤ 50688) v)
      = logit8 (V18 m ρ) c (Cert.Spec.pos b t) (Fin.castLE (by decide : 50257 ≤ 50688) v) from if_pos v.isLt]
  have key := Cert.Spec.head_combine (fun r v' => logit8 (V18 m ρ) c r (Fin.castLE (by decide : 50257 ≤ 50688) v')) fill8 fill8_real
    (masked8 (V18 m ρ) c) (masked8_split m ρ c)
    (tmax8 (V18 m ρ) c) (fun j => rfl) (tsum8 (V18 m ρ) c) (fun j => rfl)
    (gmaxK (W19 m ρ c)) (by unfold gmaxK; exact congrArg (Finset.sup Finset.univ) (funext fun j => Mx19 m ρ c j))
    (gsumK (W19 m ρ c)) (by unfold gsumK; exact Finset.sum_congr rfl fun j _ => by rw [Sm19 m ρ c j, Mx19 m ρ c j])
    (Cert.Spec.pos b t) v
  rw [key]
  exact congrArg (fun L => Cert.Spec.softmaxAll L (Cert.Spec.pos b t) v) (funext fun r => funext fun v' => logit8_eq m ρ c r v')

end Cert.KernelIdeal.Val

end
-- ==== Proof.KChain.lean ====
/-
  The kernel's value, end to end: the state's rows pass from launch to launch untouched by the host stretches, each
  layer is the specification's layer (the four layer modules), the first rows are the normalised embedding rows, and
  the result is the global softmax of the last rows' logits (the head). So the result array is the model of the
  argument arrays and the gathered embedding rows.
-/
import proofs.«415492_j738734375128_3_alg».proof.Proof.KLayer0
import proofs.«415492_j738734375128_3_alg».proof.Proof.KLayer1
import proofs.«415492_j738734375128_3_alg».proof.Proof.KLayer2
import proofs.«415492_j738734375128_3_alg».proof.Proof.KLayer3
import proofs.«415492_j738734375128_3_alg».proof.Proof.KHead

noncomputable section

namespace Cert.KernelIdeal.Val

open Cert.KernelIdeal Cert.KernelIdeal.Gen Cert.KernelIdeal.Hand Idealize.ShloMosaic Idealize.ShloMosaic.ValueIdx

variable (m : (ℓ : Loc nD τ sig) → Buf (Elt Ideal) ℓ) (ρ : Dev nD → PrngReg) (c : Dev nD)

/-- The first launch finds the normalised embedding rows. -/
theorem stIn0_eq (r : Fin 2048) :
    stIn0 m ρ c r = Cert.Spec.lnRow (argsK (W0 m ρ c)).ln0w (argsK (W0 m ρ c)).ln0b (gatheredK (W0 m ρ c) r) :=
  funext fun d => host0_x (W0 m ρ c) r d

/-- A layer's first launch finds the rows the layer before left: the stretch between them writes other buffers. -/
theorem stIn1_eq (r : Fin 2048) : stIn1 m ρ c r = stOut0 m ρ c r := by
  funext d
  show (StableHlo.after hostOps2 (W4 m ρ c) (Proc.devRef .tc (Pipeline.arrRef spec2 0)) : S2048x1024.Idx → EReal) (ix2 r d) = _
  rw [host2_keeps_x (W4 m ρ c)]
  rfl
theorem stIn2_eq (r : Fin 2048) : stIn2 m ρ c r = stOut1 m ρ c r := by
  funext d
  show (StableHlo.after hostOps4 (W8 m ρ c) (Proc.devRef .tc (Pipeline.arrRef spec4 0)) : S2048x1024.Idx → EReal) (ix2 r d) = _
  rw [host4_keeps_x (W8 m ρ c)]
  rfl
theorem stIn3_eq (r : Fin 2048) : stIn3 m ρ c r = stOut2 m ρ c r := by
  funext d
  show (StableHlo.after hostOps6 (W12 m ρ c) (Proc.devRef .tc (Pipeline.arrRef spec6 0)) : S2048x1024.Idx → EReal) (ix2 r d) = _
  rw [host6_keeps_x (W12 m ρ c)]
  rfl

/-- The rows the head normalises are those the last layer left. -/
theorem lastState_eq (r : Fin 2048) : lastState m ρ c r = stOut3 m ρ c r := rfl

/-- The state after the four layers, row by row, is the specification's. -/
theorem state_value (r : Fin 2048) :
    lastState m ρ c r = Cert.Spec.stateRow (argsK (W0 m ρ c)) (gatheredK (W0 m ρ c)) r := by
  unfold Cert.Spec.stateRow Cert.Spec.layers
  rw [lastState_eq, stOut3_eq, stMid3_eq, stIn3_eq, stOut2_eq, stMid2_eq, stIn2_eq, stOut1_eq, stMid1_eq, stIn1_eq,
    stOut0_eq, stMid0_eq, stIn0_eq]

/-- THE KERNEL'S VALUE: its result array, entry by entry, is the model of its arguments. -/
theorem kernel_value (b : Fin 2) (t : Fin 1024) (v : Fin 50257) :
    at3 (W20 m ρ c (Proc.devRef .tc main_v337)) b t v
      = Cert.Spec.model (argsK (W0 m ρ c)) (gatheredK (W0 m ρ c)) b t v := by
  rw [head_value]
  unfold Cert.Spec.model Cert.Spec.logits
  exact congrArg (fun L => Cert.Spec.softmaxAll L (Cert.Spec.pos b t) v)
    (funext fun r => funext fun v' => by rw [state_value])

end Cert.KernelIdeal.Val

end
-- ==== Proof.RefRun.lean ====
/-
  The reference program's run, read back: every weakly fair execution of the reference's @main terminates with its
  result buffer at the composed pure term of the argument arrays, the arguments unchanged. The frame of the reference
  is that run with the result dropped.
-/
import proofs.«415492_j738734375128_3_alg».proof.Defs
import proofs.«415492_j738734375128_3_alg».proof.Proof.RefRunGen

noncomputable section

open Idealize.ShloMosaic Idealize.ShloMosaic.TcCoe Idealize.SL.Sem

namespace Cert.ReferenceIdeal.RefFrame

end Cert.ReferenceIdeal.RefFrame

end
-- ==== Proof.RefArgs.lean ====
/-
  The reference program's float arguments as the index functions the specification is stated over, the
  embedding rows its gather selects, and the passage between a position (b, t) and its row number
  r = b·1024 + t.
-/
import proofs.«415492_j738734375128_3_alg».proof.Proof.Gen.ReferenceIdeal
import proofs.«415492_j738734375128_3_alg».proof.Proof.Spec
import Idealize.ShloMosaic.Lib.ValueIdx

noncomputable section

namespace Cert.ReferenceIdeal.RefVal

open Cert.ReferenceIdeal Cert.ReferenceIdeal.Gen Idealize.ShloMosaic Idealize.ShloMosaic.TcCoe Idealize.SL.Sem
  Idealize.ShloMosaic.StableHlo Idealize.ShloMosaic.ValueIdx

/-- The batch coordinate of row number `r = b·1024 + t`. -/
def rowB (r : Fin 2048) : Fin 2 := ⟨r.val / 1024, by have := r.isLt; omega⟩
/-- The time coordinate of row number `r = b·1024 + t`. -/
def rowT (r : Fin 2048) : Fin 1024 := ⟨r.val % 1024, Nat.mod_lt _ (by decide)⟩

/-- A row number is the position of its two coordinates. -/
theorem pos_rowB_rowT (r : Fin 2048) : Cert.Spec.pos (rowB r) (rowT r) = r := by
  apply Fin.ext
  show r.val / 1024 * 1024 + r.val % 1024 = r.val
  omega
/-- The batch coordinate of a position's row number. -/
theorem rowB_pos (b : Fin 2) (t : Fin 1024) : rowB (Cert.Spec.pos b t) = b := by
  apply Fin.ext
  show (b.val * 1024 + t.val) / 1024 = b.val
  have := t.isLt
  omega
/-- The time coordinate of a position's row number. -/
theorem rowT_pos (b : Fin 2) (t : Fin 1024) : rowT (Cert.Spec.pos b t) = t := by
  apply Fin.ext
  show (b.val * 1024 + t.val) % 1024 = t.val
  have := t.isLt
  omega

/-- The reference's float arguments, read off the launch contents as index functions (a stacked argument by its
    layer first). The argument holding the time decay is read by neither program's result and has no field. -/
def argsR (V0 : Valuation τ sig (Elt Ideal)) : Cert.Spec.Args where
  ln0w := fun d => (V0 (Proc.devRef .tc main_arg2) : FVec Ideal S1024 .f32) (ix1 d)
  ln0b := fun d => (V0 (Proc.devRef .tc main_arg3) : FVec Ideal S1024 .f32) (ix1 d)
  ln1w := fun i d => (V0 (Proc.devRef .tc main_arg4) : FVec Ideal S4x1024 .f32) (ix2 i d)
  ln1b := fun i d => (V0 (Proc.devRef .tc main_arg5) : FVec Ideal S4x1024 .f32) (ix2 i d)
  ln2w := fun i d => (V0 (Proc.devRef .tc main_arg6) : FVec Ideal S4x1024 .f32) (ix2 i d)
  ln2b := fun i d => (V0 (Proc.devRef .tc main_arg7) : FVec Ideal S4x1024 .f32) (ix2 i d)
  tfirst := fun i d => (V0 (Proc.devRef .tc main_arg9) : FVec Ideal S4x1024 .f32) (ix2 i d)
  amixk := fun i d => (V0 (Proc.devRef .tc main_arg10) : FVec Ideal S4x1024 .f32) (ix2 i d)
  amixv := fun i d => (V0 (Proc.devRef .tc main_arg11) : FVec Ideal S4x1024 .f32) (ix2 i d)
  amixr := fun i d => (V0 (Proc.devRef .tc main_arg12) : FVec Ideal S4x1024 .f32) (ix2 i d)
  aWk := fun i o d => (V0 (Proc.devRef .tc main_arg13) : FVec Ideal S4x1024x1024 .f32) (ix3 i o d)
  aWv := fun i o d => (V0 (Proc.devRef .tc main_arg14) : FVec Ideal S4x1024x1024 .f32) (ix3 i o d)
  aWr := fun i o d => (V0 (Proc.devRef .tc main_arg15) : FVec Ideal S4x1024x1024 .f32) (ix3 i o d)
  aWo := fun i o d => (V0 (Proc.devRef .tc main_arg16) : FVec Ideal S4x1024x1024 .f32) (ix3 i o d)
  fmixk := fun i d => (V0 (Proc.devRef .tc main_arg17) : FVec Ideal S4x1024 .f32) (ix2 i d)
  fmixr := fun i d => (V0 (Proc.devRef .tc main_arg18) : FVec Ideal S4x1024 .f32) (ix2 i d)
  fWk := fun i o d => (V0 (Proc.devRef .tc main_arg19) : FVec Ideal S4x4096x1024 .f32) (ix3 i o d)
  fWr := fun i o d => (V0 (Proc.devRef .tc main_arg20) : FVec Ideal S4x1024x1024 .f32) (ix3 i o d)
  fWv := fun i o d => (V0 (Proc.devRef .tc main_arg21) : FVec Ideal S4x1024x4096 .f32) (ix3 i o d)
  lnow := fun d => (V0 (Proc.devRef .tc main_arg22) : FVec Ideal S1024 .f32) (ix1 d)
  lnob := fun d => (V0 (Proc.devRef .tc main_arg23) : FVec Ideal S1024 .f32) (ix1 d)
  headW := fun v d => (V0 (Proc.devRef .tc main_arg24) : FVec Ideal S50257x1024 .f32) (ix2 v d)
  asx := fun i d => (V0 (Proc.devRef .tc main_arg25) : FVec Ideal S4x1024 .f32) (ix2 i d)
  anum := fun i d => (V0 (Proc.devRef .tc main_arg26) : FVec Ideal S4x1024 .f32) (ix2 i d)
  aden := fun i d => (V0 (Proc.devRef .tc main_arg27) : FVec Ideal S4x1024 .f32) (ix2 i d)
  fsx := fun i d => (V0 (Proc.devRef .tc main_arg28) : FVec Ideal S4x1024 .f32) (ix2 i d)

/-- The reference's embedding gather as the program spells it: the embedding table gathered at the token ids, an id
    below zero first shifted up by the vocabulary size. -/
def gatherTerm (V0 : Valuation τ sig (Elt Ideal)) : FVec Ideal S2x1024x1024 .f32 :=
  Host.gather gather_S50257x1024_S2x1024x1_S2x1024x1024_2_0_n_n_0_2_11024 (V0 (Proc.devRef .tc main_arg1)) (broadcastInDim S2x1024x1 ![0, 1] bcast_S2x1024_S2x1024x1_0_1 (select (cmpi .slt (V0 (Proc.devRef .tc main_arg0)) (broadcastInDim S2x1024 ![] bcast_S_S2x1024 (constantI S_ 32 0#32))) (addi (V0 (Proc.devRef .tc main_arg0)) (broadcastInDim S2x1024 ![] bcast_S_S2x1024 (constantI S_ 32 50257#32))) (V0 (Proc.devRef .tc main_arg0))))

/-- The gathered embedding rows, by row number: row `r = b·1024 + t` is the gather's result at `(b, t, ·)`. -/
def gatheredR (V0 : Valuation τ sig (Elt Ideal)) : Fin 2048 → Cert.Spec.Row :=
  fun r d => gatherTerm V0 (ix3 (rowB r) (rowT r) d)

end Cert.ReferenceIdeal.RefVal

end
-- ==== Proof.RefEnds.lean ====
/-
  The reference's two ends read at an index, over the specification (no layer is read here).

  THE EMBEDDING END: the reference's first normalised state at position (b, t) and channel d is the specification's
  layer normalisation of the row the embedding gather selects. THE OUTPUT END: the reference's result at position
  (b, t) and token v is the softmax, over ALL positions and tokens at once, of the head's logits of the rows of the
  state after the last layer.

  Everything is first proved over VARIABLES: the reference's layer normalisation of an array of rows (a mean column
  by a sum over the channels, the centred rows, their mean square, the reciprocal square root, gain and bias
  broadcast over the positions) read at an index is the specification's `lnRow` of the row; the head's
  `dot_general` at an index is the sum over the channels; the host's maximum over every axis from `-∞` is the
  supremum of all the logits, and the host's sum over every axis from zero is the sum over rows and tokens, both
  re-indexed from the array's indices to (row number, token) by a bijection. The reference's named terms are these
  terms by unfolding.
-/
import proofs.«415492_j738734375128_3_alg».proof.Proof.RefRunGen
import proofs.«415492_j738734375128_3_alg».proof.Proof.RefArgs
import proofs.«415492_j738734375128_3_alg».proof.Proof.Spec
import Idealize.ShloMosaic.Lib.ValueIdx
import Idealize.ShloMosaic.Lib.IdealHost
import Idealize.ShloMosaic.Lib.Pipeline.Value
import Idealize.ShloMosaic.PureOps.Ideal.Laws
import Mathlib.Algebra.BigOperators.Group.Finset.Basic
import Mathlib.Data.Finset.Lattice.Fold

noncomputable section

namespace Cert.ReferenceIdeal.RefVal

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx
open scoped BigOperators

/-! ## Layout operations of the normalisation and of the head, read at an index -/

/-- A column `[2, 1024, 1]` broadcast along the channels reads the column's entry of the position. -/
theorem bcCol_apply (y : FVec Ideal S2x1024x1 .f32) (b : Fin 2) (t : Fin 1024) (d : Fin 1024) :
    broadcastInDim S2x1024x1024 ![0, 1, 2] bcast_S2x1024x1_S2x1024x1024_0_1_2 y (ix3 b t d) = y (ix3 b t (0 : Fin 1)) := by
  refine broadcastInDim_apply _ _ _ _ _ (fun a => ?_)
  match a with
  | ⟨0, _⟩ => rfl
  | ⟨1, _⟩ => rfl
  | ⟨2, _⟩ => rfl

/-- A `[2, 1024]` array given a trailing unit axis reads the same entry. -/
theorem bcKeep_apply (y : FVec Ideal S2x1024 .f32) (b : Fin 2) (t : Fin 1024) :
    broadcastInDim S2x1024x1 ![0, 1] bcast_S2x1024_S2x1024x1_0_1 y (ix3 b t (0 : Fin 1)) = y (ix2 b t) := by
  refine broadcastInDim_apply _ _ _ _ _ (fun a => ?_)
  match a with
  | ⟨0, _⟩ => rfl
  | ⟨1, _⟩ => rfl

/-- A channel vector broadcast over the positions reads the channel's entry. -/
theorem bcRow_apply (w : FVec Ideal S1024 .f32) (b : Fin 2) (t : Fin 1024) (d : Fin 1024) :
    broadcastInDim S2x1024x1024 ![0, 1, 2] bcast_S1x1x1024_S2x1024x1024_0_1_2
      (broadcastInDim S1x1x1024 ![2] bcast_S1024_S1x1x1024_2 w) (ix3 b t d) = w (ix1 d) := by
  have h1 : broadcastInDim S2x1024x1024 ![0, 1, 2] bcast_S1x1x1024_S2x1024x1024_0_1_2
      (broadcastInDim S1x1x1024 ![2] bcast_S1024_S1x1x1024_2 w) (ix3 b t d)
      = (broadcastInDim S1x1x1024 ![2] bcast_S1024_S1x1x1024_2 w) (ix3 (0 : Fin 1) (0 : Fin 1) d) := by
    refine broadcastInDim_apply _ _ _ _ _ (fun a => ?_)
    match a with
    | ⟨0, _⟩ => rfl
    | ⟨1, _⟩ => rfl
    | ⟨2, _⟩ => rfl
  rw [h1]
  refine broadcastInDim_apply _ _ _ _ _ (fun a => ?_)
  match a with
  | ⟨0, _⟩ => rfl

/-- The host's sum over the channels, from the zero word, at a position: the sum of the row. -/
theorem rowSum_apply (x : FVec Ideal S2x1024x1024 .f32) (b : Fin 2) (t : Fin 1024) :
    Host.reduceAdd (F := Ideal) x (constant S_ .f32 0x00000000#32) reducesTo_S2x1024x1024_S2x1024_d2 h_S_ (ix2 b t)
      = ∑ k : Fin 1024, x (ix3 b t k) := by
  rw [hostReduceAdd_apply, Ideal.hostReduceAdd_single reducesTo_S2x1024x1024_S2x1024_d2 (by decide), constant_apply,
    Ideal.ofBits_zero_f32, zero_add]
  refine Finset.sum_congr rfl fun k _ => ?_
  exact congrArg x (funext fun a => Fin.ext (by match a with | ⟨0, _⟩ => rfl | ⟨1, _⟩ => rfl | ⟨2, _⟩ => rfl))

/-! ## The normalisation over the channels, as the reference spells it -/

/-- The reference's mean column of an array of rows. -/
def meanT (x : FVec Ideal S2x1024x1024 .f32) : FVec Ideal S2x1024x1 .f32 :=
  Host.divf (broadcastInDim S2x1024x1 ![0, 1] bcast_S2x1024_S2x1024x1_0_1 (Host.reduceAdd x (constant S_ .f32 0x00000000#32) reducesTo_S2x1024x1024_S2x1024_d2 h_S_)) (broadcastInDim S2x1024x1 ![] bcast_S_S2x1024x1 (constant S_ .f32 0x44800000#32))

/-- The reference's centred rows. -/
def cenT (x : FVec Ideal S2x1024x1024 .f32) : FVec Ideal S2x1024x1024 .f32 :=
  subf x (broadcastInDim S2x1024x1024 ![0, 1, 2] bcast_S2x1024x1_S2x1024x1024_0_1_2 (meanT x))

/-- The reference's layer normalisation of an array of rows with gain `w` and bias `bb`. -/
def lnTerm (x : FVec Ideal S2x1024x1024 .f32) (w bb : FVec Ideal S1024 .f32) : FVec Ideal S2x1024x1024 .f32 :=
  addf (mulf (mulf (subf x (broadcastInDim S2x1024x1024 ![0, 1, 2] bcast_S2x1024x1_S2x1024x1024_0_1_2 (meanT x))) (broadcastInDim S2x1024x1024 ![0, 1, 2] bcast_S2x1024x1_S2x1024x1024_0_1_2 (Host.rsqrt (addf (Host.divf (broadcastInDim S2x1024x1 ![0, 1] bcast_S2x1024_S2x1024x1_0_1 (Host.reduceAdd (mulf (cenT x) (cenT x)) (constant S_ .f32 0x00000000#32) reducesTo_S2x1024x1024_S2x1024_d2 h_S_)) (broadcastInDim S2x1024x1 ![] bcast_S_S2x1024x1 (constant S_ .f32 0x44800000#32))) (broadcastInDim S2x1024x1 ![] bcast_S_S2x1024x1 (constant S_ .f32 0x3727C5AC#32)))))) (broadcastInDim S2x1024x1024 ![0, 1, 2] bcast_S1x1x1024_S2x1024x1024_0_1_2 (broadcastInDim S1x1x1024 ![2] bcast_S1024_S1x1x1024_2 w))) (broadcastInDim S2x1024x1024 ![0, 1, 2] bcast_S1x1x1024_S2x1024x1024_0_1_2 (broadcastInDim S1x1x1024 ![2] bcast_S1024_S1x1x1024_2 bb))

/-- The mean column at a position is the mean of the row. -/
theorem meanT_apply (x : FVec Ideal S2x1024x1024 .f32) (b : Fin 2) (t : Fin 1024) :
    meanT x (ix3 b t (0 : Fin 1)) = Cert.Spec.mean (fun d => x (ix3 b t d)) := by
  unfold meanT
  rw [hostDivf_apply, bcKeep_apply, rowSum_apply, broadcastInDim_scalar_apply, constant_apply]
  rfl

/-- The centred rows at an index: the entry less the mean of its row. -/
theorem cenT_apply (x : FVec Ideal S2x1024x1024 .f32) (b : Fin 2) (t : Fin 1024) (d : Fin 1024) :
    cenT x (ix3 b t d) = x (ix3 b t d) - Cert.Spec.mean (fun d' => x (ix3 b t d')) := by
  unfold cenT
  rw [subf_apply, bcCol_apply, meanT_apply]

/-- The reference's layer normalisation at an index is the specification's, of the row. -/
theorem lnTerm_apply (x : FVec Ideal S2x1024x1024 .f32) (w bb : FVec Ideal S1024 .f32) (b : Fin 2) (t : Fin 1024)
    (d : Fin 1024) :
    lnTerm x w bb (ix3 b t d)
      = Cert.Spec.lnRow (fun d' => w (ix1 d')) (fun d' => bb (ix1 d')) (fun d' => x (ix3 b t d')) d := by
  unfold lnTerm
  rw [addf_apply, mulf_apply, mulf_apply, subf_apply, bcCol_apply, bcCol_apply, bcRow_apply, bcRow_apply, meanT_apply]
  have hv : (Host.rsqrt (addf (Host.divf (broadcastInDim S2x1024x1 ![0, 1] bcast_S2x1024_S2x1024x1_0_1 (Host.reduceAdd (mulf (cenT x) (cenT x)) (constant S_ .f32 0x00000000#32) reducesTo_S2x1024x1024_S2x1024_d2 h_S_)) (broadcastInDim S2x1024x1 ![] bcast_S_S2x1024x1 (constant S_ .f32 0x44800000#32))) (broadcastInDim S2x1024x1 ![] bcast_S_S2x1024x1 (constant (F := Ideal) S_ .f32 0x3727C5AC#32)))) (ix3 b t (0 : Fin 1))
      = Ideal.rsqrt (Cert.Spec.var (fun d' => x (ix3 b t d')) + Cert.Spec.ceps) := by
    show Ideal.rsqrt _ = _
    rw [addf_apply, hostDivf_apply, bcKeep_apply, rowSum_apply, broadcastInDim_scalar_apply,
      broadcastInDim_scalar_apply, constant_apply, constant_apply]
    refine congrArg Ideal.rsqrt (congrArg (· + Cert.Spec.ceps) ?_)
    refine congrArg (Ideal.div · Cert.Spec.c1024) (Finset.sum_congr rfl fun k _ => ?_)
    rw [mulf_apply, cenT_apply]
  rw [hv]
  rfl

/-! ## The head's product at an index -/

/-- The left operand's first coordinate is the result's. -/
theorem lhsH_0 (i : S2x1024x50257.Idx) (q : dot_S2x1024x1024_S50257x1024_S2x1024x50257_2_1_01_0_n_n.contr.Idx) :
    (dot_S2x1024x1024_S50257x1024_S2x1024x50257_2_1_01_0_n_n.lhsIdx i q 0).val = (i 0).val := by
  unfold DotDims.lhsIdx
  rw [dif_neg (show ¬(0 : Fin S2x1024x1024.rank) ∈ dot_S2x1024x1024_S50257x1024_S2x1024x50257_2_1_01_0_n_n.lhsBatch by decide), dif_pos (show (0 : Fin S2x1024x1024.rank) ∈ dot_S2x1024x1024_S50257x1024_S2x1024x50257_2_1_01_0_n_n.lhsNonContracting by decide)]
  rfl
/-- The left operand's second coordinate is the result's. -/
theorem lhsH_1 (i : S2x1024x50257.Idx) (q : dot_S2x1024x1024_S50257x1024_S2x1024x50257_2_1_01_0_n_n.contr.Idx) :
    (dot_S2x1024x1024_S50257x1024_S2x1024x50257_2_1_01_0_n_n.lhsIdx i q 1).val = (i 1).val := by
  unfold DotDims.lhsIdx
  rw [dif_neg (show ¬(1 : Fin S2x1024x1024.rank) ∈ dot_S2x1024x1024_S50257x1024_S2x1024x50257_2_1_01_0_n_n.lhsBatch by decide), dif_pos (show (1 : Fin S2x1024x1024.rank) ∈ dot_S2x1024x1024_S50257x1024_S2x1024x50257_2_1_01_0_n_n.lhsNonContracting by decide)]
  rfl
/-- The left operand's third coordinate is the contracted one. -/
theorem lhsH_2 (i : S2x1024x50257.Idx) (q : dot_S2x1024x1024_S50257x1024_S2x1024x50257_2_1_01_0_n_n.contr.Idx) :
    (dot_S2x1024x1024_S50257x1024_S2x1024x50257_2_1_01_0_n_n.lhsIdx i q 2).val = (q ⟨0, by decide⟩).val :=
  dot_S2x1024x1024_S50257x1024_S2x1024x50257_2_1_01_0_n_n.lhsIdx_val_of_single rfl i q
/-- The right operand's first coordinate is the result's third. -/
theorem rhsH_0 (i : S2x1024x50257.Idx) (q : dot_S2x1024x1024_S50257x1024_S2x1024x50257_2_1_01_0_n_n.contr.Idx) :
    (dot_S2x1024x1024_S50257x1024_S2x1024x50257_2_1_01_0_n_n.rhsIdx i q 0).val = (i 2).val := by
  unfold DotDims.rhsIdx
  rw [dif_neg (show ¬(0 : Fin S50257x1024.rank) ∈ dot_S2x1024x1024_S50257x1024_S2x1024x50257_2_1_01_0_n_n.rhsBatch by decide), dif_pos (show (0 : Fin S50257x1024.rank) ∈ dot_S2x1024x1024_S50257x1024_S2x1024x50257_2_1_01_0_n_n.rhsNonContracting by decide)]
  rfl
/-- The right operand's second coordinate is the contracted one. -/
theorem rhsH_1 (i : S2x1024x50257.Idx) (q : dot_S2x1024x1024_S50257x1024_S2x1024x50257_2_1_01_0_n_n.contr.Idx) :
    (dot_S2x1024x1024_S50257x1024_S2x1024x50257_2_1_01_0_n_n.rhsIdx i q 1).val = (q ⟨0, by decide⟩).val :=
  dot_S2x1024x1024_S50257x1024_S2x1024x50257_2_1_01_0_n_n.rhsIdx_val_of_single rfl i q

/-- The head's product at a position and a token: the sum over the channels of the row's entry times the head's. -/
theorem headDot_apply (y : FVec Ideal S2x1024x1024 .f32) (Wh : FVec Ideal S50257x1024 .f32) (b : Fin 2) (t : Fin 1024)
    (v : Fin 50257) :
    Host.dotGeneral (F := Ideal) dot_S2x1024x1024_S50257x1024_S2x1024x50257_2_1_01_0_n_n none y Wh (ix3 b t v)
      = ∑ k : Fin 1024, y (ix3 b t k) * Wh (ix2 v k) := by
  show FloatOps.dotGeneral dot_S2x1024x1024_S50257x1024_S2x1024x50257_2_1_01_0_n_n none .single y Wh (ix3 b t v) = _
  rw [Ideal.dotGeneral_apply, ← Equiv.sum_comp (contrEquiv1 dot_S2x1024x1024_S50257x1024_S2x1024x50257_2_1_01_0_n_n 1024 rfl rfl).symm]
  refine Finset.sum_congr rfl fun k _ => ?_
  have hk := contrEquiv1_symm_val dot_S2x1024x1024_S50257x1024_S2x1024x50257_2_1_01_0_n_n 1024 rfl rfl k
  have el : dot_S2x1024x1024_S50257x1024_S2x1024x50257_2_1_01_0_n_n.lhsIdx (ix3 b t v) ((contrEquiv1 dot_S2x1024x1024_S50257x1024_S2x1024x50257_2_1_01_0_n_n 1024 rfl rfl).symm k) = ix3 b t k :=
    funext fun a => Fin.ext (by
      match a with
      | ⟨0, _⟩ => exact lhsH_0 _ _
      | ⟨1, _⟩ => exact lhsH_1 _ _
      | ⟨2, _⟩ => exact (lhsH_2 _ _).trans hk)
  have er : dot_S2x1024x1024_S50257x1024_S2x1024x50257_2_1_01_0_n_n.rhsIdx (ix3 b t v) ((contrEquiv1 dot_S2x1024x1024_S50257x1024_S2x1024x50257_2_1_01_0_n_n 1024 rfl rfl).symm k) = ix2 v k :=
    funext fun a => Fin.ext (by
      match a with
      | ⟨0, _⟩ => exact rhsH_0 _ _
      | ⟨1, _⟩ => exact (rhsH_1 _ _).trans hk)
  rw [el, er]

/-- The reference's logits of an array of rows: the head's product of their normalised copy. -/
def logitsTerm (x : FVec Ideal S2x1024x1024 .f32) (w bb : FVec Ideal S1024 .f32) (Wh : FVec Ideal S50257x1024 .f32) :
    FVec Ideal S2x1024x50257 .f32 :=
  Host.dotGeneral dot_S2x1024x1024_S50257x1024_S2x1024x50257_2_1_01_0_n_n none (lnTerm x w bb) Wh

/-- The reference's logits at a position and a token are the specification's logits of the row. -/
theorem logitsTerm_apply (x : FVec Ideal S2x1024x1024 .f32) (w bb : FVec Ideal S1024 .f32)
    (Wh : FVec Ideal S50257x1024 .f32) (b : Fin 2) (t : Fin 1024) (v : Fin 50257) :
    logitsTerm x w bb Wh (ix3 b t v)
      = Cert.Spec.logitsRow (fun d => w (ix1 d)) (fun d => bb (ix1 d)) (fun v' d => Wh (ix2 v' d))
          (fun d => x (ix3 b t d)) v := by
  unfold logitsTerm
  rw [headDot_apply]
  unfold Cert.Spec.logitsRow Cert.Spec.proj
  refine Finset.sum_congr rfl fun k _ => ?_
  rw [lnTerm_apply]

/-! ## The softmax over all positions and tokens -/

/-- An index of the logits array is a row number and a token. -/
def posEquiv : S2x1024x50257.Idx ≃ Fin 2048 × Fin 50257 where
  toFun i := (Cert.Spec.pos (i 0) (i 1), i 2)
  invFun p := ix3 (rowB p.1) (rowT p.1) p.2
  left_inv i := by
    obtain ⟨b, t, v, rfl⟩ : ∃ (b : Fin 2) (t : Fin 1024) (v : Fin 50257), i = ix3 b t v := ⟨i 0, i 1, i 2, eq_ix3 i⟩
    show ix3 (rowB (Cert.Spec.pos b t)) (rowT (Cert.Spec.pos b t)) v = ix3 b t v
    rw [rowB_pos, rowT_pos]
  right_inv p := Prod.ext (pos_rowB_rowT p.1) rfl

/-- An array of logits by row number and token. -/
def byRows (Lg : FVec Ideal S2x1024x50257 .f32) : Fin 2048 → Fin 50257 → EReal :=
  fun r v => Lg (ix3 (rowB r) (rowT r) v)

/-- Read by rows at an index's row number and token, the array is itself at the index. -/
theorem byRows_posEquiv (Lg : FVec Ideal S2x1024x50257 .f32) (i : S2x1024x50257.Idx) :
    byRows Lg (posEquiv i).1 (posEquiv i).2 = Lg i :=
  congrArg Lg (posEquiv.left_inv i)

/-- Read by rows at a position's row number, the array is itself at the position. -/
theorem byRows_pos (Lg : FVec Ideal S2x1024x50257 .f32) (b : Fin 2) (t : Fin 1024) (v : Fin 50257) :
    byRows Lg (Cert.Spec.pos b t) v = Lg (ix3 b t v) := by
  unfold byRows
  rw [rowB_pos, rowT_pos]

/-- The host's maximum over every axis, from `-∞`, is the largest of all the logits. -/
theorem gmaxT_apply (Lg : FVec Ideal S2x1024x50257 .f32) :
    Host.reduce (FloatOps.maximumf (F := Ideal) (φ := .f32)) Lg (constant S_ .f32 0xFF800000#32) reducesTo_S2x1024x50257_S_d0_1_2 h_S_ ix0
      = Cert.Spec.gmax (byRows Lg) := by
  haveI : Subsingleton S_.Idx := ⟨fun a b => funext fun d => d.elim0⟩
  rw [Host.reduce_eq_fold, Finset.filter_true_of_mem fun i _ => Subsingleton.elim _ _]
  have hbot : (constant (F := Ideal) S_ .f32 0xFF800000#32) (Shape.Idx.first h_S_) = (⊥ : EReal) := by
    rw [constant_apply]
    simp [Ideal.ofBits, Ideal.ieee]
  rw [hbot]
  show Finset.univ.sup Lg = _
  unfold Cert.Spec.gmax
  rw [← Finset.map_univ_equiv posEquiv, Finset.sup_map]
  refine Finset.sup_congr rfl fun i _ => ?_
  exact (byRows_posEquiv Lg i).symm

/-- The reference's exponentials of the logits less their global maximum. -/
def expTerm (Lg : FVec Ideal S2x1024x50257 .f32) : FVec Ideal S2x1024x50257 .f32 :=
  Host.exp (subf Lg (broadcastInDim S2x1024x50257 ![] bcast_S_S2x1024x50257 (Host.reduce FloatOps.maximumf Lg (constant S_ .f32 0xFF800000#32) reducesTo_S2x1024x50257_S_d0_1_2 h_S_)))

/-- The exponentials at an index. -/
theorem expTerm_apply (Lg : FVec Ideal S2x1024x50257 .f32) (i : S2x1024x50257.Idx) :
    expTerm Lg i = Ideal.exp (Lg i - Cert.Spec.gmax (byRows Lg)) := by
  unfold expTerm
  show Ideal.exp _ = _
  rw [subf_apply, broadcastInDim_scalar_apply, gmaxT_apply]

/-- The reference's result from the logits: the exponentials divided by their sum over every axis. -/
def outTerm (Lg : FVec Ideal S2x1024x50257 .f32) : FVec Ideal S2x1024x50257 .f32 :=
  Host.divf (expTerm Lg) (broadcastInDim S2x1024x50257 ![] bcast_S_S2x1024x50257 (Host.reduceAdd (expTerm Lg) (constant S_ .f32 0x00000000#32) reducesTo_S2x1024x50257_S_d0_1_2 h_S_))

/-- The reference's result at a position and a token is the softmax over all positions and tokens. -/
theorem outTerm_apply (Lg : FVec Ideal S2x1024x50257 .f32) (b : Fin 2) (t : Fin 1024) (v : Fin 50257) :
    outTerm Lg (ix3 b t v) = Cert.Spec.softmaxAll (byRows Lg) (Cert.Spec.pos b t) v := by
  unfold outTerm Cert.Spec.softmaxAll
  rw [hostDivf_apply, broadcastInDim_scalar_apply, hostReduceAdd_apply,
    Ideal.hostReduceAdd_total reducesTo_S2x1024x50257_S_d0_1_2 (fun a => a.elim0), constant_apply, Ideal.ofBits_zero_f32, zero_add,
    expTerm_apply, byRows_pos]
  refine congrArg (Ideal.div _) ?_
  refine (Finset.sum_congr rfl fun i _ => ?_).trans
    (Equiv.sum_comp posEquiv fun p => Ideal.exp (byRows Lg p.1 p.2 - Cert.Spec.gmax (byRows Lg)))
  rw [expTerm_apply, byRows_posEquiv]

/-! ## The reference's two ends -/

/-- The reference's first normalised state is the layer normalisation of the gathered rows. -/
theorem res_main_v30_eq (V0 : Valuation τ sig (Elt Ideal)) :
    (res_main_v30 V0 : FVec Ideal S2x1024x1024 .f32)
      = lnTerm (res_main_v6 V0) (V0 (Proc.devRef .tc main_arg2)) (V0 (Proc.devRef .tc main_arg3)) := rfl

/-- THE EMBEDDING END: the reference's first normalised state at a position and a channel is the specification's
    layer normalisation of the gathered row. -/
theorem ref_ln0 (V0 : Valuation τ sig (Elt Ideal)) (b : Fin 2) (t : Fin 1024) (d : Fin 1024) :
    (res_main_v30 V0 : FVec Ideal S2x1024x1024 .f32) (ix3 b t d)
      = Cert.Spec.lnRow (argsR V0).ln0w (argsR V0).ln0b
          (fun d' => (res_main_v6 V0 : FVec Ideal S2x1024x1024 .f32) (ix3 b t d')) d := by
  rw [res_main_v30_eq]
  exact lnTerm_apply _ _ _ b t d

/-- The gathered rows by row number are the reference's gather at the row's position. -/
theorem gatheredR_eq (V0 : Valuation τ sig (Elt Ideal)) (r : Fin 2048) (d : Fin 1024) :
    gatheredR V0 r d = (res_main_v6 V0 : FVec Ideal S2x1024x1024 .f32) (ix3 (rowB r) (rowT r) d) := rfl

/-- The reference's result array, as its run states it: the exponentials divided by their sum over every axis. -/
def outR (V0 : Valuation τ sig (Elt Ideal)) : FVec Ideal S2x1024x50257 .f32 :=
  Host.divf (res_main_v791 V0) (broadcastInDim S2x1024x50257 ![] bcast_S_S2x1024x50257 (Host.reduceAdd (res_main_v791 V0) (constant S_ .f32 0x00000000#32) reducesTo_S2x1024x50257_S_d0_1_2 h_S_))

/-- The result array is the softmax term of the logits of the last state. -/
theorem outR_eq (V0 : Valuation τ sig (Elt Ideal)) :
    outR V0 = outTerm (logitsTerm (res_main_v762 V0) (V0 (Proc.devRef .tc main_arg22)) (V0 (Proc.devRef .tc main_arg23))
      (V0 (Proc.devRef .tc main_arg24))) := rfl

/-- THE OUTPUT END: the reference's result at a position and a token is the softmax, over all positions and tokens, of
    the logits of the rows of the last state. -/
theorem ref_out (V0 : Valuation τ sig (Elt Ideal)) (b : Fin 2) (t : Fin 1024) (v : Fin 50257) :
    outR V0 (ix3 b t v)
      = Cert.Spec.softmaxAll (fun r v' => Cert.Spec.logitsRow (argsR V0).lnow (argsR V0).lnob (argsR V0).headW
          (fun d => (res_main_v762 V0 : FVec Ideal S2x1024x1024 .f32) (ix3 (rowB r) (rowT r) d)) v')
          (Cert.Spec.pos b t) v := by
  rw [outR_eq, outTerm_apply]
  refine congrArg (fun L => Cert.Spec.softmaxAll L (Cert.Spec.pos b t) v) ?_
  funext r v'
  exact logitsTerm_apply _ _ _ _ (rowB r) (rowT r) v'

end Cert.ReferenceIdeal.RefVal

end
-- ==== Proof.RefLayer0.lean ====
/-
  Layer 0 of the reference, read at an index.

  The reference keeps the state as an array [2, 1024, 1024] (batch, position, channel). Every operation of a layer is
  elementwise, or broadcasts a row of parameters or a per-position statistic, or sums over the channels, or contracts
  the channels with the columns of a matrix. Read at an index (b, t, ·) each of them acts on row (b, t) alone, and the
  compositions are the specification's: the time-mixing layer sends a row x to
  x + Wo·(σ(r) ⊙ (num + e^{tf+k} ⊙ v) / (den + e^{tf+k})), the channel-mixing layer sends a row x to
  x + σ(r₂) ⊙ Wv·(max(k₂, 0))², where k, v, r (k₂, r₂) are projections of the row's normalised copy mixed with the
  layer's carried state, and σ(r) = 1 / (1 + e^{-r}).

  First the readings that do not depend on the layer: broadcasts, a row or a matrix of the parameters stacked over the
  four layers, the sum over the channels, the contraction; then a row's mean, its normalisation, its mixing with the
  carried state, its projections, and the two layers' outputs, every factor named by what it reads. Then layer 0's
  terms of the run, one lemma for each.
-/
import proofs.«415492_j738734375128_3_alg».proof.Proof.RefRunGen
import proofs.«415492_j738734375128_3_alg».proof.Proof.RefArgs
import proofs.«415492_j738734375128_3_alg».proof.Proof.Spec
import Idealize.ShloMosaic.Lib.IdealHost
import Idealize.ShloMosaic.Lib.ValueLayout
import Idealize.ShloMosaic.PureOps.Ideal.Laws

noncomputable section

namespace Cert.ReferenceIdeal.RefVal.Layer

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-! ## Readings that do not depend on the layer -/

variable {α : Type}

/-- A row vector broadcast over every position reads the vector at the channel. -/
theorem bcRow_apply (h1 : S1024.BroadcastsInDim S1x1x1024 (![2] : Fin 1 → Fin S1x1x1024.rank))
    (h2 : S1x1x1024.BroadcastsInDim S2x1024x1024 (![0, 1, 2] : Fin 3 → Fin S2x1024x1024.rank))
    (v : S1024.Idx → α) (b : Fin 2) (t : Fin 1024) (d : Fin 1024) :
    broadcastInDim S2x1024x1024 ![0, 1, 2] h2 (broadcastInDim S1x1x1024 ![2] h1 v) (ix3 b t d) = v (ix1 d) := by
  rw [broadcastInDim_apply _ h2 _ (ix3 b t d) (ix3 (0 : Fin 1) (0 : Fin 1) d)
    (fun a => match a with | ⟨0, _⟩ => rfl | ⟨1, _⟩ => rfl | ⟨2, _⟩ => rfl)]
  exact broadcastInDim_apply _ h1 v _ (ix1 d) (fun a => match a with | ⟨0, _⟩ => rfl)

/-- A per-position statistic broadcast along the channels reads the statistic of the position. -/
theorem bcStat_apply (h : S2x1024x1.BroadcastsInDim S2x1024x1024 (![0, 1, 2] : Fin 3 → Fin S2x1024x1024.rank))
    (y : S2x1024x1.Idx → α) (b : Fin 2) (t : Fin 1024) (d : Fin 1024) :
    broadcastInDim S2x1024x1024 ![0, 1, 2] h y (ix3 b t d) = y (ix3 b t (0 : Fin 1)) :=
  broadcastInDim_apply _ h y _ _ (fun a => match a with | ⟨0, _⟩ => rfl | ⟨1, _⟩ => rfl | ⟨2, _⟩ => rfl)

/-- A per-position value given a trailing unit axis reads the value of the position. -/
theorem bcPair_apply (h : S2x1024.BroadcastsInDim S2x1024x1 (![0, 1] : Fin 2 → Fin S2x1024x1.rank))
    (z : S2x1024.Idx → α) (b : Fin 2) (t : Fin 1024) (u : Fin 1) :
    broadcastInDim S2x1024x1 ![0, 1] h z (ix3 b t u) = z (ix2 b t) :=
  broadcastInDim_apply _ h z _ _ (fun a => match a with | ⟨0, _⟩ => rfl | ⟨1, _⟩ => rfl)

/-- A float constant broadcast to any shape reads the extended real its word encodes. -/
theorem bcConst_apply {T : Shape} (h : S_.BroadcastsInDim T (![] : Fin 0 → Fin T.rank)) (w : BitVec 32) (j : T.Idx) :
    broadcastInDim T ![] h (constant (F := Ideal) S_ .f32 w) j = Ideal.ofBits .f32 w := by
  rw [broadcastInDim_scalar_apply, constant_apply]

/-- The sum over the channels of a state, from zero, at a position. -/
theorem rowSum_apply (h' : S2x1024x1024.ReducesTo [2] S2x1024) (hu : 0 < S_.numel) (x : FVec Ideal S2x1024x1024 .f32)
    (b : Fin 2) (t : Fin 1024) :
    Host.reduceAdd x (constant (F := Ideal) S_ .f32 0x00000000#32) h' hu (ix2 b t) = ∑ k : Fin 1024, x (ix3 b t k) := by
  rw [hostReduceAdd_apply, Ideal.hostReduceAdd_single h' (by decide : S2x1024x1024.Reduces [2] S2x1024), constant_apply,
    Ideal.ofBits_zero_f32, zero_add]
  refine Finset.sum_congr rfl fun k _ => congrArg x ?_
  funext a
  apply Fin.ext
  match a with
  | ⟨0, _⟩ => rfl
  | ⟨1, _⟩ => rfl
  | ⟨2, _⟩ => rfl

/-- Row r of a stack of four rows, as a vector. -/
theorem sliceRow_apply (r : Nat) (hr : r < 4) (hs : S4x1024.Slices ![r, 0] S1x1024) (hc : S1x1024.ShapeCasts S1024)
    (X : S4x1024.Idx → α) (d : Fin 1024) :
    shapeCast S1024 (extractStridedSlice S1x1024 ![r, 0] X hs) hc (ix1 d) = X (ix2 (⟨r, hr⟩ : Fin 4) d) := by
  rw [shapeCast_1a_a_apply]
  exact extractStridedSlice_apply _ X hs _ _ (fun a => match a with
    | ⟨0, _⟩ => rfl
    | ⟨1, _⟩ => (Nat.zero_add _).symm)

/-- Matrix r of a stack of four matrices. -/
theorem sliceMat_apply {m n : Nat} (r : Nat) (hr : r < 4) (hs : (⟨3, ![4, m, n]⟩ : Shape).Slices ![r, 0, 0] ⟨3, ![1, m, n]⟩)
    (hc : (⟨3, ![1, m, n]⟩ : Shape).ShapeCasts ⟨2, ![m, n]⟩) (X : (⟨3, ![4, m, n]⟩ : Shape).Idx → α) (o : Fin m) (d : Fin n) :
    shapeCast ⟨2, ![m, n]⟩ (extractStridedSlice ⟨3, ![1, m, n]⟩ ![r, 0, 0] X hs) hc (ix2 o d) = X (ix3 (⟨r, hr⟩ : Fin 4) o d) := by
  rw [shapeCast_1ab_ab_apply]
  exact extractStridedSlice_apply _ X hs _ _ (fun a => match a with
    | ⟨0, _⟩ => rfl
    | ⟨1, _⟩ => (Nat.zero_add _).symm
    | ⟨2, _⟩ => (Nat.zero_add _).symm)

/-- A state contracted on its channels with a matrix's columns: at a position and an output, the sum over the channels
    of the products. -/
theorem dot3x2_apply {B T K O : Nat} {φ₁ φ₂ : FTy}
    (w : DotDims.WF ⟨3, ![B, T, K]⟩ ⟨2, ![O, K]⟩ ⟨3, ![B, T, O]⟩ [2] [1] [0, 1] [0] [] [])
    (prec : Option ContractPrecision) (A : FVec Ideal ⟨3, ![B, T, K]⟩ φ₁) (W : FVec Ideal ⟨2, ![O, K]⟩ φ₂)
    (b : Fin B) (t : Fin T) (o : Fin O) :
    Host.dotGeneral (⟨[2], [1], [0, 1], [0], [], [], w⟩ : DotDims _ _ _) prec A W (ix3 b t o)
      = ∑ c : Fin K, A (ix3 b t c) * W (ix2 o c) := by
  show FloatOps.dotGeneral _ prec _ A W (ix3 b t o) = _
  rw [Ideal.dotGeneral_apply,
    ← Equiv.sum_comp (contrEquiv1 (⟨[2], [1], [0, 1], [0], [], [], w⟩ : DotDims _ _ _) K rfl rfl).symm]
  refine Finset.sum_congr rfl fun c _ => ?_
  have hc := contrEquiv1_symm_val
    (⟨[2], [1], [0, 1], [0], [], [], w⟩ : DotDims ⟨3, ![B, T, K]⟩ ⟨2, ![O, K]⟩ ⟨3, ![B, T, O]⟩) K rfl rfl c
  have hl : (⟨[2], [1], [0, 1], [0], [], [], w⟩ : DotDims ⟨3, ![B, T, K]⟩ ⟨2, ![O, K]⟩ ⟨3, ![B, T, O]⟩).lhsIdx (ix3 b t o)
      ((contrEquiv1 _ K rfl rfl).symm c) = ix3 b t c := by
    funext ax
    apply Fin.ext
    match ax with
    | ⟨0, _⟩ => simp [DotDims.lhsIdx]; rfl
    | ⟨1, _⟩ => simp [DotDims.lhsIdx]; rfl
    | ⟨2, _⟩ => simp [DotDims.lhsIdx]; exact hc
  have hr : (⟨[2], [1], [0, 1], [0], [], [], w⟩ : DotDims ⟨3, ![B, T, K]⟩ ⟨2, ![O, K]⟩ ⟨3, ![B, T, O]⟩).rhsIdx (ix3 b t o)
      ((contrEquiv1 _ K rfl rfl).symm c) = ix2 o c := by
    funext ax
    apply Fin.ext
    match ax with
    | ⟨0, _⟩ => simp [DotDims.rhsIdx]; rfl
    | ⟨1, _⟩ => simp [DotDims.rhsIdx]; exact hc
  rw [hl, hr]

/-- Row (b, t) of a state: its 1024 channels, as a row of extended reals. -/
abbrev rowAt (X : FVec Ideal S2x1024x1024 .f32) (b : Fin 2) (t : Fin 1024) : Cert.Spec.Row := fun d => X (ix3 b t d)

/-! ## Host operations at an index (definitional) -/

theorem hostRsqrt_apply {s : Shape} {φ : FTy} (y : FVec Ideal s φ) (i : s.Idx) : Host.rsqrt y i = Ideal.rsqrt (y i) := rfl
theorem hostExp_apply {s : Shape} {φ : FTy} (y : FVec Ideal s φ) (i : s.Idx) : Host.exp y i = Ideal.exp (y i) := rfl
theorem hostNegf_apply {s : Shape} {φ : FTy} (y : FVec Ideal s φ) (i : s.Idx) : Host.negf y i = -(y i) := rfl

/-! ## A row's statistics and its normalised copy -/

/-- The mean term of a state, at a position: the mean of the position's row. -/
theorem meanT_apply (x : FVec Ideal S2x1024x1024 .f32) (b : Fin 2) (t : Fin 1024) (u : Fin 1) :
    Host.divf (broadcastInDim S2x1024x1 ![0, 1] bcast_S2x1024_S2x1024x1_0_1 (Host.reduceAdd x (constant (F := Ideal) S_ .f32 0x00000000#32) reducesTo_S2x1024x1024_S2x1024_d2 h_S_)) (broadcastInDim S2x1024x1 ![] bcast_S_S2x1024x1 (constant (F := Ideal) S_ .f32 0x44800000#32)) (ix3 b t u)
      = Cert.Spec.mean (fun d => x (ix3 b t d)) := by
  rw [hostDivf_apply, bcPair_apply, rowSum_apply, bcConst_apply]
  rfl

/-- The centred state, at an index, given the mean term's reading. -/
theorem cenT_apply (x : FVec Ideal S2x1024x1024 .f32) (m : FVec Ideal S2x1024x1 .f32)
    (hm : ∀ b t u, m (ix3 b t u) = Cert.Spec.mean (fun d => x (ix3 b t d))) (b : Fin 2) (t : Fin 1024) (d : Fin 1024) :
    subf x (broadcastInDim S2x1024x1024 ![0, 1, 2] bcast_S2x1024x1_S2x1024x1024_0_1_2 m) (ix3 b t d)
      = x (ix3 b t d) - Cert.Spec.mean (fun d => x (ix3 b t d)) := by
  rw [subf_apply, bcStat_apply, hm]

/-- The normalised state with gain w and bias bb, at an index: the row's layer normalisation. -/
theorem lnT_apply (x : FVec Ideal S2x1024x1024 .f32) (m : FVec Ideal S2x1024x1 .f32) (c : FVec Ideal S2x1024x1024 .f32)
    (w bb : FVec Ideal S1024 .f32) (W B : Cert.Spec.Row)
    (hm : ∀ b t u, m (ix3 b t u) = Cert.Spec.mean (fun d => x (ix3 b t d)))
    (hc : ∀ b t d, c (ix3 b t d) = x (ix3 b t d) - Cert.Spec.mean (fun d => x (ix3 b t d)))
    (hw : ∀ d, w (ix1 d) = W d) (hb : ∀ d, bb (ix1 d) = B d) (b : Fin 2) (t : Fin 1024) (d : Fin 1024) :
    addf (mulf (mulf (subf x (broadcastInDim S2x1024x1024 ![0, 1, 2] bcast_S2x1024x1_S2x1024x1024_0_1_2 m)) (broadcastInDim S2x1024x1024 ![0, 1, 2] bcast_S2x1024x1_S2x1024x1024_0_1_2 (Host.rsqrt (addf (Host.divf (broadcastInDim S2x1024x1 ![0, 1] bcast_S2x1024_S2x1024x1_0_1 (Host.reduceAdd (mulf c c) (constant (F := Ideal) S_ .f32 0x00000000#32) reducesTo_S2x1024x1024_S2x1024_d2 h_S_)) (broadcastInDim S2x1024x1 ![] bcast_S_S2x1024x1 (constant (F := Ideal) S_ .f32 0x44800000#32))) (broadcastInDim S2x1024x1 ![] bcast_S_S2x1024x1 (constant (F := Ideal) S_ .f32 0x3727C5AC#32)))))) (broadcastInDim S2x1024x1024 ![0, 1, 2] bcast_S1x1x1024_S2x1024x1024_0_1_2 (broadcastInDim S1x1x1024 ![2] bcast_S1024_S1x1x1024_2 w))) (broadcastInDim S2x1024x1024 ![0, 1, 2] bcast_S1x1x1024_S2x1024x1024_0_1_2 (broadcastInDim S1x1x1024 ![2] bcast_S1024_S1x1x1024_2 bb)) (ix3 b t d)
      = Cert.Spec.lnRow W B (fun d => x (ix3 b t d)) d := by
  rw [addf_apply, mulf_apply, mulf_apply, subf_apply, bcStat_apply, bcStat_apply, bcRow_apply, bcRow_apply, hm, hw, hb,
    hostRsqrt_apply, addf_apply, hostDivf_apply, bcPair_apply, rowSum_apply, bcConst_apply, bcConst_apply]
  simp only [mulf_apply, hc]
  rfl

/-! ## Mixing with the carried state, projections, the logistic gate -/

/-- A state mixed with a carried row by a mixing row, at an index, the three factors named. -/
theorem mixT_apply (h : FVec Ideal S2x1024x1024 .f32) (s μ : FVec Ideal S1024 .f32) (b : Fin 2) (t : Fin 1024)
    (H S M : Cert.Spec.Row) (hH : ∀ d, h (ix3 b t d) = H d) (hS : ∀ d, s (ix1 d) = S d) (hM : ∀ d, μ (ix1 d) = M d) (d : Fin 1024) :
    addf (mulf h (broadcastInDim S2x1024x1024 ![0, 1, 2] bcast_S1x1x1024_S2x1024x1024_0_1_2 (broadcastInDim S1x1x1024 ![2] bcast_S1024_S1x1x1024_2 μ))) (broadcastInDim S2x1024x1024 ![0, 1, 2] bcast_S1x1x1024_S2x1024x1024_0_1_2 (broadcastInDim S1x1x1024 ![2] bcast_S1024_S1x1x1024_2 (mulf s (subf (broadcastInDim S1024 ![] bcast_S_S1024 (constant (F := Ideal) S_ .f32 0x3F800000#32)) μ)))) (ix3 b t d)
      = Cert.Spec.mixRow H S M d := by
  rw [addf_apply, mulf_apply, bcRow_apply, bcRow_apply, mulf_apply, subf_apply, bcConst_apply, hH, hS, hM]
  rfl

/-- A state projected by a matrix, at a position and an output, the two factors named. -/
theorem projT_apply {K O : Nat} (w : DotDims.WF ⟨3, ![2, 1024, K]⟩ ⟨2, ![O, K]⟩ ⟨3, ![2, 1024, O]⟩ [2] [1] [0, 1] [0] [] [])
    (y : FVec Ideal ⟨3, ![2, 1024, K]⟩ .f32) (Wsl : FVec Ideal ⟨2, ![O, K]⟩ .f32) (b : Fin 2) (t : Fin 1024)
    (Y : Fin K → EReal) (Wm : Cert.Spec.Mat O K) (hY : ∀ d, y (ix3 b t d) = Y d) (hW : ∀ o d, Wsl (ix2 o d) = Wm o d) (o : Fin O) :
    Host.dotGeneral (⟨[2], [1], [0, 1], [0], [], [], w⟩ : DotDims _ _ _) none y Wsl (ix3 b t o) = Cert.Spec.proj Wm Y o := by
  rw [dot3x2_apply]
  exact Finset.sum_congr rfl fun d _ => by rw [hY, hW]

/-- The logistic function as the reference spells it, one over one plus the exponential of the negation. -/
theorem sigT_apply {T : Shape} (h : S_.BroadcastsInDim T (![] : Fin 0 → Fin T.rank)) (R : FVec Ideal T .f32) (j : T.Idx)
    (r : EReal) (hR : R j = r) :
    Host.divf (broadcastInDim T ![] h (constant (F := Ideal) S_ .f32 0x3F800000#32)) (addf (broadcastInDim T ![] h (constant (F := Ideal) S_ .f32 0x3F800000#32)) (Host.exp (Host.negf R))) j
      = Ideal.logistic r := by
  rw [hostDivf_apply, addf_apply, bcConst_apply, hostExp_apply, hostNegf_apply, hR, Ideal.ofBits_one_f32]
  rfl

/-- A projection of the normalised, state-mixed copy, at a position and an output, every factor named. -/
theorem projMixT_apply {O : Nat} (w : DotDims.WF ⟨3, ![2, 1024, 1024]⟩ ⟨2, ![O, 1024]⟩ ⟨3, ![2, 1024, O]⟩ [2] [1] [0, 1] [0] [] [])
    (h : FVec Ideal S2x1024x1024 .f32) (s μ : FVec Ideal S1024 .f32) (Wsl : FVec Ideal ⟨2, ![O, 1024]⟩ .f32) (b : Fin 2) (t : Fin 1024)
    (H S M : Cert.Spec.Row) (Wm : Cert.Spec.Mat O 1024) (hH : ∀ d, h (ix3 b t d) = H d) (hS : ∀ d, s (ix1 d) = S d)
    (hM : ∀ d, μ (ix1 d) = M d) (hW : ∀ o d, Wsl (ix2 o d) = Wm o d) (o : Fin O) :
    Host.dotGeneral (⟨[2], [1], [0, 1], [0], [], [], w⟩ : DotDims _ _ _) none (addf (mulf h (broadcastInDim S2x1024x1024 ![0, 1, 2] bcast_S1x1x1024_S2x1024x1024_0_1_2 (broadcastInDim S1x1x1024 ![2] bcast_S1024_S1x1x1024_2 μ))) (broadcastInDim S2x1024x1024 ![0, 1, 2] bcast_S1x1x1024_S2x1024x1024_0_1_2 (broadcastInDim S1x1x1024 ![2] bcast_S1024_S1x1x1024_2 (mulf s (subf (broadcastInDim S1024 ![] bcast_S_S1024 (constant (F := Ideal) S_ .f32 0x3F800000#32)) μ))))) Wsl (ix3 b t o)
      = Cert.Spec.proj Wm (Cert.Spec.mixRow H S M) o :=
  projT_apply w _ Wsl b t _ Wm (mixT_apply h s μ b t H S M hH hS hM) hW o

/-- The exponential of the time-first row plus the key projection, at a position and a channel. -/
theorem expKeyT_apply (w : DotDims.WF ⟨3, ![2, 1024, 1024]⟩ ⟨2, ![1024, 1024]⟩ ⟨3, ![2, 1024, 1024]⟩ [2] [1] [0, 1] [0] [] [])
    (tfv : FVec Ideal S1024 .f32) (h : FVec Ideal S2x1024x1024 .f32) (s μ : FVec Ideal S1024 .f32) (Wsl : FVec Ideal ⟨2, ![1024, 1024]⟩ .f32)
    (b : Fin 2) (t : Fin 1024) (TF H S M : Cert.Spec.Row) (Wm : Cert.Spec.Mat 1024 1024) (hT : ∀ d, tfv (ix1 d) = TF d)
    (hH : ∀ d, h (ix3 b t d) = H d) (hS : ∀ d, s (ix1 d) = S d) (hM : ∀ d, μ (ix1 d) = M d) (hW : ∀ o d, Wsl (ix2 o d) = Wm o d)
    (o : Fin 1024) :
    Host.exp (addf (broadcastInDim S2x1024x1024 ![0, 1, 2] bcast_S1x1x1024_S2x1024x1024_0_1_2 (broadcastInDim S1x1x1024 ![2] bcast_S1024_S1x1x1024_2 tfv)) (Host.dotGeneral (⟨[2], [1], [0, 1], [0], [], [], w⟩ : DotDims _ _ _) none (addf (mulf h (broadcastInDim S2x1024x1024 ![0, 1, 2] bcast_S1x1x1024_S2x1024x1024_0_1_2 (broadcastInDim S1x1x1024 ![2] bcast_S1024_S1x1x1024_2 μ))) (broadcastInDim S2x1024x1024 ![0, 1, 2] bcast_S1x1x1024_S2x1024x1024_0_1_2 (broadcastInDim S1x1x1024 ![2] bcast_S1024_S1x1x1024_2 (mulf s (subf (broadcastInDim S1024 ![] bcast_S_S1024 (constant (F := Ideal) S_ .f32 0x3F800000#32)) μ))))) Wsl)) (ix3 b t o)
      = Ideal.exp (TF o + Cert.Spec.proj Wm (Cert.Spec.mixRow H S M) o) := by
  rw [hostExp_apply, addf_apply, bcRow_apply, hT, projMixT_apply w h s μ Wsl b t H S M Wm hH hS hM hW]

/-- The gated weighted key-value, at a position and a channel, every factor named. -/
theorem gateT_apply (R E Vp : FVec Ideal S2x1024x1024 .f32) (num den : FVec Ideal S1024 .f32) (b : Fin 2) (t : Fin 1024)
    (r ek v N Dn : Cert.Spec.Row) (hR : ∀ d, R (ix3 b t d) = r d) (hE : ∀ d, E (ix3 b t d) = ek d) (hV : ∀ d, Vp (ix3 b t d) = v d)
    (hN : ∀ d, num (ix1 d) = N d) (hD : ∀ d, den (ix1 d) = Dn d) (d : Fin 1024) :
    mulf (Host.divf (broadcastInDim S2x1024x1024 ![] bcast_S_S2x1024x1024 (constant (F := Ideal) S_ .f32 0x3F800000#32)) (addf (broadcastInDim S2x1024x1024 ![] bcast_S_S2x1024x1024 (constant (F := Ideal) S_ .f32 0x3F800000#32)) (Host.exp (Host.negf R)))) (Host.divf (addf (broadcastInDim S2x1024x1024 ![0, 1, 2] bcast_S1x1x1024_S2x1024x1024_0_1_2 (broadcastInDim S1x1x1024 ![2] bcast_S1024_S1x1x1024_2 num)) (mulf E Vp)) (addf (broadcastInDim S2x1024x1024 ![0, 1, 2] bcast_S1x1x1024_S2x1024x1024_0_1_2 (broadcastInDim S1x1x1024 ![2] bcast_S1024_S1x1x1024_2 den)) E)) (ix3 b t d)
      = Ideal.logistic (r d) * Ideal.div (N d + ek d * v d) (Dn d + ek d) := by
  rw [mulf_apply, sigT_apply bcast_S_S2x1024x1024 R _ (r d) (hR d), hostDivf_apply, addf_apply, addf_apply, bcRow_apply,
    bcRow_apply, mulf_apply, hE, hV, hN, hD]

/-- A state plus the projection of a gated state, at a position and an output, the factors named. -/
theorem resProjT_apply (w : DotDims.WF ⟨3, ![2, 1024, 1024]⟩ ⟨2, ![1024, 1024]⟩ ⟨3, ![2, 1024, 1024]⟩ [2] [1] [0, 1] [0] [] [])
    (x g : FVec Ideal S2x1024x1024 .f32) (Wsl : FVec Ideal ⟨2, ![1024, 1024]⟩ .f32) (b : Fin 2) (t : Fin 1024) (G : Cert.Spec.Row)
    (Wm : Cert.Spec.Mat 1024 1024) (hG : ∀ d, g (ix3 b t d) = G d) (hW : ∀ o d, Wsl (ix2 o d) = Wm o d) (o : Fin 1024) :
    addf x (Host.dotGeneral (⟨[2], [1], [0, 1], [0], [], [], w⟩ : DotDims _ _ _) none g Wsl) (ix3 b t o)
      = x (ix3 b t o) + Cert.Spec.proj Wm G o := by
  rw [addf_apply, projT_apply w g Wsl b t G Wm hG hW]

/-- The rectified key of channel mixing, at a position and a hidden unit. -/
theorem reluKeyT_apply (w : DotDims.WF ⟨3, ![2, 1024, 1024]⟩ ⟨2, ![4096, 1024]⟩ ⟨3, ![2, 1024, 4096]⟩ [2] [1] [0, 1] [0] [] [])
    (h : FVec Ideal S2x1024x1024 .f32) (s μ : FVec Ideal S1024 .f32) (Wsl : FVec Ideal ⟨2, ![4096, 1024]⟩ .f32) (b : Fin 2) (t : Fin 1024)
    (H S M : Cert.Spec.Row) (Wm : Cert.Spec.Mat 4096 1024) (hH : ∀ d, h (ix3 b t d) = H d) (hS : ∀ d, s (ix1 d) = S d)
    (hM : ∀ d, μ (ix1 d) = M d) (hW : ∀ o d, Wsl (ix2 o d) = Wm o d) (f : Fin 4096) :
    maximumf (Host.dotGeneral (⟨[2], [1], [0, 1], [0], [], [], w⟩ : DotDims _ _ _) none (addf (mulf h (broadcastInDim S2x1024x1024 ![0, 1, 2] bcast_S1x1x1024_S2x1024x1024_0_1_2 (broadcastInDim S1x1x1024 ![2] bcast_S1024_S1x1x1024_2 μ))) (broadcastInDim S2x1024x1024 ![0, 1, 2] bcast_S1x1x1024_S2x1024x1024_0_1_2 (broadcastInDim S1x1x1024 ![2] bcast_S1024_S1x1x1024_2 (mulf s (subf (broadcastInDim S1024 ![] bcast_S_S1024 (constant (F := Ideal) S_ .f32 0x3F800000#32)) μ))))) Wsl) (broadcastInDim S2x1024x4096 ![] bcast_S_S2x1024x4096 (constant (F := Ideal) S_ .f32 0x00000000#32)) (ix3 b t f)
      = max (Cert.Spec.proj Wm (Cert.Spec.mixRow H S M) f) Cert.Spec.czero := by
  rw [maximumf_apply, projMixT_apply w h s μ Wsl b t H S M Wm hH hS hM hW, bcConst_apply]
  rfl

/-- A state plus the logistic receptance times the projection of the squared rectified key, at a position and an output. -/
theorem ffnOutT_apply (w : DotDims.WF ⟨3, ![2, 1024, 4096]⟩ ⟨2, ![1024, 4096]⟩ ⟨3, ![2, 1024, 1024]⟩ [2] [1] [0, 1] [0] [] [])
    (x R : FVec Ideal S2x1024x1024 .f32) (KK : FVec Ideal S2x1024x4096 .f32) (Wsl : FVec Ideal ⟨2, ![1024, 4096]⟩ .f32) (b : Fin 2) (t : Fin 1024)
    (r : Cert.Spec.Row) (Kr : Fin 4096 → EReal) (Wm : Cert.Spec.Mat 1024 4096) (hR : ∀ o, R (ix3 b t o) = r o)
    (hK : ∀ f, KK (ix3 b t f) = Kr f) (hW : ∀ o f, Wsl (ix2 o f) = Wm o f) (o : Fin 1024) :
    addf x (mulf (Host.divf (broadcastInDim S2x1024x1024 ![] bcast_S_S2x1024x1024 (constant (F := Ideal) S_ .f32 0x3F800000#32)) (addf (broadcastInDim S2x1024x1024 ![] bcast_S_S2x1024x1024 (constant (F := Ideal) S_ .f32 0x3F800000#32)) (Host.exp (Host.negf R)))) (Host.dotGeneral (⟨[2], [1], [0, 1], [0], [], [], w⟩ : DotDims _ _ _) none (mulf KK KK) Wsl)) (ix3 b t o)
      = x (ix3 b t o) + Ideal.logistic (r o) * Cert.Spec.proj Wm (fun f => Kr f * Kr f) o := by
  rw [addf_apply, mulf_apply, sigT_apply bcast_S_S2x1024x1024 R _ (r o) (hR o),
    projT_apply w (mulf KK KK) Wsl b t (fun f => Kr f * Kr f) Wm (fun f => by rw [mulf_apply, hK]) hW]

end Cert.ReferenceIdeal.RefVal.Layer

namespace Cert.ReferenceIdeal.RefVal

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-! ## Layer 0, time mixing: each named term of the run at an index -/

/-- The mean term of the state entering the layer is the mean of each of its rows. -/
theorem v38_apply (V0 : Valuation τ sig (Elt Ideal)) (b : Fin 2) (t : Fin 1024) (u : Fin 1) :
    (res_main_v38 V0 : FVec Ideal S2x1024x1 .f32) (ix3 b t u)
      = Cert.Spec.mean (fun d => (res_main_v30 V0 : FVec Ideal S2x1024x1024 .f32) (ix3 b t d)) := by
  unfold res_main_v38
  exact Layer.meanT_apply (res_main_v30 V0) b t u

/-- The centred entering state. -/
theorem v40_apply (V0 : Valuation τ sig (Elt Ideal)) (b : Fin 2) (t : Fin 1024) (d : Fin 1024) :
    (res_main_v40 V0 : FVec Ideal S2x1024x1024 .f32) (ix3 b t d)
      = Layer.rowAt (res_main_v30 V0) b t d - Cert.Spec.mean (Layer.rowAt (res_main_v30 V0) b t) := by
  unfold res_main_v40
  exact Layer.cenT_apply (res_main_v30 V0) (res_main_v38 V0) (v38_apply V0) b t d

/-- The normalised entering state is the layer normalisation of each row under the layer's first gain and bias. -/
theorem v58_apply (V0 : Valuation τ sig (Elt Ideal)) (b : Fin 2) (t : Fin 1024) (d : Fin 1024) :
    (res_main_v58 V0 : FVec Ideal S2x1024x1024 .f32) (ix3 b t d)
      = Cert.Spec.lnRow ((argsR V0).attn 0).lnw ((argsR V0).attn 0).lnb
          (fun d => (res_main_v30 V0 : FVec Ideal S2x1024x1024 .f32) (ix3 b t d)) d := by
  unfold res_main_v58
  exact Layer.lnT_apply (res_main_v30 V0) (res_main_v38 V0) (res_main_v40 V0) _ _ _ _ (v38_apply V0) (v40_apply V0)
    (fun d => Layer.sliceRow_apply _ (by decide) _ _ _ d) (fun d => Layer.sliceRow_apply _ (by decide) _ _ _ d) b t d

/-- The carried state row of time mixing. -/
theorem v60_apply (V0 : Valuation τ sig (Elt Ideal)) (d : Fin 1024) :
    (res_main_v60 V0 : FVec Ideal S1024 .f32) (ix1 d) = ((argsR V0).attn 0).sx d := by
  unfold res_main_v60
  exact Layer.sliceRow_apply _ (by decide) _ _ _ d

/-- The exponential of the time-first row plus the key. -/
theorem v114_apply (V0 : Valuation τ sig (Elt Ideal)) (b : Fin 2) (t : Fin 1024) (o : Fin 1024) :
    (res_main_v114 V0 : FVec Ideal S2x1024x1024 .f32) (ix3 b t o)
      = Ideal.exp (((argsR V0).attn 0).tf o
          + Cert.Spec.proj ((argsR V0).attn 0).Wk
              (Cert.Spec.mixRow
                (Cert.Spec.lnRow ((argsR V0).attn 0).lnw ((argsR V0).attn 0).lnb
                  (fun d => (res_main_v30 V0 : FVec Ideal S2x1024x1024 .f32) (ix3 b t d)))
                ((argsR V0).attn 0).sx ((argsR V0).attn 0).mixk) o) := by
  unfold res_main_v114
  exact Layer.expKeyT_apply _ _ (res_main_v58 V0) (res_main_v60 V0) _ _ b t _ _ _ _ _
    (fun d => Layer.sliceRow_apply _ (by decide) _ _ _ d) (v58_apply V0 b t) (v60_apply V0)
    (fun d => Layer.sliceRow_apply _ (by decide) _ _ _ d) (fun o d => Layer.sliceMat_apply _ (by decide) _ _ _ o d) o

/-- THE TIME-MIXING LAYER: its output state at position (b, t) is the specification's time mixing of row (b, t) of the
    state entering it. -/
theorem ref_attn0 (V0 : Valuation τ sig (Elt Ideal)) (b : Fin 2) (t : Fin 1024) (o : Fin 1024) :
    (res_main_v137 V0 : FVec Ideal S2x1024x1024 .f32) (ix3 b t o)
      = Cert.Spec.attnRow ((argsR V0).attn 0)
          (fun d => (res_main_v30 V0 : FVec Ideal S2x1024x1024 .f32) (ix3 b t d)) o := by
  unfold res_main_v137
  refine Layer.resProjT_apply _ (res_main_v30 V0) _ _ b t _ _ (fun d => ?_) (fun o d => Layer.sliceMat_apply _ (by decide) _ _ _ o d) o
  exact Layer.gateT_apply _ (res_main_v114 V0) _ _ _ b t _ _ _ _ _
    (fun d => Layer.projMixT_apply _ (res_main_v58 V0) (res_main_v60 V0) _ _ b t _ _ _ _ (v58_apply V0 b t) (v60_apply V0)
      (fun d => Layer.sliceRow_apply _ (by decide) _ _ _ d) (fun o d => Layer.sliceMat_apply _ (by decide) _ _ _ o d) d)
    (v114_apply V0 b t)
    (fun d => Layer.projMixT_apply _ (res_main_v58 V0) (res_main_v60 V0) _ _ b t _ _ _ _ (v58_apply V0 b t) (v60_apply V0)
      (fun d => Layer.sliceRow_apply _ (by decide) _ _ _ d) (fun o d => Layer.sliceMat_apply _ (by decide) _ _ _ o d) d)
    (fun d => Layer.sliceRow_apply _ (by decide) _ _ _ d) (fun d => Layer.sliceRow_apply _ (by decide) _ _ _ d) d

/-! ## Layer 0, channel mixing: each named term of the run at an index -/

/-- The mean term of the time-mixing layer's output. -/
theorem v145_apply (V0 : Valuation τ sig (Elt Ideal)) (b : Fin 2) (t : Fin 1024) (u : Fin 1) :
    (res_main_v145 V0 : FVec Ideal S2x1024x1 .f32) (ix3 b t u)
      = Cert.Spec.mean (fun d => (res_main_v137 V0 : FVec Ideal S2x1024x1024 .f32) (ix3 b t d)) := by
  unfold res_main_v145
  exact Layer.meanT_apply (res_main_v137 V0) b t u

/-- The centred output of time mixing. -/
theorem v147_apply (V0 : Valuation τ sig (Elt Ideal)) (b : Fin 2) (t : Fin 1024) (d : Fin 1024) :
    (res_main_v147 V0 : FVec Ideal S2x1024x1024 .f32) (ix3 b t d)
      = Layer.rowAt (res_main_v137 V0) b t d - Cert.Spec.mean (Layer.rowAt (res_main_v137 V0) b t) := by
  unfold res_main_v147
  exact Layer.cenT_apply (res_main_v137 V0) (res_main_v145 V0) (v145_apply V0) b t d

/-- The normalised output of time mixing is the layer normalisation of each row under the layer's second gain and bias. -/
theorem v165_apply (V0 : Valuation τ sig (Elt Ideal)) (b : Fin 2) (t : Fin 1024) (d : Fin 1024) :
    (res_main_v165 V0 : FVec Ideal S2x1024x1024 .f32) (ix3 b t d)
      = Cert.Spec.lnRow ((argsR V0).ffn 0).lnw ((argsR V0).ffn 0).lnb
          (fun d => (res_main_v137 V0 : FVec Ideal S2x1024x1024 .f32) (ix3 b t d)) d := by
  unfold res_main_v165
  exact Layer.lnT_apply (res_main_v137 V0) (res_main_v145 V0) (res_main_v147 V0) _ _ _ _ (v145_apply V0) (v147_apply V0)
    (fun d => Layer.sliceRow_apply _ (by decide) _ _ _ d) (fun d => Layer.sliceRow_apply _ (by decide) _ _ _ d) b t d

/-- The carried state row of channel mixing. -/
theorem v167_apply (V0 : Valuation τ sig (Elt Ideal)) (d : Fin 1024) :
    (res_main_v167 V0 : FVec Ideal S1024 .f32) (ix1 d) = ((argsR V0).ffn 0).sx d := by
  unfold res_main_v167
  exact Layer.sliceRow_apply _ (by decide) _ _ _ d

/-- The rectified key of channel mixing. -/
theorem v201_apply (V0 : Valuation τ sig (Elt Ideal)) (b : Fin 2) (t : Fin 1024) (f : Fin 4096) :
    (res_main_v201 V0 : FVec Ideal S2x1024x4096 .f32) (ix3 b t f)
      = max (Cert.Spec.proj ((argsR V0).ffn 0).Wk
              (Cert.Spec.mixRow
                (Cert.Spec.lnRow ((argsR V0).ffn 0).lnw ((argsR V0).ffn 0).lnb
                  (fun d => (res_main_v137 V0 : FVec Ideal S2x1024x1024 .f32) (ix3 b t d)))
                ((argsR V0).ffn 0).sx ((argsR V0).ffn 0).mixk) f) Cert.Spec.czero := by
  unfold res_main_v201
  exact Layer.reluKeyT_apply _ (res_main_v165 V0) (res_main_v167 V0) _ _ b t _ _ _ _ (v165_apply V0 b t) (v167_apply V0)
    (fun d => Layer.sliceRow_apply _ (by decide) _ _ _ d) (fun o d => Layer.sliceMat_apply _ (by decide) _ _ _ o d) f

/-- THE CHANNEL-MIXING LAYER: its output state at position (b, t) is the specification's channel mixing of row (b, t) of
    the time-mixing layer's output. -/
theorem ref_ffn0 (V0 : Valuation τ sig (Elt Ideal)) (b : Fin 2) (t : Fin 1024) (o : Fin 1024) :
    (res_main_v213 V0 : FVec Ideal S2x1024x1024 .f32) (ix3 b t o)
      = Cert.Spec.ffnRow ((argsR V0).ffn 0)
          (fun d => (res_main_v137 V0 : FVec Ideal S2x1024x1024 .f32) (ix3 b t d)) o := by
  unfold res_main_v213
  exact Layer.ffnOutT_apply _ (res_main_v137 V0) _ (res_main_v201 V0) _ b t _ _ _
    (fun o => Layer.projMixT_apply _ (res_main_v165 V0) (res_main_v167 V0) _ _ b t _ _ _ _ (v165_apply V0 b t) (v167_apply V0)
      (fun d => Layer.sliceRow_apply _ (by decide) _ _ _ d) (fun o d => Layer.sliceMat_apply _ (by decide) _ _ _ o d) o)
    (v201_apply V0 b t) (fun o f => Layer.sliceMat_apply _ (by decide) _ _ _ o f) o

end Cert.ReferenceIdeal.RefVal

end
-- ==== Proof.RefLayer1.lean ====
/-
  Layer 1 of the reference, read at an index: the same text as layer 0's, over the run's terms of layer 1 (the state
  entering it is the channel-mixing output of layer 0) and row 1 of the parameters stacked over the four layers.
-/
import proofs.«415492_j738734375128_3_alg».proof.Proof.RefLayer0

noncomputable section

namespace Cert.ReferenceIdeal.RefVal

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-! ## Layer 1, time mixing: each named term of the run at an index -/

/-- The mean term of the state entering the layer is the mean of each of its rows. -/
theorem v221_apply (V0 : Valuation τ sig (Elt Ideal)) (b : Fin 2) (t : Fin 1024) (u : Fin 1) :
    (res_main_v221 V0 : FVec Ideal S2x1024x1 .f32) (ix3 b t u)
      = Cert.Spec.mean (fun d => (res_main_v213 V0 : FVec Ideal S2x1024x1024 .f32) (ix3 b t d)) := by
  unfold res_main_v221
  exact Layer.meanT_apply (res_main_v213 V0) b t u

/-- The centred entering state. -/
theorem v223_apply (V0 : Valuation τ sig (Elt Ideal)) (b : Fin 2) (t : Fin 1024) (d : Fin 1024) :
    (res_main_v223 V0 : FVec Ideal S2x1024x1024 .f32) (ix3 b t d)
      = Layer.rowAt (res_main_v213 V0) b t d - Cert.Spec.mean (Layer.rowAt (res_main_v213 V0) b t) := by
  unfold res_main_v223
  exact Layer.cenT_apply (res_main_v213 V0) (res_main_v221 V0) (v221_apply V0) b t d

/-- The normalised entering state is the layer normalisation of each row under the layer's first gain and bias. -/
theorem v241_apply (V0 : Valuation τ sig (Elt Ideal)) (b : Fin 2) (t : Fin 1024) (d : Fin 1024) :
    (res_main_v241 V0 : FVec Ideal S2x1024x1024 .f32) (ix3 b t d)
      = Cert.Spec.lnRow ((argsR V0).attn 1).lnw ((argsR V0).attn 1).lnb
          (fun d => (res_main_v213 V0 : FVec Ideal S2x1024x1024 .f32) (ix3 b t d)) d := by
  unfold res_main_v241
  exact Layer.lnT_apply (res_main_v213 V0) (res_main_v221 V0) (res_main_v223 V0) _ _ _ _ (v221_apply V0) (v223_apply V0)
    (fun d => Layer.sliceRow_apply _ (by decide) _ _ _ d) (fun d => Layer.sliceRow_apply _ (by decide) _ _ _ d) b t d

/-- The carried state row of time mixing. -/
theorem v243_apply (V0 : Valuation τ sig (Elt Ideal)) (d : Fin 1024) :
    (res_main_v243 V0 : FVec Ideal S1024 .f32) (ix1 d) = ((argsR V0).attn 1).sx d := by
  unfold res_main_v243
  exact Layer.sliceRow_apply _ (by decide) _ _ _ d

/-- The exponential of the time-first row plus the key. -/
theorem v297_apply (V0 : Valuation τ sig (Elt Ideal)) (b : Fin 2) (t : Fin 1024) (o : Fin 1024) :
    (res_main_v297 V0 : FVec Ideal S2x1024x1024 .f32) (ix3 b t o)
      = Ideal.exp (((argsR V0).attn 1).tf o
          + Cert.Spec.proj ((argsR V0).attn 1).Wk
              (Cert.Spec.mixRow
                (Cert.Spec.lnRow ((argsR V0).attn 1).lnw ((argsR V0).attn 1).lnb
                  (fun d => (res_main_v213 V0 : FVec Ideal S2x1024x1024 .f32) (ix3 b t d)))
                ((argsR V0).attn 1).sx ((argsR V0).attn 1).mixk) o) := by
  unfold res_main_v297
  exact Layer.expKeyT_apply _ _ (res_main_v241 V0) (res_main_v243 V0) _ _ b t _ _ _ _ _
    (fun d => Layer.sliceRow_apply _ (by decide) _ _ _ d) (v241_apply V0 b t) (v243_apply V0)
    (fun d => Layer.sliceRow_apply _ (by decide) _ _ _ d) (fun o d => Layer.sliceMat_apply _ (by decide) _ _ _ o d) o

/-- THE TIME-MIXING LAYER: its output state at position (b, t) is the specification's time mixing of row (b, t) of the
    state entering it. -/
theorem ref_attn1 (V0 : Valuation τ sig (Elt Ideal)) (b : Fin 2) (t : Fin 1024) (o : Fin 1024) :
    (res_main_v320 V0 : FVec Ideal S2x1024x1024 .f32) (ix3 b t o)
      = Cert.Spec.attnRow ((argsR V0).attn 1)
          (fun d => (res_main_v213 V0 : FVec Ideal S2x1024x1024 .f32) (ix3 b t d)) o := by
  unfold res_main_v320
  refine Layer.resProjT_apply _ (res_main_v213 V0) _ _ b t _ _ (fun d => ?_) (fun o d => Layer.sliceMat_apply _ (by decide) _ _ _ o d) o
  exact Layer.gateT_apply _ (res_main_v297 V0) _ _ _ b t _ _ _ _ _
    (fun d => Layer.projMixT_apply _ (res_main_v241 V0) (res_main_v243 V0) _ _ b t _ _ _ _ (v241_apply V0 b t) (v243_apply V0)
      (fun d => Layer.sliceRow_apply _ (by decide) _ _ _ d) (fun o d => Layer.sliceMat_apply _ (by decide) _ _ _ o d) d)
    (v297_apply V0 b t)
    (fun d => Layer.projMixT_apply _ (res_main_v241 V0) (res_main_v243 V0) _ _ b t _ _ _ _ (v241_apply V0 b t) (v243_apply V0)
      (fun d => Layer.sliceRow_apply _ (by decide) _ _ _ d) (fun o d => Layer.sliceMat_apply _ (by decide) _ _ _ o d) d)
    (fun d => Layer.sliceRow_apply _ (by decide) _ _ _ d) (fun d => Layer.sliceRow_apply _ (by decide) _ _ _ d) d

/-! ## Layer 1, channel mixing: each named term of the run at an index -/

/-- The mean term of the time-mixing layer's output. -/
theorem v328_apply (V0 : Valuation τ sig (Elt Ideal)) (b : Fin 2) (t : Fin 1024) (u : Fin 1) :
    (res_main_v328 V0 : FVec Ideal S2x1024x1 .f32) (ix3 b t u)
      = Cert.Spec.mean (fun d => (res_main_v320 V0 : FVec Ideal S2x1024x1024 .f32) (ix3 b t d)) := by
  unfold res_main_v328
  exact Layer.meanT_apply (res_main_v320 V0) b t u

/-- The centred output of time mixing. -/
theorem v330_apply (V0 : Valuation τ sig (Elt Ideal)) (b : Fin 2) (t : Fin 1024) (d : Fin 1024) :
    (res_main_v330 V0 : FVec Ideal S2x1024x1024 .f32) (ix3 b t d)
      = Layer.rowAt (res_main_v320 V0) b t d - Cert.Spec.mean (Layer.rowAt (res_main_v320 V0) b t) := by
  unfold res_main_v330
  exact Layer.cenT_apply (res_main_v320 V0) (res_main_v328 V0) (v328_apply V0) b t d

/-- The normalised output of time mixing is the layer normalisation of each row under the layer's second gain and bias. -/
theorem v348_apply (V0 : Valuation τ sig (Elt Ideal)) (b : Fin 2) (t : Fin 1024) (d : Fin 1024) :
    (res_main_v348 V0 : FVec Ideal S2x1024x1024 .f32) (ix3 b t d)
      = Cert.Spec.lnRow ((argsR V0).ffn 1).lnw ((argsR V0).ffn 1).lnb
          (fun d => (res_main_v320 V0 : FVec Ideal S2x1024x1024 .f32) (ix3 b t d)) d := by
  unfold res_main_v348
  exact Layer.lnT_apply (res_main_v320 V0) (res_main_v328 V0) (res_main_v330 V0) _ _ _ _ (v328_apply V0) (v330_apply V0)
    (fun d => Layer.sliceRow_apply _ (by decide) _ _ _ d) (fun d => Layer.sliceRow_apply _ (by decide) _ _ _ d) b t d

/-- The carried state row of channel mixing. -/
theorem v350_apply (V0 : Valuation τ sig (Elt Ideal)) (d : Fin 1024) :
    (res_main_v350 V0 : FVec Ideal S1024 .f32) (ix1 d) = ((argsR V0).ffn 1).sx d := by
  unfold res_main_v350
  exact Layer.sliceRow_apply _ (by decide) _ _ _ d

/-- The rectified key of channel mixing. -/
theorem v384_apply (V0 : Valuation τ sig (Elt Ideal)) (b : Fin 2) (t : Fin 1024) (f : Fin 4096) :
    (res_main_v384 V0 : FVec Ideal S2x1024x4096 .f32) (ix3 b t f)
      = max (Cert.Spec.proj ((argsR V0).ffn 1).Wk
              (Cert.Spec.mixRow
                (Cert.Spec.lnRow ((argsR V0).ffn 1).lnw ((argsR V0).ffn 1).lnb
                  (fun d => (res_main_v320 V0 : FVec Ideal S2x1024x1024 .f32) (ix3 b t d)))
                ((argsR V0).ffn 1).sx ((argsR V0).ffn 1).mixk) f) Cert.Spec.czero := by
  unfold res_main_v384
  exact Layer.reluKeyT_apply _ (res_main_v348 V0) (res_main_v350 V0) _ _ b t _ _ _ _ (v348_apply V0 b t) (v350_apply V0)
    (fun d => Layer.sliceRow_apply _ (by decide) _ _ _ d) (fun o d => Layer.sliceMat_apply _ (by decide) _ _ _ o d) f

/-- THE CHANNEL-MIXING LAYER: its output state at position (b, t) is the specification's channel mixing of row (b, t) of
    the time-mixing layer's output. -/
theorem ref_ffn1 (V0 : Valuation τ sig (Elt Ideal)) (b : Fin 2) (t : Fin 1024) (o : Fin 1024) :
    (res_main_v396 V0 : FVec Ideal S2x1024x1024 .f32) (ix3 b t o)
      = Cert.Spec.ffnRow ((argsR V0).ffn 1)
          (fun d => (res_main_v320 V0 : FVec Ideal S2x1024x1024 .f32) (ix3 b t d)) o := by
  unfold res_main_v396
  exact Layer.ffnOutT_apply _ (res_main_v320 V0) _ (res_main_v384 V0) _ b t _ _ _
    (fun o => Layer.projMixT_apply _ (res_main_v348 V0) (res_main_v350 V0) _ _ b t _ _ _ _ (v348_apply V0 b t) (v350_apply V0)
      (fun d => Layer.sliceRow_apply _ (by decide) _ _ _ d) (fun o d => Layer.sliceMat_apply _ (by decide) _ _ _ o d) o)
    (v384_apply V0 b t) (fun o f => Layer.sliceMat_apply _ (by decide) _ _ _ o f) o

end Cert.ReferenceIdeal.RefVal

end
-- ==== Proof.RefLayer2.lean ====
/-
  Layer 2 of the reference, read at an index: the same text as layer 0's, over the run's terms of layer 2 (the state
  entering it is the channel-mixing output of layer 1) and row 2 of the parameters stacked over the four layers.
-/
import proofs.«415492_j738734375128_3_alg».proof.Proof.RefLayer0

noncomputable section

namespace Cert.ReferenceIdeal.RefVal

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-! ## Layer 2, time mixing: each named term of the run at an index -/

/-- The mean term of the state entering the layer is the mean of each of its rows. -/
theorem v404_apply (V0 : Valuation τ sig (Elt Ideal)) (b : Fin 2) (t : Fin 1024) (u : Fin 1) :
    (res_main_v404 V0 : FVec Ideal S2x1024x1 .f32) (ix3 b t u)
      = Cert.Spec.mean (fun d => (res_main_v396 V0 : FVec Ideal S2x1024x1024 .f32) (ix3 b t d)) := by
  unfold res_main_v404
  exact Layer.meanT_apply (res_main_v396 V0) b t u

/-- The centred entering state. -/
theorem v406_apply (V0 : Valuation τ sig (Elt Ideal)) (b : Fin 2) (t : Fin 1024) (d : Fin 1024) :
    (res_main_v406 V0 : FVec Ideal S2x1024x1024 .f32) (ix3 b t d)
      = Layer.rowAt (res_main_v396 V0) b t d - Cert.Spec.mean (Layer.rowAt (res_main_v396 V0) b t) := by
  unfold res_main_v406
  exact Layer.cenT_apply (res_main_v396 V0) (res_main_v404 V0) (v404_apply V0) b t d

/-- The normalised entering state is the layer normalisation of each row under the layer's first gain and bias. -/
theorem v424_apply (V0 : Valuation τ sig (Elt Ideal)) (b : Fin 2) (t : Fin 1024) (d : Fin 1024) :
    (res_main_v424 V0 : FVec Ideal S2x1024x1024 .f32) (ix3 b t d)
      = Cert.Spec.lnRow ((argsR V0).attn 2).lnw ((argsR V0).attn 2).lnb
          (fun d => (res_main_v396 V0 : FVec Ideal S2x1024x1024 .f32) (ix3 b t d)) d := by
  unfold res_main_v424
  exact Layer.lnT_apply (res_main_v396 V0) (res_main_v404 V0) (res_main_v406 V0) _ _ _ _ (v404_apply V0) (v406_apply V0)
    (fun d => Layer.sliceRow_apply _ (by decide) _ _ _ d) (fun d => Layer.sliceRow_apply _ (by decide) _ _ _ d) b t d

/-- The carried state row of time mixing. -/
theorem v426_apply (V0 : Valuation τ sig (Elt Ideal)) (d : Fin 1024) :
    (res_main_v426 V0 : FVec Ideal S1024 .f32) (ix1 d) = ((argsR V0).attn 2).sx d := by
  unfold res_main_v426
  exact Layer.sliceRow_apply _ (by decide) _ _ _ d

/-- The exponential of the time-first row plus the key. -/
theorem v480_apply (V0 : Valuation τ sig (Elt Ideal)) (b : Fin 2) (t : Fin 1024) (o : Fin 1024) :
    (res_main_v480 V0 : FVec Ideal S2x1024x1024 .f32) (ix3 b t o)
      = Ideal.exp (((argsR V0).attn 2).tf o
          + Cert.Spec.proj ((argsR V0).attn 2).Wk
              (Cert.Spec.mixRow
                (Cert.Spec.lnRow ((argsR V0).attn 2).lnw ((argsR V0).attn 2).lnb
                  (fun d => (res_main_v396 V0 : FVec Ideal S2x1024x1024 .f32) (ix3 b t d)))
                ((argsR V0).attn 2).sx ((argsR V0).attn 2).mixk) o) := by
  unfold res_main_v480
  exact Layer.expKeyT_apply _ _ (res_main_v424 V0) (res_main_v426 V0) _ _ b t _ _ _ _ _
    (fun d => Layer.sliceRow_apply _ (by decide) _ _ _ d) (v424_apply V0 b t) (v426_apply V0)
    (fun d => Layer.sliceRow_apply _ (by decide) _ _ _ d) (fun o d => Layer.sliceMat_apply _ (by decide) _ _ _ o d) o

/-- THE TIME-MIXING LAYER: its output state at position (b, t) is the specification's time mixing of row (b, t) of the
    state entering it. -/
theorem ref_attn2 (V0 : Valuation τ sig (Elt Ideal)) (b : Fin 2) (t : Fin 1024) (o : Fin 1024) :
    (res_main_v503 V0 : FVec Ideal S2x1024x1024 .f32) (ix3 b t o)
      = Cert.Spec.attnRow ((argsR V0).attn 2)
          (fun d => (res_main_v396 V0 : FVec Ideal S2x1024x1024 .f32) (ix3 b t d)) o := by
  unfold res_main_v503
  refine Layer.resProjT_apply _ (res_main_v396 V0) _ _ b t _ _ (fun d => ?_) (fun o d => Layer.sliceMat_apply _ (by decide) _ _ _ o d) o
  exact Layer.gateT_apply _ (res_main_v480 V0) _ _ _ b t _ _ _ _ _
    (fun d => Layer.projMixT_apply _ (res_main_v424 V0) (res_main_v426 V0) _ _ b t _ _ _ _ (v424_apply V0 b t) (v426_apply V0)
      (fun d => Layer.sliceRow_apply _ (by decide) _ _ _ d) (fun o d => Layer.sliceMat_apply _ (by decide) _ _ _ o d) d)
    (v480_apply V0 b t)
    (fun d => Layer.projMixT_apply _ (res_main_v424 V0) (res_main_v426 V0) _ _ b t _ _ _ _ (v424_apply V0 b t) (v426_apply V0)
      (fun d => Layer.sliceRow_apply _ (by decide) _ _ _ d) (fun o d => Layer.sliceMat_apply _ (by decide) _ _ _ o d) d)
    (fun d => Layer.sliceRow_apply _ (by decide) _ _ _ d) (fun d => Layer.sliceRow_apply _ (by decide) _ _ _ d) d

/-! ## Layer 2, channel mixing: each named term of the run at an index -/

/-- The mean term of the time-mixing layer's output. -/
theorem v511_apply (V0 : Valuation τ sig (Elt Ideal)) (b : Fin 2) (t : Fin 1024) (u : Fin 1) :
    (res_main_v511 V0 : FVec Ideal S2x1024x1 .f32) (ix3 b t u)
      = Cert.Spec.mean (fun d => (res_main_v503 V0 : FVec Ideal S2x1024x1024 .f32) (ix3 b t d)) := by
  unfold res_main_v511
  exact Layer.meanT_apply (res_main_v503 V0) b t u

/-- The centred output of time mixing. -/
theorem v513_apply (V0 : Valuation τ sig (Elt Ideal)) (b : Fin 2) (t : Fin 1024) (d : Fin 1024) :
    (res_main_v513 V0 : FVec Ideal S2x1024x1024 .f32) (ix3 b t d)
      = Layer.rowAt (res_main_v503 V0) b t d - Cert.Spec.mean (Layer.rowAt (res_main_v503 V0) b t) := by
  unfold res_main_v513
  exact Layer.cenT_apply (res_main_v503 V0) (res_main_v511 V0) (v511_apply V0) b t d

/-- The normalised output of time mixing is the layer normalisation of each row under the layer's second gain and bias. -/
theorem v531_apply (V0 : Valuation τ sig (Elt Ideal)) (b : Fin 2) (t : Fin 1024) (d : Fin 1024) :
    (res_main_v531 V0 : FVec Ideal S2x1024x1024 .f32) (ix3 b t d)
      = Cert.Spec.lnRow ((argsR V0).ffn 2).lnw ((argsR V0).ffn 2).lnb
          (fun d => (res_main_v503 V0 : FVec Ideal S2x1024x1024 .f32) (ix3 b t d)) d := by
  unfold res_main_v531
  exact Layer.lnT_apply (res_main_v503 V0) (res_main_v511 V0) (res_main_v513 V0) _ _ _ _ (v511_apply V0) (v513_apply V0)
    (fun d => Layer.sliceRow_apply _ (by decide) _ _ _ d) (fun d => Layer.sliceRow_apply _ (by decide) _ _ _ d) b t d

/-- The carried state row of channel mixing. -/
theorem v533_apply (V0 : Valuation τ sig (Elt Ideal)) (d : Fin 1024) :
    (res_main_v533 V0 : FVec Ideal S1024 .f32) (ix1 d) = ((argsR V0).ffn 2).sx d := by
  unfold res_main_v533
  exact Layer.sliceRow_apply _ (by decide) _ _ _ d

/-- The rectified key of channel mixing. -/
theorem v567_apply (V0 : Valuation τ sig (Elt Ideal)) (b : Fin 2) (t : Fin 1024) (f : Fin 4096) :
    (res_main_v567 V0 : FVec Ideal S2x1024x4096 .f32) (ix3 b t f)
      = max (Cert.Spec.proj ((argsR V0).ffn 2).Wk
              (Cert.Spec.mixRow
                (Cert.Spec.lnRow ((argsR V0).ffn 2).lnw ((argsR V0).ffn 2).lnb
                  (fun d => (res_main_v503 V0 : FVec Ideal S2x1024x1024 .f32) (ix3 b t d)))
                ((argsR V0).ffn 2).sx ((argsR V0).ffn 2).mixk) f) Cert.Spec.czero := by
  unfold res_main_v567
  exact Layer.reluKeyT_apply _ (res_main_v531 V0) (res_main_v533 V0) _ _ b t _ _ _ _ (v531_apply V0 b t) (v533_apply V0)
    (fun d => Layer.sliceRow_apply _ (by decide) _ _ _ d) (fun o d => Layer.sliceMat_apply _ (by decide) _ _ _ o d) f

/-- THE CHANNEL-MIXING LAYER: its output state at position (b, t) is the specification's channel mixing of row (b, t) of
    the time-mixing layer's output. -/
theorem ref_ffn2 (V0 : Valuation τ sig (Elt Ideal)) (b : Fin 2) (t : Fin 1024) (o : Fin 1024) :
    (res_main_v579 V0 : FVec Ideal S2x1024x1024 .f32) (ix3 b t o)
      = Cert.Spec.ffnRow ((argsR V0).ffn 2)
          (fun d => (res_main_v503 V0 : FVec Ideal S2x1024x1024 .f32) (ix3 b t d)) o := by
  unfold res_main_v579
  exact Layer.ffnOutT_apply _ (res_main_v503 V0) _ (res_main_v567 V0) _ b t _ _ _
    (fun o => Layer.projMixT_apply _ (res_main_v531 V0) (res_main_v533 V0) _ _ b t _ _ _ _ (v531_apply V0 b t) (v533_apply V0)
      (fun d => Layer.sliceRow_apply _ (by decide) _ _ _ d) (fun o d => Layer.sliceMat_apply _ (by decide) _ _ _ o d) o)
    (v567_apply V0 b t) (fun o f => Layer.sliceMat_apply _ (by decide) _ _ _ o f) o

end Cert.ReferenceIdeal.RefVal

end
-- ==== Proof.RefLayer3.lean ====
/-
  Layer 3 of the reference, read at an index: the same text as layer 0's, over the run's terms of layer 3 (the state
  entering it is the channel-mixing output of layer 2) and row 3 of the parameters stacked over the four layers.
-/
import proofs.«415492_j738734375128_3_alg».proof.Proof.RefLayer0

noncomputable section

namespace Cert.ReferenceIdeal.RefVal

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-! ## Layer 3, time mixing: each named term of the run at an index -/

/-- The mean term of the state entering the layer is the mean of each of its rows. -/
theorem v587_apply (V0 : Valuation τ sig (Elt Ideal)) (b : Fin 2) (t : Fin 1024) (u : Fin 1) :
    (res_main_v587 V0 : FVec Ideal S2x1024x1 .f32) (ix3 b t u)
      = Cert.Spec.mean (fun d => (res_main_v579 V0 : FVec Ideal S2x1024x1024 .f32) (ix3 b t d)) := by
  unfold res_main_v587
  exact Layer.meanT_apply (res_main_v579 V0) b t u

/-- The centred entering state. -/
theorem v589_apply (V0 : Valuation τ sig (Elt Ideal)) (b : Fin 2) (t : Fin 1024) (d : Fin 1024) :
    (res_main_v589 V0 : FVec Ideal S2x1024x1024 .f32) (ix3 b t d)
      = Layer.rowAt (res_main_v579 V0) b t d - Cert.Spec.mean (Layer.rowAt (res_main_v579 V0) b t) := by
  unfold res_main_v589
  exact Layer.cenT_apply (res_main_v579 V0) (res_main_v587 V0) (v587_apply V0) b t d

/-- The normalised entering state is the layer normalisation of each row under the layer's first gain and bias. -/
theorem v607_apply (V0 : Valuation τ sig (Elt Ideal)) (b : Fin 2) (t : Fin 1024) (d : Fin 1024) :
    (res_main_v607 V0 : FVec Ideal S2x1024x1024 .f32) (ix3 b t d)
      = Cert.Spec.lnRow ((argsR V0).attn 3).lnw ((argsR V0).attn 3).lnb
          (fun d => (res_main_v579 V0 : FVec Ideal S2x1024x1024 .f32) (ix3 b t d)) d := by
  unfold res_main_v607
  exact Layer.lnT_apply (res_main_v579 V0) (res_main_v587 V0) (res_main_v589 V0) _ _ _ _ (v587_apply V0) (v589_apply V0)
    (fun d => Layer.sliceRow_apply _ (by decide) _ _ _ d) (fun d => Layer.sliceRow_apply _ (by decide) _ _ _ d) b t d

/-- The carried state row of time mixing. -/
theorem v609_apply (V0 : Valuation τ sig (Elt Ideal)) (d : Fin 1024) :
    (res_main_v609 V0 : FVec Ideal S1024 .f32) (ix1 d) = ((argsR V0).attn 3).sx d := by
  unfold res_main_v609
  exact Layer.sliceRow_apply _ (by decide) _ _ _ d

/-- The exponential of the time-first row plus the key. -/
theorem v663_apply (V0 : Valuation τ sig (Elt Ideal)) (b : Fin 2) (t : Fin 1024) (o : Fin 1024) :
    (res_main_v663 V0 : FVec Ideal S2x1024x1024 .f32) (ix3 b t o)
      = Ideal.exp (((argsR V0).attn 3).tf o
          + Cert.Spec.proj ((argsR V0).attn 3).Wk
              (Cert.Spec.mixRow
                (Cert.Spec.lnRow ((argsR V0).attn 3).lnw ((argsR V0).attn 3).lnb
                  (fun d => (res_main_v579 V0 : FVec Ideal S2x1024x1024 .f32) (ix3 b t d)))
                ((argsR V0).attn 3).sx ((argsR V0).attn 3).mixk) o) := by
  unfold res_main_v663
  exact Layer.expKeyT_apply _ _ (res_main_v607 V0) (res_main_v609 V0) _ _ b t _ _ _ _ _
    (fun d => Layer.sliceRow_apply _ (by decide) _ _ _ d) (v607_apply V0 b t) (v609_apply V0)
    (fun d => Layer.sliceRow_apply _ (by decide) _ _ _ d) (fun o d => Layer.sliceMat_apply _ (by decide) _ _ _ o d) o

/-- THE TIME-MIXING LAYER: its output state at position (b, t) is the specification's time mixing of row (b, t) of the
    state entering it. -/
theorem ref_attn3 (V0 : Valuation τ sig (Elt Ideal)) (b : Fin 2) (t : Fin 1024) (o : Fin 1024) :
    (res_main_v686 V0 : FVec Ideal S2x1024x1024 .f32) (ix3 b t o)
      = Cert.Spec.attnRow ((argsR V0).attn 3)
          (fun d => (res_main_v579 V0 : FVec Ideal S2x1024x1024 .f32) (ix3 b t d)) o := by
  unfold res_main_v686
  refine Layer.resProjT_apply _ (res_main_v579 V0) _ _ b t _ _ (fun d => ?_) (fun o d => Layer.sliceMat_apply _ (by decide) _ _ _ o d) o
  exact Layer.gateT_apply _ (res_main_v663 V0) _ _ _ b t _ _ _ _ _
    (fun d => Layer.projMixT_apply _ (res_main_v607 V0) (res_main_v609 V0) _ _ b t _ _ _ _ (v607_apply V0 b t) (v609_apply V0)
      (fun d => Layer.sliceRow_apply _ (by decide) _ _ _ d) (fun o d => Layer.sliceMat_apply _ (by decide) _ _ _ o d) d)
    (v663_apply V0 b t)
    (fun d => Layer.projMixT_apply _ (res_main_v607 V0) (res_main_v609 V0) _ _ b t _ _ _ _ (v607_apply V0 b t) (v609_apply V0)
      (fun d => Layer.sliceRow_apply _ (by decide) _ _ _ d) (fun o d => Layer.sliceMat_apply _ (by decide) _ _ _ o d) d)
    (fun d => Layer.sliceRow_apply _ (by decide) _ _ _ d) (fun d => Layer.sliceRow_apply _ (by decide) _ _ _ d) d

/-! ## Layer 3, channel mixing: each named term of the run at an index -/

/-- The mean term of the time-mixing layer's output. -/
theorem v694_apply (V0 : Valuation τ sig (Elt Ideal)) (b : Fin 2) (t : Fin 1024) (u : Fin 1) :
    (res_main_v694 V0 : FVec Ideal S2x1024x1 .f32) (ix3 b t u)
      = Cert.Spec.mean (fun d => (res_main_v686 V0 : FVec Ideal S2x1024x1024 .f32) (ix3 b t d)) := by
  unfold res_main_v694
  exact Layer.meanT_apply (res_main_v686 V0) b t u

/-- The centred output of time mixing. -/
theorem v696_apply (V0 : Valuation τ sig (Elt Ideal)) (b : Fin 2) (t : Fin 1024) (d : Fin 1024) :
    (res_main_v696 V0 : FVec Ideal S2x1024x1024 .f32) (ix3 b t d)
      = Layer.rowAt (res_main_v686 V0) b t d - Cert.Spec.mean (Layer.rowAt (res_main_v686 V0) b t) := by
  unfold res_main_v696
  exact Layer.cenT_apply (res_main_v686 V0) (res_main_v694 V0) (v694_apply V0) b t d

/-- The normalised output of time mixing is the layer normalisation of each row under the layer's second gain and bias. -/
theorem v714_apply (V0 : Valuation τ sig (Elt Ideal)) (b : Fin 2) (t : Fin 1024) (d : Fin 1024) :
    (res_main_v714 V0 : FVec Ideal S2x1024x1024 .f32) (ix3 b t d)
      = Cert.Spec.lnRow ((argsR V0).ffn 3).lnw ((argsR V0).ffn 3).lnb
          (fun d => (res_main_v686 V0 : FVec Ideal S2x1024x1024 .f32) (ix3 b t d)) d := by
  unfold res_main_v714
  exact Layer.lnT_apply (res_main_v686 V0) (res_main_v694 V0) (res_main_v696 V0) _ _ _ _ (v694_apply V0) (v696_apply V0)
    (fun d => Layer.sliceRow_apply _ (by decide) _ _ _ d) (fun d => Layer.sliceRow_apply _ (by decide) _ _ _ d) b t d

/-- The carried state row of channel mixing. -/
theorem v716_apply (V0 : Valuation τ sig (Elt Ideal)) (d : Fin 1024) :
    (res_main_v716 V0 : FVec Ideal S1024 .f32) (ix1 d) = ((argsR V0).ffn 3).sx d := by
  unfold res_main_v716
  exact Layer.sliceRow_apply _ (by decide) _ _ _ d

/-- The rectified key of channel mixing. -/
theorem v750_apply (V0 : Valuation τ sig (Elt Ideal)) (b : Fin 2) (t : Fin 1024) (f : Fin 4096) :
    (res_main_v750 V0 : FVec Ideal S2x1024x4096 .f32) (ix3 b t f)
      = max (Cert.Spec.proj ((argsR V0).ffn 3).Wk
              (Cert.Spec.mixRow
                (Cert.Spec.lnRow ((argsR V0).ffn 3).lnw ((argsR V0).ffn 3).lnb
                  (fun d => (res_main_v686 V0 : FVec Ideal S2x1024x1024 .f32) (ix3 b t d)))
                ((argsR V0).ffn 3).sx ((argsR V0).ffn 3).mixk) f) Cert.Spec.czero := by
  unfold res_main_v750
  exact Layer.reluKeyT_apply _ (res_main_v714 V0) (res_main_v716 V0) _ _ b t _ _ _ _ (v714_apply V0 b t) (v716_apply V0)
    (fun d => Layer.sliceRow_apply _ (by decide) _ _ _ d) (fun o d => Layer.sliceMat_apply _ (by decide) _ _ _ o d) f

/-- THE CHANNEL-MIXING LAYER: its output state at position (b, t) is the specification's channel mixing of row (b, t) of
    the time-mixing layer's output. -/
theorem ref_ffn3 (V0 : Valuation τ sig (Elt Ideal)) (b : Fin 2) (t : Fin 1024) (o : Fin 1024) :
    (res_main_v762 V0 : FVec Ideal S2x1024x1024 .f32) (ix3 b t o)
      = Cert.Spec.ffnRow ((argsR V0).ffn 3)
          (fun d => (res_main_v686 V0 : FVec Ideal S2x1024x1024 .f32) (ix3 b t d)) o := by
  unfold res_main_v762
  exact Layer.ffnOutT_apply _ (res_main_v686 V0) _ (res_main_v750 V0) _ b t _ _ _
    (fun o => Layer.projMixT_apply _ (res_main_v714 V0) (res_main_v716 V0) _ _ b t _ _ _ _ (v714_apply V0 b t) (v716_apply V0)
      (fun d => Layer.sliceRow_apply _ (by decide) _ _ _ d) (fun o d => Layer.sliceMat_apply _ (by decide) _ _ _ o d) o)
    (v750_apply V0 b t) (fun o f => Layer.sliceMat_apply _ (by decide) _ _ _ o f) o

end Cert.ReferenceIdeal.RefVal

end
-- ==== Proof.RefAssemble.lean ====
/-
  The reference's value. The state after the four layers, row by row, is the specification's state row of the gathered
  embedding row: the embedding end gives the first normalised row, and each of the eight layer readings sends the row
  entering a layer to the row leaving it, so the rows compose as the specification's four layers do. The reference's
  result at position (b, t) and token v is then the output end over those rows: the specification's model of the
  reference's arguments.
-/
import proofs.«415492_j738734375128_3_alg».proof.Proof.RefRunGen
import proofs.«415492_j738734375128_3_alg».proof.Proof.RefArgs
import proofs.«415492_j738734375128_3_alg».proof.Proof.RefEnds
import proofs.«415492_j738734375128_3_alg».proof.Proof.RefLayer0
import proofs.«415492_j738734375128_3_alg».proof.Proof.RefLayer1
import proofs.«415492_j738734375128_3_alg».proof.Proof.RefLayer2
import proofs.«415492_j738734375128_3_alg».proof.Proof.RefLayer3
import proofs.«415492_j738734375128_3_alg».proof.Proof.Spec

noncomputable section

namespace Cert.ReferenceIdeal.RefVal

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-- The gathered embedding row of position (b, t)'s row number is the gather's result at (b, t, ·). -/
theorem gatheredR_pos (V0 : Valuation τ sig (Elt Ideal)) (b : Fin 2) (t : Fin 1024) :
    gatheredR V0 (Cert.Spec.pos b t) = fun d => (res_main_v6 V0 : FVec Ideal S2x1024x1024 .f32) (ix3 b t d) := by
  funext d
  rw [gatheredR_eq, rowB_pos, rowT_pos]

/-- THE STATE AFTER THE FOUR LAYERS, row (b, t): the specification's state row, at the position's row number, of the
    gathered embedding rows. -/
theorem ref_state (V0 : Valuation τ sig (Elt Ideal)) (b : Fin 2) (t : Fin 1024) :
    (fun d => (res_main_v762 V0 : FVec Ideal S2x1024x1024 .f32) (ix3 b t d))
      = Cert.Spec.stateRow (argsR V0) (gatheredR V0) (Cert.Spec.pos b t) := by
  have h30 : (fun d => (res_main_v30 V0 : FVec Ideal S2x1024x1024 .f32) (ix3 b t d))
      = Cert.Spec.lnRow (argsR V0).ln0w (argsR V0).ln0b (gatheredR V0 (Cert.Spec.pos b t)) := by
    rw [gatheredR_pos]
    exact funext (ref_ln0 V0 b t)
  have h137 := (funext (ref_attn0 V0 b t)).trans (congrArg (Cert.Spec.attnRow ((argsR V0).attn 0)) h30)
  have h213 := (funext (ref_ffn0 V0 b t)).trans (congrArg (Cert.Spec.ffnRow ((argsR V0).ffn 0)) h137)
  have h320 := (funext (ref_attn1 V0 b t)).trans (congrArg (Cert.Spec.attnRow ((argsR V0).attn 1)) h213)
  have h396 := (funext (ref_ffn1 V0 b t)).trans (congrArg (Cert.Spec.ffnRow ((argsR V0).ffn 1)) h320)
  have h503 := (funext (ref_attn2 V0 b t)).trans (congrArg (Cert.Spec.attnRow ((argsR V0).attn 2)) h396)
  have h579 := (funext (ref_ffn2 V0 b t)).trans (congrArg (Cert.Spec.ffnRow ((argsR V0).ffn 2)) h503)
  have h686 := (funext (ref_attn3 V0 b t)).trans (congrArg (Cert.Spec.attnRow ((argsR V0).attn 3)) h579)
  have h762 := (funext (ref_ffn3 V0 b t)).trans (congrArg (Cert.Spec.ffnRow ((argsR V0).ffn 3)) h686)
  exact h762

/-- THE REFERENCE'S VALUE: its result at position (b, t) and token v is the specification's model of its arguments and
    of the embedding rows its gather selects. -/
theorem ref_value (V0 : Valuation τ sig (Elt Ideal)) (b : Fin 2) (t : Fin 1024) (v : Fin 50257) :
    outR V0 (ix3 b t v) = Cert.Spec.model (argsR V0) (gatheredR V0) b t v := by
  have hrows : (fun (r : Fin 2048) (v' : Fin 50257) =>
        Cert.Spec.logitsRow (argsR V0).lnow (argsR V0).lnob (argsR V0).headW
          (fun d => (res_main_v762 V0 : FVec Ideal S2x1024x1024 .f32) (ix3 (rowB r) (rowT r) d)) v')
      = Cert.Spec.logits (argsR V0) (gatheredR V0) := by
    funext r
    have h := ref_state V0 (rowB r) (rowT r)
    rw [pos_rowB_rowT] at h
    exact congrArg (Cert.Spec.logitsRow (argsR V0).lnow (argsR V0).lnob (argsR V0).headW) h
  exact (ref_out V0 b t v).trans (congrArg (fun L => Cert.Spec.softmaxAll L (Cert.Spec.pos b t) v) hrows)

end Cert.ReferenceIdeal.RefVal

end
-- ==== Proof.AgreeArgs.lean ====
/- The two programs read the same arguments.

   The claim gives, argument by argument, that the reference's buffer holds what the kernel program's holds. The
   specification's argument record is read off those buffers entry by entry, the same entry of the same argument on
   both sides, so the two records are equal; and the embedding rows each program selects are the same operations
   (wrap a token below zero, then take the table's row at the token) applied to the two programs' token arrays and
   embedding tables, which are equal, so the selected rows are equal. Both are stated over two arbitrary contents of
   the two programs' buffers that agree on the 29 arguments. -/
import proofs.«415492_j738734375128_3_alg».proof.Proof.RefArgs
import proofs.«415492_j738734375128_3_alg».proof.Proof.HostK
import proofs.«415492_j738734375128_3_alg».proof.Proof.HostKEnds
import proofs.«415492_j738734375128_3_alg».proof.Proof.Spec

set_option maxRecDepth 16384

noncomputable section

namespace Cert.Proof.Agree

open Idealize.ShloMosaic Idealize.ShloMosaic.ValueIdx

/-- The two contents agree on every argument, in the order of the programs' parameters. -/
def ArgsAgree (Wk : Valuation Cert.KernelIdeal.τ Cert.KernelIdeal.sig (Elt Ideal))
    (Wr : Valuation Cert.ReferenceIdeal.τ Cert.ReferenceIdeal.sig (Elt Ideal)) : Prop :=
  (Wr (Proc.devRef .tc Cert.ReferenceIdeal.main_arg0) = Wk (Proc.devRef .tc Cert.KernelIdeal.main_arg0))
  ∧ (Wr (Proc.devRef .tc Cert.ReferenceIdeal.main_arg1) = Wk (Proc.devRef .tc Cert.KernelIdeal.main_arg1))
  ∧ (Wr (Proc.devRef .tc Cert.ReferenceIdeal.main_arg2) = Wk (Proc.devRef .tc Cert.KernelIdeal.main_arg2))
  ∧ (Wr (Proc.devRef .tc Cert.ReferenceIdeal.main_arg3) = Wk (Proc.devRef .tc Cert.KernelIdeal.main_arg3))
  ∧ (Wr (Proc.devRef .tc Cert.ReferenceIdeal.main_arg4) = Wk (Proc.devRef .tc Cert.KernelIdeal.main_arg4))
  ∧ (Wr (Proc.devRef .tc Cert.ReferenceIdeal.main_arg5) = Wk (Proc.devRef .tc Cert.KernelIdeal.main_arg5))
  ∧ (Wr (Proc.devRef .tc Cert.ReferenceIdeal.main_arg6) = Wk (Proc.devRef .tc Cert.KernelIdeal.main_arg6))
  ∧ (Wr (Proc.devRef .tc Cert.ReferenceIdeal.main_arg7) = Wk (Proc.devRef .tc Cert.KernelIdeal.main_arg7))
  ∧ (Wr (Proc.devRef .tc Cert.ReferenceIdeal.main_arg8) = Wk (Proc.devRef .tc Cert.KernelIdeal.main_arg8))
  ∧ (Wr (Proc.devRef .tc Cert.ReferenceIdeal.main_arg9) = Wk (Proc.devRef .tc Cert.KernelIdeal.main_arg9))
  ∧ (Wr (Proc.devRef .tc Cert.ReferenceIdeal.main_arg10) = Wk (Proc.devRef .tc Cert.KernelIdeal.main_arg10))
  ∧ (Wr (Proc.devRef .tc Cert.ReferenceIdeal.main_arg11) = Wk (Proc.devRef .tc Cert.KernelIdeal.main_arg11))
  ∧ (Wr (Proc.devRef .tc Cert.ReferenceIdeal.main_arg12) = Wk (Proc.devRef .tc Cert.KernelIdeal.main_arg12))
  ∧ (Wr (Proc.devRef .tc Cert.ReferenceIdeal.main_arg13) = Wk (Proc.devRef .tc Cert.KernelIdeal.main_arg13))
  ∧ (Wr (Proc.devRef .tc Cert.ReferenceIdeal.main_arg14) = Wk (Proc.devRef .tc Cert.KernelIdeal.main_arg14))
  ∧ (Wr (Proc.devRef .tc Cert.ReferenceIdeal.main_arg15) = Wk (Proc.devRef .tc Cert.KernelIdeal.main_arg15))
  ∧ (Wr (Proc.devRef .tc Cert.ReferenceIdeal.main_arg16) = Wk (Proc.devRef .tc Cert.KernelIdeal.main_arg16))
  ∧ (Wr (Proc.devRef .tc Cert.ReferenceIdeal.main_arg17) = Wk (Proc.devRef .tc Cert.KernelIdeal.main_arg17))
  ∧ (Wr (Proc.devRef .tc Cert.ReferenceIdeal.main_arg18) = Wk (Proc.devRef .tc Cert.KernelIdeal.main_arg18))
  ∧ (Wr (Proc.devRef .tc Cert.ReferenceIdeal.main_arg19) = Wk (Proc.devRef .tc Cert.KernelIdeal.main_arg19))
  ∧ (Wr (Proc.devRef .tc Cert.ReferenceIdeal.main_arg20) = Wk (Proc.devRef .tc Cert.KernelIdeal.main_arg20))
  ∧ (Wr (Proc.devRef .tc Cert.ReferenceIdeal.main_arg21) = Wk (Proc.devRef .tc Cert.KernelIdeal.main_arg21))
  ∧ (Wr (Proc.devRef .tc Cert.ReferenceIdeal.main_arg22) = Wk (Proc.devRef .tc Cert.KernelIdeal.main_arg22))
  ∧ (Wr (Proc.devRef .tc Cert.ReferenceIdeal.main_arg23) = Wk (Proc.devRef .tc Cert.KernelIdeal.main_arg23))
  ∧ (Wr (Proc.devRef .tc Cert.ReferenceIdeal.main_arg24) = Wk (Proc.devRef .tc Cert.KernelIdeal.main_arg24))
  ∧ (Wr (Proc.devRef .tc Cert.ReferenceIdeal.main_arg25) = Wk (Proc.devRef .tc Cert.KernelIdeal.main_arg25))
  ∧ (Wr (Proc.devRef .tc Cert.ReferenceIdeal.main_arg26) = Wk (Proc.devRef .tc Cert.KernelIdeal.main_arg26))
  ∧ (Wr (Proc.devRef .tc Cert.ReferenceIdeal.main_arg27) = Wk (Proc.devRef .tc Cert.KernelIdeal.main_arg27))
  ∧ (Wr (Proc.devRef .tc Cert.ReferenceIdeal.main_arg28) = Wk (Proc.devRef .tc Cert.KernelIdeal.main_arg28))

/-- The specification's argument record is the same read off either program's buffers. -/
theorem args_agree (Wk : Valuation Cert.KernelIdeal.τ Cert.KernelIdeal.sig (Elt Ideal))
    (Wr : Valuation Cert.ReferenceIdeal.τ Cert.ReferenceIdeal.sig (Elt Ideal)) (h : ArgsAgree Wk Wr) :
    Cert.ReferenceIdeal.RefVal.argsR Wr = Cert.KernelIdeal.Val.argsK Wk := by
  obtain ⟨h0, h1, h2, h3, h4, h5, h6, h7, h8, h9, h10, h11, h12, h13, h14, h15, h16, h17, h18, h19, h20, h21, h22, h23, h24, h25, h26, h27, h28⟩ := h
  unfold Cert.ReferenceIdeal.RefVal.argsR Cert.KernelIdeal.Val.argsK
  rw [h2, h3, h4, h5, h6, h7, h9, h10, h11, h12, h13, h14, h15, h16, h17, h18, h19, h20, h21, h22, h23, h24, h25, h26, h27, h28]

/-- The embedding rows the two programs select are the same. -/
theorem gathered_agree (Wk : Valuation Cert.KernelIdeal.τ Cert.KernelIdeal.sig (Elt Ideal))
    (Wr : Valuation Cert.ReferenceIdeal.τ Cert.ReferenceIdeal.sig (Elt Ideal)) (h : ArgsAgree Wk Wr) :
    Cert.ReferenceIdeal.RefVal.gatheredR Wr = Cert.KernelIdeal.Val.gatheredK Wk := by
  obtain ⟨h0, h1, -⟩ := h
  funext r d
  unfold Cert.ReferenceIdeal.RefVal.gatheredR Cert.ReferenceIdeal.RefVal.gatherTerm Cert.KernelIdeal.Val.gatheredK
    Cert.KernelIdeal.Val.gatherOf
  rw [h0, h1]
  rfl

end Cert.Proof.Agree

end
-- ==== Proof.Claims.lean ====
/-
  The five claims. The idealised kernel's frame is the launch over the program's segments read at the argument
  buffers (the word-level kernel's, the same text at its own instance, is in ClaimsBits); the reference's frame is its run with the
  result dropped; the idealisation has an empty ledger; and at the ideal instance both programs' result arrays are,
  entry by entry, the model of the (agreeing) argument arrays: the kernel's by its launches and host stretches read
  back to the specification, the reference's by its operations read back to the same specification.
-/
import proofs.«415492_j738734375128_3_alg».proof.Defs
import proofs.«415492_j738734375128_3_alg».proof.Proof.Gen.Pre_finite_inputs
import proofs.«415492_j738734375128_3_alg».proof.Proof.KChain
import proofs.«415492_j738734375128_3_alg».proof.Proof.RefRun
import proofs.«415492_j738734375128_3_alg».proof.Proof.RefAssemble
import proofs.«415492_j738734375128_3_alg».proof.Proof.AgreeArgs

noncomputable section

namespace Cert.Proof.Claims

open Idealize.ShloMosaic Idealize.ShloMosaic.TcCoe Idealize.SL.Sem Idealize.ShloMosaic.ValueIdx

theorem frame_ki : Cert.frame_KernelIdeal := fun m ρ _ => Cert.KernelIdeal.Hand.frame_all m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Hand.W20 m ρ c (Proc.devRef .tc Cert.KernelIdeal.main_v337),
    Cert.KernelIdeal.Hand.result_all m ρ, ?_⟩
  refine (θ_run Cert.ReferenceIdeal.defs _ _).mono (fun _ h c => ⟨(h c).1.trans ?_, (h c).2⟩)
    (Cert.ReferenceIdeal.Value.run (F := Ideal) m' ρ')
  -- both arrays, entry by entry, are the model of the arguments
  funext i
  obtain ⟨b, t, v, rfl⟩ : ∃ (b : Fin 2) (t : Fin 1024) (v : Fin 50257), i = ix3 b t v := ⟨i 0, i 1, i 2, eq_ix3 i⟩
  have hR := Cert.ReferenceIdeal.RefVal.ref_value (StableHlo.launchContents (τ := Cert.ReferenceIdeal.τ) (sig := Cert.ReferenceIdeal.sig) m' c) b t v
  have hK := Cert.KernelIdeal.Val.kernel_value m ρ c b t v
  have hA := Cert.Proof.Agree.args_agree (Cert.KernelIdeal.Hand.W0 m ρ c) (StableHlo.launchContents (τ := Cert.ReferenceIdeal.τ) (sig := Cert.ReferenceIdeal.sig) m' c) (hagree c)
  have hG := Cert.Proof.Agree.gathered_agree (Cert.KernelIdeal.Hand.W0 m ρ c) (StableHlo.launchContents (τ := Cert.ReferenceIdeal.τ) (sig := Cert.ReferenceIdeal.sig) m' c) (hagree c)
  rw [hA, hG] at hR
  exact hR.trans hK.symm

end Cert.Proof.Claims

end
-- ==== Proof.Bits.Region0.lean ====
/- REGION 0: a launch of the attention kernel (custom call 0, pipeline 0; a grid of 8 points, windows 0..13
   read and window 14 written), stated at the contents `V` the TensorCore's buffers hold when the region is entered.

   At a point `t` the body reads the whole of each input window's staging buffer, which holds the window's block of
   its array at `t` (window 0 moves with the point; windows 1..13 have one block, brought in at the first point and
   found in place at every later one, the block index not having moved). It also reads the output window's own
   buffer once, a value it does not use, and then writes ONE value over the whole of the output window's buffer:
   the sum `k0_pay1` of block 0 and a projection of a gated ratio computed from the other thirteen blocks (spelled
   out at `out0_14`). So after the body the output buffer holds exactly that value, a pure function of the fourteen
   input blocks, whatever it held before, and every input buffer holds what it held. Nothing is kept between
   points: the invariant is the launch's own (`Pipeline.ΦA`), nothing is owed, every share is full. -/
import proofs.«415492_j738734375128_3_alg».proof.Proof.Gen.Kernel.Launch
import proofs.«415492_j738734375128_3_alg».proof.Proof.Gen.Kernel.Skeleton
import proofs.«415492_j738734375128_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the part of its array, as the region finds it, that the window shows there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point, brought in there or not: where the pipeline
    brings nothing in, the window's block index is the one of the point before, and the body left the block in
    place. This holds for ANY proof data over the entry contents `V` whose body leaves the window's block where it
    found it; windows 1..13, brought in at the first point only, are the case "not brought in" at points 1..7. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of an activation block, of a row vector, of a weight matrix: the three rectangles the body reads and
    writes through. -/
abbrev r0_A : Rect S256x1024 := Rect.unit (s := S256x1024) ![0, 0] S256x1024.size inb_S256x1024_S256x1024_0_0
abbrev r0_B : Rect S1x1024 := Rect.unit (s := S1x1024) ![0, 0] S1x1024.size inb_S1x1024_S1x1024_0_0
abbrev r0_C : Rect S1024x1024 := Rect.unit (s := S1024x1024) ![0, 0] S1024x1024.size inb_S1024x1024_S1024x1024_0_0

/-! ## What the body leaves in the output window's buffer -/

/-- Window 14's buffer after the body, from the fourteen input blocks: its one store, of the whole block. Write `x`
    for block 0, `pⱼ` / `bⱼ` for the row vector of window `j` spread over the 256 rows, `Wⱼ` for the matrix of
    window `j`, and `a ⬝ Wᵀ` for the product contracting the second axis of both, its left factor rounded to bf16.
    With `n` the rows of `x` centred and divided by the root of their variance plus a small constant, times `p₁`
    plus `p₂` (`k0_pay3`), and `mⱼ = n · pⱼ + p₃ · (1 − pⱼ)` the mixture of `n` and `p₃` by `pⱼ` (j = 4, 5, 6):
      `e = exp (b₇ + m₄ ⬝ W₁₀ᵀ)`                      (`k0_pay11`),
      `u = b₈ + e · (m₅ ⬝ W₁₁ᵀ)`                      (`k0_pay12`),
      `g = m₆ ⬝ W₁₂ᵀ`                                 (`k0_pay10`),
    and the value stored is `x + (logistic g · (u / (b₉ + e))) ⬝ W₁₃ᵀ` (`k0_pay1`; `b₉` is `k0_pay13`). Each operand
    is the load of a whole buffer, so it is the window's block itself read through the full rectangle. -/
def out0_14 (x0 : Vec F S256x1024 .f32) (x1 x2 x3 x4 x5 x6 x7 x8 x9 : Vec F S1x1024 .f32)
    (x10 x11 x12 x13 : Vec F S1024x1024 .bf16) : Vec F S256x1024 .f32 :=
  View.canon [⟨r0_A, k0_pay1 (k0_pay2 (View.ld x0 r0_A))
    (k0_pay10 (k0_pay3 (View.ld x0 r0_A) (View.ld x1 r0_B) (View.ld x2 r0_B)) (k0_pay4 (View.ld x3 r0_B)) (k0_pay7 (View.ld x6 r0_B)) (View.ld x12 r0_C))
    (k0_pay11 (k0_pay4 (View.ld x3 r0_B)) (k0_pay5 (View.ld x4 r0_B)) (k0_pay8 (View.ld x0 r0_A) (View.ld x1 r0_B) (View.ld x2 r0_B) (View.ld x4 r0_B)) (k0_pay9 (F := F)) (View.ld x10 r0_C) (View.ld x7 r0_B))
    (k0_pay12 (k0_pay3 (View.ld x0 r0_A) (View.ld x1 r0_B) (View.ld x2 r0_B)) (k0_pay4 (View.ld x3 r0_B)) (k0_pay5 (View.ld x4 r0_B)) (k0_pay6 (View.ld x5 r0_B))
      (k0_pay8 (View.ld x0 r0_A) (View.ld x1 r0_B) (View.ld x2 r0_B) (View.ld x4 r0_B)) (k0_pay9 (F := F)) (View.ld x10 r0_C) (View.ld x11 r0_C) (View.ld x7 r0_B) (View.ld x8 r0_B))
    (k0_pay13 (View.ld x9 r0_B))
    (View.ld x13 r0_C)⟩]

/-- The one store is of the whole block, so it covers it. -/
theorem cover0_14 (p0 : Vec F S256x1024 .f32) (y : S256x1024.Idx) :
    ∃ pc ∈ ([⟨r0_A, p0⟩] : List (View.Piece (Elt F) S256x1024 .f32)), y ∈ pc.1.set :=
  View.cover_of_tiled [⟨r0_A, p0⟩] S256x1024.size (by rfl) y

/-! ## The body's triple -/

set_option maxHeartbeats 1000000 in
/-- The body on whole staging memrefs, the inputs' at read contents `x0 … x13` and the output's at anything, runs to
    the continuation holding the inputs' as they were and the output's at `out0_14` of the inputs': every load reads
    the whole of a buffer whose contents are known (the output's own, read once and not used, at whatever it
    holds), and the one store covers the output's buffer. -/
theorem sound_kernel0 (c : Dev nD) (E : Set ℕ) (i : grid0.Coords)
    (arg1 : Memref sig .tc .vmem S256x1024 .f32) (harg1 : arg1.IsWhole)
    (arg2 : Memref sig .tc .vmem S1x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S1024x1024 .bf16) (harg11 : arg11.IsWhole)
    (arg12 : Memref sig .tc .vmem S1024x1024 .bf16) (harg12 : arg12.IsWhole)
    (arg13 : Memref sig .tc .vmem S1024x1024 .bf16) (harg13 : arg13.IsWhole)
    (arg14 : Memref sig .tc .vmem S1024x1024 .bf16) (harg14 : arg14.IsWhole)
    (arg15 : Memref sig .tc .vmem S256x1024 .f32) (harg15 : arg15.IsWhole)
    (x0 : Vec F S256x1024 .f32) (x1 x2 x3 x4 x5 x6 x7 x8 x9 : Vec F S1x1024 .f32)
    (x10 x11 x12 x13 : Vec F S1024x1024 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare (out0_14 x0 x1 x2 x3 x4 x5 x6 x7 x8 x9 x10 x11 x12 x13)) -∗ K ⟨⟩))
      ⊢ wp frame (wpE (defs₀ (F := F)) Variants.none c none) E
          (cc0_attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  sl_unfold [cc0_attn_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover0_14 _)

/-! ## The pipeline's proof data -/

/-- The proof data of pipeline 0 on core `c`: the arrays as the region finds them; after the body at point `t` each
    input's buffer at its block and the output's at `out0_14` of the input blocks; the invariant the launch's own
    (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window: an input's block, and the output's one store. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) :
    (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by
  dsimp only [dat0]

/-- Each input's current staging buffer holds its block at every point, brought in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

set_option maxHeartbeats 1000000 in
/-- The body at any point: the inputs' memrefs hold their blocks, so the body's triple applies at those blocks; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel0 c Set.univ _ _ _ _ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends, the shares, the debts -/

/-- The invariant before the first point is what the launch hands the kernel, -/
theorem Phi0_in (c : Dev nD) :
    (Pipeline.ΦA (U := UR sig nD τ) (Val := Elt F) spec0 c : sProp 𝕄) ⊢ (dat0 V c).Φ 0 := .rfl

/-- and after the last point what the launch takes back. -/
theorem Phi0_out (c : Dev nD) :
    (dat0 V c).Φ (Fin.last cfg0.N) ⊢ (Pipeline.ΦA (U := UR sig nD τ) (Val := Elt F) spec0 c : sProp 𝕄) := .rfl

theorem share0 (c : Dev nD) : ∀ w, (dat0 V c).q w = fullShare := fun _ => rfl
theorem owed0 (c : Dev nD) : ∀ t, (dat0 V c).owed t = 0 := fun _ => rfl

/-- The proof data records every pair of cells (the structure's default): nothing is excluded from what the core may be owed. -/
theorem recorded0 (c : Dev nD) : ∀ t, (dat0 V c).recorded t = Set.univ := fun _ => rfl

end Cert.Kernel.Hand

end
-- ==== Proof.Bits.Region1.lean ====
/- Region 1 of the program's main function: the second TensorCore call (the feed-forward kernel), at a parameter `V`,
   the TensorCore's buffer contents when the region is entered. The call runs on a grid of 32 points, 8 row tiles by 4
   chunks; it carries two scratch buffers from point to point (an accumulator, and a second buffer
   filled at a tile's first chunk and read at its last) and stores its output block at the last chunk of each tile. This module gives: each window's
   block at a point; the body's triple in each of the three cases of its two conditionals; what the scratch buffers
   hold before each point, by recursion on the point; the pipeline's proof data, whose invariant holds the scratch
   buffers at those contents; the body obligation; and the passage from the class's invariant into this one and back. -/
import proofs.«415492_j738734375128_3_alg».proof.Proof.Gen.Kernel.Launch
import proofs.«415492_j738734375128_3_alg».proof.Proof.Gen.Kernel.Skeleton
import proofs.«415492_j738734375128_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: custom_call 1, `cc1_ffn_kernel` (pipeline 1), at the entry contents `V`

The grid has 32 points: 8 row tiles times 4 chunks, the chunk the fast coordinate. Windows 0 to 8
are inputs, window 9 the output, written back at the points of chunk 3. Two scratch buffers are carried from point to
point: an accumulator, zeroed at chunk 0 and added to at every chunk, and a second buffer filled at chunk 0 and read
at chunk 3. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof data
    whose array is `V`'s and whose body leaves the block in place: unfetched, the block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof data
    whose array is `V`'s and whose body leaves the block in place: unfetched, the block index has not moved. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The two conditionals, decided over the grid -/

/-- The first conditional's condition (the chunk coordinate is 0), as the body computes it from the grid coordinates. -/
abbrev cond1_0 (i : grid1.Coords) : Prop := (Scalar.cmpi .ne (Scalar.extui (Scalar.cmpi .eq (BitVec.ofNat 32 (i 1).val) 0#32)) 0#32) = 1#1
/-- It holds exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional's condition (the chunk coordinate is 3). -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## The body's triple, one per case of the conditionals -/
set_option maxHeartbeats 1000000 in
/-- The body at a point of chunk 0, on whole memrefs: the inputs at their read contents, the output buffer and both
    scratch buffers at anything. It refills the second scratch from the inputs, zeroes the accumulator and adds the
    chunk's partial product to it; the output buffer is not touched. -/
theorem sound_kernel1_A (c : Dev nD) (E : Set ℕ) (i : grid1.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : cond1_0 i) (hlc : ¬cond1_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare (k1_pay3 (k1_pay10 xa xb xc xe) (k1_pay11 xd xe) xg k1_pay2 xi) ∗ owns (c : Thread nD τ) arg13 fullShare (k1_pay1 (k1_pay6 xa xb xc) (k1_pay7 xd) (k1_pay9 xf) xh)) -∗ K ⟨⟩))
      ⊢ wp frame (wpE (defs₀ (F := F)) Variants.none c none) E (cc1_ffn_kernel i arg2 harg2 arg3 harg3 arg4 harg4 arg5 harg5 arg6 harg6 arg7 harg7 arg8 harg8 arg9 harg9 arg10 harg10 arg11 harg11 arg12 harg12 arg13 harg13) K := by
  simp only [cc1_ffn_kernel_eq_skeleton]; unfold cc1_ffn_kernel_skel
  simp only [k1_part1_eq_skeleton]; unfold k1_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists _; isplitr
  swap; · iexact Hl
  ipureintro
  refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
  sl_unfold_run_names
  simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]

set_option maxHeartbeats 1000000 in
/-- The body at a point of chunk 1 or 2: the accumulator at `a` gains the chunk's partial product; the second scratch
    and the output buffer are not touched. -/
theorem sound_kernel1_B (c : Dev nD) (E : Set ℕ) (i : grid1.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : ¬cond1_0 i) (hlc : ¬cond1_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare (k1_pay3 (k1_pay10 xa xb xc xe) (k1_pay11 xd xe) xg a xi) ∗ owns (c : Thread nD τ) arg13 fullShare r) -∗ K ⟨⟩))
      ⊢ wp frame (wpE (defs₀ (F := F)) Variants.none c none) E (cc1_ffn_kernel i arg2 harg2 arg3 harg3 arg4 harg4 arg5 harg5 arg6 harg6 arg7 harg7 arg8 harg8 arg9 harg9 arg10 harg10 arg11 harg11 arg12 harg12 arg13 harg13) K := by
  simp only [cc1_ffn_kernel_eq_skeleton]; unfold cc1_ffn_kernel_skel
  simp only [k1_part1_eq_skeleton]; unfold k1_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists fl; isplitr; · ipureintro; rfl
  iexact Hl

set_option maxHeartbeats 1000000 in
/-- The body at a point of chunk 3: the accumulator gains the last partial product, and the output buffer is stored
    whole, from the input block, the second scratch and the finished accumulator. -/
theorem sound_kernel1_C (c : Dev nD) (E : Set ℕ) (i : grid1.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : ¬cond1_0 i) (hlc : cond1_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare (k1_pay4 (k1_pay5 xa) r (k1_pay3 (k1_pay10 xa xb xc xe) (k1_pay11 xd xe) xg a xi)) ∗ owns (c : Thread nD τ) arg12 fullShare (k1_pay3 (k1_pay10 xa xb xc xe) (k1_pay11 xd xe) xg a xi) ∗ owns (c : Thread nD τ) arg13 fullShare r) -∗ K ⟨⟩))
      ⊢ wp frame (wpE (defs₀ (F := F)) Variants.none c none) E (cc1_ffn_kernel i arg2 harg2 arg3 harg3 arg4 harg4 arg5 harg5 arg6 harg6 arg7 harg7 arg8 harg8 arg9 harg9 arg10 harg10 arg11 harg11 arg12 harg12 arg13 harg13) K := by
  simp only [cc1_ffn_kernel_eq_skeleton]; unfold cc1_ffn_kernel_skel
  simp only [k1_part1_eq_skeleton]; unfold k1_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists _; isplitr
    swap; · iexact Hj
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists fl; isplitr; · ipureintro; rfl
  iexact Hl

/-! ## The carried scratch, point by point -/

/-- What the two scratch buffers hold BEFORE point `n` (after point `n - 1`), as the pair (accumulator, second
    buffer), by recursion on the point: a point of chunk 0 refills the second buffer from its input blocks and leaves
    the accumulator at the chunk's partial product over zero; any other point keeps the second buffer and adds its
    partial product to the accumulator. Before a point of chunk 0 the value is never read (the body overwrites both
    buffers there before loading them). -/
def sc1 (c : Dev nD) : ℕ → Vec F S256x1024 .f32 × Vec F S256x1024 .f32
  | 0 => (k1_pay2, k1_pay2)
  | n + 1 =>
    if h : n < cfg1.N then
      if n % 4 = 0 then
        ((k1_pay3 (k1_pay10 (iblk1 V c 0 ⟨n, h⟩) (iblk1 V c 1 ⟨n, h⟩) (iblk1 V c 2 ⟨n, h⟩) (iblk1 V c 4 ⟨n, h⟩)) (k1_pay11 (iblk1 V c 3 ⟨n, h⟩) (iblk1 V c 4 ⟨n, h⟩)) (iblk1 V c 6 ⟨n, h⟩) k1_pay2 (iblk1 V c 8 ⟨n, h⟩)),
          (k1_pay1 (k1_pay6 (iblk1 V c 0 ⟨n, h⟩) (iblk1 V c 1 ⟨n, h⟩) (iblk1 V c 2 ⟨n, h⟩)) (k1_pay7 (iblk1 V c 3 ⟨n, h⟩)) (k1_pay9 (iblk1 V c 5 ⟨n, h⟩)) (iblk1 V c 7 ⟨n, h⟩)))
      else
        ((k1_pay3 (k1_pay10 (iblk1 V c 0 ⟨n, h⟩) (iblk1 V c 1 ⟨n, h⟩) (iblk1 V c 2 ⟨n, h⟩) (iblk1 V c 4 ⟨n, h⟩)) (k1_pay11 (iblk1 V c 3 ⟨n, h⟩) (iblk1 V c 4 ⟨n, h⟩)) (iblk1 V c 6 ⟨n, h⟩) (sc1 c n).1 (iblk1 V c 8 ⟨n, h⟩)),
          (sc1 c n).2)
    else sc1 c n

/-- After a point of chunk 0: the accumulator is the chunk's partial product over zero, the second buffer is refilled. -/
theorem sc1_zero_chunk (c : Dev nD) (t : Fin cfg1.N) (h : t.val % 4 = 0) :
    sc1 V c (t.val + 1) = ((k1_pay3 (k1_pay10 (iblk1 V c 0 t) (iblk1 V c 1 t) (iblk1 V c 2 t) (iblk1 V c 4 t)) (k1_pay11 (iblk1 V c 3 t) (iblk1 V c 4 t)) (iblk1 V c 6 t) k1_pay2 (iblk1 V c 8 t)),
      (k1_pay1 (k1_pay6 (iblk1 V c 0 t) (iblk1 V c 1 t) (iblk1 V c 2 t)) (k1_pay7 (iblk1 V c 3 t)) (k1_pay9 (iblk1 V c 5 t)) (iblk1 V c 7 t))) := by
  obtain ⟨n, hn⟩ := t
  show sc1 V c (n + 1) = _
  rw [sc1, dif_pos hn, if_pos h]

/-- After a point of any other chunk: the accumulator has gained the chunk's partial product, the second buffer is kept. -/
theorem sc1_succ (c : Dev nD) (t : Fin cfg1.N) (h : ¬t.val % 4 = 0) :
    sc1 V c (t.val + 1) = ((k1_pay3 (k1_pay10 (iblk1 V c 0 t) (iblk1 V c 1 t) (iblk1 V c 2 t) (iblk1 V c 4 t)) (k1_pay11 (iblk1 V c 3 t) (iblk1 V c 4 t)) (iblk1 V c 6 t) (sc1 V c t.val).1 (iblk1 V c 8 t)),
      (sc1 V c t.val).2) := by
  obtain ⟨n, hn⟩ := t
  show sc1 V c (n + 1) = _
  rw [sc1, dif_pos hn, if_neg h]

/-- What a point of chunk 3 stores into the output window's buffer: from the point's block of window 0, the second
    scratch buffer and the accumulator as that point leaves them. -/
def out1_9 (c : Dev nD) (t : Fin cfg1.N) : Vec F S256x1024 .f32 :=
  k1_pay4 (k1_pay5 (iblk1 V c 0 t)) (sc1 V c (t.val + 1)).2 (sc1 V c (t.val + 1)).1

/-- The region invariant before point `n`: the two scratch buffers — at anything before a point of chunk 0, which
    overwrites them, else at `sc1` —, the rest of the core's scoped buffers unopened, the generator register at some
    state. -/
def Phi1 (c : Dev nD) (n : ℕ) : sProp 𝕄 :=
  iprop(iprop((if n % 4 = 0 then
        (iprop((∃ X, owns (c : Thread nD τ) (Memref.whole cc1_scratch0) fullShare X) ∗ (∃ X, owns (c : Thread nD τ) (Memref.whole cc1_scratch1) fullShare X)) : sProp 𝕄)
      else iprop(owns (c : Thread nD τ) (Memref.whole cc1_scratch0) fullShare (sc1 V c n).1 ∗ owns (c : Thread nD τ) (Memref.whole cc1_scratch1) fullShare (sc1 V c n).2))
    ∗ Pipeline.scopedRestBut (Ix := Unit) (Name := ℕ) (U := UR sig nD τ) (Lvl := ℕ) (Val := Elt F) spec1 c [cc1_scratch0, cc1_scratch1]) ∗ ∃ r, prngReg c r)

/-! ## The pipeline's proof data -/

/-- The proof data of pipeline 1 on core `c`: the arrays as the region finds them (`V`); after the body at point `t`
    each input's buffer at its block and the output's at `out1_9` (read only at the points of chunk 3: elsewhere the
    window is idle and not written back); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 V c t
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9_all (c : Dev nD) (t : Fin cfg1.N) : (dat1 V c).after 9 t = out1_9 V c t := by dsimp only [dat1]
theorem after1_9 (c : Dev nD) (t : Fin cfg1.N) (h : t.val % 4 = 3) : (dat1 V c).after 9 t = out1_9 V c t := after1_9_all V c t

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- The invariant at a point's start and at its end, restated at the point's number. -/
theorem Phi1_castSucc (c : Dev nD) (t : Fin cfg1.N) : (dat1 V c).Φ t.castSucc = Phi1 V c t.val := rfl
theorem Phi1_succ (c : Dev nD) (t : Fin cfg1.N) : (dat1 V c).Φ t.succ = Phi1 V c (t.val + 1) := rfl

/-- Off chunk 3 the output window is idle and not written back: the obligation hands its buffer back as found. -/
theorem leaves1_9_idle (c : Dev nD) (t : Fin cfg1.N) (h : ¬cond1_1 (grid1.coords t)) :
    (dat1 V c).leavesExact 9 t = iprop(∃ d, owns (c : Thread nD τ) (st1_9 t) fullShare ((dat1 V c).before 9 t d)) :=
  (dat1 V c).leavesExact_idle 9 t
    (by show (!(k1_cond2 (grid1.coords t) == 1#1)) = true
        rw [Bool.not_eq_true', beq_eq_false_iff_ne]; exact h)
    (Bool.eq_false_iff.mpr fun hfl => h ((hcond1_1 t).mpr ((flush1_9 t).mp hfl)))

/-- At chunk 3 it is live: its buffer is left at what the body stored. -/
theorem leaves1_9_live (c : Dev nD) (t : Fin cfg1.N) (h : cond1_1 (grid1.coords t)) :
    (dat1 V c).leavesExact 9 t = owns (c : Thread nD τ) (st1_9 t) fullShare ((dat1 V c).after 9 t) := by
  have hi : cfg1.idle 9 (cfg1.grid.coords t) = false := by
    show (!(k1_cond2 (grid1.coords t) == 1#1)) = false
    rw [Bool.not_eq_false', beq_iff_eq]; exact h
  unfold Dat.leavesExact; rw [hi]

/-! ## The body obligation, at a generic point -/

/-- What the body is called with at point `t`: the invariant, what the core owes, every window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns: the invariant at the next point, the inputs' buffers as they were, the output's as the window's
    schedule has it (stored at chunk 3, handed back as found elsewhere). -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ (dat1 V c).leavesExact 9 t)

set_option maxHeartbeats 1000000 in
/-- The body at any point, by the point's chunk: the inputs' memrefs hold their blocks, the scratch buffers what the
    invariant says, so that chunk's triple applies; what it leaves in the scratch buffers is the invariant at the
    next point (`sc1`'s recursion), forgotten again after chunk 3. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl,
    after1_0, after1_1, after1_2, after1_3, after1_4, after1_5, after1_6, after1_7, after1_8, Phi1_castSucc, Phi1_succ]
  unfold Phi1
  by_cases hA : t.val % 4 = 0
  · have hzc : cond1_0 (grid1.coords t) := (hcond1_0 t).mpr hA
    have hlc : ¬cond1_1 (grid1.coords t) := fun h => by have := (hcond1_1 t).mp h; omega
    rw [leaves1_9_idle V c t hlc, if_pos hA, if_neg (show ¬(t.val + 1) % 4 = 0 by omega), sc1_zero_chunk V c t hA]
    iintro ⟨⟨⟨⟨⟨%gacc, Hacc⟩, ⟨%grr, Hrr⟩⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply (sound_kernel1_A c Set.univ _ _ _ _ _ _ _ _ _ _ _ _ _ _ _ _ _ _ _ _ _ _ _ _ _ hzc hlc (iblk1 V c 0 t) (iblk1 V c 1 t) (iblk1 V c 2 t) (iblk1 V c 3 t) (iblk1 V c 4 t) (iblk1 V c 5 t) (iblk1 V c 6 t) (iblk1 V c 7 t) (iblk1 V c 8 t) _ _ _ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    isplitl [Hi]; · iexact Hi
    isplitl [Hj]; · iexact Hj
    isplitl [Hacc]; · iexact Hacc
    isplitl [Hrr]; · iexact Hrr
    iintro ⟨Ha, Hb, Hc, Hd, He, Hf, Hg, Hh, Hi, Hj, Hacc, Hrr⟩
    isplitl [Hacc Hrr Hrest Hp]
    · isplitr [Hp]
      · isplitr [Hrest]
        · isplitl [Hacc]; · iexact Hacc
          iexact Hrr
        · iexact Hrest
      · iexact Hp
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    isplitl [Hi]; · iexact Hi
    iexists dj; iexact Hj

  · have hzc : ¬cond1_0 (grid1.coords t) := fun h => hA ((hcond1_0 t).mp h)
    by_cases hC : t.val % 4 = 3
    · have hlc : cond1_1 (grid1.coords t) := (hcond1_1 t).mpr hC
      rw [leaves1_9_live V c t hlc, after1_9_all, if_neg hA, if_pos (show (t.val + 1) % 4 = 0 by omega)]
      iintro ⟨⟨⟨⟨Hacc, Hrr⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
      iapply (sound_kernel1_C c Set.univ _ _ _ _ _ _ _ _ _ _ _ _ _ _ _ _ _ _ _ _ _ _ _ _ _ hzc hlc (iblk1 V c 0 t) (iblk1 V c 1 t) (iblk1 V c 2 t) (iblk1 V c 3 t) (iblk1 V c 4 t) (iblk1 V c 5 t) (iblk1 V c 6 t) (iblk1 V c 7 t) (iblk1 V c 8 t) _ _ _ _)
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [Hj]; · iexact Hj
      isplitl [Hacc]; · iexact Hacc
      isplitl [Hrr]; · iexact Hrr
      iintro ⟨Ha, Hb, Hc, Hd, He, Hf, Hg, Hh, Hi, Hj, Hacc, Hrr⟩
      isplitl [Hacc Hrr Hrest Hp]
      · isplitr [Hp]
        · isplitr [Hrest]
          · isplitl [Hacc]
            · iexists _; iexact Hacc
            iexists _; iexact Hrr
          · iexact Hrest
        · iexact Hp
      isplitl [Ho]; · iexact Ho
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      unfold out1_9; rw [sc1_succ V c t hA]
      iexact Hj

    · have hlc : ¬cond1_1 (grid1.coords t) := fun h => hC ((hcond1_1 t).mp h)
      rw [leaves1_9_idle V c t hlc, if_neg hA, if_neg (show ¬(t.val + 1) % 4 = 0 by omega), sc1_succ V c t hA]
      iintro ⟨⟨⟨⟨Hacc, Hrr⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
      iapply (sound_kernel1_B c Set.univ _ _ _ _ _ _ _ _ _ _ _ _ _ _ _ _ _ _ _ _ _ _ _ _ _ hzc hlc (iblk1 V c 0 t) (iblk1 V c 1 t) (iblk1 V c 2 t) (iblk1 V c 3 t) (iblk1 V c 4 t) (iblk1 V c 5 t) (iblk1 V c 6 t) (iblk1 V c 7 t) (iblk1 V c 8 t) _ _ _ _)
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [Hj]; · iexact Hj
      isplitl [Hacc]; · iexact Hacc
      isplitl [Hrr]; · iexact Hrr
      iintro ⟨Ha, Hb, Hc, Hd, He, Hf, Hg, Hh, Hi, Hj, Hacc, Hrr⟩
      isplitl [Hacc Hrr Hrest Hp]
      · isplitr [Hp]
        · isplitr [Hrest]
          · isplitl [Hacc]; · iexact Hacc
            iexact Hrr
          · iexact Hrest
        · iexact Hp
      isplitl [Ho]; · iexact Ho
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      iexists dj; iexact Hj

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- The class's invariant gives the invariant before the first point: the scoped rest split at the two scratch buffers,
    each at whatever it holds. -/
theorem Phi1_in (c : Dev nD) : (Pipeline.ΦA (U := UR sig nD τ) (Val := Elt F) spec1 c : sProp 𝕄) ⊢ (dat1 V c).Φ 0 := by
  show _ ⊢ Phi1 V c 0
  unfold Pipeline.ΦA Phi1
  rw [scopedRest1_split, if_pos (Nat.zero_mod 4)]
  iintro ⟨⟨⟨⟨%gacc, Hacc⟩, ⟨%grr, Hrr⟩⟩, Hrest⟩, Hp⟩
  isplitr [Hp]
  · isplitr [Hrest]
    · isplitl [Hacc]
      · iexists gacc; rw [owns_whole]; iexact Hacc
      · iexists grr; rw [owns_whole]; iexact Hrr
    · iexact Hrest
  · iexact Hp

/-- After the last point (of chunk 3) the scratch buffers' contents are forgotten: the class's invariant again. -/
theorem Phi1_out (c : Dev nD) : (dat1 V c).Φ (Fin.last cfg1.N) ⊢ (Pipeline.ΦA (U := UR sig nD τ) (Val := Elt F) spec1 c : sProp 𝕄) := by
  show Phi1 V c cfg1.N ⊢ _
  unfold Pipeline.ΦA Phi1
  rw [scopedRest1_split, if_pos (show cfg1.N % 4 = 0 by rw [show cfg1.N = 32 from N_1])]
  iintro ⟨⟨⟨⟨%gacc, Hacc⟩, ⟨%grr, Hrr⟩⟩, Hrest⟩, Hp⟩
  isplitr [Hp]
  · isplitr [Hrest]
    · isplitl [Hacc]
      · iexists gacc; rw [← owns_whole]; iexact Hacc
      · iexists grr; rw [← owns_whole]; iexact Hrr
    · iexact Hrest
  · iexact Hp

theorem share1 (c : Dev nD) : ∀ w, (dat1 V c).q w = fullShare := fun _ => rfl
theorem owed1 (c : Dev nD) : ∀ t, (dat1 V c).owed t = 0 := fun _ => rfl
theorem recorded1 (c : Dev nD) : ∀ t, (dat1 V c).recorded t = Set.univ := fun _ => rfl

end Cert.Kernel.Hand

end
-- ==== Proof.Bits.Region2.lean ====
/- REGION 2: a launch of the attention kernel (custom call 2, pipeline 2; a grid of 8 points, windows 0..13
   read and window 14 written), stated at the contents `V` the TensorCore's buffers hold when the region is entered.

   At a point `t` the body reads the whole of each input window's staging buffer, which holds the window's block of
   its array at `t` (window 0 moves with the point; windows 1..13 have one block, brought in at the first point and
   found in place at every later one, the block index not having moved). It also reads the output window's own
   buffer once, a value it does not use, and then writes ONE value over the whole of the output window's buffer:
   the sum `k2_pay1` of block 0 and a projection of a gated ratio computed from the other thirteen blocks (spelled
   out at `out2_14`). So after the body the output buffer holds exactly that value, a pure function of the fourteen
   input blocks, whatever it held before, and every input buffer holds what it held. Nothing is kept between
   points: the invariant is the launch's own (`Pipeline.ΦA`), nothing is owed, every share is full. -/
import proofs.«415492_j738734375128_3_alg».proof.Proof.Gen.Kernel.Launch
import proofs.«415492_j738734375128_3_alg».proof.Proof.Gen.Kernel.Skeleton
import proofs.«415492_j738734375128_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the part of its array, as the region finds it, that the window shows there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current buffer holds its block at every point, brought in there or not: where the pipeline
    brings nothing in, the window's block index is the one of the point before, and the body left the block in
    place. This holds for ANY proof data over the entry contents `V` whose body leaves the window's block where it
    found it; windows 1..13, brought in at the first point only, are the case "not brought in" at points 1..7. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of an activation block, of a row vector, of a weight matrix: the three rectangles the body reads and
    writes through. -/
abbrev r2_A : Rect S256x1024 := Rect.unit (s := S256x1024) ![0, 0] S256x1024.size inb_S256x1024_S256x1024_0_0
abbrev r2_B : Rect S1x1024 := Rect.unit (s := S1x1024) ![0, 0] S1x1024.size inb_S1x1024_S1x1024_0_0
abbrev r2_C : Rect S1024x1024 := Rect.unit (s := S1024x1024) ![0, 0] S1024x1024.size inb_S1024x1024_S1024x1024_0_0

/-! ## What the body leaves in the output window's buffer -/

/-- Window 14's buffer after the body, from the fourteen input blocks: its one store, of the whole block. Write `x`
    for block 0, `pⱼ` / `bⱼ` for the row vector of window `j` spread over the 256 rows, `Wⱼ` for the matrix of
    window `j`, and `a ⬝ Wᵀ` for the product contracting the second axis of both, its left factor rounded to bf16.
    With `n` the rows of `x` centred and divided by the root of their variance plus a small constant, times `p₁`
    plus `p₂` (`k2_pay3`), and `mⱼ = n · pⱼ + p₃ · (1 − pⱼ)` the mixture of `n` and `p₃` by `pⱼ` (j = 4, 5, 6):
      `e = exp (b₇ + m₄ ⬝ W₁₀ᵀ)`                      (`k2_pay11`),
      `u = b₈ + e · (m₅ ⬝ W₁₁ᵀ)`                      (`k2_pay12`),
      `g = m₆ ⬝ W₁₂ᵀ`                                 (`k2_pay10`),
    and the value stored is `x + (logistic g · (u / (b₉ + e))) ⬝ W₁₃ᵀ` (`k2_pay1`; `b₉` is `k2_pay13`). Each operand
    is the load of a whole buffer, so it is the window's block itself read through the full rectangle. -/
def out2_14 (x0 : Vec F S256x1024 .f32) (x1 x2 x3 x4 x5 x6 x7 x8 x9 : Vec F S1x1024 .f32)
    (x10 x11 x12 x13 : Vec F S1024x1024 .bf16) : Vec F S256x1024 .f32 :=
  View.canon [⟨r2_A, k2_pay1 (k2_pay2 (View.ld x0 r2_A))
    (k2_pay10 (k2_pay3 (View.ld x0 r2_A) (View.ld x1 r2_B) (View.ld x2 r2_B)) (k2_pay4 (View.ld x3 r2_B)) (k2_pay7 (View.ld x6 r2_B)) (View.ld x12 r2_C))
    (k2_pay11 (k2_pay4 (View.ld x3 r2_B)) (k2_pay5 (View.ld x4 r2_B)) (k2_pay8 (View.ld x0 r2_A) (View.ld x1 r2_B) (View.ld x2 r2_B) (View.ld x4 r2_B)) (k2_pay9 (F := F)) (View.ld x10 r2_C) (View.ld x7 r2_B))
    (k2_pay12 (k2_pay3 (View.ld x0 r2_A) (View.ld x1 r2_B) (View.ld x2 r2_B)) (k2_pay4 (View.ld x3 r2_B)) (k2_pay5 (View.ld x4 r2_B)) (k2_pay6 (View.ld x5 r2_B))
      (k2_pay8 (View.ld x0 r2_A) (View.ld x1 r2_B) (View.ld x2 r2_B) (View.ld x4 r2_B)) (k2_pay9 (F := F)) (View.ld x10 r2_C) (View.ld x11 r2_C) (View.ld x7 r2_B) (View.ld x8 r2_B))
    (k2_pay13 (View.ld x9 r2_B))
    (View.ld x13 r2_C)⟩]

/-- The one store is of the whole block, so it covers it. -/
theorem cover2_14 (p0 : Vec F S256x1024 .f32) (y : S256x1024.Idx) :
    ∃ pc ∈ ([⟨r2_A, p0⟩] : List (View.Piece (Elt F) S256x1024 .f32)), y ∈ pc.1.set :=
  View.cover_of_tiled [⟨r2_A, p0⟩] S256x1024.size (by rfl) y

/-! ## The body's triple -/

set_option maxHeartbeats 1000000 in
/-- The body on whole staging memrefs, the inputs' at read contents `x0 … x13` and the output's at anything, runs to
    the continuation holding the inputs' as they were and the output's at `out2_14` of the inputs': every load reads
    the whole of a buffer whose contents are known (the output's own, read once and not used, at whatever it
    holds), and the one store covers the output's buffer. -/
theorem sound_kernel2 (c : Dev nD) (E : Set ℕ) (i : grid2.Coords)
    (arg1 : Memref sig .tc .vmem S256x1024 .f32) (harg1 : arg1.IsWhole)
    (arg2 : Memref sig .tc .vmem S1x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S1024x1024 .bf16) (harg11 : arg11.IsWhole)
    (arg12 : Memref sig .tc .vmem S1024x1024 .bf16) (harg12 : arg12.IsWhole)
    (arg13 : Memref sig .tc .vmem S1024x1024 .bf16) (harg13 : arg13.IsWhole)
    (arg14 : Memref sig .tc .vmem S1024x1024 .bf16) (harg14 : arg14.IsWhole)
    (arg15 : Memref sig .tc .vmem S256x1024 .f32) (harg15 : arg15.IsWhole)
    (x0 : Vec F S256x1024 .f32) (x1 x2 x3 x4 x5 x6 x7 x8 x9 : Vec F S1x1024 .f32)
    (x10 x11 x12 x13 : Vec F S1024x1024 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare (out2_14 x0 x1 x2 x3 x4 x5 x6 x7 x8 x9 x10 x11 x12 x13)) -∗ K ⟨⟩))
      ⊢ wp frame (wpE (defs₀ (F := F)) Variants.none c none) E
          (cc2_attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  sl_unfold [cc2_attn_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover2_14 _)

/-! ## The pipeline's proof data -/

/-- The proof data of pipeline 2 on core `c`: the arrays as the region finds them; after the body at point `t` each
    input's buffer at its block and the output's at `out2_14` of the input blocks; the invariant the launch's own
    (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window: an input's block, and the output's one store. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) :
    (dat2 V c).after 14 t = out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) := by
  dsimp only [dat2]

/-- Each input's current staging buffer holds its block at every point, brought in there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t))

set_option maxHeartbeats 1000000 in
/-- The body at any point: the inputs' memrefs hold their blocks, so the body's triple applies at those blocks; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel2 c Set.univ _ _ _ _ _ _ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's ends, the shares, the debts -/

/-- The invariant before the first point is what the launch hands the kernel, -/
theorem Phi2_in (c : Dev nD) :
    (Pipeline.ΦA (U := UR sig nD τ) (Val := Elt F) spec2 c : sProp 𝕄) ⊢ (dat2 V c).Φ 0 := .rfl

/-- and after the last point what the launch takes back. -/
theorem Phi2_out (c : Dev nD) :
    (dat2 V c).Φ (Fin.last cfg2.N) ⊢ (Pipeline.ΦA (U := UR sig nD τ) (Val := Elt F) spec2 c : sProp 𝕄) := .rfl

theorem share2 (c : Dev nD) : ∀ w, (dat2 V c).q w = fullShare := fun _ => rfl
theorem owed2 (c : Dev nD) : ∀ t, (dat2 V c).owed t = 0 := fun _ => rfl

/-- The proof data records every pair of cells (the structure's default): nothing is excluded from what the core may be owed. -/
theorem recorded2 (c : Dev nD) : ∀ t, (dat2 V c).recorded t = Set.univ := fun _ => rfl

end Cert.Kernel.Hand

end
-- ==== Proof.Bits.Region3.lean ====
/- Region 1 of the program's main function: the second TensorCore call (the feed-forward kernel), at a parameter `V`,
   the TensorCore's buffer contents when the region is entered. The call runs on a grid of 32 points, 8 row tiles by 4
   chunks; it carries two scratch buffers from point to point (an accumulator, and a second buffer
   filled at a tile's first chunk and read at its last) and stores its output block at the last chunk of each tile. This module gives: each window's
   block at a point; the body's triple in each of the three cases of its two conditionals; what the scratch buffers
   hold before each point, by recursion on the point; the pipeline's proof data, whose invariant holds the scratch
   buffers at those contents; the body obligation; and the passage from the class's invariant into this one and back. -/
import proofs.«415492_j738734375128_3_alg».proof.Proof.Gen.Kernel.Launch
import proofs.«415492_j738734375128_3_alg».proof.Proof.Gen.Kernel.Skeleton
import proofs.«415492_j738734375128_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: custom_call 3, `cc3_ffn_kernel` (pipeline 3), at the entry contents `V`

The grid has 32 points: 8 row tiles times 4 chunks, the chunk the fast coordinate. Windows 0 to 8
are inputs, window 9 the output, written back at the points of chunk 3. Two scratch buffers are carried from point to
point: an accumulator, zeroed at chunk 0 and added to at every chunk, and a second buffer filled at chunk 0 and read
at chunk 3. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data
    whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof data
    whose array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof data
    whose array is `V`'s and whose body leaves the block in place: unfetched, the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not, for any proof data
    whose array is `V`'s and whose body leaves the block in place: unfetched, the block index has not moved. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not, for any proof data
    whose array is `V`'s and whose body leaves the block in place: unfetched, the block index has not moved. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The two conditionals, decided over the grid -/

/-- The first conditional's condition (the chunk coordinate is 0), as the body computes it from the grid coordinates. -/
abbrev cond3_0 (i : grid3.Coords) : Prop := (Scalar.cmpi .ne (Scalar.extui (Scalar.cmpi .eq (BitVec.ofNat 32 (i 1).val) 0#32)) 0#32) = 1#1
/-- It holds exactly at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)
/-- The second conditional's condition (the chunk coordinate is 3). -/
abbrev cond3_1 (i : grid3.Coords) : Prop := k3_cond2 i = 1#1
/-- It holds exactly at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## The body's triple, one per case of the conditionals -/
set_option maxHeartbeats 1000000 in
/-- The body at a point of chunk 0, on whole memrefs: the inputs at their read contents, the output buffer and both
    scratch buffers at anything. It refills the second scratch from the inputs, zeroes the accumulator and adds the
    chunk's partial product to it; the output buffer is not touched. -/
theorem sound_kernel3_A (c : Dev nD) (E : Set ℕ) (i : grid3.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : cond3_0 i) (hlc : ¬cond3_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare (k3_pay3 (k3_pay10 xa xb xc xe) (k3_pay11 xd xe) xg k3_pay2 xi) ∗ owns (c : Thread nD τ) arg13 fullShare (k3_pay1 (k3_pay6 xa xb xc) (k3_pay7 xd) (k3_pay9 xf) xh)) -∗ K ⟨⟩))
      ⊢ wp frame (wpE (defs₀ (F := F)) Variants.none c none) E (cc3_ffn_kernel i arg2 harg2 arg3 harg3 arg4 harg4 arg5 harg5 arg6 harg6 arg7 harg7 arg8 harg8 arg9 harg9 arg10 harg10 arg11 harg11 arg12 harg12 arg13 harg13) K := by
  simp only [cc3_ffn_kernel_eq_skeleton]; unfold cc3_ffn_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists _; isplitr
  swap; · iexact Hl
  ipureintro
  refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
  sl_unfold_run_names
  simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]

set_option maxHeartbeats 1000000 in
/-- The body at a point of chunk 1 or 2: the accumulator at `a` gains the chunk's partial product; the second scratch
    and the output buffer are not touched. -/
theorem sound_kernel3_B (c : Dev nD) (E : Set ℕ) (i : grid3.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : ¬cond3_0 i) (hlc : ¬cond3_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare (k3_pay3 (k3_pay10 xa xb xc xe) (k3_pay11 xd xe) xg a xi) ∗ owns (c : Thread nD τ) arg13 fullShare r) -∗ K ⟨⟩))
      ⊢ wp frame (wpE (defs₀ (F := F)) Variants.none c none) E (cc3_ffn_kernel i arg2 harg2 arg3 harg3 arg4 harg4 arg5 harg5 arg6 harg6 arg7 harg7 arg8 harg8 arg9 harg9 arg10 harg10 arg11 harg11 arg12 harg12 arg13 harg13) K := by
  simp only [cc3_ffn_kernel_eq_skeleton]; unfold cc3_ffn_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists fl; isplitr; · ipureintro; rfl
  iexact Hl

set_option maxHeartbeats 1000000 in
/-- The body at a point of chunk 3: the accumulator gains the last partial product, and the output buffer is stored
    whole, from the input block, the second scratch and the finished accumulator. -/
theorem sound_kernel3_C (c : Dev nD) (E : Set ℕ) (i : grid3.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : ¬cond3_0 i) (hlc : cond3_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare (k3_pay4 (k3_pay5 xa) r (k3_pay3 (k3_pay10 xa xb xc xe) (k3_pay11 xd xe) xg a xi)) ∗ owns (c : Thread nD τ) arg12 fullShare (k3_pay3 (k3_pay10 xa xb xc xe) (k3_pay11 xd xe) xg a xi) ∗ owns (c : Thread nD τ) arg13 fullShare r) -∗ K ⟨⟩))
      ⊢ wp frame (wpE (defs₀ (F := F)) Variants.none c none) E (cc3_ffn_kernel i arg2 harg2 arg3 harg3 arg4 harg4 arg5 harg5 arg6 harg6 arg7 harg7 arg8 harg8 arg9 harg9 arg10 harg10 arg11 harg11 arg12 harg12 arg13 harg13) K := by
  simp only [cc3_ffn_kernel_eq_skeleton]; unfold cc3_ffn_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists _; isplitr
    swap; · iexact Hj
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists fl; isplitr; · ipureintro; rfl
  iexact Hl

/-! ## The carried scratch, point by point -/

/-- What the two scratch buffers hold BEFORE point `n` (after point `n - 1`), as the pair (accumulator, second
    buffer), by recursion on the point: a point of chunk 0 refills the second buffer from its input blocks and leaves
    the accumulator at the chunk's partial product over zero; any other point keeps the second buffer and adds its
    partial product to the accumulator. Before a point of chunk 0 the value is never read (the body overwrites both
    buffers there before loading them). -/
def sc3 (c : Dev nD) : ℕ → Vec F S256x1024 .f32 × Vec F S256x1024 .f32
  | 0 => (k3_pay2, k3_pay2)
  | n + 1 =>
    if h : n < cfg3.N then
      if n % 4 = 0 then
        ((k3_pay3 (k3_pay10 (iblk3 V c 0 ⟨n, h⟩) (iblk3 V c 1 ⟨n, h⟩) (iblk3 V c 2 ⟨n, h⟩) (iblk3 V c 4 ⟨n, h⟩)) (k3_pay11 (iblk3 V c 3 ⟨n, h⟩) (iblk3 V c 4 ⟨n, h⟩)) (iblk3 V c 6 ⟨n, h⟩) k3_pay2 (iblk3 V c 8 ⟨n, h⟩)),
          (k3_pay1 (k3_pay6 (iblk3 V c 0 ⟨n, h⟩) (iblk3 V c 1 ⟨n, h⟩) (iblk3 V c 2 ⟨n, h⟩)) (k3_pay7 (iblk3 V c 3 ⟨n, h⟩)) (k3_pay9 (iblk3 V c 5 ⟨n, h⟩)) (iblk3 V c 7 ⟨n, h⟩)))
      else
        ((k3_pay3 (k3_pay10 (iblk3 V c 0 ⟨n, h⟩) (iblk3 V c 1 ⟨n, h⟩) (iblk3 V c 2 ⟨n, h⟩) (iblk3 V c 4 ⟨n, h⟩)) (k3_pay11 (iblk3 V c 3 ⟨n, h⟩) (iblk3 V c 4 ⟨n, h⟩)) (iblk3 V c 6 ⟨n, h⟩) (sc3 c n).1 (iblk3 V c 8 ⟨n, h⟩)),
          (sc3 c n).2)
    else sc3 c n

/-- After a point of chunk 0: the accumulator is the chunk's partial product over zero, the second buffer is refilled. -/
theorem sc3_zero_chunk (c : Dev nD) (t : Fin cfg3.N) (h : t.val % 4 = 0) :
    sc3 V c (t.val + 1) = ((k3_pay3 (k3_pay10 (iblk3 V c 0 t) (iblk3 V c 1 t) (iblk3 V c 2 t) (iblk3 V c 4 t)) (k3_pay11 (iblk3 V c 3 t) (iblk3 V c 4 t)) (iblk3 V c 6 t) k3_pay2 (iblk3 V c 8 t)),
      (k3_pay1 (k3_pay6 (iblk3 V c 0 t) (iblk3 V c 1 t) (iblk3 V c 2 t)) (k3_pay7 (iblk3 V c 3 t)) (k3_pay9 (iblk3 V c 5 t)) (iblk3 V c 7 t))) := by
  obtain ⟨n, hn⟩ := t
  show sc3 V c (n + 1) = _
  rw [sc3, dif_pos hn, if_pos h]

/-- After a point of any other chunk: the accumulator has gained the chunk's partial product, the second buffer is kept. -/
theorem sc3_succ (c : Dev nD) (t : Fin cfg3.N) (h : ¬t.val % 4 = 0) :
    sc3 V c (t.val + 1) = ((k3_pay3 (k3_pay10 (iblk3 V c 0 t) (iblk3 V c 1 t) (iblk3 V c 2 t) (iblk3 V c 4 t)) (k3_pay11 (iblk3 V c 3 t) (iblk3 V c 4 t)) (iblk3 V c 6 t) (sc3 V c t.val).1 (iblk3 V c 8 t)),
      (sc3 V c t.val).2) := by
  obtain ⟨n, hn⟩ := t
  show sc3 V c (n + 1) = _
  rw [sc3, dif_pos hn, if_neg h]

/-- What a point of chunk 3 stores into the output window's buffer: from the point's block of window 0, the second
    scratch buffer and the accumulator as that point leaves them. -/
def out3_9 (c : Dev nD) (t : Fin cfg3.N) : Vec F S256x1024 .f32 :=
  k3_pay4 (k3_pay5 (iblk3 V c 0 t)) (sc3 V c (t.val + 1)).2 (sc3 V c (t.val + 1)).1

/-- The region invariant before point `n`: the two scratch buffers — at anything before a point of chunk 0, which
    overwrites them, else at `sc3` —, the rest of the core's scoped buffers unopened, the generator register at some
    state. -/
def Phi3 (c : Dev nD) (n : ℕ) : sProp 𝕄 :=
  iprop(iprop((if n % 4 = 0 then
        (iprop((∃ X, owns (c : Thread nD τ) (Memref.whole cc3_scratch0) fullShare X) ∗ (∃ X, owns (c : Thread nD τ) (Memref.whole cc3_scratch1) fullShare X)) : sProp 𝕄)
      else iprop(owns (c : Thread nD τ) (Memref.whole cc3_scratch0) fullShare (sc3 V c n).1 ∗ owns (c : Thread nD τ) (Memref.whole cc3_scratch1) fullShare (sc3 V c n).2))
    ∗ Pipeline.scopedRestBut (Ix := Unit) (Name := ℕ) (U := UR sig nD τ) (Lvl := ℕ) (Val := Elt F) spec3 c [cc3_scratch0, cc3_scratch1]) ∗ ∃ r, prngReg c r)

/-! ## The pipeline's proof data -/

/-- The proof data of pipeline 3 on core `c`: the arrays as the region finds them (`V`); after the body at point `t`
    each input's buffer at its block and the output's at `out3_9` (read only at the points of chunk 3: elsewhere the
    window is idle and not written back); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 V c t
  Φ t := Phi3 V c t.val
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9_all (c : Dev nD) (t : Fin cfg3.N) : (dat3 V c).after 9 t = out3_9 V c t := by dsimp only [dat3]
theorem after3_9 (c : Dev nD) (t : Fin cfg3.N) (h : t.val % 4 = 3) : (dat3 V c).after 9 t = out3_9 V c t := after3_9_all V c t

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-- The invariant at a point's start and at its end, restated at the point's number. -/
theorem Phi3_castSucc (c : Dev nD) (t : Fin cfg3.N) : (dat3 V c).Φ t.castSucc = Phi3 V c t.val := rfl
theorem Phi3_succ (c : Dev nD) (t : Fin cfg3.N) : (dat3 V c).Φ t.succ = Phi3 V c (t.val + 1) := rfl

/-- Off chunk 3 the output window is idle and not written back: the obligation hands its buffer back as found. -/
theorem leaves3_9_idle (c : Dev nD) (t : Fin cfg3.N) (h : ¬cond3_1 (grid3.coords t)) :
    (dat3 V c).leavesExact 9 t = iprop(∃ d, owns (c : Thread nD τ) (st3_9 t) fullShare ((dat3 V c).before 9 t d)) :=
  (dat3 V c).leavesExact_idle 9 t
    (by show (!(k3_cond2 (grid3.coords t) == 1#1)) = true
        rw [Bool.not_eq_true', beq_eq_false_iff_ne]; exact h)
    (Bool.eq_false_iff.mpr fun hfl => h ((hcond3_1 t).mpr ((flush3_9 t).mp hfl)))

/-- At chunk 3 it is live: its buffer is left at what the body stored. -/
theorem leaves3_9_live (c : Dev nD) (t : Fin cfg3.N) (h : cond3_1 (grid3.coords t)) :
    (dat3 V c).leavesExact 9 t = owns (c : Thread nD τ) (st3_9 t) fullShare ((dat3 V c).after 9 t) := by
  have hi : cfg3.idle 9 (cfg3.grid.coords t) = false := by
    show (!(k3_cond2 (grid3.coords t) == 1#1)) = false
    rw [Bool.not_eq_false', beq_iff_eq]; exact h
  unfold Dat.leavesExact; rw [hi]

/-! ## The body obligation, at a generic point -/

/-- What the body is called with at point `t`: the invariant, what the core owes, every window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- What it returns: the invariant at the next point, the inputs' buffers as they were, the output's as the window's
    schedule has it (stored at chunk 3, handed back as found elsewhere). -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ (dat3 V c).leavesExact 9 t)

set_option maxHeartbeats 1000000 in
/-- The body at any point, by the point's chunk: the inputs' memrefs hold their blocks, the scratch buffers what the
    invariant says, so that chunk's triple applies; what it leaves in the scratch buffers is the invariant at the
    next point (`sc3`'s recursion), forgotten again after chunk 3. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).owesAt () t.succ = (dat3 V c).owesAt () t.castSucc from rfl,
    after3_0, after3_1, after3_2, after3_3, after3_4, after3_5, after3_6, after3_7, after3_8, Phi3_castSucc, Phi3_succ]
  unfold Phi3
  by_cases hA : t.val % 4 = 0
  · have hzc : cond3_0 (grid3.coords t) := (hcond3_0 t).mpr hA
    have hlc : ¬cond3_1 (grid3.coords t) := fun h => by have := (hcond3_1 t).mp h; omega
    rw [leaves3_9_idle V c t hlc, if_pos hA, if_neg (show ¬(t.val + 1) % 4 = 0 by omega), sc3_zero_chunk V c t hA]
    iintro ⟨⟨⟨⟨⟨%gacc, Hacc⟩, ⟨%grr, Hrr⟩⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply (sound_kernel3_A c Set.univ _ _ _ _ _ _ _ _ _ _ _ _ _ _ _ _ _ _ _ _ _ _ _ _ _ hzc hlc (iblk3 V c 0 t) (iblk3 V c 1 t) (iblk3 V c 2 t) (iblk3 V c 3 t) (iblk3 V c 4 t) (iblk3 V c 5 t) (iblk3 V c 6 t) (iblk3 V c 7 t) (iblk3 V c 8 t) _ _ _ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    isplitl [Hi]; · iexact Hi
    isplitl [Hj]; · iexact Hj
    isplitl [Hacc]; · iexact Hacc
    isplitl [Hrr]; · iexact Hrr
    iintro ⟨Ha, Hb, Hc, Hd, He, Hf, Hg, Hh, Hi, Hj, Hacc, Hrr⟩
    isplitl [Hacc Hrr Hrest Hp]
    · isplitr [Hp]
      · isplitr [Hrest]
        · isplitl [Hacc]; · iexact Hacc
          iexact Hrr
        · iexact Hrest
      · iexact Hp
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    isplitl [Hi]; · iexact Hi
    iexists dj; iexact Hj

  · have hzc : ¬cond3_0 (grid3.coords t) := fun h => hA ((hcond3_0 t).mp h)
    by_cases hC : t.val % 4 = 3
    · have hlc : cond3_1 (grid3.coords t) := (hcond3_1 t).mpr hC
      rw [leaves3_9_live V c t hlc, after3_9_all, if_neg hA, if_pos (show (t.val + 1) % 4 = 0 by omega)]
      iintro ⟨⟨⟨⟨Hacc, Hrr⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
      iapply (sound_kernel3_C c Set.univ _ _ _ _ _ _ _ _ _ _ _ _ _ _ _ _ _ _ _ _ _ _ _ _ _ hzc hlc (iblk3 V c 0 t) (iblk3 V c 1 t) (iblk3 V c 2 t) (iblk3 V c 3 t) (iblk3 V c 4 t) (iblk3 V c 5 t) (iblk3 V c 6 t) (iblk3 V c 7 t) (iblk3 V c 8 t) _ _ _ _)
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [Hj]; · iexact Hj
      isplitl [Hacc]; · iexact Hacc
      isplitl [Hrr]; · iexact Hrr
      iintro ⟨Ha, Hb, Hc, Hd, He, Hf, Hg, Hh, Hi, Hj, Hacc, Hrr⟩
      isplitl [Hacc Hrr Hrest Hp]
      · isplitr [Hp]
        · isplitr [Hrest]
          · isplitl [Hacc]
            · iexists _; iexact Hacc
            iexists _; iexact Hrr
          · iexact Hrest
        · iexact Hp
      isplitl [Ho]; · iexact Ho
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      unfold out3_9; rw [sc3_succ V c t hA]
      iexact Hj

    · have hlc : ¬cond3_1 (grid3.coords t) := fun h => hC ((hcond3_1 t).mp h)
      rw [leaves3_9_idle V c t hlc, if_neg hA, if_neg (show ¬(t.val + 1) % 4 = 0 by omega), sc3_succ V c t hA]
      iintro ⟨⟨⟨⟨Hacc, Hrr⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
      iapply (sound_kernel3_B c Set.univ _ _ _ _ _ _ _ _ _ _ _ _ _ _ _ _ _ _ _ _ _ _ _ _ _ hzc hlc (iblk3 V c 0 t) (iblk3 V c 1 t) (iblk3 V c 2 t) (iblk3 V c 3 t) (iblk3 V c 4 t) (iblk3 V c 5 t) (iblk3 V c 6 t) (iblk3 V c 7 t) (iblk3 V c 8 t) _ _ _ _)
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [Hj]; · iexact Hj
      isplitl [Hacc]; · iexact Hacc
      isplitl [Hrr]; · iexact Hrr
      iintro ⟨Ha, Hb, Hc, Hd, He, Hf, Hg, Hh, Hi, Hj, Hacc, Hrr⟩
      isplitl [Hacc Hrr Hrest Hp]
      · isplitr [Hp]
        · isplitr [Hrest]
          · isplitl [Hacc]; · iexact Hacc
            iexact Hrr
          · iexact Hrest
        · iexact Hp
      isplitl [Ho]; · iexact Ho
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      iexists dj; iexact Hj

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Into the invariant and out of it -/

/-- The class's invariant gives the invariant before the first point: the scoped rest split at the two scratch buffers,
    each at whatever it holds. -/
theorem Phi3_in (c : Dev nD) : (Pipeline.ΦA (U := UR sig nD τ) (Val := Elt F) spec3 c : sProp 𝕄) ⊢ (dat3 V c).Φ 0 := by
  show _ ⊢ Phi3 V c 0
  unfold Pipeline.ΦA Phi3
  rw [scopedRest3_split, if_pos (Nat.zero_mod 4)]
  iintro ⟨⟨⟨⟨%gacc, Hacc⟩, ⟨%grr, Hrr⟩⟩, Hrest⟩, Hp⟩
  isplitr [Hp]
  · isplitr [Hrest]
    · isplitl [Hacc]
      · iexists gacc; rw [owns_whole]; iexact Hacc
      · iexists grr; rw [owns_whole]; iexact Hrr
    · iexact Hrest
  · iexact Hp

/-- After the last point (of chunk 3) the scratch buffers' contents are forgotten: the class's invariant again. -/
theorem Phi3_out (c : Dev nD) : (dat3 V c).Φ (Fin.last cfg3.N) ⊢ (Pipeline.ΦA (U := UR sig nD τ) (Val := Elt F) spec3 c : sProp 𝕄) := by
  show Phi3 V c cfg3.N ⊢ _
  unfold Pipeline.ΦA Phi3
  rw [scopedRest3_split, if_pos (show cfg3.N % 4 = 0 by rw [show cfg3.N = 32 from N_3])]
  iintro ⟨⟨⟨⟨%gacc, Hacc⟩, ⟨%grr, Hrr⟩⟩, Hrest⟩, Hp⟩
  isplitr [Hp]
  · isplitr [Hrest]
    · isplitl [Hacc]
      · iexists gacc; rw [← owns_whole]; iexact Hacc
      · iexists grr; rw [← owns_whole]; iexact Hrr
    · iexact Hrest
  · iexact Hp

theorem share3 (c : Dev nD) : ∀ w, (dat3 V c).q w = fullShare := fun _ => rfl
theorem owed3 (c : Dev nD) : ∀ t, (dat3 V c).owed t = 0 := fun _ => rfl
theorem recorded3 (c : Dev nD) : ∀ t, (dat3 V c).recorded t = Set.univ := fun _ => rfl

end Cert.Kernel.Hand

end
-- ==== Proof.Bits.Region4.lean ====
/- REGION 4: a launch of the attention kernel (custom call 4, pipeline 4; a grid of 8 points, windows 0..13
   read and window 14 written), stated at the contents `V` the TensorCore's buffers hold when the region is entered.

   At a point `t` the body reads the whole of each input window's staging buffer, which holds the window's block of
   its array at `t` (window 0 moves with the point; windows 1..13 have one block, brought in at the first point and
   found in place at every later one, the block index not having moved). It also reads the output window's own
   buffer once, a value it does not use, and then writes ONE value over the whole of the output window's buffer:
   the sum `k4_pay1` of block 0 and a projection of a gated ratio computed from the other thirteen blocks (spelled
   out at `out4_14`). So after the body the output buffer holds exactly that value, a pure function of the fourteen
   input blocks, whatever it held before, and every input buffer holds what it held. Nothing is kept between
   points: the invariant is the launch's own (`Pipeline.ΦA`), nothing is owed, every share is full. -/
import proofs.«415492_j738734375128_3_alg».proof.Proof.Gen.Kernel.Launch
import proofs.«415492_j738734375128_3_alg».proof.Proof.Gen.Kernel.Skeleton
import proofs.«415492_j738734375128_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the part of its array, as the region finds it, that the window shows there. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current buffer holds its block at every point, brought in there or not: where the pipeline
    brings nothing in, the window's block index is the one of the point before, and the body left the block in
    place. This holds for ANY proof data over the entry contents `V` whose body leaves the window's block where it
    found it; windows 1..13, brought in at the first point only, are the case "not brought in" at points 1..7. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)
theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)
theorem before4_11_of {c : Dev nD} (dat : Dat τ (Elt F) Unit ℕ (UR sig nD τ) ℕ cfg4 c) (hA : dat.A 11 = V c (Pipeline.arrRef spec4 11))
    (hafter : ∀ t, dat.after 11 t = iblk4 V c 11 t) (t : Fin cfg4.N) (d) : dat.before 11 t d = iblk4 V c 11 t :=
  (dat.before_in_eq_fetched 11 rfl (fun _ => rfl) (fun _ _ _ => rfl) (fun t => by rw [hafter]; unfold Dat.blockOf iblk4; rw [hA]; try rfl) t d).trans
    (by unfold Dat.fetched Dat.blockOf iblk4; rw [hA]; try rfl)
theorem before4_12_of {c : Dev nD} (dat : Dat τ (Elt F) Unit ℕ (UR sig nD τ) ℕ cfg4 c) (hA : dat.A 12 = V c (Pipeline.arrRef spec4 12))
    (hafter : ∀ t, dat.after 12 t = iblk4 V c 12 t) (t : Fin cfg4.N) (d) : dat.before 12 t d = iblk4 V c 12 t :=
  (dat.before_in_eq_fetched 12 rfl (fun _ => rfl) (fun _ _ _ => rfl) (fun t => by rw [hafter]; unfold Dat.blockOf iblk4; rw [hA]; try rfl) t d).trans
    (by unfold Dat.fetched Dat.blockOf iblk4; rw [hA]; try rfl)
theorem before4_13_of {c : Dev nD} (dat : Dat τ (Elt F) Unit ℕ (UR sig nD τ) ℕ cfg4 c) (hA : dat.A 13 = V c (Pipeline.arrRef spec4 13))
    (hafter : ∀ t, dat.after 13 t = iblk4 V c 13 t) (t : Fin cfg4.N) (d) : dat.before 13 t d = iblk4 V c 13 t :=
  (dat.before_in_eq_fetched 13 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole of an activation block, of a row vector, of a weight matrix: the three rectangles the body reads and
    writes through. -/
abbrev r4_A : Rect S256x1024 := Rect.unit (s := S256x1024) ![0, 0] S256x1024.size inb_S256x1024_S256x1024_0_0
abbrev r4_B : Rect S1x1024 := Rect.unit (s := S1x1024) ![0, 0] S1x1024.size inb_S1x1024_S1x1024_0_0
abbrev r4_C : Rect S1024x1024 := Rect.unit (s := S1024x1024) ![0, 0] S1024x1024.size inb_S1024x1024_S1024x1024_0_0

/-! ## What the body leaves in the output window's buffer -/

/-- Window 14's buffer after the body, from the fourteen input blocks: its one store, of the whole block. Write `x`
    for block 0, `pⱼ` / `bⱼ` for the row vector of window `j` spread over the 256 rows, `Wⱼ` for the matrix of
    window `j`, and `a ⬝ Wᵀ` for the product contracting the second axis of both, its left factor rounded to bf16.
    With `n` the rows of `x` centred and divided by the root of their variance plus a small constant, times `p₁`
    plus `p₂` (`k4_pay3`), and `mⱼ = n · pⱼ + p₃ · (1 − pⱼ)` the mixture of `n` and `p₃` by `pⱼ` (j = 4, 5, 6):
      `e = exp (b₇ + m₄ ⬝ W₁₀ᵀ)`                      (`k4_pay11`),
      `u = b₈ + e · (m₅ ⬝ W₁₁ᵀ)`                      (`k4_pay12`),
      `g = m₆ ⬝ W₁₂ᵀ`                                 (`k4_pay10`),
    and the value stored is `x + (logistic g · (u / (b₉ + e))) ⬝ W₁₃ᵀ` (`k4_pay1`; `b₉` is `k4_pay13`). Each operand
    is the load of a whole buffer, so it is the window's block itself read through the full rectangle. -/
def out4_14 (x0 : Vec F S256x1024 .f32) (x1 x2 x3 x4 x5 x6 x7 x8 x9 : Vec F S1x1024 .f32)
    (x10 x11 x12 x13 : Vec F S1024x1024 .bf16) : Vec F S256x1024 .f32 :=
  View.canon [⟨r4_A, k4_pay1 (k4_pay2 (View.ld x0 r4_A))
    (k4_pay10 (k4_pay3 (View.ld x0 r4_A) (View.ld x1 r4_B) (View.ld x2 r4_B)) (k4_pay4 (View.ld x3 r4_B)) (k4_pay7 (View.ld x6 r4_B)) (View.ld x12 r4_C))
    (k4_pay11 (k4_pay4 (View.ld x3 r4_B)) (k4_pay5 (View.ld x4 r4_B)) (k4_pay8 (View.ld x0 r4_A) (View.ld x1 r4_B) (View.ld x2 r4_B) (View.ld x4 r4_B)) (k4_pay9 (F := F)) (View.ld x10 r4_C) (View.ld x7 r4_B))
    (k4_pay12 (k4_pay3 (View.ld x0 r4_A) (View.ld x1 r4_B) (View.ld x2 r4_B)) (k4_pay4 (View.ld x3 r4_B)) (k4_pay5 (View.ld x4 r4_B)) (k4_pay6 (View.ld x5 r4_B))
      (k4_pay8 (View.ld x0 r4_A) (View.ld x1 r4_B) (View.ld x2 r4_B) (View.ld x4 r4_B)) (k4_pay9 (F := F)) (View.ld x10 r4_C) (View.ld x11 r4_C) (View.ld x7 r4_B) (View.ld x8 r4_B))
    (k4_pay13 (View.ld x9 r4_B))
    (View.ld x13 r4_C)⟩]

/-- The one store is of the whole block, so it covers it. -/
theorem cover4_14 (p0 : Vec F S256x1024 .f32) (y : S256x1024.Idx) :
    ∃ pc ∈ ([⟨r4_A, p0⟩] : List (View.Piece (Elt F) S256x1024 .f32)), y ∈ pc.1.set :=
  View.cover_of_tiled [⟨r4_A, p0⟩] S256x1024.size (by rfl) y

/-! ## The body's triple -/

set_option maxHeartbeats 1000000 in
/-- The body on whole staging memrefs, the inputs' at read contents `x0 … x13` and the output's at anything, runs to
    the continuation holding the inputs' as they were and the output's at `out4_14` of the inputs': every load reads
    the whole of a buffer whose contents are known (the output's own, read once and not used, at whatever it
    holds), and the one store covers the output's buffer. -/
theorem sound_kernel4 (c : Dev nD) (E : Set ℕ) (i : grid4.Coords)
    (arg1 : Memref sig .tc .vmem S256x1024 .f32) (harg1 : arg1.IsWhole)
    (arg2 : Memref sig .tc .vmem S1x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S1024x1024 .bf16) (harg11 : arg11.IsWhole)
    (arg12 : Memref sig .tc .vmem S1024x1024 .bf16) (harg12 : arg12.IsWhole)
    (arg13 : Memref sig .tc .vmem S1024x1024 .bf16) (harg13 : arg13.IsWhole)
    (arg14 : Memref sig .tc .vmem S1024x1024 .bf16) (harg14 : arg14.IsWhole)
    (arg15 : Memref sig .tc .vmem S256x1024 .f32) (harg15 : arg15.IsWhole)
    (x0 : Vec F S256x1024 .f32) (x1 x2 x3 x4 x5 x6 x7 x8 x9 : Vec F S1x1024 .f32)
    (x10 x11 x12 x13 : Vec F S1024x1024 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare (out4_14 x0 x1 x2 x3 x4 x5 x6 x7 x8 x9 x10 x11 x12 x13)) -∗ K ⟨⟩))
      ⊢ wp frame (wpE (defs₀ (F := F)) Variants.none c none) E
          (cc4_attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  sl_unfold [cc4_attn_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover4_14 _)

/-! ## The pipeline's proof data -/

/-- The proof data of pipeline 4 on core `c`: the arrays as the region finds them; after the body at point `t` each
    input's buffer at its block and the output's at `out4_14` of the input blocks; the invariant the launch's own
    (the scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => out4_14 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window: an input's block, and the output's one store. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = iblk4 V c 11 t := by dsimp only [dat4]
theorem after4_12 (c : Dev nD) (t : Fin cfg4.N) : (dat4 V c).after 12 t = iblk4 V c 12 t := by dsimp only [dat4]
theorem after4_13 (c : Dev nD) (t : Fin cfg4.N) : (dat4 V c).after 13 t = iblk4 V c 13 t := by dsimp only [dat4]
theorem after4_14 (c : Dev nD) (t : Fin cfg4.N) :
    (dat4 V c).after 14 t = out4_14 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) := by
  dsimp only [dat4]

/-- Each input's current staging buffer holds its block at every point, brought in there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d
theorem before4_11 (c : Dev nD) (t : Fin cfg4.N) (d) : (dat4 V c).before 11 t d = iblk4 V c 11 t :=
  before4_11_of V (dat4 V c) (A_eq4 V c 11) (after4_11 V c) t d
theorem before4_12 (c : Dev nD) (t : Fin cfg4.N) (d) : (dat4 V c).before 12 t d = iblk4 V c 12 t :=
  before4_12_of V (dat4 V c) (A_eq4 V c 12) (after4_12 V c) t d
theorem before4_13 (c : Dev nD) (t : Fin cfg4.N) (d) : (dat4 V c).before 13 t d = iblk4 V c 13 t :=
  before4_13_of V (dat4 V c) (A_eq4 V c 13) (after4_13 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d))
    ∗ (∃ d, owns (c : Thread nD τ) (st4_13 t) fullShare ((dat4 V c).before 13 t d))
    ∗ (∃ d, owns (c : Thread nD τ) (st4_14 t) fullShare ((dat4 V c).before 14 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t)
    ∗ owns (c : Thread nD τ) (st4_13 t) fullShare ((dat4 V c).after 13 t)
    ∗ owns (c : Thread nD τ) (st4_14 t) fullShare ((dat4 V c).after 14 t))

set_option maxHeartbeats 1000000 in
/-- The body at any point: the inputs' memrefs hold their blocks, so the body's triple applies at those blocks; the
    invariant and the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10, before4_11, before4_12, before4_13]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12, after4_13, after4_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel4 c Set.univ _ _ _ _ _ _ _ _ _ _ _ _ _ _ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends, the shares, the debts -/

/-- The invariant before the first point is what the launch hands the kernel, -/
theorem Phi4_in (c : Dev nD) :
    (Pipeline.ΦA (U := UR sig nD τ) (Val := Elt F) spec4 c : sProp 𝕄) ⊢ (dat4 V c).Φ 0 := .rfl

/-- and after the last point what the launch takes back. -/
theorem Phi4_out (c : Dev nD) :
    (dat4 V c).Φ (Fin.last cfg4.N) ⊢ (Pipeline.ΦA (U := UR sig nD τ) (Val := Elt F) spec4 c : sProp 𝕄) := .rfl

theorem share4 (c : Dev nD) : ∀ w, (dat4 V c).q w = fullShare := fun _ => rfl
theorem owed4 (c : Dev nD) : ∀ t, (dat4 V c).owed t = 0 := fun _ => rfl

/-- The proof data records every pair of cells (the structure's default): nothing is excluded from what the core may be owed. -/
theorem recorded4 (c : Dev nD) : ∀ t, (dat4 V c).recorded t = Set.univ := fun _ => rfl

end Cert.Kernel.Hand

end
-- ==== Proof.Bits.Region5.lean ====
/- Region 1 of the program's main function: the second TensorCore call (the feed-forward kernel), at a parameter `V`,
   the TensorCore's buffer contents when the region is entered. The call runs on a grid of 32 points, 8 row tiles by 4
   chunks; it carries two scratch buffers from point to point (an accumulator, and a second buffer
   filled at a tile's first chunk and read at its last) and stores its output block at the last chunk of each tile. This module gives: each window's
   block at a point; the body's triple in each of the three cases of its two conditionals; what the scratch buffers
   hold before each point, by recursion on the point; the pipeline's proof data, whose invariant holds the scratch
   buffers at those contents; the body obligation; and the passage from the class's invariant into this one and back. -/
import proofs.«415492_j738734375128_3_alg».proof.Proof.Gen.Kernel.Launch
import proofs.«415492_j738734375128_3_alg».proof.Proof.Gen.Kernel.Skeleton
import proofs.«415492_j738734375128_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: custom_call 5, `cc5_ffn_kernel` (pipeline 5), at the entry contents `V`

The grid has 32 points: 8 row tiles times 4 chunks, the chunk the fast coordinate. Windows 0 to 8
are inputs, window 9 the output, written back at the points of chunk 3. Two scratch buffers are carried from point to
point: an accumulator, zeroed at chunk 0 and added to at every chunk, and a second buffer filled at chunk 0 and read
at chunk 3. -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data
    whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data
    whose array is `V`'s and whose body leaves the block in place: unfetched, the block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data
    whose array is `V`'s and whose body leaves the block in place: unfetched, the block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof data
    whose array is `V`'s and whose body leaves the block in place: unfetched, the block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof data
    whose array is `V`'s and whose body leaves the block in place: unfetched, the block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof data
    whose array is `V`'s and whose body leaves the block in place: unfetched, the block index has not moved. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof data
    whose array is `V`'s and whose body leaves the block in place: unfetched, the block index has not moved. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, fetched there or not, for any proof data
    whose array is `V`'s and whose body leaves the block in place: unfetched, the block index has not moved. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, fetched there or not, for any proof data
    whose array is `V`'s and whose body leaves the block in place: unfetched, the block index has not moved. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The two conditionals, decided over the grid -/

/-- The first conditional's condition (the chunk coordinate is 0), as the body computes it from the grid coordinates. -/
abbrev cond5_0 (i : grid5.Coords) : Prop := (Scalar.cmpi .ne (Scalar.extui (Scalar.cmpi .eq (BitVec.ofNat 32 (i 1).val) 0#32)) 0#32) = 1#1
/-- It holds exactly at the points ≡ 0 (mod 4). -/
theorem hcond5_0 : ∀ t : Fin cfg5.N, cond5_0 (grid5.coords t) ↔ t.val % 4 = 0 :=
  (by decide +kernel : ∀ t : Fin grid5.N, cond5_0 (grid5.coords t) ↔ t.val % 4 = 0)
/-- The second conditional's condition (the chunk coordinate is 3). -/
abbrev cond5_1 (i : grid5.Coords) : Prop := k5_cond2 i = 1#1
/-- It holds exactly at the points ≡ 3 (mod 4). -/
theorem hcond5_1 : ∀ t : Fin cfg5.N, cond5_1 (grid5.coords t) ↔ t.val % 4 = 3 :=
  (by decide +kernel : ∀ t : Fin grid5.N, cond5_1 (grid5.coords t) ↔ t.val % 4 = 3)

/-! ## The body's triple, one per case of the conditionals -/
set_option maxHeartbeats 1000000 in
/-- The body at a point of chunk 0, on whole memrefs: the inputs at their read contents, the output buffer and both
    scratch buffers at anything. It refills the second scratch from the inputs, zeroes the accumulator and adds the
    chunk's partial product to it; the output buffer is not touched. -/
theorem sound_kernel5_A (c : Dev nD) (E : Set ℕ) (i : grid5.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : cond5_0 i) (hlc : ¬cond5_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare (k5_pay3 (k5_pay10 xa xb xc xe) (k5_pay11 xd xe) xg k5_pay2 xi) ∗ owns (c : Thread nD τ) arg13 fullShare (k5_pay1 (k5_pay6 xa xb xc) (k5_pay7 xd) (k5_pay9 xf) xh)) -∗ K ⟨⟩))
      ⊢ wp frame (wpE (defs₀ (F := F)) Variants.none c none) E (cc5_ffn_kernel i arg2 harg2 arg3 harg3 arg4 harg4 arg5 harg5 arg6 harg6 arg7 harg7 arg8 harg8 arg9 harg9 arg10 harg10 arg11 harg11 arg12 harg12 arg13 harg13) K := by
  simp only [cc5_ffn_kernel_eq_skeleton]; unfold cc5_ffn_kernel_skel
  simp only [k5_part1_eq_skeleton]; unfold k5_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists _; isplitr
  swap; · iexact Hl
  ipureintro
  refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
  sl_unfold_run_names
  simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]

set_option maxHeartbeats 1000000 in
/-- The body at a point of chunk 1 or 2: the accumulator at `a` gains the chunk's partial product; the second scratch
    and the output buffer are not touched. -/
theorem sound_kernel5_B (c : Dev nD) (E : Set ℕ) (i : grid5.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : ¬cond5_0 i) (hlc : ¬cond5_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare (k5_pay3 (k5_pay10 xa xb xc xe) (k5_pay11 xd xe) xg a xi) ∗ owns (c : Thread nD τ) arg13 fullShare r) -∗ K ⟨⟩))
      ⊢ wp frame (wpE (defs₀ (F := F)) Variants.none c none) E (cc5_ffn_kernel i arg2 harg2 arg3 harg3 arg4 harg4 arg5 harg5 arg6 harg6 arg7 harg7 arg8 harg8 arg9 harg9 arg10 harg10 arg11 harg11 arg12 harg12 arg13 harg13) K := by
  simp only [cc5_ffn_kernel_eq_skeleton]; unfold cc5_ffn_kernel_skel
  simp only [k5_part1_eq_skeleton]; unfold k5_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists fl; isplitr; · ipureintro; rfl
  iexact Hl

set_option maxHeartbeats 1000000 in
/-- The body at a point of chunk 3: the accumulator gains the last partial product, and the output buffer is stored
    whole, from the input block, the second scratch and the finished accumulator. -/
theorem sound_kernel5_C (c : Dev nD) (E : Set ℕ) (i : grid5.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : ¬cond5_0 i) (hlc : cond5_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare (k5_pay4 (k5_pay5 xa) r (k5_pay3 (k5_pay10 xa xb xc xe) (k5_pay11 xd xe) xg a xi)) ∗ owns (c : Thread nD τ) arg12 fullShare (k5_pay3 (k5_pay10 xa xb xc xe) (k5_pay11 xd xe) xg a xi) ∗ owns (c : Thread nD τ) arg13 fullShare r) -∗ K ⟨⟩))
      ⊢ wp frame (wpE (defs₀ (F := F)) Variants.none c none) E (cc5_ffn_kernel i arg2 harg2 arg3 harg3 arg4 harg4 arg5 harg5 arg6 harg6 arg7 harg7 arg8 harg8 arg9 harg9 arg10 harg10 arg11 harg11 arg12 harg12 arg13 harg13) K := by
  simp only [cc5_ffn_kernel_eq_skeleton]; unfold cc5_ffn_kernel_skel
  simp only [k5_part1_eq_skeleton]; unfold k5_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists _; isplitr
    swap; · iexact Hj
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists fl; isplitr; · ipureintro; rfl
  iexact Hl

/-! ## The carried scratch, point by point -/

/-- What the two scratch buffers hold BEFORE point `n` (after point `n - 1`), as the pair (accumulator, second
    buffer), by recursion on the point: a point of chunk 0 refills the second buffer from its input blocks and leaves
    the accumulator at the chunk's partial product over zero; any other point keeps the second buffer and adds its
    partial product to the accumulator. Before a point of chunk 0 the value is never read (the body overwrites both
    buffers there before loading them). -/
def sc5 (c : Dev nD) : ℕ → Vec F S256x1024 .f32 × Vec F S256x1024 .f32
  | 0 => (k5_pay2, k5_pay2)
  | n + 1 =>
    if h : n < cfg5.N then
      if n % 4 = 0 then
        ((k5_pay3 (k5_pay10 (iblk5 V c 0 ⟨n, h⟩) (iblk5 V c 1 ⟨n, h⟩) (iblk5 V c 2 ⟨n, h⟩) (iblk5 V c 4 ⟨n, h⟩)) (k5_pay11 (iblk5 V c 3 ⟨n, h⟩) (iblk5 V c 4 ⟨n, h⟩)) (iblk5 V c 6 ⟨n, h⟩) k5_pay2 (iblk5 V c 8 ⟨n, h⟩)),
          (k5_pay1 (k5_pay6 (iblk5 V c 0 ⟨n, h⟩) (iblk5 V c 1 ⟨n, h⟩) (iblk5 V c 2 ⟨n, h⟩)) (k5_pay7 (iblk5 V c 3 ⟨n, h⟩)) (k5_pay9 (iblk5 V c 5 ⟨n, h⟩)) (iblk5 V c 7 ⟨n, h⟩)))
      else
        ((k5_pay3 (k5_pay10 (iblk5 V c 0 ⟨n, h⟩) (iblk5 V c 1 ⟨n, h⟩) (iblk5 V c 2 ⟨n, h⟩) (iblk5 V c 4 ⟨n, h⟩)) (k5_pay11 (iblk5 V c 3 ⟨n, h⟩) (iblk5 V c 4 ⟨n, h⟩)) (iblk5 V c 6 ⟨n, h⟩) (sc5 c n).1 (iblk5 V c 8 ⟨n, h⟩)),
          (sc5 c n).2)
    else sc5 c n

/-- After a point of chunk 0: the accumulator is the chunk's partial product over zero, the second buffer is refilled. -/
theorem sc5_zero_chunk (c : Dev nD) (t : Fin cfg5.N) (h : t.val % 4 = 0) :
    sc5 V c (t.val + 1) = ((k5_pay3 (k5_pay10 (iblk5 V c 0 t) (iblk5 V c 1 t) (iblk5 V c 2 t) (iblk5 V c 4 t)) (k5_pay11 (iblk5 V c 3 t) (iblk5 V c 4 t)) (iblk5 V c 6 t) k5_pay2 (iblk5 V c 8 t)),
      (k5_pay1 (k5_pay6 (iblk5 V c 0 t) (iblk5 V c 1 t) (iblk5 V c 2 t)) (k5_pay7 (iblk5 V c 3 t)) (k5_pay9 (iblk5 V c 5 t)) (iblk5 V c 7 t))) := by
  obtain ⟨n, hn⟩ := t
  show sc5 V c (n + 1) = _
  rw [sc5, dif_pos hn, if_pos h]

/-- After a point of any other chunk: the accumulator has gained the chunk's partial product, the second buffer is kept. -/
theorem sc5_succ (c : Dev nD) (t : Fin cfg5.N) (h : ¬t.val % 4 = 0) :
    sc5 V c (t.val + 1) = ((k5_pay3 (k5_pay10 (iblk5 V c 0 t) (iblk5 V c 1 t) (iblk5 V c 2 t) (iblk5 V c 4 t)) (k5_pay11 (iblk5 V c 3 t) (iblk5 V c 4 t)) (iblk5 V c 6 t) (sc5 V c t.val).1 (iblk5 V c 8 t)),
      (sc5 V c t.val).2) := by
  obtain ⟨n, hn⟩ := t
  show sc5 V c (n + 1) = _
  rw [sc5, dif_pos hn, if_neg h]

/-- What a point of chunk 3 stores into the output window's buffer: from the point's block of window 0, the second
    scratch buffer and the accumulator as that point leaves them. -/
def out5_9 (c : Dev nD) (t : Fin cfg5.N) : Vec F S256x1024 .f32 :=
  k5_pay4 (k5_pay5 (iblk5 V c 0 t)) (sc5 V c (t.val + 1)).2 (sc5 V c (t.val + 1)).1

/-- The region invariant before point `n`: the two scratch buffers — at anything before a point of chunk 0, which
    overwrites them, else at `sc5` —, the rest of the core's scoped buffers unopened, the generator register at some
    state. -/
def Phi5 (c : Dev nD) (n : ℕ) : sProp 𝕄 :=
  iprop(iprop((if n % 4 = 0 then
        (iprop((∃ X, owns (c : Thread nD τ) (Memref.whole cc5_scratch0) fullShare X) ∗ (∃ X, owns (c : Thread nD τ) (Memref.whole cc5_scratch1) fullShare X)) : sProp 𝕄)
      else iprop(owns (c : Thread nD τ) (Memref.whole cc5_scratch0) fullShare (sc5 V c n).1 ∗ owns (c : Thread nD τ) (Memref.whole cc5_scratch1) fullShare (sc5 V c n).2))
    ∗ Pipeline.scopedRestBut (Ix := Unit) (Name := ℕ) (U := UR sig nD τ) (Lvl := ℕ) (Val := Elt F) spec5 c [cc5_scratch0, cc5_scratch1]) ∗ ∃ r, prngReg c r)

/-! ## The pipeline's proof data -/

/-- The proof data of pipeline 5 on core `c`: the arrays as the region finds them (`V`); after the body at point `t`
    each input's buffer at its block and the output's at `out5_9` (read only at the points of chunk 3: elsewhere the
    window is idle and not written back); the invariant `Phi5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 V c t
  Φ t := Phi5 V c t.val
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9_all (c : Dev nD) (t : Fin cfg5.N) : (dat5 V c).after 9 t = out5_9 V c t := by dsimp only [dat5]
theorem after5_9 (c : Dev nD) (t : Fin cfg5.N) (h : t.val % 4 = 3) : (dat5 V c).after 9 t = out5_9 V c t := after5_9_all V c t

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-- The invariant at a point's start and at its end, restated at the point's number. -/
theorem Phi5_castSucc (c : Dev nD) (t : Fin cfg5.N) : (dat5 V c).Φ t.castSucc = Phi5 V c t.val := rfl
theorem Phi5_succ (c : Dev nD) (t : Fin cfg5.N) : (dat5 V c).Φ t.succ = Phi5 V c (t.val + 1) := rfl

/-- Off chunk 3 the output window is idle and not written back: the obligation hands its buffer back as found. -/
theorem leaves5_9_idle (c : Dev nD) (t : Fin cfg5.N) (h : ¬cond5_1 (grid5.coords t)) :
    (dat5 V c).leavesExact 9 t = iprop(∃ d, owns (c : Thread nD τ) (st5_9 t) fullShare ((dat5 V c).before 9 t d)) :=
  (dat5 V c).leavesExact_idle 9 t
    (by show (!(k5_cond2 (grid5.coords t) == 1#1)) = true
        rw [Bool.not_eq_true', beq_eq_false_iff_ne]; exact h)
    (Bool.eq_false_iff.mpr fun hfl => h ((hcond5_1 t).mpr ((flush5_9 t).mp hfl)))

/-- At chunk 3 it is live: its buffer is left at what the body stored. -/
theorem leaves5_9_live (c : Dev nD) (t : Fin cfg5.N) (h : cond5_1 (grid5.coords t)) :
    (dat5 V c).leavesExact 9 t = owns (c : Thread nD τ) (st5_9 t) fullShare ((dat5 V c).after 9 t) := by
  have hi : cfg5.idle 9 (cfg5.grid.coords t) = false := by
    show (!(k5_cond2 (grid5.coords t) == 1#1)) = false
    rw [Bool.not_eq_false', beq_iff_eq]; exact h
  unfold Dat.leavesExact; rw [hi]

/-! ## The body obligation, at a generic point -/

/-- What the body is called with at point `t`: the invariant, what the core owes, every window's current buffer. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- What it returns: the invariant at the next point, the inputs' buffers as they were, the output's as the window's
    schedule has it (stored at chunk 3, handed back as found elsewhere). -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ (dat5 V c).leavesExact 9 t)

set_option maxHeartbeats 1000000 in
/-- The body at any point, by the point's chunk: the inputs' memrefs hold their blocks, the scratch buffers what the
    invariant says, so that chunk's triple applies; what it leaves in the scratch buffers is the invariant at the
    next point (`sc5`'s recursion), forgotten again after chunk 3. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).owesAt () t.succ = (dat5 V c).owesAt () t.castSucc from rfl,
    after5_0, after5_1, after5_2, after5_3, after5_4, after5_5, after5_6, after5_7, after5_8, Phi5_castSucc, Phi5_succ]
  unfold Phi5
  by_cases hA : t.val % 4 = 0
  · have hzc : cond5_0 (grid5.coords t) := (hcond5_0 t).mpr hA
    have hlc : ¬cond5_1 (grid5.coords t) := fun h => by have := (hcond5_1 t).mp h; omega
    rw [leaves5_9_idle V c t hlc, if_pos hA, if_neg (show ¬(t.val + 1) % 4 = 0 by omega), sc5_zero_chunk V c t hA]
    iintro ⟨⟨⟨⟨⟨%gacc, Hacc⟩, ⟨%grr, Hrr⟩⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply (sound_kernel5_A c Set.univ _ _ _ _ _ _ _ _ _ _ _ _ _ _ _ _ _ _ _ _ _ _ _ _ _ hzc hlc (iblk5 V c 0 t) (iblk5 V c 1 t) (iblk5 V c 2 t) (iblk5 V c 3 t) (iblk5 V c 4 t) (iblk5 V c 5 t) (iblk5 V c 6 t) (iblk5 V c 7 t) (iblk5 V c 8 t) _ _ _ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    isplitl [Hi]; · iexact Hi
    isplitl [Hj]; · iexact Hj
    isplitl [Hacc]; · iexact Hacc
    isplitl [Hrr]; · iexact Hrr
    iintro ⟨Ha, Hb, Hc, Hd, He, Hf, Hg, Hh, Hi, Hj, Hacc, Hrr⟩
    isplitl [Hacc Hrr Hrest Hp]
    · isplitr [Hp]
      · isplitr [Hrest]
        · isplitl [Hacc]; · iexact Hacc
          iexact Hrr
        · iexact Hrest
      · iexact Hp
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    isplitl [Hi]; · iexact Hi
    iexists dj; iexact Hj

  · have hzc : ¬cond5_0 (grid5.coords t) := fun h => hA ((hcond5_0 t).mp h)
    by_cases hC : t.val % 4 = 3
    · have hlc : cond5_1 (grid5.coords t) := (hcond5_1 t).mpr hC
      rw [leaves5_9_live V c t hlc, after5_9_all, if_neg hA, if_pos (show (t.val + 1) % 4 = 0 by omega)]
      iintro ⟨⟨⟨⟨Hacc, Hrr⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
      iapply (sound_kernel5_C c Set.univ _ _ _ _ _ _ _ _ _ _ _ _ _ _ _ _ _ _ _ _ _ _ _ _ _ hzc hlc (iblk5 V c 0 t) (iblk5 V c 1 t) (iblk5 V c 2 t) (iblk5 V c 3 t) (iblk5 V c 4 t) (iblk5 V c 5 t) (iblk5 V c 6 t) (iblk5 V c 7 t) (iblk5 V c 8 t) _ _ _ _)
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [Hj]; · iexact Hj
      isplitl [Hacc]; · iexact Hacc
      isplitl [Hrr]; · iexact Hrr
      iintro ⟨Ha, Hb, Hc, Hd, He, Hf, Hg, Hh, Hi, Hj, Hacc, Hrr⟩
      isplitl [Hacc Hrr Hrest Hp]
      · isplitr [Hp]
        · isplitr [Hrest]
          · isplitl [Hacc]
            · iexists _; iexact Hacc
            iexists _; iexact Hrr
          · iexact Hrest
        · iexact Hp
      isplitl [Ho]; · iexact Ho
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      unfold out5_9; rw [sc5_succ V c t hA]
      iexact Hj

    · have hlc : ¬cond5_1 (grid5.coords t) := fun h => hC ((hcond5_1 t).mp h)
      rw [leaves5_9_idle V c t hlc, if_neg hA, if_neg (show ¬(t.val + 1) % 4 = 0 by omega), sc5_succ V c t hA]
      iintro ⟨⟨⟨⟨Hacc, Hrr⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
      iapply (sound_kernel5_B c Set.univ _ _ _ _ _ _ _ _ _ _ _ _ _ _ _ _ _ _ _ _ _ _ _ _ _ hzc hlc (iblk5 V c 0 t) (iblk5 V c 1 t) (iblk5 V c 2 t) (iblk5 V c 3 t) (iblk5 V c 4 t) (iblk5 V c 5 t) (iblk5 V c 6 t) (iblk5 V c 7 t) (iblk5 V c 8 t) _ _ _ _)
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [Hj]; · iexact Hj
      isplitl [Hacc]; · iexact Hacc
      isplitl [Hrr]; · iexact Hrr
      iintro ⟨Ha, Hb, Hc, Hd, He, Hf, Hg, Hh, Hi, Hj, Hacc, Hrr⟩
      isplitl [Hacc Hrr Hrest Hp]
      · isplitr [Hp]
        · isplitr [Hrest]
          · isplitl [Hacc]; · iexact Hacc
            iexact Hrr
          · iexact Hrest
        · iexact Hp
      isplitl [Ho]; · iexact Ho
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      iexists dj; iexact Hj

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## Into the invariant and out of it -/

/-- The class's invariant gives the invariant before the first point: the scoped rest split at the two scratch buffers,
    each at whatever it holds. -/
theorem Phi5_in (c : Dev nD) : (Pipeline.ΦA (U := UR sig nD τ) (Val := Elt F) spec5 c : sProp 𝕄) ⊢ (dat5 V c).Φ 0 := by
  show _ ⊢ Phi5 V c 0
  unfold Pipeline.ΦA Phi5
  rw [scopedRest5_split, if_pos (Nat.zero_mod 4)]
  iintro ⟨⟨⟨⟨%gacc, Hacc⟩, ⟨%grr, Hrr⟩⟩, Hrest⟩, Hp⟩
  isplitr [Hp]
  · isplitr [Hrest]
    · isplitl [Hacc]
      · iexists gacc; rw [owns_whole]; iexact Hacc
      · iexists grr; rw [owns_whole]; iexact Hrr
    · iexact Hrest
  · iexact Hp

/-- After the last point (of chunk 3) the scratch buffers' contents are forgotten: the class's invariant again. -/
theorem Phi5_out (c : Dev nD) : (dat5 V c).Φ (Fin.last cfg5.N) ⊢ (Pipeline.ΦA (U := UR sig nD τ) (Val := Elt F) spec5 c : sProp 𝕄) := by
  show Phi5 V c cfg5.N ⊢ _
  unfold Pipeline.ΦA Phi5
  rw [scopedRest5_split, if_pos (show cfg5.N % 4 = 0 by rw [show cfg5.N = 32 from N_5])]
  iintro ⟨⟨⟨⟨%gacc, Hacc⟩, ⟨%grr, Hrr⟩⟩, Hrest⟩, Hp⟩
  isplitr [Hp]
  · isplitr [Hrest]
    · isplitl [Hacc]
      · iexists gacc; rw [← owns_whole]; iexact Hacc
      · iexists grr; rw [← owns_whole]; iexact Hrr
    · iexact Hrest
  · iexact Hp

theorem share5 (c : Dev nD) : ∀ w, (dat5 V c).q w = fullShare := fun _ => rfl
theorem owed5 (c : Dev nD) : ∀ t, (dat5 V c).owed t = 0 := fun _ => rfl
theorem recorded5 (c : Dev nD) : ∀ t, (dat5 V c).recorded t = Set.univ := fun _ => rfl

end Cert.Kernel.Hand

end
-- ==== Proof.Bits.Region6.lean ====
/- REGION 6: a launch of the attention kernel (custom call 6, pipeline 6; a grid of 8 points, windows 0..13
   read and window 14 written), stated at the contents `V` the TensorCore's buffers hold when the region is entered.

   At a point `t` the body reads the whole of each input window's staging buffer, which holds the window's block of
   its array at `t` (window 0 moves with the point; windows 1..13 have one block, brought in at the first point and
   found in place at every later one, the block index not having moved). It also reads the output window's own
   buffer once, a value it does not use, and then writes ONE value over the whole of the output window's buffer:
   the sum `k6_pay1` of block 0 and a projection of a gated ratio computed from the other thirteen blocks (spelled
   out at `out6_14`). So after the body the output buffer holds exactly that value, a pure function of the fourteen
   input blocks, whatever it held before, and every input buffer holds what it held. Nothing is kept between
   points: the invariant is the launch's own (`Pipeline.ΦA`), nothing is owed, every share is full. -/
import proofs.«415492_j738734375128_3_alg».proof.Proof.Gen.Kernel.Launch
import proofs.«415492_j738734375128_3_alg».proof.Proof.Gen.Kernel.Skeleton
import proofs.«415492_j738734375128_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the part of its array, as the region finds it, that the window shows there. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's current buffer holds its block at every point, brought in there or not: where the pipeline
    brings nothing in, the window's block index is the one of the point before, and the body left the block in
    place. This holds for ANY proof data over the entry contents `V` whose body leaves the window's block where it
    found it; windows 1..13, brought in at the first point only, are the case "not brought in" at points 1..7. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)
theorem before6_10_of {c : Dev nD} (dat : Dat τ (Elt F) Unit ℕ (UR sig nD τ) ℕ cfg6 c) (hA : dat.A 10 = V c (Pipeline.arrRef spec6 10))
    (hafter : ∀ t, dat.after 10 t = iblk6 V c 10 t) (t : Fin cfg6.N) (d) : dat.before 10 t d = iblk6 V c 10 t :=
  (dat.before_in_eq_fetched 10 rfl (fun _ => rfl) (fun _ _ _ => rfl) (fun t => by rw [hafter]; unfold Dat.blockOf iblk6; rw [hA]; try rfl) t d).trans
    (by unfold Dat.fetched Dat.blockOf iblk6; rw [hA]; try rfl)
theorem before6_11_of {c : Dev nD} (dat : Dat τ (Elt F) Unit ℕ (UR sig nD τ) ℕ cfg6 c) (hA : dat.A 11 = V c (Pipeline.arrRef spec6 11))
    (hafter : ∀ t, dat.after 11 t = iblk6 V c 11 t) (t : Fin cfg6.N) (d) : dat.before 11 t d = iblk6 V c 11 t :=
  (dat.before_in_eq_fetched 11 rfl (fun _ => rfl) (fun _ _ _ => rfl) (fun t => by rw [hafter]; unfold Dat.blockOf iblk6; rw [hA]; try rfl) t d).trans
    (by unfold Dat.fetched Dat.blockOf iblk6; rw [hA]; try rfl)
theorem before6_12_of {c : Dev nD} (dat : Dat τ (Elt F) Unit ℕ (UR sig nD τ) ℕ cfg6 c) (hA : dat.A 12 = V c (Pipeline.arrRef spec6 12))
    (hafter : ∀ t, dat.after 12 t = iblk6 V c 12 t) (t : Fin cfg6.N) (d) : dat.before 12 t d = iblk6 V c 12 t :=
  (dat.before_in_eq_fetched 12 rfl (fun _ => rfl) (fun _ _ _ => rfl) (fun t => by rw [hafter]; unfold Dat.blockOf iblk6; rw [hA]; try rfl) t d).trans
    (by unfold Dat.fetched Dat.blockOf iblk6; rw [hA]; try rfl)
theorem before6_13_of {c : Dev nD} (dat : Dat τ (Elt F) Unit ℕ (UR sig nD τ) ℕ cfg6 c) (hA : dat.A 13 = V c (Pipeline.arrRef spec6 13))
    (hafter : ∀ t, dat.after 13 t = iblk6 V c 13 t) (t : Fin cfg6.N) (d) : dat.before 13 t d = iblk6 V c 13 t :=
  (dat.before_in_eq_fetched 13 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole of an activation block, of a row vector, of a weight matrix: the three rectangles the body reads and
    writes through. -/
abbrev r6_A : Rect S256x1024 := Rect.unit (s := S256x1024) ![0, 0] S256x1024.size inb_S256x1024_S256x1024_0_0
abbrev r6_B : Rect S1x1024 := Rect.unit (s := S1x1024) ![0, 0] S1x1024.size inb_S1x1024_S1x1024_0_0
abbrev r6_C : Rect S1024x1024 := Rect.unit (s := S1024x1024) ![0, 0] S1024x1024.size inb_S1024x1024_S1024x1024_0_0

/-! ## What the body leaves in the output window's buffer -/

/-- Window 14's buffer after the body, from the fourteen input blocks: its one store, of the whole block. Write `x`
    for block 0, `pⱼ` / `bⱼ` for the row vector of window `j` spread over the 256 rows, `Wⱼ` for the matrix of
    window `j`, and `a ⬝ Wᵀ` for the product contracting the second axis of both, its left factor rounded to bf16.
    With `n` the rows of `x` centred and divided by the root of their variance plus a small constant, times `p₁`
    plus `p₂` (`k6_pay3`), and `mⱼ = n · pⱼ + p₃ · (1 − pⱼ)` the mixture of `n` and `p₃` by `pⱼ` (j = 4, 5, 6):
      `e = exp (b₇ + m₄ ⬝ W₁₀ᵀ)`                      (`k6_pay11`),
      `u = b₈ + e · (m₅ ⬝ W₁₁ᵀ)`                      (`k6_pay12`),
      `g = m₆ ⬝ W₁₂ᵀ`                                 (`k6_pay10`),
    and the value stored is `x + (logistic g · (u / (b₉ + e))) ⬝ W₁₃ᵀ` (`k6_pay1`; `b₉` is `k6_pay13`). Each operand
    is the load of a whole buffer, so it is the window's block itself read through the full rectangle. -/
def out6_14 (x0 : Vec F S256x1024 .f32) (x1 x2 x3 x4 x5 x6 x7 x8 x9 : Vec F S1x1024 .f32)
    (x10 x11 x12 x13 : Vec F S1024x1024 .bf16) : Vec F S256x1024 .f32 :=
  View.canon [⟨r6_A, k6_pay1 (k6_pay2 (View.ld x0 r6_A))
    (k6_pay10 (k6_pay3 (View.ld x0 r6_A) (View.ld x1 r6_B) (View.ld x2 r6_B)) (k6_pay4 (View.ld x3 r6_B)) (k6_pay7 (View.ld x6 r6_B)) (View.ld x12 r6_C))
    (k6_pay11 (k6_pay4 (View.ld x3 r6_B)) (k6_pay5 (View.ld x4 r6_B)) (k6_pay8 (View.ld x0 r6_A) (View.ld x1 r6_B) (View.ld x2 r6_B) (View.ld x4 r6_B)) (k6_pay9 (F := F)) (View.ld x10 r6_C) (View.ld x7 r6_B))
    (k6_pay12 (k6_pay3 (View.ld x0 r6_A) (View.ld x1 r6_B) (View.ld x2 r6_B)) (k6_pay4 (View.ld x3 r6_B)) (k6_pay5 (View.ld x4 r6_B)) (k6_pay6 (View.ld x5 r6_B))
      (k6_pay8 (View.ld x0 r6_A) (View.ld x1 r6_B) (View.ld x2 r6_B) (View.ld x4 r6_B)) (k6_pay9 (F := F)) (View.ld x10 r6_C) (View.ld x11 r6_C) (View.ld x7 r6_B) (View.ld x8 r6_B))
    (k6_pay13 (View.ld x9 r6_B))
    (View.ld x13 r6_C)⟩]

/-- The one store is of the whole block, so it covers it. -/
theorem cover6_14 (p0 : Vec F S256x1024 .f32) (y : S256x1024.Idx) :
    ∃ pc ∈ ([⟨r6_A, p0⟩] : List (View.Piece (Elt F) S256x1024 .f32)), y ∈ pc.1.set :=
  View.cover_of_tiled [⟨r6_A, p0⟩] S256x1024.size (by rfl) y

/-! ## The body's triple -/

set_option maxHeartbeats 1000000 in
/-- The body on whole staging memrefs, the inputs' at read contents `x0 … x13` and the output's at anything, runs to
    the continuation holding the inputs' as they were and the output's at `out6_14` of the inputs': every load reads
    the whole of a buffer whose contents are known (the output's own, read once and not used, at whatever it
    holds), and the one store covers the output's buffer. -/
theorem sound_kernel6 (c : Dev nD) (E : Set ℕ) (i : grid6.Coords)
    (arg1 : Memref sig .tc .vmem S256x1024 .f32) (harg1 : arg1.IsWhole)
    (arg2 : Memref sig .tc .vmem S1x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S1024x1024 .bf16) (harg11 : arg11.IsWhole)
    (arg12 : Memref sig .tc .vmem S1024x1024 .bf16) (harg12 : arg12.IsWhole)
    (arg13 : Memref sig .tc .vmem S1024x1024 .bf16) (harg13 : arg13.IsWhole)
    (arg14 : Memref sig .tc .vmem S1024x1024 .bf16) (harg14 : arg14.IsWhole)
    (arg15 : Memref sig .tc .vmem S256x1024 .f32) (harg15 : arg15.IsWhole)
    (x0 : Vec F S256x1024 .f32) (x1 x2 x3 x4 x5 x6 x7 x8 x9 : Vec F S1x1024 .f32)
    (x10 x11 x12 x13 : Vec F S1024x1024 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare (out6_14 x0 x1 x2 x3 x4 x5 x6 x7 x8 x9 x10 x11 x12 x13)) -∗ K ⟨⟩))
      ⊢ wp frame (wpE (defs₀ (F := F)) Variants.none c none) E
          (cc6_attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  sl_unfold [cc6_attn_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover6_14 _)

/-! ## The pipeline's proof data -/

/-- The proof data of pipeline 6 on core `c`: the arrays as the region finds them; after the body at point `t` each
    input's buffer at its block and the output's at `out6_14` of the input blocks; the invariant the launch's own
    (the scoped rest and the generator register, untouched); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => iblk6 V c 11 t
    | ⟨12, _⟩ => iblk6 V c 12 t
    | ⟨13, _⟩ => iblk6 V c 13 t
    | ⟨14, _⟩ => out6_14 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window: an input's block, and the output's one store. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = iblk6 V c 10 t := by dsimp only [dat6]
theorem after6_11 (c : Dev nD) (t : Fin cfg6.N) : (dat6 V c).after 11 t = iblk6 V c 11 t := by dsimp only [dat6]
theorem after6_12 (c : Dev nD) (t : Fin cfg6.N) : (dat6 V c).after 12 t = iblk6 V c 12 t := by dsimp only [dat6]
theorem after6_13 (c : Dev nD) (t : Fin cfg6.N) : (dat6 V c).after 13 t = iblk6 V c 13 t := by dsimp only [dat6]
theorem after6_14 (c : Dev nD) (t : Fin cfg6.N) :
    (dat6 V c).after 14 t = out6_14 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) := by
  dsimp only [dat6]

/-- Each input's current staging buffer holds its block at every point, brought in there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d
theorem before6_10 (c : Dev nD) (t : Fin cfg6.N) (d) : (dat6 V c).before 10 t d = iblk6 V c 10 t :=
  before6_10_of V (dat6 V c) (A_eq6 V c 10) (after6_10 V c) t d
theorem before6_11 (c : Dev nD) (t : Fin cfg6.N) (d) : (dat6 V c).before 11 t d = iblk6 V c 11 t :=
  before6_11_of V (dat6 V c) (A_eq6 V c 11) (after6_11 V c) t d
theorem before6_12 (c : Dev nD) (t : Fin cfg6.N) (d) : (dat6 V c).before 12 t d = iblk6 V c 12 t :=
  before6_12_of V (dat6 V c) (A_eq6 V c 12) (after6_12 V c) t d
theorem before6_13 (c : Dev nD) (t : Fin cfg6.N) (d) : (dat6 V c).before 13 t d = iblk6 V c 13 t :=
  before6_13_of V (dat6 V c) (A_eq6 V c 13) (after6_13 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d))
    ∗ (∃ d, owns (c : Thread nD τ) (st6_11 t) fullShare ((dat6 V c).before 11 t d))
    ∗ (∃ d, owns (c : Thread nD τ) (st6_12 t) fullShare ((dat6 V c).before 12 t d))
    ∗ (∃ d, owns (c : Thread nD τ) (st6_13 t) fullShare ((dat6 V c).before 13 t d))
    ∗ (∃ d, owns (c : Thread nD τ) (st6_14 t) fullShare ((dat6 V c).before 14 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t)
    ∗ owns (c : Thread nD τ) (st6_11 t) fullShare ((dat6 V c).after 11 t)
    ∗ owns (c : Thread nD τ) (st6_12 t) fullShare ((dat6 V c).after 12 t)
    ∗ owns (c : Thread nD τ) (st6_13 t) fullShare ((dat6 V c).after 13 t)
    ∗ owns (c : Thread nD τ) (st6_14 t) fullShare ((dat6 V c).after 14 t))

set_option maxHeartbeats 1000000 in
/-- The body at any point: the inputs' memrefs hold their blocks, so the body's triple applies at those blocks; the
    invariant and the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9, before6_10, before6_11, before6_12, before6_13]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10, after6_11, after6_12, after6_13, after6_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel6 c Set.univ _ _ _ _ _ _ _ _ _ _ _ _ _ _ _ _ _ _ _ _ _ _ _ _ _ _ _ _ _ _ _
    (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's ends, the shares, the debts -/

/-- The invariant before the first point is what the launch hands the kernel, -/
theorem Phi6_in (c : Dev nD) :
    (Pipeline.ΦA (U := UR sig nD τ) (Val := Elt F) spec6 c : sProp 𝕄) ⊢ (dat6 V c).Φ 0 := .rfl

/-- and after the last point what the launch takes back. -/
theorem Phi6_out (c : Dev nD) :
    (dat6 V c).Φ (Fin.last cfg6.N) ⊢ (Pipeline.ΦA (U := UR sig nD τ) (Val := Elt F) spec6 c : sProp 𝕄) := .rfl

theorem share6 (c : Dev nD) : ∀ w, (dat6 V c).q w = fullShare := fun _ => rfl
theorem owed6 (c : Dev nD) : ∀ t, (dat6 V c).owed t = 0 := fun _ => rfl

/-- The proof data records every pair of cells (the structure's default): nothing is excluded from what the core may be owed. -/
theorem recorded6 (c : Dev nD) : ∀ t, (dat6 V c).recorded t = Set.univ := fun _ => rfl

end Cert.Kernel.Hand

end
-- ==== Proof.Bits.Region7.lean ====
/- Region 1 of the program's main function: the second TensorCore call (the feed-forward kernel), at a parameter `V`,
   the TensorCore's buffer contents when the region is entered. The call runs on a grid of 32 points, 8 row tiles by 4
   chunks; it carries two scratch buffers from point to point (an accumulator, and a second buffer
   filled at a tile's first chunk and read at its last) and stores its output block at the last chunk of each tile. This module gives: each window's
   block at a point; the body's triple in each of the three cases of its two conditionals; what the scratch buffers
   hold before each point, by recursion on the point; the pipeline's proof data, whose invariant holds the scratch
   buffers at those contents; the body obligation; and the passage from the class's invariant into this one and back. -/
import proofs.«415492_j738734375128_3_alg».proof.Proof.Gen.Kernel.Launch
import proofs.«415492_j738734375128_3_alg».proof.Proof.Gen.Kernel.Skeleton
import proofs.«415492_j738734375128_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: custom_call 7, `cc7_ffn_kernel` (pipeline 7), at the entry contents `V`

The grid has 32 points: 8 row tiles times 4 chunks, the chunk the fast coordinate. Windows 0 to 8
are inputs, window 9 the output, written back at the points of chunk 3. Two scratch buffers are carried from point to
point: an accumulator, zeroed at chunk 0 and added to at every chunk, and a second buffer filled at chunk 0 and read
at chunk 3. -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof data
    whose array is `V`'s and whose body leaves the block in place: unfetched, the block index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof data
    whose array is `V`'s and whose body leaves the block in place: unfetched, the block index has not moved. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof data
    whose array is `V`'s and whose body leaves the block in place: unfetched, the block index has not moved. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof data
    whose array is `V`'s and whose body leaves the block in place: unfetched, the block index has not moved. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof data
    whose array is `V`'s and whose body leaves the block in place: unfetched, the block index has not moved. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not, for any proof data
    whose array is `V`'s and whose body leaves the block in place: unfetched, the block index has not moved. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not, for any proof data
    whose array is `V`'s and whose body leaves the block in place: unfetched, the block index has not moved. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- Input window 7's current staging buffer holds its block at every point, fetched there or not, for any proof data
    whose array is `V`'s and whose body leaves the block in place: unfetched, the block index has not moved. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- Input window 8's current staging buffer holds its block at every point, fetched there or not, for any proof data
    whose array is `V`'s and whose body leaves the block in place: unfetched, the block index has not moved. -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-! ## The two conditionals, decided over the grid -/

/-- The first conditional's condition (the chunk coordinate is 0), as the body computes it from the grid coordinates. -/
abbrev cond7_0 (i : grid7.Coords) : Prop := (Scalar.cmpi .ne (Scalar.extui (Scalar.cmpi .eq (BitVec.ofNat 32 (i 1).val) 0#32)) 0#32) = 1#1
/-- It holds exactly at the points ≡ 0 (mod 4). -/
theorem hcond7_0 : ∀ t : Fin cfg7.N, cond7_0 (grid7.coords t) ↔ t.val % 4 = 0 :=
  (by decide +kernel : ∀ t : Fin grid7.N, cond7_0 (grid7.coords t) ↔ t.val % 4 = 0)
/-- The second conditional's condition (the chunk coordinate is 3). -/
abbrev cond7_1 (i : grid7.Coords) : Prop := k7_cond2 i = 1#1
/-- It holds exactly at the points ≡ 3 (mod 4). -/
theorem hcond7_1 : ∀ t : Fin cfg7.N, cond7_1 (grid7.coords t) ↔ t.val % 4 = 3 :=
  (by decide +kernel : ∀ t : Fin grid7.N, cond7_1 (grid7.coords t) ↔ t.val % 4 = 3)

/-! ## The body's triple, one per case of the conditionals -/
set_option maxHeartbeats 1000000 in
/-- The body at a point of chunk 0, on whole memrefs: the inputs at their read contents, the output buffer and both
    scratch buffers at anything. It refills the second scratch from the inputs, zeroes the accumulator and adds the
    chunk's partial product to it; the output buffer is not touched. -/
theorem sound_kernel7_A (c : Dev nD) (E : Set ℕ) (i : grid7.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : cond7_0 i) (hlc : ¬cond7_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare (k7_pay3 (k7_pay10 xa xb xc xe) (k7_pay11 xd xe) xg k7_pay2 xi) ∗ owns (c : Thread nD τ) arg13 fullShare (k7_pay1 (k7_pay6 xa xb xc) (k7_pay7 xd) (k7_pay9 xf) xh)) -∗ K ⟨⟩))
      ⊢ wp frame (wpE (defs₀ (F := F)) Variants.none c none) E (cc7_ffn_kernel i arg2 harg2 arg3 harg3 arg4 harg4 arg5 harg5 arg6 harg6 arg7 harg7 arg8 harg8 arg9 harg9 arg10 harg10 arg11 harg11 arg12 harg12 arg13 harg13) K := by
  simp only [cc7_ffn_kernel_eq_skeleton]; unfold cc7_ffn_kernel_skel
  simp only [k7_part1_eq_skeleton]; unfold k7_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists _; isplitr
  swap; · iexact Hl
  ipureintro
  refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
  sl_unfold_run_names
  simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]

set_option maxHeartbeats 1000000 in
/-- The body at a point of chunk 1 or 2: the accumulator at `a` gains the chunk's partial product; the second scratch
    and the output buffer are not touched. -/
theorem sound_kernel7_B (c : Dev nD) (E : Set ℕ) (i : grid7.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : ¬cond7_0 i) (hlc : ¬cond7_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare (k7_pay3 (k7_pay10 xa xb xc xe) (k7_pay11 xd xe) xg a xi) ∗ owns (c : Thread nD τ) arg13 fullShare r) -∗ K ⟨⟩))
      ⊢ wp frame (wpE (defs₀ (F := F)) Variants.none c none) E (cc7_ffn_kernel i arg2 harg2 arg3 harg3 arg4 harg4 arg5 harg5 arg6 harg6 arg7 harg7 arg8 harg8 arg9 harg9 arg10 harg10 arg11 harg11 arg12 harg12 arg13 harg13) K := by
  simp only [cc7_ffn_kernel_eq_skeleton]; unfold cc7_ffn_kernel_skel
  simp only [k7_part1_eq_skeleton]; unfold k7_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists fl; isplitr; · ipureintro; rfl
  iexact Hl

set_option maxHeartbeats 1000000 in
/-- The body at a point of chunk 3: the accumulator gains the last partial product, and the output buffer is stored
    whole, from the input block, the second scratch and the finished accumulator. -/
theorem sound_kernel7_C (c : Dev nD) (E : Set ℕ) (i : grid7.Coords) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (hzc : ¬cond7_0 i) (hlc : cond7_1 i) (xa : Vec F S256x1024 .f32) (xb xc xd xe xf : Vec F S1x1024 .f32) (xg xh xi : Vec F S1024x1024 .bf16) (y a r : Vec F S256x1024 .f32) (K : PUnit → sProp 𝕄) :
    iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare y ∗ owns (c : Thread nD τ) arg12 fullShare a ∗ owns (c : Thread nD τ) arg13 fullShare r
        ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xf ∗ owns (c : Thread nD τ) arg8 fullShare xg ∗ owns (c : Thread nD τ) arg9 fullShare xh ∗ owns (c : Thread nD τ) arg10 fullShare xi ∗ owns (c : Thread nD τ) arg11 fullShare (k7_pay4 (k7_pay5 xa) r (k7_pay3 (k7_pay10 xa xb xc xe) (k7_pay11 xd xe) xg a xi)) ∗ owns (c : Thread nD τ) arg12 fullShare (k7_pay3 (k7_pay10 xa xb xc xe) (k7_pay11 xd xe) xg a xi) ∗ owns (c : Thread nD τ) arg13 fullShare r) -∗ K ⟨⟩))
      ⊢ wp frame (wpE (defs₀ (F := F)) Variants.none c none) E (cc7_ffn_kernel i arg2 harg2 arg3 harg3 arg4 harg4 arg5 harg5 arg6 harg6 arg7 harg7 arg8 harg8 arg9 harg9 arg10 harg10 arg11 harg11 arg12 harg12 arg13 harg13) K := by
  simp only [cc7_ffn_kernel_eq_skeleton]; unfold cc7_ffn_kernel_skel
  simp only [k7_part1_eq_skeleton]; unfold k7_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fi, %hfi, Hi⟩, ⟨%fj, %hfj, Hj⟩, ⟨%fk, %hfk, Hk⟩, ⟨%fl, %hfl, Hl⟩, Hk⟩
  subst hfa hfb hfc hfd hfe hff hfg hfh hfi hfj hfk hfl
  have hz : (![0, 0] : Fin 2 → Nat) = fun _ => 0 := funext fun a => by fin_cases a <;> rfl
  sl_exec (disch := first | exact hzc | exact hlc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists _; isplitr
    swap; · iexact Hj
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  isplitl [Hk]
  · iexists _; isplitr
    swap; · iexact Hk
    ipureintro
    refine (View.read_writes_eq_canon _ _ _ (fun y => ⟨_, List.mem_cons_self .., View.mem_set_unit_zero hz inb_S256x1024_S256x1024_0_0 y⟩)).trans ((View.canon_cons_unit_zero hz inb_S256x1024_S256x1024_0_0 _ _).trans ?_)
    sl_unfold_run_names
    simp only [View.readAt_eq_ld, View.ld_unit_zero (S := S256x1024) hz, View.ld_unit_zero (S := S1x1024) hz, View.ld_unit_zero (S := S1024x1024) hz, View.readCov_unit_zero (S := S256x1024) _ hz inb_S256x1024_S256x1024_0_0]
  iexists fl; isplitr; · ipureintro; rfl
  iexact Hl

/-! ## The carried scratch, point by point -/

/-- What the two scratch buffers hold BEFORE point `n` (after point `n - 1`), as the pair (accumulator, second
    buffer), by recursion on the point: a point of chunk 0 refills the second buffer from its input blocks and leaves
    the accumulator at the chunk's partial product over zero; any other point keeps the second buffer and adds its
    partial product to the accumulator. Before a point of chunk 0 the value is never read (the body overwrites both
    buffers there before loading them). -/
def sc7 (c : Dev nD) : ℕ → Vec F S256x1024 .f32 × Vec F S256x1024 .f32
  | 0 => (k7_pay2, k7_pay2)
  | n + 1 =>
    if h : n < cfg7.N then
      if n % 4 = 0 then
        ((k7_pay3 (k7_pay10 (iblk7 V c 0 ⟨n, h⟩) (iblk7 V c 1 ⟨n, h⟩) (iblk7 V c 2 ⟨n, h⟩) (iblk7 V c 4 ⟨n, h⟩)) (k7_pay11 (iblk7 V c 3 ⟨n, h⟩) (iblk7 V c 4 ⟨n, h⟩)) (iblk7 V c 6 ⟨n, h⟩) k7_pay2 (iblk7 V c 8 ⟨n, h⟩)),
          (k7_pay1 (k7_pay6 (iblk7 V c 0 ⟨n, h⟩) (iblk7 V c 1 ⟨n, h⟩) (iblk7 V c 2 ⟨n, h⟩)) (k7_pay7 (iblk7 V c 3 ⟨n, h⟩)) (k7_pay9 (iblk7 V c 5 ⟨n, h⟩)) (iblk7 V c 7 ⟨n, h⟩)))
      else
        ((k7_pay3 (k7_pay10 (iblk7 V c 0 ⟨n, h⟩) (iblk7 V c 1 ⟨n, h⟩) (iblk7 V c 2 ⟨n, h⟩) (iblk7 V c 4 ⟨n, h⟩)) (k7_pay11 (iblk7 V c 3 ⟨n, h⟩) (iblk7 V c 4 ⟨n, h⟩)) (iblk7 V c 6 ⟨n, h⟩) (sc7 c n).1 (iblk7 V c 8 ⟨n, h⟩)),
          (sc7 c n).2)
    else sc7 c n

/-- After a point of chunk 0: the accumulator is the chunk's partial product over zero, the second buffer is refilled. -/
theorem sc7_zero_chunk (c : Dev nD) (t : Fin cfg7.N) (h : t.val % 4 = 0) :
    sc7 V c (t.val + 1) = ((k7_pay3 (k7_pay10 (iblk7 V c 0 t) (iblk7 V c 1 t) (iblk7 V c 2 t) (iblk7 V c 4 t)) (k7_pay11 (iblk7 V c 3 t) (iblk7 V c 4 t)) (iblk7 V c 6 t) k7_pay2 (iblk7 V c 8 t)),
      (k7_pay1 (k7_pay6 (iblk7 V c 0 t) (iblk7 V c 1 t) (iblk7 V c 2 t)) (k7_pay7 (iblk7 V c 3 t)) (k7_pay9 (iblk7 V c 5 t)) (iblk7 V c 7 t))) := by
  obtain ⟨n, hn⟩ := t
  show sc7 V c (n + 1) = _
  rw [sc7, dif_pos hn, if_pos h]

/-- After a point of any other chunk: the accumulator has gained the chunk's partial product, the second buffer is kept. -/
theorem sc7_succ (c : Dev nD) (t : Fin cfg7.N) (h : ¬t.val % 4 = 0) :
    sc7 V c (t.val + 1) = ((k7_pay3 (k7_pay10 (iblk7 V c 0 t) (iblk7 V c 1 t) (iblk7 V c 2 t) (iblk7 V c 4 t)) (k7_pay11 (iblk7 V c 3 t) (iblk7 V c 4 t)) (iblk7 V c 6 t) (sc7 V c t.val).1 (iblk7 V c 8 t)),
      (sc7 V c t.val).2) := by
  obtain ⟨n, hn⟩ := t
  show sc7 V c (n + 1) = _
  rw [sc7, dif_pos hn, if_neg h]

/-- What a point of chunk 3 stores into the output window's buffer: from the point's block of window 0, the second
    scratch buffer and the accumulator as that point leaves them. -/
def out7_9 (c : Dev nD) (t : Fin cfg7.N) : Vec F S256x1024 .f32 :=
  k7_pay4 (k7_pay5 (iblk7 V c 0 t)) (sc7 V c (t.val + 1)).2 (sc7 V c (t.val + 1)).1

/-- The region invariant before point `n`: the two scratch buffers — at anything before a point of chunk 0, which
    overwrites them, else at `sc7` —, the rest of the core's scoped buffers unopened, the generator register at some
    state. -/
def Phi7 (c : Dev nD) (n : ℕ) : sProp 𝕄 :=
  iprop(iprop((if n % 4 = 0 then
        (iprop((∃ X, owns (c : Thread nD τ) (Memref.whole cc7_scratch0) fullShare X) ∗ (∃ X, owns (c : Thread nD τ) (Memref.whole cc7_scratch1) fullShare X)) : sProp 𝕄)
      else iprop(owns (c : Thread nD τ) (Memref.whole cc7_scratch0) fullShare (sc7 V c n).1 ∗ owns (c : Thread nD τ) (Memref.whole cc7_scratch1) fullShare (sc7 V c n).2))
    ∗ Pipeline.scopedRestBut (Ix := Unit) (Name := ℕ) (U := UR sig nD τ) (Lvl := ℕ) (Val := Elt F) spec7 c [cc7_scratch0, cc7_scratch1]) ∗ ∃ r, prngReg c r)

/-! ## The pipeline's proof data -/

/-- The proof data of pipeline 7 on core `c`: the arrays as the region finds them (`V`); after the body at point `t`
    each input's buffer at its block and the output's at `out7_9` (read only at the points of chunk 3: elsewhere the
    window is idle and not written back); the invariant `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7_9 V c t
  Φ t := Phi7 V c t.val
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9_all (c : Dev nD) (t : Fin cfg7.N) : (dat7 V c).after 9 t = out7_9 V c t := by dsimp only [dat7]
theorem after7_9 (c : Dev nD) (t : Fin cfg7.N) (h : t.val % 4 = 3) : (dat7 V c).after 9 t = out7_9 V c t := after7_9_all V c t

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d

/-- The invariant at a point's start and at its end, restated at the point's number. -/
theorem Phi7_castSucc (c : Dev nD) (t : Fin cfg7.N) : (dat7 V c).Φ t.castSucc = Phi7 V c t.val := rfl
theorem Phi7_succ (c : Dev nD) (t : Fin cfg7.N) : (dat7 V c).Φ t.succ = Phi7 V c (t.val + 1) := rfl

/-- Off chunk 3 the output window is idle and not written back: the obligation hands its buffer back as found. -/
theorem leaves7_9_idle (c : Dev nD) (t : Fin cfg7.N) (h : ¬cond7_1 (grid7.coords t)) :
    (dat7 V c).leavesExact 9 t = iprop(∃ d, owns (c : Thread nD τ) (st7_9 t) fullShare ((dat7 V c).before 9 t d)) :=
  (dat7 V c).leavesExact_idle 9 t
    (by show (!(k7_cond2 (grid7.coords t) == 1#1)) = true
        rw [Bool.not_eq_true', beq_eq_false_iff_ne]; exact h)
    (Bool.eq_false_iff.mpr fun hfl => h ((hcond7_1 t).mpr ((flush7_9 t).mp hfl)))

/-- At chunk 3 it is live: its buffer is left at what the body stored. -/
theorem leaves7_9_live (c : Dev nD) (t : Fin cfg7.N) (h : cond7_1 (grid7.coords t)) :
    (dat7 V c).leavesExact 9 t = owns (c : Thread nD τ) (st7_9 t) fullShare ((dat7 V c).after 9 t) := by
  have hi : cfg7.idle 9 (cfg7.grid.coords t) = false := by
    show (!(k7_cond2 (grid7.coords t) == 1#1)) = false
    rw [Bool.not_eq_false', beq_iff_eq]; exact h
  unfold Dat.leavesExact; rw [hi]

/-! ## The body obligation, at a generic point -/

/-- What the body is called with at point `t`: the invariant, what the core owes, every window's current buffer. -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d)))

/-- What it returns: the invariant at the next point, the inputs' buffers as they were, the output's as the window's
    schedule has it (stored at chunk 3, handed back as found elsewhere). -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ (dat7 V c).leavesExact 9 t)

set_option maxHeartbeats 1000000 in
/-- The body at any point, by the point's chunk: the inputs' memrefs hold their blocks, the scratch buffers what the
    invariant says, so that chunk's triple applies; what it leaves in the scratch buffers is the invariant at the
    next point (`sc7`'s recursion), forgotten again after chunk 3. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8]
  rw [show (dat7 V c).owesAt () t.succ = (dat7 V c).owesAt () t.castSucc from rfl,
    after7_0, after7_1, after7_2, after7_3, after7_4, after7_5, after7_6, after7_7, after7_8, Phi7_castSucc, Phi7_succ]
  unfold Phi7
  by_cases hA : t.val % 4 = 0
  · have hzc : cond7_0 (grid7.coords t) := (hcond7_0 t).mpr hA
    have hlc : ¬cond7_1 (grid7.coords t) := fun h => by have := (hcond7_1 t).mp h; omega
    rw [leaves7_9_idle V c t hlc, if_pos hA, if_neg (show ¬(t.val + 1) % 4 = 0 by omega), sc7_zero_chunk V c t hA]
    iintro ⟨⟨⟨⟨⟨%gacc, Hacc⟩, ⟨%grr, Hrr⟩⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
    iapply (sound_kernel7_A c Set.univ _ _ _ _ _ _ _ _ _ _ _ _ _ _ _ _ _ _ _ _ _ _ _ _ _ hzc hlc (iblk7 V c 0 t) (iblk7 V c 1 t) (iblk7 V c 2 t) (iblk7 V c 3 t) (iblk7 V c 4 t) (iblk7 V c 5 t) (iblk7 V c 6 t) (iblk7 V c 7 t) (iblk7 V c 8 t) _ _ _ _)
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    isplitl [Hi]; · iexact Hi
    isplitl [Hj]; · iexact Hj
    isplitl [Hacc]; · iexact Hacc
    isplitl [Hrr]; · iexact Hrr
    iintro ⟨Ha, Hb, Hc, Hd, He, Hf, Hg, Hh, Hi, Hj, Hacc, Hrr⟩
    isplitl [Hacc Hrr Hrest Hp]
    · isplitr [Hp]
      · isplitr [Hrest]
        · isplitl [Hacc]; · iexact Hacc
          iexact Hrr
        · iexact Hrest
      · iexact Hp
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    isplitl [Hi]; · iexact Hi
    iexists dj; iexact Hj

  · have hzc : ¬cond7_0 (grid7.coords t) := fun h => hA ((hcond7_0 t).mp h)
    by_cases hC : t.val % 4 = 3
    · have hlc : cond7_1 (grid7.coords t) := (hcond7_1 t).mpr hC
      rw [leaves7_9_live V c t hlc, after7_9_all, if_neg hA, if_pos (show (t.val + 1) % 4 = 0 by omega)]
      iintro ⟨⟨⟨⟨Hacc, Hrr⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
      iapply (sound_kernel7_C c Set.univ _ _ _ _ _ _ _ _ _ _ _ _ _ _ _ _ _ _ _ _ _ _ _ _ _ hzc hlc (iblk7 V c 0 t) (iblk7 V c 1 t) (iblk7 V c 2 t) (iblk7 V c 3 t) (iblk7 V c 4 t) (iblk7 V c 5 t) (iblk7 V c 6 t) (iblk7 V c 7 t) (iblk7 V c 8 t) _ _ _ _)
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [Hj]; · iexact Hj
      isplitl [Hacc]; · iexact Hacc
      isplitl [Hrr]; · iexact Hrr
      iintro ⟨Ha, Hb, Hc, Hd, He, Hf, Hg, Hh, Hi, Hj, Hacc, Hrr⟩
      isplitl [Hacc Hrr Hrest Hp]
      · isplitr [Hp]
        · isplitr [Hrest]
          · isplitl [Hacc]
            · iexists _; iexact Hacc
            iexists _; iexact Hrr
          · iexact Hrest
        · iexact Hp
      isplitl [Ho]; · iexact Ho
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      unfold out7_9; rw [sc7_succ V c t hA]
      iexact Hj

    · have hlc : ¬cond7_1 (grid7.coords t) := fun h => hC ((hcond7_1 t).mp h)
      rw [leaves7_9_idle V c t hlc, if_neg hA, if_neg (show ¬(t.val + 1) % 4 = 0 by omega), sc7_succ V c t hA]
      iintro ⟨⟨⟨⟨Hacc, Hrr⟩, Hrest⟩, Hp⟩, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩⟩
      iapply (sound_kernel7_B c Set.univ _ _ _ _ _ _ _ _ _ _ _ _ _ _ _ _ _ _ _ _ _ _ _ _ _ hzc hlc (iblk7 V c 0 t) (iblk7 V c 1 t) (iblk7 V c 2 t) (iblk7 V c 3 t) (iblk7 V c 4 t) (iblk7 V c 5 t) (iblk7 V c 6 t) (iblk7 V c 7 t) (iblk7 V c 8 t) _ _ _ _)
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      isplitl [Hj]; · iexact Hj
      isplitl [Hacc]; · iexact Hacc
      isplitl [Hrr]; · iexact Hrr
      iintro ⟨Ha, Hb, Hc, Hd, He, Hf, Hg, Hh, Hi, Hj, Hacc, Hrr⟩
      isplitl [Hacc Hrr Hrest Hp]
      · isplitr [Hp]
        · isplitr [Hrest]
          · isplitl [Hacc]; · iexact Hacc
            iexact Hrr
          · iexact Hrest
        · iexact Hp
      isplitl [Ho]; · iexact Ho
      isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      isplitl [Hh]; · iexact Hh
      isplitl [Hi]; · iexact Hi
      iexists dj; iexact Hj

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Into the invariant and out of it -/

/-- The class's invariant gives the invariant before the first point: the scoped rest split at the two scratch buffers,
    each at whatever it holds. -/
theorem Phi7_in (c : Dev nD) : (Pipeline.ΦA (U := UR sig nD τ) (Val := Elt F) spec7 c : sProp 𝕄) ⊢ (dat7 V c).Φ 0 := by
  show _ ⊢ Phi7 V c 0
  unfold Pipeline.ΦA Phi7
  rw [scopedRest7_split, if_pos (Nat.zero_mod 4)]
  iintro ⟨⟨⟨⟨%gacc, Hacc⟩, ⟨%grr, Hrr⟩⟩, Hrest⟩, Hp⟩
  isplitr [Hp]
  · isplitr [Hrest]
    · isplitl [Hacc]
      · iexists gacc; rw [owns_whole]; iexact Hacc
      · iexists grr; rw [owns_whole]; iexact Hrr
    · iexact Hrest
  · iexact Hp

/-- After the last point (of chunk 3) the scratch buffers' contents are forgotten: the class's invariant again. -/
theorem Phi7_out (c : Dev nD) : (dat7 V c).Φ (Fin.last cfg7.N) ⊢ (Pipeline.ΦA (U := UR sig nD τ) (Val := Elt F) spec7 c : sProp 𝕄) := by
  show Phi7 V c cfg7.N ⊢ _
  unfold Pipeline.ΦA Phi7
  rw [scopedRest7_split, if_pos (show cfg7.N % 4 = 0 by rw [show cfg7.N = 32 from N_7])]
  iintro ⟨⟨⟨⟨%gacc, Hacc⟩, ⟨%grr, Hrr⟩⟩, Hrest⟩, Hp⟩
  isplitr [Hp]
  · isplitr [Hrest]
    · isplitl [Hacc]
      · iexists gacc; rw [← owns_whole]; iexact Hacc
      · iexists grr; rw [← owns_whole]; iexact Hrr
    · iexact Hrest
  · iexact Hp

theorem share7 (c : Dev nD) : ∀ w, (dat7 V c).q w = fullShare := fun _ => rfl
theorem owed7 (c : Dev nD) : ∀ t, (dat7 V c).owed t = 0 := fun _ => rfl
theorem recorded7 (c : Dev nD) : ∀ t, (dat7 V c).recorded t = Set.univ := fun _ => rfl

end Cert.Kernel.Hand

end
-- ==== Proof.Bits.Region8.lean ====
/- REGION 8 of @main: custom_call 8, `cc8_head_kernel` (pipeline 8), at the region-entry contents `V`.
   The grid is one axis of 99 points. Window 0 (the activations, 2048×1024, bf16) is the whole array, fetched at
   the first point; window 1 (the weight tile, 512×1024, bf16) is row block `i` of the padded weight matrix.
   At point `i` the body computes the tile of logits x·wᵀ (2048×512, f32), replaces the columns whose global
   index `i·512 + j` is not below the vocabulary size by a large negative constant, and stores three results:
   window 2, the masked tile rounded to bf16; window 3, the tile's maximum broadcast over an 8×128 block;
   window 4, the sum over the tile of exp(logit − maximum) on the unmasked columns, broadcast likewise.
   The arithmetic reads the grid coordinate (the column base `i·512`), so each output is a function of the
   coordinate and of the two input blocks. Every store is of its window's whole block, so what the body leaves
   in an output's buffer is the canon of that one store. -/
import proofs.«415492_j738734375128_3_alg».proof.Proof.Gen.Kernel.Launch
import proofs.«415492_j738734375128_3_alg».proof.Proof.Gen.Kernel.Skeleton
import proofs.«415492_j738734375128_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s and whose body leaves the block in place: unfetched, the block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's likewise. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each the whole of its buffer -/

abbrev r8_0 : Rect S2048x1024 := Rect.unit (s := S2048x1024) ![0, 0] S2048x1024.size inb_S2048x1024_S2048x1024_0_0
abbrev r8_1 : Rect S512x1024 := Rect.unit (s := S512x1024) ![0, 0] S512x1024.size inb_S512x1024_S512x1024_0_0
abbrev r8_2 : Rect S2048x512 := Rect.unit (s := S2048x512) ![0, 0] S2048x512.size inb_S2048x512_S2048x512_0_0
abbrev r8_3 : Rect S1x8x128 := Rect.unit (s := S1x8x128) ![0, 0, 0] S1x8x128.size inb_S1x8x128_S1x8x128_0_0_0

/-! ## What the body leaves in each output window's buffer -/

/-- Window 2's staging buffer after the body at coordinate `i`, from the input windows' blocks: the masked
    logits tile rounded to bf16, stored whole. -/
def out8_2 (i : grid8.Coords) (x0 : Vec F S2048x1024 .bf16) (x1 : Vec F S512x1024 .bf16) : Vec F S2048x512 .bf16 :=
  View.canon [⟨r8_2, k8_pay4 i (View.ld x0 r8_0) (View.ld x1 r8_1)⟩]

/-- Window 3's: the tile's maximum, broadcast, stored whole. -/
def out8_3 (i : grid8.Coords) (x0 : Vec F S2048x1024 .bf16) (x1 : Vec F S512x1024 .bf16) : Vec F S1x8x128 .f32 :=
  View.canon [⟨r8_3, k8_pay6 i (View.ld x0 r8_0) (View.ld x1 r8_1)⟩]

/-- Window 4's: the tile's sum of exponentials about that maximum, broadcast, stored whole. -/
def out8_4 (i : grid8.Coords) (x0 : Vec F S2048x1024 .bf16) (x1 : Vec F S512x1024 .bf16) : Vec F S1x8x128 .f32 :=
  View.canon [⟨r8_3, k8_pay1 (k8_pay7 i (View.ld x0 r8_0) (View.ld x1 r8_1))⟩]

/-- One store of the whole block tiles it, so it covers it. -/
theorem cover8_2 (p0 : Vec F S2048x512 .bf16) (y : S2048x512.Idx) :
    ∃ pc ∈ ([⟨r8_2, p0⟩] : List (View.Piece (Elt F) S2048x512 .bf16)), y ∈ pc.1.set :=
  View.cover_of_tiled [⟨r8_2, p0⟩] S2048x512.size (by rfl) y

theorem cover8_3 (p0 : Vec F S1x8x128 .f32) (y : S1x8x128.Idx) :
    ∃ pc ∈ ([⟨r8_3, p0⟩] : List (View.Piece (Elt F) S1x8x128 .f32)), y ∈ pc.1.set :=
  View.cover_of_tiled [⟨r8_3, p0⟩] S1x8x128.size (by rfl) y

/-! ## The body's triple -/

set_option maxHeartbeats 4000000 in
/-- The kernel body at coordinate `i` on whole staging memrefs, the inputs' at read contents `x0`, `x1` and the
    outputs' at anything, runs to the continuation holding the inputs' as they were and each output's at its
    `out8_w` of the coordinate and the inputs'. -/
theorem sound_kernel8 (c : Dev nD) (E : Set ℕ) (i : grid8.Coords)
    (arg1 : Memref sig .tc .vmem S2048x1024 .bf16) (harg1 : arg1.IsWhole) (arg2 : Memref sig .tc .vmem S512x1024 .bf16) (harg2 : arg2.IsWhole)
    (arg3 : Memref sig .tc .vmem S2048x512 .bf16) (harg3 : arg3.IsWhole) (arg4 : Memref sig .tc .vmem S1x8x128 .f32) (harg4 : arg4.IsWhole)
    (arg5 : Memref sig .tc .vmem S1x8x128 .f32) (harg5 : arg5.IsWhole)
    (x0 : Vec F S2048x1024 .bf16) (x1 : Vec F S512x1024 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (out8_2 i x0 x1) ∗ owns (c : Thread nD τ) arg4 fullShare (out8_3 i x0 x1)
            ∗ owns (c : Thread nD τ) arg5 fullShare (out8_4 i x0 x1)) -∗ K ⟨⟩))
      ⊢ wp frame (wpE (defs₀ (F := F)) Variants.none c none) E (cc8_head_kernel i arg1 harg1 arg2 harg2 arg3 harg3 arg4 harg4 arg5 harg5) K := by
  simp only [cc8_head_kernel_eq_skeleton]; unfold cc8_head_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover8_2 _)
  isplitl [H3]
  · iexists _; isplitr
    swap; · iexact H3
    ipureintro
    exact View.read_writes_eq_canon _ _ _ (cover8_3 _)
  iexists _; isplitr
  swap; · iexact H4
  ipureintro
  exact View.read_writes_eq_canon _ _ _ (cover8_3 _)

/-! ## The pipeline's proof data -/

/-- The proof data of pipeline 8 on core `c`: the arrays as the region finds them (`V`); after the body at point
    `t` each input's buffer at its block and each output's at `out8_w` of the point's coordinate and the input
    blocks; the invariant the scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (cfg8.grid.coords t) (iblk8 V c 0 t) (iblk8 V c 1 t)
    | ⟨3, _⟩ => out8_3 (cfg8.grid.coords t) (iblk8 V c 0 t) (iblk8 V c 1 t)
    | ⟨4, _⟩ => out8_4 (cfg8.grid.coords t) (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) :
    (dat8 V c).after 2 t = out8_2 (cfg8.grid.coords t) (iblk8 V c 0 t) (iblk8 V c 1 t) := by dsimp only [dat8]
theorem after8_3 (c : Dev nD) (t : Fin cfg8.N) :
    (dat8 V c).after 3 t = out8_3 (cfg8.grid.coords t) (iblk8 V c 0 t) (iblk8 V c 1 t) := by dsimp only [dat8]
theorem after8_4 (c : Dev nD) (t : Fin cfg8.N) :
    (dat8 V c).after 4 t = out8_4 (cfg8.grid.coords t) (iblk8 V c 0 t) (iblk8 V c 1 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

theorem share8 (c : Dev nD) : ∀ w, (dat8 V c).q w = fullShare := fun _ => rfl
theorem owed8 (c : Dev nD) : ∀ t, (dat8 V c).owed t = 0 := fun _ => rfl

/-- The invariant is the class's at both ends of the region. -/
theorem Phi8_in (c : Dev nD) :
    (Pipeline.ΦA (U := UR sig nD τ) (Val := Elt F) spec8 c : sProp 𝕄) ⊢ (dat8 V c).Φ 0 := .rfl
theorem Phi8_out (c : Dev nD) :
    (dat8 V c).Φ (Fin.last cfg8.N) ⊢ (Pipeline.ΦA (U := UR sig nD τ) (Val := Elt F) spec8 c : sProp 𝕄) := .rfl

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' memrefs hold their blocks, so the body's triple applies at the point's
    coordinate; the invariant and the core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ (grid8.coords t) _ _ _ _ _ _ _ _ _ _ (iblk8 V c 0 t) (iblk8 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation8 (c : Dev nD) : BodyObligation (dat8 (F := F) V c) (defs₀ (F := F)) Variants.none () Set.univ := fun t => by
  rw [bigSep_W8, bigSep_W8]
  exact sound_body8 V c t

/-- The proof data records every pair of cells (the structure's default): nothing is excluded from what the core may be owed. -/
theorem recorded8 (c : Dev nD) : ∀ t, (dat8 V c).recorded t = Set.univ := fun _ => rfl

end Cert.Kernel.Hand

end
-- ==== Proof.Bits.Run.lean ====
/- THE RUN of @main: twenty items from the launch to the return — eleven stretches of host operations and nine regions.
   The buffer contents at every boundary as a fold from the launch memory (a stretch's operations applied in order; a
   region's window arrays at what its write-backs leave, every other buffer as entered); each argument array read back
   through the fold to its launch contents (no stretch writes one, none is a window's array); every pipeline's proof
   data at its region's entry contents; a segment per item over the thread state "every unscoped buffer at the
   boundary's contents, the generator register at some state, nothing owed"; and the run itself at any element type:
   every weakly fair execution terminates, nothing faulting, every final state holding each unscoped buffer at the last
   boundary's contents — whence the argument arrays as launched and the result array at the fold's last value. -/
import proofs.«415492_j738734375128_3_alg».proof.Proof.Bits.Region0
import proofs.«415492_j738734375128_3_alg».proof.Proof.Bits.Region1
import proofs.«415492_j738734375128_3_alg».proof.Proof.Bits.Region2
import proofs.«415492_j738734375128_3_alg».proof.Proof.Bits.Region3
import proofs.«415492_j738734375128_3_alg».proof.Proof.Bits.Region4
import proofs.«415492_j738734375128_3_alg».proof.Proof.Bits.Region5
import proofs.«415492_j738734375128_3_alg».proof.Proof.Bits.Region6
import proofs.«415492_j738734375128_3_alg».proof.Proof.Bits.Region7
import proofs.«415492_j738734375128_3_alg».proof.Proof.Bits.Region8
import proofs.«415492_j738734375128_3_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the host stretches write: no operation allocates a buffer, and each writes one listed reference -/

/-- No operation of `hostOps0` allocates a buffer. -/
theorem hostOps0_fresh : (hostOps0 : List (HloOp τ sig (Elt F))).Forall fun op => op.fresh = ∅ := by
  simp only [List.Forall]; repeat' constructor
/-- The references `hostOps0`'s operations write, in order. -/
abbrev hostOps0_W : List (Ref sig .tc) :=
  [main_c, main_v0, main_v1, main_c_0, main_v2, main_v3, main_v4, main_v5, main_v6, main_cst,
   main_v7, main_v8, main_cst_1, main_v9, main_v10, main_v11, main_v12, main_v13, main_cst_2, main_v14,
   main_v15, main_cst_3, main_v16, main_v17, main_v18, main_v19, main_cst_4, main_v20, main_v21, main_v22,
   main_v23, main_v24, main_v25, main_v26, main_v27, main_v28, main_v29, main_v30, main_v31, main_v32,
   main_v33, main_v34, main_v35, main_v36, main_v37, main_v38, main_v39, main_v40, main_v41, main_v42,
   main_v43, main_v44, main_v45, main_v46, main_v47, main_v48, main_v49, main_v50, main_v51, main_v52,
   main_v53, main_v54, main_v55, main_v56, main_v57, main_v58, main_v59, main_v60, main_v61, main_v62,
   main_v63, main_v64, main_v65, main_v66, main_v67, main_v68, main_v69, main_v70]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps1` allocates a buffer. -/
theorem hostOps1_fresh : (hostOps1 : List (HloOp τ sig (Elt F))).Forall fun op => op.fresh = ∅ := by
  simp only [List.Forall]; repeat' constructor
/-- The references `hostOps1`'s operations write, in order. -/
abbrev hostOps1_W : List (Ref sig .tc) :=
  [main_v72, main_v73, main_v74, main_v75, main_v76, main_v77, main_v78, main_v79, main_v80, main_v81,
   main_v82, main_v83, main_v84, main_v85, main_v86, main_v87, main_v88, main_v89, main_v90, main_v91,
   main_v92, main_v93, main_v94, main_v95]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps2` allocates a buffer. -/
theorem hostOps2_fresh : (hostOps2 : List (HloOp τ sig (Elt F))).Forall fun op => op.fresh = ∅ := by
  simp only [List.Forall]; repeat' constructor
/-- The references `hostOps2`'s operations write, in order. -/
abbrev hostOps2_W : List (Ref sig .tc) :=
  [main_v97, main_v98, main_v99, main_v100, main_v101, main_v102, main_v103, main_v104, main_v105, main_v106,
   main_v107, main_v108, main_v109, main_v110, main_v111, main_v112, main_v113, main_v114, main_v115, main_v116,
   main_v117, main_v118, main_v119, main_v120, main_v121, main_v122, main_v123, main_v124, main_v125, main_v126,
   main_v127, main_v128, main_v129, main_v130, main_v131, main_v132, main_v133, main_v134, main_v135]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps3` allocates a buffer. -/
theorem hostOps3_fresh : (hostOps3 : List (HloOp τ sig (Elt F))).Forall fun op => op.fresh = ∅ := by
  simp only [List.Forall]; repeat' constructor
/-- The references `hostOps3`'s operations write, in order. -/
abbrev hostOps3_W : List (Ref sig .tc) :=
  [main_v137, main_v138, main_v139, main_v140, main_v141, main_v142, main_v143, main_v144, main_v145, main_v146,
   main_v147, main_v148, main_v149, main_v150, main_v151, main_v152, main_v153, main_v154, main_v155, main_v156,
   main_v157, main_v158, main_v159, main_v160]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps4` allocates a buffer. -/
theorem hostOps4_fresh : (hostOps4 : List (HloOp τ sig (Elt F))).Forall fun op => op.fresh = ∅ := by
  simp only [List.Forall]; repeat' constructor
/-- The references `hostOps4`'s operations write, in order. -/
abbrev hostOps4_W : List (Ref sig .tc) :=
  [main_v162, main_v163, main_v164, main_v165, main_v166, main_v167, main_v168, main_v169, main_v170, main_v171,
   main_v172, main_v173, main_v174, main_v175, main_v176, main_v177, main_v178, main_v179, main_v180, main_v181,
   main_v182, main_v183, main_v184, main_v185, main_v186, main_v187, main_v188, main_v189, main_v190, main_v191,
   main_v192, main_v193, main_v194, main_v195, main_v196, main_v197, main_v198, main_v199, main_v200]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps5` allocates a buffer. -/
theorem hostOps5_fresh : (hostOps5 : List (HloOp τ sig (Elt F))).Forall fun op => op.fresh = ∅ := by
  simp only [List.Forall]; repeat' constructor
/-- The references `hostOps5`'s operations write, in order. -/
abbrev hostOps5_W : List (Ref sig .tc) :=
  [main_v202, main_v203, main_v204, main_v205, main_v206, main_v207, main_v208, main_v209, main_v210, main_v211,
   main_v212, main_v213, main_v214, main_v215, main_v216, main_v217, main_v218, main_v219, main_v220, main_v221,
   main_v222, main_v223, main_v224, main_v225]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps6` allocates a buffer. -/
theorem hostOps6_fresh : (hostOps6 : List (HloOp τ sig (Elt F))).Forall fun op => op.fresh = ∅ := by
  simp only [List.Forall]; repeat' constructor
/-- The references `hostOps6`'s operations write, in order. -/
abbrev hostOps6_W : List (Ref sig .tc) :=
  [main_v227, main_v228, main_v229, main_v230, main_v231, main_v232, main_v233, main_v234, main_v235, main_v236,
   main_v237, main_v238, main_v239, main_v240, main_v241, main_v242, main_v243, main_v244, main_v245, main_v246,
   main_v247, main_v248, main_v249, main_v250, main_v251, main_v252, main_v253, main_v254, main_v255, main_v256,
   main_v257, main_v258, main_v259, main_v260, main_v261, main_v262, main_v263, main_v264, main_v265]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps7` allocates a buffer. -/
theorem hostOps7_fresh : (hostOps7 : List (HloOp τ sig (Elt F))).Forall fun op => op.fresh = ∅ := by
  simp only [List.Forall]; repeat' constructor
/-- The references `hostOps7`'s operations write, in order. -/
abbrev hostOps7_W : List (Ref sig .tc) :=
  [main_v267, main_v268, main_v269, main_v270, main_v271, main_v272, main_v273, main_v274, main_v275, main_v276,
   main_v277, main_v278, main_v279, main_v280, main_v281, main_v282, main_v283, main_v284, main_v285, main_v286,
   main_v287, main_v288, main_v289, main_v290]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps8` allocates a buffer. -/
theorem hostOps8_fresh : (hostOps8 : List (HloOp τ sig (Elt F))).Forall fun op => op.fresh = ∅ := by
  simp only [List.Forall]; repeat' constructor
/-- The references `hostOps8`'s operations write, in order. -/
abbrev hostOps8_W : List (Ref sig .tc) :=
  [main_cst_5, main_v292, main_v293, main_cst_6, main_v294, main_v295, main_v296, main_v297, main_v298, main_cst_7,
   main_v299, main_v300, main_cst_8, main_v301, main_v302, main_v303, main_v304, main_cst_9, main_v305, main_v306,
   main_v307, main_v308, main_v309, main_v310, main_v311, main_v312, main_v313, main_v314, main_v315, main_v316,
   main_v317, main_c_10]
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps8_1` allocates a buffer. -/
theorem hostOps8_1_fresh : (hostOps8_1 : List (HloOp τ sig (Elt F))).Forall fun op => op.fresh = ∅ := by
  simp only [List.Forall]; repeat' constructor
/-- The references `hostOps8_1`'s operations write, in order. -/
abbrev hostOps8_1_W : List (Ref sig .tc) :=
  [main_call0_v0, main_v318]
theorem hostOps8_1_writes : (hostOps8_1 : List (HloOp τ sig (Elt F))).Forall fun op => op.writes ⊆ (hostOps8_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps9` allocates a buffer. -/
theorem hostOps9_fresh : (hostOps9 : List (HloOp τ sig (Elt F))).Forall fun op => op.fresh = ∅ := by
  simp only [List.Forall]; repeat' constructor
/-- The references `hostOps9`'s operations write, in order. -/
abbrev hostOps9_W : List (Ref sig .tc) :=
  [main_v320, main_v321, main_v322, main_v323, main_cst_11, main_v324, main_v325, main_v326, main_v327, main_v328,
   main_cst_12, main_v329, main_v330, main_v331, main_v332, main_v333, main_v334, main_v335, main_v336, main_v337]
theorem hostOps9_writes : (hostOps9 : List (HloOp τ sig (Elt F))).Forall fun op => op.writes ⊆ (hostOps9_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! # THE RUN: @main's twenty items from the launch to the return

## The buffer contents at each boundary: a fold through @main -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- A reference `hostOps0` does not write keeps its contents. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- At region 0's exit: its windows' arrays at what the pipeline leaves (an input as entered, an output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- A reference `hostOps1` does not write keeps its contents. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- At region 1's exit: its windows' arrays at what the pipeline leaves (an input as entered, an output's
    write-backs folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- A reference `hostOps2` does not write keeps its contents. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- At region 2's exit: its windows' arrays at what the pipeline leaves (an input as entered, an output's
    write-backs folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- A reference `hostOps3` does not write keeps its contents. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-- At region 3's exit: its windows' arrays at what the pipeline leaves (an input as entered, an output's
    write-backs folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4`. -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- A reference `hostOps4` does not write keeps its contents. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

/-- At region 4's exit: its windows' arrays at what the pipeline leaves (an input as entered, an output's
    write-backs folded), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves, every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5`. -/
abbrev W11 : Dev nD → Valuation τ sig (Elt F) := fun c => StableHlo.after hostOps5 (W10 m ρ c)
/-- The same read at the TensorCore's references. -/
abbrev V11 : (c : Dev nD) → (b : Ref sig .tc) → Buf (Elt F) ((c : Thread nD τ).loc b) := fun c b => W11 m ρ c b
/-- A reference `hostOps5` does not write keeps its contents. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h

/-- At region 5's exit: its windows' arrays at what the pipeline leaves (an input as entered, an output's
    write-backs folded), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves, every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After `hostOps6`. -/
abbrev W13 : Dev nD → Valuation τ sig (Elt F) := fun c => StableHlo.after hostOps6 (W12 m ρ c)
/-- The same read at the TensorCore's references. -/
abbrev V13 : (c : Dev nD) → (b : Ref sig .tc) → Buf (Elt F) ((c : Thread nD τ).loc b) := fun c b => W13 m ρ c b
/-- A reference `hostOps6` does not write keeps its contents. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h

/-- At region 6's exit: its windows' arrays at what the pipeline leaves (an input as entered, an output's
    write-backs folded), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves, every other buffer what it held at entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After `hostOps7`. -/
abbrev W15 : Dev nD → Valuation τ sig (Elt F) := fun c => StableHlo.after hostOps7 (W14 m ρ c)
/-- The same read at the TensorCore's references. -/
abbrev V15 : (c : Dev nD) → (b : Ref sig .tc) → Buf (Elt F) ((c : Thread nD τ).loc b) := fun c b => W15 m ρ c b
/-- A reference `hostOps7` does not write keeps its contents. -/
theorem W15_of (c : Dev nD) (r : Ref sig .tc) (h : r ∉ hostOps7_W) :
    W15 m ρ c (Proc.devRef .tc r) = W14 m ρ c (Proc.devRef .tc r) :=
  StableHlo.after_of_writes_sub hostOps7 _ hostOps7_writes h

/-- At region 7's exit: its windows' arrays at what the pipeline leaves (an input as entered, an output's
    write-backs folded), every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
/-- At region 7's exit each of its arrays holds what the pipeline leaves, every other buffer what it held at entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After `hostOps8`. -/
abbrev W17 : Dev nD → Valuation τ sig (Elt F) := fun c => StableHlo.after hostOps8 (W16 m ρ c)
/-- The same read at the TensorCore's references. -/
abbrev V17 : (c : Dev nD) → (b : Ref sig .tc) → Buf (Elt F) ((c : Thread nD τ).loc b) := fun c b => W17 m ρ c b
/-- A reference `hostOps8` does not write keeps its contents. -/
theorem W17_of (c : Dev nD) (r : Ref sig .tc) (h : r ∉ hostOps8_W) :
    W17 m ρ c (Proc.devRef .tc r) = W16 m ρ c (Proc.devRef .tc r) :=
  StableHlo.after_of_writes_sub hostOps8 _ hostOps8_writes h

/-- After `hostOps8_1`. -/
abbrev W18 : Dev nD → Valuation τ sig (Elt F) := fun c => StableHlo.after hostOps8_1 (W17 m ρ c)
/-- The same read at the TensorCore's references. -/
abbrev V18 : (c : Dev nD) → (b : Ref sig .tc) → Buf (Elt F) ((c : Thread nD τ).loc b) := fun c b => W18 m ρ c b
/-- A reference `hostOps8_1` does not write keeps its contents. -/
theorem W18_of (c : Dev nD) (r : Ref sig .tc) (h : r ∉ hostOps8_1_W) :
    W18 m ρ c (Proc.devRef .tc r) = W17 m ρ c (Proc.devRef .tc r) :=
  StableHlo.after_of_writes_sub hostOps8_1 _ hostOps8_1_writes h

/-- At region 8's exit: its windows' arrays at what the pipeline leaves (an input as entered, an output's
    write-backs folded), every other buffer as entered. -/
def W19 (c : Dev nD) : Valuation τ sig (Elt F) :=
  Pipeline.withArrays spec8 c (W18 m ρ c) fun w => (dat8 (V18 m ρ) c).arrAt w cfg8.N
theorem W19_arr (c : Dev nD) (w : Fin cfg8.W) :
    W19 m ρ c (Proc.devRef .tc (Pipeline.arrRef spec8 w)) = (dat8 (V18 m ρ) c).arrAt w cfg8.N := by
  unfold W19; exact Pipeline.withArrays_arr spec8 launch8.win.arr_inj c _ _ w
theorem W19_of_ne (c : Dev nD) (b : Ref sig .tc) (hb : ∀ w, Pipeline.arrRef spec8 w ≠ b) :
    W19 m ρ c (Proc.devRef .tc b) = W18 m ρ c (Proc.devRef .tc b) := by
  unfold W19; exact Pipeline.withArrays_of_ne spec8 c _ _ b hb
/-- The same read at the TensorCore's references (region 8's exit contents). -/
abbrev V19 : (c : Dev nD) → (b : Ref sig .tc) → Buf (Elt F) ((c : Thread nD τ).loc b) := fun c b => W19 m ρ c b
/-- At region 8's exit each of its arrays holds what the pipeline leaves, every other buffer what it held at entry. -/
theorem hF8 (c : Dev nD) (w : Fin cfg8.W) : (dat8 (V18 m ρ) c).arrAt w cfg8.N = V19 m ρ c (Pipeline.arrRef spec8 w) :=
  (W19_arr m ρ c w).symm
theorem hrest8 (c : Dev nD) : ∀ b, b ∉ Finset.univ.image (Pipeline.arrRef spec8) → V19 m ρ c b = V18 m ρ c b :=
  fun b hb => W19_of_ne m ρ c b fun w e => hb (Finset.mem_image.mpr ⟨w, Finset.mem_univ _, e⟩)

/-- After `hostOps9`. -/
abbrev W20 : Dev nD → Valuation τ sig (Elt F) := fun c => StableHlo.after hostOps9 (W19 m ρ c)
/-- The same read at the TensorCore's references. -/
abbrev V20 : (c : Dev nD) → (b : Ref sig .tc) → Buf (Elt F) ((c : Thread nD τ).loc b) := fun c b => W20 m ρ c b
/-- A reference `hostOps9` does not write keeps its contents. -/
theorem W20_of (c : Dev nD) (r : Ref sig .tc) (h : r ∉ hostOps9_W) :
    W20 m ρ c (Proc.devRef .tc r) = W19 m ρ c (Proc.devRef .tc r) :=
  StableHlo.after_of_writes_sub hostOps9 _ hostOps9_writes h

/-! ## A reference no item touches holds its launch contents at every boundary -/

/-- No host stretch writes `r` and `r` is no window's array of any region (the twenty items, in @main's order). -/
abbrev Untouched (r : Ref sig .tc) : Prop :=
  r ∉ hostOps0_W ∧
  (∀ w, Pipeline.arrRef spec0 w ≠ r) ∧
  r ∉ hostOps1_W ∧
  (∀ w, Pipeline.arrRef spec1 w ≠ r) ∧
  r ∉ hostOps2_W ∧
  (∀ w, Pipeline.arrRef spec2 w ≠ r) ∧
  r ∉ hostOps3_W ∧
  (∀ w, Pipeline.arrRef spec3 w ≠ r) ∧
  r ∉ hostOps4_W ∧
  (∀ w, Pipeline.arrRef spec4 w ≠ r) ∧
  r ∉ hostOps5_W ∧
  (∀ w, Pipeline.arrRef spec5 w ≠ r) ∧
  r ∉ hostOps6_W ∧
  (∀ w, Pipeline.arrRef spec6 w ≠ r) ∧
  r ∉ hostOps7_W ∧
  (∀ w, Pipeline.arrRef spec7 w ≠ r) ∧
  r ∉ hostOps8_W ∧
  r ∉ hostOps8_1_W ∧
  (∀ w, Pipeline.arrRef spec8 w ≠ r) ∧
  r ∉ hostOps9_W

theorem W1_of_untouched (c : Dev nD) (r : Ref sig .tc) (h : Untouched r) :
    W1 m ρ c (Proc.devRef .tc r) = m ((c : Thread nD τ).loc r) :=
  (W1_of m ρ c r h.1).trans rfl
theorem W2_of_untouched (c : Dev nD) (r : Ref sig .tc) (h : Untouched r) :
    W2 m ρ c (Proc.devRef .tc r) = m ((c : Thread nD τ).loc r) :=
  (W2_of_ne m ρ c r h.2.1).trans (W1_of_untouched m ρ c r h)
theorem W3_of_untouched (c : Dev nD) (r : Ref sig .tc) (h : Untouched r) :
    W3 m ρ c (Proc.devRef .tc r) = m ((c : Thread nD τ).loc r) :=
  (W3_of m ρ c r h.2.2.1).trans (W2_of_untouched m ρ c r h)
theorem W4_of_untouched (c : Dev nD) (r : Ref sig .tc) (h : Untouched r) :
    W4 m ρ c (Proc.devRef .tc r) = m ((c : Thread nD τ).loc r) :=
  (W4_of_ne m ρ c r h.2.2.2.1).trans (W3_of_untouched m ρ c r h)
theorem W5_of_untouched (c : Dev nD) (r : Ref sig .tc) (h : Untouched r) :
    W5 m ρ c (Proc.devRef .tc r) = m ((c : Thread nD τ).loc r) :=
  (W5_of m ρ c r h.2.2.2.2.1).trans (W4_of_untouched m ρ c r h)
theorem W6_of_untouched (c : Dev nD) (r : Ref sig .tc) (h : Untouched r) :
    W6 m ρ c (Proc.devRef .tc r) = m ((c : Thread nD τ).loc r) :=
  (W6_of_ne m ρ c r h.2.2.2.2.2.1).trans (W5_of_untouched m ρ c r h)
theorem W7_of_untouched (c : Dev nD) (r : Ref sig .tc) (h : Untouched r) :
    W7 m ρ c (Proc.devRef .tc r) = m ((c : Thread nD τ).loc r) :=
  (W7_of m ρ c r h.2.2.2.2.2.2.1).trans (W6_of_untouched m ρ c r h)
theorem W8_of_untouched (c : Dev nD) (r : Ref sig .tc) (h : Untouched r) :
    W8 m ρ c (Proc.devRef .tc r) = m ((c : Thread nD τ).loc r) :=
  (W8_of_ne m ρ c r h.2.2.2.2.2.2.2.1).trans (W7_of_untouched m ρ c r h)
theorem W9_of_untouched (c : Dev nD) (r : Ref sig .tc) (h : Untouched r) :
    W9 m ρ c (Proc.devRef .tc r) = m ((c : Thread nD τ).loc r) :=
  (W9_of m ρ c r h.2.2.2.2.2.2.2.2.1).trans (W8_of_untouched m ρ c r h)
theorem W10_of_untouched (c : Dev nD) (r : Ref sig .tc) (h : Untouched r) :
    W10 m ρ c (Proc.devRef .tc r) = m ((c : Thread nD τ).loc r) :=
  (W10_of_ne m ρ c r h.2.2.2.2.2.2.2.2.2.1).trans (W9_of_untouched m ρ c r h)
theorem W11_of_untouched (c : Dev nD) (r : Ref sig .tc) (h : Untouched r) :
    W11 m ρ c (Proc.devRef .tc r) = m ((c : Thread nD τ).loc r) :=
  (W11_of m ρ c r h.2.2.2.2.2.2.2.2.2.2.1).trans (W10_of_untouched m ρ c r h)
theorem W12_of_untouched (c : Dev nD) (r : Ref sig .tc) (h : Untouched r) :
    W12 m ρ c (Proc.devRef .tc r) = m ((c : Thread nD τ).loc r) :=
  (W12_of_ne m ρ c r h.2.2.2.2.2.2.2.2.2.2.2.1).trans (W11_of_untouched m ρ c r h)
theorem W13_of_untouched (c : Dev nD) (r : Ref sig .tc) (h : Untouched r) :
    W13 m ρ c (Proc.devRef .tc r) = m ((c : Thread nD τ).loc r) :=
  (W13_of m ρ c r h.2.2.2.2.2.2.2.2.2.2.2.2.1).trans (W12_of_untouched m ρ c r h)
theorem W14_of_untouched (c : Dev nD) (r : Ref sig .tc) (h : Untouched r) :
    W14 m ρ c (Proc.devRef .tc r) = m ((c : Thread nD τ).loc r) :=
  (W14_of_ne m ρ c r h.2.2.2.2.2.2.2.2.2.2.2.2.2.1).trans (W13_of_untouched m ρ c r h)
theorem W15_of_untouched (c : Dev nD) (r : Ref sig .tc) (h : Untouched r) :
    W15 m ρ c (Proc.devRef .tc r) = m ((c : Thread nD τ).loc r) :=
  (W15_of m ρ c r h.2.2.2.2.2.2.2.2.2.2.2.2.2.2.1).trans (W14_of_untouched m ρ c r h)
theorem W16_of_untouched (c : Dev nD) (r : Ref sig .tc) (h : Untouched r) :
    W16 m ρ c (Proc.devRef .tc r) = m ((c : Thread nD τ).loc r) :=
  (W16_of_ne m ρ c r h.2.2.2.2.2.2.2.2.2.2.2.2.2.2.2.1).trans (W15_of_untouched m ρ c r h)
theorem W17_of_untouched (c : Dev nD) (r : Ref sig .tc) (h : Untouched r) :
    W17 m ρ c (Proc.devRef .tc r) = m ((c : Thread nD τ).loc r) :=
  (W17_of m ρ c r h.2.2.2.2.2.2.2.2.2.2.2.2.2.2.2.2.1).trans (W16_of_untouched m ρ c r h)
theorem W18_of_untouched (c : Dev nD) (r : Ref sig .tc) (h : Untouched r) :
    W18 m ρ c (Proc.devRef .tc r) = m ((c : Thread nD τ).loc r) :=
  (W18_of m ρ c r h.2.2.2.2.2.2.2.2.2.2.2.2.2.2.2.2.2.1).trans (W17_of_untouched m ρ c r h)
theorem W19_of_untouched (c : Dev nD) (r : Ref sig .tc) (h : Untouched r) :
    W19 m ρ c (Proc.devRef .tc r) = m ((c : Thread nD τ).loc r) :=
  (W19_of_ne m ρ c r h.2.2.2.2.2.2.2.2.2.2.2.2.2.2.2.2.2.2.1).trans (W18_of_untouched m ρ c r h)
theorem W20_of_untouched (c : Dev nD) (r : Ref sig .tc) (h : Untouched r) :
    W20 m ρ c (Proc.devRef .tc r) = m ((c : Thread nD τ).loc r) :=
  (W20_of m ρ c r h.2.2.2.2.2.2.2.2.2.2.2.2.2.2.2.2.2.2.2).trans (W19_of_untouched m ρ c r h)

/-! ### The arguments: no host operation writes one and none is a window's array of a region -/

theorem untouched_main_arg0 : Untouched main_arg0 := by decide
theorem untouched_main_arg1 : Untouched main_arg1 := by decide
theorem untouched_main_arg2 : Untouched main_arg2 := by decide
theorem untouched_main_arg3 : Untouched main_arg3 := by decide
theorem untouched_main_arg4 : Untouched main_arg4 := by decide
theorem untouched_main_arg5 : Untouched main_arg5 := by decide
theorem untouched_main_arg6 : Untouched main_arg6 := by decide
theorem untouched_main_arg7 : Untouched main_arg7 := by decide
theorem untouched_main_arg8 : Untouched main_arg8 := by decide
theorem untouched_main_arg9 : Untouched main_arg9 := by decide
theorem untouched_main_arg10 : Untouched main_arg10 := by decide
theorem untouched_main_arg11 : Untouched main_arg11 := by decide
theorem untouched_main_arg12 : Untouched main_arg12 := by decide
theorem untouched_main_arg13 : Untouched main_arg13 := by decide
theorem untouched_main_arg14 : Untouched main_arg14 := by decide
theorem untouched_main_arg15 : Untouched main_arg15 := by decide
theorem untouched_main_arg16 : Untouched main_arg16 := by decide
theorem untouched_main_arg17 : Untouched main_arg17 := by decide
theorem untouched_main_arg18 : Untouched main_arg18 := by decide
theorem untouched_main_arg19 : Untouched main_arg19 := by decide
theorem untouched_main_arg20 : Untouched main_arg20 := by decide
theorem untouched_main_arg21 : Untouched main_arg21 := by decide
theorem untouched_main_arg22 : Untouched main_arg22 := by decide
theorem untouched_main_arg23 : Untouched main_arg23 := by decide
theorem untouched_main_arg24 : Untouched main_arg24 := by decide
theorem untouched_main_arg25 : Untouched main_arg25 := by decide
theorem untouched_main_arg26 : Untouched main_arg26 := by decide
theorem untouched_main_arg27 : Untouched main_arg27 := by decide
theorem untouched_main_arg28 : Untouched main_arg28 := by decide

theorem W20_main_arg0 (c : Dev nD) : W20 m ρ c (Proc.devRef .tc main_arg0) = m ((c : Thread nD τ).loc main_arg0) :=
  W20_of_untouched m ρ c main_arg0 untouched_main_arg0
theorem W20_main_arg1 (c : Dev nD) : W20 m ρ c (Proc.devRef .tc main_arg1) = m ((c : Thread nD τ).loc main_arg1) :=
  W20_of_untouched m ρ c main_arg1 untouched_main_arg1
theorem W20_main_arg2 (c : Dev nD) : W20 m ρ c (Proc.devRef .tc main_arg2) = m ((c : Thread nD τ).loc main_arg2) :=
  W20_of_untouched m ρ c main_arg2 untouched_main_arg2
theorem W20_main_arg3 (c : Dev nD) : W20 m ρ c (Proc.devRef .tc main_arg3) = m ((c : Thread nD τ).loc main_arg3) :=
  W20_of_untouched m ρ c main_arg3 untouched_main_arg3
theorem W20_main_arg4 (c : Dev nD) : W20 m ρ c (Proc.devRef .tc main_arg4) = m ((c : Thread nD τ).loc main_arg4) :=
  W20_of_untouched m ρ c main_arg4 untouched_main_arg4
theorem W20_main_arg5 (c : Dev nD) : W20 m ρ c (Proc.devRef .tc main_arg5) = m ((c : Thread nD τ).loc main_arg5) :=
  W20_of_untouched m ρ c main_arg5 untouched_main_arg5
theorem W20_main_arg6 (c : Dev nD) : W20 m ρ c (Proc.devRef .tc main_arg6) = m ((c : Thread nD τ).loc main_arg6) :=
  W20_of_untouched m ρ c main_arg6 untouched_main_arg6
theorem W20_main_arg7 (c : Dev nD) : W20 m ρ c (Proc.devRef .tc main_arg7) = m ((c : Thread nD τ).loc main_arg7) :=
  W20_of_untouched m ρ c main_arg7 untouched_main_arg7
theorem W20_main_arg8 (c : Dev nD) : W20 m ρ c (Proc.devRef .tc main_arg8) = m ((c : Thread nD τ).loc main_arg8) :=
  W20_of_untouched m ρ c main_arg8 untouched_main_arg8
theorem W20_main_arg9 (c : Dev nD) : W20 m ρ c (Proc.devRef .tc main_arg9) = m ((c : Thread nD τ).loc main_arg9) :=
  W20_of_untouched m ρ c main_arg9 untouched_main_arg9
theorem W20_main_arg10 (c : Dev nD) : W20 m ρ c (Proc.devRef .tc main_arg10) = m ((c : Thread nD τ).loc main_arg10) :=
  W20_of_untouched m ρ c main_arg10 untouched_main_arg10
theorem W20_main_arg11 (c : Dev nD) : W20 m ρ c (Proc.devRef .tc main_arg11) = m ((c : Thread nD τ).loc main_arg11) :=
  W20_of_untouched m ρ c main_arg11 untouched_main_arg11
theorem W20_main_arg12 (c : Dev nD) : W20 m ρ c (Proc.devRef .tc main_arg12) = m ((c : Thread nD τ).loc main_arg12) :=
  W20_of_untouched m ρ c main_arg12 untouched_main_arg12
theorem W20_main_arg13 (c : Dev nD) : W20 m ρ c (Proc.devRef .tc main_arg13) = m ((c : Thread nD τ).loc main_arg13) :=
  W20_of_untouched m ρ c main_arg13 untouched_main_arg13
theorem W20_main_arg14 (c : Dev nD) : W20 m ρ c (Proc.devRef .tc main_arg14) = m ((c : Thread nD τ).loc main_arg14) :=
  W20_of_untouched m ρ c main_arg14 untouched_main_arg14
theorem W20_main_arg15 (c : Dev nD) : W20 m ρ c (Proc.devRef .tc main_arg15) = m ((c : Thread nD τ).loc main_arg15) :=
  W20_of_untouched m ρ c main_arg15 untouched_main_arg15
theorem W20_main_arg16 (c : Dev nD) : W20 m ρ c (Proc.devRef .tc main_arg16) = m ((c : Thread nD τ).loc main_arg16) :=
  W20_of_untouched m ρ c main_arg16 untouched_main_arg16
theorem W20_main_arg17 (c : Dev nD) : W20 m ρ c (Proc.devRef .tc main_arg17) = m ((c : Thread nD τ).loc main_arg17) :=
  W20_of_untouched m ρ c main_arg17 untouched_main_arg17
theorem W20_main_arg18 (c : Dev nD) : W20 m ρ c (Proc.devRef .tc main_arg18) = m ((c : Thread nD τ).loc main_arg18) :=
  W20_of_untouched m ρ c main_arg18 untouched_main_arg18
theorem W20_main_arg19 (c : Dev nD) : W20 m ρ c (Proc.devRef .tc main_arg19) = m ((c : Thread nD τ).loc main_arg19) :=
  W20_of_untouched m ρ c main_arg19 untouched_main_arg19
theorem W20_main_arg20 (c : Dev nD) : W20 m ρ c (Proc.devRef .tc main_arg20) = m ((c : Thread nD τ).loc main_arg20) :=
  W20_of_untouched m ρ c main_arg20 untouched_main_arg20
theorem W20_main_arg21 (c : Dev nD) : W20 m ρ c (Proc.devRef .tc main_arg21) = m ((c : Thread nD τ).loc main_arg21) :=
  W20_of_untouched m ρ c main_arg21 untouched_main_arg21
theorem W20_main_arg22 (c : Dev nD) : W20 m ρ c (Proc.devRef .tc main_arg22) = m ((c : Thread nD τ).loc main_arg22) :=
  W20_of_untouched m ρ c main_arg22 untouched_main_arg22
theorem W20_main_arg23 (c : Dev nD) : W20 m ρ c (Proc.devRef .tc main_arg23) = m ((c : Thread nD τ).loc main_arg23) :=
  W20_of_untouched m ρ c main_arg23 untouched_main_arg23
theorem W20_main_arg24 (c : Dev nD) : W20 m ρ c (Proc.devRef .tc main_arg24) = m ((c : Thread nD τ).loc main_arg24) :=
  W20_of_untouched m ρ c main_arg24 untouched_main_arg24
theorem W20_main_arg25 (c : Dev nD) : W20 m ρ c (Proc.devRef .tc main_arg25) = m ((c : Thread nD τ).loc main_arg25) :=
  W20_of_untouched m ρ c main_arg25 untouched_main_arg25
theorem W20_main_arg26 (c : Dev nD) : W20 m ρ c (Proc.devRef .tc main_arg26) = m ((c : Thread nD τ).loc main_arg26) :=
  W20_of_untouched m ρ c main_arg26 untouched_main_arg26
theorem W20_main_arg27 (c : Dev nD) : W20 m ρ c (Proc.devRef .tc main_arg27) = m ((c : Thread nD τ).loc main_arg27) :=
  W20_of_untouched m ρ c main_arg27 untouched_main_arg27
theorem W20_main_arg28 (c : Dev nD) : W20 m ρ c (Proc.devRef .tc main_arg28) = m ((c : Thread nD τ).loc main_arg28) :=
  W20_of_untouched m ρ c main_arg28 untouched_main_arg28

/-! ## The proof data family and the thread state -/

/-- The prefetched tables' admissible contents: no pipeline has a table. -/
abbrev adm : (p : Fin 9) → (pcfgs (F := F) p).Adm := fun p => (cfgs p).toPCfg_adm
/-- Every pipeline's proof data, each at its region's entry contents: a literal `match` on the pipeline's number. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V18 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W20`, the
    generator register at some state. -/
abbrev Tₙ (c : Dev nD) : sProp 𝕄 := iprop(StableHlo.held (c : Thread nD τ) (Pipeline.ucRefs τ sig) (W20 m ρ c) ∗ ∃ r, prngReg c r)
/-- A valuation read at the TensorCore's references. -/
abbrev atTc (W : Dev nD → Valuation τ sig (Elt F)) : (c : Dev nD) → (b : Ref sig .tc) → Buf (Elt F) ((c : Thread nD τ).loc b) :=
  fun c b => W c b

/-! ## A region as a segment, once for all nine

Entered from every unscoped buffer at `Win`, left at `Wout`. Its arrays split out of the unscoped buffers and put back at
the exit contents; the generator register into the class invariant and out, through the region's own invariant at its
two ends; nothing owed; no semaphore of the kernel's own. What is asked of the pipeline's proof data is asked by name:
the tallies owed are zero, the recorded pairs unbounded, the shares full, the arrays the entry contents, the invariant
between the class's at both ends. -/

section Region
variable (p : Fin 9)

/-- A core owing nothing enters a region whose data owe nothing at the first point and bound no recorded pair. -/
theorem owes_in (c : Dev nD) (h0 : (pdats m ρ p c).owed 0 = 0) (hr : (pdats m ρ p c).recorded 0 = Set.univ) :
    (iprop(∃ W, owes (c : Thread nD τ) (0 : CellTallies nD τ sig Unit) W) : sProp 𝕄) ⊢ (pdats m ρ p c).owesAt () 0 := by
  unfold Pipeline.Dat.owesAt Pipeline.owesWithin
  rw [h0]
  iintro ⟨%W, HO⟩; iexists W; isplitr
  · ipureintro; exact fun x _ => Or.inl (show x ∈ (pdats m ρ p c).recorded 0 by rw [hr]; exact Set.mem_univ x)
  iexact HO

/-- And leaves it owing nothing when the data owe nothing at the last point. -/
theorem owes_out (c : Dev nD) (hN : (pdats m ρ p c).owed (Fin.last _) = 0) :
    (pdats m ρ p c).owesAt () (Fin.last _) ⊢ (iprop(∃ W, owes (c : Thread nD τ) (0 : CellTallies nD τ sig Unit) W) : sProp 𝕄) := by
  unfold Pipeline.Dat.owesAt Pipeline.owesWithin
  rw [hN]
  iintro ⟨%W, -, HO⟩; iexists W; iexact HO

set_option backward.isDefEq.respectTransparency.types false in
/-- Pipeline `p`'s region over the thread state. -/
def mkReg (lf : Pipeline.LaunchFacts (nD := nD) (τ := τ) cfgs p) (Win Wout : Dev nD → Valuation τ sig (Elt F))
    (hbody : ∀ c, BodyObligation (pdats m ρ p c) (defs₀ (F := F)) Variants.none () Set.univ)
    (howed : ∀ c t, (pdats m ρ p c).owed t = 0)
    (hrec : ∀ c t, (pdats m ρ p c).recorded t = Set.univ)
    (hq : ∀ c w, (pdats m ρ p c).q w = fullShare)
    (hA : ∀ c w, (pdats m ρ p c).A w = atTc Win c (Pipeline.arrRef (Pipeline.pin (pcfgs (F := F)) adm p).spec w))
    (hΦi : ∀ c, (Pipeline.ΦA (U := UR sig nD τ) (Val := Elt F) (Pipeline.pin (pcfgs (F := F)) adm p).spec c : sProp 𝕄) ⊢ (pdats m ρ p c).Φ 0)
    (hΦo : ∀ c, (pdats m ρ p c).Φ (Fin.last _) ⊢ (Pipeline.ΦA (U := UR sig nD τ) (Val := Elt F) (Pipeline.pin (pcfgs (F := F)) adm p).spec c : sProp 𝕄))
    (hF : ∀ c w, (pdats m ρ p c).arrAt w (Pipeline.pin (pcfgs (F := F)) adm p).N = atTc Wout c (Pipeline.arrRef (Pipeline.pin (pcfgs (F := F)) adm p).spec w))
    (hrest : ∀ c b, b ∉ Finset.univ.image (Pipeline.arrRef (Pipeline.pin (pcfgs (F := F)) adm p).spec) → atTc Wout c b = atTc Win c b) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (atTc Win c)
  hentry c := by
    rw [Pipeline.ownSems0_none]
    have hsplit := Pipeline.arrays_of_unscopedBufs (p := p) (pcfgs (F := F)) adm (pdats m ρ) lf.win lf.arr_whole c
      ((pdats m ρ p c).share_full (hq c)) (atTc Win c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_in m ρ p c (howed c 0) (hrec c 0)); iexact HO
    isplitl [Hp]; · iexact Hp
    iexact Hrest
  hin c := by
    refine .trans ?_ (hΦi c)
    unfold Pipeline.ΦA
    iintro ⟨Hp, -, Hr⟩
    isplitl [Hr]; · iexact Hr
    iexact Hp
  hout c := by
    rw [Pipeline.ownSems0_none]
    refine (hΦo c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (atTc Win c) (atTc Wout c) ((pdats m ρ p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out m ρ p c (howed c _)); iexact HO

end Region

/-! ## The nine regions -/

set_option backward.isDefEq.respectTransparency.types false in
/-- REGION 0: entered from every unscoped buffer at `W1`, left at `W2`. -/
def reg0 : Pipeline.RegionSeg (pcfgs (F := F)) adm (pdats m ρ) () defs₀ 𝒱₀ L lv 0 :=
  mkReg m ρ 0 launch0 (W1 m ρ) (W2 m ρ) (fun c => body_obligation0 (V1 m ρ) c) (fun c => owed0 (V1 m ρ) c)
    (fun c => recorded0 (V1 m ρ) c) (fun c => share0 (V1 m ρ) c) (fun c => A_eq0 (V1 m ρ) c)
    (fun c => Phi0_in (V1 m ρ) c) (fun c => Phi0_out (V1 m ρ) c) (hF0 m ρ) (hrest0 m ρ)

set_option backward.isDefEq.respectTransparency.types false in
/-- REGION 1: entered from every unscoped buffer at `W3`, left at `W4`. -/
def reg1 : Pipeline.RegionSeg (pcfgs (F := F)) adm (pdats m ρ) () defs₀ 𝒱₀ L lv 1 :=
  mkReg m ρ 1 launch1 (W3 m ρ) (W4 m ρ) (fun c => body_obligation1 (V3 m ρ) c) (fun c => owed1 (V3 m ρ) c)
    (fun c => recorded1 (V3 m ρ) c) (fun c => share1 (V3 m ρ) c) (fun c => A_eq1 (V3 m ρ) c)
    (fun c => Phi1_in (V3 m ρ) c) (fun c => Phi1_out (V3 m ρ) c) (hF1 m ρ) (hrest1 m ρ)

set_option backward.isDefEq.respectTransparency.types false in
/-- REGION 2: entered from every unscoped buffer at `W5`, left at `W6`. -/
def reg2 : Pipeline.RegionSeg (pcfgs (F := F)) adm (pdats m ρ) () defs₀ 𝒱₀ L lv 2 :=
  mkReg m ρ 2 launch2 (W5 m ρ) (W6 m ρ) (fun c => body_obligation2 (V5 m ρ) c) (fun c => owed2 (V5 m ρ) c)
    (fun c => recorded2 (V5 m ρ) c) (fun c => share2 (V5 m ρ) c) (fun c => A_eq2 (V5 m ρ) c)
    (fun c => Phi2_in (V5 m ρ) c) (fun c => Phi2_out (V5 m ρ) c) (hF2 m ρ) (hrest2 m ρ)

set_option backward.isDefEq.respectTransparency.types false in
/-- REGION 3: entered from every unscoped buffer at `W7`, left at `W8`. -/
def reg3 : Pipeline.RegionSeg (pcfgs (F := F)) adm (pdats m ρ) () defs₀ 𝒱₀ L lv 3 :=
  mkReg m ρ 3 launch3 (W7 m ρ) (W8 m ρ) (fun c => body_obligation3 (V7 m ρ) c) (fun c => owed3 (V7 m ρ) c)
    (fun c => recorded3 (V7 m ρ) c) (fun c => share3 (V7 m ρ) c) (fun c => A_eq3 (V7 m ρ) c)
    (fun c => Phi3_in (V7 m ρ) c) (fun c => Phi3_out (V7 m ρ) c) (hF3 m ρ) (hrest3 m ρ)

set_option backward.isDefEq.respectTransparency.types false in
/-- REGION 4: entered from every unscoped buffer at `W9`, left at `W10`. -/
def reg4 : Pipeline.RegionSeg (pcfgs (F := F)) adm (pdats m ρ) () defs₀ 𝒱₀ L lv 4 :=
  mkReg m ρ 4 launch4 (W9 m ρ) (W10 m ρ) (fun c => body_obligation4 (V9 m ρ) c) (fun c => owed4 (V9 m ρ) c)
    (fun c => recorded4 (V9 m ρ) c) (fun c => share4 (V9 m ρ) c) (fun c => A_eq4 (V9 m ρ) c)
    (fun c => Phi4_in (V9 m ρ) c) (fun c => Phi4_out (V9 m ρ) c) (hF4 m ρ) (hrest4 m ρ)

set_option backward.isDefEq.respectTransparency.types false in
/-- REGION 5: entered from every unscoped buffer at `W11`, left at `W12`. -/
def reg5 : Pipeline.RegionSeg (pcfgs (F := F)) adm (pdats m ρ) () defs₀ 𝒱₀ L lv 5 :=
  mkReg m ρ 5 launch5 (W11 m ρ) (W12 m ρ) (fun c => body_obligation5 (V11 m ρ) c) (fun c => owed5 (V11 m ρ) c)
    (fun c => recorded5 (V11 m ρ) c) (fun c => share5 (V11 m ρ) c) (fun c => A_eq5 (V11 m ρ) c)
    (fun c => Phi5_in (V11 m ρ) c) (fun c => Phi5_out (V11 m ρ) c) (hF5 m ρ) (hrest5 m ρ)

set_option backward.isDefEq.respectTransparency.types false in
/-- REGION 6: entered from every unscoped buffer at `W13`, left at `W14`. -/
def reg6 : Pipeline.RegionSeg (pcfgs (F := F)) adm (pdats m ρ) () defs₀ 𝒱₀ L lv 6 :=
  mkReg m ρ 6 launch6 (W13 m ρ) (W14 m ρ) (fun c => body_obligation6 (V13 m ρ) c) (fun c => owed6 (V13 m ρ) c)
    (fun c => recorded6 (V13 m ρ) c) (fun c => share6 (V13 m ρ) c) (fun c => A_eq6 (V13 m ρ) c)
    (fun c => Phi6_in (V13 m ρ) c) (fun c => Phi6_out (V13 m ρ) c) (hF6 m ρ) (hrest6 m ρ)

set_option backward.isDefEq.respectTransparency.types false in
/-- REGION 7: entered from every unscoped buffer at `W15`, left at `W16`. -/
def reg7 : Pipeline.RegionSeg (pcfgs (F := F)) adm (pdats m ρ) () defs₀ 𝒱₀ L lv 7 :=
  mkReg m ρ 7 launch7 (W15 m ρ) (W16 m ρ) (fun c => body_obligation7 (V15 m ρ) c) (fun c => owed7 (V15 m ρ) c)
    (fun c => recorded7 (V15 m ρ) c) (fun c => share7 (V15 m ρ) c) (fun c => A_eq7 (V15 m ρ) c)
    (fun c => Phi7_in (V15 m ρ) c) (fun c => Phi7_out (V15 m ρ) c) (hF7 m ρ) (hrest7 m ρ)

set_option backward.isDefEq.respectTransparency.types false in
/-- REGION 8: entered from every unscoped buffer at `W18`, left at `W19`. -/
def reg8 : Pipeline.RegionSeg (pcfgs (F := F)) adm (pdats m ρ) () defs₀ 𝒱₀ L lv 8 :=
  mkReg m ρ 8 launch8 (W18 m ρ) (W19 m ρ) (fun c => body_obligation8 (V18 m ρ) c) (fun c => owed8 (V18 m ρ) c)
    (fun c => recorded8 (V18 m ρ) c) (fun c => share8 (V18 m ρ) c) (fun c => A_eq8 (V18 m ρ) c)
    (fun c => Phi8_in (V18 m ρ) c) (fun c => Phi8_out (V18 m ρ) c) (hF8 m ρ) (hrest8 m ρ)

/-! ## @main as segments, and the launch -/

/-- @main's twenty segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .host (hseg hostOps8_1 hostOps8_1_sub hostOps8_1_fresh (W17 m ρ)),
    .region (reg8 m ρ),
    .host (hseg hostOps9 hostOps9_sub hostOps9_fresh (W19 m ρ)) ]
/-- @main IS the run of the segments: its chain of items, then the segments' run against that chain. -/
theorem main_run (c : Dev nD) : main (F := F) c = Pipeline.Seg.run (segs m ρ) := (main_chain c).trans (by chain_rfl)

set_option backward.isDefEq.respectTransparency.types false in
/-- THE RUN, at any post the last boundary's contents imply: at the compiled mesh, from any memory with zero counters,
    every weakly fair execution of @main on the TensorCores terminates, nothing faulting, and every final state holds
    each unscoped buffer at `W20` — the launch over the segments, the last thread state read against the final state. -/
theorem run_post {Q : PUnit × MemSt nD τ sig (Elt F) → Prop}
    (hQ : ∀ s : MemSt nD τ sig (Elt F),
      (∀ c : Dev nD, ∀ b ∈ Pipeline.ucRefs τ sig, s.mem ((c : Thread nD τ).1, b) = W20 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W20 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := hQ)

/-- Every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W20 m ρ c b) :=
  run_post m ρ fun s h => h

/-- THE FRAME: every final state has the argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  run_post m ρ fun s h c =>
    ⟨(h c _ (mem_uc main_arg0 (by decide))).trans (W20_main_arg0 m ρ c),
     (h c _ (mem_uc main_arg1 (by decide))).trans (W20_main_arg1 m ρ c),
     (h c _ (mem_uc main_arg2 (by decide))).trans (W20_main_arg2 m ρ c),
     (h c _ (mem_uc main_arg3 (by decide))).trans (W20_main_arg3 m ρ c),
     (h c _ (mem_uc main_arg4 (by decide))).trans (W20_main_arg4 m ρ c),
     (h c _ (mem_uc main_arg5 (by decide))).trans (W20_main_arg5 m ρ c),
     (h c _ (mem_uc main_arg6 (by decide))).trans (W20_main_arg6 m ρ c),
     (h c _ (mem_uc main_arg7 (by decide))).trans (W20_main_arg7 m ρ c),
     (h c _ (mem_uc main_arg8 (by decide))).trans (W20_main_arg8 m ρ c),
     (h c _ (mem_uc main_arg9 (by decide))).trans (W20_main_arg9 m ρ c),
     (h c _ (mem_uc main_arg10 (by decide))).trans (W20_main_arg10 m ρ c),
     (h c _ (mem_uc main_arg11 (by decide))).trans (W20_main_arg11 m ρ c),
     (h c _ (mem_uc main_arg12 (by decide))).trans (W20_main_arg12 m ρ c),
     (h c _ (mem_uc main_arg13 (by decide))).trans (W20_main_arg13 m ρ c),
     (h c _ (mem_uc main_arg14 (by decide))).trans (W20_main_arg14 m ρ c),
     (h c _ (mem_uc main_arg15 (by decide))).trans (W20_main_arg15 m ρ c),
     (h c _ (mem_uc main_arg16 (by decide))).trans (W20_main_arg16 m ρ c),
     (h c _ (mem_uc main_arg17 (by decide))).trans (W20_main_arg17 m ρ c),
     (h c _ (mem_uc main_arg18 (by decide))).trans (W20_main_arg18 m ρ c),
     (h c _ (mem_uc main_arg19 (by decide))).trans (W20_main_arg19 m ρ c),
     (h c _ (mem_uc main_arg20 (by decide))).trans (W20_main_arg20 m ρ c),
     (h c _ (mem_uc main_arg21 (by decide))).trans (W20_main_arg21 m ρ c),
     (h c _ (mem_uc main_arg22 (by decide))).trans (W20_main_arg22 m ρ c),
     (h c _ (mem_uc main_arg23 (by decide))).trans (W20_main_arg23 m ρ c),
     (h c _ (mem_uc main_arg24 (by decide))).trans (W20_main_arg24 m ρ c),
     (h c _ (mem_uc main_arg25 (by decide))).trans (W20_main_arg25 m ρ c),
     (h c _ (mem_uc main_arg26 (by decide))).trans (W20_main_arg26 m ρ c),
     (h c _ (mem_uc main_arg27 (by decide))).trans (W20_main_arg27 m ρ c),
     (h c _ (mem_uc main_arg28 (by decide))).trans (W20_main_arg28 m ρ c)⟩

/-- THE RESULT: every final state holds the result array at the last boundary's contents, the argument arrays as launched. -/
theorem result_all : θ_run defs (onTc (τ := τ) (main (F := F))) ⟨m, fun _ => 0, ρ⟩ (fun r => ∀ c : Dev nD,
      r.2.mem ((c.tc : Thread nD τ).loc main_v337) = W20 m ρ c (Proc.devRef .tc main_v337)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  run_post m ρ fun s h c =>
    ⟨h c _ (mem_uc main_v337 (by decide)),
     (h c _ (mem_uc main_arg0 (by decide))).trans (W20_main_arg0 m ρ c),
     (h c _ (mem_uc main_arg1 (by decide))).trans (W20_main_arg1 m ρ c),
     (h c _ (mem_uc main_arg2 (by decide))).trans (W20_main_arg2 m ρ c),
     (h c _ (mem_uc main_arg3 (by decide))).trans (W20_main_arg3 m ρ c),
     (h c _ (mem_uc main_arg4 (by decide))).trans (W20_main_arg4 m ρ c),
     (h c _ (mem_uc main_arg5 (by decide))).trans (W20_main_arg5 m ρ c),
     (h c _ (mem_uc main_arg6 (by decide))).trans (W20_main_arg6 m ρ c),
     (h c _ (mem_uc main_arg7 (by decide))).trans (W20_main_arg7 m ρ c),
     (h c _ (mem_uc main_arg8 (by decide))).trans (W20_main_arg8 m ρ c),
     (h c _ (mem_uc main_arg9 (by decide))).trans (W20_main_arg9 m ρ c),
     (h c _ (mem_uc main_arg10 (by decide))).trans (W20_main_arg10 m ρ c),
     (h c _ (mem_uc main_arg11 (by decide))).trans (W20_main_arg11 m ρ c),
     (h c _ (mem_uc main_arg12 (by decide))).trans (W20_main_arg12 m ρ c),
     (h c _ (mem_uc main_arg13 (by decide))).trans (W20_main_arg13 m ρ c),
     (h c _ (mem_uc main_arg14 (by decide))).trans (W20_main_arg14 m ρ c),
     (h c _ (mem_uc main_arg15 (by decide))).trans (W20_main_arg15 m ρ c),
     (h c _ (mem_uc main_arg16 (by decide))).trans (W20_main_arg16 m ρ c),
     (h c _ (mem_uc main_arg17 (by decide))).trans (W20_main_arg17 m ρ c),
     (h c _ (mem_uc main_arg18 (by decide))).trans (W20_main_arg18 m ρ c),
     (h c _ (mem_uc main_arg19 (by decide))).trans (W20_main_arg19 m ρ c),
     (h c _ (mem_uc main_arg20 (by decide))).trans (W20_main_arg20 m ρ c),
     (h c _ (mem_uc main_arg21 (by decide))).trans (W20_main_arg21 m ρ c),
     (h c _ (mem_uc main_arg22 (by decide))).trans (W20_main_arg22 m ρ c),
     (h c _ (mem_uc main_arg23 (by decide))).trans (W20_main_arg23 m ρ c),
     (h c _ (mem_uc main_arg24 (by decide))).trans (W20_main_arg24 m ρ c),
     (h c _ (mem_uc main_arg25 (by decide))).trans (W20_main_arg25 m ρ c),
     (h c _ (mem_uc main_arg26 (by decide))).trans (W20_main_arg26 m ρ c),
     (h c _ (mem_uc main_arg27 (by decide))).trans (W20_main_arg27 m ρ c),
     (h c _ (mem_uc main_arg28 (by decide))).trans (W20_main_arg28 m ρ c)⟩

end Cert.Kernel.Hand

end
-- ==== Proof.ClaimsBits.lean ====
/-
  The word-level kernel's frame: the launch over the program's twenty segments, read at the argument buffers — the
  text of the idealised kernel's frame at the word-level program's own instance.
-/
import proofs.«415492_j738734375128_3_alg».proof.Defs
import proofs.«415492_j738734375128_3_alg».proof.Proof.Gen.Pre_finite_inputs
import proofs.«415492_j738734375128_3_alg».proof.Proof.Bits.Run

noncomputable section

namespace Cert.Proof.Claims

open Idealize.ShloMosaic Idealize.SL.Sem

theorem frame_k : Cert.frame_Kernel := fun m ρ _ => Cert.Kernel.Hand.frame_all m ρ

end Cert.Proof.Claims

end
-- ==== Proof.lean ====
/-
  The certificate: the word-level kernel, its idealisation and the idealised reference each run to the end without a
  fault and leave their argument arrays as launched; the idealisation rewrote nothing; and at the ideal instance the
  kernel program (nine launches among host stretches: four time-mixing and four channel-mixing layers and a tiled
  softmax head) and the reference (plain array operations) compute the same array, entry by entry: the global softmax
  of the logits of the four-layer state of the normalised embedding rows.
-/
import proofs.«415492_j738734375128_3_alg».proof.Defs
import proofs.«415492_j738734375128_3_alg».proof.Proof.Gen.Kernel
import proofs.«415492_j738734375128_3_alg».proof.Proof.Gen.KernelIdeal
import proofs.«415492_j738734375128_3_alg».proof.Proof.Gen.ReferenceIdeal
import proofs.«415492_j738734375128_3_alg».proof.Proof.Gen.Pre_finite_inputs
import proofs.«415492_j738734375128_3_alg».proof.Proof.Claims
import proofs.«415492_j738734375128_3_alg».proof.Proof.ClaimsBits

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
